-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x4096 : Shape := ⟨2, ![512, 4096]⟩
abbrev S4096x2048 : Shape := ⟨2, ![4096, 2048]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S512x4096 .f32) (main_arg1 : FVec F S4096x2048 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Pre_finite_inputs_ReferenceIdeal.lean ====
abbrev S4096x4096 : Shape := ⟨2, ![4096, 4096]⟩
abbrev S4096x2048 : Shape := ⟨2, ![4096, 2048]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x4096 .f32) (main_arg1 : FVec F S4096x2048 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S512x4096 : Shape := ⟨2, ![512, 4096]⟩
abbrev S4096x2048 : Shape := ⟨2, ![4096, 2048]⟩
abbrev S4096x256 : Shape := ⟨2, ![4096, 256]⟩
abbrev S8x4096x256 : Shape := ⟨3, ![8, 4096, 256]⟩
abbrev S8x512x256 : Shape := ⟨3, ![8, 512, 256]⟩
abbrev S4 : Shape := ⟨1, ![4]⟩
abbrev S8 : Shape := ⟨1, ![8]⟩
abbrev S_ : Shape := ⟨0, ![]⟩
abbrev S1 : Shape := ⟨1, ![1]⟩
abbrev S128x4096 : Shape := ⟨2, ![128, 4096]⟩
abbrev S1x2048x256 : Shape := ⟨3, ![1, 2048, 256]⟩
abbrev S2048x256 : Shape := ⟨2, ![2048, 256]⟩
abbrev S1x4096x256 : Shape := ⟨3, ![1, 4096, 256]⟩
abbrev S512x256 : Shape := ⟨2, ![512, 256]⟩
abbrev S1x512x256 : Shape := ⟨3, ![1, 512, 256]⟩

abbrev nBuf : Space → Nat
  | .hbm => 3
  | .vmem => 5
  | .smem => 0
  | _ => 0

abbrev bufTy : (tb : Table) → Fin (tcTables nBuf tb) → BufTy
  | .hbm, ⟨0, _⟩ => ⟨S512x4096, .f32⟩
  | .hbm, ⟨1, _⟩ => ⟨S4096x2048, .f32⟩
  | .hbm, ⟨2, _⟩ => ⟨S4096x256, .f32⟩
  | .local _ .vmem, ⟨0, _⟩ => ⟨S4096x256, .f32⟩
  | .local _ .vmem, ⟨1, _⟩ => ⟨S512x4096, .f32⟩
  | .local _ .vmem, ⟨2, _⟩ => ⟨S8x4096x256, .f32⟩
  | .local _ .vmem, ⟨3, _⟩ => ⟨S8x512x256, .bf16⟩
  | .local _ .vmem, ⟨4, _⟩ => ⟨S8x512x256, .bf16⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_604 : BitVec 32 := 0#32
  let c0_i32_602 : BitVec 32 := 0#32
  let c1_i32_603 : BitVec 32 := 1#32
  let v668 : BitVec 32 := Scalar.muli c0_i32_602 c1_i32_603
  let v669 : BitVec 32 := Scalar.addi c0_i32_604 v668
  v669.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_604 : BitVec 32 := 0#32
  let c1_i32_602 : BitVec 32 := 1#32
  let c1_i32_603 : BitVec 32 := 1#32
  let v668 : BitVec 32 := Scalar.muli c1_i32_602 c1_i32_603
  let v669 : BitVec 32 := Scalar.addi c0_i32_604 v668
  v669.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_604 : BitVec 32 := 0#32
  let c2_i32_602 : BitVec 32 := 2#32
  let c1_i32_603 : BitVec 32 := 1#32
  let v668 : BitVec 32 := Scalar.muli c2_i32_602 c1_i32_603
  let v669 : BitVec 32 := Scalar.addi c0_i32_604 v668
  v669.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_604 : BitVec 32 := 0#32
  let c3_i32_602 : BitVec 32 := 3#32
  let c1_i32_603 : BitVec 32 := 1#32
  let v668 : BitVec 32 := Scalar.muli c3_i32_602 c1_i32_603
  let v669 : BitVec 32 := Scalar.addi c0_i32_604 v668
  v669.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_604 : BitVec 32 := 0#32
  let c4_i32_602 : BitVec 32 := 4#32
  let c1_i32_603 : BitVec 32 := 1#32
  let v668 : BitVec 32 := Scalar.muli c4_i32_602 c1_i32_603
  let v669 : BitVec 32 := Scalar.addi c0_i32_604 v668
  v669.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_604 : BitVec 32 := 0#32
  let c5_i32_602 : BitVec 32 := 5#32
  let c1_i32_603 : BitVec 32 := 1#32
  let v668 : BitVec 32 := Scalar.muli c5_i32_602 c1_i32_603
  let v669 : BitVec 32 := Scalar.addi c0_i32_604 v668
  v669.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_604 : BitVec 32 := 0#32
  let c6_i32_602 : BitVec 32 := 6#32
  let c1_i32_603 : BitVec 32 := 1#32
  let v668 : BitVec 32 := Scalar.muli c6_i32_602 c1_i32_603
  let v669 : BitVec 32 := Scalar.addi c0_i32_604 v668
  v669.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_604 : BitVec 32 := 0#32
  let c7_i32_602 : BitVec 32 := 7#32
  let c1_i32_603 : BitVec 32 := 1#32
  let v668 : BitVec 32 := Scalar.muli c7_i32_602 c1_i32_603
  let v669 : BitVec 32 := Scalar.addi c0_i32_604 v668
  v669.toNat
def k0_off1 (d0 : Dev nD) (c6_i32_27 : BitVec 32) : Fin 2 → Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v44 : BitVec 32 := Scalar.xori v2 c6_i32_27
  let c256_i32_28 : BitVec 32 := 256#32
  let v45 : BitVec 32 := Scalar.muli v44 c256_i32_28
  ![0, v45.toNat]
def k0_off2 (d0 : Dev nD) (c6_i32_34 : BitVec 32) : Fin 2 → Nat :=
  let c2048_i32_39 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v51 : BitVec 32 := Scalar.xori v2 c6_i32_34
  let c256_i32_35 : BitVec 32 := 256#32
  let v52 : BitVec 32 := Scalar.muli v51 c256_i32_35
  ![2048, v52.toNat]
def k0_dev9 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_103 : BitVec 32 := 6#32
  let v117 : BitVec 32 := Scalar.xori v2 c6_i32_103
  let c1_i32_145 : BitVec 32 := 1#32
  let v166 : BitVec 32 := Scalar.muli v117 c1_i32_145
  let v167 : BitVec 32 := Scalar.addi c0_i32_146 v166
  v167.toNat
def k0_dev10 (d0 : Dev nD) : Nat :=
  let c0_i32_194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_151 : BitVec 32 := 2#32
  let v176 : BitVec 32 := Scalar.xori v2 c2_i32_151
  let c1_i32_193 : BitVec 32 := 1#32
  let v225 : BitVec 32 := Scalar.muli v176 c1_i32_193
  let v226 : BitVec 32 := Scalar.addi c0_i32_194 v225
  v226.toNat
def k0_dev11 (d0 : Dev nD) : Nat :=
  let c0_i32_243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_199 : BitVec 32 := 5#32
  let v235 : BitVec 32 := Scalar.xori v2 c5_i32_199
  let c1_i32_242 : BitVec 32 := 1#32
  let v284 : BitVec 32 := Scalar.muli v235 c1_i32_242
  let v285 : BitVec 32 := Scalar.addi c0_i32_243 v284
  v285.toNat
def k0_dev12 (d0 : Dev nD) : Nat :=
  let c0_i32_291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_248 : BitVec 32 := 7#32
  let v294 : BitVec 32 := Scalar.xori v2 c7_i32_248
  let c1_i32_290 : BitVec 32 := 1#32
  let v343 : BitVec 32 := Scalar.muli v294 c1_i32_290
  let v344 : BitVec 32 := Scalar.addi c0_i32_291 v343
  v344.toNat
def k0_dev13 (d0 : Dev nD) : Nat :=
  let c0_i32_326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_296 : BitVec 32 := 1#32
  let v353 : BitVec 32 := Scalar.xori v2 c1_i32_296
  let c1_i32_325 : BitVec 32 := 1#32
  let v388 : BitVec 32 := Scalar.muli v353 c1_i32_325
  let v389 : BitVec 32 := Scalar.addi c0_i32_326 v388
  v389.toNat
def k0_dev14 (d0 : Dev nD) : Nat :=
  let c0_i32_362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_331 : BitVec 32 := 3#32
  let v398 : BitVec 32 := Scalar.xori v2 c3_i32_331
  let c1_i32_361 : BitVec 32 := 1#32
  let v433 : BitVec 32 := Scalar.muli v398 c1_i32_361
  let v434 : BitVec 32 := Scalar.addi c0_i32_362 v433
  v434.toNat
def k0_dev15 (d0 : Dev nD) : Nat :=
  let c0_i32_398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_367 : BitVec 32 := 4#32
  let v443 : BitVec 32 := Scalar.xori v2 c4_i32_367
  let c1_i32_397 : BitVec 32 := 1#32
  let v478 : BitVec 32 := Scalar.muli v443 c1_i32_397
  let v479 : BitVec 32 := Scalar.addi c0_i32_398 v478
  v479.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v518 : BitVec 32 := Scalar.muli v2 c512_i32
  let v519 : Index := Scalar.indexCast v518
  let c0_425 : Index := 0#32
  ![v519.toNat, 0]
def k0_off4 (d0 : Dev nD) (c1_i32_426 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v521 : BitVec 32 := Scalar.xori v2 c1_i32_426
  let c512_i32_440 : BitVec 32 := 512#32
  let v533 : BitVec 32 := Scalar.muli v521 c512_i32_440
  let v534 : Index := Scalar.indexCast v533
  let c0_441 : Index := 0#32
  ![v534.toNat, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  hamt_7 : (7#32 : BitVec 32).msb = false
  inb_S4_S1_0 : ∀ a, (![0] : Fin 1 → Nat) a + S1.size a ≤ S4.size a
  squeezes_S1_S_ : S1.Squeezes S_
  inb_S512x4096_S128x4096_0_0 : ∀ a, (![0, 0] : Fin 2 → Nat) a + S128x4096.size a ≤ S512x4096.size a
  inb_S4_S1_1 : ∀ a, (![1] : Fin 1 → Nat) a + S1.size a ≤ S4.size a
  inb_S512x4096_S128x4096_128_0 : ∀ a, (![128, 0] : Fin 2 → Nat) a + S128x4096.size a ≤ S512x4096.size a
  inb_S4_S1_2 : ∀ a, (![2] : Fin 1 → Nat) a + S1.size a ≤ S4.size a
  inb_S512x4096_S128x4096_256_0 : ∀ a, (![256, 0] : Fin 2 → Nat) a + S128x4096.size a ≤ S512x4096.size a
  inb_S4_S1_3 : ∀ a, (![3] : Fin 1 → Nat) a + S1.size a ≤ S4.size a
  inb_S512x4096_S128x4096_384_0 : ∀ a, (![384, 0] : Fin 2 → Nat) a + S128x4096.size a ≤ S512x4096.size a
  inb_S8_S1_0 : ∀ a, (![0] : Fin 1 → Nat) a + S1.size a ≤ S8.size a
  inb_S8x4096x256_S1x2048x256_0_0_0 : ∀ a, (![0, 0, 0] : Fin 3 → Nat) a + S1x2048x256.size a ≤ S8x4096x256.size a
  squeezes_S1x2048x256_S2048x256 : S1x2048x256.Squeezes S2048x256
  inb_S8_S1_1 : ∀ a, (![1] : Fin 1 → Nat) a + S1.size a ≤ S8.size a
  inb_S8x4096x256_S1x2048x256_0_2048_0 : ∀ a, (![0, 2048, 0] : Fin 3 → Nat) a + S1x2048x256.size a ≤ S8x4096x256.size a
  inb_S8_S1_2 : ∀ a, (![2] : Fin 1 → Nat) a + S1.size a ≤ S8.size a
  inb_S8x4096x256_S1x2048x256_1_0_0 : ∀ a, (![1, 0, 0] : Fin 3 → Nat) a + S1x2048x256.size a ≤ S8x4096x256.size a
  inb_S8_S1_3 : ∀ a, (![3] : Fin 1 → Nat) a + S1.size a ≤ S8.size a
  inb_S8x4096x256_S1x2048x256_1_2048_0 : ∀ a, (![1, 2048, 0] : Fin 3 → Nat) a + S1x2048x256.size a ≤ S8x4096x256.size a
  inb_S8_S1_4 : ∀ a, (![4] : Fin 1 → Nat) a + S1.size a ≤ S8.size a
  inb_S8x4096x256_S1x2048x256_2_0_0 : ∀ a, (![2, 0, 0] : Fin 3 → Nat) a + S1x2048x256.size a ≤ S8x4096x256.size a
  inb_S8_S1_5 : ∀ a, (![5] : Fin 1 → Nat) a + S1.size a ≤ S8.size a
  inb_S8x4096x256_S1x2048x256_2_2048_0 : ∀ a, (![2, 2048, 0] : Fin 3 → Nat) a + S1x2048x256.size a ≤ S8x4096x256.size a
  inb_S8_S1_6 : ∀ a, (![6] : Fin 1 → Nat) a + S1.size a ≤ S8.size a
  inb_S8x4096x256_S1x2048x256_3_0_0 : ∀ a, (![3, 0, 0] : Fin 3 → Nat) a + S1x2048x256.size a ≤ S8x4096x256.size a
  inb_S8_S1_7 : ∀ a, (![7] : Fin 1 → Nat) a + S1.size a ≤ S8.size a
  inb_S8x4096x256_S1x2048x256_3_2048_0 : ∀ a, (![3, 2048, 0] : Fin 3 → Nat) a + S1x2048x256.size a ≤ S8x4096x256.size a
  inb_S512x4096_S512x4096_0_0 : ∀ a, (![0, 0] : Fin 2 → Nat) a + S512x4096.size a ≤ S512x4096.size a
  h_S512x4096 : 0 < S512x4096.numel
  inb_S8x4096x256_S1x2048x256_4_0_0 : ∀ a, (![4, 0, 0] : Fin 3 → Nat) a + S1x2048x256.size a ≤ S8x4096x256.size a
  inb_S8x4096x256_S1x2048x256_4_2048_0 : ∀ a, (![4, 2048, 0] : Fin 3 → Nat) a + S1x2048x256.size a ≤ S8x4096x256.size a
  inb_S8x4096x256_S1x4096x256_0_0_0 : ∀ a, (![0, 0, 0] : Fin 3 → Nat) a + S1x4096x256.size a ≤ S8x4096x256.size a
  h_S1x4096x256 : 0 < S1x4096x256.numel
  shapeCasts_S1x4096x256_S4096x256 : S1x4096x256.ShapeCasts S4096x256
  bitsLt_bf16_f32 : FTy.bits .bf16 < FTy.bits .f32
  inb_S8x512x256_S1x512x256_6_0_0 : ∀ a, (![6, 0, 0] : Fin 3 → Nat) a + S1x512x256.size a ≤ S8x512x256.size a
  h_S1x512x256 : 0 < S1x512x256.numel
  shapeCasts_S1x512x256_S512x256 : S1x512x256.ShapeCasts S512x256
  shapeCasts_S512x256_S1x512x256 : S512x256.ShapeCasts S1x512x256
  packedbf16_S8x512x256_S1x512x256_6_0_0 : (Rect.unit (s := S8x512x256) ![6, 0, 0] S1x512x256.size inb_S8x512x256_S1x512x256_6_0_0).PackedRows (EltTy.packing .bf16)
  squeezes_S1x512x256_S512x256 : S1x512x256.Squeezes S512x256
  wordsbf16_S8x512x256_S1x512x256_6_0_0 : (Rect.unit (s := S8x512x256) ![6, 0, 0] S1x512x256.size inb_S8x512x256_S1x512x256_6_0_0).WholeWords (EltTy.packing .bf16)
  inb_S8x4096x256_S1x2048x256_5_0_0 : ∀ a, (![5, 0, 0] : Fin 3 → Nat) a + S1x2048x256.size a ≤ S8x4096x256.size a
  inb_S8x4096x256_S1x2048x256_5_2048_0 : ∀ a, (![5, 2048, 0] : Fin 3 → Nat) a + S1x2048x256.size a ≤ S8x4096x256.size a
  inb_S8x4096x256_S1x4096x256_1_0_0 : ∀ a, (![1, 0, 0] : Fin 3 → Nat) a + S1x4096x256.size a ≤ S8x4096x256.size a
  inb_S8x512x256_S1x512x256_2_0_0 : ∀ a, (![2, 0, 0] : Fin 3 → Nat) a + S1x512x256.size a ≤ S8x512x256.size a
  packedbf16_S8x512x256_S1x512x256_2_0_0 : (Rect.unit (s := S8x512x256) ![2, 0, 0] S1x512x256.size inb_S8x512x256_S1x512x256_2_0_0).PackedRows (EltTy.packing .bf16)
  wordsbf16_S8x512x256_S1x512x256_2_0_0 : (Rect.unit (s := S8x512x256) ![2, 0, 0] S1x512x256.size inb_S8x512x256_S1x512x256_2_0_0).WholeWords (EltTy.packing .bf16)
  inb_S8x4096x256_S1x2048x256_6_0_0 : ∀ a, (![6, 0, 0] : Fin 3 → Nat) a + S1x2048x256.size a ≤ S8x4096x256.size a
  inb_S8x4096x256_S1x2048x256_6_2048_0 : ∀ a, (![6, 2048, 0] : Fin 3 → Nat) a + S1x2048x256.size a ≤ S8x4096x256.size a
  inb_S8x4096x256_S1x4096x256_2_0_0 : ∀ a, (![2, 0, 0] : Fin 3 → Nat) a + S1x4096x256.size a ≤ S8x4096x256.size a
  inb_S8x512x256_S1x512x256_5_0_0 : ∀ a, (![5, 0, 0] : Fin 3 → Nat) a + S1x512x256.size a ≤ S8x512x256.size a
  packedbf16_S8x512x256_S1x512x256_5_0_0 : (Rect.unit (s := S8x512x256) ![5, 0, 0] S1x512x256.size inb_S8x512x256_S1x512x256_5_0_0).PackedRows (EltTy.packing .bf16)
  wordsbf16_S8x512x256_S1x512x256_5_0_0 : (Rect.unit (s := S8x512x256) ![5, 0, 0] S1x512x256.size inb_S8x512x256_S1x512x256_5_0_0).WholeWords (EltTy.packing .bf16)
  inb_S8x4096x256_S1x2048x256_7_0_0 : ∀ a, (![7, 0, 0] : Fin 3 → Nat) a + S1x2048x256.size a ≤ S8x4096x256.size a
  inb_S8x4096x256_S1x2048x256_7_2048_0 : ∀ a, (![7, 2048, 0] : Fin 3 → Nat) a + S1x2048x256.size a ≤ S8x4096x256.size a
  inb_S8x4096x256_S1x4096x256_3_0_0 : ∀ a, (![3, 0, 0] : Fin 3 → Nat) a + S1x4096x256.size a ≤ S8x4096x256.size a
  inb_S8x512x256_S1x512x256_7_0_0 : ∀ a, (![7, 0, 0] : Fin 3 → Nat) a + S1x512x256.size a ≤ S8x512x256.size a
  packedbf16_S8x512x256_S1x512x256_7_0_0 : (Rect.unit (s := S8x512x256) ![7, 0, 0] S1x512x256.size inb_S8x512x256_S1x512x256_7_0_0).PackedRows (EltTy.packing .bf16)
  wordsbf16_S8x512x256_S1x512x256_7_0_0 : (Rect.unit (s := S8x512x256) ![7, 0, 0] S1x512x256.size inb_S8x512x256_S1x512x256_7_0_0).WholeWords (EltTy.packing .bf16)
  inb_S8x4096x256_S1x4096x256_4_0_0 : ∀ a, (![4, 0, 0] : Fin 3 → Nat) a + S1x4096x256.size a ≤ S8x4096x256.size a
  inb_S8x512x256_S1x512x256_1_0_0 : ∀ a, (![1, 0, 0] : Fin 3 → Nat) a + S1x512x256.size a ≤ S8x512x256.size a
  packedbf16_S8x512x256_S1x512x256_1_0_0 : (Rect.unit (s := S8x512x256) ![1, 0, 0] S1x512x256.size inb_S8x512x256_S1x512x256_1_0_0).PackedRows (EltTy.packing .bf16)
  wordsbf16_S8x512x256_S1x512x256_1_0_0 : (Rect.unit (s := S8x512x256) ![1, 0, 0] S1x512x256.size inb_S8x512x256_S1x512x256_1_0_0).WholeWords (EltTy.packing .bf16)
  inb_S8x4096x256_S1x4096x256_5_0_0 : ∀ a, (![5, 0, 0] : Fin 3 → Nat) a + S1x4096x256.size a ≤ S8x4096x256.size a
  inb_S8x512x256_S1x512x256_3_0_0 : ∀ a, (![3, 0, 0] : Fin 3 → Nat) a + S1x512x256.size a ≤ S8x512x256.size a
  packedbf16_S8x512x256_S1x512x256_3_0_0 : (Rect.unit (s := S8x512x256) ![3, 0, 0] S1x512x256.size inb_S8x512x256_S1x512x256_3_0_0).PackedRows (EltTy.packing .bf16)
  wordsbf16_S8x512x256_S1x512x256_3_0_0 : (Rect.unit (s := S8x512x256) ![3, 0, 0] S1x512x256.size inb_S8x512x256_S1x512x256_3_0_0).WholeWords (EltTy.packing .bf16)
  inb_S8x4096x256_S1x4096x256_6_0_0 : ∀ a, (![6, 0, 0] : Fin 3 → Nat) a + S1x4096x256.size a ≤ S8x4096x256.size a
  inb_S8x512x256_S1x512x256_4_0_0 : ∀ a, (![4, 0, 0] : Fin 3 → Nat) a + S1x512x256.size a ≤ S8x512x256.size a
  packedbf16_S8x512x256_S1x512x256_4_0_0 : (Rect.unit (s := S8x512x256) ![4, 0, 0] S1x512x256.size inb_S8x512x256_S1x512x256_4_0_0).PackedRows (EltTy.packing .bf16)
  wordsbf16_S8x512x256_S1x512x256_4_0_0 : (Rect.unit (s := S8x512x256) ![4, 0, 0] S1x512x256.size inb_S8x512x256_S1x512x256_4_0_0).WholeWords (EltTy.packing .bf16)
  inb_S8x4096x256_S1x4096x256_7_0_0 : ∀ a, (![7, 0, 0] : Fin 3 → Nat) a + S1x4096x256.size a ≤ S8x4096x256.size a
  h_S512x256 : 0 < S512x256.numel
  dot_S512x4096_S4096x256_S512x256_1_0_0_1_n_n_wf : DotDims.WF S512x4096 S4096x256 S512x256 [1] [0] [0] [1] [] []
  hcc0_scratch4 : 1 + S4.numel ≤ 29
  hcc0_scratch5 : 5 + S8.numel ≤ 29
  hcc0_scratch6 : 13 + S8.numel ≤ 29
  hcc0_scratch7 : 21 + S8.numel ≤ 29
  k0_dev1_lt : ∀ d0 : Dev nD, ∀ (k0_h1 : k0_cond1 d0 = 1#1), k0_dev1 < nD
  k0_dev2_lt : ∀ d0 : Dev nD, ∀ (k0_h2 : k0_cond2 d0 = 1#1), k0_dev2 < nD
  k0_dev3_lt : ∀ d0 : Dev nD, ∀ (k0_h3 : k0_cond3 d0 = 1#1), k0_dev3 < nD
  k0_dev4_lt : ∀ d0 : Dev nD, ∀ (k0_h4 : k0_cond4 d0 = 1#1), k0_dev4 < nD
  k0_dev5_lt : ∀ d0 : Dev nD, ∀ (k0_h5 : k0_cond5 d0 = 1#1), k0_dev5 < nD
  k0_dev6_lt : ∀ d0 : Dev nD, ∀ (k0_h6 : k0_cond6 d0 = 1#1), k0_dev6 < nD
  k0_dev7_lt : ∀ d0 : Dev nD, ∀ (k0_h7 : k0_cond7 d0 = 1#1), k0_dev7 < nD
  k0_dev8_lt : ∀ d0 : Dev nD, ∀ (k0_h8 : k0_cond8 d0 = 1#1), k0_dev8 < nD
  k0_off1_inb : ∀ d0 : Dev nD, ∀ (r : Fin 8), ∀ a, (k0_off1 d0 (BitVec.ofNat 32 r.val)) a + S2048x256.size a ≤ S4096x2048.size a
  k0_off2_inb : ∀ d0 : Dev nD, ∀ (r : Fin 8), ∀ a, (k0_off2 d0 (BitVec.ofNat 32 r.val)) a + S2048x256.size a ≤ S4096x2048.size a
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off3_inb : ∀ d0 : Dev nD, ∀ a, (k0_off3 d0) a + S512x256.size a ≤ S4096x256.size a
  k0_off4_inb : ∀ d0 : Dev nD, ∀ (r : Fin 7), ∀ a, (k0_off4 d0 (BitVec.ofNat 32 (1 + r.val))) a + S512x256.size a ≤ S4096x256.size a
  hstage0_0 : ∀ j, (stage0_0 j).IsWhole

variable [Facts₀]

abbrev cc0_scratch4 : DmaSems sig S4 := SemArray.consecutive 1 S4 hcc0_scratch4
abbrev cc0_scratch5 : DmaSems sig S8 := SemArray.consecutive 5 S8 hcc0_scratch5
abbrev cc0_scratch6 : DmaSems sig S8 := SemArray.consecutive 13 S8 hcc0_scratch6
abbrev cc0_scratch7 : DmaSems sig S8 := SemArray.consecutive 21 S8 hcc0_scratch7
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts₀]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf

class Facts : Prop extends Facts₀ where

variable [Facts]
-- ==== Proof.Peer.lean ====
/-
  The exchange partner. The eight devices are numbered 0..7; at the step with mask t a device exchanges a tile with the
  device whose number differs from its own exactly in the bits of t (bitwise exclusive or). For a fixed mask this pairing
  is an involution, and for a fixed device the seven nonzero masks reach the seven other devices once each.
-/
import proofs.«900796_g7700000000000797_dist_gemm_a2a_m4096_k4096_n2048_f32_gelu_v7x_i8_1_alg».proof.KernelIdeal

namespace Cert.KernelIdeal.A2A

open Idealize.ShloMosaic Cert.KernelIdeal

/-- The partner of device `c` at mask `t`: the device numbered `c xor t`. -/
def px (c : Dev nD) (t : Fin 8) : Dev nD :=
  ⟨c.val ^^^ t.val, by have h1 := c.isLt; have h2 := t.isLt; exact Nat.xor_lt_two_pow (n := 3) h1 h2⟩

end Cert.KernelIdeal.A2A
-- ==== Proof.Cells.lean ====
/-
  The exchange protocol of the eight devices, as data: which semaphore cells there are, who pays which, with how much, and
  what each payment hands the cell's owner.

  Every device c owns fifteen cells. Its barrier cell is paid one unit by each of the seven other devices; the unit paid by
  the device p = c xor t hands c the right to write slot t of p's receive buffer (p is inside the kernel, and will read that
  slot only after its own receive cell for t is paid). Its send cell t (t = 1..7) is paid by c's own copy of slot t of its
  send buffer, once the slot has been read, and hands the slot back. Its receive cell t is paid by the copy issued by
  c xor t, once slot t of c's receive buffer has been written, and hands c that slot holding the tile that device computed
  for c's column block. A device waits on its barrier cell while it still owes the seven copies, and on a receive cell
  while it owes nothing: barrier cells sit below receive cells, so no wait is below a debt.
-/
import proofs.«900796_g7700000000000797_dist_gemm_a2a_m4096_k4096_n2048_f32_gelu_v7x_i8_1_alg».proof.Proof.Gen.KernelIdeal
import proofs.«900796_g7700000000000797_dist_gemm_a2a_m4096_k4096_n2048_f32_gelu_v7x_i8_1_alg».proof.Proof.Gen.KernelIdeal.Skeleton
import proofs.«900796_g7700000000000797_dist_gemm_a2a_m4096_k4096_n2048_f32_gelu_v7x_i8_1_alg».proof.Proof.Gen.KernelIdeal.Launch
import proofs.«900796_g7700000000000797_dist_gemm_a2a_m4096_k4096_n2048_f32_gelu_v7x_i8_1_alg».proof.Proof.Gen.KernelIdeal.Points
import proofs.«900796_g7700000000000797_dist_gemm_a2a_m4096_k4096_n2048_f32_gelu_v7x_i8_1_alg».proof.Proof.Peer
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the exchange's (duties named by a mask), and the local copies' counters -/

abbrev UB : Type := URounds (GSem nD τ sig) (Fin 8)
/-- The third component counts the device's own local copies in flight. -/
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds copy: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ) (ρ : Dev nD → PrngReg)

/-- The memory at launch: arbitrary contents, every semaphore counter zero, arbitrary generator registers. -/
def st0 : MemSt nD τ sig (Elt F) := ⟨m, fun _ => 0, ρ⟩

/-! ## The memrefs -/

abbrev xA : Memref sig .tc .hbm S512x4096 .f32 := Memref.whole main_arg0
abbrev wA : Memref sig .tc .hbm S4096x2048 .f32 := Memref.whole main_arg1
abbrev outM : Memref sig .tc .vmem S4096x256 .f32 := Memref.whole cc0_stg0_0
abbrev xbM : Memref sig .tc .vmem S512x4096 .f32 := Memref.whole cc0_scratch0
abbrev wbM : Memref sig .tc .vmem S8x4096x256 .f32 := Memref.whole cc0_scratch1
abbrev sbM : Memref sig .tc .vmem S8x512x256 .bf16 := Memref.whole cc0_scratch2
abbrev rbM : Memref sig .tc .vmem S8x512x256 .bf16 := Memref.whole cc0_scratch3

/-- Slot `t` of the send buffer, as the copies name it: the slice at row-block `t`, its unit axis dropped. -/
abbrev sM : Fin 8 → Memref sig .tc .vmem S512x256 .bf16
  | ⟨0, _⟩ => ((Memref.whole cc0_scratch2 : Memref sig .tc .vmem S8x512x256 .bf16).slice (Rect.unit (s := S8x512x256) ![0, 0, 0] S1x512x256.size (by decide)) (fun _ => rfl)).squeeze S512x256 squeezes_S1x512x256_S512x256
  | ⟨1, _⟩ => ((Memref.whole cc0_scratch2 : Memref sig .tc .vmem S8x512x256 .bf16).slice (Rect.unit (s := S8x512x256) ![1, 0, 0] S1x512x256.size inb_S8x512x256_S1x512x256_1_0_0) (fun _ => rfl)).squeeze S512x256 squeezes_S1x512x256_S512x256
  | ⟨2, _⟩ => ((Memref.whole cc0_scratch2 : Memref sig .tc .vmem S8x512x256 .bf16).slice (Rect.unit (s := S8x512x256) ![2, 0, 0] S1x512x256.size inb_S8x512x256_S1x512x256_2_0_0) (fun _ => rfl)).squeeze S512x256 squeezes_S1x512x256_S512x256
  | ⟨3, _⟩ => ((Memref.whole cc0_scratch2 : Memref sig .tc .vmem S8x512x256 .bf16).slice (Rect.unit (s := S8x512x256) ![3, 0, 0] S1x512x256.size inb_S8x512x256_S1x512x256_3_0_0) (fun _ => rfl)).squeeze S512x256 squeezes_S1x512x256_S512x256
  | ⟨4, _⟩ => ((Memref.whole cc0_scratch2 : Memref sig .tc .vmem S8x512x256 .bf16).slice (Rect.unit (s := S8x512x256) ![4, 0, 0] S1x512x256.size inb_S8x512x256_S1x512x256_4_0_0) (fun _ => rfl)).squeeze S512x256 squeezes_S1x512x256_S512x256
  | ⟨5, _⟩ => ((Memref.whole cc0_scratch2 : Memref sig .tc .vmem S8x512x256 .bf16).slice (Rect.unit (s := S8x512x256) ![5, 0, 0] S1x512x256.size inb_S8x512x256_S1x512x256_5_0_0) (fun _ => rfl)).squeeze S512x256 squeezes_S1x512x256_S512x256
  | ⟨6, _⟩ => ((Memref.whole cc0_scratch2 : Memref sig .tc .vmem S8x512x256 .bf16).slice (Rect.unit (s := S8x512x256) ![6, 0, 0] S1x512x256.size inb_S8x512x256_S1x512x256_6_0_0) (fun _ => rfl)).squeeze S512x256 squeezes_S1x512x256_S512x256
  | ⟨7, _⟩ => ((Memref.whole cc0_scratch2 : Memref sig .tc .vmem S8x512x256 .bf16).slice (Rect.unit (s := S8x512x256) ![7, 0, 0] S1x512x256.size inb_S8x512x256_S1x512x256_7_0_0) (fun _ => rfl)).squeeze S512x256 squeezes_S1x512x256_S512x256
  | ⟨_ + 8, h⟩ => absurd h (by omega)
/-- Slot `t` of the receive buffer. -/
abbrev rM : Fin 8 → Memref sig .tc .vmem S512x256 .bf16
  | ⟨0, _⟩ => ((Memref.whole cc0_scratch3 : Memref sig .tc .vmem S8x512x256 .bf16).slice (Rect.unit (s := S8x512x256) ![0, 0, 0] S1x512x256.size (by decide)) (fun _ => rfl)).squeeze S512x256 squeezes_S1x512x256_S512x256
  | ⟨1, _⟩ => ((Memref.whole cc0_scratch3 : Memref sig .tc .vmem S8x512x256 .bf16).slice (Rect.unit (s := S8x512x256) ![1, 0, 0] S1x512x256.size inb_S8x512x256_S1x512x256_1_0_0) (fun _ => rfl)).squeeze S512x256 squeezes_S1x512x256_S512x256
  | ⟨2, _⟩ => ((Memref.whole cc0_scratch3 : Memref sig .tc .vmem S8x512x256 .bf16).slice (Rect.unit (s := S8x512x256) ![2, 0, 0] S1x512x256.size inb_S8x512x256_S1x512x256_2_0_0) (fun _ => rfl)).squeeze S512x256 squeezes_S1x512x256_S512x256
  | ⟨3, _⟩ => ((Memref.whole cc0_scratch3 : Memref sig .tc .vmem S8x512x256 .bf16).slice (Rect.unit (s := S8x512x256) ![3, 0, 0] S1x512x256.size inb_S8x512x256_S1x512x256_3_0_0) (fun _ => rfl)).squeeze S512x256 squeezes_S1x512x256_S512x256
  | ⟨4, _⟩ => ((Memref.whole cc0_scratch3 : Memref sig .tc .vmem S8x512x256 .bf16).slice (Rect.unit (s := S8x512x256) ![4, 0, 0] S1x512x256.size inb_S8x512x256_S1x512x256_4_0_0) (fun _ => rfl)).squeeze S512x256 squeezes_S1x512x256_S512x256
  | ⟨5, _⟩ => ((Memref.whole cc0_scratch3 : Memref sig .tc .vmem S8x512x256 .bf16).slice (Rect.unit (s := S8x512x256) ![5, 0, 0] S1x512x256.size inb_S8x512x256_S1x512x256_5_0_0) (fun _ => rfl)).squeeze S512x256 squeezes_S1x512x256_S512x256
  | ⟨6, _⟩ => ((Memref.whole cc0_scratch3 : Memref sig .tc .vmem S8x512x256 .bf16).slice (Rect.unit (s := S8x512x256) ![6, 0, 0] S1x512x256.size inb_S8x512x256_S1x512x256_6_0_0) (fun _ => rfl)).squeeze S512x256 squeezes_S1x512x256_S512x256
  | ⟨7, _⟩ => ((Memref.whole cc0_scratch3 : Memref sig .tc .vmem S8x512x256 .bf16).slice (Rect.unit (s := S8x512x256) ![7, 0, 0] S1x512x256.size inb_S8x512x256_S1x512x256_7_0_0) (fun _ => rfl)).squeeze S512x256 squeezes_S1x512x256_S512x256
  | ⟨_ + 8, h⟩ => absurd h (by omega)

/-- The runtime's barrier semaphore (not scoped to the launch); the send and receive semaphores of slot `t` (scoped scratch). -/
abbrev barS : Sem sig := (SemArray.scalar (sig.barrier 0 rfl) : Sems sig S_).sem
abbrev sendSA : Fin 8 → DmaSems sig S_
  | ⟨0, _⟩ => (cc0_scratch6.slice (Rect.unit (s := S8) ![0] S1.size inb_S8_S1_0)).squeeze S_ squeezes_S1_S_
  | ⟨1, _⟩ => (cc0_scratch6.slice (Rect.unit (s := S8) ![1] S1.size inb_S8_S1_1)).squeeze S_ squeezes_S1_S_
  | ⟨2, _⟩ => (cc0_scratch6.slice (Rect.unit (s := S8) ![2] S1.size inb_S8_S1_2)).squeeze S_ squeezes_S1_S_
  | ⟨3, _⟩ => (cc0_scratch6.slice (Rect.unit (s := S8) ![3] S1.size inb_S8_S1_3)).squeeze S_ squeezes_S1_S_
  | ⟨4, _⟩ => (cc0_scratch6.slice (Rect.unit (s := S8) ![4] S1.size inb_S8_S1_4)).squeeze S_ squeezes_S1_S_
  | ⟨5, _⟩ => (cc0_scratch6.slice (Rect.unit (s := S8) ![5] S1.size inb_S8_S1_5)).squeeze S_ squeezes_S1_S_
  | ⟨6, _⟩ => (cc0_scratch6.slice (Rect.unit (s := S8) ![6] S1.size inb_S8_S1_6)).squeeze S_ squeezes_S1_S_
  | ⟨7, _⟩ => (cc0_scratch6.slice (Rect.unit (s := S8) ![7] S1.size inb_S8_S1_7)).squeeze S_ squeezes_S1_S_
  | ⟨_ + 8, h⟩ => absurd h (by omega)
abbrev recvSA : Fin 8 → DmaSems sig S_
  | ⟨0, _⟩ => (cc0_scratch7.slice (Rect.unit (s := S8) ![0] S1.size inb_S8_S1_0)).squeeze S_ squeezes_S1_S_
  | ⟨1, _⟩ => (cc0_scratch7.slice (Rect.unit (s := S8) ![1] S1.size inb_S8_S1_1)).squeeze S_ squeezes_S1_S_
  | ⟨2, _⟩ => (cc0_scratch7.slice (Rect.unit (s := S8) ![2] S1.size inb_S8_S1_2)).squeeze S_ squeezes_S1_S_
  | ⟨3, _⟩ => (cc0_scratch7.slice (Rect.unit (s := S8) ![3] S1.size inb_S8_S1_3)).squeeze S_ squeezes_S1_S_
  | ⟨4, _⟩ => (cc0_scratch7.slice (Rect.unit (s := S8) ![4] S1.size inb_S8_S1_4)).squeeze S_ squeezes_S1_S_
  | ⟨5, _⟩ => (cc0_scratch7.slice (Rect.unit (s := S8) ![5] S1.size inb_S8_S1_5)).squeeze S_ squeezes_S1_S_
  | ⟨6, _⟩ => (cc0_scratch7.slice (Rect.unit (s := S8) ![6] S1.size inb_S8_S1_6)).squeeze S_ squeezes_S1_S_
  | ⟨7, _⟩ => (cc0_scratch7.slice (Rect.unit (s := S8) ![7] S1.size inb_S8_S1_7)).squeeze S_ squeezes_S1_S_
  | ⟨_ + 8, h⟩ => absurd h (by omega)

abbrev barCell (c : Dev nD) : GSem nD τ sig := ((c : Thread nD τ), .reg barS)
abbrev sendCell (c : Dev nD) (t : Fin 8) : GSem nD τ sig := ((c : Thread nD τ), .dma (sendSA t).sem)
abbrev recvCell (c : Dev nD) (t : Fin 8) : GSem nD τ sig := ((c : Thread nD τ), .dma (recvSA t).sem)

/-- The units one slot copy credits: the same for every slot and either end. -/
abbrev NS : ℕ := (rM 1 : Memref sig .tc .vmem S512x256 .bf16).view.dmaCredit

end Cert.KernelIdeal.A2A

end
-- ==== Proof.Vals.lean ====
/-
  What the buffers hold, as functions of the launch memory.

  Device c holds rows 512c.. of x (its block, 512 × 4096) and a full copy of w (4096 × 2048). The tile it computes for the
  column block of device p is gelu of its block of x against columns 256p.. of w: 512 × 256. It keeps the tile for its
  own column block at full width; the seven others it narrows to 16 bits and sends. Slot t of its send buffer holds the
  tile for p = c xor t; slot t of its receive buffer ends holding the tile that c xor t computed for c.
-/
import proofs.«900796_g7700000000000797_dist_gemm_a2a_m4096_k4096_n2048_f32_gelu_v7x_i8_1_alg».proof.Proof.Cells
import Idealize.ShloMosaic.Lib.ValueIdx

noncomputable section

namespace Cert.KernelIdeal.A2A

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

/-- Device `c`'s block of x, as launched. -/
def xV (c : Dev nD) : Vec F S512x4096 .f32 := m ((c : Thread nD τ).loc main_arg0)
/-- Device `c`'s copy of w, as launched. -/
def wV (c : Dev nD) : Vec F S4096x2048 .f32 := m ((c : Thread nD τ).loc main_arg1)

/-- The 256 columns of device `c`'s w that belong to device `p`, laid out as one slot of the weight buffer. -/
def wSlot (c p : Dev nD) : Vec F S1x4096x256 .f32 := fun i =>
  wV m c (ix2 (n0 := 4096) (n1 := 2048) (i 1)
    ⟨256 * p.val + (i 2).val, by have h2 : (i 2).val < 256 := (i 2).isLt; have hp : p.val < 8 := p.isLt; omega⟩)

/-- The tile device `c` computes for the column block of device `p`, narrowed to 16 bits: what it sends. -/
def tileB (c p : Dev nD) : FVec F S1x512x256 .bf16 := k0_pay1 (xV m c) (wSlot m c p)

/-- The tile device `c` computes for its own column block, at full width: what it keeps. -/
def tileF (c : Dev nD) : FVec F S512x256 .f32 :=
  k0_pay12 (k0_pay9 (xV m c) (wSlot m c c)) (k0_pay10 (xV m c) (wSlot m c c)) (k0_pay11 (xV m c) (wSlot m c c))

/-- Device `c`'s send buffer: slot `t` holds the tile for device `c xor t`. (A function on the whole buffer; slot 0 is never sent.) -/
def sendV (c : Dev nD) : Buf (Elt F) ((c : Thread nD τ).loc cc0_scratch2) := fun i =>
  tileB m c (px c (i 0)) (ix3 (n0 := 1) (n1 := 512) (n2 := 256) 0 (i 1) (i 2))

/-- Device `c`'s receive buffer once every slot has landed: slot `t` holds the tile device `c xor t` computed for `c`. -/
def recvV (c : Dev nD) : Buf (Elt F) ((c : Thread nD τ).loc cc0_scratch3) := fun i =>
  tileB m (px c (i 0)) c (ix3 (n0 := 1) (n1 := 512) (n2 := 256) 0 (i 1) (i 2))

/-- Slot `t` of the receive buffer as the vector a load of it returns. -/
def recvSlot (c : Dev nD) (t : Fin 8) : Vec F S1x512x256 .bf16 := fun j =>
  recvV m c (ix3 (n0 := 8) (n1 := 512) (n2 := 256) t (j 1) (j 2))

/-- Device `c`'s result block (4096 × 256: all rows, its 256 columns) when the kernel ends: row block `c` is the tile it
    kept; row block `b ≠ c` is the tile device `b` sent it, widened back. -/
def outV (c : Dev nD) : Buf (Elt F) ((c : Thread nD τ).loc cc0_stg0_0) := fun i =>
  let b : Fin 8 := ⟨(i 0).val / 512, by have h : (i 0).val < 4096 := (i 0).isLt; omega⟩
  let r : Fin 512 := ⟨(i 0).val % 512, Nat.mod_lt _ (by decide)⟩
  if b.val = c.val then tileF m c (ix2 (n0 := 512) (n1 := 256) r (i 1))
  else k0_pay13 (recvSlot m c ⟨b.val ^^^ c.val, by have h1 := b.isLt; have h2 : c.val < 8 := c.isLt; exact Nat.xor_lt_two_pow (n := 3) h1 h2⟩) (ix2 (n0 := 512) (n1 := 256) r (i 1))

end Cert.KernelIdeal.A2A

end
-- ==== Proof.DevEq.lean ====
/-
  Closed forms of the integer chains the kernel's body computes from its own device id: the
  addressed devices, the branch conditions of the entry handshake, and the slice offsets.

  On a mesh of eight devices the kernel pairs device `c` with device `c XOR t` at mask `t`.
  XOR with a fixed mask is an involution of `{0, …, 7}`, so for each mask the pairing is a perfect
  matching of the devices (the identity at mask 0), and for each device the map `t ↦ c XOR t` is a
  bijection of the masks onto the devices, with inverse `d ↦ c XOR d`. Every statement here is a
  finite check over the eight devices (and the eight masks).
-/
import proofs.«900796_g7700000000000797_dist_gemm_a2a_m4096_k4096_n2048_f32_gelu_v7x_i8_1_alg».proof.Proof.Gen.KernelIdeal
import proofs.«900796_g7700000000000797_dist_gemm_a2a_m4096_k4096_n2048_f32_gelu_v7x_i8_1_alg».proof.Proof.Peer
import Idealize.ShloMosaic.Lib.Tactic
import Mathlib.Logic.Equiv.Defs

set_option Elab.async false

namespace Cert.KernelIdeal.A2A

open Cert.KernelIdeal Cert.KernelIdeal.Gen Idealize.ShloMosaic

/-! ## The peer of a device at a mask -/

/- The peer `px c t` of device `c` at mask `t` (the device whose id is `c XOR t`) is defined in the
   module imported above; its value is the XOR of the two numbers. -/

@[simp] theorem px_val (c : Dev nD) (t : Fin 8) : (px c t).val = c.val ^^^ t.val := rfl

/-- The mask that takes device `c` to device `d`: `c XOR d`. -/
def tOf (c d : Dev nD) : Fin 8 :=
  ⟨c.val ^^^ d.val, Nat.xor_lt_two_pow (n := 3) c.isLt d.isLt⟩

@[simp] theorem tOf_val (c d : Dev nD) : (tOf c d).val = c.val ^^^ d.val := rfl

/-- XOR with a mask is an involution. -/
theorem px_px (c : Dev nD) (t : Fin 8) : px (px c t) t = c := by
  revert c t; decide +kernel

/-- Mask 0 pairs a device with itself. -/
theorem px_zero (c : Dev nD) : px c 0 = c := by
  revert c; decide +kernel

/-- A nonzero mask moves every device. -/
theorem px_ne (c : Dev nD) (t : Fin 8) (ht : t ≠ 0) : px c t ≠ c := by
  revert c t; decide +kernel

/-- `c XOR (c XOR d) = d`. -/
theorem px_tOf (c d : Dev nD) : px c (tOf c d) = d := by
  revert c d; decide +kernel

/-- `c XOR (c XOR t) = t`. -/
theorem tOf_px (c : Dev nD) (t : Fin 8) : tOf c (px c t) = t := by
  revert c t; decide +kernel

/-- The mask between two devices is 0 exactly when they are the same device. -/
theorem tOf_eq_zero (c d : Dev nD) : tOf c d = 0 ↔ c = d := by
  revert c d; decide +kernel

/-- For a fixed device, distinct masks give distinct peers: the mask is recovered from the peer. -/
theorem px_inj (c : Dev nD) : Function.Injective (px c) := by
  intro a b h
  rw [← tOf_px c a, h, tOf_px]

/-- The pairing at a mask is symmetric: `d` is `c`'s peer exactly when `c` is `d`'s. -/
theorem px_eq_iff (c d : Dev nD) (t : Fin 8) : px c t = d ↔ px d t = c := by
  constructor
  · intro h; rw [← h, px_px]
  · intro h; rw [← h, px_px]

/-- The pairing at a mask, as a permutation of the devices; it is its own inverse. -/
def pxEquiv (t : Fin 8) : Dev nD ≃ Dev nD where
  toFun := fun c => px c t
  invFun := fun c => px c t
  left_inv := fun c => px_px c t
  right_inv := fun c => px_px c t

@[simp] theorem pxEquiv_apply (t : Fin 8) (c : Dev nD) : pxEquiv t c = px c t := rfl
@[simp] theorem pxEquiv_symm_apply (t : Fin 8) (c : Dev nD) : (pxEquiv t).symm c = px c t := rfl

/-! ## The devices the remote copies address

The seven remote copies are addressed, in program order, at the masks 6, 2, 5, 7, 1, 3, 4: each
chain computes `((c / 1) % 8 XOR t) * 1 + 0` over 32-bit words, which is `c XOR t`. -/

@[sl_canon] theorem dev9_eq (c : Dev nD) : (⟨k0_dev9 c, k0_dev9_lt c⟩ : Dev nD) = px c 6 := by
  revert c; decide +kernel
@[sl_canon] theorem dev10_eq (c : Dev nD) : (⟨k0_dev10 c, k0_dev10_lt c⟩ : Dev nD) = px c 2 := by
  revert c; decide +kernel
@[sl_canon] theorem dev11_eq (c : Dev nD) : (⟨k0_dev11 c, k0_dev11_lt c⟩ : Dev nD) = px c 5 := by
  revert c; decide +kernel
@[sl_canon] theorem dev12_eq (c : Dev nD) : (⟨k0_dev12 c, k0_dev12_lt c⟩ : Dev nD) = px c 7 := by
  revert c; decide +kernel
@[sl_canon] theorem dev13_eq (c : Dev nD) : (⟨k0_dev13 c, k0_dev13_lt c⟩ : Dev nD) = px c 1 := by
  revert c; decide +kernel
@[sl_canon] theorem dev14_eq (c : Dev nD) : (⟨k0_dev14 c, k0_dev14_lt c⟩ : Dev nD) = px c 3 := by
  revert c; decide +kernel
@[sl_canon] theorem dev15_eq (c : Dev nD) : (⟨k0_dev15 c, k0_dev15_lt c⟩ : Dev nD) = px c 4 := by
  revert c; decide +kernel

/-! ## The branch conditions of the entry handshake

The `p`-th condition (`p = 1, …, 8`) compares the device id with `p - 1` for inequality: it holds on
every device but device `p - 1`. -/

theorem cond1_iff (c : Dev nD) : k0_cond1 c = 1#1 ↔ c ≠ 0 := by
  revert c; decide +kernel
theorem cond1_pos (c : Dev nD) (h : c ≠ 0) : k0_cond1 c = 1#1 := (cond1_iff c).2 h
theorem cond1_neg : k0_cond1 (0 : Dev nD) ≠ 1#1 := by decide +kernel
theorem cond2_iff (c : Dev nD) : k0_cond2 c = 1#1 ↔ c ≠ 1 := by
  revert c; decide +kernel
theorem cond2_pos (c : Dev nD) (h : c ≠ 1) : k0_cond2 c = 1#1 := (cond2_iff c).2 h
theorem cond2_neg : k0_cond2 (1 : Dev nD) ≠ 1#1 := by decide +kernel
theorem cond3_iff (c : Dev nD) : k0_cond3 c = 1#1 ↔ c ≠ 2 := by
  revert c; decide +kernel
theorem cond3_pos (c : Dev nD) (h : c ≠ 2) : k0_cond3 c = 1#1 := (cond3_iff c).2 h
theorem cond3_neg : k0_cond3 (2 : Dev nD) ≠ 1#1 := by decide +kernel
theorem cond4_iff (c : Dev nD) : k0_cond4 c = 1#1 ↔ c ≠ 3 := by
  revert c; decide +kernel
theorem cond4_pos (c : Dev nD) (h : c ≠ 3) : k0_cond4 c = 1#1 := (cond4_iff c).2 h
theorem cond4_neg : k0_cond4 (3 : Dev nD) ≠ 1#1 := by decide +kernel
theorem cond5_iff (c : Dev nD) : k0_cond5 c = 1#1 ↔ c ≠ 4 := by
  revert c; decide +kernel
theorem cond5_pos (c : Dev nD) (h : c ≠ 4) : k0_cond5 c = 1#1 := (cond5_iff c).2 h
theorem cond5_neg : k0_cond5 (4 : Dev nD) ≠ 1#1 := by decide +kernel
theorem cond6_iff (c : Dev nD) : k0_cond6 c = 1#1 ↔ c ≠ 5 := by
  revert c; decide +kernel
theorem cond6_pos (c : Dev nD) (h : c ≠ 5) : k0_cond6 c = 1#1 := (cond6_iff c).2 h
theorem cond6_neg : k0_cond6 (5 : Dev nD) ≠ 1#1 := by decide +kernel
theorem cond7_iff (c : Dev nD) : k0_cond7 c = 1#1 ↔ c ≠ 6 := by
  revert c; decide +kernel
theorem cond7_pos (c : Dev nD) (h : c ≠ 6) : k0_cond7 c = 1#1 := (cond7_iff c).2 h
theorem cond7_neg : k0_cond7 (6 : Dev nD) ≠ 1#1 := by decide +kernel
theorem cond8_iff (c : Dev nD) : k0_cond8 c = 1#1 ↔ c ≠ 7 := by
  revert c; decide +kernel
theorem cond8_pos (c : Dev nD) (h : c ≠ 7) : k0_cond8 c = 1#1 := (cond8_iff c).2 h
theorem cond8_neg : k0_cond8 (7 : Dev nD) ≠ 1#1 := by decide +kernel

/-! ## The devices the entry handshake signals

Under its condition the `p`-th signal addresses the constant device `p - 1` (the chain is
`(p - 1) * 1 + 0`). -/

@[sl_canon] theorem dev1_eq (c : Dev nD) (h : k0_cond1 c = 1#1) :
    (⟨k0_dev1, k0_dev1_lt c h⟩ : Dev nD) = 0 :=
  Fin.ext (by show k0_dev1 = 0; exact k0_dev1_eq)
@[sl_canon] theorem dev2_eq (c : Dev nD) (h : k0_cond2 c = 1#1) :
    (⟨k0_dev2, k0_dev2_lt c h⟩ : Dev nD) = 1 :=
  Fin.ext (by show k0_dev2 = 1; exact k0_dev2_eq)
@[sl_canon] theorem dev3_eq (c : Dev nD) (h : k0_cond3 c = 1#1) :
    (⟨k0_dev3, k0_dev3_lt c h⟩ : Dev nD) = 2 :=
  Fin.ext (by show k0_dev3 = 2; exact k0_dev3_eq)
@[sl_canon] theorem dev4_eq (c : Dev nD) (h : k0_cond4 c = 1#1) :
    (⟨k0_dev4, k0_dev4_lt c h⟩ : Dev nD) = 3 :=
  Fin.ext (by show k0_dev4 = 3; exact k0_dev4_eq)
@[sl_canon] theorem dev5_eq (c : Dev nD) (h : k0_cond5 c = 1#1) :
    (⟨k0_dev5, k0_dev5_lt c h⟩ : Dev nD) = 4 :=
  Fin.ext (by show k0_dev5 = 4; exact k0_dev5_eq)
@[sl_canon] theorem dev6_eq (c : Dev nD) (h : k0_cond6 c = 1#1) :
    (⟨k0_dev6, k0_dev6_lt c h⟩ : Dev nD) = 5 :=
  Fin.ext (by show k0_dev6 = 5; exact k0_dev6_eq)
@[sl_canon] theorem dev7_eq (c : Dev nD) (h : k0_cond7 c = 1#1) :
    (⟨k0_dev7, k0_dev7_lt c h⟩ : Dev nD) = 6 :=
  Fin.ext (by show k0_dev7 = 6; exact k0_dev7_eq)
@[sl_canon] theorem dev8_eq (c : Dev nD) (h : k0_cond8 c = 1#1) :
    (⟨k0_dev8, k0_dev8_lt c h⟩ : Dev nD) = 7 :=
  Fin.ext (by show k0_dev8 = 7; exact k0_dev8_eq)

/-! ## The slice offsets

`k0_off3`: the device's own row block of the result, rows `512 * c`. `k0_off4` at the word `t`: the
row block of the peer at mask `t`, rows `512 * (c XOR t)`. `k0_off1` and `k0_off2` at the word `r`: the
column block `256 * (c XOR r)` of the weight, its upper half of the rows (from row 0) and its lower
half (from row 2048). -/

theorem off3_eq' (c : Dev nD) : k0_off3 c = ![512 * c.val, 0] := k0_off3_eq c

theorem off4_eq (c : Dev nD) (t : Fin 7) :
    k0_off4 c (BitVec.ofNat 32 (1 + t.val)) = ![512 * (px c ⟨1 + t.val, by omega⟩).val, 0] := by
  revert c t; decide +kernel

theorem off4_eq_1 (c : Dev nD) : k0_off4 c 1#32 = ![512 * (px c 1).val, 0] := by
  revert c; decide +kernel
theorem off4_eq_2 (c : Dev nD) : k0_off4 c 2#32 = ![512 * (px c 2).val, 0] := by
  revert c; decide +kernel
theorem off4_eq_3 (c : Dev nD) : k0_off4 c 3#32 = ![512 * (px c 3).val, 0] := by
  revert c; decide +kernel
theorem off4_eq_4 (c : Dev nD) : k0_off4 c 4#32 = ![512 * (px c 4).val, 0] := by
  revert c; decide +kernel
theorem off4_eq_5 (c : Dev nD) : k0_off4 c 5#32 = ![512 * (px c 5).val, 0] := by
  revert c; decide +kernel
theorem off4_eq_6 (c : Dev nD) : k0_off4 c 6#32 = ![512 * (px c 6).val, 0] := by
  revert c; decide +kernel
theorem off4_eq_7 (c : Dev nD) : k0_off4 c 7#32 = ![512 * (px c 7).val, 0] := by
  revert c; decide +kernel

theorem off1_eq (c : Dev nD) (r : Fin 8) :
    k0_off1 c (BitVec.ofNat 32 r.val) = ![0, 256 * (px c r).val] := by
  revert c r; decide +kernel

theorem off2_eq (c : Dev nD) (r : Fin 8) :
    k0_off2 c (BitVec.ofNat 32 r.val) = ![2048, 256 * (px c r).val] := by
  revert c r; decide +kernel

theorem off1_eq_0 (c : Dev nD) : k0_off1 c 0#32 = ![0, 256 * (px c 0).val] := by
  revert c; decide +kernel
theorem off1_eq_1 (c : Dev nD) : k0_off1 c 1#32 = ![0, 256 * (px c 1).val] := by
  revert c; decide +kernel
theorem off1_eq_2 (c : Dev nD) : k0_off1 c 2#32 = ![0, 256 * (px c 2).val] := by
  revert c; decide +kernel
theorem off1_eq_3 (c : Dev nD) : k0_off1 c 3#32 = ![0, 256 * (px c 3).val] := by
  revert c; decide +kernel
theorem off1_eq_4 (c : Dev nD) : k0_off1 c 4#32 = ![0, 256 * (px c 4).val] := by
  revert c; decide +kernel
theorem off1_eq_5 (c : Dev nD) : k0_off1 c 5#32 = ![0, 256 * (px c 5).val] := by
  revert c; decide +kernel
theorem off1_eq_6 (c : Dev nD) : k0_off1 c 6#32 = ![0, 256 * (px c 6).val] := by
  revert c; decide +kernel
theorem off1_eq_7 (c : Dev nD) : k0_off1 c 7#32 = ![0, 256 * (px c 7).val] := by
  revert c; decide +kernel

theorem off2_eq_0 (c : Dev nD) : k0_off2 c 0#32 = ![2048, 256 * (px c 0).val] := by
  revert c; decide +kernel
theorem off2_eq_1 (c : Dev nD) : k0_off2 c 1#32 = ![2048, 256 * (px c 1).val] := by
  revert c; decide +kernel
theorem off2_eq_2 (c : Dev nD) : k0_off2 c 2#32 = ![2048, 256 * (px c 2).val] := by
  revert c; decide +kernel
theorem off2_eq_3 (c : Dev nD) : k0_off2 c 3#32 = ![2048, 256 * (px c 3).val] := by
  revert c; decide +kernel
theorem off2_eq_4 (c : Dev nD) : k0_off2 c 4#32 = ![2048, 256 * (px c 4).val] := by
  revert c; decide +kernel
theorem off2_eq_5 (c : Dev nD) : k0_off2 c 5#32 = ![2048, 256 * (px c 5).val] := by
  revert c; decide +kernel
theorem off2_eq_6 (c : Dev nD) : k0_off2 c 6#32 = ![2048, 256 * (px c 6).val] := by
  revert c; decide +kernel
theorem off2_eq_7 (c : Dev nD) : k0_off2 c 7#32 = ![2048, 256 * (px c 7).val] := by
  revert c; decide +kernel

/-- info: 'Cert.KernelIdeal.A2A.off1_eq' depends on axioms: [propext, Classical.choice, Quot.sound] -/
#guard_msgs in #print axioms off1_eq

end Cert.KernelIdeal.A2A
-- ==== Proof.Sched.lean ====
/-
  The schedule of the exchange: one round. A barrier cell has seven duties of one unit, one per nonzero mask t, paid by the
  device c xor t; a send or receive cell of a nonzero slot has one duty of one slot's credit. What each payment hands over
  is stated with the contents it carries.
-/
import proofs.«900796_g7700000000000797_dist_gemm_a2a_m4096_k4096_n2048_f32_gelu_v7x_i8_1_alg».proof.Proof.Vals
import proofs.«900796_g7700000000000797_dist_gemm_a2a_m4096_k4096_n2048_f32_gelu_v7x_i8_1_alg».proof.Proof.DevEq

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which slot a semaphore belongs to -/

/-- The nonzero slot a receive semaphore belongs to (the receive semaphores are DMA semaphores 21..28; slot 0 is unused). -/
def recvT : SemLoc sig → Option (Fin 8)
  | .dma q => if h : 22 ≤ q.val ∧ q.val < 29 then some ⟨q.val - 21, by omega⟩ else none
  | _ => none
/-- The nonzero slot a send semaphore belongs to (DMA semaphores 13..20). -/
def sendT : SemLoc sig → Option (Fin 8)
  | .dma q => if h : 14 ≤ q.val ∧ q.val < 21 then some ⟨q.val - 13, by omega⟩ else none
  | _ => none

/-! ## What a payment hands over -/

/-- Slot `t` of device `c`'s receive buffer, at some contents: what the device `c xor t` needs to write it. -/
def slotAny (c : Dev nD) : Fin 8 → sProp 𝕄
  | ⟨0, _⟩ => iprop(∃ f, (rM 0).view.loc (c : Thread nD τ) ↦[(rM 0).view.set]{fullShare} f)
  | ⟨1, _⟩ => iprop(∃ f, (rM 1).view.loc (c : Thread nD τ) ↦[(rM 1).view.set]{fullShare} f)
  | ⟨2, _⟩ => iprop(∃ f, (rM 2).view.loc (c : Thread nD τ) ↦[(rM 2).view.set]{fullShare} f)
  | ⟨3, _⟩ => iprop(∃ f, (rM 3).view.loc (c : Thread nD τ) ↦[(rM 3).view.set]{fullShare} f)
  | ⟨4, _⟩ => iprop(∃ f, (rM 4).view.loc (c : Thread nD τ) ↦[(rM 4).view.set]{fullShare} f)
  | ⟨5, _⟩ => iprop(∃ f, (rM 5).view.loc (c : Thread nD τ) ↦[(rM 5).view.set]{fullShare} f)
  | ⟨6, _⟩ => iprop(∃ f, (rM 6).view.loc (c : Thread nD τ) ↦[(rM 6).view.set]{fullShare} f)
  | ⟨7, _⟩ => iprop(∃ f, (rM 7).view.loc (c : Thread nD τ) ↦[(rM 7).view.set]{fullShare} f)
  | ⟨_ + 8, h⟩ => absurd h (by omega)

/-- The unit the device `c xor t` pays into `c`'s barrier cell hands `c` slot `t` of that device's receive buffer. -/
def barPay (c : Dev nD) (t : Fin 8) : sProp 𝕄 := slotAny (px c t) t

/-- The copy device `c xor t` issues, once it has written slot `t` of `c`'s receive buffer, hands `c` that slot holding the
    tile computed for `c`. -/
def recvPay (c : Dev nD) : Fin 8 → sProp 𝕄
  | ⟨0, _⟩ => (rM 0).view.loc (c : Thread nD τ) ↦[(rM 0).view.set]{fullShare} recvV m c
  | ⟨1, _⟩ => (rM 1).view.loc (c : Thread nD τ) ↦[(rM 1).view.set]{fullShare} recvV m c
  | ⟨2, _⟩ => (rM 2).view.loc (c : Thread nD τ) ↦[(rM 2).view.set]{fullShare} recvV m c
  | ⟨3, _⟩ => (rM 3).view.loc (c : Thread nD τ) ↦[(rM 3).view.set]{fullShare} recvV m c
  | ⟨4, _⟩ => (rM 4).view.loc (c : Thread nD τ) ↦[(rM 4).view.set]{fullShare} recvV m c
  | ⟨5, _⟩ => (rM 5).view.loc (c : Thread nD τ) ↦[(rM 5).view.set]{fullShare} recvV m c
  | ⟨6, _⟩ => (rM 6).view.loc (c : Thread nD τ) ↦[(rM 6).view.set]{fullShare} recvV m c
  | ⟨7, _⟩ => (rM 7).view.loc (c : Thread nD τ) ↦[(rM 7).view.set]{fullShare} recvV m c
  | ⟨_ + 8, h⟩ => absurd h (by omega)

/-- `c`'s own copy of slot `t`, once the slot has been read, hands the slot back. -/
def sendPay (c : Dev nD) : Fin 8 → sProp 𝕄
  | ⟨0, _⟩ => (sM 0).view.loc (c : Thread nD τ) ↦[(sM 0).view.set]{fullShare} sendV m c
  | ⟨1, _⟩ => (sM 1).view.loc (c : Thread nD τ) ↦[(sM 1).view.set]{fullShare} sendV m c
  | ⟨2, _⟩ => (sM 2).view.loc (c : Thread nD τ) ↦[(sM 2).view.set]{fullShare} sendV m c
  | ⟨3, _⟩ => (sM 3).view.loc (c : Thread nD τ) ↦[(sM 3).view.set]{fullShare} sendV m c
  | ⟨4, _⟩ => (sM 4).view.loc (c : Thread nD τ) ↦[(sM 4).view.set]{fullShare} sendV m c
  | ⟨5, _⟩ => (sM 5).view.loc (c : Thread nD τ) ↦[(sM 5).view.set]{fullShare} sendV m c
  | ⟨6, _⟩ => (sM 6).view.loc (c : Thread nD τ) ↦[(sM 6).view.set]{fullShare} sendV m c
  | ⟨7, _⟩ => (sM 7).view.loc (c : Thread nD τ) ↦[(sM 7).view.set]{fullShare} sendV m c
  | ⟨_ + 8, h⟩ => absurd h (by omega)

/-! ## The schedule -/

abbrev IsBar (g : GSem nD τ sig) : Prop := g.1.2 = .tc ∧ g.2 = .reg barS
abbrev IsXfer (g : GSem nD τ sig) : Prop := g.1.2 = .tc ∧ ((recvT g.2).isSome ∨ (sendT g.2).isSome)

theorem NS_pos : 0 < NS := View.dmaCredit_pos _ (by decide)

def sched : Rounds.Schedule (GSem nD τ sig) (Fin 8) 𝕄 where
  duties g r := if r = 0 ∧ IsBar g then Finset.univ.erase 0 else if r = 0 ∧ IsXfer g then {0} else ∅
  unitless _ := False
  amount g _ _ := if g.2 = .reg barS then 1 else NS
  payload g _ d :=
    if g.2 = .reg barS then barPay g.1.1 d
    else match recvT g.2 with
      | some t => recvPay m g.1.1 t
      | none => match sendT g.2 with
        | some t => sendPay m g.1.1 t
        | none => iprop(emp)
  amount_pos g _ _ _ := by
    by_cases h : g.2 = .reg barS
    · rw [if_pos h]; exact Nat.one_pos
    · rw [if_neg h]; exact NS_pos

/-! ## What each device owes at launch; the levels -/

/-- Device `c` owes, for every nonzero mask `t`, one unit to the barrier cell of `c xor t` and one slot's credit to that
    device's receive cell `t`. -/
def owedBar (c : Dev nD) : CellTallies nD τ sig Unit :=
  tallyAt (barCell (px c 1)) () 1 + tallyAt (barCell (px c 2)) () 1 + tallyAt (barCell (px c 3)) () 1 + tallyAt (barCell (px c 4)) () 1 + tallyAt (barCell (px c 5)) () 1 + tallyAt (barCell (px c 6)) () 1 + tallyAt (barCell (px c 7)) () 1
def owedRecv (c : Dev nD) : CellTallies nD τ sig Unit :=
  tallyAt (recvCell (px c 1) 1) () NS + tallyAt (recvCell (px c 2) 2) () NS + tallyAt (recvCell (px c 3) 3) () NS + tallyAt (recvCell (px c 4) 4) () NS + tallyAt (recvCell (px c 5) 5) () NS + tallyAt (recvCell (px c 6) 6) () NS + tallyAt (recvCell (px c 7) 7) () NS
def O₀ (c : Dev nD) : CellTallies nD τ sig Unit := owedRecv c + owedBar c

def L (g : GSem nD τ sig) : Finset Unit := if g.1.2 = .tc then {()} else ∅
/-- Barrier cells at 1, receive cells at 2, everything else (staging, local copies, send cells) at 0. -/
def lv (g : GSem nD τ sig) (_ : Unit) : ℕ := if g.2 = .reg barS then 1 else if (recvT g.2).isSome then 2 else 0

end Cert.KernelIdeal.A2A

end
-- ==== Proof.Data.lean ====
/-
  The proof data of the launch: what a device holds when its body starts, what it holds when the body ends, and what the
  body leaves in the output block.

  At the start a device holds: the invariants of the cells it touches (its own fifteen; for every nonzero mask t the
  barrier cell and the receive cell t of its partner c xor t); its position at round 0 of its own cells; the tokens of the
  twenty-one duties it pays (one barrier unit and one receive credit at each partner, its own seven send credits); the
  credit to wait seven units on its barrier cell and one slot on each receive cell; its two argument arrays; its four
  scratch buffers at arbitrary contents; and the counters of the semaphores no other device touches, at zero.
-/
import proofs.«900796_g7700000000000797_dist_gemm_a2a_m4096_k4096_n2048_f32_gelu_v7x_i8_1_alg».proof.Proof.Sched

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The invariants device `c`'s body opens, under the names `K` the launch allocated them at. -/
def invs (K : GSem nD τ sig → ℕ) (c : Dev nD) : sProp 𝕄 :=
  iprop(cellInv ER (sched m) (K (barCell c)) (barCell c)
    ∗ cellInv ER (sched m) (K (sendCell c 1)) (sendCell c 1) ∗ cellInv ER (sched m) (K (recvCell c 1)) (recvCell c 1)
    ∗ cellInv ER (sched m) (K (sendCell c 2)) (sendCell c 2) ∗ cellInv ER (sched m) (K (recvCell c 2)) (recvCell c 2)
    ∗ cellInv ER (sched m) (K (sendCell c 3)) (sendCell c 3) ∗ cellInv ER (sched m) (K (recvCell c 3)) (recvCell c 3)
    ∗ cellInv ER (sched m) (K (sendCell c 4)) (sendCell c 4) ∗ cellInv ER (sched m) (K (recvCell c 4)) (recvCell c 4)
    ∗ cellInv ER (sched m) (K (sendCell c 5)) (sendCell c 5) ∗ cellInv ER (sched m) (K (recvCell c 5)) (recvCell c 5)
    ∗ cellInv ER (sched m) (K (sendCell c 6)) (sendCell c 6) ∗ cellInv ER (sched m) (K (recvCell c 6)) (recvCell c 6)
    ∗ cellInv ER (sched m) (K (sendCell c 7)) (sendCell c 7) ∗ cellInv ER (sched m) (K (recvCell c 7)) (recvCell c 7)
    ∗ cellInv ER (sched m) (K (barCell (px c 1))) (barCell (px c 1)) ∗ cellInv ER (sched m) (K (recvCell (px c 1) 1)) (recvCell (px c 1) 1)
    ∗ cellInv ER (sched m) (K (barCell (px c 2))) (barCell (px c 2)) ∗ cellInv ER (sched m) (K (recvCell (px c 2) 2)) (recvCell (px c 2) 2)
    ∗ cellInv ER (sched m) (K (barCell (px c 3))) (barCell (px c 3)) ∗ cellInv ER (sched m) (K (recvCell (px c 3) 3)) (recvCell (px c 3) 3)
    ∗ cellInv ER (sched m) (K (barCell (px c 4))) (barCell (px c 4)) ∗ cellInv ER (sched m) (K (recvCell (px c 4) 4)) (recvCell (px c 4) 4)
    ∗ cellInv ER (sched m) (K (barCell (px c 5))) (barCell (px c 5)) ∗ cellInv ER (sched m) (K (recvCell (px c 5) 5)) (recvCell (px c 5) 5)
    ∗ cellInv ER (sched m) (K (barCell (px c 6))) (barCell (px c 6)) ∗ cellInv ER (sched m) (K (recvCell (px c 6) 6)) (recvCell (px c 6) 6)
    ∗ cellInv ER (sched m) (K (barCell (px c 7))) (barCell (px c 7)) ∗ cellInv ER (sched m) (K (recvCell (px c 7) 7)) (recvCell (px c 7) 7))

instance invs_persistent (K : GSem nD τ sig → ℕ) (c : Dev nD) : BI.Persistent (invs m K c) := by unfold invs; infer_instance

/-- Device `c`'s positions at round 0 of its own cells. -/
def positions (c : Dev nD) : sProp 𝕄 :=
  iprop(atPos ER (barCell c) 0 ∅ 0
    ∗ atPos ER (sendCell c 1) 0 ∅ 0 ∗ atPos ER (recvCell c 1) 0 ∅ 0
    ∗ atPos ER (sendCell c 2) 0 ∅ 0 ∗ atPos ER (recvCell c 2) 0 ∅ 0
    ∗ atPos ER (sendCell c 3) 0 ∅ 0 ∗ atPos ER (recvCell c 3) 0 ∅ 0
    ∗ atPos ER (sendCell c 4) 0 ∅ 0 ∗ atPos ER (recvCell c 4) 0 ∅ 0
    ∗ atPos ER (sendCell c 5) 0 ∅ 0 ∗ atPos ER (recvCell c 5) 0 ∅ 0
    ∗ atPos ER (sendCell c 6) 0 ∅ 0 ∗ atPos ER (recvCell c 6) 0 ∅ 0
    ∗ atPos ER (sendCell c 7) 0 ∅ 0 ∗ atPos ER (recvCell c 7) 0 ∅ 0)

/-- Round 0 of every cell `c` pays is reached. -/
def reacheds (c : Dev nD) : sProp 𝕄 :=
  iprop(reached ER (barCell (px c 1)) 0 ∗ reached ER (recvCell (px c 1) 1) 0 ∗ reached ER (sendCell c 1) 0
    ∗ reached ER (barCell (px c 2)) 0 ∗ reached ER (recvCell (px c 2) 2) 0 ∗ reached ER (sendCell c 2) 0
    ∗ reached ER (barCell (px c 3)) 0 ∗ reached ER (recvCell (px c 3) 3) 0 ∗ reached ER (sendCell c 3) 0
    ∗ reached ER (barCell (px c 4)) 0 ∗ reached ER (recvCell (px c 4) 4) 0 ∗ reached ER (sendCell c 4) 0
    ∗ reached ER (barCell (px c 5)) 0 ∗ reached ER (recvCell (px c 5) 5) 0 ∗ reached ER (sendCell c 5) 0
    ∗ reached ER (barCell (px c 6)) 0 ∗ reached ER (recvCell (px c 6) 6) 0 ∗ reached ER (sendCell c 6) 0
    ∗ reached ER (barCell (px c 7)) 0 ∗ reached ER (recvCell (px c 7) 7) 0 ∗ reached ER (sendCell c 7) 0)

instance reacheds_persistent (c : Dev nD) : BI.Persistent (reacheds (F := F) c) := by unfold reacheds; infer_instance

/-- The tokens of the duties `c` pays: for every nonzero mask `t`, duty `t` of its partner's barrier cell, the duty of its
    partner's receive cell `t`, the duty of its own send cell `t`. -/
def payToks (c : Dev nD) : sProp 𝕄 :=
  iprop(dutyTok ER (barCell (px c 1)) 0 1 ∗ dutyTok ER (recvCell (px c 1) 1) 0 0 ∗ dutyTok ER (sendCell c 1) 0 0
    ∗ dutyTok ER (barCell (px c 2)) 0 2 ∗ dutyTok ER (recvCell (px c 2) 2) 0 0 ∗ dutyTok ER (sendCell c 2) 0 0
    ∗ dutyTok ER (barCell (px c 3)) 0 3 ∗ dutyTok ER (recvCell (px c 3) 3) 0 0 ∗ dutyTok ER (sendCell c 3) 0 0
    ∗ dutyTok ER (barCell (px c 4)) 0 4 ∗ dutyTok ER (recvCell (px c 4) 4) 0 0 ∗ dutyTok ER (sendCell c 4) 0 0
    ∗ dutyTok ER (barCell (px c 5)) 0 5 ∗ dutyTok ER (recvCell (px c 5) 5) 0 0 ∗ dutyTok ER (sendCell c 5) 0 0
    ∗ dutyTok ER (barCell (px c 6)) 0 6 ∗ dutyTok ER (recvCell (px c 6) 6) 0 0 ∗ dutyTok ER (sendCell c 6) 0 0
    ∗ dutyTok ER (barCell (px c 7)) 0 7 ∗ dutyTok ER (recvCell (px c 7) 7) 0 0 ∗ dutyTok ER (sendCell c 7) 0 0)

def ghost (K : GSem nD τ sig → ℕ) (c : Dev nD) : sProp 𝕄 :=
  iprop(invs m K c ∗ positions c ∗ reacheds c ∗ payToks c)

/-- The credit to wait: seven units on the barrier cell, one slot's credit on each receive cell. -/
def waitCreds (c : Dev nD) : sProp 𝕄 :=
  iprop(cred (tallyAt (barCell c) () 7)
    ∗ cred (tallyAt (recvCell c 1) () NS)
    ∗ cred (tallyAt (recvCell c 2) () NS)
    ∗ cred (tallyAt (recvCell c 3) () NS)
    ∗ cred (tallyAt (recvCell c 4) () NS)
    ∗ cred (tallyAt (recvCell c 5) () NS)
    ∗ cred (tallyAt (recvCell c 6) () NS)
    ∗ cred (tallyAt (recvCell c 7) () NS))

/-- The counters of the scoped semaphores no other device touches (the local copies' twelve, and the unused slot 0 of the
    send and receive arrays), at zero. -/
def plainSems (c : Dev nD) : sProp 𝕄 :=
  iprop(semVal ((c : Thread nD τ), SemLoc.dma (1 : DmaSem sig)) 0
    ∗ semVal ((c : Thread nD τ), SemLoc.dma (2 : DmaSem sig)) 0
    ∗ semVal ((c : Thread nD τ), SemLoc.dma (3 : DmaSem sig)) 0
    ∗ semVal ((c : Thread nD τ), SemLoc.dma (4 : DmaSem sig)) 0
    ∗ semVal ((c : Thread nD τ), SemLoc.dma (5 : DmaSem sig)) 0
    ∗ semVal ((c : Thread nD τ), SemLoc.dma (6 : DmaSem sig)) 0
    ∗ semVal ((c : Thread nD τ), SemLoc.dma (7 : DmaSem sig)) 0
    ∗ semVal ((c : Thread nD τ), SemLoc.dma (8 : DmaSem sig)) 0
    ∗ semVal ((c : Thread nD τ), SemLoc.dma (9 : DmaSem sig)) 0
    ∗ semVal ((c : Thread nD τ), SemLoc.dma (10 : DmaSem sig)) 0
    ∗ semVal ((c : Thread nD τ), SemLoc.dma (11 : DmaSem sig)) 0
    ∗ semVal ((c : Thread nD τ), SemLoc.dma (12 : DmaSem sig)) 0
    ∗ semVal ((c : Thread nD τ), SemLoc.dma (13 : DmaSem sig)) 0
    ∗ semVal ((c : Thread nD τ), SemLoc.dma (21 : DmaSem sig)) 0)

/-- The two argument arrays, as launched (each held through its whole memref's view). -/
def argPts (c : Dev nD) : sProp 𝕄 :=
  iprop(((xA).view.loc (c : Thread nD τ) ↦[(xA).view.set]{fullShare} xV m c) ∗ ((wA).view.loc (c : Thread nD τ) ↦[(wA).view.set]{fullShare} wV m c))

/-- The four scratch buffers at some contents. -/
def scratchAny (c : Dev nD) : sProp 𝕄 :=
  iprop((∃ f, (xbM).view.loc (c : Thread nD τ) ↦[(xbM).view.set]{fullShare} f)
    ∗ (∃ f, (wbM).view.loc (c : Thread nD τ) ↦[(wbM).view.set]{fullShare} f)
    ∗ (∃ f, (sbM).view.loc (c : Thread nD τ) ↦[(sbM).view.set]{fullShare} f)
    ∗ (∃ f, (rbM).view.loc (c : Thread nD τ) ↦[(rbM).view.set]{fullShare} f))

/-- What the launch hands device `c` outside the pipeline. -/
def start (c : Dev nD) : sProp 𝕄 :=
  iprop((∃ K, ghost m K c) ∗ waitCreds c ∗ levAts L lv ∗ plainSems c ∗ argPts m c)

/-- Every scoped semaphore of the kernel at zero: the fourteen of `plainSems` and the fourteen cells', closed. -/
def allSems0 (c : Dev nD) : sProp 𝕄 :=
  iprop(plainSems c
    ∗ semVal (sendCell c 1) 0 ∗ semVal (recvCell c 1) 0
    ∗ semVal (sendCell c 2) 0 ∗ semVal (recvCell c 2) 0
    ∗ semVal (sendCell c 3) 0 ∗ semVal (recvCell c 3) 0
    ∗ semVal (sendCell c 4) 0 ∗ semVal (recvCell c 4) 0
    ∗ semVal (sendCell c 5) 0 ∗ semVal (recvCell c 5) 0
    ∗ semVal (sendCell c 6) 0 ∗ semVal (recvCell c 6) 0
    ∗ semVal (sendCell c 7) 0 ∗ semVal (recvCell c 7) 0)

def Φ₀ (c : Dev nD) : sProp 𝕄 := iprop(start m c ∗ scratchAny c)
def Φ₁ (c : Dev nD) : sProp 𝕄 := iprop(argPts m c ∗ scratchAny c ∗ allSems0 c)

def dats (_ : Fin 1) (c : Dev nD) : Dat τ (Elt F) Unit ℕ UU ℕ cfg0 c where
  A w := m ((cfg0.win w).arr.view.loc (c : Thread nD τ))
  after w _ := match w with
    | ⟨0, _⟩ => outV m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.A2A

end
-- ==== Proof.Levels.lean ====
/-
  The levels of the exchange's cells, and why no wait is below a debt.

  A device's barrier cell sits at level 1, its seven receive cells at level 2, every other semaphore at level 0. At
  launch a device owes only barrier cells and receive cells of its partners, so it may wait on its local copies
  (level 0) at any time; by the time it waits on its own barrier cell it owes receive cells only (level 2 above level
  1); and it waits on its receive cells owing nothing.
-/
import proofs.«900796_g7700000000000797_dist_gemm_a2a_m4096_k4096_n2048_f32_gelu_v7x_i8_1_alg».proof.Proof.Data

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The receive semaphores' numbers -/

/-- The receive semaphore of slot `t` is DMA semaphore `21 + t`. -/
theorem recvSem_val (t : Fin 8) : ((recvSA t).sem : DmaSem sig).val = 21 + t.val := by
  fin_cases t <;> rfl

/-- A receive semaphore of a nonzero slot belongs to a slot. -/
theorem recvT_recvSem_isSome (t : Fin 8) (ht : t ≠ 0) : (recvT (SemLoc.dma (recvSA t).sem : SemLoc sig)).isSome = true := by
  have hv := recvSem_val t
  have h0 : t.val ≠ 0 := fun h => ht (Fin.ext h)
  have hl := t.isLt
  show (if h : 22 ≤ ((recvSA t).sem : DmaSem sig).val ∧ ((recvSA t).sem : DmaSem sig).val < 29 then some (⟨((recvSA t).sem : DmaSem sig).val - 21, by omega⟩ : Fin 8) else none).isSome = true
  rw [dif_pos ⟨by omega, by omega⟩]
  rfl

/-- A receive cell is no barrier cell. -/
theorem recvCell_ne_barCell (a c : Dev nD) (t : Fin 8) : recvCell a t ≠ barCell c :=
  fun h => by have e := congrArg Prod.snd h; cases e

/-! ## Who holds a level -/

theorem L_of_ne (g : GSem nD τ sig) (h : g.1.2 ≠ .tc) : L g = ∅ := if_neg h
theorem L_tc (c : Dev nD) (sm : SemLoc sig) : L ((c : Thread nD τ), sm) = {()} := if_pos rfl

/-! ## The levels -/

theorem lv_bar (c : Dev nD) : lv (barCell c) () = 1 := if_pos rfl

theorem lv_recv (c : Dev nD) (t : Fin 8) (ht : t ≠ 0) : lv (recvCell c t) () = 2 := by
  show (if (SemLoc.dma (recvSA t).sem : SemLoc sig) = .reg barS then 1 else if (recvT (SemLoc.dma (recvSA t).sem : SemLoc sig)).isSome then 2 else 0) = 2
  rw [if_neg (fun h => by cases h), if_pos (recvT_recvSem_isSome t ht)]

theorem lv_other (c : Dev nD) (q : DmaSem sig) (hq : recvT (SemLoc.dma q : SemLoc sig) = none) :
    lv ((c : Thread nD τ), .dma q) () = 0 := by
  show (if (SemLoc.dma q : SemLoc sig) = .reg barS then 1 else if (recvT (SemLoc.dma q : SemLoc sig)).isSome then 2 else 0) = 0
  rw [if_neg (fun h => by cases h), hq]
  rfl

/-! ## What a device owes lies at its partners' receive and barrier cells -/

theorem owedRecv_pos {c : Dev nD} {g : GSem nD τ sig} {u : Unit} (h : 0 < owedRecv c g u) :
    ∃ t : Fin 8, t ≠ 0 ∧ g = recvCell (px c t) t := by
  by_contra hn
  have hn' : ∀ t : Fin 8, t ≠ 0 → ¬ (g = recvCell (px c t) t) := fun t ht hg => hn ⟨t, ht, hg⟩
  unfold owedRecv at h
  simp only [Pi.add_apply, Finsupp.add_apply, tallyAt_apply, and_true,
    if_neg (hn' 1 (by decide)),
    if_neg (hn' 2 (by decide)),
    if_neg (hn' 3 (by decide)),
    if_neg (hn' 4 (by decide)),
    if_neg (hn' 5 (by decide)),
    if_neg (hn' 6 (by decide)),
    if_neg (hn' 7 (by decide))] at h
  exact Nat.lt_irrefl 0 h

theorem owedBar_pos {c : Dev nD} {g : GSem nD τ sig} {u : Unit} (h : 0 < owedBar c g u) :
    ∃ t : Fin 8, t ≠ 0 ∧ g = barCell (px c t) := by
  by_contra hn
  have hn' : ∀ t : Fin 8, t ≠ 0 → ¬ (g = barCell (px c t)) := fun t ht hg => hn ⟨t, ht, hg⟩
  unfold owedBar at h
  simp only [Pi.add_apply, Finsupp.add_apply, tallyAt_apply, and_true,
    if_neg (hn' 1 (by decide)),
    if_neg (hn' 2 (by decide)),
    if_neg (hn' 3 (by decide)),
    if_neg (hn' 4 (by decide)),
    if_neg (hn' 5 (by decide)),
    if_neg (hn' 6 (by decide)),
    if_neg (hn' 7 (by decide))] at h
  exact Nat.lt_irrefl 0 h

theorem O₀_pos {c : Dev nD} {g : GSem nD τ sig} {u : Unit} (h : 0 < O₀ c g u) :
    (∃ t : Fin 8, t ≠ 0 ∧ g = recvCell (px c t) t) ∨ (∃ t : Fin 8, t ≠ 0 ∧ g = barCell (px c t)) := by
  unfold O₀ at h
  rw [Pi.add_apply, Finsupp.add_apply] at h
  rcases Nat.add_pos_iff_pos_or_pos.mp h with h1 | h2
  · exact Or.inl (owedRecv_pos h1)
  · exact Or.inr (owedBar_pos h2)

/-! ## The waits -/

omit [FloatOps F] in
/-- A wait on a local copy's semaphore, at level 0, while owing at most barrier and receive cells. -/
theorem mayWait_local (c : Dev nD) (q : DmaSem sig) (hq : recvT (SemLoc.dma q : SemLoc sig) = none) (O : CellTallies nD τ sig Unit)
    (hO : O = O₀ c ∨ O = owedRecv c ∨ O = 0) :
    (levAts L lv : sProp 𝕄) ⊢ MayWait (c : Thread nD τ) (.dma q) () O := by
  have hW : ∀ p ∈ ({(SemLoc.dma q, ())} : Finset (SemLoc sig × Unit)), p.2 ∈ L ((c : Thread nD τ), p.1) := fun p hp => by
    rw [Finset.mem_singleton.mp hp, L_tc]; exact Finset.mem_singleton_self _
  have hWb : ∀ p ∈ ({(SemLoc.dma q, ())} : Finset (SemLoc sig × Unit)), lv ((c : Thread nD τ), p.1) p.2 ≤ 0 := fun p hp => by
    rw [Finset.mem_singleton.mp hp]
    show lv ((c : Thread nD τ), SemLoc.dma q) () ≤ 0
    rw [lv_other c q hq]
  rcases hO with rfl | rfl | rfl
  · refine MayOwe.of_cut (L := L) (lev := lv) 0 hW
      (fun g u hg => by
        cases u
        rcases O₀_pos hg with ⟨t, ht, rfl⟩ | ⟨t, ht, rfl⟩
        · rw [L_tc]; exact Finset.mem_singleton_self _
        · rw [L_tc]; exact Finset.mem_singleton_self _)
      hWb
      (fun g u hg => by
        cases u
        rcases O₀_pos hg with ⟨t, ht, rfl⟩ | ⟨t, ht, rfl⟩
        · rw [lv_recv _ _ ht]; decide
        · rw [lv_bar]; decide)
  · refine MayOwe.of_cut (L := L) (lev := lv) 0 hW
      (fun g u hg => by
        cases u
        obtain ⟨t, ht, rfl⟩ := owedRecv_pos hg
        rw [L_tc]; exact Finset.mem_singleton_self _)
      hWb
      (fun g u hg => by
        cases u
        obtain ⟨t, ht, rfl⟩ := owedRecv_pos hg
        rw [lv_recv _ _ ht]; decide)
  · rw [MayWait_zero]; iintro -; iempintro

omit [FloatOps F] in
/-- At its barrier wait a device owes its partners' receive cells only: level 2, above its barrier cell's level 1. -/
theorem mayWait_bar (c : Dev nD) :
    (levAts L lv : sProp 𝕄) ⊢ MayWait (c : Thread nD τ) (.reg barS) () (owedRecv c) :=
  MayOwe.of_cut (L := L) (lev := lv) 1
    (fun p hp => by rw [Finset.mem_singleton.mp hp, L_tc]; exact Finset.mem_singleton_self _)
    (fun g u hg => by
      cases u
      obtain ⟨t, ht, rfl⟩ := owedRecv_pos hg
      rw [L_tc]; exact Finset.mem_singleton_self _)
    (fun p hp => by
      rw [Finset.mem_singleton.mp hp]
      show lv (barCell c) () ≤ 1
      rw [lv_bar])
    (fun g u hg => by
      cases u
      obtain ⟨t, ht, rfl⟩ := owedRecv_pos hg
      rw [lv_recv _ _ ht]; decide)

omit [FloatOps F] in
/-- Owing nothing, a device may wait on any of its semaphores. -/
theorem mayWait_zero' (c : Dev nD) (sm : SemLoc sig) :
    (levAts L lv : sProp 𝕄) ⊢ MayWait (c : Thread nD τ) sm () 0 := by
  rw [MayWait_zero]; iintro -; iempintro

/-- info: 'Cert.KernelIdeal.A2A.mayWait_local' depends on axioms: [propext, Classical.choice, Quot.sound] -/
#guard_msgs in #print axioms mayWait_local
/-- info: 'Cert.KernelIdeal.A2A.mayWait_bar' depends on axioms: [propext, Classical.choice, Quot.sound] -/
#guard_msgs in #print axioms mayWait_bar

end Cert.KernelIdeal.A2A

end
-- ==== Proof.Credit.lean ====
/-
  The launch credit: what the other devices owe a device's cells sums to what the device waits for.

  Device d owes the barrier cell of c one unit exactly when c is one of d's seven partners, that is when d is not c: the
  seven other devices together owe it seven units. Device d owes receive cell t of c one slot's credit exactly when c is
  d's partner at mask t, that is when d is c's partner at mask t: one device owes it, one slot's credit.
-/
import proofs.«900796_g7700000000000797_dist_gemm_a2a_m4096_k4096_n2048_f32_gelu_v7x_i8_1_alg».proof.Proof.Levels

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Telling cells apart -/

omit [FloatOps F] in
theorem barCell_eq_iff {a b : Dev nD} : Iff (barCell a = barCell b) (a = b) :=
  ⟨fun h => Fin.ext (congrArg (fun g : GSem nD τ sig => g.1.1.val) h), fun h => h ▸ rfl⟩

omit [FloatOps F] in
/-- Receive semaphores of different slots are different semaphores. -/
theorem recvSem_ne {s t : Fin 8} (h : s ≠ t) : (SemLoc.dma (recvSA s).sem : SemLoc sig) ≠ .dma (recvSA t).sem := fun e => by
  have e' := congrArg Fin.val (SemLoc.dma.inj e)
  have h1 := recvSem_val s; have h2 := recvSem_val t
  exact h (Fin.ext (by omega))

omit [FloatOps F] in
/-- Receive cells are the same only on the same device and for the same slot. -/
theorem recvCell_eq_iff {a b : Dev nD} {s t : Fin 8} : Iff (recvCell a s = recvCell b t) (a = b ∧ s = t) :=
  ⟨fun h => ⟨Fin.ext (congrArg (fun g : GSem nD τ sig => g.1.1.val) h),
      Classical.byContradiction fun hst => recvSem_ne hst (congrArg Prod.snd h)⟩,
   fun h => by rw [h.1, h.2]⟩

/-! ## One summand of a debt, read at a cell -/

omit [FloatOps F] in
theorem tally_bar_bar (a c : Dev nD) (k : ℕ) : tallyAt (barCell a) () k (barCell c) () = if c = a then k else 0 := by
  rw [tallyAt_apply]
  by_cases h : c = a
  · subst h; rw [if_pos ⟨rfl, rfl⟩, if_pos rfl]
  · rw [if_neg (fun h' => h (barCell_eq_iff.mp h'.1)), if_neg h]

omit [FloatOps F] in
theorem tally_recv_recv (a c : Dev nD) (s t : Fin 8) (k : ℕ) :
    tallyAt (recvCell a s) () k (recvCell c t) () = if c = a ∧ t = s then k else 0 := by
  rw [tallyAt_apply]
  by_cases h : c = a ∧ t = s
  · rw [if_pos h, h.1, h.2, if_pos ⟨rfl, rfl⟩]
  · rw [if_neg h, if_neg (fun h' => h (recvCell_eq_iff.mp h'.1))]

omit [FloatOps F] in
theorem tally_recv_bar (a c : Dev nD) (s : Fin 8) (k : ℕ) : tallyAt (recvCell a s) () k (barCell c) () = 0 := by
  rw [tallyAt_ne_cell (fun h => recvCell_ne_barCell a c s h.symm)]; rfl

omit [FloatOps F] in
theorem tally_bar_recv (a c : Dev nD) (t : Fin 8) (k : ℕ) : tallyAt (barCell a) () k (recvCell c t) () = 0 := by
  rw [tallyAt_ne_cell (recvCell_ne_barCell c a t)]; rfl

/-! ## Counting the partners -/

/-- Among the seven partners of d, c occurs once if it is another device and never if it is d. -/
theorem bar_count (d c : Dev nD) :
    (if c = px d 1 then 1 else 0) + (if c = px d 2 then 1 else 0) + (if c = px d 3 then 1 else 0) + (if c = px d 4 then 1 else 0)
      + (if c = px d 5 then 1 else 0) + (if c = px d 6 then 1 else 0) + (if c = px d 7 then 1 else 0) = if d = c then 0 else 1 := by
  revert d c; decide +kernel

/-- Of the seven receive debts of d, the one at slot t lands on c exactly when d is c's partner at mask t. -/
theorem recv_count (k : ℕ) (d c : Dev nD) (t : Fin 8) (ht : t ≠ 0) :
    (if c = px d 1 ∧ t = 1 then k else 0) + (if c = px d 2 ∧ t = 2 then k else 0) + (if c = px d 3 ∧ t = 3 then k else 0)
      + (if c = px d 4 ∧ t = 4 then k else 0) + (if c = px d 5 ∧ t = 5 then k else 0) + (if c = px d 6 ∧ t = 6 then k else 0)
      + (if c = px d 7 ∧ t = 7 then k else 0) = if d = px c t then k else 0 := by
  have hsym : ∀ s : Fin 8, (c = px d s) = (d = px c s) := fun s =>
    propext ⟨fun h => ((px_eq_iff d c s).mp h.symm).symm, fun h => ((px_eq_iff c d s).mp h.symm).symm⟩
  fin_cases t
  · exact absurd rfl ht
  all_goals simp [hsym]

/-! ## What one device owes another's cells -/

omit [FloatOps F] in
theorem owedRecv_bar (d c : Dev nD) : owedRecv d (barCell c) () = 0 := by
  unfold owedRecv
  simp only [Pi.add_apply, Finsupp.add_apply, tally_recv_bar (px d 1) c 1, tally_recv_bar (px d 2) c 2, tally_recv_bar (px d 3) c 3, tally_recv_bar (px d 4) c 4, tally_recv_bar (px d 5) c 5, tally_recv_bar (px d 6) c 6, tally_recv_bar (px d 7) c 7, Nat.add_zero]

omit [FloatOps F] in
theorem owedBar_bar (d c : Dev nD) : owedBar d (barCell c) () = if d = c then 0 else 1 := by
  unfold owedBar
  simp only [Pi.add_apply, Finsupp.add_apply, tally_bar_bar]
  exact bar_count d c

omit [FloatOps F] in
theorem owed_bar (d c : Dev nD) : O₀ d (barCell c) () = if d = c then 0 else 1 := by
  unfold O₀
  rw [Pi.add_apply, Finsupp.add_apply, owedRecv_bar, owedBar_bar, Nat.zero_add]

omit [FloatOps F] in
theorem owedBar_recv (d c : Dev nD) (t : Fin 8) : owedBar d (recvCell c t) () = 0 := by
  unfold owedBar
  simp only [Pi.add_apply, Finsupp.add_apply, tally_bar_recv, Nat.add_zero]

omit [FloatOps F] in
theorem owedRecv_recv (d c : Dev nD) (t : Fin 8) (ht : t ≠ 0) : owedRecv d (recvCell c t) () = if d = px c t then NS else 0 := by
  unfold owedRecv
  simp only [Pi.add_apply, Finsupp.add_apply, tally_recv_recv (px d 1) c 1 t, tally_recv_recv (px d 2) c 2 t, tally_recv_recv (px d 3) c 3 t, tally_recv_recv (px d 4) c 4 t, tally_recv_recv (px d 5) c 5 t, tally_recv_recv (px d 6) c 6 t, tally_recv_recv (px d 7) c 7 t]
  exact recv_count NS d c t ht

omit [FloatOps F] in
theorem owed_recv (d c : Dev nD) (t : Fin 8) (ht : t ≠ 0) : O₀ d (recvCell c t) () = if d = px c t then NS else 0 := by
  unfold O₀
  rw [Pi.add_apply, Finsupp.add_apply, owedRecv_recv d c t ht, owedBar_recv, Nat.add_zero]

/-! ## The launch credit of a device's cells -/

omit [FloatOps F] in
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel

omit [FloatOps F] in
theorem launch_recv (c : Dev nD) (t : Fin 8) (ht : t ≠ 0) :
    tallyOn (recvCell c t) (launchCredit (Pipeline.owing O₀) 0 (recvCell c t)) = (tallyAt (recvCell c t) () NS : CellTallies nD τ sig Unit) := by
  unfold tallyAt; refine congrArg _ (Finsupp.ext fun u => ?_); cases u
  rw [Pipeline.launchCredit_owing, Finsupp.single_eq_same, Finset.sum_congr rfl fun d _ => owed_recv d c t ht,
    Finset.sum_ite_eq' Finset.univ (px c t) fun _ => NS, if_pos (Finset.mem_univ _)]

/-! ## The credit a device starts with -/

omit [FloatOps F] in
/-- One factor of a product over a finite set, split off. -/
theorem peel {s : Finset (SemLoc sig)} {Φ : SemLoc sig → sProp 𝕄} {i : SemLoc sig} (hi : i ∈ s) {P R : sProp 𝕄}
    (hP : Φ i ⊢ P) (hR : bigSep (s.erase i) Φ ⊢ R) : bigSep s Φ ⊢ iprop(P ∗ R) := by
  rw [bigSep_erase hi]; exact BIClass.sep_mono hP hR

omit [FloatOps F] in
/-- One factor of a product over a finite set, the rest dropped. -/
theorem pickCell {s : Finset (SemLoc sig)} {Φ : SemLoc sig → sProp 𝕄} {i : SemLoc sig} (hi : i ∈ s) {P : sProp 𝕄}
    (hP : Φ i ⊢ P) : bigSep s Φ ⊢ P := (bigSep_elim hi).trans hP

omit [FloatOps F] in
theorem recvSem_ne_bar (t : Fin 8) : (SemLoc.dma (recvSA t).sem : SemLoc sig) ≠ .reg barS := fun h => by cases h

omit [FloatOps F] in
theorem creds (c : Dev nD) : (Pipeline.launchCred O₀ c : sProp 𝕄) ⊢ waitCreds c := by
  unfold Pipeline.launchCred waitCreds
  refine peel (i := SemLoc.reg barS) (Finset.mem_univ _) (Entails.of_eq (by rw [launch_bar])) ?_
  refine peel (i := SemLoc.dma (recvSA 1).sem) (Finset.mem_erase.mpr ⟨recvSem_ne_bar _, Finset.mem_univ _⟩) (Entails.of_eq (by rw [launch_recv c 1 (by decide)])) ?_
  refine peel (i := SemLoc.dma (recvSA 2).sem) (Finset.mem_erase.mpr ⟨recvSem_ne (by decide), Finset.mem_erase.mpr ⟨recvSem_ne_bar _, Finset.mem_univ _⟩⟩) (Entails.of_eq (by rw [launch_recv c 2 (by decide)])) ?_
  refine peel (i := SemLoc.dma (recvSA 3).sem) (Finset.mem_erase.mpr ⟨recvSem_ne (by decide), Finset.mem_erase.mpr ⟨recvSem_ne (by decide), Finset.mem_erase.mpr ⟨recvSem_ne_bar _, Finset.mem_univ _⟩⟩⟩) (Entails.of_eq (by rw [launch_recv c 3 (by decide)])) ?_
  refine peel (i := SemLoc.dma (recvSA 4).sem) (Finset.mem_erase.mpr ⟨recvSem_ne (by decide), Finset.mem_erase.mpr ⟨recvSem_ne (by decide), Finset.mem_erase.mpr ⟨recvSem_ne (by decide), Finset.mem_erase.mpr ⟨recvSem_ne_bar _, Finset.mem_univ _⟩⟩⟩⟩) (Entails.of_eq (by rw [launch_recv c 4 (by decide)])) ?_
  refine peel (i := SemLoc.dma (recvSA 5).sem) (Finset.mem_erase.mpr ⟨recvSem_ne (by decide), Finset.mem_erase.mpr ⟨recvSem_ne (by decide), Finset.mem_erase.mpr ⟨recvSem_ne (by decide), Finset.mem_erase.mpr ⟨recvSem_ne (by decide), Finset.mem_erase.mpr ⟨recvSem_ne_bar _, Finset.mem_univ _⟩⟩⟩⟩⟩) (Entails.of_eq (by rw [launch_recv c 5 (by decide)])) ?_
  refine peel (i := SemLoc.dma (recvSA 6).sem) (Finset.mem_erase.mpr ⟨recvSem_ne (by decide), Finset.mem_erase.mpr ⟨recvSem_ne (by decide), Finset.mem_erase.mpr ⟨recvSem_ne (by decide), Finset.mem_erase.mpr ⟨recvSem_ne (by decide), Finset.mem_erase.mpr ⟨recvSem_ne (by decide), Finset.mem_erase.mpr ⟨recvSem_ne_bar _, Finset.mem_univ _⟩⟩⟩⟩⟩⟩) (Entails.of_eq (by rw [launch_recv c 6 (by decide)])) ?_
  exact pickCell (i := SemLoc.dma (recvSA 7).sem) (Finset.mem_erase.mpr ⟨recvSem_ne (by decide), Finset.mem_erase.mpr ⟨recvSem_ne (by decide), Finset.mem_erase.mpr ⟨recvSem_ne (by decide), Finset.mem_erase.mpr ⟨recvSem_ne (by decide), Finset.mem_erase.mpr ⟨recvSem_ne (by decide), Finset.mem_erase.mpr ⟨recvSem_ne (by decide), Finset.mem_erase.mpr ⟨recvSem_ne_bar _, Finset.mem_univ _⟩⟩⟩⟩⟩⟩⟩) (Entails.of_eq (by rw [launch_recv c 7 (by decide)]))

/-- info: 'Cert.KernelIdeal.A2A.creds' depends on axioms: [propext, Classical.choice, Quot.sound] -/
#guard_msgs in #print axioms creds

end Cert.KernelIdeal.A2A

end
-- ==== Proof.SchedTab.lean ====
/-
  The schedule's tables: for each cell of the exchange, its duties, their amounts, the units it expects and what each
  payment hands over, as equations with the table entry on the left.

  The send semaphores of the slots 0..7 are the DMA semaphores 13..20 and the receive semaphores 21..28, so a semaphore's
  number tells which kind of cell it is and of which slot; the barrier semaphore is a regular one and is neither. The one
  round of a barrier cell has the seven nonzero masks as duties, one unit each: seven units. The one round of a send or
  receive cell of a nonzero slot has the single duty 0 of one slot's credit. No cell has a later round.
-/
import proofs.«900796_g7700000000000797_dist_gemm_a2a_m4096_k4096_n2048_f32_gelu_v7x_i8_1_alg».proof.Proof.Sched

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The semaphores' numbers, and which slot a semaphore belongs to -/

/-- The send semaphore of slot `t` is DMA semaphore `13 + t`. -/
theorem sendSA_val (t : Fin 8) : ((sendSA t).sem : DmaSem sig).val = 13 + t.val := by
  fin_cases t <;> rfl
/-- The receive semaphore of slot `t` is DMA semaphore `21 + t`. -/
theorem recvSA_val (t : Fin 8) : ((recvSA t).sem : DmaSem sig).val = 21 + t.val := by
  fin_cases t <;> rfl

theorem recvT_dma (q : DmaSem sig) :
    recvT (SemLoc.dma q) = if h : 22 ≤ q.val ∧ q.val < 29 then some ⟨q.val - 21, by omega⟩ else none := rfl
theorem sendT_dma (q : DmaSem sig) :
    sendT (SemLoc.dma q) = if h : 14 ≤ q.val ∧ q.val < 21 then some ⟨q.val - 13, by omega⟩ else none := rfl

theorem recvT_recv (t : Fin 8) (ht : t ≠ 0) : recvT (SemLoc.dma (recvSA t).sem) = some t := by
  have hv := recvSA_val t
  have h0 : t.val ≠ 0 := fun h => ht (Fin.ext h)
  have hl := t.isLt
  rw [recvT_dma, dif_pos ⟨by omega, by omega⟩]
  exact congrArg some (Fin.ext (by show ((recvSA t).sem : DmaSem sig).val - 21 = t.val; omega))
theorem sendT_send (t : Fin 8) (ht : t ≠ 0) : sendT (SemLoc.dma (sendSA t).sem) = some t := by
  have hv := sendSA_val t
  have h0 : t.val ≠ 0 := fun h => ht (Fin.ext h)
  have hl := t.isLt
  rw [sendT_dma, dif_pos ⟨by omega, by omega⟩]
  exact congrArg some (Fin.ext (by show ((sendSA t).sem : DmaSem sig).val - 13 = t.val; omega))
theorem recvT_send (t : Fin 8) : recvT (SemLoc.dma (sendSA t).sem) = none := by
  have hv := sendSA_val t
  have hl := t.isLt
  rw [recvT_dma, dif_neg (fun h => by omega)]
theorem sendT_recv (t : Fin 8) : sendT (SemLoc.dma (recvSA t).sem) = none := by
  have hv := recvSA_val t
  have hl := t.isLt
  rw [sendT_dma, dif_neg (fun h => by omega)]
theorem recvT_bar : recvT (SemLoc.reg barS : SemLoc sig) = none := rfl
theorem sendT_bar : sendT (SemLoc.reg barS : SemLoc sig) = none := rfl

theorem send_ne_bar (t : Fin 8) : (SemLoc.dma (sendSA t).sem : SemLoc sig) ≠ .reg barS := fun h => by cases h
theorem recv_ne_bar (t : Fin 8) : (SemLoc.dma (recvSA t).sem : SemLoc sig) ≠ .reg barS := fun h => by cases h
theorem send_ne_recv (t t' : Fin 8) : (SemLoc.dma (sendSA t).sem : SemLoc sig) ≠ .dma (recvSA t').sem := fun h => by
  have e := congrArg Fin.val (SemLoc.dma.inj h)
  have h1 := sendSA_val t; have h2 := recvSA_val t'; have hl := t.isLt
  omega
theorem recv_ne_send (t t' : Fin 8) : (SemLoc.dma (recvSA t).sem : SemLoc sig) ≠ .dma (sendSA t').sem :=
  fun h => send_ne_recv t' t h.symm
theorem sendSA_inj {t t' : Fin 8} (h : t ≠ t') : (sendSA t).sem ≠ (sendSA t').sem := fun e => by
  have e' := congrArg Fin.val e
  have h1 := sendSA_val t; have h2 := sendSA_val t'
  exact h (Fin.ext (by omega))
theorem recvSA_inj {t t' : Fin 8} (h : t ≠ t') : (recvSA t).sem ≠ (recvSA t').sem := fun e => by
  have e' := congrArg Fin.val e
  have h1 := recvSA_val t; have h2 := recvSA_val t'
  exact h (Fin.ext (by omega))

theorem not_bar_send (c : Dev nD) (t : Fin 8) : ¬ IsBar (sendCell c t) := fun h => send_ne_bar t h.2
theorem not_bar_recv (c : Dev nD) (t : Fin 8) : ¬ IsBar (recvCell c t) := fun h => recv_ne_bar t h.2

/-! ## Duties -/

theorem duties_bar (c : Dev nD) : (sched m).duties (barCell c) 0 = Finset.univ.erase 0 := by
  dsimp only [sched]; exact if_pos ⟨rfl, rfl, rfl⟩
theorem duties_send (c : Dev nD) (t : Fin 8) (ht : t ≠ 0) : (sched m).duties (sendCell c t) 0 = {0} := by
  dsimp only [sched]; rw [if_neg (fun h => not_bar_send c t h.2)]
  exact if_pos ⟨rfl, rfl, .inr (by show (sendT (SemLoc.dma (sendSA t).sem)).isSome = true; rw [sendT_send t ht]; rfl)⟩
theorem duties_recv (c : Dev nD) (t : Fin 8) (ht : t ≠ 0) : (sched m).duties (recvCell c t) 0 = {0} := by
  dsimp only [sched]; rw [if_neg (fun h => not_bar_recv c t h.2)]
  exact if_pos ⟨rfl, rfl, .inl (by show (recvT (SemLoc.dma (recvSA t).sem)).isSome = true; rw [recvT_recv t ht]; rfl)⟩
theorem duties_later (g : GSem nD τ sig) : ∀ r, 1 ≤ r → (sched m).duties g r = ∅ :=
  fun r hr => by dsimp only [sched]; rw [if_neg fun h => by omega, if_neg fun h => by omega]

/-! ## Amounts and expected units -/

theorem amount_bar (c : Dev nD) (d : Fin 8) : (sched m).amount (barCell c) 0 d = 1 := by
  dsimp only [sched]; exact if_pos rfl
theorem amount_send (c : Dev nD) (t d : Fin 8) : (sched m).amount (sendCell c t) 0 d = NS := by
  dsimp only [sched]; exact if_neg (send_ne_bar t)
theorem amount_recv (c : Dev nD) (t d : Fin 8) : (sched m).amount (recvCell c t) 0 d = NS := by
  dsimp only [sched]; exact if_neg (recv_ne_bar t)

theorem expect_bar (c : Dev nD) : (sched m).expect (barCell c) 0 = 7 := by
  unfold Schedule.expect Schedule.amountOf
  rw [duties_bar, Finset.sum_congr rfl fun d _ => amount_bar m c d, Finset.sum_const, smul_eq_mul, mul_one]
  decide
theorem expect_send (c : Dev nD) (t : Fin 8) (ht : t ≠ 0) : (sched m).expect (sendCell c t) 0 = NS := by
  unfold Schedule.expect Schedule.amountOf; rw [duties_send m c t ht, Finset.sum_singleton, amount_send]
theorem expect_recv (c : Dev nD) (t : Fin 8) (ht : t ≠ 0) : (sched m).expect (recvCell c t) 0 = NS := by
  unfold Schedule.expect Schedule.amountOf; rw [duties_recv m c t ht, Finset.sum_singleton, amount_recv]

/-! ## Payloads -/

theorem payload_bar (c : Dev nD) (t : Fin 8) : (sched m).payload (barCell c) 0 t = barPay c t := by
  dsimp only [sched]; exact if_pos rfl
theorem payload_send (c : Dev nD) (t : Fin 8) (ht : t ≠ 0) (d : Fin 8) :
    (sched m).payload (sendCell c t) 0 d = sendPay m c t := by
  dsimp only [sched]; rw [if_neg (send_ne_bar t), recvT_send t, sendT_send t ht]
theorem payload_recv (c : Dev nD) (t : Fin 8) (ht : t ≠ 0) (d : Fin 8) :
    (sched m).payload (recvCell c t) 0 d = recvPay m c t := by
  dsimp only [sched]; rw [if_neg (recv_ne_bar t), recvT_recv t ht]

/-- The rest of a barrier cell's round, no duty taken: the seven payloads in the order of the masks. -/
theorem rest_bar (c : Dev nD) :
    bigSep ((sched m).duties (barCell c) 0 \ ∅) (fun d => (sched m).payload (barCell c) 0 d)
      = iprop(barPay c 1 ∗ barPay c 2 ∗ barPay c 3 ∗ barPay c 4 ∗ barPay c 5 ∗ barPay c 6 ∗ barPay c 7) := by
  rw [Finset.sdiff_empty, duties_bar, bigSep_eq_bigSepL_of_eq [1, 2, 3, 4, 5, 6, 7] (by decide) (by decide)]
  simp only [bigSepL_cons_cons, bigSepL_singleton, payload_bar]
  rfl
theorem rest_send (c : Dev nD) (t : Fin 8) (ht : t ≠ 0) :
    bigSep ((sched m).duties (sendCell c t) 0 \ ∅) (fun d => (sched m).payload (sendCell c t) 0 d) = sendPay m c t := by
  rw [Finset.sdiff_empty, duties_send m c t ht, bigSep_singleton, payload_send m c t ht]
theorem rest_recv (c : Dev nD) (t : Fin 8) (ht : t ≠ 0) :
    bigSep ((sched m).duties (recvCell c t) 0 \ ∅) (fun d => (sched m).payload (recvCell c t) 0 d) = recvPay m c t := by
  rw [Finset.sdiff_empty, duties_recv m c t ht, bigSep_singleton, payload_recv m c t ht]

/-! ## The tables at each nonzero slot, with no side condition -/

theorem recvT_recv_1 : recvT (SemLoc.dma (recvSA 1).sem : SemLoc sig) = some 1 := recvT_recv 1 (by decide)
theorem sendT_send_1 : sendT (SemLoc.dma (sendSA 1).sem : SemLoc sig) = some 1 := sendT_send 1 (by decide)
theorem duties_send_1 (c : Dev nD) : (sched m).duties (sendCell c 1) 0 = {0} := duties_send m c 1 (by decide)
theorem duties_recv_1 (c : Dev nD) : (sched m).duties (recvCell c 1) 0 = {0} := duties_recv m c 1 (by decide)
theorem expect_send_1 (c : Dev nD) : (sched m).expect (sendCell c 1) 0 = NS := expect_send m c 1 (by decide)
theorem expect_recv_1 (c : Dev nD) : (sched m).expect (recvCell c 1) 0 = NS := expect_recv m c 1 (by decide)
theorem payload_send_1 (c : Dev nD) (d : Fin 8) : (sched m).payload (sendCell c 1) 0 d = sendPay m c 1 := payload_send m c 1 (by decide) d
theorem payload_recv_1 (c : Dev nD) (d : Fin 8) : (sched m).payload (recvCell c 1) 0 d = recvPay m c 1 := payload_recv m c 1 (by decide) d
theorem rest_send_1 (c : Dev nD) :
    bigSep ((sched m).duties (sendCell c 1) 0 \ ∅) (fun d => (sched m).payload (sendCell c 1) 0 d) = sendPay m c 1 := rest_send m c 1 (by decide)
theorem rest_recv_1 (c : Dev nD) :
    bigSep ((sched m).duties (recvCell c 1) 0 \ ∅) (fun d => (sched m).payload (recvCell c 1) 0 d) = recvPay m c 1 := rest_recv m c 1 (by decide)

theorem recvT_recv_2 : recvT (SemLoc.dma (recvSA 2).sem : SemLoc sig) = some 2 := recvT_recv 2 (by decide)
theorem sendT_send_2 : sendT (SemLoc.dma (sendSA 2).sem : SemLoc sig) = some 2 := sendT_send 2 (by decide)
theorem duties_send_2 (c : Dev nD) : (sched m).duties (sendCell c 2) 0 = {0} := duties_send m c 2 (by decide)
theorem duties_recv_2 (c : Dev nD) : (sched m).duties (recvCell c 2) 0 = {0} := duties_recv m c 2 (by decide)
theorem expect_send_2 (c : Dev nD) : (sched m).expect (sendCell c 2) 0 = NS := expect_send m c 2 (by decide)
theorem expect_recv_2 (c : Dev nD) : (sched m).expect (recvCell c 2) 0 = NS := expect_recv m c 2 (by decide)
theorem payload_send_2 (c : Dev nD) (d : Fin 8) : (sched m).payload (sendCell c 2) 0 d = sendPay m c 2 := payload_send m c 2 (by decide) d
theorem payload_recv_2 (c : Dev nD) (d : Fin 8) : (sched m).payload (recvCell c 2) 0 d = recvPay m c 2 := payload_recv m c 2 (by decide) d
theorem rest_send_2 (c : Dev nD) :
    bigSep ((sched m).duties (sendCell c 2) 0 \ ∅) (fun d => (sched m).payload (sendCell c 2) 0 d) = sendPay m c 2 := rest_send m c 2 (by decide)
theorem rest_recv_2 (c : Dev nD) :
    bigSep ((sched m).duties (recvCell c 2) 0 \ ∅) (fun d => (sched m).payload (recvCell c 2) 0 d) = recvPay m c 2 := rest_recv m c 2 (by decide)

theorem recvT_recv_3 : recvT (SemLoc.dma (recvSA 3).sem : SemLoc sig) = some 3 := recvT_recv 3 (by decide)
theorem sendT_send_3 : sendT (SemLoc.dma (sendSA 3).sem : SemLoc sig) = some 3 := sendT_send 3 (by decide)
theorem duties_send_3 (c : Dev nD) : (sched m).duties (sendCell c 3) 0 = {0} := duties_send m c 3 (by decide)
theorem duties_recv_3 (c : Dev nD) : (sched m).duties (recvCell c 3) 0 = {0} := duties_recv m c 3 (by decide)
theorem expect_send_3 (c : Dev nD) : (sched m).expect (sendCell c 3) 0 = NS := expect_send m c 3 (by decide)
theorem expect_recv_3 (c : Dev nD) : (sched m).expect (recvCell c 3) 0 = NS := expect_recv m c 3 (by decide)
theorem payload_send_3 (c : Dev nD) (d : Fin 8) : (sched m).payload (sendCell c 3) 0 d = sendPay m c 3 := payload_send m c 3 (by decide) d
theorem payload_recv_3 (c : Dev nD) (d : Fin 8) : (sched m).payload (recvCell c 3) 0 d = recvPay m c 3 := payload_recv m c 3 (by decide) d
theorem rest_send_3 (c : Dev nD) :
    bigSep ((sched m).duties (sendCell c 3) 0 \ ∅) (fun d => (sched m).payload (sendCell c 3) 0 d) = sendPay m c 3 := rest_send m c 3 (by decide)
theorem rest_recv_3 (c : Dev nD) :
    bigSep ((sched m).duties (recvCell c 3) 0 \ ∅) (fun d => (sched m).payload (recvCell c 3) 0 d) = recvPay m c 3 := rest_recv m c 3 (by decide)

theorem recvT_recv_4 : recvT (SemLoc.dma (recvSA 4).sem : SemLoc sig) = some 4 := recvT_recv 4 (by decide)
theorem sendT_send_4 : sendT (SemLoc.dma (sendSA 4).sem : SemLoc sig) = some 4 := sendT_send 4 (by decide)
theorem duties_send_4 (c : Dev nD) : (sched m).duties (sendCell c 4) 0 = {0} := duties_send m c 4 (by decide)
theorem duties_recv_4 (c : Dev nD) : (sched m).duties (recvCell c 4) 0 = {0} := duties_recv m c 4 (by decide)
theorem expect_send_4 (c : Dev nD) : (sched m).expect (sendCell c 4) 0 = NS := expect_send m c 4 (by decide)
theorem expect_recv_4 (c : Dev nD) : (sched m).expect (recvCell c 4) 0 = NS := expect_recv m c 4 (by decide)
theorem payload_send_4 (c : Dev nD) (d : Fin 8) : (sched m).payload (sendCell c 4) 0 d = sendPay m c 4 := payload_send m c 4 (by decide) d
theorem payload_recv_4 (c : Dev nD) (d : Fin 8) : (sched m).payload (recvCell c 4) 0 d = recvPay m c 4 := payload_recv m c 4 (by decide) d
theorem rest_send_4 (c : Dev nD) :
    bigSep ((sched m).duties (sendCell c 4) 0 \ ∅) (fun d => (sched m).payload (sendCell c 4) 0 d) = sendPay m c 4 := rest_send m c 4 (by decide)
theorem rest_recv_4 (c : Dev nD) :
    bigSep ((sched m).duties (recvCell c 4) 0 \ ∅) (fun d => (sched m).payload (recvCell c 4) 0 d) = recvPay m c 4 := rest_recv m c 4 (by decide)

theorem recvT_recv_5 : recvT (SemLoc.dma (recvSA 5).sem : SemLoc sig) = some 5 := recvT_recv 5 (by decide)
theorem sendT_send_5 : sendT (SemLoc.dma (sendSA 5).sem : SemLoc sig) = some 5 := sendT_send 5 (by decide)
theorem duties_send_5 (c : Dev nD) : (sched m).duties (sendCell c 5) 0 = {0} := duties_send m c 5 (by decide)
theorem duties_recv_5 (c : Dev nD) : (sched m).duties (recvCell c 5) 0 = {0} := duties_recv m c 5 (by decide)
theorem expect_send_5 (c : Dev nD) : (sched m).expect (sendCell c 5) 0 = NS := expect_send m c 5 (by decide)
theorem expect_recv_5 (c : Dev nD) : (sched m).expect (recvCell c 5) 0 = NS := expect_recv m c 5 (by decide)
theorem payload_send_5 (c : Dev nD) (d : Fin 8) : (sched m).payload (sendCell c 5) 0 d = sendPay m c 5 := payload_send m c 5 (by decide) d
theorem payload_recv_5 (c : Dev nD) (d : Fin 8) : (sched m).payload (recvCell c 5) 0 d = recvPay m c 5 := payload_recv m c 5 (by decide) d
theorem rest_send_5 (c : Dev nD) :
    bigSep ((sched m).duties (sendCell c 5) 0 \ ∅) (fun d => (sched m).payload (sendCell c 5) 0 d) = sendPay m c 5 := rest_send m c 5 (by decide)
theorem rest_recv_5 (c : Dev nD) :
    bigSep ((sched m).duties (recvCell c 5) 0 \ ∅) (fun d => (sched m).payload (recvCell c 5) 0 d) = recvPay m c 5 := rest_recv m c 5 (by decide)

theorem recvT_recv_6 : recvT (SemLoc.dma (recvSA 6).sem : SemLoc sig) = some 6 := recvT_recv 6 (by decide)
theorem sendT_send_6 : sendT (SemLoc.dma (sendSA 6).sem : SemLoc sig) = some 6 := sendT_send 6 (by decide)
theorem duties_send_6 (c : Dev nD) : (sched m).duties (sendCell c 6) 0 = {0} := duties_send m c 6 (by decide)
theorem duties_recv_6 (c : Dev nD) : (sched m).duties (recvCell c 6) 0 = {0} := duties_recv m c 6 (by decide)
theorem expect_send_6 (c : Dev nD) : (sched m).expect (sendCell c 6) 0 = NS := expect_send m c 6 (by decide)
theorem expect_recv_6 (c : Dev nD) : (sched m).expect (recvCell c 6) 0 = NS := expect_recv m c 6 (by decide)
theorem payload_send_6 (c : Dev nD) (d : Fin 8) : (sched m).payload (sendCell c 6) 0 d = sendPay m c 6 := payload_send m c 6 (by decide) d
theorem payload_recv_6 (c : Dev nD) (d : Fin 8) : (sched m).payload (recvCell c 6) 0 d = recvPay m c 6 := payload_recv m c 6 (by decide) d
theorem rest_send_6 (c : Dev nD) :
    bigSep ((sched m).duties (sendCell c 6) 0 \ ∅) (fun d => (sched m).payload (sendCell c 6) 0 d) = sendPay m c 6 := rest_send m c 6 (by decide)
theorem rest_recv_6 (c : Dev nD) :
    bigSep ((sched m).duties (recvCell c 6) 0 \ ∅) (fun d => (sched m).payload (recvCell c 6) 0 d) = recvPay m c 6 := rest_recv m c 6 (by decide)

theorem recvT_recv_7 : recvT (SemLoc.dma (recvSA 7).sem : SemLoc sig) = some 7 := recvT_recv 7 (by decide)
theorem sendT_send_7 : sendT (SemLoc.dma (sendSA 7).sem : SemLoc sig) = some 7 := sendT_send 7 (by decide)
theorem duties_send_7 (c : Dev nD) : (sched m).duties (sendCell c 7) 0 = {0} := duties_send m c 7 (by decide)
theorem duties_recv_7 (c : Dev nD) : (sched m).duties (recvCell c 7) 0 = {0} := duties_recv m c 7 (by decide)
theorem expect_send_7 (c : Dev nD) : (sched m).expect (sendCell c 7) 0 = NS := expect_send m c 7 (by decide)
theorem expect_recv_7 (c : Dev nD) : (sched m).expect (recvCell c 7) 0 = NS := expect_recv m c 7 (by decide)
theorem payload_send_7 (c : Dev nD) (d : Fin 8) : (sched m).payload (sendCell c 7) 0 d = sendPay m c 7 := payload_send m c 7 (by decide) d
theorem payload_recv_7 (c : Dev nD) (d : Fin 8) : (sched m).payload (recvCell c 7) 0 d = recvPay m c 7 := payload_recv m c 7 (by decide) d
theorem rest_send_7 (c : Dev nD) :
    bigSep ((sched m).duties (sendCell c 7) 0 \ ∅) (fun d => (sched m).payload (sendCell c 7) 0 d) = sendPay m c 7 := rest_send m c 7 (by decide)
theorem rest_recv_7 (c : Dev nD) :
    bigSep ((sched m).duties (recvCell c 7) 0 \ ∅) (fun d => (sched m).payload (recvCell c 7) 0 d) = recvPay m c 7 := rest_recv m c 7 (by decide)

/-! ## The payloads at each nonzero slot, spelt out -/

theorem barPay_unfold_1 (c : Dev nD) :
    barPay (F := F) c 1 = iprop(∃ f, (rM 1).view.loc (px c 1 : Thread nD τ) ↦[(rM 1).view.set]{fullShare} f) := rfl
theorem recvPay_1 (c : Dev nD) :
    recvPay m c 1 = ((rM 1).view.loc (c : Thread nD τ) ↦[(rM 1).view.set]{fullShare} recvV m c) := rfl
theorem sendPay_1 (c : Dev nD) :
    sendPay m c 1 = ((sM 1).view.loc (c : Thread nD τ) ↦[(sM 1).view.set]{fullShare} sendV m c) := rfl
theorem barPay_unfold_2 (c : Dev nD) :
    barPay (F := F) c 2 = iprop(∃ f, (rM 2).view.loc (px c 2 : Thread nD τ) ↦[(rM 2).view.set]{fullShare} f) := rfl
theorem recvPay_2 (c : Dev nD) :
    recvPay m c 2 = ((rM 2).view.loc (c : Thread nD τ) ↦[(rM 2).view.set]{fullShare} recvV m c) := rfl
theorem sendPay_2 (c : Dev nD) :
    sendPay m c 2 = ((sM 2).view.loc (c : Thread nD τ) ↦[(sM 2).view.set]{fullShare} sendV m c) := rfl
theorem barPay_unfold_3 (c : Dev nD) :
    barPay (F := F) c 3 = iprop(∃ f, (rM 3).view.loc (px c 3 : Thread nD τ) ↦[(rM 3).view.set]{fullShare} f) := rfl
theorem recvPay_3 (c : Dev nD) :
    recvPay m c 3 = ((rM 3).view.loc (c : Thread nD τ) ↦[(rM 3).view.set]{fullShare} recvV m c) := rfl
theorem sendPay_3 (c : Dev nD) :
    sendPay m c 3 = ((sM 3).view.loc (c : Thread nD τ) ↦[(sM 3).view.set]{fullShare} sendV m c) := rfl
theorem barPay_unfold_4 (c : Dev nD) :
    barPay (F := F) c 4 = iprop(∃ f, (rM 4).view.loc (px c 4 : Thread nD τ) ↦[(rM 4).view.set]{fullShare} f) := rfl
theorem recvPay_4 (c : Dev nD) :
    recvPay m c 4 = ((rM 4).view.loc (c : Thread nD τ) ↦[(rM 4).view.set]{fullShare} recvV m c) := rfl
theorem sendPay_4 (c : Dev nD) :
    sendPay m c 4 = ((sM 4).view.loc (c : Thread nD τ) ↦[(sM 4).view.set]{fullShare} sendV m c) := rfl
theorem barPay_unfold_5 (c : Dev nD) :
    barPay (F := F) c 5 = iprop(∃ f, (rM 5).view.loc (px c 5 : Thread nD τ) ↦[(rM 5).view.set]{fullShare} f) := rfl
theorem recvPay_5 (c : Dev nD) :
    recvPay m c 5 = ((rM 5).view.loc (c : Thread nD τ) ↦[(rM 5).view.set]{fullShare} recvV m c) := rfl
theorem sendPay_5 (c : Dev nD) :
    sendPay m c 5 = ((sM 5).view.loc (c : Thread nD τ) ↦[(sM 5).view.set]{fullShare} sendV m c) := rfl
theorem barPay_unfold_6 (c : Dev nD) :
    barPay (F := F) c 6 = iprop(∃ f, (rM 6).view.loc (px c 6 : Thread nD τ) ↦[(rM 6).view.set]{fullShare} f) := rfl
theorem recvPay_6 (c : Dev nD) :
    recvPay m c 6 = ((rM 6).view.loc (c : Thread nD τ) ↦[(rM 6).view.set]{fullShare} recvV m c) := rfl
theorem sendPay_6 (c : Dev nD) :
    sendPay m c 6 = ((sM 6).view.loc (c : Thread nD τ) ↦[(sM 6).view.set]{fullShare} sendV m c) := rfl
theorem barPay_unfold_7 (c : Dev nD) :
    barPay (F := F) c 7 = iprop(∃ f, (rM 7).view.loc (px c 7 : Thread nD τ) ↦[(rM 7).view.set]{fullShare} f) := rfl
theorem recvPay_7 (c : Dev nD) :
    recvPay m c 7 = ((rM 7).view.loc (c : Thread nD τ) ↦[(rM 7).view.set]{fullShare} recvV m c) := rfl
theorem sendPay_7 (c : Dev nD) :
    sendPay m c 7 = ((sM 7).view.loc (c : Thread nD τ) ↦[(sM 7).view.set]{fullShare} sendV m c) := rfl

/-! ## A barrier cell's payloads at each device and nonzero mask, the paying device computed -/

theorem pay_bar_0_1 : (sched m).payload (barCell (0 : Dev nD)) 0 1 = iprop(∃ f, (rM 1).view.loc ((1 : Dev nD) : Thread nD τ) ↦[(rM 1).view.set]{fullShare} f) :=
  (payload_bar m 0 1).trans rfl
theorem pay_bar_0_2 : (sched m).payload (barCell (0 : Dev nD)) 0 2 = iprop(∃ f, (rM 2).view.loc ((2 : Dev nD) : Thread nD τ) ↦[(rM 2).view.set]{fullShare} f) :=
  (payload_bar m 0 2).trans rfl
theorem pay_bar_0_3 : (sched m).payload (barCell (0 : Dev nD)) 0 3 = iprop(∃ f, (rM 3).view.loc ((3 : Dev nD) : Thread nD τ) ↦[(rM 3).view.set]{fullShare} f) :=
  (payload_bar m 0 3).trans rfl
theorem pay_bar_0_4 : (sched m).payload (barCell (0 : Dev nD)) 0 4 = iprop(∃ f, (rM 4).view.loc ((4 : Dev nD) : Thread nD τ) ↦[(rM 4).view.set]{fullShare} f) :=
  (payload_bar m 0 4).trans rfl
theorem pay_bar_0_5 : (sched m).payload (barCell (0 : Dev nD)) 0 5 = iprop(∃ f, (rM 5).view.loc ((5 : Dev nD) : Thread nD τ) ↦[(rM 5).view.set]{fullShare} f) :=
  (payload_bar m 0 5).trans rfl
theorem pay_bar_0_6 : (sched m).payload (barCell (0 : Dev nD)) 0 6 = iprop(∃ f, (rM 6).view.loc ((6 : Dev nD) : Thread nD τ) ↦[(rM 6).view.set]{fullShare} f) :=
  (payload_bar m 0 6).trans rfl
theorem pay_bar_0_7 : (sched m).payload (barCell (0 : Dev nD)) 0 7 = iprop(∃ f, (rM 7).view.loc ((7 : Dev nD) : Thread nD τ) ↦[(rM 7).view.set]{fullShare} f) :=
  (payload_bar m 0 7).trans rfl
theorem pay_bar_1_1 : (sched m).payload (barCell (1 : Dev nD)) 0 1 = iprop(∃ f, (rM 1).view.loc ((0 : Dev nD) : Thread nD τ) ↦[(rM 1).view.set]{fullShare} f) :=
  (payload_bar m 1 1).trans rfl
theorem pay_bar_1_2 : (sched m).payload (barCell (1 : Dev nD)) 0 2 = iprop(∃ f, (rM 2).view.loc ((3 : Dev nD) : Thread nD τ) ↦[(rM 2).view.set]{fullShare} f) :=
  (payload_bar m 1 2).trans rfl
theorem pay_bar_1_3 : (sched m).payload (barCell (1 : Dev nD)) 0 3 = iprop(∃ f, (rM 3).view.loc ((2 : Dev nD) : Thread nD τ) ↦[(rM 3).view.set]{fullShare} f) :=
  (payload_bar m 1 3).trans rfl
theorem pay_bar_1_4 : (sched m).payload (barCell (1 : Dev nD)) 0 4 = iprop(∃ f, (rM 4).view.loc ((5 : Dev nD) : Thread nD τ) ↦[(rM 4).view.set]{fullShare} f) :=
  (payload_bar m 1 4).trans rfl
theorem pay_bar_1_5 : (sched m).payload (barCell (1 : Dev nD)) 0 5 = iprop(∃ f, (rM 5).view.loc ((4 : Dev nD) : Thread nD τ) ↦[(rM 5).view.set]{fullShare} f) :=
  (payload_bar m 1 5).trans rfl
theorem pay_bar_1_6 : (sched m).payload (barCell (1 : Dev nD)) 0 6 = iprop(∃ f, (rM 6).view.loc ((7 : Dev nD) : Thread nD τ) ↦[(rM 6).view.set]{fullShare} f) :=
  (payload_bar m 1 6).trans rfl
theorem pay_bar_1_7 : (sched m).payload (barCell (1 : Dev nD)) 0 7 = iprop(∃ f, (rM 7).view.loc ((6 : Dev nD) : Thread nD τ) ↦[(rM 7).view.set]{fullShare} f) :=
  (payload_bar m 1 7).trans rfl
theorem pay_bar_2_1 : (sched m).payload (barCell (2 : Dev nD)) 0 1 = iprop(∃ f, (rM 1).view.loc ((3 : Dev nD) : Thread nD τ) ↦[(rM 1).view.set]{fullShare} f) :=
  (payload_bar m 2 1).trans rfl
theorem pay_bar_2_2 : (sched m).payload (barCell (2 : Dev nD)) 0 2 = iprop(∃ f, (rM 2).view.loc ((0 : Dev nD) : Thread nD τ) ↦[(rM 2).view.set]{fullShare} f) :=
  (payload_bar m 2 2).trans rfl
theorem pay_bar_2_3 : (sched m).payload (barCell (2 : Dev nD)) 0 3 = iprop(∃ f, (rM 3).view.loc ((1 : Dev nD) : Thread nD τ) ↦[(rM 3).view.set]{fullShare} f) :=
  (payload_bar m 2 3).trans rfl
theorem pay_bar_2_4 : (sched m).payload (barCell (2 : Dev nD)) 0 4 = iprop(∃ f, (rM 4).view.loc ((6 : Dev nD) : Thread nD τ) ↦[(rM 4).view.set]{fullShare} f) :=
  (payload_bar m 2 4).trans rfl
theorem pay_bar_2_5 : (sched m).payload (barCell (2 : Dev nD)) 0 5 = iprop(∃ f, (rM 5).view.loc ((7 : Dev nD) : Thread nD τ) ↦[(rM 5).view.set]{fullShare} f) :=
  (payload_bar m 2 5).trans rfl
theorem pay_bar_2_6 : (sched m).payload (barCell (2 : Dev nD)) 0 6 = iprop(∃ f, (rM 6).view.loc ((4 : Dev nD) : Thread nD τ) ↦[(rM 6).view.set]{fullShare} f) :=
  (payload_bar m 2 6).trans rfl
theorem pay_bar_2_7 : (sched m).payload (barCell (2 : Dev nD)) 0 7 = iprop(∃ f, (rM 7).view.loc ((5 : Dev nD) : Thread nD τ) ↦[(rM 7).view.set]{fullShare} f) :=
  (payload_bar m 2 7).trans rfl
theorem pay_bar_3_1 : (sched m).payload (barCell (3 : Dev nD)) 0 1 = iprop(∃ f, (rM 1).view.loc ((2 : Dev nD) : Thread nD τ) ↦[(rM 1).view.set]{fullShare} f) :=
  (payload_bar m 3 1).trans rfl
theorem pay_bar_3_2 : (sched m).payload (barCell (3 : Dev nD)) 0 2 = iprop(∃ f, (rM 2).view.loc ((1 : Dev nD) : Thread nD τ) ↦[(rM 2).view.set]{fullShare} f) :=
  (payload_bar m 3 2).trans rfl
theorem pay_bar_3_3 : (sched m).payload (barCell (3 : Dev nD)) 0 3 = iprop(∃ f, (rM 3).view.loc ((0 : Dev nD) : Thread nD τ) ↦[(rM 3).view.set]{fullShare} f) :=
  (payload_bar m 3 3).trans rfl
theorem pay_bar_3_4 : (sched m).payload (barCell (3 : Dev nD)) 0 4 = iprop(∃ f, (rM 4).view.loc ((7 : Dev nD) : Thread nD τ) ↦[(rM 4).view.set]{fullShare} f) :=
  (payload_bar m 3 4).trans rfl
theorem pay_bar_3_5 : (sched m).payload (barCell (3 : Dev nD)) 0 5 = iprop(∃ f, (rM 5).view.loc ((6 : Dev nD) : Thread nD τ) ↦[(rM 5).view.set]{fullShare} f) :=
  (payload_bar m 3 5).trans rfl
theorem pay_bar_3_6 : (sched m).payload (barCell (3 : Dev nD)) 0 6 = iprop(∃ f, (rM 6).view.loc ((5 : Dev nD) : Thread nD τ) ↦[(rM 6).view.set]{fullShare} f) :=
  (payload_bar m 3 6).trans rfl
theorem pay_bar_3_7 : (sched m).payload (barCell (3 : Dev nD)) 0 7 = iprop(∃ f, (rM 7).view.loc ((4 : Dev nD) : Thread nD τ) ↦[(rM 7).view.set]{fullShare} f) :=
  (payload_bar m 3 7).trans rfl
theorem pay_bar_4_1 : (sched m).payload (barCell (4 : Dev nD)) 0 1 = iprop(∃ f, (rM 1).view.loc ((5 : Dev nD) : Thread nD τ) ↦[(rM 1).view.set]{fullShare} f) :=
  (payload_bar m 4 1).trans rfl
theorem pay_bar_4_2 : (sched m).payload (barCell (4 : Dev nD)) 0 2 = iprop(∃ f, (rM 2).view.loc ((6 : Dev nD) : Thread nD τ) ↦[(rM 2).view.set]{fullShare} f) :=
  (payload_bar m 4 2).trans rfl
theorem pay_bar_4_3 : (sched m).payload (barCell (4 : Dev nD)) 0 3 = iprop(∃ f, (rM 3).view.loc ((7 : Dev nD) : Thread nD τ) ↦[(rM 3).view.set]{fullShare} f) :=
  (payload_bar m 4 3).trans rfl
theorem pay_bar_4_4 : (sched m).payload (barCell (4 : Dev nD)) 0 4 = iprop(∃ f, (rM 4).view.loc ((0 : Dev nD) : Thread nD τ) ↦[(rM 4).view.set]{fullShare} f) :=
  (payload_bar m 4 4).trans rfl
theorem pay_bar_4_5 : (sched m).payload (barCell (4 : Dev nD)) 0 5 = iprop(∃ f, (rM 5).view.loc ((1 : Dev nD) : Thread nD τ) ↦[(rM 5).view.set]{fullShare} f) :=
  (payload_bar m 4 5).trans rfl
theorem pay_bar_4_6 : (sched m).payload (barCell (4 : Dev nD)) 0 6 = iprop(∃ f, (rM 6).view.loc ((2 : Dev nD) : Thread nD τ) ↦[(rM 6).view.set]{fullShare} f) :=
  (payload_bar m 4 6).trans rfl
theorem pay_bar_4_7 : (sched m).payload (barCell (4 : Dev nD)) 0 7 = iprop(∃ f, (rM 7).view.loc ((3 : Dev nD) : Thread nD τ) ↦[(rM 7).view.set]{fullShare} f) :=
  (payload_bar m 4 7).trans rfl
theorem pay_bar_5_1 : (sched m).payload (barCell (5 : Dev nD)) 0 1 = iprop(∃ f, (rM 1).view.loc ((4 : Dev nD) : Thread nD τ) ↦[(rM 1).view.set]{fullShare} f) :=
  (payload_bar m 5 1).trans rfl
theorem pay_bar_5_2 : (sched m).payload (barCell (5 : Dev nD)) 0 2 = iprop(∃ f, (rM 2).view.loc ((7 : Dev nD) : Thread nD τ) ↦[(rM 2).view.set]{fullShare} f) :=
  (payload_bar m 5 2).trans rfl
theorem pay_bar_5_3 : (sched m).payload (barCell (5 : Dev nD)) 0 3 = iprop(∃ f, (rM 3).view.loc ((6 : Dev nD) : Thread nD τ) ↦[(rM 3).view.set]{fullShare} f) :=
  (payload_bar m 5 3).trans rfl
theorem pay_bar_5_4 : (sched m).payload (barCell (5 : Dev nD)) 0 4 = iprop(∃ f, (rM 4).view.loc ((1 : Dev nD) : Thread nD τ) ↦[(rM 4).view.set]{fullShare} f) :=
  (payload_bar m 5 4).trans rfl
theorem pay_bar_5_5 : (sched m).payload (barCell (5 : Dev nD)) 0 5 = iprop(∃ f, (rM 5).view.loc ((0 : Dev nD) : Thread nD τ) ↦[(rM 5).view.set]{fullShare} f) :=
  (payload_bar m 5 5).trans rfl
theorem pay_bar_5_6 : (sched m).payload (barCell (5 : Dev nD)) 0 6 = iprop(∃ f, (rM 6).view.loc ((3 : Dev nD) : Thread nD τ) ↦[(rM 6).view.set]{fullShare} f) :=
  (payload_bar m 5 6).trans rfl
theorem pay_bar_5_7 : (sched m).payload (barCell (5 : Dev nD)) 0 7 = iprop(∃ f, (rM 7).view.loc ((2 : Dev nD) : Thread nD τ) ↦[(rM 7).view.set]{fullShare} f) :=
  (payload_bar m 5 7).trans rfl
theorem pay_bar_6_1 : (sched m).payload (barCell (6 : Dev nD)) 0 1 = iprop(∃ f, (rM 1).view.loc ((7 : Dev nD) : Thread nD τ) ↦[(rM 1).view.set]{fullShare} f) :=
  (payload_bar m 6 1).trans rfl
theorem pay_bar_6_2 : (sched m).payload (barCell (6 : Dev nD)) 0 2 = iprop(∃ f, (rM 2).view.loc ((4 : Dev nD) : Thread nD τ) ↦[(rM 2).view.set]{fullShare} f) :=
  (payload_bar m 6 2).trans rfl
theorem pay_bar_6_3 : (sched m).payload (barCell (6 : Dev nD)) 0 3 = iprop(∃ f, (rM 3).view.loc ((5 : Dev nD) : Thread nD τ) ↦[(rM 3).view.set]{fullShare} f) :=
  (payload_bar m 6 3).trans rfl
theorem pay_bar_6_4 : (sched m).payload (barCell (6 : Dev nD)) 0 4 = iprop(∃ f, (rM 4).view.loc ((2 : Dev nD) : Thread nD τ) ↦[(rM 4).view.set]{fullShare} f) :=
  (payload_bar m 6 4).trans rfl
theorem pay_bar_6_5 : (sched m).payload (barCell (6 : Dev nD)) 0 5 = iprop(∃ f, (rM 5).view.loc ((3 : Dev nD) : Thread nD τ) ↦[(rM 5).view.set]{fullShare} f) :=
  (payload_bar m 6 5).trans rfl
theorem pay_bar_6_6 : (sched m).payload (barCell (6 : Dev nD)) 0 6 = iprop(∃ f, (rM 6).view.loc ((0 : Dev nD) : Thread nD τ) ↦[(rM 6).view.set]{fullShare} f) :=
  (payload_bar m 6 6).trans rfl
theorem pay_bar_6_7 : (sched m).payload (barCell (6 : Dev nD)) 0 7 = iprop(∃ f, (rM 7).view.loc ((1 : Dev nD) : Thread nD τ) ↦[(rM 7).view.set]{fullShare} f) :=
  (payload_bar m 6 7).trans rfl
theorem pay_bar_7_1 : (sched m).payload (barCell (7 : Dev nD)) 0 1 = iprop(∃ f, (rM 1).view.loc ((6 : Dev nD) : Thread nD τ) ↦[(rM 1).view.set]{fullShare} f) :=
  (payload_bar m 7 1).trans rfl
theorem pay_bar_7_2 : (sched m).payload (barCell (7 : Dev nD)) 0 2 = iprop(∃ f, (rM 2).view.loc ((5 : Dev nD) : Thread nD τ) ↦[(rM 2).view.set]{fullShare} f) :=
  (payload_bar m 7 2).trans rfl
theorem pay_bar_7_3 : (sched m).payload (barCell (7 : Dev nD)) 0 3 = iprop(∃ f, (rM 3).view.loc ((4 : Dev nD) : Thread nD τ) ↦[(rM 3).view.set]{fullShare} f) :=
  (payload_bar m 7 3).trans rfl
theorem pay_bar_7_4 : (sched m).payload (barCell (7 : Dev nD)) 0 4 = iprop(∃ f, (rM 4).view.loc ((3 : Dev nD) : Thread nD τ) ↦[(rM 4).view.set]{fullShare} f) :=
  (payload_bar m 7 4).trans rfl
theorem pay_bar_7_5 : (sched m).payload (barCell (7 : Dev nD)) 0 5 = iprop(∃ f, (rM 5).view.loc ((2 : Dev nD) : Thread nD τ) ↦[(rM 5).view.set]{fullShare} f) :=
  (payload_bar m 7 5).trans rfl
theorem pay_bar_7_6 : (sched m).payload (barCell (7 : Dev nD)) 0 6 = iprop(∃ f, (rM 6).view.loc ((1 : Dev nD) : Thread nD τ) ↦[(rM 6).view.set]{fullShare} f) :=
  (payload_bar m 7 6).trans rfl
theorem pay_bar_7_7 : (sched m).payload (barCell (7 : Dev nD)) 0 7 = iprop(∃ f, (rM 7).view.loc ((0 : Dev nD) : Thread nD τ) ↦[(rM 7).view.set]{fullShare} f) :=
  (payload_bar m 7 7).trans rfl

/-- info: 'Cert.KernelIdeal.A2A.rest_bar' depends on axioms: [propext, Classical.choice, Quot.sound] -/
#guard_msgs in #print axioms rest_bar

end Cert.KernelIdeal.A2A

end
-- ==== Proof.SchedInst.lean ====
/-
  Every payload of the exchange's schedule is an assertion a cell's invariant can store: each is a points-to of a slot, at
  fixed or at some contents.
-/
import proofs.«900796_g7700000000000797_dist_gemm_a2a_m4096_k4096_n2048_f32_gelu_v7x_i8_1_alg».proof.Proof.SchedTab

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Every payload can be stored in a cell's invariant -/

instance slotAny_storable (c : Dev nD) (t : Fin 8) : BI.Storable (upEmb : UEmb _ 𝕄) (slotAny (F := F) c t) := by
  unfold slotAny; split <;> first | infer_instance | (exfalso; omega)
instance barPay_storable (c : Dev nD) (t : Fin 8) : BI.Storable (upEmb : UEmb _ 𝕄) (barPay (F := F) c t) := by
  unfold barPay; infer_instance
instance recvPay_storable (c : Dev nD) (t : Fin 8) : BI.Storable (upEmb : UEmb _ 𝕄) (recvPay m c t) := by
  unfold recvPay; split <;> first | infer_instance | (exfalso; omega)
instance sendPay_storable (c : Dev nD) (t : Fin 8) : BI.Storable (upEmb : UEmb _ 𝕄) (sendPay m c t) := by
  unfold sendPay; split <;> first | infer_instance | (exfalso; omega)
instance sched_payload_storable (g : GSem nD τ sig) (r : ℕ) (d : Fin 8) :
    BI.Storable (upEmb : UEmb _ 𝕄) ((sched m).payload g r d) := by
  dsimp only [sched]
  (repeat' split) <;> infer_instance

end Cert.KernelIdeal.A2A

end
-- ==== Proof.Glob.lean ====
/-
  The global allocation step of the launch. The launch element of the exchange's algebra deals every device the round
  state, the position and the reached-round fact of its fifteen cells and the twenty-one duty tokens minted on them. From
  the fifteen counters at zero each device allocates its cells' invariants; the other fourteen scoped counters stay
  plain. Then the devices exchange: every device learns (persistently) the invariants and reached-round facts of the cells
  it pays, and the tokens travel to their payers: duty t of a barrier cell and the duty of receive cell t go to the device
  at mask t from the owner; the duty of a send cell stays.
-/
import proofs.«900796_g7700000000000797_dist_gemm_a2a_m4096_k4096_n2048_f32_gelu_v7x_i8_1_alg».proof.Proof.Data
import proofs.«900796_g7700000000000797_dist_gemm_a2a_m4096_k4096_n2048_f32_gelu_v7x_i8_1_alg».proof.Proof.SchedInst
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own scoped semaphores, and the exchange's cells -/

/-- The kernel's own scoped semaphores: the DMA semaphores 1 to 28 (semaphore 0 is the staging semaphore of the result). -/
abbrev osem : Fin 28 → SemLoc sig := fun q => .dma (⟨q.val + 1, by have := q.isLt; show q.val + 1 < 29; omega⟩ : DmaSem sig)

theorem ownSemFacts : Pipeline.OwnSemFacts cfg0.spec osem := by decide

/-- The semaphore of a device's `k`-th cell: the barrier's, then the send and the receive semaphore of each nonzero slot. -/
abbrev csem : Fin 15 → SemLoc sig := fun
  | 0 => .reg barS
  | 1 => .dma (sendSA 1).sem | 2 => .dma (recvSA 1).sem
  | 3 => .dma (sendSA 2).sem | 4 => .dma (recvSA 2).sem
  | 5 => .dma (sendSA 3).sem | 6 => .dma (recvSA 3).sem
  | 7 => .dma (sendSA 4).sem | 8 => .dma (recvSA 4).sem
  | 9 => .dma (sendSA 5).sem | 10 => .dma (recvSA 5).sem
  | 11 => .dma (sendSA 6).sem | 12 => .dma (recvSA 6).sem
  | 13 => .dma (sendSA 7).sem | 14 => .dma (recvSA 7).sem
abbrev kcell (ck : Dev nD × Fin 15) : GSem nD τ sig := ((ck.1 : Thread nD τ), csem ck.2)

theorem csem_injective : Function.Injective csem := by decide

theorem kcell_injective : Function.Injective (kcell : Dev nD × Fin 15 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def xCells : Finset (GSem nD τ sig) := Finset.univ.map ⟨kcell, kcell_injective⟩

/-- The duty tokens minted on a device's own cells: the seven duties of its barrier cell, the one duty of each send cell and
    of each receive cell. -/
abbrev tokOf (cj : Dev nD × Fin 21) : GSem nD τ sig × ℕ × Fin 8 := match cj.2 with
  | ⟨0, _⟩ => (barCell cj.1, 0, 1)
  | ⟨1, _⟩ => (barCell cj.1, 0, 2)
  | ⟨2, _⟩ => (barCell cj.1, 0, 3)
  | ⟨3, _⟩ => (barCell cj.1, 0, 4)
  | ⟨4, _⟩ => (barCell cj.1, 0, 5)
  | ⟨5, _⟩ => (barCell cj.1, 0, 6)
  | ⟨6, _⟩ => (barCell cj.1, 0, 7)
  | ⟨7, _⟩ => (sendCell cj.1 1, 0, 0)
  | ⟨8, _⟩ => (sendCell cj.1 2, 0, 0)
  | ⟨9, _⟩ => (sendCell cj.1 3, 0, 0)
  | ⟨10, _⟩ => (sendCell cj.1 4, 0, 0)
  | ⟨11, _⟩ => (sendCell cj.1 5, 0, 0)
  | ⟨12, _⟩ => (sendCell cj.1 6, 0, 0)
  | ⟨13, _⟩ => (sendCell cj.1 7, 0, 0)
  | ⟨14, _⟩ => (recvCell cj.1 1, 0, 0)
  | ⟨15, _⟩ => (recvCell cj.1 2, 0, 0)
  | ⟨16, _⟩ => (recvCell cj.1 3, 0, 0)
  | ⟨17, _⟩ => (recvCell cj.1 4, 0, 0)
  | ⟨18, _⟩ => (recvCell cj.1 5, 0, 0)
  | ⟨19, _⟩ => (recvCell cj.1 6, 0, 0)
  | ⟨20, _⟩ => (recvCell cj.1 7, 0, 0)
  | ⟨_ + 21, h⟩ => absurd h (by omega)

/-- The semaphore and the duty a token index names: distinct indices name distinct pairs. -/
abbrev tokKey : Fin 21 → SemLoc sig × Fin 8 := fun
  | ⟨0, _⟩ => (.reg barS, 1)
  | ⟨1, _⟩ => (.reg barS, 2)
  | ⟨2, _⟩ => (.reg barS, 3)
  | ⟨3, _⟩ => (.reg barS, 4)
  | ⟨4, _⟩ => (.reg barS, 5)
  | ⟨5, _⟩ => (.reg barS, 6)
  | ⟨6, _⟩ => (.reg barS, 7)
  | ⟨7, _⟩ => (.dma (sendSA 1).sem, 0)
  | ⟨8, _⟩ => (.dma (sendSA 2).sem, 0)
  | ⟨9, _⟩ => (.dma (sendSA 3).sem, 0)
  | ⟨10, _⟩ => (.dma (sendSA 4).sem, 0)
  | ⟨11, _⟩ => (.dma (sendSA 5).sem, 0)
  | ⟨12, _⟩ => (.dma (sendSA 6).sem, 0)
  | ⟨13, _⟩ => (.dma (sendSA 7).sem, 0)
  | ⟨14, _⟩ => (.dma (recvSA 1).sem, 0)
  | ⟨15, _⟩ => (.dma (recvSA 2).sem, 0)
  | ⟨16, _⟩ => (.dma (recvSA 3).sem, 0)
  | ⟨17, _⟩ => (.dma (recvSA 4).sem, 0)
  | ⟨18, _⟩ => (.dma (recvSA 5).sem, 0)
  | ⟨19, _⟩ => (.dma (recvSA 6).sem, 0)
  | ⟨20, _⟩ => (.dma (recvSA 7).sem, 0)
  | ⟨_ + 21, h⟩ => absurd h (by omega)
theorem tokKey_injective : Function.Injective tokKey := by decide
theorem tokOf_key (c : Dev nD) (j : Fin 21) : ((tokOf (c, j)).1.2, (tokOf (c, j)).2.2) = tokKey j := by
  fin_cases j <;> rfl
theorem tokOf_dev (c : Dev nD) (j : Fin 21) : (tokOf (c, j)).1.1.1 = c := by
  fin_cases j <;> rfl

theorem tokOf_injective : Function.Injective (tokOf : Dev nD × Fin 21 → GSem nD τ sig × ℕ × Fin 8) := by
  rintro ⟨c, j⟩ ⟨c', j'⟩ h
  have h1 : c = c' := by
    have := congrArg (fun x : GSem nD τ sig × ℕ × Fin 8 => x.1.1.1) h
    simpa only [tokOf_dev] using this
  subst h1
  have : j = j' := tokKey_injective (by rw [← tokOf_key c j, ← tokOf_key c j', h])
  subst this; rfl
def xToks : Finset (GSem nD τ sig × ℕ × Fin 8) := Finset.univ.map ⟨tokOf, tokOf_injective⟩

/-- The launch element: the pipeline's, the exchange's, and no local copy in flight. -/
def u₀ : UU :=
  (initOf (Pipeline.cells cfgs cellOf_inj) (Pipeline.launchToks cfgs cellOf_inj), (initOf xCells xToks, 1))

omit [FloatOps F] in
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The duty tokens minted on device `c`'s own cells. -/
def toks (c : Dev nD) : sProp 𝕄 :=
  iprop(dutyTok ER (barCell c) 0 1 ∗ dutyTok ER (barCell c) 0 2 ∗ dutyTok ER (barCell c) 0 3 ∗ dutyTok ER (barCell c) 0 4 ∗ dutyTok ER (barCell c) 0 5 ∗ dutyTok ER (barCell c) 0 6 ∗ dutyTok ER (barCell c) 0 7
    ∗ dutyTok ER (sendCell c 1) 0 0 ∗ dutyTok ER (sendCell c 2) 0 0 ∗ dutyTok ER (sendCell c 3) 0 0 ∗ dutyTok ER (sendCell c 4) 0 0 ∗ dutyTok ER (sendCell c 5) 0 0 ∗ dutyTok ER (sendCell c 6) 0 0 ∗ dutyTok ER (sendCell c 7) 0 0
    ∗ dutyTok ER (recvCell c 1) 0 0 ∗ dutyTok ER (recvCell c 2) 0 0 ∗ dutyTok ER (recvCell c 3) 0 0 ∗ dutyTok ER (recvCell c 4) 0 0 ∗ dutyTok ER (recvCell c 5) 0 0 ∗ dutyTok ER (recvCell c 6) 0 0 ∗ dutyTok ER (recvCell c 7) 0 0)

/-- What the launch element deals device `c`. -/
def G (c : Dev nD) : sProp 𝕄 :=
  iprop((bigSep Finset.univ fun k : Fin 15 => roundState ER (sched m) (kcell (c, k)) 0)
    ∗ (bigSep Finset.univ fun k : Fin 15 => iprop(atPos ER (kcell (c, k)) 0 ∅ 0 ∗ reached ER (kcell (c, k)) 0)) ∗ toks c)

/-- What the global step makes of it. -/
def G' (c : Dev nD) : sProp 𝕄 := iprop((∃ K, ghost m K c) ∗ plainSems c)

/-! ## The launch element dealt -/

omit [FloatOps F] in
theorem bigSep_fin15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
omit [FloatOps F] in
theorem bigSep_fin21 (Φ : Fin 21 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ

theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 15 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin21]; rfl
  iintro HX
  imod (Rounds.fund ER (sched m) xCells xToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element splits into the pipeline's and, under an update, what every device is dealt. -/
theorem hu₀ : (ownU u₀ : sProp 𝕄) ⊢ |={Set.univ}=> iprop(BI.own (EP (initOf (Pipeline.cells cfgs cellOf_inj) (Pipeline.launchToks cfgs cellOf_inj))) ∗ bigSep Finset.univ (G m)) := by
  unfold u₀
  iintro Hu
  ihave H := (ownU_split _ _) $$ Hu
  icases H with ⟨HP, HX⟩
  imod (fund_x m) $$ HX with HG
  imodintro
  isplitl [HP] <;> iassumption

/-! ## The counters at launch -/

omit [FloatOps F] in
/-- The kernel's own scoped counters, one by one: thirteen plain ones, the seven send cells', the unused slot 0 of the
    receive array, the seven receive cells'. -/
theorem ownSems0_eq (c : Dev nD) : (Pipeline.ownSems0 (Ix := Unit) (Name := ℕ) (U := UU) (Lvl := ℕ) (Val := Elt F) (τ := τ) osem c : sProp 𝕄)
    = iprop(semVal ((c : Thread nD τ), SemLoc.dma (1 : DmaSem sig)) 0
      ∗ semVal ((c : Thread nD τ), SemLoc.dma (2 : DmaSem sig)) 0
      ∗ semVal ((c : Thread nD τ), SemLoc.dma (3 : DmaSem sig)) 0
      ∗ semVal ((c : Thread nD τ), SemLoc.dma (4 : DmaSem sig)) 0
      ∗ semVal ((c : Thread nD τ), SemLoc.dma (5 : DmaSem sig)) 0
      ∗ semVal ((c : Thread nD τ), SemLoc.dma (6 : DmaSem sig)) 0
      ∗ semVal ((c : Thread nD τ), SemLoc.dma (7 : DmaSem sig)) 0
      ∗ semVal ((c : Thread nD τ), SemLoc.dma (8 : DmaSem sig)) 0
      ∗ semVal ((c : Thread nD τ), SemLoc.dma (9 : DmaSem sig)) 0
      ∗ semVal ((c : Thread nD τ), SemLoc.dma (10 : DmaSem sig)) 0
      ∗ semVal ((c : Thread nD τ), SemLoc.dma (11 : DmaSem sig)) 0
      ∗ semVal ((c : Thread nD τ), SemLoc.dma (12 : DmaSem sig)) 0
      ∗ semVal ((c : Thread nD τ), SemLoc.dma (13 : DmaSem sig)) 0
      ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0
      ∗ semVal ((c : Thread nD τ), SemLoc.dma (21 : DmaSem sig)) 0
      ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0) := by
  rw [Pipeline.ownSems0_eq_of_list c osem [0, 1, 2, 3, 4, 5, 6, 7, 8, 9, 10, 11, 12, 13, 14, 15, 16, 17, 18, 19, 20, 21, 22, 23, 24, 25, 26, 27] (by decide) (by decide)]; rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The fifteen cells' counters, and the fourteen that stay plain. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 15 => semVal (kcell (c, k)) 0) ∗ plainSems c) : sProp 𝕄) := by
  rw [ownSems0_eq, unscopedSems0_eq, bigSep_fin15]
  unfold plainSems
  iintro ⟨⟨P1, P2, P3, P4, P5, P6, P7, P8, P9, P10, P11, P12, P13, S1, S2, S3, S4, S5, S6, S7, P21, R1, R2, R3, R4, R5, R6, R7⟩, HB⟩
  isplitr [P1 P2 P3 P4 P5 P6 P7 P8 P9 P10 P11 P12 P13 P21]
  · isplitl [HB]; · iexact HB
    isplitl [S1]; · iexact S1
    isplitl [R1]; · iexact R1
    isplitl [S2]; · iexact S2
    isplitl [R2]; · iexact R2
    isplitl [S3]; · iexact S3
    isplitl [R3]; · iexact R3
    isplitl [S4]; · iexact S4
    isplitl [R4]; · iexact R4
    isplitl [S5]; · iexact S5
    isplitl [R5]; · iexact R5
    isplitl [S6]; · iexact S6
    isplitl [R6]; · iexact R6
    isplitl [S7]; · iexact S7
    iexact R7
  · isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    isplitl [P10]; · iexact P10
    isplitl [P11]; · iexact P11
    isplitl [P12]; · iexact P12
    isplitl [P13]; · iexact P13
    iexact P21

/-! ## Each device allocates its cells' invariants -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ plainSems c) := by
  unfold G
  iintro ⟨Hos, Hus, Hst, Hat, Htok⟩
  ihave Hv := (sems0_eq (F := F) c) $$ [Hos Hus]
  · isplitl [Hos] <;> iassumption
  icases Hv with ⟨Hv, Hpl⟩
  imod (show iprop((bigSep Finset.univ fun k : Fin 15 => semVal (kcell (c, k)) 0) ∗ bigSep Finset.univ fun k : Fin 15 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hpl

/-! ## The devices exchange -/

/-- What every device may keep a copy of: every cell's invariant, under the name `K` gives it, and that round 0 of every
    cell is reached. -/
def records (K : GSem nD τ sig → ℕ) : sProp 𝕄 :=
  iprop((bigSep Finset.univ fun ck : Dev nD × Fin 15 => cellInv ER (sched m) (K (kcell ck)) (kcell ck))
    ∗ bigSep Finset.univ fun ck : Dev nD × Fin 15 => reached ER (kcell ck) 0)

instance records_persistent (K : GSem nD τ sig → ℕ) : BI.Persistent (records m K) := by unfold records; infer_instance

theorem inv_at (K : GSem nD τ sig → ℕ) (ck : Dev nD × Fin 15) :
    (bigSep Finset.univ fun ck : Dev nD × Fin 15 => (cellInv ER (sched m) (K (kcell ck)) (kcell ck) : sProp 𝕄)) ⊢ cellInv ER (sched m) (K (kcell ck)) (kcell ck) :=
  bigSep_elim (Finset.mem_univ ck)
omit [FloatOps F] in
theorem reached_at (ck : Dev nD × Fin 15) :
    (bigSep Finset.univ fun ck : Dev nD × Fin 15 => (reached ER (kcell ck) 0 : sProp 𝕄)) ⊢ reached ER (kcell ck) 0 :=
  bigSep_elim (Finset.mem_univ ck)

/-- From the records, its own positions, the tokens of the duties it pays and its plain counters, a device has what its
    body starts from. -/
theorem ghost_intro (K : GSem nD τ sig → ℕ) (c : Dev nD) : iprop(records m K ∗ (positions c ∗ payToks c) ∗ plainSems c) ⊢ G' m c := by
  unfold records G' ghost invs reacheds
  iintro ⟨⟨#HI, #HR⟩, ⟨Hpos, Htok⟩, Hpl⟩
  isplitr [Hpl]
  · iexists K
    isplitr
    · isplitr; · iapply (inv_at m K (c, 0)); iexact HI
      isplitr; · iapply (inv_at m K (c, 1)); iexact HI
      isplitr; · iapply (inv_at m K (c, 2)); iexact HI
      isplitr; · iapply (inv_at m K (c, 3)); iexact HI
      isplitr; · iapply (inv_at m K (c, 4)); iexact HI
      isplitr; · iapply (inv_at m K (c, 5)); iexact HI
      isplitr; · iapply (inv_at m K (c, 6)); iexact HI
      isplitr; · iapply (inv_at m K (c, 7)); iexact HI
      isplitr; · iapply (inv_at m K (c, 8)); iexact HI
      isplitr; · iapply (inv_at m K (c, 9)); iexact HI
      isplitr; · iapply (inv_at m K (c, 10)); iexact HI
      isplitr; · iapply (inv_at m K (c, 11)); iexact HI
      isplitr; · iapply (inv_at m K (c, 12)); iexact HI
      isplitr; · iapply (inv_at m K (c, 13)); iexact HI
      isplitr; · iapply (inv_at m K (c, 14)); iexact HI
      isplitr; · iapply (inv_at m K (px c 1, 0)); iexact HI
      isplitr; · iapply (inv_at m K (px c 1, 2)); iexact HI
      isplitr; · iapply (inv_at m K (px c 2, 0)); iexact HI
      isplitr; · iapply (inv_at m K (px c 2, 4)); iexact HI
      isplitr; · iapply (inv_at m K (px c 3, 0)); iexact HI
      isplitr; · iapply (inv_at m K (px c 3, 6)); iexact HI
      isplitr; · iapply (inv_at m K (px c 4, 0)); iexact HI
      isplitr; · iapply (inv_at m K (px c 4, 8)); iexact HI
      isplitr; · iapply (inv_at m K (px c 5, 0)); iexact HI
      isplitr; · iapply (inv_at m K (px c 5, 10)); iexact HI
      isplitr; · iapply (inv_at m K (px c 6, 0)); iexact HI
      isplitr; · iapply (inv_at m K (px c 6, 12)); iexact HI
      isplitr; · iapply (inv_at m K (px c 7, 0)); iexact HI
      iapply (inv_at m K (px c 7, 14)); iexact HI
    isplitl [Hpos]; · iexact Hpos
    isplitr
    · isplitr; · iapply (reached_at (F := F) (px c 1, 0)); iexact HR
      isplitr; · iapply (reached_at (F := F) (px c 1, 2)); iexact HR
      isplitr; · iapply (reached_at (F := F) (c, 1)); iexact HR
      isplitr; · iapply (reached_at (F := F) (px c 2, 0)); iexact HR
      isplitr; · iapply (reached_at (F := F) (px c 2, 4)); iexact HR
      isplitr; · iapply (reached_at (F := F) (c, 3)); iexact HR
      isplitr; · iapply (reached_at (F := F) (px c 3, 0)); iexact HR
      isplitr; · iapply (reached_at (F := F) (px c 3, 6)); iexact HR
      isplitr; · iapply (reached_at (F := F) (c, 5)); iexact HR
      isplitr; · iapply (reached_at (F := F) (px c 4, 0)); iexact HR
      isplitr; · iapply (reached_at (F := F) (px c 4, 8)); iexact HR
      isplitr; · iapply (reached_at (F := F) (c, 7)); iexact HR
      isplitr; · iapply (reached_at (F := F) (px c 5, 0)); iexact HR
      isplitr; · iapply (reached_at (F := F) (px c 5, 10)); iexact HR
      isplitr; · iapply (reached_at (F := F) (c, 9)); iexact HR
      isplitr; · iapply (reached_at (F := F) (px c 6, 0)); iexact HR
      isplitr; · iapply (reached_at (F := F) (px c 6, 12)); iexact HR
      isplitr; · iapply (reached_at (F := F) (c, 11)); iexact HR
      isplitr; · iapply (reached_at (F := F) (px c 7, 0)); iexact HR
      isplitr; · iapply (reached_at (F := F) (px c 7, 14)); iexact HR
      iapply (reached_at (F := F) (c, 13)); iexact HR
    iexact Htok
  · iexact Hpl

omit [FloatOps F] in
/-- The tokens travel to their payers: duty `t` of a barrier cell and the duty of receive cell `t` go to the device at mask
    `t` from the owner (the pairing at a mask is a permutation of the devices); the duty of a send cell stays. -/
theorem toks_around : (bigSep Finset.univ fun c : Dev nD => (toks c : sProp 𝕄)) ⊢ bigSep Finset.univ fun c : Dev nD => payToks c := by
  unfold toks payToks
  simp only [bigSep_sep']
  rw [bigSep_univ_equiv (pxEquiv 1) (fun c : Dev nD => (dutyTok ER (barCell c) 0 1 : sProp 𝕄)),
    bigSep_univ_equiv (pxEquiv 2) (fun c : Dev nD => (dutyTok ER (barCell c) 0 2 : sProp 𝕄)),
    bigSep_univ_equiv (pxEquiv 3) (fun c : Dev nD => (dutyTok ER (barCell c) 0 3 : sProp 𝕄)),
    bigSep_univ_equiv (pxEquiv 4) (fun c : Dev nD => (dutyTok ER (barCell c) 0 4 : sProp 𝕄)),
    bigSep_univ_equiv (pxEquiv 5) (fun c : Dev nD => (dutyTok ER (barCell c) 0 5 : sProp 𝕄)),
    bigSep_univ_equiv (pxEquiv 6) (fun c : Dev nD => (dutyTok ER (barCell c) 0 6 : sProp 𝕄)),
    bigSep_univ_equiv (pxEquiv 7) (fun c : Dev nD => (dutyTok ER (barCell c) 0 7 : sProp 𝕄)),
    bigSep_univ_equiv (pxEquiv 1) (fun c : Dev nD => (dutyTok ER (recvCell c 1) 0 0 : sProp 𝕄)),
    bigSep_univ_equiv (pxEquiv 2) (fun c : Dev nD => (dutyTok ER (recvCell c 2) 0 0 : sProp 𝕄)),
    bigSep_univ_equiv (pxEquiv 3) (fun c : Dev nD => (dutyTok ER (recvCell c 3) 0 0 : sProp 𝕄)),
    bigSep_univ_equiv (pxEquiv 4) (fun c : Dev nD => (dutyTok ER (recvCell c 4) 0 0 : sProp 𝕄)),
    bigSep_univ_equiv (pxEquiv 5) (fun c : Dev nD => (dutyTok ER (recvCell c 5) 0 0 : sProp 𝕄)),
    bigSep_univ_equiv (pxEquiv 6) (fun c : Dev nD => (dutyTok ER (recvCell c 6) 0 0 : sProp 𝕄)),
    bigSep_univ_equiv (pxEquiv 7) (fun c : Dev nD => (dutyTok ER (recvCell c 7) 0 0 : sProp 𝕄))]
  iintro ⟨B1, B2, B3, B4, B5, B6, B7, S1, S2, S3, S4, S5, S6, S7, R1, R2, R3, R4, R5, R6, R7⟩
  isplitl [B1]; · iexact B1
  isplitl [R1]; · iexact R1
  isplitl [S1]; · iexact S1
  isplitl [B2]; · iexact B2
  isplitl [R2]; · iexact R2
  isplitl [S2]; · iexact S2
  isplitl [B3]; · iexact B3
  isplitl [R3]; · iexact R3
  isplitl [S3]; · iexact S3
  isplitl [B4]; · iexact B4
  isplitl [R4]; · iexact R4
  isplitl [S4]; · iexact S4
  isplitl [B5]; · iexact B5
  isplitl [R5]; · iexact R5
  isplitl [S5]; · iexact S5
  isplitl [B6]; · iexact B6
  isplitl [R6]; · iexact R6
  isplitl [S6]; · iexact S6
  isplitl [B7]; · iexact B7
  isplitl [R7]; · iexact R7
  iexact S7

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- A device's positions, the tokens it pays and its plain counters. -/
theorem deal_one (c : Dev nD) :
    iprop((bigSep Finset.univ fun k : Fin 15 => (atPos ER (kcell (c, k)) 0 ∅ 0 : sProp 𝕄)) ∗ payToks c ∗ plainSems c)
      ⊢ (iprop((positions c ∗ payToks c) ∗ plainSems c) : sProp 𝕄) := by
  unfold positions; rw [bigSep_fin15]
  iintro ⟨Hat, Htk, Hpl⟩
  isplitr [Hpl]
  · isplitl [Hat]; · iexact Hat
    iexact Htk
  · iexact Hpl

omit [FloatOps F] in
/-- The same, device by device. -/
theorem deal :
    iprop((bigSep Finset.univ fun c : Dev nD => bigSep Finset.univ fun k : Fin 15 => (atPos ER (kcell (c, k)) 0 ∅ 0 : sProp 𝕄))
        ∗ (bigSep Finset.univ fun c : Dev nD => (payToks c : sProp 𝕄)) ∗ (bigSep Finset.univ fun c : Dev nD => (plainSems c : sProp 𝕄)))
      ⊢ bigSep Finset.univ fun c : Dev nD => (iprop((positions c ∗ payToks c) ∗ plainSems c) : sProp 𝕄) := by
  rw [← bigSep_sep', ← bigSep_sep']
  exact bigSep_mono fun c _ => deal_one c

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ plainSems c) : sProp 𝕄)
      ⊢ bigSep Finset.univ (G' m) := by
  rw [bigSep_sep', bigSep_sep', bigSep_sep', ← bigSep_univ_prod (fun ck : Dev nD × Fin 15 => iprop(∃ κ : ℕ, cellInv ER (sched m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok, Hpl⟩
  ihave HK := (BI.bigSep_exists_pi Finset.univ (fun (ck : Dev nD × Fin 15) (κ : ℕ) => (cellInv ER (sched m) κ (kcell ck) : sProp 𝕄))) $$ HI
  icases HK with ⟨%K', #HI⟩
  ihave Htk := (toks_around (F := F)) $$ Htok
  iapply (bigSep_with_persistent (R := records m (Function.extend kcell K' 0)) fun c _ => ghost_intro m (Function.extend kcell K' 0) c)
  isplitr
  · unfold records; isplitl
    · iapply (Entails.of_eq (bigSep_congr (s := Finset.univ) fun (ck : Dev nD × Fin 15) _ =>
        show (cellInv ER (sched m) (K' ck) (kcell ck) : sProp 𝕄) = cellInv ER (sched m) (Function.extend kcell K' 0 (kcell ck)) (kcell ck) from by
          rw [kcell_injective.extend_apply]))
      iexact HI
    iexact HR
  · iapply (deal (F := F))
    isplitl [Hat]; · iexact Hat
    isplitl [Htk]; · iexact Htk
    iexact Hpl

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.KernelIdeal.A2A.glob' depends on axioms: [propext, Classical.choice, Quot.sound] -/
#guard_msgs in #print axioms glob

end Cert.KernelIdeal.A2A

end
-- ==== Proof.BodyIface.lean ====
/-
  The body's two ends. The body is stepped from a context in which every buffer a copy targets is already cut into the
  pieces the copies name (the four row-quarters of the x buffer, the sixteen half-slots of the weight buffer, the eight
  slots of the send and of the receive buffer), and it ends with the same pieces at whatever they then hold, every scoped
  semaphore back at zero, the argument arrays untouched, nothing owed, and the output block holding the device's result.
-/
import proofs.«900796_g7700000000000797_dist_gemm_a2a_m4096_k4096_n2048_f32_gelu_v7x_i8_1_alg».proof.Proof.Data

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The four row-quarters of the x buffer, as the copies name them. -/
abbrev xQ : Fin 4 → Memref sig .tc .vmem S128x4096 .f32
  | ⟨0, _⟩ => ((Memref.whole cc0_scratch0 : Memref sig .tc .vmem S512x4096 .f32).slice (Rect.unit (s := S512x4096) ![0, 0] S128x4096.size inb_S512x4096_S128x4096_0_0) (fun _ => rfl))
  | ⟨1, _⟩ => ((Memref.whole cc0_scratch0 : Memref sig .tc .vmem S512x4096 .f32).slice (Rect.unit (s := S512x4096) ![128, 0] S128x4096.size inb_S512x4096_S128x4096_128_0) (fun _ => rfl))
  | ⟨2, _⟩ => ((Memref.whole cc0_scratch0 : Memref sig .tc .vmem S512x4096 .f32).slice (Rect.unit (s := S512x4096) ![256, 0] S128x4096.size inb_S512x4096_S128x4096_256_0) (fun _ => rfl))
  | ⟨3, _⟩ => ((Memref.whole cc0_scratch0 : Memref sig .tc .vmem S512x4096 .f32).slice (Rect.unit (s := S512x4096) ![384, 0] S128x4096.size inb_S512x4096_S128x4096_384_0) (fun _ => rfl))
  | ⟨_ + 4, h⟩ => absurd h (by omega)

/-- The sixteen half-slots of the weight buffer, as the copies name them: slot `s`, upper or lower half of its rows. -/
abbrev wH : Fin 8 → Fin 2 → Memref sig .tc .vmem S2048x256 .f32
  | ⟨0, _⟩, ⟨0, _⟩ => (((Memref.whole cc0_scratch1 : Memref sig .tc .vmem S8x4096x256 .f32).slice (Rect.unit (s := S8x4096x256) ![0, 0, 0] S1x2048x256.size inb_S8x4096x256_S1x2048x256_0_0_0) (fun _ => rfl)).squeeze S2048x256 squeezes_S1x2048x256_S2048x256)
  | ⟨0, _⟩, ⟨1, _⟩ => (((Memref.whole cc0_scratch1 : Memref sig .tc .vmem S8x4096x256 .f32).slice (Rect.unit (s := S8x4096x256) ![0, 2048, 0] S1x2048x256.size inb_S8x4096x256_S1x2048x256_0_2048_0) (fun _ => rfl)).squeeze S2048x256 squeezes_S1x2048x256_S2048x256)
  | ⟨1, _⟩, ⟨0, _⟩ => (((Memref.whole cc0_scratch1 : Memref sig .tc .vmem S8x4096x256 .f32).slice (Rect.unit (s := S8x4096x256) ![1, 0, 0] S1x2048x256.size inb_S8x4096x256_S1x2048x256_1_0_0) (fun _ => rfl)).squeeze S2048x256 squeezes_S1x2048x256_S2048x256)
  | ⟨1, _⟩, ⟨1, _⟩ => (((Memref.whole cc0_scratch1 : Memref sig .tc .vmem S8x4096x256 .f32).slice (Rect.unit (s := S8x4096x256) ![1, 2048, 0] S1x2048x256.size inb_S8x4096x256_S1x2048x256_1_2048_0) (fun _ => rfl)).squeeze S2048x256 squeezes_S1x2048x256_S2048x256)
  | ⟨2, _⟩, ⟨0, _⟩ => (((Memref.whole cc0_scratch1 : Memref sig .tc .vmem S8x4096x256 .f32).slice (Rect.unit (s := S8x4096x256) ![2, 0, 0] S1x2048x256.size inb_S8x4096x256_S1x2048x256_2_0_0) (fun _ => rfl)).squeeze S2048x256 squeezes_S1x2048x256_S2048x256)
  | ⟨2, _⟩, ⟨1, _⟩ => (((Memref.whole cc0_scratch1 : Memref sig .tc .vmem S8x4096x256 .f32).slice (Rect.unit (s := S8x4096x256) ![2, 2048, 0] S1x2048x256.size inb_S8x4096x256_S1x2048x256_2_2048_0) (fun _ => rfl)).squeeze S2048x256 squeezes_S1x2048x256_S2048x256)
  | ⟨3, _⟩, ⟨0, _⟩ => (((Memref.whole cc0_scratch1 : Memref sig .tc .vmem S8x4096x256 .f32).slice (Rect.unit (s := S8x4096x256) ![3, 0, 0] S1x2048x256.size inb_S8x4096x256_S1x2048x256_3_0_0) (fun _ => rfl)).squeeze S2048x256 squeezes_S1x2048x256_S2048x256)
  | ⟨3, _⟩, ⟨1, _⟩ => (((Memref.whole cc0_scratch1 : Memref sig .tc .vmem S8x4096x256 .f32).slice (Rect.unit (s := S8x4096x256) ![3, 2048, 0] S1x2048x256.size inb_S8x4096x256_S1x2048x256_3_2048_0) (fun _ => rfl)).squeeze S2048x256 squeezes_S1x2048x256_S2048x256)
  | ⟨4, _⟩, ⟨0, _⟩ => (((Memref.whole cc0_scratch1 : Memref sig .tc .vmem S8x4096x256 .f32).slice (Rect.unit (s := S8x4096x256) ![4, 0, 0] S1x2048x256.size inb_S8x4096x256_S1x2048x256_4_0_0) (fun _ => rfl)).squeeze S2048x256 squeezes_S1x2048x256_S2048x256)
  | ⟨4, _⟩, ⟨1, _⟩ => (((Memref.whole cc0_scratch1 : Memref sig .tc .vmem S8x4096x256 .f32).slice (Rect.unit (s := S8x4096x256) ![4, 2048, 0] S1x2048x256.size inb_S8x4096x256_S1x2048x256_4_2048_0) (fun _ => rfl)).squeeze S2048x256 squeezes_S1x2048x256_S2048x256)
  | ⟨5, _⟩, ⟨0, _⟩ => (((Memref.whole cc0_scratch1 : Memref sig .tc .vmem S8x4096x256 .f32).slice (Rect.unit (s := S8x4096x256) ![5, 0, 0] S1x2048x256.size inb_S8x4096x256_S1x2048x256_5_0_0) (fun _ => rfl)).squeeze S2048x256 squeezes_S1x2048x256_S2048x256)
  | ⟨5, _⟩, ⟨1, _⟩ => (((Memref.whole cc0_scratch1 : Memref sig .tc .vmem S8x4096x256 .f32).slice (Rect.unit (s := S8x4096x256) ![5, 2048, 0] S1x2048x256.size inb_S8x4096x256_S1x2048x256_5_2048_0) (fun _ => rfl)).squeeze S2048x256 squeezes_S1x2048x256_S2048x256)
  | ⟨6, _⟩, ⟨0, _⟩ => (((Memref.whole cc0_scratch1 : Memref sig .tc .vmem S8x4096x256 .f32).slice (Rect.unit (s := S8x4096x256) ![6, 0, 0] S1x2048x256.size inb_S8x4096x256_S1x2048x256_6_0_0) (fun _ => rfl)).squeeze S2048x256 squeezes_S1x2048x256_S2048x256)
  | ⟨6, _⟩, ⟨1, _⟩ => (((Memref.whole cc0_scratch1 : Memref sig .tc .vmem S8x4096x256 .f32).slice (Rect.unit (s := S8x4096x256) ![6, 2048, 0] S1x2048x256.size inb_S8x4096x256_S1x2048x256_6_2048_0) (fun _ => rfl)).squeeze S2048x256 squeezes_S1x2048x256_S2048x256)
  | ⟨7, _⟩, ⟨0, _⟩ => (((Memref.whole cc0_scratch1 : Memref sig .tc .vmem S8x4096x256 .f32).slice (Rect.unit (s := S8x4096x256) ![7, 0, 0] S1x2048x256.size inb_S8x4096x256_S1x2048x256_7_0_0) (fun _ => rfl)).squeeze S2048x256 squeezes_S1x2048x256_S2048x256)
  | ⟨7, _⟩, ⟨1, _⟩ => (((Memref.whole cc0_scratch1 : Memref sig .tc .vmem S8x4096x256 .f32).slice (Rect.unit (s := S8x4096x256) ![7, 2048, 0] S1x2048x256.size inb_S8x4096x256_S1x2048x256_7_2048_0) (fun _ => rfl)).squeeze S2048x256 squeezes_S1x2048x256_S2048x256)
  | ⟨_ + 8, h⟩, _ => absurd h (by omega)
  | _, ⟨_ + 2, h⟩ => absurd h (by omega)

/-- The scratch buffers cut into their pieces, each piece at the contents its buffer has. -/
def piecesAt (c : Dev nD) (fx : Buf (Elt F) ((xbM).view.loc (c : Thread nD τ))) (fw : Buf (Elt F) ((wbM).view.loc (c : Thread nD τ)))
    (fs : Buf (Elt F) ((sbM).view.loc (c : Thread nD τ))) : sProp 𝕄 :=
  iprop(((xQ 0).view.loc (c : Thread nD τ) ↦[(xQ 0).view.set]{fullShare} fx)
    ∗ ((xQ 1).view.loc (c : Thread nD τ) ↦[(xQ 1).view.set]{fullShare} fx)
    ∗ ((xQ 2).view.loc (c : Thread nD τ) ↦[(xQ 2).view.set]{fullShare} fx)
    ∗ ((xQ 3).view.loc (c : Thread nD τ) ↦[(xQ 3).view.set]{fullShare} fx)
    ∗ ((wH 0 0).view.loc (c : Thread nD τ) ↦[(wH 0 0).view.set]{fullShare} fw) ∗ ((wH 0 1).view.loc (c : Thread nD τ) ↦[(wH 0 1).view.set]{fullShare} fw)
    ∗ ((wH 1 0).view.loc (c : Thread nD τ) ↦[(wH 1 0).view.set]{fullShare} fw) ∗ ((wH 1 1).view.loc (c : Thread nD τ) ↦[(wH 1 1).view.set]{fullShare} fw)
    ∗ ((wH 2 0).view.loc (c : Thread nD τ) ↦[(wH 2 0).view.set]{fullShare} fw) ∗ ((wH 2 1).view.loc (c : Thread nD τ) ↦[(wH 2 1).view.set]{fullShare} fw)
    ∗ ((wH 3 0).view.loc (c : Thread nD τ) ↦[(wH 3 0).view.set]{fullShare} fw) ∗ ((wH 3 1).view.loc (c : Thread nD τ) ↦[(wH 3 1).view.set]{fullShare} fw)
    ∗ ((wH 4 0).view.loc (c : Thread nD τ) ↦[(wH 4 0).view.set]{fullShare} fw) ∗ ((wH 4 1).view.loc (c : Thread nD τ) ↦[(wH 4 1).view.set]{fullShare} fw)
    ∗ ((wH 5 0).view.loc (c : Thread nD τ) ↦[(wH 5 0).view.set]{fullShare} fw) ∗ ((wH 5 1).view.loc (c : Thread nD τ) ↦[(wH 5 1).view.set]{fullShare} fw)
    ∗ ((wH 6 0).view.loc (c : Thread nD τ) ↦[(wH 6 0).view.set]{fullShare} fw) ∗ ((wH 6 1).view.loc (c : Thread nD τ) ↦[(wH 6 1).view.set]{fullShare} fw)
    ∗ ((wH 7 0).view.loc (c : Thread nD τ) ↦[(wH 7 0).view.set]{fullShare} fw) ∗ ((wH 7 1).view.loc (c : Thread nD τ) ↦[(wH 7 1).view.set]{fullShare} fw)
    ∗ ((sM 0).view.loc (c : Thread nD τ) ↦[(sM 0).view.set]{fullShare} fs)
    ∗ ((sM 1).view.loc (c : Thread nD τ) ↦[(sM 1).view.set]{fullShare} fs)
    ∗ ((sM 2).view.loc (c : Thread nD τ) ↦[(sM 2).view.set]{fullShare} fs)
    ∗ ((sM 3).view.loc (c : Thread nD τ) ↦[(sM 3).view.set]{fullShare} fs)
    ∗ ((sM 4).view.loc (c : Thread nD τ) ↦[(sM 4).view.set]{fullShare} fs)
    ∗ ((sM 5).view.loc (c : Thread nD τ) ↦[(sM 5).view.set]{fullShare} fs)
    ∗ ((sM 6).view.loc (c : Thread nD τ) ↦[(sM 6).view.set]{fullShare} fs)
    ∗ ((sM 7).view.loc (c : Thread nD τ) ↦[(sM 7).view.set]{fullShare} fs)
    ∗ (∃ f, (rM 0).view.loc (c : Thread nD τ) ↦[(rM 0).view.set]{fullShare} f)
    ∗ (∃ f, (rM 1).view.loc (c : Thread nD τ) ↦[(rM 1).view.set]{fullShare} f)
    ∗ (∃ f, (rM 2).view.loc (c : Thread nD τ) ↦[(rM 2).view.set]{fullShare} f)
    ∗ (∃ f, (rM 3).view.loc (c : Thread nD τ) ↦[(rM 3).view.set]{fullShare} f)
    ∗ (∃ f, (rM 4).view.loc (c : Thread nD τ) ↦[(rM 4).view.set]{fullShare} f)
    ∗ (∃ f, (rM 5).view.loc (c : Thread nD τ) ↦[(rM 5).view.set]{fullShare} f)
    ∗ (∃ f, (rM 6).view.loc (c : Thread nD τ) ↦[(rM 6).view.set]{fullShare} f)
    ∗ (∃ f, (rM 7).view.loc (c : Thread nD τ) ↦[(rM 7).view.set]{fullShare} f))

/-- The same pieces at some contents: what the body leaves of the scratch buffers. -/
def piecesAny (c : Dev nD) : sProp 𝕄 :=
  iprop((∃ f, (xQ 0).view.loc (c : Thread nD τ) ↦[(xQ 0).view.set]{fullShare} f)
    ∗ (∃ f, (xQ 1).view.loc (c : Thread nD τ) ↦[(xQ 1).view.set]{fullShare} f)
    ∗ (∃ f, (xQ 2).view.loc (c : Thread nD τ) ↦[(xQ 2).view.set]{fullShare} f)
    ∗ (∃ f, (xQ 3).view.loc (c : Thread nD τ) ↦[(xQ 3).view.set]{fullShare} f)
    ∗ (∃ f, (wH 0 0).view.loc (c : Thread nD τ) ↦[(wH 0 0).view.set]{fullShare} f) ∗ (∃ f, (wH 0 1).view.loc (c : Thread nD τ) ↦[(wH 0 1).view.set]{fullShare} f)
    ∗ (∃ f, (wH 1 0).view.loc (c : Thread nD τ) ↦[(wH 1 0).view.set]{fullShare} f) ∗ (∃ f, (wH 1 1).view.loc (c : Thread nD τ) ↦[(wH 1 1).view.set]{fullShare} f)
    ∗ (∃ f, (wH 2 0).view.loc (c : Thread nD τ) ↦[(wH 2 0).view.set]{fullShare} f) ∗ (∃ f, (wH 2 1).view.loc (c : Thread nD τ) ↦[(wH 2 1).view.set]{fullShare} f)
    ∗ (∃ f, (wH 3 0).view.loc (c : Thread nD τ) ↦[(wH 3 0).view.set]{fullShare} f) ∗ (∃ f, (wH 3 1).view.loc (c : Thread nD τ) ↦[(wH 3 1).view.set]{fullShare} f)
    ∗ (∃ f, (wH 4 0).view.loc (c : Thread nD τ) ↦[(wH 4 0).view.set]{fullShare} f) ∗ (∃ f, (wH 4 1).view.loc (c : Thread nD τ) ↦[(wH 4 1).view.set]{fullShare} f)
    ∗ (∃ f, (wH 5 0).view.loc (c : Thread nD τ) ↦[(wH 5 0).view.set]{fullShare} f) ∗ (∃ f, (wH 5 1).view.loc (c : Thread nD τ) ↦[(wH 5 1).view.set]{fullShare} f)
    ∗ (∃ f, (wH 6 0).view.loc (c : Thread nD τ) ↦[(wH 6 0).view.set]{fullShare} f) ∗ (∃ f, (wH 6 1).view.loc (c : Thread nD τ) ↦[(wH 6 1).view.set]{fullShare} f)
    ∗ (∃ f, (wH 7 0).view.loc (c : Thread nD τ) ↦[(wH 7 0).view.set]{fullShare} f) ∗ (∃ f, (wH 7 1).view.loc (c : Thread nD τ) ↦[(wH 7 1).view.set]{fullShare} f)
    ∗ (∃ f, (sM 0).view.loc (c : Thread nD τ) ↦[(sM 0).view.set]{fullShare} f)
    ∗ (∃ f, (sM 1).view.loc (c : Thread nD τ) ↦[(sM 1).view.set]{fullShare} f)
    ∗ (∃ f, (sM 2).view.loc (c : Thread nD τ) ↦[(sM 2).view.set]{fullShare} f)
    ∗ (∃ f, (sM 3).view.loc (c : Thread nD τ) ↦[(sM 3).view.set]{fullShare} f)
    ∗ (∃ f, (sM 4).view.loc (c : Thread nD τ) ↦[(sM 4).view.set]{fullShare} f)
    ∗ (∃ f, (sM 5).view.loc (c : Thread nD τ) ↦[(sM 5).view.set]{fullShare} f)
    ∗ (∃ f, (sM 6).view.loc (c : Thread nD τ) ↦[(sM 6).view.set]{fullShare} f)
    ∗ (∃ f, (sM 7).view.loc (c : Thread nD τ) ↦[(sM 7).view.set]{fullShare} f)
    ∗ (∃ f, (rM 0).view.loc (c : Thread nD τ) ↦[(rM 0).view.set]{fullShare} f)
    ∗ (∃ f, (rM 1).view.loc (c : Thread nD τ) ↦[(rM 1).view.set]{fullShare} f)
    ∗ (∃ f, (rM 2).view.loc (c : Thread nD τ) ↦[(rM 2).view.set]{fullShare} f)
    ∗ (∃ f, (rM 3).view.loc (c : Thread nD τ) ↦[(rM 3).view.set]{fullShare} f)
    ∗ (∃ f, (rM 4).view.loc (c : Thread nD τ) ↦[(rM 4).view.set]{fullShare} f)
    ∗ (∃ f, (rM 5).view.loc (c : Thread nD τ) ↦[(rM 5).view.set]{fullShare} f)
    ∗ (∃ f, (rM 6).view.loc (c : Thread nD τ) ↦[(rM 6).view.set]{fullShare} f)
    ∗ (∃ f, (rM 7).view.loc (c : Thread nD τ) ↦[(rM 7).view.set]{fullShare} f))

/-- What the stepped body starts from. -/
def bodyCtx (K : GSem nD τ sig → ℕ) (c : Dev nD) (W : Waits sig Unit)
    (fx : Buf (Elt F) ((xbM).view.loc (c : Thread nD τ))) (fw : Buf (Elt F) ((wbM).view.loc (c : Thread nD τ)))
    (fs : Buf (Elt F) ((sbM).view.loc (c : Thread nD τ))) (fo : Buf (Elt F) ((outM).view.loc (c : Thread nD τ))) : sProp 𝕄 :=
  iprop(ghost m K c ∗ waitCreds c ∗ levAts L lv ∗ plainSems c ∗ argPts m c ∗ piecesAt c fx fw fs
    ∗ ((outM).view.loc (c : Thread nD τ) ↦[(outM).view.set]{fullShare} fo)
    ∗ owes (c : Thread nD τ) (O₀ c) W)

/-- What the stepped body ends with. -/
def bodyEnd (c : Dev nD) : sProp 𝕄 :=
  iprop(argPts m c ∗ piecesAny c ∗ allSems0 c
    ∗ ((outM).view.loc (c : Thread nD τ) ↦[(outM).view.set]{fullShare} outV m c)
    ∗ ∃ W, owes (c : Thread nD τ) 0 W)

end Cert.KernelIdeal.A2A

end
-- ==== Proof.Pieces.lean ====
/-
  One buffer cut into the pieces the kernel's copies write, and joined back.

  A points-to assertion over a set of elements splits along any partition of the set. The activation buffer
  (512 x 4096) is the disjoint union of its four row-quarters; the weight buffer (8 x 4096 x 256) of its eight
  slots, each slot of its upper and lower half of the rows; the send and receive buffers (8 x 512 x 256) of
  their eight slots. Each piece is held through the slice the program itself forms, so that a copy into the
  piece finds it as its own assertion; before the buffer (or a slot) is read whole, the pieces are joined
  back, each piece's contents replaced by the joint contents it agrees with on its own elements.

  The sixteen windows of the weight array the copies read are pairwise disjoint: two windows of one mask
  differ in their rows (0..2047 against 2048..4095), two windows of different masks in their columns, because
  XOR with the device's own index is injective.
-/
import proofs.«900796_g7700000000000797_dist_gemm_a2a_m4096_k4096_n2048_f32_gelu_v7x_i8_1_alg».proof.Proof.BodyIface
import Idealize.ShloMosaic.Lib.Pipeline.Value

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The activation buffer: four row-quarters -/

/-- Rows `128 j .. 128 j + 127` of the 512 x 4096 index space, all columns. -/
abbrev xR (j : Fin 4) : Rect S512x4096 :=
  Rect.unit (s := S512x4096) ![128 * j.val, 0] S128x4096.size
    (Fin.forall_fin_two.mpr ⟨by show 128 * j.val + 128 ≤ 512; omega, by show 0 + 4096 ≤ 4096; omega⟩)

theorem mem_xR (j : Fin 4) (i : S512x4096.Idx) :
    i ∈ (xR j).set ↔ 128 * j.val ≤ (i 0).val ∧ (i 0).val < 128 * j.val + 128 := by
  have h1 : (i 1 : ℕ) < 4096 := (i 1).isLt
  rw [Rect.mem_set_unit]
  simp only [Fin.forall_fin_two, Matrix.cons_val_zero, Matrix.cons_val_one, Shape.size]
  omega

theorem xQ_set_0 : (xQ 0).view.set = (xR 0).set := View.set_slice_whole _ _
theorem xQ_set_1 : (xQ 1).view.set = (xR 1).set := View.set_slice_whole _ _
theorem xQ_set_2 : (xQ 2).view.set = (xR 2).set := View.set_slice_whole _ _
theorem xQ_set_3 : (xQ 3).view.set = (xR 3).set := View.set_slice_whole _ _

/-- The four quarters cover the index space. -/
theorem x_cover : (Finset.univ : Finset S512x4096.Idx) = (xR 0).set ∪ ((xR 1).set ∪ ((xR 2).set ∪ (xR 3).set)) := by
  ext i
  have h0 : (i 0 : ℕ) < 512 := (i 0).isLt
  simp only [Finset.mem_univ, Finset.mem_union, mem_xR, true_iff]
  simp only [Fin.val_zero, Fin.val_one, Fin.val_two, show ((3 : Fin 4).val = 3) from rfl]
  omega

/-- Quarters at different positions share no element. -/
theorem xR_disj (j k : Fin 4) (h : j ≠ k) : Disjoint (xR j).set (xR k).set := by
  rw [Finset.disjoint_left]
  intro i hi hk
  rw [mem_xR] at hi hk
  have : j.val ≠ k.val := fun e => h (Fin.ext e)
  omega

theorem x_split (c : Dev nD) (f : Buf (Elt F) ((xbM).view.loc (c : Thread nD τ))) :
    (((xbM).view.loc (c : Thread nD τ) ↦[(xbM).view.set]{fullShare} f) : sProp 𝕄) ⊣⊢
      iprop(((xQ 0).view.loc (c : Thread nD τ) ↦[(xQ 0).view.set]{fullShare} f) ∗
            ((xQ 1).view.loc (c : Thread nD τ) ↦[(xQ 1).view.set]{fullShare} f) ∗
            ((xQ 2).view.loc (c : Thread nD τ) ↦[(xQ 2).view.set]{fullShare} f) ∗
            ((xQ 3).view.loc (c : Thread nD τ) ↦[(xQ 3).view.set]{fullShare} f)) := by
  have e : (xbM).view.set = (xR 0).set ∪ ((xR 1).set ∪ ((xR 2).set ∪ ((xR 3).set))) := (View.set_whole _).trans x_cover
  rw [e, xQ_set_0, xQ_set_1, xQ_set_2, xQ_set_3]
  refine BiEntails.trans (Region.is_union (by simp only [Finset.disjoint_union_right]; exact ⟨xR_disj _ _ (by decide), xR_disj _ _ (by decide), xR_disj _ _ (by decide)⟩)) (sep_congr_right ?_)
  refine BiEntails.trans (Region.is_union (by simp only [Finset.disjoint_union_right]; exact ⟨xR_disj _ _ (by decide), xR_disj _ _ (by decide)⟩)) (sep_congr_right ?_)
  exact Region.is_union (xR_disj _ _ (by decide))

theorem x_cut (c : Dev nD) (f : Buf (Elt F) ((xbM).view.loc (c : Thread nD τ))) :
    (((xbM).view.loc (c : Thread nD τ) ↦[(xbM).view.set]{fullShare} f) : sProp 𝕄) ⊢
      iprop(((xQ 0).view.loc (c : Thread nD τ) ↦[(xQ 0).view.set]{fullShare} f) ∗
            ((xQ 1).view.loc (c : Thread nD τ) ↦[(xQ 1).view.set]{fullShare} f) ∗
            ((xQ 2).view.loc (c : Thread nD τ) ↦[(xQ 2).view.set]{fullShare} f) ∗
            ((xQ 3).view.loc (c : Thread nD τ) ↦[(xQ 3).view.set]{fullShare} f)) := (x_split c f).mp
/-- A points-to assertion depends on the contents only at the elements it holds. -/
theorem pt_congr {ℓ : Loc nD τ sig} {I : Finset (Idx ℓ)} {f g : Buf (Elt F) ℓ} (h : ∀ i ∈ I, f i = g i) :
    (ℓ ↦[I]{fullShare} f : sProp 𝕄) = (ℓ ↦[I]{fullShare} g) := Region.is_congr h

theorem x_join (c : Dev nD) (f0 f1 f2 f3 g : Buf (Elt F) (xbM.view.loc (c : Thread nD τ)))
    (h0 : ∀ i ∈ (xQ 0).view.set, f0 i = g i) (h1 : ∀ i ∈ (xQ 1).view.set, f1 i = g i)
    (h2 : ∀ i ∈ (xQ 2).view.set, f2 i = g i) (h3 : ∀ i ∈ (xQ 3).view.set, f3 i = g i) :
    (iprop(((xQ 0).view.loc (c : Thread nD τ) ↦[(xQ 0).view.set]{fullShare} f0) ∗
           ((xQ 1).view.loc (c : Thread nD τ) ↦[(xQ 1).view.set]{fullShare} f1) ∗
           ((xQ 2).view.loc (c : Thread nD τ) ↦[(xQ 2).view.set]{fullShare} f2) ∗
           ((xQ 3).view.loc (c : Thread nD τ) ↦[(xQ 3).view.set]{fullShare} f3)) : sProp 𝕄) ⊢
      (xbM.view.loc (c : Thread nD τ) ↦[xbM.view.set]{fullShare} g) := by
  refine BIBase.Entails.trans (BIClass.sep_mono (BIBase.Entails.of_eq (pt_congr h0)) (BIClass.sep_mono (BIBase.Entails.of_eq (pt_congr h1))
    (BIClass.sep_mono (BIBase.Entails.of_eq (pt_congr h2)) (BIBase.Entails.of_eq (pt_congr h3))))) ?_
  exact (x_split c g).mpr

/-- Two assertions over disjoint sets of one buffer's elements, each at some contents, make one over the union
    (at the contents that are the first's on its set and the second's on its own). -/
theorem pt_join_any {ℓ : Loc nD τ sig} {I J : Finset (Idx ℓ)} (h : Disjoint I J) :
    (iprop((∃ f, ℓ ↦[I]{fullShare} f) ∗ (∃ g, ℓ ↦[J]{fullShare} g)) : sProp 𝕄) ⊢
      iprop(∃ f, ℓ ↦[I ∪ J]{fullShare} f) := by
  refine sep_exists_right.mp.trans (exists_elim fun f => ?_)
  refine sep_exists_left.mp.trans (exists_elim fun g => ?_)
  exact exists_intro_trans (J.piecewise g f) (Region.is_join h)

theorem x_join_any (c : Dev nD) :
    (iprop((∃ f, (xQ 0).view.loc (c : Thread nD τ) ↦[(xQ 0).view.set]{fullShare} f) ∗
            (∃ f, (xQ 1).view.loc (c : Thread nD τ) ↦[(xQ 1).view.set]{fullShare} f) ∗
            (∃ f, (xQ 2).view.loc (c : Thread nD τ) ↦[(xQ 2).view.set]{fullShare} f) ∗
            (∃ f, (xQ 3).view.loc (c : Thread nD τ) ↦[(xQ 3).view.set]{fullShare} f)) : sProp 𝕄) ⊢
      iprop(∃ f, (xbM).view.loc (c : Thread nD τ) ↦[(xbM).view.set]{fullShare} f) := by
  have e : (xbM).view.set = (xR 0).set ∪ ((xR 1).set ∪ ((xR 2).set ∪ ((xR 3).set))) := (View.set_whole _).trans x_cover
  rw [e, xQ_set_0, xQ_set_1, xQ_set_2, xQ_set_3]
  refine BIBase.Entails.trans (sep_mono_right (sep_mono_right (pt_join_any (xR_disj _ _ (by decide))))) ?_
  refine BIBase.Entails.trans (sep_mono_right (pt_join_any (by simp only [Finset.disjoint_union_right]; exact ⟨xR_disj _ _ (by decide), xR_disj _ _ (by decide)⟩))) ?_
  exact pt_join_any (by simp only [Finset.disjoint_union_right]; exact ⟨xR_disj _ _ (by decide), xR_disj _ _ (by decide), xR_disj _ _ (by decide)⟩)

/-- A points-to assertion over a set of elements, at an equal set. -/
theorem pt_set {ℓ : Loc nD τ sig} {I J : Finset (Idx ℓ)} (h : I = J) (f : Buf (Elt F) ℓ) :
    (ℓ ↦[I]{fullShare} f : sProp 𝕄) = (ℓ ↦[J]{fullShare} f) := by rw [h]

/-! ## The windows of the weight array the copies read -/

/-- The window of the weight array copied into the upper half of a slot at mask `r`: rows 0..2047 of the column
    block of the device `c xor r`, as the program names it. -/
abbrev wWin1 (c : Dev nD) : Fin 8 → Memref sig .tc .hbm S2048x256 .f32
  | ⟨0, _⟩ => (Memref.whole main_arg1 : Memref sig .tc .hbm S4096x2048 .f32).slice (Rect.unit (s := S4096x2048) (k0_off1 c 0#32) S2048x256.size (k0_off1_inb c 0)) (fun _ => rfl)
  | ⟨1, _⟩ => (Memref.whole main_arg1 : Memref sig .tc .hbm S4096x2048 .f32).slice (Rect.unit (s := S4096x2048) (k0_off1 c 1#32) S2048x256.size (k0_off1_inb c 1)) (fun _ => rfl)
  | ⟨2, _⟩ => (Memref.whole main_arg1 : Memref sig .tc .hbm S4096x2048 .f32).slice (Rect.unit (s := S4096x2048) (k0_off1 c 2#32) S2048x256.size (k0_off1_inb c 2)) (fun _ => rfl)
  | ⟨3, _⟩ => (Memref.whole main_arg1 : Memref sig .tc .hbm S4096x2048 .f32).slice (Rect.unit (s := S4096x2048) (k0_off1 c 3#32) S2048x256.size (k0_off1_inb c 3)) (fun _ => rfl)
  | ⟨4, _⟩ => (Memref.whole main_arg1 : Memref sig .tc .hbm S4096x2048 .f32).slice (Rect.unit (s := S4096x2048) (k0_off1 c 4#32) S2048x256.size (k0_off1_inb c 4)) (fun _ => rfl)
  | ⟨5, _⟩ => (Memref.whole main_arg1 : Memref sig .tc .hbm S4096x2048 .f32).slice (Rect.unit (s := S4096x2048) (k0_off1 c 5#32) S2048x256.size (k0_off1_inb c 5)) (fun _ => rfl)
  | ⟨6, _⟩ => (Memref.whole main_arg1 : Memref sig .tc .hbm S4096x2048 .f32).slice (Rect.unit (s := S4096x2048) (k0_off1 c 6#32) S2048x256.size (k0_off1_inb c 6)) (fun _ => rfl)
  | ⟨7, _⟩ => (Memref.whole main_arg1 : Memref sig .tc .hbm S4096x2048 .f32).slice (Rect.unit (s := S4096x2048) (k0_off1 c 7#32) S2048x256.size (k0_off1_inb c 7)) (fun _ => rfl)
  | ⟨_ + 8, h⟩ => absurd h (by omega)
/-- The window copied into the lower half: rows 2048..4095 of the same column block. -/
abbrev wWin2 (c : Dev nD) : Fin 8 → Memref sig .tc .hbm S2048x256 .f32
  | ⟨0, _⟩ => (Memref.whole main_arg1 : Memref sig .tc .hbm S4096x2048 .f32).slice (Rect.unit (s := S4096x2048) (k0_off2 c 0#32) S2048x256.size (k0_off2_inb c 0)) (fun _ => rfl)
  | ⟨1, _⟩ => (Memref.whole main_arg1 : Memref sig .tc .hbm S4096x2048 .f32).slice (Rect.unit (s := S4096x2048) (k0_off2 c 1#32) S2048x256.size (k0_off2_inb c 1)) (fun _ => rfl)
  | ⟨2, _⟩ => (Memref.whole main_arg1 : Memref sig .tc .hbm S4096x2048 .f32).slice (Rect.unit (s := S4096x2048) (k0_off2 c 2#32) S2048x256.size (k0_off2_inb c 2)) (fun _ => rfl)
  | ⟨3, _⟩ => (Memref.whole main_arg1 : Memref sig .tc .hbm S4096x2048 .f32).slice (Rect.unit (s := S4096x2048) (k0_off2 c 3#32) S2048x256.size (k0_off2_inb c 3)) (fun _ => rfl)
  | ⟨4, _⟩ => (Memref.whole main_arg1 : Memref sig .tc .hbm S4096x2048 .f32).slice (Rect.unit (s := S4096x2048) (k0_off2 c 4#32) S2048x256.size (k0_off2_inb c 4)) (fun _ => rfl)
  | ⟨5, _⟩ => (Memref.whole main_arg1 : Memref sig .tc .hbm S4096x2048 .f32).slice (Rect.unit (s := S4096x2048) (k0_off2 c 5#32) S2048x256.size (k0_off2_inb c 5)) (fun _ => rfl)
  | ⟨6, _⟩ => (Memref.whole main_arg1 : Memref sig .tc .hbm S4096x2048 .f32).slice (Rect.unit (s := S4096x2048) (k0_off2 c 6#32) S2048x256.size (k0_off2_inb c 6)) (fun _ => rfl)
  | ⟨7, _⟩ => (Memref.whole main_arg1 : Memref sig .tc .hbm S4096x2048 .f32).slice (Rect.unit (s := S4096x2048) (k0_off2 c 7#32) S2048x256.size (k0_off2_inb c 7)) (fun _ => rfl)
  | ⟨_ + 8, h⟩ => absurd h (by omega)

/-- The two windows' rectangles, at a mask that is a variable. -/
abbrev wWR1 (c : Dev nD) (r : Fin 8) : Rect S4096x2048 :=
  Rect.unit (s := S4096x2048) (k0_off1 c (BitVec.ofNat 32 r.val)) S2048x256.size (k0_off1_inb c r)
abbrev wWR2 (c : Dev nD) (r : Fin 8) : Rect S4096x2048 :=
  Rect.unit (s := S4096x2048) (k0_off2 c (BitVec.ofNat 32 r.val)) S2048x256.size (k0_off2_inb c r)

theorem wWin1_set_0 (c : Dev nD) : (wWin1 c 0).view.set = (wWR1 c 0).set := View.set_slice_whole _ _
theorem wWin1_set_1 (c : Dev nD) : (wWin1 c 1).view.set = (wWR1 c 1).set := View.set_slice_whole _ _
theorem wWin1_set_2 (c : Dev nD) : (wWin1 c 2).view.set = (wWR1 c 2).set := View.set_slice_whole _ _
theorem wWin1_set_3 (c : Dev nD) : (wWin1 c 3).view.set = (wWR1 c 3).set := View.set_slice_whole _ _
theorem wWin1_set_4 (c : Dev nD) : (wWin1 c 4).view.set = (wWR1 c 4).set := View.set_slice_whole _ _
theorem wWin1_set_5 (c : Dev nD) : (wWin1 c 5).view.set = (wWR1 c 5).set := View.set_slice_whole _ _
theorem wWin1_set_6 (c : Dev nD) : (wWin1 c 6).view.set = (wWR1 c 6).set := View.set_slice_whole _ _
theorem wWin1_set_7 (c : Dev nD) : (wWin1 c 7).view.set = (wWR1 c 7).set := View.set_slice_whole _ _
theorem wWin2_set_0 (c : Dev nD) : (wWin2 c 0).view.set = (wWR2 c 0).set := View.set_slice_whole _ _
theorem wWin2_set_1 (c : Dev nD) : (wWin2 c 1).view.set = (wWR2 c 1).set := View.set_slice_whole _ _
theorem wWin2_set_2 (c : Dev nD) : (wWin2 c 2).view.set = (wWR2 c 2).set := View.set_slice_whole _ _
theorem wWin2_set_3 (c : Dev nD) : (wWin2 c 3).view.set = (wWR2 c 3).set := View.set_slice_whole _ _
theorem wWin2_set_4 (c : Dev nD) : (wWin2 c 4).view.set = (wWR2 c 4).set := View.set_slice_whole _ _
theorem wWin2_set_5 (c : Dev nD) : (wWin2 c 5).view.set = (wWR2 c 5).set := View.set_slice_whole _ _
theorem wWin2_set_6 (c : Dev nD) : (wWin2 c 6).view.set = (wWR2 c 6).set := View.set_slice_whole _ _
theorem wWin2_set_7 (c : Dev nD) : (wWin2 c 7).view.set = (wWR2 c 7).set := View.set_slice_whole _ _

/-- Upper windows at different masks lie in different column blocks. -/
theorem wWR11_disj (c : Dev nD) (r r' : Fin 8) (h : r ≠ r') : Disjoint (wWR1 c r).set (wWR1 c r').set := by
  have hp : (px c r).val ≠ (px c r').val := fun e => h (px_inj c (Fin.ext e))
  refine Rect.unit_disjoint 1 ?_
  rw [off1_eq c r, off1_eq c r']
  show 256 * (px c r).val + 256 ≤ 256 * (px c r').val ∨ 256 * (px c r').val + 256 ≤ 256 * (px c r).val
  omega
/-- Lower windows at different masks lie in different column blocks. -/
theorem wWR22_disj (c : Dev nD) (r r' : Fin 8) (h : r ≠ r') : Disjoint (wWR2 c r).set (wWR2 c r').set := by
  have hp : (px c r).val ≠ (px c r').val := fun e => h (px_inj c (Fin.ext e))
  refine Rect.unit_disjoint 1 ?_
  rw [off2_eq c r, off2_eq c r']
  show 256 * (px c r).val + 256 ≤ 256 * (px c r').val ∨ 256 * (px c r').val + 256 ≤ 256 * (px c r).val
  omega
/-- An upper and a lower window lie in different rows, whatever their masks. -/
theorem wWR12_disj (c : Dev nD) (r r' : Fin 8) : Disjoint (wWR1 c r).set (wWR2 c r').set := by
  refine Rect.unit_disjoint 0 ?_
  rw [off1_eq c r, off2_eq c r']
  exact Or.inl (by show 0 + 2048 ≤ 2048; omega)
theorem wWR21_disj (c : Dev nD) (r r' : Fin 8) : Disjoint (wWR2 c r).set (wWR1 c r').set :=
  (wWR12_disj c r' r).symm

/-! Every two distinct windows, by name: `wwin_disj_<k><r>_<k'><r'>` for window `k` (1 upper, 2 lower) at mask `r`
    against window `k'` at mask `r'`, the pair in the order upper before lower, then by mask. -/
theorem wwin_disj_10_11 (c : Dev nD) : Disjoint (wWin1 c 0).view.set (wWin1 c 1).view.set := by
  rw [wWin1_set_0, wWin1_set_1]; exact wWR11_disj c 0 1 (by decide)
theorem wwin_disj_10_12 (c : Dev nD) : Disjoint (wWin1 c 0).view.set (wWin1 c 2).view.set := by
  rw [wWin1_set_0, wWin1_set_2]; exact wWR11_disj c 0 2 (by decide)
theorem wwin_disj_10_13 (c : Dev nD) : Disjoint (wWin1 c 0).view.set (wWin1 c 3).view.set := by
  rw [wWin1_set_0, wWin1_set_3]; exact wWR11_disj c 0 3 (by decide)
theorem wwin_disj_10_14 (c : Dev nD) : Disjoint (wWin1 c 0).view.set (wWin1 c 4).view.set := by
  rw [wWin1_set_0, wWin1_set_4]; exact wWR11_disj c 0 4 (by decide)
theorem wwin_disj_10_15 (c : Dev nD) : Disjoint (wWin1 c 0).view.set (wWin1 c 5).view.set := by
  rw [wWin1_set_0, wWin1_set_5]; exact wWR11_disj c 0 5 (by decide)
theorem wwin_disj_10_16 (c : Dev nD) : Disjoint (wWin1 c 0).view.set (wWin1 c 6).view.set := by
  rw [wWin1_set_0, wWin1_set_6]; exact wWR11_disj c 0 6 (by decide)
theorem wwin_disj_10_17 (c : Dev nD) : Disjoint (wWin1 c 0).view.set (wWin1 c 7).view.set := by
  rw [wWin1_set_0, wWin1_set_7]; exact wWR11_disj c 0 7 (by decide)
theorem wwin_disj_10_20 (c : Dev nD) : Disjoint (wWin1 c 0).view.set (wWin2 c 0).view.set := by
  rw [wWin1_set_0, wWin2_set_0]; exact wWR12_disj c 0 0
theorem wwin_disj_10_21 (c : Dev nD) : Disjoint (wWin1 c 0).view.set (wWin2 c 1).view.set := by
  rw [wWin1_set_0, wWin2_set_1]; exact wWR12_disj c 0 1
theorem wwin_disj_10_22 (c : Dev nD) : Disjoint (wWin1 c 0).view.set (wWin2 c 2).view.set := by
  rw [wWin1_set_0, wWin2_set_2]; exact wWR12_disj c 0 2
theorem wwin_disj_10_23 (c : Dev nD) : Disjoint (wWin1 c 0).view.set (wWin2 c 3).view.set := by
  rw [wWin1_set_0, wWin2_set_3]; exact wWR12_disj c 0 3
theorem wwin_disj_10_24 (c : Dev nD) : Disjoint (wWin1 c 0).view.set (wWin2 c 4).view.set := by
  rw [wWin1_set_0, wWin2_set_4]; exact wWR12_disj c 0 4
theorem wwin_disj_10_25 (c : Dev nD) : Disjoint (wWin1 c 0).view.set (wWin2 c 5).view.set := by
  rw [wWin1_set_0, wWin2_set_5]; exact wWR12_disj c 0 5
theorem wwin_disj_10_26 (c : Dev nD) : Disjoint (wWin1 c 0).view.set (wWin2 c 6).view.set := by
  rw [wWin1_set_0, wWin2_set_6]; exact wWR12_disj c 0 6
theorem wwin_disj_10_27 (c : Dev nD) : Disjoint (wWin1 c 0).view.set (wWin2 c 7).view.set := by
  rw [wWin1_set_0, wWin2_set_7]; exact wWR12_disj c 0 7
theorem wwin_disj_11_12 (c : Dev nD) : Disjoint (wWin1 c 1).view.set (wWin1 c 2).view.set := by
  rw [wWin1_set_1, wWin1_set_2]; exact wWR11_disj c 1 2 (by decide)
theorem wwin_disj_11_13 (c : Dev nD) : Disjoint (wWin1 c 1).view.set (wWin1 c 3).view.set := by
  rw [wWin1_set_1, wWin1_set_3]; exact wWR11_disj c 1 3 (by decide)
theorem wwin_disj_11_14 (c : Dev nD) : Disjoint (wWin1 c 1).view.set (wWin1 c 4).view.set := by
  rw [wWin1_set_1, wWin1_set_4]; exact wWR11_disj c 1 4 (by decide)
theorem wwin_disj_11_15 (c : Dev nD) : Disjoint (wWin1 c 1).view.set (wWin1 c 5).view.set := by
  rw [wWin1_set_1, wWin1_set_5]; exact wWR11_disj c 1 5 (by decide)
theorem wwin_disj_11_16 (c : Dev nD) : Disjoint (wWin1 c 1).view.set (wWin1 c 6).view.set := by
  rw [wWin1_set_1, wWin1_set_6]; exact wWR11_disj c 1 6 (by decide)
theorem wwin_disj_11_17 (c : Dev nD) : Disjoint (wWin1 c 1).view.set (wWin1 c 7).view.set := by
  rw [wWin1_set_1, wWin1_set_7]; exact wWR11_disj c 1 7 (by decide)
theorem wwin_disj_11_20 (c : Dev nD) : Disjoint (wWin1 c 1).view.set (wWin2 c 0).view.set := by
  rw [wWin1_set_1, wWin2_set_0]; exact wWR12_disj c 1 0
theorem wwin_disj_11_21 (c : Dev nD) : Disjoint (wWin1 c 1).view.set (wWin2 c 1).view.set := by
  rw [wWin1_set_1, wWin2_set_1]; exact wWR12_disj c 1 1
theorem wwin_disj_11_22 (c : Dev nD) : Disjoint (wWin1 c 1).view.set (wWin2 c 2).view.set := by
  rw [wWin1_set_1, wWin2_set_2]; exact wWR12_disj c 1 2
theorem wwin_disj_11_23 (c : Dev nD) : Disjoint (wWin1 c 1).view.set (wWin2 c 3).view.set := by
  rw [wWin1_set_1, wWin2_set_3]; exact wWR12_disj c 1 3
theorem wwin_disj_11_24 (c : Dev nD) : Disjoint (wWin1 c 1).view.set (wWin2 c 4).view.set := by
  rw [wWin1_set_1, wWin2_set_4]; exact wWR12_disj c 1 4
theorem wwin_disj_11_25 (c : Dev nD) : Disjoint (wWin1 c 1).view.set (wWin2 c 5).view.set := by
  rw [wWin1_set_1, wWin2_set_5]; exact wWR12_disj c 1 5
theorem wwin_disj_11_26 (c : Dev nD) : Disjoint (wWin1 c 1).view.set (wWin2 c 6).view.set := by
  rw [wWin1_set_1, wWin2_set_6]; exact wWR12_disj c 1 6
theorem wwin_disj_11_27 (c : Dev nD) : Disjoint (wWin1 c 1).view.set (wWin2 c 7).view.set := by
  rw [wWin1_set_1, wWin2_set_7]; exact wWR12_disj c 1 7
theorem wwin_disj_12_13 (c : Dev nD) : Disjoint (wWin1 c 2).view.set (wWin1 c 3).view.set := by
  rw [wWin1_set_2, wWin1_set_3]; exact wWR11_disj c 2 3 (by decide)
theorem wwin_disj_12_14 (c : Dev nD) : Disjoint (wWin1 c 2).view.set (wWin1 c 4).view.set := by
  rw [wWin1_set_2, wWin1_set_4]; exact wWR11_disj c 2 4 (by decide)
theorem wwin_disj_12_15 (c : Dev nD) : Disjoint (wWin1 c 2).view.set (wWin1 c 5).view.set := by
  rw [wWin1_set_2, wWin1_set_5]; exact wWR11_disj c 2 5 (by decide)
theorem wwin_disj_12_16 (c : Dev nD) : Disjoint (wWin1 c 2).view.set (wWin1 c 6).view.set := by
  rw [wWin1_set_2, wWin1_set_6]; exact wWR11_disj c 2 6 (by decide)
theorem wwin_disj_12_17 (c : Dev nD) : Disjoint (wWin1 c 2).view.set (wWin1 c 7).view.set := by
  rw [wWin1_set_2, wWin1_set_7]; exact wWR11_disj c 2 7 (by decide)
theorem wwin_disj_12_20 (c : Dev nD) : Disjoint (wWin1 c 2).view.set (wWin2 c 0).view.set := by
  rw [wWin1_set_2, wWin2_set_0]; exact wWR12_disj c 2 0
theorem wwin_disj_12_21 (c : Dev nD) : Disjoint (wWin1 c 2).view.set (wWin2 c 1).view.set := by
  rw [wWin1_set_2, wWin2_set_1]; exact wWR12_disj c 2 1
theorem wwin_disj_12_22 (c : Dev nD) : Disjoint (wWin1 c 2).view.set (wWin2 c 2).view.set := by
  rw [wWin1_set_2, wWin2_set_2]; exact wWR12_disj c 2 2
theorem wwin_disj_12_23 (c : Dev nD) : Disjoint (wWin1 c 2).view.set (wWin2 c 3).view.set := by
  rw [wWin1_set_2, wWin2_set_3]; exact wWR12_disj c 2 3
theorem wwin_disj_12_24 (c : Dev nD) : Disjoint (wWin1 c 2).view.set (wWin2 c 4).view.set := by
  rw [wWin1_set_2, wWin2_set_4]; exact wWR12_disj c 2 4
theorem wwin_disj_12_25 (c : Dev nD) : Disjoint (wWin1 c 2).view.set (wWin2 c 5).view.set := by
  rw [wWin1_set_2, wWin2_set_5]; exact wWR12_disj c 2 5
theorem wwin_disj_12_26 (c : Dev nD) : Disjoint (wWin1 c 2).view.set (wWin2 c 6).view.set := by
  rw [wWin1_set_2, wWin2_set_6]; exact wWR12_disj c 2 6
theorem wwin_disj_12_27 (c : Dev nD) : Disjoint (wWin1 c 2).view.set (wWin2 c 7).view.set := by
  rw [wWin1_set_2, wWin2_set_7]; exact wWR12_disj c 2 7
theorem wwin_disj_13_14 (c : Dev nD) : Disjoint (wWin1 c 3).view.set (wWin1 c 4).view.set := by
  rw [wWin1_set_3, wWin1_set_4]; exact wWR11_disj c 3 4 (by decide)
theorem wwin_disj_13_15 (c : Dev nD) : Disjoint (wWin1 c 3).view.set (wWin1 c 5).view.set := by
  rw [wWin1_set_3, wWin1_set_5]; exact wWR11_disj c 3 5 (by decide)
theorem wwin_disj_13_16 (c : Dev nD) : Disjoint (wWin1 c 3).view.set (wWin1 c 6).view.set := by
  rw [wWin1_set_3, wWin1_set_6]; exact wWR11_disj c 3 6 (by decide)
theorem wwin_disj_13_17 (c : Dev nD) : Disjoint (wWin1 c 3).view.set (wWin1 c 7).view.set := by
  rw [wWin1_set_3, wWin1_set_7]; exact wWR11_disj c 3 7 (by decide)
theorem wwin_disj_13_20 (c : Dev nD) : Disjoint (wWin1 c 3).view.set (wWin2 c 0).view.set := by
  rw [wWin1_set_3, wWin2_set_0]; exact wWR12_disj c 3 0
theorem wwin_disj_13_21 (c : Dev nD) : Disjoint (wWin1 c 3).view.set (wWin2 c 1).view.set := by
  rw [wWin1_set_3, wWin2_set_1]; exact wWR12_disj c 3 1
theorem wwin_disj_13_22 (c : Dev nD) : Disjoint (wWin1 c 3).view.set (wWin2 c 2).view.set := by
  rw [wWin1_set_3, wWin2_set_2]; exact wWR12_disj c 3 2
theorem wwin_disj_13_23 (c : Dev nD) : Disjoint (wWin1 c 3).view.set (wWin2 c 3).view.set := by
  rw [wWin1_set_3, wWin2_set_3]; exact wWR12_disj c 3 3
theorem wwin_disj_13_24 (c : Dev nD) : Disjoint (wWin1 c 3).view.set (wWin2 c 4).view.set := by
  rw [wWin1_set_3, wWin2_set_4]; exact wWR12_disj c 3 4
theorem wwin_disj_13_25 (c : Dev nD) : Disjoint (wWin1 c 3).view.set (wWin2 c 5).view.set := by
  rw [wWin1_set_3, wWin2_set_5]; exact wWR12_disj c 3 5
theorem wwin_disj_13_26 (c : Dev nD) : Disjoint (wWin1 c 3).view.set (wWin2 c 6).view.set := by
  rw [wWin1_set_3, wWin2_set_6]; exact wWR12_disj c 3 6
theorem wwin_disj_13_27 (c : Dev nD) : Disjoint (wWin1 c 3).view.set (wWin2 c 7).view.set := by
  rw [wWin1_set_3, wWin2_set_7]; exact wWR12_disj c 3 7
theorem wwin_disj_14_15 (c : Dev nD) : Disjoint (wWin1 c 4).view.set (wWin1 c 5).view.set := by
  rw [wWin1_set_4, wWin1_set_5]; exact wWR11_disj c 4 5 (by decide)
theorem wwin_disj_14_16 (c : Dev nD) : Disjoint (wWin1 c 4).view.set (wWin1 c 6).view.set := by
  rw [wWin1_set_4, wWin1_set_6]; exact wWR11_disj c 4 6 (by decide)
theorem wwin_disj_14_17 (c : Dev nD) : Disjoint (wWin1 c 4).view.set (wWin1 c 7).view.set := by
  rw [wWin1_set_4, wWin1_set_7]; exact wWR11_disj c 4 7 (by decide)
theorem wwin_disj_14_20 (c : Dev nD) : Disjoint (wWin1 c 4).view.set (wWin2 c 0).view.set := by
  rw [wWin1_set_4, wWin2_set_0]; exact wWR12_disj c 4 0
theorem wwin_disj_14_21 (c : Dev nD) : Disjoint (wWin1 c 4).view.set (wWin2 c 1).view.set := by
  rw [wWin1_set_4, wWin2_set_1]; exact wWR12_disj c 4 1
theorem wwin_disj_14_22 (c : Dev nD) : Disjoint (wWin1 c 4).view.set (wWin2 c 2).view.set := by
  rw [wWin1_set_4, wWin2_set_2]; exact wWR12_disj c 4 2
theorem wwin_disj_14_23 (c : Dev nD) : Disjoint (wWin1 c 4).view.set (wWin2 c 3).view.set := by
  rw [wWin1_set_4, wWin2_set_3]; exact wWR12_disj c 4 3
theorem wwin_disj_14_24 (c : Dev nD) : Disjoint (wWin1 c 4).view.set (wWin2 c 4).view.set := by
  rw [wWin1_set_4, wWin2_set_4]; exact wWR12_disj c 4 4
theorem wwin_disj_14_25 (c : Dev nD) : Disjoint (wWin1 c 4).view.set (wWin2 c 5).view.set := by
  rw [wWin1_set_4, wWin2_set_5]; exact wWR12_disj c 4 5
theorem wwin_disj_14_26 (c : Dev nD) : Disjoint (wWin1 c 4).view.set (wWin2 c 6).view.set := by
  rw [wWin1_set_4, wWin2_set_6]; exact wWR12_disj c 4 6
theorem wwin_disj_14_27 (c : Dev nD) : Disjoint (wWin1 c 4).view.set (wWin2 c 7).view.set := by
  rw [wWin1_set_4, wWin2_set_7]; exact wWR12_disj c 4 7
theorem wwin_disj_15_16 (c : Dev nD) : Disjoint (wWin1 c 5).view.set (wWin1 c 6).view.set := by
  rw [wWin1_set_5, wWin1_set_6]; exact wWR11_disj c 5 6 (by decide)
theorem wwin_disj_15_17 (c : Dev nD) : Disjoint (wWin1 c 5).view.set (wWin1 c 7).view.set := by
  rw [wWin1_set_5, wWin1_set_7]; exact wWR11_disj c 5 7 (by decide)
theorem wwin_disj_15_20 (c : Dev nD) : Disjoint (wWin1 c 5).view.set (wWin2 c 0).view.set := by
  rw [wWin1_set_5, wWin2_set_0]; exact wWR12_disj c 5 0
theorem wwin_disj_15_21 (c : Dev nD) : Disjoint (wWin1 c 5).view.set (wWin2 c 1).view.set := by
  rw [wWin1_set_5, wWin2_set_1]; exact wWR12_disj c 5 1
theorem wwin_disj_15_22 (c : Dev nD) : Disjoint (wWin1 c 5).view.set (wWin2 c 2).view.set := by
  rw [wWin1_set_5, wWin2_set_2]; exact wWR12_disj c 5 2
theorem wwin_disj_15_23 (c : Dev nD) : Disjoint (wWin1 c 5).view.set (wWin2 c 3).view.set := by
  rw [wWin1_set_5, wWin2_set_3]; exact wWR12_disj c 5 3
theorem wwin_disj_15_24 (c : Dev nD) : Disjoint (wWin1 c 5).view.set (wWin2 c 4).view.set := by
  rw [wWin1_set_5, wWin2_set_4]; exact wWR12_disj c 5 4
theorem wwin_disj_15_25 (c : Dev nD) : Disjoint (wWin1 c 5).view.set (wWin2 c 5).view.set := by
  rw [wWin1_set_5, wWin2_set_5]; exact wWR12_disj c 5 5
theorem wwin_disj_15_26 (c : Dev nD) : Disjoint (wWin1 c 5).view.set (wWin2 c 6).view.set := by
  rw [wWin1_set_5, wWin2_set_6]; exact wWR12_disj c 5 6
theorem wwin_disj_15_27 (c : Dev nD) : Disjoint (wWin1 c 5).view.set (wWin2 c 7).view.set := by
  rw [wWin1_set_5, wWin2_set_7]; exact wWR12_disj c 5 7
theorem wwin_disj_16_17 (c : Dev nD) : Disjoint (wWin1 c 6).view.set (wWin1 c 7).view.set := by
  rw [wWin1_set_6, wWin1_set_7]; exact wWR11_disj c 6 7 (by decide)
theorem wwin_disj_16_20 (c : Dev nD) : Disjoint (wWin1 c 6).view.set (wWin2 c 0).view.set := by
  rw [wWin1_set_6, wWin2_set_0]; exact wWR12_disj c 6 0
theorem wwin_disj_16_21 (c : Dev nD) : Disjoint (wWin1 c 6).view.set (wWin2 c 1).view.set := by
  rw [wWin1_set_6, wWin2_set_1]; exact wWR12_disj c 6 1
theorem wwin_disj_16_22 (c : Dev nD) : Disjoint (wWin1 c 6).view.set (wWin2 c 2).view.set := by
  rw [wWin1_set_6, wWin2_set_2]; exact wWR12_disj c 6 2
theorem wwin_disj_16_23 (c : Dev nD) : Disjoint (wWin1 c 6).view.set (wWin2 c 3).view.set := by
  rw [wWin1_set_6, wWin2_set_3]; exact wWR12_disj c 6 3
theorem wwin_disj_16_24 (c : Dev nD) : Disjoint (wWin1 c 6).view.set (wWin2 c 4).view.set := by
  rw [wWin1_set_6, wWin2_set_4]; exact wWR12_disj c 6 4
theorem wwin_disj_16_25 (c : Dev nD) : Disjoint (wWin1 c 6).view.set (wWin2 c 5).view.set := by
  rw [wWin1_set_6, wWin2_set_5]; exact wWR12_disj c 6 5
theorem wwin_disj_16_26 (c : Dev nD) : Disjoint (wWin1 c 6).view.set (wWin2 c 6).view.set := by
  rw [wWin1_set_6, wWin2_set_6]; exact wWR12_disj c 6 6
theorem wwin_disj_16_27 (c : Dev nD) : Disjoint (wWin1 c 6).view.set (wWin2 c 7).view.set := by
  rw [wWin1_set_6, wWin2_set_7]; exact wWR12_disj c 6 7
theorem wwin_disj_17_20 (c : Dev nD) : Disjoint (wWin1 c 7).view.set (wWin2 c 0).view.set := by
  rw [wWin1_set_7, wWin2_set_0]; exact wWR12_disj c 7 0
theorem wwin_disj_17_21 (c : Dev nD) : Disjoint (wWin1 c 7).view.set (wWin2 c 1).view.set := by
  rw [wWin1_set_7, wWin2_set_1]; exact wWR12_disj c 7 1
theorem wwin_disj_17_22 (c : Dev nD) : Disjoint (wWin1 c 7).view.set (wWin2 c 2).view.set := by
  rw [wWin1_set_7, wWin2_set_2]; exact wWR12_disj c 7 2
theorem wwin_disj_17_23 (c : Dev nD) : Disjoint (wWin1 c 7).view.set (wWin2 c 3).view.set := by
  rw [wWin1_set_7, wWin2_set_3]; exact wWR12_disj c 7 3
theorem wwin_disj_17_24 (c : Dev nD) : Disjoint (wWin1 c 7).view.set (wWin2 c 4).view.set := by
  rw [wWin1_set_7, wWin2_set_4]; exact wWR12_disj c 7 4
theorem wwin_disj_17_25 (c : Dev nD) : Disjoint (wWin1 c 7).view.set (wWin2 c 5).view.set := by
  rw [wWin1_set_7, wWin2_set_5]; exact wWR12_disj c 7 5
theorem wwin_disj_17_26 (c : Dev nD) : Disjoint (wWin1 c 7).view.set (wWin2 c 6).view.set := by
  rw [wWin1_set_7, wWin2_set_6]; exact wWR12_disj c 7 6
theorem wwin_disj_17_27 (c : Dev nD) : Disjoint (wWin1 c 7).view.set (wWin2 c 7).view.set := by
  rw [wWin1_set_7, wWin2_set_7]; exact wWR12_disj c 7 7
theorem wwin_disj_20_21 (c : Dev nD) : Disjoint (wWin2 c 0).view.set (wWin2 c 1).view.set := by
  rw [wWin2_set_0, wWin2_set_1]; exact wWR22_disj c 0 1 (by decide)
theorem wwin_disj_20_22 (c : Dev nD) : Disjoint (wWin2 c 0).view.set (wWin2 c 2).view.set := by
  rw [wWin2_set_0, wWin2_set_2]; exact wWR22_disj c 0 2 (by decide)
theorem wwin_disj_20_23 (c : Dev nD) : Disjoint (wWin2 c 0).view.set (wWin2 c 3).view.set := by
  rw [wWin2_set_0, wWin2_set_3]; exact wWR22_disj c 0 3 (by decide)
theorem wwin_disj_20_24 (c : Dev nD) : Disjoint (wWin2 c 0).view.set (wWin2 c 4).view.set := by
  rw [wWin2_set_0, wWin2_set_4]; exact wWR22_disj c 0 4 (by decide)
theorem wwin_disj_20_25 (c : Dev nD) : Disjoint (wWin2 c 0).view.set (wWin2 c 5).view.set := by
  rw [wWin2_set_0, wWin2_set_5]; exact wWR22_disj c 0 5 (by decide)
theorem wwin_disj_20_26 (c : Dev nD) : Disjoint (wWin2 c 0).view.set (wWin2 c 6).view.set := by
  rw [wWin2_set_0, wWin2_set_6]; exact wWR22_disj c 0 6 (by decide)
theorem wwin_disj_20_27 (c : Dev nD) : Disjoint (wWin2 c 0).view.set (wWin2 c 7).view.set := by
  rw [wWin2_set_0, wWin2_set_7]; exact wWR22_disj c 0 7 (by decide)
theorem wwin_disj_21_22 (c : Dev nD) : Disjoint (wWin2 c 1).view.set (wWin2 c 2).view.set := by
  rw [wWin2_set_1, wWin2_set_2]; exact wWR22_disj c 1 2 (by decide)
theorem wwin_disj_21_23 (c : Dev nD) : Disjoint (wWin2 c 1).view.set (wWin2 c 3).view.set := by
  rw [wWin2_set_1, wWin2_set_3]; exact wWR22_disj c 1 3 (by decide)
theorem wwin_disj_21_24 (c : Dev nD) : Disjoint (wWin2 c 1).view.set (wWin2 c 4).view.set := by
  rw [wWin2_set_1, wWin2_set_4]; exact wWR22_disj c 1 4 (by decide)
theorem wwin_disj_21_25 (c : Dev nD) : Disjoint (wWin2 c 1).view.set (wWin2 c 5).view.set := by
  rw [wWin2_set_1, wWin2_set_5]; exact wWR22_disj c 1 5 (by decide)
theorem wwin_disj_21_26 (c : Dev nD) : Disjoint (wWin2 c 1).view.set (wWin2 c 6).view.set := by
  rw [wWin2_set_1, wWin2_set_6]; exact wWR22_disj c 1 6 (by decide)
theorem wwin_disj_21_27 (c : Dev nD) : Disjoint (wWin2 c 1).view.set (wWin2 c 7).view.set := by
  rw [wWin2_set_1, wWin2_set_7]; exact wWR22_disj c 1 7 (by decide)
theorem wwin_disj_22_23 (c : Dev nD) : Disjoint (wWin2 c 2).view.set (wWin2 c 3).view.set := by
  rw [wWin2_set_2, wWin2_set_3]; exact wWR22_disj c 2 3 (by decide)
theorem wwin_disj_22_24 (c : Dev nD) : Disjoint (wWin2 c 2).view.set (wWin2 c 4).view.set := by
  rw [wWin2_set_2, wWin2_set_4]; exact wWR22_disj c 2 4 (by decide)
theorem wwin_disj_22_25 (c : Dev nD) : Disjoint (wWin2 c 2).view.set (wWin2 c 5).view.set := by
  rw [wWin2_set_2, wWin2_set_5]; exact wWR22_disj c 2 5 (by decide)
theorem wwin_disj_22_26 (c : Dev nD) : Disjoint (wWin2 c 2).view.set (wWin2 c 6).view.set := by
  rw [wWin2_set_2, wWin2_set_6]; exact wWR22_disj c 2 6 (by decide)
theorem wwin_disj_22_27 (c : Dev nD) : Disjoint (wWin2 c 2).view.set (wWin2 c 7).view.set := by
  rw [wWin2_set_2, wWin2_set_7]; exact wWR22_disj c 2 7 (by decide)
theorem wwin_disj_23_24 (c : Dev nD) : Disjoint (wWin2 c 3).view.set (wWin2 c 4).view.set := by
  rw [wWin2_set_3, wWin2_set_4]; exact wWR22_disj c 3 4 (by decide)
theorem wwin_disj_23_25 (c : Dev nD) : Disjoint (wWin2 c 3).view.set (wWin2 c 5).view.set := by
  rw [wWin2_set_3, wWin2_set_5]; exact wWR22_disj c 3 5 (by decide)
theorem wwin_disj_23_26 (c : Dev nD) : Disjoint (wWin2 c 3).view.set (wWin2 c 6).view.set := by
  rw [wWin2_set_3, wWin2_set_6]; exact wWR22_disj c 3 6 (by decide)
theorem wwin_disj_23_27 (c : Dev nD) : Disjoint (wWin2 c 3).view.set (wWin2 c 7).view.set := by
  rw [wWin2_set_3, wWin2_set_7]; exact wWR22_disj c 3 7 (by decide)
theorem wwin_disj_24_25 (c : Dev nD) : Disjoint (wWin2 c 4).view.set (wWin2 c 5).view.set := by
  rw [wWin2_set_4, wWin2_set_5]; exact wWR22_disj c 4 5 (by decide)
theorem wwin_disj_24_26 (c : Dev nD) : Disjoint (wWin2 c 4).view.set (wWin2 c 6).view.set := by
  rw [wWin2_set_4, wWin2_set_6]; exact wWR22_disj c 4 6 (by decide)
theorem wwin_disj_24_27 (c : Dev nD) : Disjoint (wWin2 c 4).view.set (wWin2 c 7).view.set := by
  rw [wWin2_set_4, wWin2_set_7]; exact wWR22_disj c 4 7 (by decide)
theorem wwin_disj_25_26 (c : Dev nD) : Disjoint (wWin2 c 5).view.set (wWin2 c 6).view.set := by
  rw [wWin2_set_5, wWin2_set_6]; exact wWR22_disj c 5 6 (by decide)
theorem wwin_disj_25_27 (c : Dev nD) : Disjoint (wWin2 c 5).view.set (wWin2 c 7).view.set := by
  rw [wWin2_set_5, wWin2_set_7]; exact wWR22_disj c 5 7 (by decide)
theorem wwin_disj_26_27 (c : Dev nD) : Disjoint (wWin2 c 6).view.set (wWin2 c 7).view.set := by
  rw [wWin2_set_6, wWin2_set_7]; exact wWR22_disj c 6 7 (by decide)

/-- Puts the disjointness of every two distinct windows at device `c` into the context, as plain facts. -/
macro "wwin_haves " c:term : tactic => `(tactic| (
  have := wwin_disj_10_11 $c
  have := wwin_disj_10_12 $c
  have := wwin_disj_10_13 $c
  have := wwin_disj_10_14 $c
  have := wwin_disj_10_15 $c
  have := wwin_disj_10_16 $c
  have := wwin_disj_10_17 $c
  have := wwin_disj_10_20 $c
  have := wwin_disj_10_21 $c
  have := wwin_disj_10_22 $c
  have := wwin_disj_10_23 $c
  have := wwin_disj_10_24 $c
  have := wwin_disj_10_25 $c
  have := wwin_disj_10_26 $c
  have := wwin_disj_10_27 $c
  have := wwin_disj_11_12 $c
  have := wwin_disj_11_13 $c
  have := wwin_disj_11_14 $c
  have := wwin_disj_11_15 $c
  have := wwin_disj_11_16 $c
  have := wwin_disj_11_17 $c
  have := wwin_disj_11_20 $c
  have := wwin_disj_11_21 $c
  have := wwin_disj_11_22 $c
  have := wwin_disj_11_23 $c
  have := wwin_disj_11_24 $c
  have := wwin_disj_11_25 $c
  have := wwin_disj_11_26 $c
  have := wwin_disj_11_27 $c
  have := wwin_disj_12_13 $c
  have := wwin_disj_12_14 $c
  have := wwin_disj_12_15 $c
  have := wwin_disj_12_16 $c
  have := wwin_disj_12_17 $c
  have := wwin_disj_12_20 $c
  have := wwin_disj_12_21 $c
  have := wwin_disj_12_22 $c
  have := wwin_disj_12_23 $c
  have := wwin_disj_12_24 $c
  have := wwin_disj_12_25 $c
  have := wwin_disj_12_26 $c
  have := wwin_disj_12_27 $c
  have := wwin_disj_13_14 $c
  have := wwin_disj_13_15 $c
  have := wwin_disj_13_16 $c
  have := wwin_disj_13_17 $c
  have := wwin_disj_13_20 $c
  have := wwin_disj_13_21 $c
  have := wwin_disj_13_22 $c
  have := wwin_disj_13_23 $c
  have := wwin_disj_13_24 $c
  have := wwin_disj_13_25 $c
  have := wwin_disj_13_26 $c
  have := wwin_disj_13_27 $c
  have := wwin_disj_14_15 $c
  have := wwin_disj_14_16 $c
  have := wwin_disj_14_17 $c
  have := wwin_disj_14_20 $c
  have := wwin_disj_14_21 $c
  have := wwin_disj_14_22 $c
  have := wwin_disj_14_23 $c
  have := wwin_disj_14_24 $c
  have := wwin_disj_14_25 $c
  have := wwin_disj_14_26 $c
  have := wwin_disj_14_27 $c
  have := wwin_disj_15_16 $c
  have := wwin_disj_15_17 $c
  have := wwin_disj_15_20 $c
  have := wwin_disj_15_21 $c
  have := wwin_disj_15_22 $c
  have := wwin_disj_15_23 $c
  have := wwin_disj_15_24 $c
  have := wwin_disj_15_25 $c
  have := wwin_disj_15_26 $c
  have := wwin_disj_15_27 $c
  have := wwin_disj_16_17 $c
  have := wwin_disj_16_20 $c
  have := wwin_disj_16_21 $c
  have := wwin_disj_16_22 $c
  have := wwin_disj_16_23 $c
  have := wwin_disj_16_24 $c
  have := wwin_disj_16_25 $c
  have := wwin_disj_16_26 $c
  have := wwin_disj_16_27 $c
  have := wwin_disj_17_20 $c
  have := wwin_disj_17_21 $c
  have := wwin_disj_17_22 $c
  have := wwin_disj_17_23 $c
  have := wwin_disj_17_24 $c
  have := wwin_disj_17_25 $c
  have := wwin_disj_17_26 $c
  have := wwin_disj_17_27 $c
  have := wwin_disj_20_21 $c
  have := wwin_disj_20_22 $c
  have := wwin_disj_20_23 $c
  have := wwin_disj_20_24 $c
  have := wwin_disj_20_25 $c
  have := wwin_disj_20_26 $c
  have := wwin_disj_20_27 $c
  have := wwin_disj_21_22 $c
  have := wwin_disj_21_23 $c
  have := wwin_disj_21_24 $c
  have := wwin_disj_21_25 $c
  have := wwin_disj_21_26 $c
  have := wwin_disj_21_27 $c
  have := wwin_disj_22_23 $c
  have := wwin_disj_22_24 $c
  have := wwin_disj_22_25 $c
  have := wwin_disj_22_26 $c
  have := wwin_disj_22_27 $c
  have := wwin_disj_23_24 $c
  have := wwin_disj_23_25 $c
  have := wwin_disj_23_26 $c
  have := wwin_disj_23_27 $c
  have := wwin_disj_24_25 $c
  have := wwin_disj_24_26 $c
  have := wwin_disj_24_27 $c
  have := wwin_disj_25_26 $c
  have := wwin_disj_25_27 $c
  have := wwin_disj_26_27 $c))
/-- The literal values of the slot and half indices, for the arithmetic below. -/
theorem fin8_vals : (0 : Fin 8).val = 0 ∧ (1 : Fin 8).val = 1 ∧ (2 : Fin 8).val = 2 ∧ (3 : Fin 8).val = 3 ∧
    (4 : Fin 8).val = 4 ∧ (5 : Fin 8).val = 5 ∧ (6 : Fin 8).val = 6 ∧ (7 : Fin 8).val = 7 := by decide
theorem fin2_vals : (0 : Fin 2).val = 0 ∧ (1 : Fin 2).val = 1 := by decide

/-! ## The weight buffer: eight slots, each in two halves of its rows -/

/-- Slot `s`, rows `2048 h .. 2048 h + 2047`, all columns, of the 8 x 4096 x 256 index space. -/
abbrev wHR (s : Fin 8) (h : Fin 2) : Rect S8x4096x256 :=
  Rect.unit (s := S8x4096x256) ![s.val, 2048 * h.val, 0] S1x2048x256.size
    (Fin.forall_fin_succ.mpr ⟨by show s.val + 1 ≤ 8; omega,
      Fin.forall_fin_two.mpr ⟨by show 2048 * h.val + 2048 ≤ 4096; omega, by show 0 + 256 ≤ 256; omega⟩⟩)

/-- Slot `s`, whole. -/
abbrev wSR (s : Fin 8) : Rect S8x4096x256 :=
  Rect.unit (s := S8x4096x256) ![s.val, 0, 0] S1x4096x256.size
    (Fin.forall_fin_succ.mpr ⟨by show s.val + 1 ≤ 8; omega, Fin.forall_fin_two.mpr ⟨by show 0 + 4096 ≤ 4096; omega, by show 0 + 256 ≤ 256; omega⟩⟩)

theorem mem_wHR (s : Fin 8) (h : Fin 2) (i : S8x4096x256.Idx) :
    i ∈ (wHR s h).set ↔ (i 0).val = s.val ∧ 2048 * h.val ≤ (i 1).val ∧ (i 1).val < 2048 * h.val + 2048 := by
  have h2 : (i 2 : ℕ) < 256 := (i 2).isLt
  rw [Rect.mem_set_unit]
  constructor
  · intro H
    have a0 := H 0; have a1 := H 1
    simp only [Matrix.cons_val_zero, Matrix.cons_val_one, Shape.size] at a0 a1
    omega
  · rintro ⟨e0, e1, e2⟩ a
    fin_cases a
    · show s.val ≤ (i 0).val ∧ (i 0).val < s.val + 1; omega
    · show 2048 * h.val ≤ (i 1).val ∧ (i 1).val < 2048 * h.val + 2048; omega
    · show 0 ≤ (i 2).val ∧ (i 2).val < 0 + 256; omega

theorem mem_wSR (s : Fin 8) (i : S8x4096x256.Idx) : i ∈ (wSR s).set ↔ (i 0).val = s.val := by
  have h1 : (i 1 : ℕ) < 4096 := (i 1).isLt
  have h2 : (i 2 : ℕ) < 256 := (i 2).isLt
  rw [Rect.mem_set_unit]
  constructor
  · intro H
    have a0 := H 0
    simp only [Matrix.cons_val_zero, Shape.size] at a0
    omega
  · rintro e0 a
    fin_cases a
    · show s.val ≤ (i 0).val ∧ (i 0).val < s.val + 1; omega
    · show 0 ≤ (i 1).val ∧ (i 1).val < 0 + 4096; omega
    · show 0 ≤ (i 2).val ∧ (i 2).val < 0 + 256; omega

theorem wH_set_0_0 : (wH 0 0).view.set = (wHR 0 0).set := (View.set_reshape _ _).trans (View.set_slice_whole _ _)
theorem wH_set_0_1 : (wH 0 1).view.set = (wHR 0 1).set := (View.set_reshape _ _).trans (View.set_slice_whole _ _)
theorem wH_set_1_0 : (wH 1 0).view.set = (wHR 1 0).set := (View.set_reshape _ _).trans (View.set_slice_whole _ _)
theorem wH_set_1_1 : (wH 1 1).view.set = (wHR 1 1).set := (View.set_reshape _ _).trans (View.set_slice_whole _ _)
theorem wH_set_2_0 : (wH 2 0).view.set = (wHR 2 0).set := (View.set_reshape _ _).trans (View.set_slice_whole _ _)
theorem wH_set_2_1 : (wH 2 1).view.set = (wHR 2 1).set := (View.set_reshape _ _).trans (View.set_slice_whole _ _)
theorem wH_set_3_0 : (wH 3 0).view.set = (wHR 3 0).set := (View.set_reshape _ _).trans (View.set_slice_whole _ _)
theorem wH_set_3_1 : (wH 3 1).view.set = (wHR 3 1).set := (View.set_reshape _ _).trans (View.set_slice_whole _ _)
theorem wH_set_4_0 : (wH 4 0).view.set = (wHR 4 0).set := (View.set_reshape _ _).trans (View.set_slice_whole _ _)
theorem wH_set_4_1 : (wH 4 1).view.set = (wHR 4 1).set := (View.set_reshape _ _).trans (View.set_slice_whole _ _)
theorem wH_set_5_0 : (wH 5 0).view.set = (wHR 5 0).set := (View.set_reshape _ _).trans (View.set_slice_whole _ _)
theorem wH_set_5_1 : (wH 5 1).view.set = (wHR 5 1).set := (View.set_reshape _ _).trans (View.set_slice_whole _ _)
theorem wH_set_6_0 : (wH 6 0).view.set = (wHR 6 0).set := (View.set_reshape _ _).trans (View.set_slice_whole _ _)
theorem wH_set_6_1 : (wH 6 1).view.set = (wHR 6 1).set := (View.set_reshape _ _).trans (View.set_slice_whole _ _)
theorem wH_set_7_0 : (wH 7 0).view.set = (wHR 7 0).set := (View.set_reshape _ _).trans (View.set_slice_whole _ _)
theorem wH_set_7_1 : (wH 7 1).view.set = (wHR 7 1).set := (View.set_reshape _ _).trans (View.set_slice_whole _ _)

/-- The sixteen half-slots cover the index space. -/
theorem w_cover : (Finset.univ : Finset S8x4096x256.Idx) = (wHR 0 0).set ∪ ((wHR 0 1).set ∪ ((wHR 1 0).set ∪ ((wHR 1 1).set ∪ ((wHR 2 0).set ∪ ((wHR 2 1).set ∪ ((wHR 3 0).set ∪ ((wHR 3 1).set ∪ ((wHR 4 0).set ∪ ((wHR 4 1).set ∪ ((wHR 5 0).set ∪ ((wHR 5 1).set ∪ ((wHR 6 0).set ∪ ((wHR 6 1).set ∪ ((wHR 7 0).set ∪ ((wHR 7 1).set))))))))))))))) := by
  ext i
  have h0 : (i 0 : ℕ) < 8 := (i 0).isLt
  have h1 : (i 1 : ℕ) < 4096 := (i 1).isLt
  obtain ⟨v0, v1, v2, v3, v4, v5, v6, v7⟩ := fin8_vals
  obtain ⟨u0, u1⟩ := fin2_vals
  simp only [Finset.mem_univ, Finset.mem_union, mem_wHR, true_iff, v0, v1, v2, v3, v4, v5, v6, v7, u0, u1]
  omega

/-- Half-slots at different positions share no element. -/
theorem wHR_disj (s s' : Fin 8) (h h' : Fin 2) (hne : s ≠ s' ∨ h ≠ h') : Disjoint (wHR s h).set (wHR s' h').set := by
  rw [Finset.disjoint_left]
  intro i hi hk
  rw [mem_wHR] at hi hk
  rcases hne with hne | hne
  · have : s.val ≠ s'.val := fun e => hne (Fin.ext e)
    omega
  · have : h.val ≠ h'.val := fun e => hne (Fin.ext e)
    omega

/-- The weight buffer as its sixteen half-slots, each held as a set of the buffer's own elements. -/
theorem w_split_R (c : Dev nD) (f : Buf (Elt F) (wbM.view.loc (c : Thread nD τ))) :
    ((wbM.view.loc (c : Thread nD τ) ↦[wbM.view.set]{fullShare} f) : sProp 𝕄) ⊣⊢
      iprop((wbM.view.loc (c : Thread nD τ) ↦[(wHR 0 0).set]{fullShare} f) ∗
            (wbM.view.loc (c : Thread nD τ) ↦[(wHR 0 1).set]{fullShare} f) ∗
            (wbM.view.loc (c : Thread nD τ) ↦[(wHR 1 0).set]{fullShare} f) ∗
            (wbM.view.loc (c : Thread nD τ) ↦[(wHR 1 1).set]{fullShare} f) ∗
            (wbM.view.loc (c : Thread nD τ) ↦[(wHR 2 0).set]{fullShare} f) ∗
            (wbM.view.loc (c : Thread nD τ) ↦[(wHR 2 1).set]{fullShare} f) ∗
            (wbM.view.loc (c : Thread nD τ) ↦[(wHR 3 0).set]{fullShare} f) ∗
            (wbM.view.loc (c : Thread nD τ) ↦[(wHR 3 1).set]{fullShare} f) ∗
            (wbM.view.loc (c : Thread nD τ) ↦[(wHR 4 0).set]{fullShare} f) ∗
            (wbM.view.loc (c : Thread nD τ) ↦[(wHR 4 1).set]{fullShare} f) ∗
            (wbM.view.loc (c : Thread nD τ) ↦[(wHR 5 0).set]{fullShare} f) ∗
            (wbM.view.loc (c : Thread nD τ) ↦[(wHR 5 1).set]{fullShare} f) ∗
            (wbM.view.loc (c : Thread nD τ) ↦[(wHR 6 0).set]{fullShare} f) ∗
            (wbM.view.loc (c : Thread nD τ) ↦[(wHR 6 1).set]{fullShare} f) ∗
            (wbM.view.loc (c : Thread nD τ) ↦[(wHR 7 0).set]{fullShare} f) ∗
            (wbM.view.loc (c : Thread nD τ) ↦[(wHR 7 1).set]{fullShare} f)) := by
  have e : wbM.view.set = (wHR 0 0).set ∪ ((wHR 0 1).set ∪ ((wHR 1 0).set ∪ ((wHR 1 1).set ∪ ((wHR 2 0).set ∪ ((wHR 2 1).set ∪ ((wHR 3 0).set ∪ ((wHR 3 1).set ∪ ((wHR 4 0).set ∪ ((wHR 4 1).set ∪ ((wHR 5 0).set ∪ ((wHR 5 1).set ∪ ((wHR 6 0).set ∪ ((wHR 6 1).set ∪ ((wHR 7 0).set ∪ ((wHR 7 1).set))))))))))))))) := (View.set_whole _).trans w_cover
  rw [e]
  refine BiEntails.trans (Region.is_union (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)) (sep_congr_right ?_)
  refine BiEntails.trans (Region.is_union (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)) (sep_congr_right ?_)
  refine BiEntails.trans (Region.is_union (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)) (sep_congr_right ?_)
  refine BiEntails.trans (Region.is_union (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)) (sep_congr_right ?_)
  refine BiEntails.trans (Region.is_union (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)) (sep_congr_right ?_)
  refine BiEntails.trans (Region.is_union (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)) (sep_congr_right ?_)
  refine BiEntails.trans (Region.is_union (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)) (sep_congr_right ?_)
  refine BiEntails.trans (Region.is_union (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)) (sep_congr_right ?_)
  refine BiEntails.trans (Region.is_union (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)) (sep_congr_right ?_)
  refine BiEntails.trans (Region.is_union (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide)⟩)) (sep_congr_right ?_)
  refine BiEntails.trans (Region.is_union (by simp only [Finset.disjoint_union_right]; exact ⟨wHR_disj _ _ _ _ (by decide), wHR_disj _ _ _ _ (by decide), wHR_disj _ _ _ _ (by decide), wHR_disj _ _ _ _ (by decide), wHR_disj _ _ _ _ (by decide)⟩)) (sep_congr_right ?_)
  refine BiEntails.trans (Region.is_union (by simp only [Finset.disjoint_union_right]; exact ⟨wHR_disj _ _ _ _ (by decide), wHR_disj _ _ _ _ (by decide), wHR_disj _ _ _ _ (by decide), wHR_disj _ _ _ _ (by decide)⟩)) (sep_congr_right ?_)
  refine BiEntails.trans (Region.is_union (by simp only [Finset.disjoint_union_right]; exact ⟨wHR_disj _ _ _ _ (by decide), wHR_disj _ _ _ _ (by decide), wHR_disj _ _ _ _ (by decide)⟩)) (sep_congr_right ?_)
  refine BiEntails.trans (Region.is_union (by simp only [Finset.disjoint_union_right]; exact ⟨wHR_disj _ _ _ _ (by decide), wHR_disj _ _ _ _ (by decide)⟩)) (sep_congr_right ?_)
  exact Region.is_union (wHR_disj _ _ _ _ (by decide))

theorem w_split (c : Dev nD) (f : Buf (Elt F) ((wbM).view.loc (c : Thread nD τ))) :
    (((wbM).view.loc (c : Thread nD τ) ↦[(wbM).view.set]{fullShare} f) : sProp 𝕄) ⊣⊢
      iprop(((wH 0 0).view.loc (c : Thread nD τ) ↦[(wH 0 0).view.set]{fullShare} f) ∗
            ((wH 0 1).view.loc (c : Thread nD τ) ↦[(wH 0 1).view.set]{fullShare} f) ∗
            ((wH 1 0).view.loc (c : Thread nD τ) ↦[(wH 1 0).view.set]{fullShare} f) ∗
            ((wH 1 1).view.loc (c : Thread nD τ) ↦[(wH 1 1).view.set]{fullShare} f) ∗
            ((wH 2 0).view.loc (c : Thread nD τ) ↦[(wH 2 0).view.set]{fullShare} f) ∗
            ((wH 2 1).view.loc (c : Thread nD τ) ↦[(wH 2 1).view.set]{fullShare} f) ∗
            ((wH 3 0).view.loc (c : Thread nD τ) ↦[(wH 3 0).view.set]{fullShare} f) ∗
            ((wH 3 1).view.loc (c : Thread nD τ) ↦[(wH 3 1).view.set]{fullShare} f) ∗
            ((wH 4 0).view.loc (c : Thread nD τ) ↦[(wH 4 0).view.set]{fullShare} f) ∗
            ((wH 4 1).view.loc (c : Thread nD τ) ↦[(wH 4 1).view.set]{fullShare} f) ∗
            ((wH 5 0).view.loc (c : Thread nD τ) ↦[(wH 5 0).view.set]{fullShare} f) ∗
            ((wH 5 1).view.loc (c : Thread nD τ) ↦[(wH 5 1).view.set]{fullShare} f) ∗
            ((wH 6 0).view.loc (c : Thread nD τ) ↦[(wH 6 0).view.set]{fullShare} f) ∗
            ((wH 6 1).view.loc (c : Thread nD τ) ↦[(wH 6 1).view.set]{fullShare} f) ∗
            ((wH 7 0).view.loc (c : Thread nD τ) ↦[(wH 7 0).view.set]{fullShare} f) ∗
            ((wH 7 1).view.loc (c : Thread nD τ) ↦[(wH 7 1).view.set]{fullShare} f)) := by
  refine BiEntails.trans (w_split_R c f) ?_
  exact sep_congr (BiEntails.of_eq (pt_set wH_set_0_0.symm f)) (sep_congr (BiEntails.of_eq (pt_set wH_set_0_1.symm f)) (sep_congr (BiEntails.of_eq (pt_set wH_set_1_0.symm f)) (sep_congr (BiEntails.of_eq (pt_set wH_set_1_1.symm f)) (sep_congr (BiEntails.of_eq (pt_set wH_set_2_0.symm f)) (sep_congr (BiEntails.of_eq (pt_set wH_set_2_1.symm f)) (sep_congr (BiEntails.of_eq (pt_set wH_set_3_0.symm f)) (sep_congr (BiEntails.of_eq (pt_set wH_set_3_1.symm f)) (sep_congr (BiEntails.of_eq (pt_set wH_set_4_0.symm f)) (sep_congr (BiEntails.of_eq (pt_set wH_set_4_1.symm f)) (sep_congr (BiEntails.of_eq (pt_set wH_set_5_0.symm f)) (sep_congr (BiEntails.of_eq (pt_set wH_set_5_1.symm f)) (sep_congr (BiEntails.of_eq (pt_set wH_set_6_0.symm f)) (sep_congr (BiEntails.of_eq (pt_set wH_set_6_1.symm f)) (sep_congr (BiEntails.of_eq (pt_set wH_set_7_0.symm f)) (BiEntails.of_eq (pt_set wH_set_7_1.symm f))))))))))))))))

theorem w_cut (c : Dev nD) (f : Buf (Elt F) ((wbM).view.loc (c : Thread nD τ))) :
    (((wbM).view.loc (c : Thread nD τ) ↦[(wbM).view.set]{fullShare} f) : sProp 𝕄) ⊢
      iprop(((wH 0 0).view.loc (c : Thread nD τ) ↦[(wH 0 0).view.set]{fullShare} f) ∗
            ((wH 0 1).view.loc (c : Thread nD τ) ↦[(wH 0 1).view.set]{fullShare} f) ∗
            ((wH 1 0).view.loc (c : Thread nD τ) ↦[(wH 1 0).view.set]{fullShare} f) ∗
            ((wH 1 1).view.loc (c : Thread nD τ) ↦[(wH 1 1).view.set]{fullShare} f) ∗
            ((wH 2 0).view.loc (c : Thread nD τ) ↦[(wH 2 0).view.set]{fullShare} f) ∗
            ((wH 2 1).view.loc (c : Thread nD τ) ↦[(wH 2 1).view.set]{fullShare} f) ∗
            ((wH 3 0).view.loc (c : Thread nD τ) ↦[(wH 3 0).view.set]{fullShare} f) ∗
            ((wH 3 1).view.loc (c : Thread nD τ) ↦[(wH 3 1).view.set]{fullShare} f) ∗
            ((wH 4 0).view.loc (c : Thread nD τ) ↦[(wH 4 0).view.set]{fullShare} f) ∗
            ((wH 4 1).view.loc (c : Thread nD τ) ↦[(wH 4 1).view.set]{fullShare} f) ∗
            ((wH 5 0).view.loc (c : Thread nD τ) ↦[(wH 5 0).view.set]{fullShare} f) ∗
            ((wH 5 1).view.loc (c : Thread nD τ) ↦[(wH 5 1).view.set]{fullShare} f) ∗
            ((wH 6 0).view.loc (c : Thread nD τ) ↦[(wH 6 0).view.set]{fullShare} f) ∗
            ((wH 6 1).view.loc (c : Thread nD τ) ↦[(wH 6 1).view.set]{fullShare} f) ∗
            ((wH 7 0).view.loc (c : Thread nD τ) ↦[(wH 7 0).view.set]{fullShare} f) ∗
            ((wH 7 1).view.loc (c : Thread nD τ) ↦[(wH 7 1).view.set]{fullShare} f)) := (w_split c f).mp

/-- The sixteen half-slots, each at some contents, make the buffer at some contents. -/
theorem w_join_R (c : Dev nD) :
    (iprop((∃ f, wbM.view.loc (c : Thread nD τ) ↦[(wHR 0 0).set]{fullShare} f) ∗
            (∃ f, wbM.view.loc (c : Thread nD τ) ↦[(wHR 0 1).set]{fullShare} f) ∗
            (∃ f, wbM.view.loc (c : Thread nD τ) ↦[(wHR 1 0).set]{fullShare} f) ∗
            (∃ f, wbM.view.loc (c : Thread nD τ) ↦[(wHR 1 1).set]{fullShare} f) ∗
            (∃ f, wbM.view.loc (c : Thread nD τ) ↦[(wHR 2 0).set]{fullShare} f) ∗
            (∃ f, wbM.view.loc (c : Thread nD τ) ↦[(wHR 2 1).set]{fullShare} f) ∗
            (∃ f, wbM.view.loc (c : Thread nD τ) ↦[(wHR 3 0).set]{fullShare} f) ∗
            (∃ f, wbM.view.loc (c : Thread nD τ) ↦[(wHR 3 1).set]{fullShare} f) ∗
            (∃ f, wbM.view.loc (c : Thread nD τ) ↦[(wHR 4 0).set]{fullShare} f) ∗
            (∃ f, wbM.view.loc (c : Thread nD τ) ↦[(wHR 4 1).set]{fullShare} f) ∗
            (∃ f, wbM.view.loc (c : Thread nD τ) ↦[(wHR 5 0).set]{fullShare} f) ∗
            (∃ f, wbM.view.loc (c : Thread nD τ) ↦[(wHR 5 1).set]{fullShare} f) ∗
            (∃ f, wbM.view.loc (c : Thread nD τ) ↦[(wHR 6 0).set]{fullShare} f) ∗
            (∃ f, wbM.view.loc (c : Thread nD τ) ↦[(wHR 6 1).set]{fullShare} f) ∗
            (∃ f, wbM.view.loc (c : Thread nD τ) ↦[(wHR 7 0).set]{fullShare} f) ∗
            (∃ f, wbM.view.loc (c : Thread nD τ) ↦[(wHR 7 1).set]{fullShare} f)) : sProp 𝕄) ⊢
      iprop(∃ f, wbM.view.loc (c : Thread nD τ) ↦[wbM.view.set]{fullShare} f) := by
  have e : wbM.view.set = (wHR 0 0).set ∪ ((wHR 0 1).set ∪ ((wHR 1 0).set ∪ ((wHR 1 1).set ∪ ((wHR 2 0).set ∪ ((wHR 2 1).set ∪ ((wHR 3 0).set ∪ ((wHR 3 1).set ∪ ((wHR 4 0).set ∪ ((wHR 4 1).set ∪ ((wHR 5 0).set ∪ ((wHR 5 1).set ∪ ((wHR 6 0).set ∪ ((wHR 6 1).set ∪ ((wHR 7 0).set ∪ ((wHR 7 1).set))))))))))))))) := (View.set_whole _).trans w_cover
  rw [e]
  refine BIBase.Entails.trans (sep_mono_right (sep_mono_right (sep_mono_right (sep_mono_right (sep_mono_right (sep_mono_right (sep_mono_right (sep_mono_right (sep_mono_right (sep_mono_right (sep_mono_right (sep_mono_right (sep_mono_right (sep_mono_right (pt_join_any (wHR_disj _ _ _ _ (by decide))))))))))))))))) ?_
  refine BIBase.Entails.trans (sep_mono_right (sep_mono_right (sep_mono_right (sep_mono_right (sep_mono_right (sep_mono_right (sep_mono_right (sep_mono_right (sep_mono_right (sep_mono_right (sep_mono_right (sep_mono_right (sep_mono_right (pt_join_any (by simp only [Finset.disjoint_union_right]; exact ⟨wHR_disj _ _ _ _ (by decide), wHR_disj _ _ _ _ (by decide)⟩))))))))))))))) ?_
  refine BIBase.Entails.trans (sep_mono_right (sep_mono_right (sep_mono_right (sep_mono_right (sep_mono_right (sep_mono_right (sep_mono_right (sep_mono_right (sep_mono_right (sep_mono_right (sep_mono_right (sep_mono_right (pt_join_any (by simp only [Finset.disjoint_union_right]; exact ⟨wHR_disj _ _ _ _ (by decide), wHR_disj _ _ _ _ (by decide), wHR_disj _ _ _ _ (by decide)⟩)))))))))))))) ?_
  refine BIBase.Entails.trans (sep_mono_right (sep_mono_right (sep_mono_right (sep_mono_right (sep_mono_right (sep_mono_right (sep_mono_right (sep_mono_right (sep_mono_right (sep_mono_right (sep_mono_right (pt_join_any (by simp only [Finset.disjoint_union_right]; exact ⟨wHR_disj _ _ _ _ (by decide), wHR_disj _ _ _ _ (by decide), wHR_disj _ _ _ _ (by decide), wHR_disj _ _ _ _ (by decide)⟩))))))))))))) ?_
  refine BIBase.Entails.trans (sep_mono_right (sep_mono_right (sep_mono_right (sep_mono_right (sep_mono_right (sep_mono_right (sep_mono_right (sep_mono_right (sep_mono_right (sep_mono_right (pt_join_any (by simp only [Finset.disjoint_union_right]; exact ⟨wHR_disj _ _ _ _ (by decide), wHR_disj _ _ _ _ (by decide), wHR_disj _ _ _ _ (by decide), wHR_disj _ _ _ _ (by decide), wHR_disj _ _ _ _ (by decide)⟩)))))))))))) ?_
  refine BIBase.Entails.trans (sep_mono_right (sep_mono_right (sep_mono_right (sep_mono_right (sep_mono_right (sep_mono_right (sep_mono_right (sep_mono_right (sep_mono_right (pt_join_any (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide)⟩))))))))))) ?_
  refine BIBase.Entails.trans (sep_mono_right (sep_mono_right (sep_mono_right (sep_mono_right (sep_mono_right (sep_mono_right (sep_mono_right (sep_mono_right (pt_join_any (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)))))))))) ?_
  refine BIBase.Entails.trans (sep_mono_right (sep_mono_right (sep_mono_right (sep_mono_right (sep_mono_right (sep_mono_right (sep_mono_right (pt_join_any (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩))))))))) ?_
  refine BIBase.Entails.trans (sep_mono_right (sep_mono_right (sep_mono_right (sep_mono_right (sep_mono_right (sep_mono_right (pt_join_any (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)))))))) ?_
  refine BIBase.Entails.trans (sep_mono_right (sep_mono_right (sep_mono_right (sep_mono_right (sep_mono_right (pt_join_any (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩))))))) ?_
  refine BIBase.Entails.trans (sep_mono_right (sep_mono_right (sep_mono_right (sep_mono_right (pt_join_any (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)))))) ?_
  refine BIBase.Entails.trans (sep_mono_right (sep_mono_right (sep_mono_right (pt_join_any (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩))))) ?_
  refine BIBase.Entails.trans (sep_mono_right (sep_mono_right (pt_join_any (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)))) ?_
  refine BIBase.Entails.trans (sep_mono_right (pt_join_any (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩))) ?_
  exact pt_join_any (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)

theorem w_join_all (c : Dev nD) :
    (iprop((∃ f, (wH 0 0).view.loc (c : Thread nD τ) ↦[(wH 0 0).view.set]{fullShare} f) ∗
            (∃ f, (wH 0 1).view.loc (c : Thread nD τ) ↦[(wH 0 1).view.set]{fullShare} f) ∗
            (∃ f, (wH 1 0).view.loc (c : Thread nD τ) ↦[(wH 1 0).view.set]{fullShare} f) ∗
            (∃ f, (wH 1 1).view.loc (c : Thread nD τ) ↦[(wH 1 1).view.set]{fullShare} f) ∗
            (∃ f, (wH 2 0).view.loc (c : Thread nD τ) ↦[(wH 2 0).view.set]{fullShare} f) ∗
            (∃ f, (wH 2 1).view.loc (c : Thread nD τ) ↦[(wH 2 1).view.set]{fullShare} f) ∗
            (∃ f, (wH 3 0).view.loc (c : Thread nD τ) ↦[(wH 3 0).view.set]{fullShare} f) ∗
            (∃ f, (wH 3 1).view.loc (c : Thread nD τ) ↦[(wH 3 1).view.set]{fullShare} f) ∗
            (∃ f, (wH 4 0).view.loc (c : Thread nD τ) ↦[(wH 4 0).view.set]{fullShare} f) ∗
            (∃ f, (wH 4 1).view.loc (c : Thread nD τ) ↦[(wH 4 1).view.set]{fullShare} f) ∗
            (∃ f, (wH 5 0).view.loc (c : Thread nD τ) ↦[(wH 5 0).view.set]{fullShare} f) ∗
            (∃ f, (wH 5 1).view.loc (c : Thread nD τ) ↦[(wH 5 1).view.set]{fullShare} f) ∗
            (∃ f, (wH 6 0).view.loc (c : Thread nD τ) ↦[(wH 6 0).view.set]{fullShare} f) ∗
            (∃ f, (wH 6 1).view.loc (c : Thread nD τ) ↦[(wH 6 1).view.set]{fullShare} f) ∗
            (∃ f, (wH 7 0).view.loc (c : Thread nD τ) ↦[(wH 7 0).view.set]{fullShare} f) ∗
            (∃ f, (wH 7 1).view.loc (c : Thread nD τ) ↦[(wH 7 1).view.set]{fullShare} f)) : sProp 𝕄) ⊢
      iprop(∃ f, (wbM).view.loc (c : Thread nD τ) ↦[(wbM).view.set]{fullShare} f) := by
  refine BIBase.Entails.trans ?_ (w_join_R c)
  exact BIClass.sep_mono (exists_mono fun f => BIBase.Entails.of_eq (pt_set wH_set_0_0 f)) (BIClass.sep_mono (exists_mono fun f => BIBase.Entails.of_eq (pt_set wH_set_0_1 f)) (BIClass.sep_mono (exists_mono fun f => BIBase.Entails.of_eq (pt_set wH_set_1_0 f)) (BIClass.sep_mono (exists_mono fun f => BIBase.Entails.of_eq (pt_set wH_set_1_1 f)) (BIClass.sep_mono (exists_mono fun f => BIBase.Entails.of_eq (pt_set wH_set_2_0 f)) (BIClass.sep_mono (exists_mono fun f => BIBase.Entails.of_eq (pt_set wH_set_2_1 f)) (BIClass.sep_mono (exists_mono fun f => BIBase.Entails.of_eq (pt_set wH_set_3_0 f)) (BIClass.sep_mono (exists_mono fun f => BIBase.Entails.of_eq (pt_set wH_set_3_1 f)) (BIClass.sep_mono (exists_mono fun f => BIBase.Entails.of_eq (pt_set wH_set_4_0 f)) (BIClass.sep_mono (exists_mono fun f => BIBase.Entails.of_eq (pt_set wH_set_4_1 f)) (BIClass.sep_mono (exists_mono fun f => BIBase.Entails.of_eq (pt_set wH_set_5_0 f)) (BIClass.sep_mono (exists_mono fun f => BIBase.Entails.of_eq (pt_set wH_set_5_1 f)) (BIClass.sep_mono (exists_mono fun f => BIBase.Entails.of_eq (pt_set wH_set_6_0 f)) (BIClass.sep_mono (exists_mono fun f => BIBase.Entails.of_eq (pt_set wH_set_6_1 f)) (BIClass.sep_mono (exists_mono fun f => BIBase.Entails.of_eq (pt_set wH_set_7_0 f)) (exists_mono fun f => BIBase.Entails.of_eq (pt_set wH_set_7_1 f))))))))))))))))

theorem w_join (c : Dev nD) :
    (iprop((∃ f, (wH 0 0).view.loc (c : Thread nD τ) ↦[(wH 0 0).view.set]{fullShare} f) ∗
            (∃ f, (wH 0 1).view.loc (c : Thread nD τ) ↦[(wH 0 1).view.set]{fullShare} f) ∗
            (∃ f, (wH 1 0).view.loc (c : Thread nD τ) ↦[(wH 1 0).view.set]{fullShare} f) ∗
            (∃ f, (wH 1 1).view.loc (c : Thread nD τ) ↦[(wH 1 1).view.set]{fullShare} f) ∗
            (∃ f, (wH 2 0).view.loc (c : Thread nD τ) ↦[(wH 2 0).view.set]{fullShare} f) ∗
            (∃ f, (wH 2 1).view.loc (c : Thread nD τ) ↦[(wH 2 1).view.set]{fullShare} f) ∗
            (∃ f, (wH 3 0).view.loc (c : Thread nD τ) ↦[(wH 3 0).view.set]{fullShare} f) ∗
            (∃ f, (wH 3 1).view.loc (c : Thread nD τ) ↦[(wH 3 1).view.set]{fullShare} f) ∗
            (∃ f, (wH 4 0).view.loc (c : Thread nD τ) ↦[(wH 4 0).view.set]{fullShare} f) ∗
            (∃ f, (wH 4 1).view.loc (c : Thread nD τ) ↦[(wH 4 1).view.set]{fullShare} f) ∗
            (∃ f, (wH 5 0).view.loc (c : Thread nD τ) ↦[(wH 5 0).view.set]{fullShare} f) ∗
            (∃ f, (wH 5 1).view.loc (c : Thread nD τ) ↦[(wH 5 1).view.set]{fullShare} f) ∗
            (∃ f, (wH 6 0).view.loc (c : Thread nD τ) ↦[(wH 6 0).view.set]{fullShare} f) ∗
            (∃ f, (wH 6 1).view.loc (c : Thread nD τ) ↦[(wH 6 1).view.set]{fullShare} f) ∗
            (∃ f, (wH 7 0).view.loc (c : Thread nD τ) ↦[(wH 7 0).view.set]{fullShare} f) ∗
            (∃ f, (wH 7 1).view.loc (c : Thread nD τ) ↦[(wH 7 1).view.set]{fullShare} f)) : sProp 𝕄) ⊢
      iprop(∃ f, (wbM).view.loc (c : Thread nD τ) ↦[(wbM).view.set]{fullShare} f) := w_join_all c

/-! ### One slot from its two halves -/

/-- Slot `s` of the weight buffer as the loads read it: the access at slot `s`, all rows and columns. -/
abbrev wS : Fin 8 → View sig .tc .vmem S1x4096x256 .f32
  | ⟨0, _⟩ => (Memref.whole cc0_scratch1 : Memref sig .tc .vmem S8x4096x256 .f32).access (Rect.unit (s := S8x4096x256) ![0, 0, 0] S1x4096x256.size inb_S8x4096x256_S1x4096x256_0_0_0)
  | ⟨1, _⟩ => (Memref.whole cc0_scratch1 : Memref sig .tc .vmem S8x4096x256 .f32).access (Rect.unit (s := S8x4096x256) ![1, 0, 0] S1x4096x256.size inb_S8x4096x256_S1x4096x256_1_0_0)
  | ⟨2, _⟩ => (Memref.whole cc0_scratch1 : Memref sig .tc .vmem S8x4096x256 .f32).access (Rect.unit (s := S8x4096x256) ![2, 0, 0] S1x4096x256.size inb_S8x4096x256_S1x4096x256_2_0_0)
  | ⟨3, _⟩ => (Memref.whole cc0_scratch1 : Memref sig .tc .vmem S8x4096x256 .f32).access (Rect.unit (s := S8x4096x256) ![3, 0, 0] S1x4096x256.size inb_S8x4096x256_S1x4096x256_3_0_0)
  | ⟨4, _⟩ => (Memref.whole cc0_scratch1 : Memref sig .tc .vmem S8x4096x256 .f32).access (Rect.unit (s := S8x4096x256) ![4, 0, 0] S1x4096x256.size inb_S8x4096x256_S1x4096x256_4_0_0)
  | ⟨5, _⟩ => (Memref.whole cc0_scratch1 : Memref sig .tc .vmem S8x4096x256 .f32).access (Rect.unit (s := S8x4096x256) ![5, 0, 0] S1x4096x256.size inb_S8x4096x256_S1x4096x256_5_0_0)
  | ⟨6, _⟩ => (Memref.whole cc0_scratch1 : Memref sig .tc .vmem S8x4096x256 .f32).access (Rect.unit (s := S8x4096x256) ![6, 0, 0] S1x4096x256.size inb_S8x4096x256_S1x4096x256_6_0_0)
  | ⟨7, _⟩ => (Memref.whole cc0_scratch1 : Memref sig .tc .vmem S8x4096x256 .f32).access (Rect.unit (s := S8x4096x256) ![7, 0, 0] S1x4096x256.size inb_S8x4096x256_S1x4096x256_7_0_0)
  | ⟨_ + 8, h⟩ => absurd h (by omega)

theorem wS_set_0 : (wS 0).set = (wSR 0).set := View.set_slice_whole _ _
theorem wS_set_1 : (wS 1).set = (wSR 1).set := View.set_slice_whole _ _
theorem wS_set_2 : (wS 2).set = (wSR 2).set := View.set_slice_whole _ _
theorem wS_set_3 : (wS 3).set = (wSR 3).set := View.set_slice_whole _ _
theorem wS_set_4 : (wS 4).set = (wSR 4).set := View.set_slice_whole _ _
theorem wS_set_5 : (wS 5).set = (wSR 5).set := View.set_slice_whole _ _
theorem wS_set_6 : (wS 6).set = (wSR 6).set := View.set_slice_whole _ _
theorem wS_set_7 : (wS 7).set = (wSR 7).set := View.set_slice_whole _ _

/-- A slot is its upper and its lower half. -/
theorem wSR_halves (s : Fin 8) : (wSR s).set = (wHR s 0).set ∪ (wHR s 1).set := by
  ext i
  have h1 : (i 1 : ℕ) < 4096 := (i 1).isLt
  obtain ⟨u0, u1⟩ := fin2_vals
  simp only [Finset.mem_union, mem_wSR, mem_wHR, u0, u1]
  omega

theorem wslot_core (c : Dev nD) (s : Fin 8) (f0 f1 g : Buf (Elt F) (wbM.view.loc (c : Thread nD τ)))
    (h0 : ∀ i ∈ (wHR s 0).set, f0 i = g i) (h1 : ∀ i ∈ (wHR s 1).set, f1 i = g i) :
    (iprop((wbM.view.loc (c : Thread nD τ) ↦[(wHR s 0).set]{fullShare} f0) ∗
           (wbM.view.loc (c : Thread nD τ) ↦[(wHR s 1).set]{fullShare} f1)) : sProp 𝕄) ⊢
      (wbM.view.loc (c : Thread nD τ) ↦[(wSR s).set]{fullShare} g) := by
  rw [wSR_halves s]
  refine BIBase.Entails.trans (BIClass.sep_mono (BIBase.Entails.of_eq (pt_congr h0)) (BIBase.Entails.of_eq (pt_congr h1))) ?_
  exact BiEntails.mpr (Region.is_union (wHR_disj s s 0 1 (Or.inr (by decide))))

theorem wslot_join_0 (c : Dev nD) (f0 f1 g : Buf (Elt F) (wbM.view.loc (c : Thread nD τ)))
    (h0 : ∀ i ∈ (wH 0 0).view.set, f0 i = g i) (h1 : ∀ i ∈ (wH 0 1).view.set, f1 i = g i) :
    (iprop(((wH 0 0).view.loc (c : Thread nD τ) ↦[(wH 0 0).view.set]{fullShare} f0) ∗
           ((wH 0 1).view.loc (c : Thread nD τ) ↦[(wH 0 1).view.set]{fullShare} f1)) : sProp 𝕄) ⊢
      (wbM.view.loc (c : Thread nD τ) ↦[(wS 0).set]{fullShare} g) := by
  rw [wH_set_0_0] at h0; rw [wH_set_0_1] at h1
  rw [wH_set_0_0, wH_set_0_1, wS_set_0]
  exact wslot_core c 0 f0 f1 g h0 h1

theorem wslot_join_1 (c : Dev nD) (f0 f1 g : Buf (Elt F) (wbM.view.loc (c : Thread nD τ)))
    (h0 : ∀ i ∈ (wH 1 0).view.set, f0 i = g i) (h1 : ∀ i ∈ (wH 1 1).view.set, f1 i = g i) :
    (iprop(((wH 1 0).view.loc (c : Thread nD τ) ↦[(wH 1 0).view.set]{fullShare} f0) ∗
           ((wH 1 1).view.loc (c : Thread nD τ) ↦[(wH 1 1).view.set]{fullShare} f1)) : sProp 𝕄) ⊢
      (wbM.view.loc (c : Thread nD τ) ↦[(wS 1).set]{fullShare} g) := by
  rw [wH_set_1_0] at h0; rw [wH_set_1_1] at h1
  rw [wH_set_1_0, wH_set_1_1, wS_set_1]
  exact wslot_core c 1 f0 f1 g h0 h1

theorem wslot_join_2 (c : Dev nD) (f0 f1 g : Buf (Elt F) (wbM.view.loc (c : Thread nD τ)))
    (h0 : ∀ i ∈ (wH 2 0).view.set, f0 i = g i) (h1 : ∀ i ∈ (wH 2 1).view.set, f1 i = g i) :
    (iprop(((wH 2 0).view.loc (c : Thread nD τ) ↦[(wH 2 0).view.set]{fullShare} f0) ∗
           ((wH 2 1).view.loc (c : Thread nD τ) ↦[(wH 2 1).view.set]{fullShare} f1)) : sProp 𝕄) ⊢
      (wbM.view.loc (c : Thread nD τ) ↦[(wS 2).set]{fullShare} g) := by
  rw [wH_set_2_0] at h0; rw [wH_set_2_1] at h1
  rw [wH_set_2_0, wH_set_2_1, wS_set_2]
  exact wslot_core c 2 f0 f1 g h0 h1

theorem wslot_join_3 (c : Dev nD) (f0 f1 g : Buf (Elt F) (wbM.view.loc (c : Thread nD τ)))
    (h0 : ∀ i ∈ (wH 3 0).view.set, f0 i = g i) (h1 : ∀ i ∈ (wH 3 1).view.set, f1 i = g i) :
    (iprop(((wH 3 0).view.loc (c : Thread nD τ) ↦[(wH 3 0).view.set]{fullShare} f0) ∗
           ((wH 3 1).view.loc (c : Thread nD τ) ↦[(wH 3 1).view.set]{fullShare} f1)) : sProp 𝕄) ⊢
      (wbM.view.loc (c : Thread nD τ) ↦[(wS 3).set]{fullShare} g) := by
  rw [wH_set_3_0] at h0; rw [wH_set_3_1] at h1
  rw [wH_set_3_0, wH_set_3_1, wS_set_3]
  exact wslot_core c 3 f0 f1 g h0 h1

theorem wslot_join_4 (c : Dev nD) (f0 f1 g : Buf (Elt F) (wbM.view.loc (c : Thread nD τ)))
    (h0 : ∀ i ∈ (wH 4 0).view.set, f0 i = g i) (h1 : ∀ i ∈ (wH 4 1).view.set, f1 i = g i) :
    (iprop(((wH 4 0).view.loc (c : Thread nD τ) ↦[(wH 4 0).view.set]{fullShare} f0) ∗
           ((wH 4 1).view.loc (c : Thread nD τ) ↦[(wH 4 1).view.set]{fullShare} f1)) : sProp 𝕄) ⊢
      (wbM.view.loc (c : Thread nD τ) ↦[(wS 4).set]{fullShare} g) := by
  rw [wH_set_4_0] at h0; rw [wH_set_4_1] at h1
  rw [wH_set_4_0, wH_set_4_1, wS_set_4]
  exact wslot_core c 4 f0 f1 g h0 h1

theorem wslot_join_5 (c : Dev nD) (f0 f1 g : Buf (Elt F) (wbM.view.loc (c : Thread nD τ)))
    (h0 : ∀ i ∈ (wH 5 0).view.set, f0 i = g i) (h1 : ∀ i ∈ (wH 5 1).view.set, f1 i = g i) :
    (iprop(((wH 5 0).view.loc (c : Thread nD τ) ↦[(wH 5 0).view.set]{fullShare} f0) ∗
           ((wH 5 1).view.loc (c : Thread nD τ) ↦[(wH 5 1).view.set]{fullShare} f1)) : sProp 𝕄) ⊢
      (wbM.view.loc (c : Thread nD τ) ↦[(wS 5).set]{fullShare} g) := by
  rw [wH_set_5_0] at h0; rw [wH_set_5_1] at h1
  rw [wH_set_5_0, wH_set_5_1, wS_set_5]
  exact wslot_core c 5 f0 f1 g h0 h1

theorem wslot_join_6 (c : Dev nD) (f0 f1 g : Buf (Elt F) (wbM.view.loc (c : Thread nD τ)))
    (h0 : ∀ i ∈ (wH 6 0).view.set, f0 i = g i) (h1 : ∀ i ∈ (wH 6 1).view.set, f1 i = g i) :
    (iprop(((wH 6 0).view.loc (c : Thread nD τ) ↦[(wH 6 0).view.set]{fullShare} f0) ∗
           ((wH 6 1).view.loc (c : Thread nD τ) ↦[(wH 6 1).view.set]{fullShare} f1)) : sProp 𝕄) ⊢
      (wbM.view.loc (c : Thread nD τ) ↦[(wS 6).set]{fullShare} g) := by
  rw [wH_set_6_0] at h0; rw [wH_set_6_1] at h1
  rw [wH_set_6_0, wH_set_6_1, wS_set_6]
  exact wslot_core c 6 f0 f1 g h0 h1

theorem wslot_join_7 (c : Dev nD) (f0 f1 g : Buf (Elt F) (wbM.view.loc (c : Thread nD τ)))
    (h0 : ∀ i ∈ (wH 7 0).view.set, f0 i = g i) (h1 : ∀ i ∈ (wH 7 1).view.set, f1 i = g i) :
    (iprop(((wH 7 0).view.loc (c : Thread nD τ) ↦[(wH 7 0).view.set]{fullShare} f0) ∗
           ((wH 7 1).view.loc (c : Thread nD τ) ↦[(wH 7 1).view.set]{fullShare} f1)) : sProp 𝕄) ⊢
      (wbM.view.loc (c : Thread nD τ) ↦[(wS 7).set]{fullShare} g) := by
  rw [wH_set_7_0] at h0; rw [wH_set_7_1] at h1
  rw [wH_set_7_0, wH_set_7_1, wS_set_7]
  exact wslot_core c 7 f0 f1 g h0 h1

/-! ## The send and receive buffers: eight slots each -/

/-- Slot `t` of the 8 x 512 x 256 index space. -/
abbrev bSR (t : Fin 8) : Rect S8x512x256 :=
  Rect.unit (s := S8x512x256) ![t.val, 0, 0] S1x512x256.size
    (Fin.forall_fin_succ.mpr ⟨by show t.val + 1 ≤ 8; omega,
      Fin.forall_fin_two.mpr ⟨by show 0 + 512 ≤ 512; omega, by show 0 + 256 ≤ 256; omega⟩⟩)

theorem mem_bSR (t : Fin 8) (i : S8x512x256.Idx) : i ∈ (bSR t).set ↔ (i 0).val = t.val := by
  have h1 : (i 1 : ℕ) < 512 := (i 1).isLt
  have h2 : (i 2 : ℕ) < 256 := (i 2).isLt
  rw [Rect.mem_set_unit]
  constructor
  · intro H
    have a0 := H 0
    simp only [Matrix.cons_val_zero, Shape.size] at a0
    omega
  · rintro e0 a
    fin_cases a
    · show t.val ≤ (i 0).val ∧ (i 0).val < t.val + 1; omega
    · show 0 ≤ (i 1).val ∧ (i 1).val < 0 + 512; omega
    · show 0 ≤ (i 2).val ∧ (i 2).val < 0 + 256; omega

theorem sM_set_0 : (sM 0).view.set = (bSR 0).set := (View.set_reshape _ _).trans (View.set_slice_whole _ _)
theorem sM_set_1 : (sM 1).view.set = (bSR 1).set := (View.set_reshape _ _).trans (View.set_slice_whole _ _)
theorem sM_set_2 : (sM 2).view.set = (bSR 2).set := (View.set_reshape _ _).trans (View.set_slice_whole _ _)
theorem sM_set_3 : (sM 3).view.set = (bSR 3).set := (View.set_reshape _ _).trans (View.set_slice_whole _ _)
theorem sM_set_4 : (sM 4).view.set = (bSR 4).set := (View.set_reshape _ _).trans (View.set_slice_whole _ _)
theorem sM_set_5 : (sM 5).view.set = (bSR 5).set := (View.set_reshape _ _).trans (View.set_slice_whole _ _)
theorem sM_set_6 : (sM 6).view.set = (bSR 6).set := (View.set_reshape _ _).trans (View.set_slice_whole _ _)
theorem sM_set_7 : (sM 7).view.set = (bSR 7).set := (View.set_reshape _ _).trans (View.set_slice_whole _ _)
theorem rM_set_0 : (rM 0).view.set = (bSR 0).set := (View.set_reshape _ _).trans (View.set_slice_whole _ _)
theorem rM_set_1 : (rM 1).view.set = (bSR 1).set := (View.set_reshape _ _).trans (View.set_slice_whole _ _)
theorem rM_set_2 : (rM 2).view.set = (bSR 2).set := (View.set_reshape _ _).trans (View.set_slice_whole _ _)
theorem rM_set_3 : (rM 3).view.set = (bSR 3).set := (View.set_reshape _ _).trans (View.set_slice_whole _ _)
theorem rM_set_4 : (rM 4).view.set = (bSR 4).set := (View.set_reshape _ _).trans (View.set_slice_whole _ _)
theorem rM_set_5 : (rM 5).view.set = (bSR 5).set := (View.set_reshape _ _).trans (View.set_slice_whole _ _)
theorem rM_set_6 : (rM 6).view.set = (bSR 6).set := (View.set_reshape _ _).trans (View.set_slice_whole _ _)
theorem rM_set_7 : (rM 7).view.set = (bSR 7).set := (View.set_reshape _ _).trans (View.set_slice_whole _ _)

/-- The eight slots cover the index space. -/
theorem b_cover : (Finset.univ : Finset S8x512x256.Idx) = (bSR 0).set ∪ ((bSR 1).set ∪ ((bSR 2).set ∪ ((bSR 3).set ∪ ((bSR 4).set ∪ ((bSR 5).set ∪ ((bSR 6).set ∪ ((bSR 7).set))))))) := by
  ext i
  have h0 : (i 0 : ℕ) < 8 := (i 0).isLt
  obtain ⟨v0, v1, v2, v3, v4, v5, v6, v7⟩ := fin8_vals
  simp only [Finset.mem_univ, Finset.mem_union, mem_bSR, true_iff, v0, v1, v2, v3, v4, v5, v6, v7]
  omega

/-- Different slots share no element. -/
theorem bSR_disj (t t' : Fin 8) (h : t ≠ t') : Disjoint (bSR t).set (bSR t').set := by
  rw [Finset.disjoint_left]
  intro i hi hk
  rw [mem_bSR] at hi hk
  exact h (Fin.ext (hi.symm.trans hk))

theorem sb_split (c : Dev nD) (f : Buf (Elt F) ((sbM).view.loc (c : Thread nD τ))) :
    (((sbM).view.loc (c : Thread nD τ) ↦[(sbM).view.set]{fullShare} f) : sProp 𝕄) ⊣⊢
      iprop(((sM 0).view.loc (c : Thread nD τ) ↦[(sM 0).view.set]{fullShare} f) ∗
            ((sM 1).view.loc (c : Thread nD τ) ↦[(sM 1).view.set]{fullShare} f) ∗
            ((sM 2).view.loc (c : Thread nD τ) ↦[(sM 2).view.set]{fullShare} f) ∗
            ((sM 3).view.loc (c : Thread nD τ) ↦[(sM 3).view.set]{fullShare} f) ∗
            ((sM 4).view.loc (c : Thread nD τ) ↦[(sM 4).view.set]{fullShare} f) ∗
            ((sM 5).view.loc (c : Thread nD τ) ↦[(sM 5).view.set]{fullShare} f) ∗
            ((sM 6).view.loc (c : Thread nD τ) ↦[(sM 6).view.set]{fullShare} f) ∗
            ((sM 7).view.loc (c : Thread nD τ) ↦[(sM 7).view.set]{fullShare} f)) := by
  have e : (sbM).view.set = (bSR 0).set ∪ ((bSR 1).set ∪ ((bSR 2).set ∪ ((bSR 3).set ∪ ((bSR 4).set ∪ ((bSR 5).set ∪ ((bSR 6).set ∪ ((bSR 7).set))))))) := (View.set_whole _).trans b_cover
  rw [e, sM_set_0, sM_set_1, sM_set_2, sM_set_3, sM_set_4, sM_set_5, sM_set_6, sM_set_7]
  refine BiEntails.trans (Region.is_union (by simp only [Finset.disjoint_union_right]; exact ⟨bSR_disj _ _ (by decide), bSR_disj _ _ (by decide), bSR_disj _ _ (by decide), bSR_disj _ _ (by decide), bSR_disj _ _ (by decide), bSR_disj _ _ (by decide), bSR_disj _ _ (by decide)⟩)) (sep_congr_right ?_)
  refine BiEntails.trans (Region.is_union (by simp only [Finset.disjoint_union_right]; exact ⟨bSR_disj _ _ (by decide), bSR_disj _ _ (by decide), bSR_disj _ _ (by decide), bSR_disj _ _ (by decide), bSR_disj _ _ (by decide), bSR_disj _ _ (by decide)⟩)) (sep_congr_right ?_)
  refine BiEntails.trans (Region.is_union (by simp only [Finset.disjoint_union_right]; exact ⟨bSR_disj _ _ (by decide), bSR_disj _ _ (by decide), bSR_disj _ _ (by decide), bSR_disj _ _ (by decide), bSR_disj _ _ (by decide)⟩)) (sep_congr_right ?_)
  refine BiEntails.trans (Region.is_union (by simp only [Finset.disjoint_union_right]; exact ⟨bSR_disj _ _ (by decide), bSR_disj _ _ (by decide), bSR_disj _ _ (by decide), bSR_disj _ _ (by decide)⟩)) (sep_congr_right ?_)
  refine BiEntails.trans (Region.is_union (by simp only [Finset.disjoint_union_right]; exact ⟨bSR_disj _ _ (by decide), bSR_disj _ _ (by decide), bSR_disj _ _ (by decide)⟩)) (sep_congr_right ?_)
  refine BiEntails.trans (Region.is_union (by simp only [Finset.disjoint_union_right]; exact ⟨bSR_disj _ _ (by decide), bSR_disj _ _ (by decide)⟩)) (sep_congr_right ?_)
  exact Region.is_union (bSR_disj _ _ (by decide))

theorem sb_cut (c : Dev nD) (f : Buf (Elt F) ((sbM).view.loc (c : Thread nD τ))) :
    (((sbM).view.loc (c : Thread nD τ) ↦[(sbM).view.set]{fullShare} f) : sProp 𝕄) ⊢
      iprop(((sM 0).view.loc (c : Thread nD τ) ↦[(sM 0).view.set]{fullShare} f) ∗
            ((sM 1).view.loc (c : Thread nD τ) ↦[(sM 1).view.set]{fullShare} f) ∗
            ((sM 2).view.loc (c : Thread nD τ) ↦[(sM 2).view.set]{fullShare} f) ∗
            ((sM 3).view.loc (c : Thread nD τ) ↦[(sM 3).view.set]{fullShare} f) ∗
            ((sM 4).view.loc (c : Thread nD τ) ↦[(sM 4).view.set]{fullShare} f) ∗
            ((sM 5).view.loc (c : Thread nD τ) ↦[(sM 5).view.set]{fullShare} f) ∗
            ((sM 6).view.loc (c : Thread nD τ) ↦[(sM 6).view.set]{fullShare} f) ∗
            ((sM 7).view.loc (c : Thread nD τ) ↦[(sM 7).view.set]{fullShare} f)) := (sb_split c f).mp

theorem sb_join (c : Dev nD) :
    (iprop((∃ f, (sM 0).view.loc (c : Thread nD τ) ↦[(sM 0).view.set]{fullShare} f) ∗
            (∃ f, (sM 1).view.loc (c : Thread nD τ) ↦[(sM 1).view.set]{fullShare} f) ∗
            (∃ f, (sM 2).view.loc (c : Thread nD τ) ↦[(sM 2).view.set]{fullShare} f) ∗
            (∃ f, (sM 3).view.loc (c : Thread nD τ) ↦[(sM 3).view.set]{fullShare} f) ∗
            (∃ f, (sM 4).view.loc (c : Thread nD τ) ↦[(sM 4).view.set]{fullShare} f) ∗
            (∃ f, (sM 5).view.loc (c : Thread nD τ) ↦[(sM 5).view.set]{fullShare} f) ∗
            (∃ f, (sM 6).view.loc (c : Thread nD τ) ↦[(sM 6).view.set]{fullShare} f) ∗
            (∃ f, (sM 7).view.loc (c : Thread nD τ) ↦[(sM 7).view.set]{fullShare} f)) : sProp 𝕄) ⊢
      iprop(∃ f, (sbM).view.loc (c : Thread nD τ) ↦[(sbM).view.set]{fullShare} f) := by
  have e : (sbM).view.set = (bSR 0).set ∪ ((bSR 1).set ∪ ((bSR 2).set ∪ ((bSR 3).set ∪ ((bSR 4).set ∪ ((bSR 5).set ∪ ((bSR 6).set ∪ ((bSR 7).set))))))) := (View.set_whole _).trans b_cover
  rw [e, sM_set_0, sM_set_1, sM_set_2, sM_set_3, sM_set_4, sM_set_5, sM_set_6, sM_set_7]
  refine BIBase.Entails.trans (sep_mono_right (sep_mono_right (sep_mono_right (sep_mono_right (sep_mono_right (sep_mono_right (pt_join_any (bSR_disj _ _ (by decide))))))))) ?_
  refine BIBase.Entails.trans (sep_mono_right (sep_mono_right (sep_mono_right (sep_mono_right (sep_mono_right (pt_join_any (by simp only [Finset.disjoint_union_right]; exact ⟨bSR_disj _ _ (by decide), bSR_disj _ _ (by decide)⟩))))))) ?_
  refine BIBase.Entails.trans (sep_mono_right (sep_mono_right (sep_mono_right (sep_mono_right (pt_join_any (by simp only [Finset.disjoint_union_right]; exact ⟨bSR_disj _ _ (by decide), bSR_disj _ _ (by decide), bSR_disj _ _ (by decide)⟩)))))) ?_
  refine BIBase.Entails.trans (sep_mono_right (sep_mono_right (sep_mono_right (pt_join_any (by simp only [Finset.disjoint_union_right]; exact ⟨bSR_disj _ _ (by decide), bSR_disj _ _ (by decide), bSR_disj _ _ (by decide), bSR_disj _ _ (by decide)⟩))))) ?_
  refine BIBase.Entails.trans (sep_mono_right (sep_mono_right (pt_join_any (by simp only [Finset.disjoint_union_right]; exact ⟨bSR_disj _ _ (by decide), bSR_disj _ _ (by decide), bSR_disj _ _ (by decide), bSR_disj _ _ (by decide), bSR_disj _ _ (by decide)⟩)))) ?_
  refine BIBase.Entails.trans (sep_mono_right (pt_join_any (by simp only [Finset.disjoint_union_right]; exact ⟨bSR_disj _ _ (by decide), bSR_disj _ _ (by decide), bSR_disj _ _ (by decide), bSR_disj _ _ (by decide), bSR_disj _ _ (by decide), bSR_disj _ _ (by decide)⟩))) ?_
  exact pt_join_any (by simp only [Finset.disjoint_union_right]; exact ⟨bSR_disj _ _ (by decide), bSR_disj _ _ (by decide), bSR_disj _ _ (by decide), bSR_disj _ _ (by decide), bSR_disj _ _ (by decide), bSR_disj _ _ (by decide), bSR_disj _ _ (by decide)⟩)

theorem rb_split (c : Dev nD) (f : Buf (Elt F) ((rbM).view.loc (c : Thread nD τ))) :
    (((rbM).view.loc (c : Thread nD τ) ↦[(rbM).view.set]{fullShare} f) : sProp 𝕄) ⊣⊢
      iprop(((rM 0).view.loc (c : Thread nD τ) ↦[(rM 0).view.set]{fullShare} f) ∗
            ((rM 1).view.loc (c : Thread nD τ) ↦[(rM 1).view.set]{fullShare} f) ∗
            ((rM 2).view.loc (c : Thread nD τ) ↦[(rM 2).view.set]{fullShare} f) ∗
            ((rM 3).view.loc (c : Thread nD τ) ↦[(rM 3).view.set]{fullShare} f) ∗
            ((rM 4).view.loc (c : Thread nD τ) ↦[(rM 4).view.set]{fullShare} f) ∗
            ((rM 5).view.loc (c : Thread nD τ) ↦[(rM 5).view.set]{fullShare} f) ∗
            ((rM 6).view.loc (c : Thread nD τ) ↦[(rM 6).view.set]{fullShare} f) ∗
            ((rM 7).view.loc (c : Thread nD τ) ↦[(rM 7).view.set]{fullShare} f)) := by
  have e : (rbM).view.set = (bSR 0).set ∪ ((bSR 1).set ∪ ((bSR 2).set ∪ ((bSR 3).set ∪ ((bSR 4).set ∪ ((bSR 5).set ∪ ((bSR 6).set ∪ ((bSR 7).set))))))) := (View.set_whole _).trans b_cover
  rw [e, rM_set_0, rM_set_1, rM_set_2, rM_set_3, rM_set_4, rM_set_5, rM_set_6, rM_set_7]
  refine BiEntails.trans (Region.is_union (by simp only [Finset.disjoint_union_right]; exact ⟨bSR_disj _ _ (by decide), bSR_disj _ _ (by decide), bSR_disj _ _ (by decide), bSR_disj _ _ (by decide), bSR_disj _ _ (by decide), bSR_disj _ _ (by decide), bSR_disj _ _ (by decide)⟩)) (sep_congr_right ?_)
  refine BiEntails.trans (Region.is_union (by simp only [Finset.disjoint_union_right]; exact ⟨bSR_disj _ _ (by decide), bSR_disj _ _ (by decide), bSR_disj _ _ (by decide), bSR_disj _ _ (by decide), bSR_disj _ _ (by decide), bSR_disj _ _ (by decide)⟩)) (sep_congr_right ?_)
  refine BiEntails.trans (Region.is_union (by simp only [Finset.disjoint_union_right]; exact ⟨bSR_disj _ _ (by decide), bSR_disj _ _ (by decide), bSR_disj _ _ (by decide), bSR_disj _ _ (by decide), bSR_disj _ _ (by decide)⟩)) (sep_congr_right ?_)
  refine BiEntails.trans (Region.is_union (by simp only [Finset.disjoint_union_right]; exact ⟨bSR_disj _ _ (by decide), bSR_disj _ _ (by decide), bSR_disj _ _ (by decide), bSR_disj _ _ (by decide)⟩)) (sep_congr_right ?_)
  refine BiEntails.trans (Region.is_union (by simp only [Finset.disjoint_union_right]; exact ⟨bSR_disj _ _ (by decide), bSR_disj _ _ (by decide), bSR_disj _ _ (by decide)⟩)) (sep_congr_right ?_)
  refine BiEntails.trans (Region.is_union (by simp only [Finset.disjoint_union_right]; exact ⟨bSR_disj _ _ (by decide), bSR_disj _ _ (by decide)⟩)) (sep_congr_right ?_)
  exact Region.is_union (bSR_disj _ _ (by decide))

theorem rb_cut (c : Dev nD) (f : Buf (Elt F) ((rbM).view.loc (c : Thread nD τ))) :
    (((rbM).view.loc (c : Thread nD τ) ↦[(rbM).view.set]{fullShare} f) : sProp 𝕄) ⊢
      iprop(((rM 0).view.loc (c : Thread nD τ) ↦[(rM 0).view.set]{fullShare} f) ∗
            ((rM 1).view.loc (c : Thread nD τ) ↦[(rM 1).view.set]{fullShare} f) ∗
            ((rM 2).view.loc (c : Thread nD τ) ↦[(rM 2).view.set]{fullShare} f) ∗
            ((rM 3).view.loc (c : Thread nD τ) ↦[(rM 3).view.set]{fullShare} f) ∗
            ((rM 4).view.loc (c : Thread nD τ) ↦[(rM 4).view.set]{fullShare} f) ∗
            ((rM 5).view.loc (c : Thread nD τ) ↦[(rM 5).view.set]{fullShare} f) ∗
            ((rM 6).view.loc (c : Thread nD τ) ↦[(rM 6).view.set]{fullShare} f) ∗
            ((rM 7).view.loc (c : Thread nD τ) ↦[(rM 7).view.set]{fullShare} f)) := (rb_split c f).mp

theorem rb_join (c : Dev nD) :
    (iprop((∃ f, (rM 0).view.loc (c : Thread nD τ) ↦[(rM 0).view.set]{fullShare} f) ∗
            (∃ f, (rM 1).view.loc (c : Thread nD τ) ↦[(rM 1).view.set]{fullShare} f) ∗
            (∃ f, (rM 2).view.loc (c : Thread nD τ) ↦[(rM 2).view.set]{fullShare} f) ∗
            (∃ f, (rM 3).view.loc (c : Thread nD τ) ↦[(rM 3).view.set]{fullShare} f) ∗
            (∃ f, (rM 4).view.loc (c : Thread nD τ) ↦[(rM 4).view.set]{fullShare} f) ∗
            (∃ f, (rM 5).view.loc (c : Thread nD τ) ↦[(rM 5).view.set]{fullShare} f) ∗
            (∃ f, (rM 6).view.loc (c : Thread nD τ) ↦[(rM 6).view.set]{fullShare} f) ∗
            (∃ f, (rM 7).view.loc (c : Thread nD τ) ↦[(rM 7).view.set]{fullShare} f)) : sProp 𝕄) ⊢
      iprop(∃ f, (rbM).view.loc (c : Thread nD τ) ↦[(rbM).view.set]{fullShare} f) := by
  have e : (rbM).view.set = (bSR 0).set ∪ ((bSR 1).set ∪ ((bSR 2).set ∪ ((bSR 3).set ∪ ((bSR 4).set ∪ ((bSR 5).set ∪ ((bSR 6).set ∪ ((bSR 7).set))))))) := (View.set_whole _).trans b_cover
  rw [e, rM_set_0, rM_set_1, rM_set_2, rM_set_3, rM_set_4, rM_set_5, rM_set_6, rM_set_7]
  refine BIBase.Entails.trans (sep_mono_right (sep_mono_right (sep_mono_right (sep_mono_right (sep_mono_right (sep_mono_right (pt_join_any (bSR_disj _ _ (by decide))))))))) ?_
  refine BIBase.Entails.trans (sep_mono_right (sep_mono_right (sep_mono_right (sep_mono_right (sep_mono_right (pt_join_any (by simp only [Finset.disjoint_union_right]; exact ⟨bSR_disj _ _ (by decide), bSR_disj _ _ (by decide)⟩))))))) ?_
  refine BIBase.Entails.trans (sep_mono_right (sep_mono_right (sep_mono_right (sep_mono_right (pt_join_any (by simp only [Finset.disjoint_union_right]; exact ⟨bSR_disj _ _ (by decide), bSR_disj _ _ (by decide), bSR_disj _ _ (by decide)⟩)))))) ?_
  refine BIBase.Entails.trans (sep_mono_right (sep_mono_right (sep_mono_right (pt_join_any (by simp only [Finset.disjoint_union_right]; exact ⟨bSR_disj _ _ (by decide), bSR_disj _ _ (by decide), bSR_disj _ _ (by decide), bSR_disj _ _ (by decide)⟩))))) ?_
  refine BIBase.Entails.trans (sep_mono_right (sep_mono_right (pt_join_any (by simp only [Finset.disjoint_union_right]; exact ⟨bSR_disj _ _ (by decide), bSR_disj _ _ (by decide), bSR_disj _ _ (by decide), bSR_disj _ _ (by decide), bSR_disj _ _ (by decide)⟩)))) ?_
  refine BIBase.Entails.trans (sep_mono_right (pt_join_any (by simp only [Finset.disjoint_union_right]; exact ⟨bSR_disj _ _ (by decide), bSR_disj _ _ (by decide), bSR_disj _ _ (by decide), bSR_disj _ _ (by decide), bSR_disj _ _ (by decide), bSR_disj _ _ (by decide)⟩))) ?_
  exact pt_join_any (by simp only [Finset.disjoint_union_right]; exact ⟨bSR_disj _ _ (by decide), bSR_disj _ _ (by decide), bSR_disj _ _ (by decide), bSR_disj _ _ (by decide), bSR_disj _ _ (by decide), bSR_disj _ _ (by decide), bSR_disj _ _ (by decide)⟩)

/-- info: 'Cert.KernelIdeal.A2A.x_join' depends on axioms: [propext, Classical.choice, Quot.sound] -/
#guard_msgs in #print axioms x_join

/-- info: 'Cert.KernelIdeal.A2A.wwin_disj_16_26' depends on axioms: [propext, Classical.choice, Quot.sound] -/
#guard_msgs in #print axioms wwin_disj_16_26

/-- info: 'Cert.KernelIdeal.A2A.sb_split' depends on axioms: [propext, Classical.choice, Quot.sound] -/
#guard_msgs in #print axioms sb_split

/-- info: 'Cert.KernelIdeal.A2A.w_split' depends on axioms: [propext, Classical.choice, Quot.sound] -/
#guard_msgs in #print axioms w_split

/-- info: 'Cert.KernelIdeal.A2A.wslot_join_3' depends on axioms: [propext, Classical.choice, Quot.sound] -/
#guard_msgs in #print axioms wslot_join_3

end Cert.KernelIdeal.A2A

end
-- ==== Proof.BodyOb.lean ====
/-
  The body obligation of the launch, from the stepped body.

  The launch hands a device its start invariant, what it owes, and the output block's staging buffer at some contents.
  The stepped body wants the four scratch buffers already cut into the pieces its copies name, and leaves the pieces at
  whatever they then hold. Between the two there is only re-arranging: cut before, join after, read the staging buffer
  as a points-to of the whole output block, and restate what is owed. No fact about what the kernel computes is used.
-/
import proofs.«900796_g7700000000000797_dist_gemm_a2a_m4096_k4096_n2048_f32_gelu_v7x_i8_1_alg».proof.Proof.Pieces

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The stepped body: from the cut context, and a continuation that takes the body's end, the kernel's body runs. -/
def SoundBody : Prop :=
  ∀ (c : Dev nD) (K : GSem nD τ sig → ℕ) (W : Waits sig Unit)
    (fx : Buf (Elt F) ((xbM).view.loc (c : Thread nD τ))) (fw : Buf (Elt F) ((wbM).view.loc (c : Thread nD τ)))
    (fs : Buf (Elt F) ((sbM).view.loc (c : Thread nD τ))) (fo : Buf (Elt F) ((outM).view.loc (c : Thread nD τ)))
    (Kt : PUnit → sProp 𝕄),
    iprop(bodyCtx m K c W fx fw fs fo ∗ (bodyEnd m c -∗ Kt ⟨⟩))
      ⊢ wp frame (wpE (defs₀ (F := F)) 𝒱₀ (c : Thread nD τ) none) Set.univ
          (cc0_body (Memref.whole main_arg0) (Memref.isWhole_whole _) (Memref.whole main_arg1) (Memref.isWhole_whole _)
            (Memref.whole cc0_stg0_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7) Kt

/-- The four scratch buffers cut into the pieces the body names, the receive buffer's pieces at some contents. -/
theorem pieces_cut (c : Dev nD) (fx : Buf (Elt F) ((xbM).view.loc (c : Thread nD τ))) (fw : Buf (Elt F) ((wbM).view.loc (c : Thread nD τ)))
    (fs : Buf (Elt F) ((sbM).view.loc (c : Thread nD τ))) :
    (iprop(((xbM).view.loc (c : Thread nD τ) ↦[(xbM).view.set]{fullShare} fx) ∗ ((wbM).view.loc (c : Thread nD τ) ↦[(wbM).view.set]{fullShare} fw) ∗ ((sbM).view.loc (c : Thread nD τ) ↦[(sbM).view.set]{fullShare} fs) ∗ (∃ f, (rbM).view.loc (c : Thread nD τ) ↦[(rbM).view.set]{fullShare} f)) : sProp 𝕄)
      ⊢ piecesAt c fx fw fs := by
  unfold piecesAt
  iintro ⟨Hx, Hw, Hs, ⟨%fr, Hr⟩⟩
  ihave Hx := (x_cut c fx) $$ Hx
  ihave Hw := (w_cut c fw) $$ Hw
  ihave Hs := (sb_cut c fs) $$ Hs
  ihave Hr := (rb_cut c fr) $$ Hr
  icases Hx with ⟨Hx0, Hx1, Hx2, Hx3⟩
  icases Hw with ⟨Hw0, Hw1, Hw2, Hw3, Hw4, Hw5, Hw6, Hw7, Hw8, Hw9, Hw10, Hw11, Hw12, Hw13, Hw14, Hw15⟩
  icases Hs with ⟨Hs0, Hs1, Hs2, Hs3, Hs4, Hs5, Hs6, Hs7⟩
  icases Hr with ⟨Hr0, Hr1, Hr2, Hr3, Hr4, Hr5, Hr6, Hr7⟩
  isplitl [Hx0]; · iexact Hx0
  isplitl [Hx1]; · iexact Hx1
  isplitl [Hx2]; · iexact Hx2
  isplitl [Hx3]; · iexact Hx3
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [Hw8]; · iexact Hw8
  isplitl [Hw9]; · iexact Hw9
  isplitl [Hw10]; · iexact Hw10
  isplitl [Hw11]; · iexact Hw11
  isplitl [Hw12]; · iexact Hw12
  isplitl [Hw13]; · iexact Hw13
  isplitl [Hw14]; · iexact Hw14
  isplitl [Hw15]; · iexact Hw15
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hr0]; · (iexists fr; iexact Hr0)
  isplitl [Hr1]; · (iexists fr; iexact Hr1)
  isplitl [Hr2]; · (iexists fr; iexact Hr2)
  isplitl [Hr3]; · (iexists fr; iexact Hr3)
  isplitl [Hr4]; · (iexists fr; iexact Hr4)
  isplitl [Hr5]; · (iexists fr; iexact Hr5)
  isplitl [Hr6]; · (iexists fr; iexact Hr6)
  (iexists fr; iexact Hr7)

/-- The pieces, each at some contents, joined back into the four scratch buffers at some contents. -/
theorem pieces_join (c : Dev nD) : (piecesAny c : sProp 𝕄) ⊢ scratchAny c := by
  unfold piecesAny scratchAny
  iintro ⟨Hx0, Hx1, Hx2, Hx3, Hw0, Hw1, Hw2, Hw3, Hw4, Hw5, Hw6, Hw7, Hw8, Hw9, Hw10, Hw11, Hw12, Hw13, Hw14, Hw15, Hs0, Hs1, Hs2, Hs3, Hs4, Hs5, Hs6, Hs7, Hr0, Hr1, Hr2, Hr3, Hr4, Hr5, Hr6, Hr7⟩
  isplitl [Hx0 Hx1 Hx2 Hx3]
  · iapply (x_join_any c)
    isplitl [Hx0]; · iexact Hx0
    isplitl [Hx1]; · iexact Hx1
    isplitl [Hx2]; · iexact Hx2
    iexact Hx3
  isplitl [Hw0 Hw1 Hw2 Hw3 Hw4 Hw5 Hw6 Hw7 Hw8 Hw9 Hw10 Hw11 Hw12 Hw13 Hw14 Hw15]
  · iapply (w_join c)
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    iexact Hw15
  isplitl [Hs0 Hs1 Hs2 Hs3 Hs4 Hs5 Hs6 Hs7]
  · iapply (sb_join c)
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hs7
  iapply (rb_join c)
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  iexact Hr7

/-- The obligation's precondition at the one point, named. -/
def bodyPre' (c : Dev nD) : sProp 𝕄 :=
  iprop(Φ₀ m c ∗ (dats m 0 c).owesAt () t0_0.castSucc
    ∗ (∃ d, owns (Ix := Unit) (Name := ℕ) (U := UU) (Lvl := ℕ) (c : Thread nD τ) outM fullShare ((dats m 0 c).before (0 : Fin 1) t0_0 d)))

/-- The obligation's postcondition at the one point, named. -/
def bodyPost (c : Dev nD) : sProp 𝕄 :=
  iprop(Φ₁ m c ∗ (dats m 0 c).owesAt () t0_0.succ
    ∗ owns (Ix := Unit) (Name := ℕ) (U := UU) (Lvl := ℕ) (c : Thread nD τ) outM fullShare ((dats m 0 c).after (0 : Fin 1) t0_0))

set_option maxRecDepth 4000 in
/-- The library's body obligation on device `c`, from the stepped body. -/
theorem body_obligation_of (hsb : SoundBody m) (c : Dev nD) :
    BodyObligation (dats (F := F) m 0 c) (defs₀ (F := F)) 𝒱₀ () Set.univ := fun t => by
  rw [fin_N0 t]
  rw [bigSep_W0, bigSep_W0]
  show bodyPre' m c ⊢ wp frame (wpE (defs₀ (F := F)) 𝒱₀ (c : Thread nD τ) none) Set.univ
          (cc0_body (Memref.whole main_arg0) (Memref.isWhole_whole _) (Memref.whole main_arg1) (Memref.isWhole_whole _)
            (Memref.whole cc0_stg0_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7) (fun _ => bodyPost m c)
  unfold bodyPre' Φ₀ start Dat.owesAt Pipeline.owesWithin owns
  rw [show (dats m 0 c).owed t0_0.castSucc = O₀ c from rfl]
  iintro ⟨⟨⟨⟨%K, Hg⟩, Hwc, Hlev, Hps, Harg⟩, Hscr⟩, ⟨%W, -, HO⟩, ⟨%d, %fo, -, Hout⟩⟩
  unfold scratchAny
  icases Hscr with ⟨⟨%fx, Hx⟩, ⟨%fw, Hw⟩, ⟨%fs, Hs⟩, Hr⟩
  ihave Hpc := (pieces_cut c fx fw fs) $$ [Hx Hw Hs Hr]
  · isplitl [Hx]; · iexact Hx
    isplitl [Hw]; · iexact Hw
    isplitl [Hs]; · iexact Hs
    iexact Hr
  iapply (hsb c K W fx fw fs fo fun _ => bodyPost m c)
  unfold bodyCtx
  isplitr []
  · isplitl [Hg]; · iexact Hg
    isplitl [Hwc]; · iexact Hwc
    isplitl [Hlev]; · iexact Hlev
    isplitl [Hps]; · iexact Hps
    isplitl [Harg]; · iexact Harg
    isplitl [Hpc]; · iexact Hpc
    isplitl [Hout]; · iexact Hout
    iexact HO
  · unfold bodyEnd bodyPost Φ₁ Dat.owesAt Pipeline.owesWithin owns
    rw [show (dats m 0 c).owed t0_0.succ = 0 from rfl]
    iintro ⟨Harg, Hpc, Hsem, Hout, ⟨%W', HO⟩⟩
    isplitl [Harg Hpc Hsem]
    · isplitl [Harg]; · iexact Harg
      isplitl [Hpc]; · iapply (pieces_join c); iexact Hpc
      iexact Hsem
    isplitl [HO]
    · iexists W'
      isplitr; · ipureintro; exact fun _ _ => Or.inl trivial
      iexact HO
    iexists (outV m c)
    isplitr; · ipureintro; rfl
    iexact Hout

/-- info: 'Cert.KernelIdeal.A2A.body_obligation_of' depends on axioms: [propext, Classical.choice, Quot.sound] -/
#guard_msgs in #print axioms body_obligation_of

end Cert.KernelIdeal.A2A

end
-- ==== Proof.Part1Iface.lean ====
/-
  The entry handshake, as a step of its own. A device starts the part holding its barrier cell's position and wait credit,
  the seven barrier duties it pays at its partners, and slots 1..7 of its own receive buffer; it signals each partner's
  barrier cell once, handing over the slot that partner will write, waits for its own seven units, and leaves holding
  slot t of each partner c xor t's receive buffer and owing only the seven copies.
-/
import proofs.«900796_g7700000000000797_dist_gemm_a2a_m4096_k4096_n2048_f32_gelu_v7x_i8_1_alg».proof.Proof.Data
import proofs.«900796_g7700000000000797_dist_gemm_a2a_m4096_k4096_n2048_f32_gelu_v7x_i8_1_alg».proof.Proof.SchedTab

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The word the part returns beside the device: the device's position on the mesh axis, as the program computes it. -/
def v2c (c : Dev nD) : BitVec 32 := Scalar.remsi (Scalar.divsi (Dev.word c) 1#32) 8#32

def part1Pre (K : GSem nD τ sig → ℕ) (c : Dev nD) (W : Waits sig Unit) : sProp 𝕄 :=
  iprop(cellInv ER (sched m) (K (barCell c)) (barCell c)
    ∗ cellInv ER (sched m) (K (barCell (px c 1))) (barCell (px c 1))
    ∗ cellInv ER (sched m) (K (barCell (px c 2))) (barCell (px c 2))
    ∗ cellInv ER (sched m) (K (barCell (px c 3))) (barCell (px c 3))
    ∗ cellInv ER (sched m) (K (barCell (px c 4))) (barCell (px c 4))
    ∗ cellInv ER (sched m) (K (barCell (px c 5))) (barCell (px c 5))
    ∗ cellInv ER (sched m) (K (barCell (px c 6))) (barCell (px c 6))
    ∗ cellInv ER (sched m) (K (barCell (px c 7))) (barCell (px c 7))
    ∗ atPos ER (barCell c) 0 ∅ 0
    ∗ reached ER (barCell (px c 1)) 0 ∗ reached ER (barCell (px c 2)) 0 ∗ reached ER (barCell (px c 3)) 0 ∗ reached ER (barCell (px c 4)) 0 ∗ reached ER (barCell (px c 5)) 0 ∗ reached ER (barCell (px c 6)) 0 ∗ reached ER (barCell (px c 7)) 0
    ∗ dutyTok ER (barCell (px c 1)) 0 1 ∗ dutyTok ER (barCell (px c 2)) 0 2 ∗ dutyTok ER (barCell (px c 3)) 0 3 ∗ dutyTok ER (barCell (px c 4)) 0 4 ∗ dutyTok ER (barCell (px c 5)) 0 5 ∗ dutyTok ER (barCell (px c 6)) 0 6 ∗ dutyTok ER (barCell (px c 7)) 0 7
    ∗ (∃ f, (rM 1).view.loc (c : Thread nD τ) ↦[(rM 1).view.set]{fullShare} f)
    ∗ (∃ f, (rM 2).view.loc (c : Thread nD τ) ↦[(rM 2).view.set]{fullShare} f)
    ∗ (∃ f, (rM 3).view.loc (c : Thread nD τ) ↦[(rM 3).view.set]{fullShare} f)
    ∗ (∃ f, (rM 4).view.loc (c : Thread nD τ) ↦[(rM 4).view.set]{fullShare} f)
    ∗ (∃ f, (rM 5).view.loc (c : Thread nD τ) ↦[(rM 5).view.set]{fullShare} f)
    ∗ (∃ f, (rM 6).view.loc (c : Thread nD τ) ↦[(rM 6).view.set]{fullShare} f)
    ∗ (∃ f, (rM 7).view.loc (c : Thread nD τ) ↦[(rM 7).view.set]{fullShare} f)
    ∗ cred (tallyAt (barCell c) () 7) ∗ levAts L lv ∗ owes (c : Thread nD τ) (O₀ c) W)

def part1Post (c : Dev nD) : sProp 𝕄 :=
  iprop(atPos ER (barCell c) 1 ∅ 0
    ∗ (∃ f, (rM 1).view.loc (px c 1 : Thread nD τ) ↦[(rM 1).view.set]{fullShare} f)
    ∗ (∃ f, (rM 2).view.loc (px c 2 : Thread nD τ) ↦[(rM 2).view.set]{fullShare} f)
    ∗ (∃ f, (rM 3).view.loc (px c 3 : Thread nD τ) ↦[(rM 3).view.set]{fullShare} f)
    ∗ (∃ f, (rM 4).view.loc (px c 4 : Thread nD τ) ↦[(rM 4).view.set]{fullShare} f)
    ∗ (∃ f, (rM 5).view.loc (px c 5 : Thread nD τ) ↦[(rM 5).view.set]{fullShare} f)
    ∗ (∃ f, (rM 6).view.loc (px c 6 : Thread nD τ) ↦[(rM 6).view.set]{fullShare} f)
    ∗ (∃ f, (rM 7).view.loc (px c 7 : Thread nD τ) ↦[(rM 7).view.set]{fullShare} f)
    ∗ ∃ W', owes (c : Thread nD τ) (owedRecv c) W')

/-- All seven payloads of a barrier cell's round, as a list. -/
theorem bar_all (c : Dev nD) :
    bigSep ((sched m).duties (barCell c) 0) (fun d => (sched m).payload (barCell c) 0 d)
      = iprop(barPay c 1 ∗ barPay c 2 ∗ barPay c 3 ∗ barPay c 4 ∗ barPay c 5 ∗ barPay c 6 ∗ barPay c 7) := by
  have h := rest_bar m c
  rwa [Finset.sdiff_empty] at h

end Cert.KernelIdeal.A2A

end
-- ==== Proof.Part1_0.lean ====
/-
  The entry handshake on device 0: its seven signals go to devices 1, 2, 3, 4, 5, 6, 7 in that order; the unit it pays at device p is
  duty p xor 0 of p's barrier cell and carries slot p xor 0 of its own receive buffer.
-/
import proofs.«900796_g7700000000000797_dist_gemm_a2a_m4096_k4096_n2048_f32_gelu_v7x_i8_1_alg».proof.Proof.Part1Iface
import proofs.«900796_g7700000000000797_dist_gemm_a2a_m4096_k4096_n2048_f32_gelu_v7x_i8_1_alg».proof.Proof.Levels

set_option maxHeartbeats 8000000
set_option sl_exec.stepHeartbeats 2000000

noncomputable section

namespace Cert.KernelIdeal.A2A

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

attribute [local sl_rounds] pay_bar_0_1 pay_bar_0_2 pay_bar_0_3 pay_bar_0_4 pay_bar_0_5 pay_bar_0_6 pay_bar_0_7 pay_bar_1_1 pay_bar_1_2 pay_bar_1_3 pay_bar_1_4 pay_bar_1_5 pay_bar_1_6 pay_bar_1_7 pay_bar_2_1 pay_bar_2_2 pay_bar_2_3 pay_bar_2_4 pay_bar_2_5 pay_bar_2_6 pay_bar_2_7 pay_bar_3_1 pay_bar_3_2 pay_bar_3_3 pay_bar_3_4 pay_bar_3_5 pay_bar_3_6 pay_bar_3_7 pay_bar_4_1 pay_bar_4_2 pay_bar_4_3 pay_bar_4_4 pay_bar_4_5 pay_bar_4_6 pay_bar_4_7 pay_bar_5_1 pay_bar_5_2 pay_bar_5_3 pay_bar_5_4 pay_bar_5_5 pay_bar_5_6 pay_bar_5_7 pay_bar_6_1 pay_bar_6_2 pay_bar_6_3 pay_bar_6_4 pay_bar_6_5 pay_bar_6_6 pay_bar_6_7 pay_bar_7_1 pay_bar_7_2 pay_bar_7_3 pay_bar_7_4 pay_bar_7_5 pay_bar_7_6 pay_bar_7_7

theorem part1_0 (K : GSem nD τ sig → ℕ) (W : Waits sig Unit) (Kt : (Σ' (d0 : Dev nD), BitVec 32) → sProp 𝕄) :
    iprop(part1Pre m K (0 : Dev nD) W ∗ (part1Post (0 : Dev nD) -∗ Kt ⟨(0 : Dev nD), 0#32⟩))
      ⊢ wp frame (wpE (defs₀ (F := F)) 𝒱₀ ((0 : Dev nD) : Thread nD τ) none) Set.univ
          (k0_part1 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  have e1 : px (0 : Dev nD) 1 = 1 := rfl
  have e2 : px (0 : Dev nD) 2 = 2 := rfl
  have e3 : px (0 : Dev nD) 3 = 3 := rfl
  have e4 : px (0 : Dev nD) 4 = 4 := rfl
  have e5 : px (0 : Dev nD) 5 = 5 := rfl
  have e6 : px (0 : Dev nD) 6 = 6 := rfl
  have e7 : px (0 : Dev nD) 7 = 7 := rfl
  have hmw := mayWait_bar (F := F) (0 : Dev nD)
  unfold owedRecv at hmw
  unfold part1Pre part1Post O₀ owedRecv owedBar
  simp only [e1, e2, e3, e4, e5, e6, e7] at hmw ⊢
  simp only [← add_assoc]
  iintro ⟨⟨#HIbar, #HIb1, #HIb2, #HIb3, #HIb4, #HIb5, #HIb6, #HIb7, HatB, #HrB1, #HrB2, #HrB3, #HrB4, #HrB5, #HrB6, #HrB7, HtB1, HtB2, HtB3, HtB4, HtB5, HtB6, HtB7, Hrb1, Hrb2, Hrb3, Hrb4, Hrb5, Hrb6, Hrb7, HcB, #Hlev, HO⟩, Hk⟩
  sl_exec_parts (disch := decide)
  rw [wp_ret]; imodintro
  iapply Hk
  ihave Hp := (Entails.of_eq ((bar_all m (0 : Dev nD)).trans (by rw [barPay_unfold_1, barPay_unfold_2, barPay_unfold_3, barPay_unfold_4, barPay_unfold_5, barPay_unfold_6, barPay_unfold_7]))) $$ HatB_pay1
  icases Hp with ⟨H1, H2, H3, H4, H5, H6, H7⟩
  isplitl [HatB]; · iexact HatB
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact HO

end Cert.KernelIdeal.A2A

end
-- ==== Proof.Part1_1.lean ====
/-
  The entry handshake on device 1: its seven signals go to devices 0, 2, 3, 4, 5, 6, 7 in that order; the unit it pays at device p is
  duty p xor 1 of p's barrier cell and carries slot p xor 1 of its own receive buffer.
-/
import proofs.«900796_g7700000000000797_dist_gemm_a2a_m4096_k4096_n2048_f32_gelu_v7x_i8_1_alg».proof.Proof.Part1Iface
import proofs.«900796_g7700000000000797_dist_gemm_a2a_m4096_k4096_n2048_f32_gelu_v7x_i8_1_alg».proof.Proof.Levels

set_option maxHeartbeats 8000000
set_option sl_exec.stepHeartbeats 2000000

noncomputable section

namespace Cert.KernelIdeal.A2A

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

attribute [local sl_rounds] pay_bar_0_1 pay_bar_0_2 pay_bar_0_3 pay_bar_0_4 pay_bar_0_5 pay_bar_0_6 pay_bar_0_7 pay_bar_1_1 pay_bar_1_2 pay_bar_1_3 pay_bar_1_4 pay_bar_1_5 pay_bar_1_6 pay_bar_1_7 pay_bar_2_1 pay_bar_2_2 pay_bar_2_3 pay_bar_2_4 pay_bar_2_5 pay_bar_2_6 pay_bar_2_7 pay_bar_3_1 pay_bar_3_2 pay_bar_3_3 pay_bar_3_4 pay_bar_3_5 pay_bar_3_6 pay_bar_3_7 pay_bar_4_1 pay_bar_4_2 pay_bar_4_3 pay_bar_4_4 pay_bar_4_5 pay_bar_4_6 pay_bar_4_7 pay_bar_5_1 pay_bar_5_2 pay_bar_5_3 pay_bar_5_4 pay_bar_5_5 pay_bar_5_6 pay_bar_5_7 pay_bar_6_1 pay_bar_6_2 pay_bar_6_3 pay_bar_6_4 pay_bar_6_5 pay_bar_6_6 pay_bar_6_7 pay_bar_7_1 pay_bar_7_2 pay_bar_7_3 pay_bar_7_4 pay_bar_7_5 pay_bar_7_6 pay_bar_7_7

theorem part1_1 (K : GSem nD τ sig → ℕ) (W : Waits sig Unit) (Kt : (Σ' (d0 : Dev nD), BitVec 32) → sProp 𝕄) :
    iprop(part1Pre m K (1 : Dev nD) W ∗ (part1Post (1 : Dev nD) -∗ Kt ⟨(1 : Dev nD), 1#32⟩))
      ⊢ wp frame (wpE (defs₀ (F := F)) 𝒱₀ ((1 : Dev nD) : Thread nD τ) none) Set.univ
          (k0_part1 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  have e1 : px (1 : Dev nD) 1 = 0 := rfl
  have e2 : px (1 : Dev nD) 2 = 3 := rfl
  have e3 : px (1 : Dev nD) 3 = 2 := rfl
  have e4 : px (1 : Dev nD) 4 = 5 := rfl
  have e5 : px (1 : Dev nD) 5 = 4 := rfl
  have e6 : px (1 : Dev nD) 6 = 7 := rfl
  have e7 : px (1 : Dev nD) 7 = 6 := rfl
  have hmw := mayWait_bar (F := F) (1 : Dev nD)
  unfold owedRecv at hmw
  unfold part1Pre part1Post O₀ owedRecv owedBar
  simp only [e1, e2, e3, e4, e5, e6, e7] at hmw ⊢
  simp only [← add_assoc]
  iintro ⟨⟨#HIbar, #HIb1, #HIb2, #HIb3, #HIb4, #HIb5, #HIb6, #HIb7, HatB, #HrB1, #HrB2, #HrB3, #HrB4, #HrB5, #HrB6, #HrB7, HtB1, HtB2, HtB3, HtB4, HtB5, HtB6, HtB7, Hrb1, Hrb2, Hrb3, Hrb4, Hrb5, Hrb6, Hrb7, HcB, #Hlev, HO⟩, Hk⟩
  sl_exec_parts (disch := decide)
  rw [wp_ret]; imodintro
  iapply Hk
  ihave Hp := (Entails.of_eq ((bar_all m (1 : Dev nD)).trans (by rw [barPay_unfold_1, barPay_unfold_2, barPay_unfold_3, barPay_unfold_4, barPay_unfold_5, barPay_unfold_6, barPay_unfold_7]))) $$ HatB_pay1
  icases Hp with ⟨H1, H2, H3, H4, H5, H6, H7⟩
  isplitl [HatB]; · iexact HatB
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact HO

end Cert.KernelIdeal.A2A

end
-- ==== Proof.Part1_2.lean ====
/-
  The entry handshake on device 2: its seven signals go to devices 0, 1, 3, 4, 5, 6, 7 in that order; the unit it pays at device p is
  duty p xor 2 of p's barrier cell and carries slot p xor 2 of its own receive buffer.
-/
import proofs.«900796_g7700000000000797_dist_gemm_a2a_m4096_k4096_n2048_f32_gelu_v7x_i8_1_alg».proof.Proof.Part1Iface
import proofs.«900796_g7700000000000797_dist_gemm_a2a_m4096_k4096_n2048_f32_gelu_v7x_i8_1_alg».proof.Proof.Levels

set_option maxHeartbeats 8000000
set_option sl_exec.stepHeartbeats 2000000

noncomputable section

namespace Cert.KernelIdeal.A2A

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

attribute [local sl_rounds] pay_bar_0_1 pay_bar_0_2 pay_bar_0_3 pay_bar_0_4 pay_bar_0_5 pay_bar_0_6 pay_bar_0_7 pay_bar_1_1 pay_bar_1_2 pay_bar_1_3 pay_bar_1_4 pay_bar_1_5 pay_bar_1_6 pay_bar_1_7 pay_bar_2_1 pay_bar_2_2 pay_bar_2_3 pay_bar_2_4 pay_bar_2_5 pay_bar_2_6 pay_bar_2_7 pay_bar_3_1 pay_bar_3_2 pay_bar_3_3 pay_bar_3_4 pay_bar_3_5 pay_bar_3_6 pay_bar_3_7 pay_bar_4_1 pay_bar_4_2 pay_bar_4_3 pay_bar_4_4 pay_bar_4_5 pay_bar_4_6 pay_bar_4_7 pay_bar_5_1 pay_bar_5_2 pay_bar_5_3 pay_bar_5_4 pay_bar_5_5 pay_bar_5_6 pay_bar_5_7 pay_bar_6_1 pay_bar_6_2 pay_bar_6_3 pay_bar_6_4 pay_bar_6_5 pay_bar_6_6 pay_bar_6_7 pay_bar_7_1 pay_bar_7_2 pay_bar_7_3 pay_bar_7_4 pay_bar_7_5 pay_bar_7_6 pay_bar_7_7

theorem part1_2 (K : GSem nD τ sig → ℕ) (W : Waits sig Unit) (Kt : (Σ' (d0 : Dev nD), BitVec 32) → sProp 𝕄) :
    iprop(part1Pre m K (2 : Dev nD) W ∗ (part1Post (2 : Dev nD) -∗ Kt ⟨(2 : Dev nD), 2#32⟩))
      ⊢ wp frame (wpE (defs₀ (F := F)) 𝒱₀ ((2 : Dev nD) : Thread nD τ) none) Set.univ
          (k0_part1 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  have e1 : px (2 : Dev nD) 1 = 3 := rfl
  have e2 : px (2 : Dev nD) 2 = 0 := rfl
  have e3 : px (2 : Dev nD) 3 = 1 := rfl
  have e4 : px (2 : Dev nD) 4 = 6 := rfl
  have e5 : px (2 : Dev nD) 5 = 7 := rfl
  have e6 : px (2 : Dev nD) 6 = 4 := rfl
  have e7 : px (2 : Dev nD) 7 = 5 := rfl
  have hmw := mayWait_bar (F := F) (2 : Dev nD)
  unfold owedRecv at hmw
  unfold part1Pre part1Post O₀ owedRecv owedBar
  simp only [e1, e2, e3, e4, e5, e6, e7] at hmw ⊢
  simp only [← add_assoc]
  iintro ⟨⟨#HIbar, #HIb1, #HIb2, #HIb3, #HIb4, #HIb5, #HIb6, #HIb7, HatB, #HrB1, #HrB2, #HrB3, #HrB4, #HrB5, #HrB6, #HrB7, HtB1, HtB2, HtB3, HtB4, HtB5, HtB6, HtB7, Hrb1, Hrb2, Hrb3, Hrb4, Hrb5, Hrb6, Hrb7, HcB, #Hlev, HO⟩, Hk⟩
  sl_exec_parts (disch := decide)
  rw [wp_ret]; imodintro
  iapply Hk
  ihave Hp := (Entails.of_eq ((bar_all m (2 : Dev nD)).trans (by rw [barPay_unfold_1, barPay_unfold_2, barPay_unfold_3, barPay_unfold_4, barPay_unfold_5, barPay_unfold_6, barPay_unfold_7]))) $$ HatB_pay1
  icases Hp with ⟨H1, H2, H3, H4, H5, H6, H7⟩
  isplitl [HatB]; · iexact HatB
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact HO

end Cert.KernelIdeal.A2A

end
-- ==== Proof.Part1_3.lean ====
/-
  The entry handshake on device 3: its seven signals go to devices 0, 1, 2, 4, 5, 6, 7 in that order; the unit it pays at device p is
  duty p xor 3 of p's barrier cell and carries slot p xor 3 of its own receive buffer.
-/
import proofs.«900796_g7700000000000797_dist_gemm_a2a_m4096_k4096_n2048_f32_gelu_v7x_i8_1_alg».proof.Proof.Part1Iface
import proofs.«900796_g7700000000000797_dist_gemm_a2a_m4096_k4096_n2048_f32_gelu_v7x_i8_1_alg».proof.Proof.Levels

set_option maxHeartbeats 8000000
set_option sl_exec.stepHeartbeats 2000000

noncomputable section

namespace Cert.KernelIdeal.A2A

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

attribute [local sl_rounds] pay_bar_0_1 pay_bar_0_2 pay_bar_0_3 pay_bar_0_4 pay_bar_0_5 pay_bar_0_6 pay_bar_0_7 pay_bar_1_1 pay_bar_1_2 pay_bar_1_3 pay_bar_1_4 pay_bar_1_5 pay_bar_1_6 pay_bar_1_7 pay_bar_2_1 pay_bar_2_2 pay_bar_2_3 pay_bar_2_4 pay_bar_2_5 pay_bar_2_6 pay_bar_2_7 pay_bar_3_1 pay_bar_3_2 pay_bar_3_3 pay_bar_3_4 pay_bar_3_5 pay_bar_3_6 pay_bar_3_7 pay_bar_4_1 pay_bar_4_2 pay_bar_4_3 pay_bar_4_4 pay_bar_4_5 pay_bar_4_6 pay_bar_4_7 pay_bar_5_1 pay_bar_5_2 pay_bar_5_3 pay_bar_5_4 pay_bar_5_5 pay_bar_5_6 pay_bar_5_7 pay_bar_6_1 pay_bar_6_2 pay_bar_6_3 pay_bar_6_4 pay_bar_6_5 pay_bar_6_6 pay_bar_6_7 pay_bar_7_1 pay_bar_7_2 pay_bar_7_3 pay_bar_7_4 pay_bar_7_5 pay_bar_7_6 pay_bar_7_7

theorem part1_3 (K : GSem nD τ sig → ℕ) (W : Waits sig Unit) (Kt : (Σ' (d0 : Dev nD), BitVec 32) → sProp 𝕄) :
    iprop(part1Pre m K (3 : Dev nD) W ∗ (part1Post (3 : Dev nD) -∗ Kt ⟨(3 : Dev nD), 3#32⟩))
      ⊢ wp frame (wpE (defs₀ (F := F)) 𝒱₀ ((3 : Dev nD) : Thread nD τ) none) Set.univ
          (k0_part1 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  have e1 : px (3 : Dev nD) 1 = 2 := rfl
  have e2 : px (3 : Dev nD) 2 = 1 := rfl
  have e3 : px (3 : Dev nD) 3 = 0 := rfl
  have e4 : px (3 : Dev nD) 4 = 7 := rfl
  have e5 : px (3 : Dev nD) 5 = 6 := rfl
  have e6 : px (3 : Dev nD) 6 = 5 := rfl
  have e7 : px (3 : Dev nD) 7 = 4 := rfl
  have hmw := mayWait_bar (F := F) (3 : Dev nD)
  unfold owedRecv at hmw
  unfold part1Pre part1Post O₀ owedRecv owedBar
  simp only [e1, e2, e3, e4, e5, e6, e7] at hmw ⊢
  simp only [← add_assoc]
  iintro ⟨⟨#HIbar, #HIb1, #HIb2, #HIb3, #HIb4, #HIb5, #HIb6, #HIb7, HatB, #HrB1, #HrB2, #HrB3, #HrB4, #HrB5, #HrB6, #HrB7, HtB1, HtB2, HtB3, HtB4, HtB5, HtB6, HtB7, Hrb1, Hrb2, Hrb3, Hrb4, Hrb5, Hrb6, Hrb7, HcB, #Hlev, HO⟩, Hk⟩
  sl_exec_parts (disch := decide)
  rw [wp_ret]; imodintro
  iapply Hk
  ihave Hp := (Entails.of_eq ((bar_all m (3 : Dev nD)).trans (by rw [barPay_unfold_1, barPay_unfold_2, barPay_unfold_3, barPay_unfold_4, barPay_unfold_5, barPay_unfold_6, barPay_unfold_7]))) $$ HatB_pay1
  icases Hp with ⟨H1, H2, H3, H4, H5, H6, H7⟩
  isplitl [HatB]; · iexact HatB
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact HO

end Cert.KernelIdeal.A2A

end
-- ==== Proof.Part1_4.lean ====
/-
  The entry handshake on device 4: its seven signals go to devices 0, 1, 2, 3, 5, 6, 7 in that order; the unit it pays at device p is
  duty p xor 4 of p's barrier cell and carries slot p xor 4 of its own receive buffer.
-/
import proofs.«900796_g7700000000000797_dist_gemm_a2a_m4096_k4096_n2048_f32_gelu_v7x_i8_1_alg».proof.Proof.Part1Iface
import proofs.«900796_g7700000000000797_dist_gemm_a2a_m4096_k4096_n2048_f32_gelu_v7x_i8_1_alg».proof.Proof.Levels

set_option maxHeartbeats 8000000
set_option sl_exec.stepHeartbeats 2000000

noncomputable section

namespace Cert.KernelIdeal.A2A

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

attribute [local sl_rounds] pay_bar_0_1 pay_bar_0_2 pay_bar_0_3 pay_bar_0_4 pay_bar_0_5 pay_bar_0_6 pay_bar_0_7 pay_bar_1_1 pay_bar_1_2 pay_bar_1_3 pay_bar_1_4 pay_bar_1_5 pay_bar_1_6 pay_bar_1_7 pay_bar_2_1 pay_bar_2_2 pay_bar_2_3 pay_bar_2_4 pay_bar_2_5 pay_bar_2_6 pay_bar_2_7 pay_bar_3_1 pay_bar_3_2 pay_bar_3_3 pay_bar_3_4 pay_bar_3_5 pay_bar_3_6 pay_bar_3_7 pay_bar_4_1 pay_bar_4_2 pay_bar_4_3 pay_bar_4_4 pay_bar_4_5 pay_bar_4_6 pay_bar_4_7 pay_bar_5_1 pay_bar_5_2 pay_bar_5_3 pay_bar_5_4 pay_bar_5_5 pay_bar_5_6 pay_bar_5_7 pay_bar_6_1 pay_bar_6_2 pay_bar_6_3 pay_bar_6_4 pay_bar_6_5 pay_bar_6_6 pay_bar_6_7 pay_bar_7_1 pay_bar_7_2 pay_bar_7_3 pay_bar_7_4 pay_bar_7_5 pay_bar_7_6 pay_bar_7_7

theorem part1_4 (K : GSem nD τ sig → ℕ) (W : Waits sig Unit) (Kt : (Σ' (d0 : Dev nD), BitVec 32) → sProp 𝕄) :
    iprop(part1Pre m K (4 : Dev nD) W ∗ (part1Post (4 : Dev nD) -∗ Kt ⟨(4 : Dev nD), 4#32⟩))
      ⊢ wp frame (wpE (defs₀ (F := F)) 𝒱₀ ((4 : Dev nD) : Thread nD τ) none) Set.univ
          (k0_part1 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  have e1 : px (4 : Dev nD) 1 = 5 := rfl
  have e2 : px (4 : Dev nD) 2 = 6 := rfl
  have e3 : px (4 : Dev nD) 3 = 7 := rfl
  have e4 : px (4 : Dev nD) 4 = 0 := rfl
  have e5 : px (4 : Dev nD) 5 = 1 := rfl
  have e6 : px (4 : Dev nD) 6 = 2 := rfl
  have e7 : px (4 : Dev nD) 7 = 3 := rfl
  have hmw := mayWait_bar (F := F) (4 : Dev nD)
  unfold owedRecv at hmw
  unfold part1Pre part1Post O₀ owedRecv owedBar
  simp only [e1, e2, e3, e4, e5, e6, e7] at hmw ⊢
  simp only [← add_assoc]
  iintro ⟨⟨#HIbar, #HIb1, #HIb2, #HIb3, #HIb4, #HIb5, #HIb6, #HIb7, HatB, #HrB1, #HrB2, #HrB3, #HrB4, #HrB5, #HrB6, #HrB7, HtB1, HtB2, HtB3, HtB4, HtB5, HtB6, HtB7, Hrb1, Hrb2, Hrb3, Hrb4, Hrb5, Hrb6, Hrb7, HcB, #Hlev, HO⟩, Hk⟩
  sl_exec_parts (disch := decide)
  rw [wp_ret]; imodintro
  iapply Hk
  ihave Hp := (Entails.of_eq ((bar_all m (4 : Dev nD)).trans (by rw [barPay_unfold_1, barPay_unfold_2, barPay_unfold_3, barPay_unfold_4, barPay_unfold_5, barPay_unfold_6, barPay_unfold_7]))) $$ HatB_pay1
  icases Hp with ⟨H1, H2, H3, H4, H5, H6, H7⟩
  isplitl [HatB]; · iexact HatB
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact HO

end Cert.KernelIdeal.A2A

end
-- ==== Proof.Part1_5.lean ====
/-
  The entry handshake on device 5: its seven signals go to devices 0, 1, 2, 3, 4, 6, 7 in that order; the unit it pays at device p is
  duty p xor 5 of p's barrier cell and carries slot p xor 5 of its own receive buffer.
-/
import proofs.«900796_g7700000000000797_dist_gemm_a2a_m4096_k4096_n2048_f32_gelu_v7x_i8_1_alg».proof.Proof.Part1Iface
import proofs.«900796_g7700000000000797_dist_gemm_a2a_m4096_k4096_n2048_f32_gelu_v7x_i8_1_alg».proof.Proof.Levels

set_option maxHeartbeats 8000000
set_option sl_exec.stepHeartbeats 2000000

noncomputable section

namespace Cert.KernelIdeal.A2A

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

attribute [local sl_rounds] pay_bar_0_1 pay_bar_0_2 pay_bar_0_3 pay_bar_0_4 pay_bar_0_5 pay_bar_0_6 pay_bar_0_7 pay_bar_1_1 pay_bar_1_2 pay_bar_1_3 pay_bar_1_4 pay_bar_1_5 pay_bar_1_6 pay_bar_1_7 pay_bar_2_1 pay_bar_2_2 pay_bar_2_3 pay_bar_2_4 pay_bar_2_5 pay_bar_2_6 pay_bar_2_7 pay_bar_3_1 pay_bar_3_2 pay_bar_3_3 pay_bar_3_4 pay_bar_3_5 pay_bar_3_6 pay_bar_3_7 pay_bar_4_1 pay_bar_4_2 pay_bar_4_3 pay_bar_4_4 pay_bar_4_5 pay_bar_4_6 pay_bar_4_7 pay_bar_5_1 pay_bar_5_2 pay_bar_5_3 pay_bar_5_4 pay_bar_5_5 pay_bar_5_6 pay_bar_5_7 pay_bar_6_1 pay_bar_6_2 pay_bar_6_3 pay_bar_6_4 pay_bar_6_5 pay_bar_6_6 pay_bar_6_7 pay_bar_7_1 pay_bar_7_2 pay_bar_7_3 pay_bar_7_4 pay_bar_7_5 pay_bar_7_6 pay_bar_7_7

theorem part1_5 (K : GSem nD τ sig → ℕ) (W : Waits sig Unit) (Kt : (Σ' (d0 : Dev nD), BitVec 32) → sProp 𝕄) :
    iprop(part1Pre m K (5 : Dev nD) W ∗ (part1Post (5 : Dev nD) -∗ Kt ⟨(5 : Dev nD), 5#32⟩))
      ⊢ wp frame (wpE (defs₀ (F := F)) 𝒱₀ ((5 : Dev nD) : Thread nD τ) none) Set.univ
          (k0_part1 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  have e1 : px (5 : Dev nD) 1 = 4 := rfl
  have e2 : px (5 : Dev nD) 2 = 7 := rfl
  have e3 : px (5 : Dev nD) 3 = 6 := rfl
  have e4 : px (5 : Dev nD) 4 = 1 := rfl
  have e5 : px (5 : Dev nD) 5 = 0 := rfl
  have e6 : px (5 : Dev nD) 6 = 3 := rfl
  have e7 : px (5 : Dev nD) 7 = 2 := rfl
  have hmw := mayWait_bar (F := F) (5 : Dev nD)
  unfold owedRecv at hmw
  unfold part1Pre part1Post O₀ owedRecv owedBar
  simp only [e1, e2, e3, e4, e5, e6, e7] at hmw ⊢
  simp only [← add_assoc]
  iintro ⟨⟨#HIbar, #HIb1, #HIb2, #HIb3, #HIb4, #HIb5, #HIb6, #HIb7, HatB, #HrB1, #HrB2, #HrB3, #HrB4, #HrB5, #HrB6, #HrB7, HtB1, HtB2, HtB3, HtB4, HtB5, HtB6, HtB7, Hrb1, Hrb2, Hrb3, Hrb4, Hrb5, Hrb6, Hrb7, HcB, #Hlev, HO⟩, Hk⟩
  sl_exec_parts (disch := decide)
  rw [wp_ret]; imodintro
  iapply Hk
  ihave Hp := (Entails.of_eq ((bar_all m (5 : Dev nD)).trans (by rw [barPay_unfold_1, barPay_unfold_2, barPay_unfold_3, barPay_unfold_4, barPay_unfold_5, barPay_unfold_6, barPay_unfold_7]))) $$ HatB_pay1
  icases Hp with ⟨H1, H2, H3, H4, H5, H6, H7⟩
  isplitl [HatB]; · iexact HatB
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact HO

end Cert.KernelIdeal.A2A

end
-- ==== Proof.Part1_6.lean ====
/-
  The entry handshake on device 6: its seven signals go to devices 0, 1, 2, 3, 4, 5, 7 in that order; the unit it pays at device p is
  duty p xor 6 of p's barrier cell and carries slot p xor 6 of its own receive buffer.
-/
import proofs.«900796_g7700000000000797_dist_gemm_a2a_m4096_k4096_n2048_f32_gelu_v7x_i8_1_alg».proof.Proof.Part1Iface
import proofs.«900796_g7700000000000797_dist_gemm_a2a_m4096_k4096_n2048_f32_gelu_v7x_i8_1_alg».proof.Proof.Levels

set_option maxHeartbeats 8000000
set_option sl_exec.stepHeartbeats 2000000

noncomputable section

namespace Cert.KernelIdeal.A2A

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

attribute [local sl_rounds] pay_bar_0_1 pay_bar_0_2 pay_bar_0_3 pay_bar_0_4 pay_bar_0_5 pay_bar_0_6 pay_bar_0_7 pay_bar_1_1 pay_bar_1_2 pay_bar_1_3 pay_bar_1_4 pay_bar_1_5 pay_bar_1_6 pay_bar_1_7 pay_bar_2_1 pay_bar_2_2 pay_bar_2_3 pay_bar_2_4 pay_bar_2_5 pay_bar_2_6 pay_bar_2_7 pay_bar_3_1 pay_bar_3_2 pay_bar_3_3 pay_bar_3_4 pay_bar_3_5 pay_bar_3_6 pay_bar_3_7 pay_bar_4_1 pay_bar_4_2 pay_bar_4_3 pay_bar_4_4 pay_bar_4_5 pay_bar_4_6 pay_bar_4_7 pay_bar_5_1 pay_bar_5_2 pay_bar_5_3 pay_bar_5_4 pay_bar_5_5 pay_bar_5_6 pay_bar_5_7 pay_bar_6_1 pay_bar_6_2 pay_bar_6_3 pay_bar_6_4 pay_bar_6_5 pay_bar_6_6 pay_bar_6_7 pay_bar_7_1 pay_bar_7_2 pay_bar_7_3 pay_bar_7_4 pay_bar_7_5 pay_bar_7_6 pay_bar_7_7

theorem part1_6 (K : GSem nD τ sig → ℕ) (W : Waits sig Unit) (Kt : (Σ' (d0 : Dev nD), BitVec 32) → sProp 𝕄) :
    iprop(part1Pre m K (6 : Dev nD) W ∗ (part1Post (6 : Dev nD) -∗ Kt ⟨(6 : Dev nD), 6#32⟩))
      ⊢ wp frame (wpE (defs₀ (F := F)) 𝒱₀ ((6 : Dev nD) : Thread nD τ) none) Set.univ
          (k0_part1 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  have e1 : px (6 : Dev nD) 1 = 7 := rfl
  have e2 : px (6 : Dev nD) 2 = 4 := rfl
  have e3 : px (6 : Dev nD) 3 = 5 := rfl
  have e4 : px (6 : Dev nD) 4 = 2 := rfl
  have e5 : px (6 : Dev nD) 5 = 3 := rfl
  have e6 : px (6 : Dev nD) 6 = 0 := rfl
  have e7 : px (6 : Dev nD) 7 = 1 := rfl
  have hmw := mayWait_bar (F := F) (6 : Dev nD)
  unfold owedRecv at hmw
  unfold part1Pre part1Post O₀ owedRecv owedBar
  simp only [e1, e2, e3, e4, e5, e6, e7] at hmw ⊢
  simp only [← add_assoc]
  iintro ⟨⟨#HIbar, #HIb1, #HIb2, #HIb3, #HIb4, #HIb5, #HIb6, #HIb7, HatB, #HrB1, #HrB2, #HrB3, #HrB4, #HrB5, #HrB6, #HrB7, HtB1, HtB2, HtB3, HtB4, HtB5, HtB6, HtB7, Hrb1, Hrb2, Hrb3, Hrb4, Hrb5, Hrb6, Hrb7, HcB, #Hlev, HO⟩, Hk⟩
  sl_exec_parts (disch := decide)
  rw [wp_ret]; imodintro
  iapply Hk
  ihave Hp := (Entails.of_eq ((bar_all m (6 : Dev nD)).trans (by rw [barPay_unfold_1, barPay_unfold_2, barPay_unfold_3, barPay_unfold_4, barPay_unfold_5, barPay_unfold_6, barPay_unfold_7]))) $$ HatB_pay1
  icases Hp with ⟨H1, H2, H3, H4, H5, H6, H7⟩
  isplitl [HatB]; · iexact HatB
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact HO

end Cert.KernelIdeal.A2A

end
-- ==== Proof.Part1_7.lean ====
/-
  The entry handshake on device 7: its seven signals go to devices 0, 1, 2, 3, 4, 5, 6 in that order; the unit it pays at device p is
  duty p xor 7 of p's barrier cell and carries slot p xor 7 of its own receive buffer.
-/
import proofs.«900796_g7700000000000797_dist_gemm_a2a_m4096_k4096_n2048_f32_gelu_v7x_i8_1_alg».proof.Proof.Part1Iface
import proofs.«900796_g7700000000000797_dist_gemm_a2a_m4096_k4096_n2048_f32_gelu_v7x_i8_1_alg».proof.Proof.Levels

set_option maxHeartbeats 8000000
set_option sl_exec.stepHeartbeats 2000000

noncomputable section

namespace Cert.KernelIdeal.A2A

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

attribute [local sl_rounds] pay_bar_0_1 pay_bar_0_2 pay_bar_0_3 pay_bar_0_4 pay_bar_0_5 pay_bar_0_6 pay_bar_0_7 pay_bar_1_1 pay_bar_1_2 pay_bar_1_3 pay_bar_1_4 pay_bar_1_5 pay_bar_1_6 pay_bar_1_7 pay_bar_2_1 pay_bar_2_2 pay_bar_2_3 pay_bar_2_4 pay_bar_2_5 pay_bar_2_6 pay_bar_2_7 pay_bar_3_1 pay_bar_3_2 pay_bar_3_3 pay_bar_3_4 pay_bar_3_5 pay_bar_3_6 pay_bar_3_7 pay_bar_4_1 pay_bar_4_2 pay_bar_4_3 pay_bar_4_4 pay_bar_4_5 pay_bar_4_6 pay_bar_4_7 pay_bar_5_1 pay_bar_5_2 pay_bar_5_3 pay_bar_5_4 pay_bar_5_5 pay_bar_5_6 pay_bar_5_7 pay_bar_6_1 pay_bar_6_2 pay_bar_6_3 pay_bar_6_4 pay_bar_6_5 pay_bar_6_6 pay_bar_6_7 pay_bar_7_1 pay_bar_7_2 pay_bar_7_3 pay_bar_7_4 pay_bar_7_5 pay_bar_7_6 pay_bar_7_7

theorem part1_7 (K : GSem nD τ sig → ℕ) (W : Waits sig Unit) (Kt : (Σ' (d0 : Dev nD), BitVec 32) → sProp 𝕄) :
    iprop(part1Pre m K (7 : Dev nD) W ∗ (part1Post (7 : Dev nD) -∗ Kt ⟨(7 : Dev nD), 7#32⟩))
      ⊢ wp frame (wpE (defs₀ (F := F)) 𝒱₀ ((7 : Dev nD) : Thread nD τ) none) Set.univ
          (k0_part1 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  have e1 : px (7 : Dev nD) 1 = 6 := rfl
  have e2 : px (7 : Dev nD) 2 = 5 := rfl
  have e3 : px (7 : Dev nD) 3 = 4 := rfl
  have e4 : px (7 : Dev nD) 4 = 3 := rfl
  have e5 : px (7 : Dev nD) 5 = 2 := rfl
  have e6 : px (7 : Dev nD) 6 = 1 := rfl
  have e7 : px (7 : Dev nD) 7 = 0 := rfl
  have hmw := mayWait_bar (F := F) (7 : Dev nD)
  unfold owedRecv at hmw
  unfold part1Pre part1Post O₀ owedRecv owedBar
  simp only [e1, e2, e3, e4, e5, e6, e7] at hmw ⊢
  simp only [← add_assoc]
  iintro ⟨⟨#HIbar, #HIb1, #HIb2, #HIb3, #HIb4, #HIb5, #HIb6, #HIb7, HatB, #HrB1, #HrB2, #HrB3, #HrB4, #HrB5, #HrB6, #HrB7, HtB1, HtB2, HtB3, HtB4, HtB5, HtB6, HtB7, Hrb1, Hrb2, Hrb3, Hrb4, Hrb5, Hrb6, Hrb7, HcB, #Hlev, HO⟩, Hk⟩
  sl_exec_parts (disch := decide)
  rw [wp_ret]; imodintro
  iapply Hk
  ihave Hp := (Entails.of_eq ((bar_all m (7 : Dev nD)).trans (by rw [barPay_unfold_1, barPay_unfold_2, barPay_unfold_3, barPay_unfold_4, barPay_unfold_5, barPay_unfold_6, barPay_unfold_7]))) $$ HatB_pay1
  icases Hp with ⟨H1, H2, H3, H4, H5, H6, H7⟩
  isplitl [HatB]; · iexact HatB
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact HO

end Cert.KernelIdeal.A2A

end
-- ==== Proof.Part1All.lean ====
/-
  The entry handshake on any device: the eight devices' cases, each proved with the device's number and its seven partners
  written out, joined by cases on the device. The word the part returns is the device's position on the mesh axis, which on
  device k is the word k.
-/
import proofs.«900796_g7700000000000797_dist_gemm_a2a_m4096_k4096_n2048_f32_gelu_v7x_i8_1_alg».proof.Proof.Part1_0
import proofs.«900796_g7700000000000797_dist_gemm_a2a_m4096_k4096_n2048_f32_gelu_v7x_i8_1_alg».proof.Proof.Part1_1
import proofs.«900796_g7700000000000797_dist_gemm_a2a_m4096_k4096_n2048_f32_gelu_v7x_i8_1_alg».proof.Proof.Part1_2
import proofs.«900796_g7700000000000797_dist_gemm_a2a_m4096_k4096_n2048_f32_gelu_v7x_i8_1_alg».proof.Proof.Part1_3
import proofs.«900796_g7700000000000797_dist_gemm_a2a_m4096_k4096_n2048_f32_gelu_v7x_i8_1_alg».proof.Proof.Part1_4
import proofs.«900796_g7700000000000797_dist_gemm_a2a_m4096_k4096_n2048_f32_gelu_v7x_i8_1_alg».proof.Proof.Part1_5
import proofs.«900796_g7700000000000797_dist_gemm_a2a_m4096_k4096_n2048_f32_gelu_v7x_i8_1_alg».proof.Proof.Part1_6
import proofs.«900796_g7700000000000797_dist_gemm_a2a_m4096_k4096_n2048_f32_gelu_v7x_i8_1_alg».proof.Proof.Part1_7

noncomputable section

namespace Cert.KernelIdeal.A2A

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The position word of each device -/

theorem v2c_0 : v2c (0 : Dev nD) = 0#32 := by decide
theorem v2c_1 : v2c (1 : Dev nD) = 1#32 := by decide
theorem v2c_2 : v2c (2 : Dev nD) = 2#32 := by decide
theorem v2c_3 : v2c (3 : Dev nD) = 3#32 := by decide
theorem v2c_4 : v2c (4 : Dev nD) = 4#32 := by decide
theorem v2c_5 : v2c (5 : Dev nD) = 5#32 := by decide
theorem v2c_6 : v2c (6 : Dev nD) = 6#32 := by decide
theorem v2c_7 : v2c (7 : Dev nD) = 7#32 := by decide

/-! ## The handshake at a device whose position word is known -/

/-- A proof of the handshake stated with the position word written out is one stated with the word as the program computes it. -/
theorem part1_at (K : GSem nD τ sig → ℕ) (W : Waits sig Unit) (Kt : (Σ' (d0 : Dev nD), BitVec 32) → sProp 𝕄)
    (e : Prog (TpuEff nD τ sig (Elt F) Λ₀ .tc) (Σ' (d0 : Dev nD), BitVec 32)) (k : Dev nD) (w : BitVec 32) (hw : v2c k = w)
    (H : iprop(part1Pre m K k W ∗ (part1Post k -∗ Kt ⟨k, w⟩)) ⊢ wp frame (wpE (defs₀ (F := F)) 𝒱₀ (k : Thread nD τ) none) Set.univ e Kt) :
    iprop(part1Pre m K k W ∗ (part1Post k -∗ Kt ⟨k, v2c k⟩)) ⊢ wp frame (wpE (defs₀ (F := F)) 𝒱₀ (k : Thread nD τ) none) Set.univ e Kt := by
  rw [hw]; exact H

/-! ## The handshake on any device -/

theorem part1_run (K : GSem nD τ sig → ℕ) (c : Dev nD) (W : Waits sig Unit) (Kt : (Σ' (d0 : Dev nD), BitVec 32) → sProp 𝕄) :
    iprop(part1Pre m K c W ∗ (part1Post c -∗ Kt ⟨c, v2c c⟩))
      ⊢ wp frame (wpE (defs₀ (F := F)) 𝒱₀ (c : Thread nD τ) none) Set.univ
          (k0_part1 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  fin_cases c
  · exact part1_at m K W Kt _ (0 : Dev nD) 0#32 v2c_0 (part1_0 m K W Kt)
  · exact part1_at m K W Kt _ (1 : Dev nD) 1#32 v2c_1 (part1_1 m K W Kt)
  · exact part1_at m K W Kt _ (2 : Dev nD) 2#32 v2c_2 (part1_2 m K W Kt)
  · exact part1_at m K W Kt _ (3 : Dev nD) 3#32 v2c_3 (part1_3 m K W Kt)
  · exact part1_at m K W Kt _ (4 : Dev nD) 4#32 v2c_4 (part1_4 m K W Kt)
  · exact part1_at m K W Kt _ (5 : Dev nD) 5#32 v2c_5 (part1_5 m K W Kt)
  · exact part1_at m K W Kt _ (6 : Dev nD) 6#32 v2c_6 (part1_6 m K W Kt)
  · exact part1_at m K W Kt _ (7 : Dev nD) 7#32 v2c_7 (part1_7 m K W Kt)

end Cert.KernelIdeal.A2A

end
-- ==== Proof.LevelsGen.lean ====
/-
  The waits on a device's own local copies, whatever part of its receive debts is still unpaid.

  A device pays its seven receive debts one remote copy at a time, so at a local wait it may hold any of eight debts:
  the seven receive debts, or what is left of them after the copies at masks 6, 2, 5, 7, 1, 3, 4 in that order. Each is
  a sum of debts to receive cells of partners, at level 2, and a local copy's semaphore sits at level 0.
-/
import proofs.«900796_g7700000000000797_dist_gemm_a2a_m4096_k4096_n2048_f32_gelu_v7x_i8_1_alg».proof.Proof.Levels

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Where a sum of receive debts is positive -/

omit [FloatOps F] in
/-- One receive debt is positive only at its own cell. -/
theorem supp_tally (c : Dev nD) (t : Fin 8) (ht : t ≠ 0) (k : ℕ) (g : GSem nD τ sig) (u : Unit)
    (h : 0 < tallyAt (recvCell (px c t) t) () k g u) : ∃ t : Fin 8, t ≠ 0 ∧ g = recvCell (px c t) t := by
  rw [tallyAt_apply] at h
  by_cases hg : g = recvCell (px c t) t ∧ u = ()
  · exact ⟨t, ht, hg.1⟩
  · rw [if_neg hg] at h; exact absurd h (Nat.lt_irrefl 0)

omit [FloatOps F] in
/-- A sum is positive only where a summand is. -/
theorem supp_add {A B : CellTallies nD τ sig Unit} {P : GSem nD τ sig → Prop}
    (hA : ∀ g u, 0 < A g u → P g) (hB : ∀ g u, 0 < B g u → P g) (g : GSem nD τ sig) (u : Unit) (h : 0 < (A + B) g u) : P g := by
  rw [Pi.add_apply, Finsupp.add_apply] at h
  rcases Nat.add_pos_iff_pos_or_pos.mp h with h1 | h2
  · exact hA g u h1
  · exact hB g u h2

/-! ## The wait, for any debt to partners' receive cells -/

omit [FloatOps F] in
theorem mayWait_local_gen (c : Dev nD) (q : DmaSem sig) (hq : recvT (SemLoc.dma q : SemLoc sig) = none) (O : CellTallies nD τ sig Unit)
    (hO : ∀ g u, 0 < O g u → ∃ t : Fin 8, t ≠ 0 ∧ g = recvCell (px c t) t) :
    (levAts L lv : sProp 𝕄) ⊢ MayWait (c : Thread nD τ) (.dma q) () O :=
  MayOwe.of_cut (L := L) (lev := lv) 0
    (fun p hp => by rw [Finset.mem_singleton.mp hp, L_tc]; exact Finset.mem_singleton_self _)
    (fun g u hg => by
      cases u
      obtain ⟨t, ht, rfl⟩ := hO g () hg
      rw [L_tc]; exact Finset.mem_singleton_self _)
    (fun p hp => by
      rw [Finset.mem_singleton.mp hp]
      show lv ((c : Thread nD τ), SemLoc.dma q) () ≤ 0
      rw [lv_other c q hq])
    (fun g u hg => by
      cases u
      obtain ⟨t, ht, rfl⟩ := hO g () hg
      rw [lv_recv _ _ ht]; decide)

/-! ## The eight debts a device holds at a local wait -/

omit [FloatOps F] in
theorem mw_0 (c : Dev nD) (q : DmaSem sig) (hq : recvT (SemLoc.dma q : SemLoc sig) = none) :
    (levAts L lv : sProp 𝕄) ⊢ MayWait (c : Thread nD τ) (.dma q) () (tallyAt (recvCell (px c 1) 1) () NS + tallyAt (recvCell (px c 2) 2) () NS + tallyAt (recvCell (px c 3) 3) () NS + tallyAt (recvCell (px c 4) 4) () NS + tallyAt (recvCell (px c 5) 5) () NS + tallyAt (recvCell (px c 6) 6) () NS + tallyAt (recvCell (px c 7) 7) () NS) :=
  mayWait_local_gen c q hq _ (supp_add (supp_add (supp_add (supp_add (supp_add (supp_add (supp_tally c 1 (by decide) NS) (supp_tally c 2 (by decide) NS)) (supp_tally c 3 (by decide) NS)) (supp_tally c 4 (by decide) NS)) (supp_tally c 5 (by decide) NS)) (supp_tally c 6 (by decide) NS)) (supp_tally c 7 (by decide) NS))

omit [FloatOps F] in
theorem mw_1 (c : Dev nD) (q : DmaSem sig) (hq : recvT (SemLoc.dma q : SemLoc sig) = none) :
    (levAts L lv : sProp 𝕄) ⊢ MayWait (c : Thread nD τ) (.dma q) () (tallyAt (recvCell (px c 1) 1) () NS + tallyAt (recvCell (px c 2) 2) () NS + tallyAt (recvCell (px c 3) 3) () NS + tallyAt (recvCell (px c 4) 4) () NS + tallyAt (recvCell (px c 5) 5) () NS + tallyAt (recvCell (px c 7) 7) () NS) :=
  mayWait_local_gen c q hq _ (supp_add (supp_add (supp_add (supp_add (supp_add (supp_tally c 1 (by decide) NS) (supp_tally c 2 (by decide) NS)) (supp_tally c 3 (by decide) NS)) (supp_tally c 4 (by decide) NS)) (supp_tally c 5 (by decide) NS)) (supp_tally c 7 (by decide) NS))

omit [FloatOps F] in
theorem mw_2 (c : Dev nD) (q : DmaSem sig) (hq : recvT (SemLoc.dma q : SemLoc sig) = none) :
    (levAts L lv : sProp 𝕄) ⊢ MayWait (c : Thread nD τ) (.dma q) () (tallyAt (recvCell (px c 1) 1) () NS + tallyAt (recvCell (px c 3) 3) () NS + tallyAt (recvCell (px c 4) 4) () NS + tallyAt (recvCell (px c 5) 5) () NS + tallyAt (recvCell (px c 7) 7) () NS) :=
  mayWait_local_gen c q hq _ (supp_add (supp_add (supp_add (supp_add (supp_tally c 1 (by decide) NS) (supp_tally c 3 (by decide) NS)) (supp_tally c 4 (by decide) NS)) (supp_tally c 5 (by decide) NS)) (supp_tally c 7 (by decide) NS))

omit [FloatOps F] in
theorem mw_3 (c : Dev nD) (q : DmaSem sig) (hq : recvT (SemLoc.dma q : SemLoc sig) = none) :
    (levAts L lv : sProp 𝕄) ⊢ MayWait (c : Thread nD τ) (.dma q) () (tallyAt (recvCell (px c 1) 1) () NS + tallyAt (recvCell (px c 3) 3) () NS + tallyAt (recvCell (px c 4) 4) () NS + tallyAt (recvCell (px c 7) 7) () NS) :=
  mayWait_local_gen c q hq _ (supp_add (supp_add (supp_add (supp_tally c 1 (by decide) NS) (supp_tally c 3 (by decide) NS)) (supp_tally c 4 (by decide) NS)) (supp_tally c 7 (by decide) NS))

omit [FloatOps F] in
theorem mw_4 (c : Dev nD) (q : DmaSem sig) (hq : recvT (SemLoc.dma q : SemLoc sig) = none) :
    (levAts L lv : sProp 𝕄) ⊢ MayWait (c : Thread nD τ) (.dma q) () (tallyAt (recvCell (px c 1) 1) () NS + tallyAt (recvCell (px c 3) 3) () NS + tallyAt (recvCell (px c 4) 4) () NS) :=
  mayWait_local_gen c q hq _ (supp_add (supp_add (supp_tally c 1 (by decide) NS) (supp_tally c 3 (by decide) NS)) (supp_tally c 4 (by decide) NS))

omit [FloatOps F] in
theorem mw_5 (c : Dev nD) (q : DmaSem sig) (hq : recvT (SemLoc.dma q : SemLoc sig) = none) :
    (levAts L lv : sProp 𝕄) ⊢ MayWait (c : Thread nD τ) (.dma q) () (tallyAt (recvCell (px c 3) 3) () NS + tallyAt (recvCell (px c 4) 4) () NS) :=
  mayWait_local_gen c q hq _ (supp_add (supp_tally c 3 (by decide) NS) (supp_tally c 4 (by decide) NS))

omit [FloatOps F] in
theorem mw_6 (c : Dev nD) (q : DmaSem sig) (hq : recvT (SemLoc.dma q : SemLoc sig) = none) :
    (levAts L lv : sProp 𝕄) ⊢ MayWait (c : Thread nD τ) (.dma q) () (tallyAt (recvCell (px c 4) 4) () NS) :=
  mayWait_local_gen c q hq _ (supp_tally c 4 (by decide) NS)

omit [FloatOps F] in
theorem mw_7 (c : Dev nD) (q : DmaSem sig) (hq : recvT (SemLoc.dma q : SemLoc sig) = none) :
    (levAts L lv : sProp 𝕄) ⊢ MayWait (c : Thread nD τ) (.dma q) () (0) :=
  mayWait_zero' c (.dma q)

/-- info: 'Cert.KernelIdeal.A2A.mw_0' depends on axioms: [propext, Classical.choice, Quot.sound] -/
#guard_msgs in #print axioms mw_0

end Cert.KernelIdeal.A2A

end
-- ==== Proof.SendRule.lean ====
/-
  The remote copy of one slot. Device c copies slot t of its send buffer into slot t of the receive buffer of the device
  at mask t from it. The copy pays two duties: the one duty of c's own send cell t, with the source slot handed back as it
  stands, and the one duty of the partner's receive cell t, with the destination slot at what the copy wrote. What it wrote
  is what the partner expects: at an element (t, r, n) of the slot the source holds the tile c computed for the partner's
  column block, and the partner's expected contents are the tile computed for it by the device at mask t from the partner,
  which is c again because the pairing at a mask is an involution.
-/
import proofs.«900796_g7700000000000797_dist_gemm_a2a_m4096_k4096_n2048_f32_gelu_v7x_i8_1_alg».proof.Proof.SchedTab
import proofs.«900796_g7700000000000797_dist_gemm_a2a_m4096_k4096_n2048_f32_gelu_v7x_i8_1_alg».proof.Proof.Data
import proofs.«900796_g7700000000000797_dist_gemm_a2a_m4096_k4096_n2048_f32_gelu_v7x_i8_1_alg».proof.Proof.Pieces

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Slot 1 -/

/-- What the copy of slot 1 leaves in the partner's receive buffer is, on the slot, what the partner expects there. -/
theorem landed_1 (c : Dev nD) (fn : Buf (Elt F) ((rM 1).view.loc (px c 1 : Thread nD τ))) :
    ∀ i ∈ (rM 1).view.set, ((rM 1).view.write (Elt F) fn ((sM 1).view.read (Elt F) (sendV m c)) Finset.univ) i = recvV m (px c 1) i := by
  intro i hi
  have h0 : (i 0).val = (1 : Fin 8).val := (mem_bSR 1 i).mp (rM_set_1 ▸ hi)
  obtain ⟨y, rfl⟩ := View.exists_emb_of_mem_set (rM 1).view hi
  rw [View.write_emb_of_mem _ _ (Finset.mem_univ y), View.read_apply]
  show sendV m c ((rM 1).view.emb y) = recvV m (px c 1) ((rM 1).view.emb y)
  have h0' : ((rM 1).view.emb y) 0 = (1 : Fin 8) := Fin.ext h0
  unfold sendV recvV
  rw [h0', px_px]

/-- The library's rule for an addressed copy, at the cells of slot 1, the copy addressed to `n = px c 1`. -/
theorem wp_send_slot_1 (K : GSem nD τ sig → ℕ) (c n : Dev nD) (hn : n = px c 1)
    {hsc : (rM 1 : Memref sig (Dev.tc n : Thread nD τ).2.kind .vmem S512x256 .bf16).view.ref.isScScratch = false}
    {hsrc : (sM 1).view.WordExact} {hdst : (rM 1).view.WordExact}
    {hsem : DmaTarget.Typed .vmem (.dma (recvSA 1).sem) (.remote (Dev.tc n : Thread nD τ) (rM 1) (.dma (sendSA 1).sem) hsc)}
    {α : Type} {Q : α → sProp 𝕄} {k : PUnit → Prog (TpuEff nD τ sig (Elt F) Λ₀ .tc) α}
    (fn : Buf (Elt F) ((rM 1).view.loc (px c 1 : Thread nD τ))) (O Otot : CellTallies nD τ sig Unit)
    (hO : Otot = O + tallyAt (recvCell (px c 1) 1) () NS) (W : Waits sig Unit) :
    iprop(cellInv ER (sched m) (K (sendCell c 1)) (sendCell c 1) ∗ cellInv ER (sched m) (K (recvCell (px c 1) 1)) (recvCell (px c 1) 1)
        ∗ ((sM 1).view.loc (c : Thread nD τ) ↦[(sM 1).view.set]{fullShare} sendV m c) ∗ ((rM 1).view.loc (px c 1 : Thread nD τ) ↦[(rM 1).view.set]{fullShare} fn)
        ∗ owes (c : Thread nD τ) Otot W
        ∗ dutyTok ER (sendCell c 1) 0 0 ∗ reached ER (sendCell c 1) 0 ∗ dutyTok ER (recvCell (px c 1) 1) 0 0 ∗ reached ER (recvCell (px c 1) 1) 0)
      ⊢ iprop(((cred (tallyAt (sendCell c 1) () NS) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sM 1) (.remote (Dev.tc n : Thread nD τ) (rM 1) (.dma (sendSA 1).sem) hsc) (.dma (recvSA 1).sem) hsrc hdst hsem) k) Q) := by
  subst hn
  exact Rounds.wp_send_pointsTo 𝒱₀ ER (sched m) (c : Thread nD τ) none (c' := (px c 1 : Thread nD τ)) (src := sM 1) (dst := rM 1)
    (q := fullShare) (fs := sendV m c) (fd := fn) (κ₁ := K (sendCell c 1)) (κ₂ := K (recvCell (px c 1) 1))
    (r₁ := 0) (r₂ := 0) (d₁ := 0) (d₂ := 0)
    (by rw [duties_send_1]; exact Finset.mem_singleton_self _) (by rw [duties_recv_1]; exact Finset.mem_singleton_self _)
    () () NS rfl (amount_send m c 1 0) (amount_recv m (px c 1) 1 0) O hO (W := W)
    (by rw [payload_send_1, sendPay_1])
    (by rw [payload_recv_1, recvPay_1]; exact BIBase.Entails.of_eq (pt_congr (landed_1 m c fn)))

/-! ## Slot 2 -/

/-- What the copy of slot 2 leaves in the partner's receive buffer is, on the slot, what the partner expects there. -/
theorem landed_2 (c : Dev nD) (fn : Buf (Elt F) ((rM 2).view.loc (px c 2 : Thread nD τ))) :
    ∀ i ∈ (rM 2).view.set, ((rM 2).view.write (Elt F) fn ((sM 2).view.read (Elt F) (sendV m c)) Finset.univ) i = recvV m (px c 2) i := by
  intro i hi
  have h0 : (i 0).val = (2 : Fin 8).val := (mem_bSR 2 i).mp (rM_set_2 ▸ hi)
  obtain ⟨y, rfl⟩ := View.exists_emb_of_mem_set (rM 2).view hi
  rw [View.write_emb_of_mem _ _ (Finset.mem_univ y), View.read_apply]
  show sendV m c ((rM 2).view.emb y) = recvV m (px c 2) ((rM 2).view.emb y)
  have h0' : ((rM 2).view.emb y) 0 = (2 : Fin 8) := Fin.ext h0
  unfold sendV recvV
  rw [h0', px_px]

/-- The library's rule for an addressed copy, at the cells of slot 2, the copy addressed to `n = px c 2`. -/
theorem wp_send_slot_2 (K : GSem nD τ sig → ℕ) (c n : Dev nD) (hn : n = px c 2)
    {hsc : (rM 2 : Memref sig (Dev.tc n : Thread nD τ).2.kind .vmem S512x256 .bf16).view.ref.isScScratch = false}
    {hsrc : (sM 2).view.WordExact} {hdst : (rM 2).view.WordExact}
    {hsem : DmaTarget.Typed .vmem (.dma (recvSA 2).sem) (.remote (Dev.tc n : Thread nD τ) (rM 2) (.dma (sendSA 2).sem) hsc)}
    {α : Type} {Q : α → sProp 𝕄} {k : PUnit → Prog (TpuEff nD τ sig (Elt F) Λ₀ .tc) α}
    (fn : Buf (Elt F) ((rM 2).view.loc (px c 2 : Thread nD τ))) (O Otot : CellTallies nD τ sig Unit)
    (hO : Otot = O + tallyAt (recvCell (px c 2) 2) () NS) (W : Waits sig Unit) :
    iprop(cellInv ER (sched m) (K (sendCell c 2)) (sendCell c 2) ∗ cellInv ER (sched m) (K (recvCell (px c 2) 2)) (recvCell (px c 2) 2)
        ∗ ((sM 2).view.loc (c : Thread nD τ) ↦[(sM 2).view.set]{fullShare} sendV m c) ∗ ((rM 2).view.loc (px c 2 : Thread nD τ) ↦[(rM 2).view.set]{fullShare} fn)
        ∗ owes (c : Thread nD τ) Otot W
        ∗ dutyTok ER (sendCell c 2) 0 0 ∗ reached ER (sendCell c 2) 0 ∗ dutyTok ER (recvCell (px c 2) 2) 0 0 ∗ reached ER (recvCell (px c 2) 2) 0)
      ⊢ iprop(((cred (tallyAt (sendCell c 2) () NS) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sM 2) (.remote (Dev.tc n : Thread nD τ) (rM 2) (.dma (sendSA 2).sem) hsc) (.dma (recvSA 2).sem) hsrc hdst hsem) k) Q) := by
  subst hn
  exact Rounds.wp_send_pointsTo 𝒱₀ ER (sched m) (c : Thread nD τ) none (c' := (px c 2 : Thread nD τ)) (src := sM 2) (dst := rM 2)
    (q := fullShare) (fs := sendV m c) (fd := fn) (κ₁ := K (sendCell c 2)) (κ₂ := K (recvCell (px c 2) 2))
    (r₁ := 0) (r₂ := 0) (d₁ := 0) (d₂ := 0)
    (by rw [duties_send_2]; exact Finset.mem_singleton_self _) (by rw [duties_recv_2]; exact Finset.mem_singleton_self _)
    () () NS rfl (amount_send m c 2 0) (amount_recv m (px c 2) 2 0) O hO (W := W)
    (by rw [payload_send_2, sendPay_2])
    (by rw [payload_recv_2, recvPay_2]; exact BIBase.Entails.of_eq (pt_congr (landed_2 m c fn)))

/-! ## Slot 3 -/

/-- What the copy of slot 3 leaves in the partner's receive buffer is, on the slot, what the partner expects there. -/
theorem landed_3 (c : Dev nD) (fn : Buf (Elt F) ((rM 3).view.loc (px c 3 : Thread nD τ))) :
    ∀ i ∈ (rM 3).view.set, ((rM 3).view.write (Elt F) fn ((sM 3).view.read (Elt F) (sendV m c)) Finset.univ) i = recvV m (px c 3) i := by
  intro i hi
  have h0 : (i 0).val = (3 : Fin 8).val := (mem_bSR 3 i).mp (rM_set_3 ▸ hi)
  obtain ⟨y, rfl⟩ := View.exists_emb_of_mem_set (rM 3).view hi
  rw [View.write_emb_of_mem _ _ (Finset.mem_univ y), View.read_apply]
  show sendV m c ((rM 3).view.emb y) = recvV m (px c 3) ((rM 3).view.emb y)
  have h0' : ((rM 3).view.emb y) 0 = (3 : Fin 8) := Fin.ext h0
  unfold sendV recvV
  rw [h0', px_px]

/-- The library's rule for an addressed copy, at the cells of slot 3, the copy addressed to `n = px c 3`. -/
theorem wp_send_slot_3 (K : GSem nD τ sig → ℕ) (c n : Dev nD) (hn : n = px c 3)
    {hsc : (rM 3 : Memref sig (Dev.tc n : Thread nD τ).2.kind .vmem S512x256 .bf16).view.ref.isScScratch = false}
    {hsrc : (sM 3).view.WordExact} {hdst : (rM 3).view.WordExact}
    {hsem : DmaTarget.Typed .vmem (.dma (recvSA 3).sem) (.remote (Dev.tc n : Thread nD τ) (rM 3) (.dma (sendSA 3).sem) hsc)}
    {α : Type} {Q : α → sProp 𝕄} {k : PUnit → Prog (TpuEff nD τ sig (Elt F) Λ₀ .tc) α}
    (fn : Buf (Elt F) ((rM 3).view.loc (px c 3 : Thread nD τ))) (O Otot : CellTallies nD τ sig Unit)
    (hO : Otot = O + tallyAt (recvCell (px c 3) 3) () NS) (W : Waits sig Unit) :
    iprop(cellInv ER (sched m) (K (sendCell c 3)) (sendCell c 3) ∗ cellInv ER (sched m) (K (recvCell (px c 3) 3)) (recvCell (px c 3) 3)
        ∗ ((sM 3).view.loc (c : Thread nD τ) ↦[(sM 3).view.set]{fullShare} sendV m c) ∗ ((rM 3).view.loc (px c 3 : Thread nD τ) ↦[(rM 3).view.set]{fullShare} fn)
        ∗ owes (c : Thread nD τ) Otot W
        ∗ dutyTok ER (sendCell c 3) 0 0 ∗ reached ER (sendCell c 3) 0 ∗ dutyTok ER (recvCell (px c 3) 3) 0 0 ∗ reached ER (recvCell (px c 3) 3) 0)
      ⊢ iprop(((cred (tallyAt (sendCell c 3) () NS) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sM 3) (.remote (Dev.tc n : Thread nD τ) (rM 3) (.dma (sendSA 3).sem) hsc) (.dma (recvSA 3).sem) hsrc hdst hsem) k) Q) := by
  subst hn
  exact Rounds.wp_send_pointsTo 𝒱₀ ER (sched m) (c : Thread nD τ) none (c' := (px c 3 : Thread nD τ)) (src := sM 3) (dst := rM 3)
    (q := fullShare) (fs := sendV m c) (fd := fn) (κ₁ := K (sendCell c 3)) (κ₂ := K (recvCell (px c 3) 3))
    (r₁ := 0) (r₂ := 0) (d₁ := 0) (d₂ := 0)
    (by rw [duties_send_3]; exact Finset.mem_singleton_self _) (by rw [duties_recv_3]; exact Finset.mem_singleton_self _)
    () () NS rfl (amount_send m c 3 0) (amount_recv m (px c 3) 3 0) O hO (W := W)
    (by rw [payload_send_3, sendPay_3])
    (by rw [payload_recv_3, recvPay_3]; exact BIBase.Entails.of_eq (pt_congr (landed_3 m c fn)))

/-! ## Slot 4 -/

/-- What the copy of slot 4 leaves in the partner's receive buffer is, on the slot, what the partner expects there. -/
theorem landed_4 (c : Dev nD) (fn : Buf (Elt F) ((rM 4).view.loc (px c 4 : Thread nD τ))) :
    ∀ i ∈ (rM 4).view.set, ((rM 4).view.write (Elt F) fn ((sM 4).view.read (Elt F) (sendV m c)) Finset.univ) i = recvV m (px c 4) i := by
  intro i hi
  have h0 : (i 0).val = (4 : Fin 8).val := (mem_bSR 4 i).mp (rM_set_4 ▸ hi)
  obtain ⟨y, rfl⟩ := View.exists_emb_of_mem_set (rM 4).view hi
  rw [View.write_emb_of_mem _ _ (Finset.mem_univ y), View.read_apply]
  show sendV m c ((rM 4).view.emb y) = recvV m (px c 4) ((rM 4).view.emb y)
  have h0' : ((rM 4).view.emb y) 0 = (4 : Fin 8) := Fin.ext h0
  unfold sendV recvV
  rw [h0', px_px]

/-- The library's rule for an addressed copy, at the cells of slot 4, the copy addressed to `n = px c 4`. -/
theorem wp_send_slot_4 (K : GSem nD τ sig → ℕ) (c n : Dev nD) (hn : n = px c 4)
    {hsc : (rM 4 : Memref sig (Dev.tc n : Thread nD τ).2.kind .vmem S512x256 .bf16).view.ref.isScScratch = false}
    {hsrc : (sM 4).view.WordExact} {hdst : (rM 4).view.WordExact}
    {hsem : DmaTarget.Typed .vmem (.dma (recvSA 4).sem) (.remote (Dev.tc n : Thread nD τ) (rM 4) (.dma (sendSA 4).sem) hsc)}
    {α : Type} {Q : α → sProp 𝕄} {k : PUnit → Prog (TpuEff nD τ sig (Elt F) Λ₀ .tc) α}
    (fn : Buf (Elt F) ((rM 4).view.loc (px c 4 : Thread nD τ))) (O Otot : CellTallies nD τ sig Unit)
    (hO : Otot = O + tallyAt (recvCell (px c 4) 4) () NS) (W : Waits sig Unit) :
    iprop(cellInv ER (sched m) (K (sendCell c 4)) (sendCell c 4) ∗ cellInv ER (sched m) (K (recvCell (px c 4) 4)) (recvCell (px c 4) 4)
        ∗ ((sM 4).view.loc (c : Thread nD τ) ↦[(sM 4).view.set]{fullShare} sendV m c) ∗ ((rM 4).view.loc (px c 4 : Thread nD τ) ↦[(rM 4).view.set]{fullShare} fn)
        ∗ owes (c : Thread nD τ) Otot W
        ∗ dutyTok ER (sendCell c 4) 0 0 ∗ reached ER (sendCell c 4) 0 ∗ dutyTok ER (recvCell (px c 4) 4) 0 0 ∗ reached ER (recvCell (px c 4) 4) 0)
      ⊢ iprop(((cred (tallyAt (sendCell c 4) () NS) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sM 4) (.remote (Dev.tc n : Thread nD τ) (rM 4) (.dma (sendSA 4).sem) hsc) (.dma (recvSA 4).sem) hsrc hdst hsem) k) Q) := by
  subst hn
  exact Rounds.wp_send_pointsTo 𝒱₀ ER (sched m) (c : Thread nD τ) none (c' := (px c 4 : Thread nD τ)) (src := sM 4) (dst := rM 4)
    (q := fullShare) (fs := sendV m c) (fd := fn) (κ₁ := K (sendCell c 4)) (κ₂ := K (recvCell (px c 4) 4))
    (r₁ := 0) (r₂ := 0) (d₁ := 0) (d₂ := 0)
    (by rw [duties_send_4]; exact Finset.mem_singleton_self _) (by rw [duties_recv_4]; exact Finset.mem_singleton_self _)
    () () NS rfl (amount_send m c 4 0) (amount_recv m (px c 4) 4 0) O hO (W := W)
    (by rw [payload_send_4, sendPay_4])
    (by rw [payload_recv_4, recvPay_4]; exact BIBase.Entails.of_eq (pt_congr (landed_4 m c fn)))

/-! ## Slot 5 -/

/-- What the copy of slot 5 leaves in the partner's receive buffer is, on the slot, what the partner expects there. -/
theorem landed_5 (c : Dev nD) (fn : Buf (Elt F) ((rM 5).view.loc (px c 5 : Thread nD τ))) :
    ∀ i ∈ (rM 5).view.set, ((rM 5).view.write (Elt F) fn ((sM 5).view.read (Elt F) (sendV m c)) Finset.univ) i = recvV m (px c 5) i := by
  intro i hi
  have h0 : (i 0).val = (5 : Fin 8).val := (mem_bSR 5 i).mp (rM_set_5 ▸ hi)
  obtain ⟨y, rfl⟩ := View.exists_emb_of_mem_set (rM 5).view hi
  rw [View.write_emb_of_mem _ _ (Finset.mem_univ y), View.read_apply]
  show sendV m c ((rM 5).view.emb y) = recvV m (px c 5) ((rM 5).view.emb y)
  have h0' : ((rM 5).view.emb y) 0 = (5 : Fin 8) := Fin.ext h0
  unfold sendV recvV
  rw [h0', px_px]

/-- The library's rule for an addressed copy, at the cells of slot 5, the copy addressed to `n = px c 5`. -/
theorem wp_send_slot_5 (K : GSem nD τ sig → ℕ) (c n : Dev nD) (hn : n = px c 5)
    {hsc : (rM 5 : Memref sig (Dev.tc n : Thread nD τ).2.kind .vmem S512x256 .bf16).view.ref.isScScratch = false}
    {hsrc : (sM 5).view.WordExact} {hdst : (rM 5).view.WordExact}
    {hsem : DmaTarget.Typed .vmem (.dma (recvSA 5).sem) (.remote (Dev.tc n : Thread nD τ) (rM 5) (.dma (sendSA 5).sem) hsc)}
    {α : Type} {Q : α → sProp 𝕄} {k : PUnit → Prog (TpuEff nD τ sig (Elt F) Λ₀ .tc) α}
    (fn : Buf (Elt F) ((rM 5).view.loc (px c 5 : Thread nD τ))) (O Otot : CellTallies nD τ sig Unit)
    (hO : Otot = O + tallyAt (recvCell (px c 5) 5) () NS) (W : Waits sig Unit) :
    iprop(cellInv ER (sched m) (K (sendCell c 5)) (sendCell c 5) ∗ cellInv ER (sched m) (K (recvCell (px c 5) 5)) (recvCell (px c 5) 5)
        ∗ ((sM 5).view.loc (c : Thread nD τ) ↦[(sM 5).view.set]{fullShare} sendV m c) ∗ ((rM 5).view.loc (px c 5 : Thread nD τ) ↦[(rM 5).view.set]{fullShare} fn)
        ∗ owes (c : Thread nD τ) Otot W
        ∗ dutyTok ER (sendCell c 5) 0 0 ∗ reached ER (sendCell c 5) 0 ∗ dutyTok ER (recvCell (px c 5) 5) 0 0 ∗ reached ER (recvCell (px c 5) 5) 0)
      ⊢ iprop(((cred (tallyAt (sendCell c 5) () NS) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sM 5) (.remote (Dev.tc n : Thread nD τ) (rM 5) (.dma (sendSA 5).sem) hsc) (.dma (recvSA 5).sem) hsrc hdst hsem) k) Q) := by
  subst hn
  exact Rounds.wp_send_pointsTo 𝒱₀ ER (sched m) (c : Thread nD τ) none (c' := (px c 5 : Thread nD τ)) (src := sM 5) (dst := rM 5)
    (q := fullShare) (fs := sendV m c) (fd := fn) (κ₁ := K (sendCell c 5)) (κ₂ := K (recvCell (px c 5) 5))
    (r₁ := 0) (r₂ := 0) (d₁ := 0) (d₂ := 0)
    (by rw [duties_send_5]; exact Finset.mem_singleton_self _) (by rw [duties_recv_5]; exact Finset.mem_singleton_self _)
    () () NS rfl (amount_send m c 5 0) (amount_recv m (px c 5) 5 0) O hO (W := W)
    (by rw [payload_send_5, sendPay_5])
    (by rw [payload_recv_5, recvPay_5]; exact BIBase.Entails.of_eq (pt_congr (landed_5 m c fn)))

/-! ## Slot 6 -/

/-- What the copy of slot 6 leaves in the partner's receive buffer is, on the slot, what the partner expects there. -/
theorem landed_6 (c : Dev nD) (fn : Buf (Elt F) ((rM 6).view.loc (px c 6 : Thread nD τ))) :
    ∀ i ∈ (rM 6).view.set, ((rM 6).view.write (Elt F) fn ((sM 6).view.read (Elt F) (sendV m c)) Finset.univ) i = recvV m (px c 6) i := by
  intro i hi
  have h0 : (i 0).val = (6 : Fin 8).val := (mem_bSR 6 i).mp (rM_set_6 ▸ hi)
  obtain ⟨y, rfl⟩ := View.exists_emb_of_mem_set (rM 6).view hi
  rw [View.write_emb_of_mem _ _ (Finset.mem_univ y), View.read_apply]
  show sendV m c ((rM 6).view.emb y) = recvV m (px c 6) ((rM 6).view.emb y)
  have h0' : ((rM 6).view.emb y) 0 = (6 : Fin 8) := Fin.ext h0
  unfold sendV recvV
  rw [h0', px_px]

/-- The library's rule for an addressed copy, at the cells of slot 6, the copy addressed to `n = px c 6`. -/
theorem wp_send_slot_6 (K : GSem nD τ sig → ℕ) (c n : Dev nD) (hn : n = px c 6)
    {hsc : (rM 6 : Memref sig (Dev.tc n : Thread nD τ).2.kind .vmem S512x256 .bf16).view.ref.isScScratch = false}
    {hsrc : (sM 6).view.WordExact} {hdst : (rM 6).view.WordExact}
    {hsem : DmaTarget.Typed .vmem (.dma (recvSA 6).sem) (.remote (Dev.tc n : Thread nD τ) (rM 6) (.dma (sendSA 6).sem) hsc)}
    {α : Type} {Q : α → sProp 𝕄} {k : PUnit → Prog (TpuEff nD τ sig (Elt F) Λ₀ .tc) α}
    (fn : Buf (Elt F) ((rM 6).view.loc (px c 6 : Thread nD τ))) (O Otot : CellTallies nD τ sig Unit)
    (hO : Otot = O + tallyAt (recvCell (px c 6) 6) () NS) (W : Waits sig Unit) :
    iprop(cellInv ER (sched m) (K (sendCell c 6)) (sendCell c 6) ∗ cellInv ER (sched m) (K (recvCell (px c 6) 6)) (recvCell (px c 6) 6)
        ∗ ((sM 6).view.loc (c : Thread nD τ) ↦[(sM 6).view.set]{fullShare} sendV m c) ∗ ((rM 6).view.loc (px c 6 : Thread nD τ) ↦[(rM 6).view.set]{fullShare} fn)
        ∗ owes (c : Thread nD τ) Otot W
        ∗ dutyTok ER (sendCell c 6) 0 0 ∗ reached ER (sendCell c 6) 0 ∗ dutyTok ER (recvCell (px c 6) 6) 0 0 ∗ reached ER (recvCell (px c 6) 6) 0)
      ⊢ iprop(((cred (tallyAt (sendCell c 6) () NS) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sM 6) (.remote (Dev.tc n : Thread nD τ) (rM 6) (.dma (sendSA 6).sem) hsc) (.dma (recvSA 6).sem) hsrc hdst hsem) k) Q) := by
  subst hn
  exact Rounds.wp_send_pointsTo 𝒱₀ ER (sched m) (c : Thread nD τ) none (c' := (px c 6 : Thread nD τ)) (src := sM 6) (dst := rM 6)
    (q := fullShare) (fs := sendV m c) (fd := fn) (κ₁ := K (sendCell c 6)) (κ₂ := K (recvCell (px c 6) 6))
    (r₁ := 0) (r₂ := 0) (d₁ := 0) (d₂ := 0)
    (by rw [duties_send_6]; exact Finset.mem_singleton_self _) (by rw [duties_recv_6]; exact Finset.mem_singleton_self _)
    () () NS rfl (amount_send m c 6 0) (amount_recv m (px c 6) 6 0) O hO (W := W)
    (by rw [payload_send_6, sendPay_6])
    (by rw [payload_recv_6, recvPay_6]; exact BIBase.Entails.of_eq (pt_congr (landed_6 m c fn)))

/-! ## Slot 7 -/

/-- What the copy of slot 7 leaves in the partner's receive buffer is, on the slot, what the partner expects there. -/
theorem landed_7 (c : Dev nD) (fn : Buf (Elt F) ((rM 7).view.loc (px c 7 : Thread nD τ))) :
    ∀ i ∈ (rM 7).view.set, ((rM 7).view.write (Elt F) fn ((sM 7).view.read (Elt F) (sendV m c)) Finset.univ) i = recvV m (px c 7) i := by
  intro i hi
  have h0 : (i 0).val = (7 : Fin 8).val := (mem_bSR 7 i).mp (rM_set_7 ▸ hi)
  obtain ⟨y, rfl⟩ := View.exists_emb_of_mem_set (rM 7).view hi
  rw [View.write_emb_of_mem _ _ (Finset.mem_univ y), View.read_apply]
  show sendV m c ((rM 7).view.emb y) = recvV m (px c 7) ((rM 7).view.emb y)
  have h0' : ((rM 7).view.emb y) 0 = (7 : Fin 8) := Fin.ext h0
  unfold sendV recvV
  rw [h0', px_px]

/-- The library's rule for an addressed copy, at the cells of slot 7, the copy addressed to `n = px c 7`. -/
theorem wp_send_slot_7 (K : GSem nD τ sig → ℕ) (c n : Dev nD) (hn : n = px c 7)
    {hsc : (rM 7 : Memref sig (Dev.tc n : Thread nD τ).2.kind .vmem S512x256 .bf16).view.ref.isScScratch = false}
    {hsrc : (sM 7).view.WordExact} {hdst : (rM 7).view.WordExact}
    {hsem : DmaTarget.Typed .vmem (.dma (recvSA 7).sem) (.remote (Dev.tc n : Thread nD τ) (rM 7) (.dma (sendSA 7).sem) hsc)}
    {α : Type} {Q : α → sProp 𝕄} {k : PUnit → Prog (TpuEff nD τ sig (Elt F) Λ₀ .tc) α}
    (fn : Buf (Elt F) ((rM 7).view.loc (px c 7 : Thread nD τ))) (O Otot : CellTallies nD τ sig Unit)
    (hO : Otot = O + tallyAt (recvCell (px c 7) 7) () NS) (W : Waits sig Unit) :
    iprop(cellInv ER (sched m) (K (sendCell c 7)) (sendCell c 7) ∗ cellInv ER (sched m) (K (recvCell (px c 7) 7)) (recvCell (px c 7) 7)
        ∗ ((sM 7).view.loc (c : Thread nD τ) ↦[(sM 7).view.set]{fullShare} sendV m c) ∗ ((rM 7).view.loc (px c 7 : Thread nD τ) ↦[(rM 7).view.set]{fullShare} fn)
        ∗ owes (c : Thread nD τ) Otot W
        ∗ dutyTok ER (sendCell c 7) 0 0 ∗ reached ER (sendCell c 7) 0 ∗ dutyTok ER (recvCell (px c 7) 7) 0 0 ∗ reached ER (recvCell (px c 7) 7) 0)
      ⊢ iprop(((cred (tallyAt (sendCell c 7) () NS) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sM 7) (.remote (Dev.tc n : Thread nD τ) (rM 7) (.dma (sendSA 7).sem) hsc) (.dma (recvSA 7).sem) hsrc hdst hsem) k) Q) := by
  subst hn
  exact Rounds.wp_send_pointsTo 𝒱₀ ER (sched m) (c : Thread nD τ) none (c' := (px c 7 : Thread nD τ)) (src := sM 7) (dst := rM 7)
    (q := fullShare) (fs := sendV m c) (fd := fn) (κ₁ := K (sendCell c 7)) (κ₂ := K (recvCell (px c 7) 7))
    (r₁ := 0) (r₂ := 0) (d₁ := 0) (d₂ := 0)
    (by rw [duties_send_7]; exact Finset.mem_singleton_self _) (by rw [duties_recv_7]; exact Finset.mem_singleton_self _)
    () () NS rfl (amount_send m c 7 0) (amount_recv m (px c 7) 7 0) O hO (W := W)
    (by rw [payload_send_7, sendPay_7])
    (by rw [payload_recv_7, recvPay_7]; exact BIBase.Entails.of_eq (pt_congr (landed_7 m c fn)))

/-- info: 'Cert.KernelIdeal.A2A.wp_send_slot_7' depends on axioms: [propext, Classical.choice, Quot.sound] -/
#guard_msgs in #print axioms wp_send_slot_7

end Cert.KernelIdeal.A2A

end
-- ==== Proof.Landed.lean ====
/-
  What a piece of a scratch buffer holds once the copy into it has landed.

  A copy into a piece writes, under each index of the piece, the element of the source window under the same
  index. A quarter of the activation buffer and the quarter of the activation argument it is copied from are
  the same rows of arrays of one shape, so a landed quarter agrees with the argument on its own elements, and
  the four landed quarters joined are the buffer holding the argument. A half-slot of the weight buffer is
  copied from the window of the weight argument at the rows of that half and the 256 columns of the device
  the step's mask pairs with this one; a landed slot holds those columns.
-/
import proofs.«900796_g7700000000000797_dist_gemm_a2a_m4096_k4096_n2048_f32_gelu_v7x_i8_1_alg».proof.Proof.Pieces
import Idealize.ShloMosaic.Lib.Pipeline.Value
import Idealize.ShloMosaic.Lib.Writes
import Idealize.ShloMosaic.Lib.ValueIdx
import Idealize.ShloMosaic.Lib.ValueLayout

noncomputable section

namespace Cert.KernelIdeal.A2A

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What a piece holds once the copy into it has landed -/

/-- One unmasked write through the whole of a view leaves, under each of the view's indices, the payload there. -/
theorem writes_whole_emb {sig' : RefSig} {κ : Kind} {sp : Space} {S : Shape} {e : EltTy} {Val : EltTy → Type}
    (v : View sig' κ sp S e) (f : v.ty.Contents Val) (w : S.Idx → Val e) (y : S.Idx) :
    v.writes Val f [⟨Rect.whole S, w⟩] (v.emb y) = _root_.cast (congrArg Val v.elt_eq.symm) (w y) := by
  have h := View.write_emb_of_mem (v := v.slice (Rect.whole S)) (Val := Val) f w (M := Finset.univ) (x := y) (Finset.mem_univ _)
  have he : (v.slice (Rect.whole S)).emb y = v.emb y := by
    show v.emb ((Rect.whole S).emb y) = v.emb y
    rw [Rect.emb_whole_apply]
  rw [he] at h
  exact h

/-- Row-quarter `j` of the activation argument: the rows the copy into quarter `j` of the buffer reads. -/
abbrev xAQ : Fin 4 → Memref sig .tc .hbm S128x4096 .f32
  | ⟨0, _⟩ => (Memref.whole main_arg0 : Memref sig .tc .hbm S512x4096 .f32).slice (Rect.unit (s := S512x4096) ![0, 0] S128x4096.size inb_S512x4096_S128x4096_0_0) (fun _ => rfl)
  | ⟨1, _⟩ => (Memref.whole main_arg0 : Memref sig .tc .hbm S512x4096 .f32).slice (Rect.unit (s := S512x4096) ![128, 0] S128x4096.size inb_S512x4096_S128x4096_128_0) (fun _ => rfl)
  | ⟨2, _⟩ => (Memref.whole main_arg0 : Memref sig .tc .hbm S512x4096 .f32).slice (Rect.unit (s := S512x4096) ![256, 0] S128x4096.size inb_S512x4096_S128x4096_256_0) (fun _ => rfl)
  | ⟨3, _⟩ => (Memref.whole main_arg0 : Memref sig .tc .hbm S512x4096 .f32).slice (Rect.unit (s := S512x4096) ![384, 0] S128x4096.size inb_S512x4096_S128x4096_384_0) (fun _ => rfl)
  | ⟨_ + 4, h⟩ => absurd h (by omega)

theorem x_landed_0 (c : Dev nD) (fx : Buf (Elt F) (xbM.view.loc (c : Thread nD τ))) (X : Buf (Elt F) (xA.view.loc (c : Thread nD τ))) :
    ∀ i ∈ (xQ 0).view.set, ((xQ 0).view.writes (Elt F) fx [⟨Rect.whole S128x4096, ReadAs.same.apply (View.read (Elt F) (xAQ 0).view X)⟩]) i = X i := by
  intro i hi
  obtain ⟨y, rfl⟩ := View.exists_emb_of_mem_set _ hi
  exact (writes_whole_emb (xQ 0).view fx _ y).trans rfl

theorem x_landed_1 (c : Dev nD) (fx : Buf (Elt F) (xbM.view.loc (c : Thread nD τ))) (X : Buf (Elt F) (xA.view.loc (c : Thread nD τ))) :
    ∀ i ∈ (xQ 1).view.set, ((xQ 1).view.writes (Elt F) fx [⟨Rect.whole S128x4096, ReadAs.same.apply (View.read (Elt F) (xAQ 1).view X)⟩]) i = X i := by
  intro i hi
  obtain ⟨y, rfl⟩ := View.exists_emb_of_mem_set _ hi
  exact (writes_whole_emb (xQ 1).view fx _ y).trans rfl

theorem x_landed_2 (c : Dev nD) (fx : Buf (Elt F) (xbM.view.loc (c : Thread nD τ))) (X : Buf (Elt F) (xA.view.loc (c : Thread nD τ))) :
    ∀ i ∈ (xQ 2).view.set, ((xQ 2).view.writes (Elt F) fx [⟨Rect.whole S128x4096, ReadAs.same.apply (View.read (Elt F) (xAQ 2).view X)⟩]) i = X i := by
  intro i hi
  obtain ⟨y, rfl⟩ := View.exists_emb_of_mem_set _ hi
  exact (writes_whole_emb (xQ 2).view fx _ y).trans rfl

theorem x_landed_3 (c : Dev nD) (fx : Buf (Elt F) (xbM.view.loc (c : Thread nD τ))) (X : Buf (Elt F) (xA.view.loc (c : Thread nD τ))) :
    ∀ i ∈ (xQ 3).view.set, ((xQ 3).view.writes (Elt F) fx [⟨Rect.whole S128x4096, ReadAs.same.apply (View.read (Elt F) (xAQ 3).view X)⟩]) i = X i := by
  intro i hi
  obtain ⟨y, rfl⟩ := View.exists_emb_of_mem_set _ hi
  exact (writes_whole_emb (xQ 3).view fx _ y).trans rfl

/-- The four landed quarters are the activation buffer holding the argument. -/
theorem x_joined (c : Dev nD) (fx : Buf (Elt F) (xbM.view.loc (c : Thread nD τ))) (X : Buf (Elt F) (xA.view.loc (c : Thread nD τ))) :
    (iprop(((xQ 0).view.loc (c : Thread nD τ) ↦[(xQ 0).view.set]{fullShare} ((xQ 0).view.writes (Elt F) fx [⟨Rect.whole S128x4096, ReadAs.same.apply (View.read (Elt F) (xAQ 0).view X)⟩])) ∗
           ((xQ 1).view.loc (c : Thread nD τ) ↦[(xQ 1).view.set]{fullShare} ((xQ 1).view.writes (Elt F) fx [⟨Rect.whole S128x4096, ReadAs.same.apply (View.read (Elt F) (xAQ 1).view X)⟩])) ∗
           ((xQ 2).view.loc (c : Thread nD τ) ↦[(xQ 2).view.set]{fullShare} ((xQ 2).view.writes (Elt F) fx [⟨Rect.whole S128x4096, ReadAs.same.apply (View.read (Elt F) (xAQ 2).view X)⟩])) ∗
           ((xQ 3).view.loc (c : Thread nD τ) ↦[(xQ 3).view.set]{fullShare} ((xQ 3).view.writes (Elt F) fx [⟨Rect.whole S128x4096, ReadAs.same.apply (View.read (Elt F) (xAQ 3).view X)⟩]))) : sProp 𝕄) ⊢
      (xbM.view.loc (c : Thread nD τ) ↦[xbM.view.set]{fullShare} X) :=
  x_join c _ _ _ _ X (x_landed_0 c fx X) (x_landed_1 c fx X) (x_landed_2 c fx X) (x_landed_3 c fx X)

/-- A load of the whole activation buffer reads its contents. -/
theorem x_read (c : Dev nD) (X : Buf (Elt F) (xbM.view.loc (c : Thread nD τ))) :
    xbM.view.readAt (Elt F) (Rect.unit (s := S512x4096) ![0, 0] S512x4096.size inb_S512x4096_S512x4096_0_0).toLoadRect X = X :=
  Memref.readAt_unit_zero (Elt F) cc0_scratch0 (by funext a; fin_cases a <;> rfl) _ X

/-! ## The weight buffer -/

/-- The mask of step `s`: the order in which the kernel visits its peers. -/
def ord : Fin 8 → Fin 8 := ![6, 2, 5, 7, 1, 3, 4, 0]

/-- What the weight buffer holds once its slots have landed: slot `s` holds the 256 columns of the weight that
    belong to the device `c xor ord s`. -/
def wLand (Wt : Vec F S4096x2048 .f32) (c : Dev nD) : Buf (Elt F) (wbM.view.loc (c : Thread nD τ)) :=
  fun (i : S8x4096x256.Idx) =>
    Wt (ix2 (n0 := 4096) (n1 := 2048) (i 1)
      ⟨256 * (px c (ord (i 0))).val + (i 2).val, by
        have h2 : (i 2).val < 256 := (i 2).isLt
        have hp : (px c (ord (i 0))).val < 8 := (px c (ord (i 0))).isLt
        omega⟩)

/-- The landed contents at row `a`, column `b` of half `h` of slot `s`. -/
theorem wLand_apply (Wt : Vec F S4096x2048 .f32) (c : Dev nD) (s : Fin 8) (h : Fin 2) (a : Fin 2048) (b : Fin 256) :
    wLand Wt c ((wHR s h).emb (ix3 (⟨0, Nat.one_pos⟩ : Fin 1) a b)) =
      Wt (ix2 (n0 := 4096) (n1 := 2048) ⟨2048 * h.val + a.val, by have := h.isLt; have := a.isLt; omega⟩
        ⟨256 * (px c (ord s)).val + b.val, by have := b.isLt; have hp : (px c (ord s)).val < 8 := (px c (ord s)).isLt; omega⟩) := by
  have e0 : ord (((wHR s h).emb (ix3 (⟨0, Nat.one_pos⟩ : Fin 1) a b)) 0) = ord s :=
    congrArg ord (Fin.ext (by show s.val + 1 * 0 = s.val; omega))
  show Wt _ = Wt _
  refine congrArg Wt ?_
  funext d
  match d with
  | ⟨0, _⟩ => exact Fin.ext (by show 2048 * h.val + 1 * a.val = 2048 * h.val + a.val; omega)
  | ⟨1, _⟩ => exact Fin.ext (by
      show 256 * (px c (ord (((wHR s h).emb (ix3 (⟨0, Nat.one_pos⟩ : Fin 1) a b)) 0))).val + (0 + 1 * b.val)
        = 256 * (px c (ord s)).val + b.val
      rw [e0]; omega)

/-- Half `h` of slot `s` as a view of the buffer, at a slot and a half that are variables. -/
abbrev wHv (s : Fin 8) (h : Fin 2) : View sig .tc .vmem S2048x256 .f32 :=
  ((View.whole cc0_scratch1 : View sig .tc .vmem S8x4096x256 .f32).slice (wHR s h)).reshape S2048x256
    squeezes_S1x2048x256_S2048x256.numel_eq
/-- The two source windows as views of the weight argument, at a mask that is a variable. -/
abbrev wWv1 (c : Dev nD) (r : Fin 8) : View sig .tc .hbm S2048x256 .f32 :=
  (View.whole main_arg1 : View sig .tc .hbm S4096x2048 .f32).slice (wWR1 c r)
abbrev wWv2 (c : Dev nD) (r : Fin 8) : View sig .tc .hbm S2048x256 .f32 :=
  (View.whole main_arg1 : View sig .tc .hbm S4096x2048 .f32).slice (wWR2 c r)

theorem w_landed_core1 (c : Dev nD) (s : Fin 8) (fw : Buf (Elt F) (wbM.view.loc (c : Thread nD τ))) (Wt : Vec F S4096x2048 .f32) :
    ∀ i ∈ (wHv s 0).set,
      ((wHv s 0).writes (Elt F) fw [⟨Rect.whole S2048x256, ReadAs.same.apply (View.read (Elt F) (wWv1 c (ord s)) Wt)⟩]) i
        = wLand Wt c i := by
  intro i hi
  obtain ⟨y, rfl⟩ := View.exists_emb_of_mem_set _ hi
  obtain ⟨a, b, rfl⟩ : ∃ (a : Fin 2048) (b : Fin 256), y = ix2 a b := ⟨y 0, y 1, eq_ix2 y⟩
  refine (writes_whole_emb (wHv s 0) fw _ (ix2 a b)).trans ?_
  have e1 : (wHv s 0).emb (ix2 a b) = (wHR s 0).emb (ix3 (⟨0, Nat.one_pos⟩ : Fin 1) a b) := by
    show (wHR s 0).emb (Shape.reshapeEquiv _ (ix2 a b)) = _
    rw [reshapeEquiv_ix2_1ab]
  rw [e1, wLand_apply]
  show Wt ((wWR1 c (ord s)).emb (ix2 a b)) = _
  refine congrArg Wt ?_
  have o := off1_eq c (ord s)
  funext d
  match d with
  | ⟨0, _⟩ => exact Fin.ext (by
      show (k0_off1 c (BitVec.ofNat 32 (ord s).val)) 0 + 1 * a.val = 2048 * (0 : Fin 2).val + a.val
      rw [o]; show 0 + 1 * a.val = 2048 * 0 + a.val; omega)
  | ⟨1, _⟩ => exact Fin.ext (by
      show (k0_off1 c (BitVec.ofNat 32 (ord s).val)) 1 + 1 * b.val = 256 * (px c (ord s)).val + b.val
      rw [o]; show 256 * (px c (ord s)).val + 1 * b.val = 256 * (px c (ord s)).val + b.val; omega)

theorem w_landed_core2 (c : Dev nD) (s : Fin 8) (fw : Buf (Elt F) (wbM.view.loc (c : Thread nD τ))) (Wt : Vec F S4096x2048 .f32) :
    ∀ i ∈ (wHv s 1).set,
      ((wHv s 1).writes (Elt F) fw [⟨Rect.whole S2048x256, ReadAs.same.apply (View.read (Elt F) (wWv2 c (ord s)) Wt)⟩]) i
        = wLand Wt c i := by
  intro i hi
  obtain ⟨y, rfl⟩ := View.exists_emb_of_mem_set _ hi
  obtain ⟨a, b, rfl⟩ : ∃ (a : Fin 2048) (b : Fin 256), y = ix2 a b := ⟨y 0, y 1, eq_ix2 y⟩
  refine (writes_whole_emb (wHv s 1) fw _ (ix2 a b)).trans ?_
  have e1 : (wHv s 1).emb (ix2 a b) = (wHR s 1).emb (ix3 (⟨0, Nat.one_pos⟩ : Fin 1) a b) := by
    show (wHR s 1).emb (Shape.reshapeEquiv _ (ix2 a b)) = _
    rw [reshapeEquiv_ix2_1ab]
  rw [e1, wLand_apply]
  show Wt ((wWR2 c (ord s)).emb (ix2 a b)) = _
  refine congrArg Wt ?_
  have o := off2_eq c (ord s)
  funext d
  match d with
  | ⟨0, _⟩ => exact Fin.ext (by
      show (k0_off2 c (BitVec.ofNat 32 (ord s).val)) 0 + 1 * a.val = 2048 * (1 : Fin 2).val + a.val
      rw [o]; show 2048 + 1 * a.val = 2048 * 1 + a.val; omega)
  | ⟨1, _⟩ => exact Fin.ext (by
      show (k0_off2 c (BitVec.ofNat 32 (ord s).val)) 1 + 1 * b.val = 256 * (px c (ord s)).val + b.val
      rw [o]; show 256 * (px c (ord s)).val + 1 * b.val = 256 * (px c (ord s)).val + b.val; omega)

/-! ### The sixteen half-slots, by name -/

theorem w_landed_0_0 (c : Dev nD) (fw : Buf (Elt F) (wbM.view.loc (c : Thread nD τ))) (Wt : Vec F S4096x2048 .f32) :
    ∀ i ∈ (wH 0 0).view.set, ((wH 0 0).view.writes (Elt F) fw [⟨Rect.whole S2048x256, ReadAs.same.apply (View.read (Elt F) (wWin1 c 6).view Wt)⟩]) i = wLand Wt c i :=
  w_landed_core1 c 0 fw Wt

theorem w_landed_0_1 (c : Dev nD) (fw : Buf (Elt F) (wbM.view.loc (c : Thread nD τ))) (Wt : Vec F S4096x2048 .f32) :
    ∀ i ∈ (wH 0 1).view.set, ((wH 0 1).view.writes (Elt F) fw [⟨Rect.whole S2048x256, ReadAs.same.apply (View.read (Elt F) (wWin2 c 6).view Wt)⟩]) i = wLand Wt c i :=
  w_landed_core2 c 0 fw Wt

theorem w_landed_1_0 (c : Dev nD) (fw : Buf (Elt F) (wbM.view.loc (c : Thread nD τ))) (Wt : Vec F S4096x2048 .f32) :
    ∀ i ∈ (wH 1 0).view.set, ((wH 1 0).view.writes (Elt F) fw [⟨Rect.whole S2048x256, ReadAs.same.apply (View.read (Elt F) (wWin1 c 2).view Wt)⟩]) i = wLand Wt c i :=
  w_landed_core1 c 1 fw Wt

theorem w_landed_1_1 (c : Dev nD) (fw : Buf (Elt F) (wbM.view.loc (c : Thread nD τ))) (Wt : Vec F S4096x2048 .f32) :
    ∀ i ∈ (wH 1 1).view.set, ((wH 1 1).view.writes (Elt F) fw [⟨Rect.whole S2048x256, ReadAs.same.apply (View.read (Elt F) (wWin2 c 2).view Wt)⟩]) i = wLand Wt c i :=
  w_landed_core2 c 1 fw Wt

theorem w_landed_2_0 (c : Dev nD) (fw : Buf (Elt F) (wbM.view.loc (c : Thread nD τ))) (Wt : Vec F S4096x2048 .f32) :
    ∀ i ∈ (wH 2 0).view.set, ((wH 2 0).view.writes (Elt F) fw [⟨Rect.whole S2048x256, ReadAs.same.apply (View.read (Elt F) (wWin1 c 5).view Wt)⟩]) i = wLand Wt c i :=
  w_landed_core1 c 2 fw Wt

theorem w_landed_2_1 (c : Dev nD) (fw : Buf (Elt F) (wbM.view.loc (c : Thread nD τ))) (Wt : Vec F S4096x2048 .f32) :
    ∀ i ∈ (wH 2 1).view.set, ((wH 2 1).view.writes (Elt F) fw [⟨Rect.whole S2048x256, ReadAs.same.apply (View.read (Elt F) (wWin2 c 5).view Wt)⟩]) i = wLand Wt c i :=
  w_landed_core2 c 2 fw Wt

theorem w_landed_3_0 (c : Dev nD) (fw : Buf (Elt F) (wbM.view.loc (c : Thread nD τ))) (Wt : Vec F S4096x2048 .f32) :
    ∀ i ∈ (wH 3 0).view.set, ((wH 3 0).view.writes (Elt F) fw [⟨Rect.whole S2048x256, ReadAs.same.apply (View.read (Elt F) (wWin1 c 7).view Wt)⟩]) i = wLand Wt c i :=
  w_landed_core1 c 3 fw Wt

theorem w_landed_3_1 (c : Dev nD) (fw : Buf (Elt F) (wbM.view.loc (c : Thread nD τ))) (Wt : Vec F S4096x2048 .f32) :
    ∀ i ∈ (wH 3 1).view.set, ((wH 3 1).view.writes (Elt F) fw [⟨Rect.whole S2048x256, ReadAs.same.apply (View.read (Elt F) (wWin2 c 7).view Wt)⟩]) i = wLand Wt c i :=
  w_landed_core2 c 3 fw Wt

theorem w_landed_4_0 (c : Dev nD) (fw : Buf (Elt F) (wbM.view.loc (c : Thread nD τ))) (Wt : Vec F S4096x2048 .f32) :
    ∀ i ∈ (wH 4 0).view.set, ((wH 4 0).view.writes (Elt F) fw [⟨Rect.whole S2048x256, ReadAs.same.apply (View.read (Elt F) (wWin1 c 1).view Wt)⟩]) i = wLand Wt c i :=
  w_landed_core1 c 4 fw Wt

theorem w_landed_4_1 (c : Dev nD) (fw : Buf (Elt F) (wbM.view.loc (c : Thread nD τ))) (Wt : Vec F S4096x2048 .f32) :
    ∀ i ∈ (wH 4 1).view.set, ((wH 4 1).view.writes (Elt F) fw [⟨Rect.whole S2048x256, ReadAs.same.apply (View.read (Elt F) (wWin2 c 1).view Wt)⟩]) i = wLand Wt c i :=
  w_landed_core2 c 4 fw Wt

theorem w_landed_5_0 (c : Dev nD) (fw : Buf (Elt F) (wbM.view.loc (c : Thread nD τ))) (Wt : Vec F S4096x2048 .f32) :
    ∀ i ∈ (wH 5 0).view.set, ((wH 5 0).view.writes (Elt F) fw [⟨Rect.whole S2048x256, ReadAs.same.apply (View.read (Elt F) (wWin1 c 3).view Wt)⟩]) i = wLand Wt c i :=
  w_landed_core1 c 5 fw Wt

theorem w_landed_5_1 (c : Dev nD) (fw : Buf (Elt F) (wbM.view.loc (c : Thread nD τ))) (Wt : Vec F S4096x2048 .f32) :
    ∀ i ∈ (wH 5 1).view.set, ((wH 5 1).view.writes (Elt F) fw [⟨Rect.whole S2048x256, ReadAs.same.apply (View.read (Elt F) (wWin2 c 3).view Wt)⟩]) i = wLand Wt c i :=
  w_landed_core2 c 5 fw Wt

theorem w_landed_6_0 (c : Dev nD) (fw : Buf (Elt F) (wbM.view.loc (c : Thread nD τ))) (Wt : Vec F S4096x2048 .f32) :
    ∀ i ∈ (wH 6 0).view.set, ((wH 6 0).view.writes (Elt F) fw [⟨Rect.whole S2048x256, ReadAs.same.apply (View.read (Elt F) (wWin1 c 4).view Wt)⟩]) i = wLand Wt c i :=
  w_landed_core1 c 6 fw Wt

theorem w_landed_6_1 (c : Dev nD) (fw : Buf (Elt F) (wbM.view.loc (c : Thread nD τ))) (Wt : Vec F S4096x2048 .f32) :
    ∀ i ∈ (wH 6 1).view.set, ((wH 6 1).view.writes (Elt F) fw [⟨Rect.whole S2048x256, ReadAs.same.apply (View.read (Elt F) (wWin2 c 4).view Wt)⟩]) i = wLand Wt c i :=
  w_landed_core2 c 6 fw Wt

theorem w_landed_7_0 (c : Dev nD) (fw : Buf (Elt F) (wbM.view.loc (c : Thread nD τ))) (Wt : Vec F S4096x2048 .f32) :
    ∀ i ∈ (wH 7 0).view.set, ((wH 7 0).view.writes (Elt F) fw [⟨Rect.whole S2048x256, ReadAs.same.apply (View.read (Elt F) (wWin1 c 0).view Wt)⟩]) i = wLand Wt c i :=
  w_landed_core1 c 7 fw Wt

theorem w_landed_7_1 (c : Dev nD) (fw : Buf (Elt F) (wbM.view.loc (c : Thread nD τ))) (Wt : Vec F S4096x2048 .f32) :
    ∀ i ∈ (wH 7 1).view.set, ((wH 7 1).view.writes (Elt F) fw [⟨Rect.whole S2048x256, ReadAs.same.apply (View.read (Elt F) (wWin2 c 0).view Wt)⟩]) i = wLand Wt c i :=
  w_landed_core2 c 7 fw Wt

/-! ### A landed slot -/

theorem wslot_joined_0 (c : Dev nD) (fw : Buf (Elt F) (wbM.view.loc (c : Thread nD τ))) (Wt : Vec F S4096x2048 .f32) :
    (iprop(((wH 0 0).view.loc (c : Thread nD τ) ↦[(wH 0 0).view.set]{fullShare} ((wH 0 0).view.writes (Elt F) fw [⟨Rect.whole S2048x256, ReadAs.same.apply (View.read (Elt F) (wWin1 c 6).view Wt)⟩])) ∗
           ((wH 0 1).view.loc (c : Thread nD τ) ↦[(wH 0 1).view.set]{fullShare} ((wH 0 1).view.writes (Elt F) fw [⟨Rect.whole S2048x256, ReadAs.same.apply (View.read (Elt F) (wWin2 c 6).view Wt)⟩]))) : sProp 𝕄) ⊢
      (wbM.view.loc (c : Thread nD τ) ↦[(wS 0).set]{fullShare} wLand Wt c) :=
  wslot_join_0 c _ _ (wLand Wt c) (w_landed_0_0 c fw Wt) (w_landed_0_1 c fw Wt)

theorem wslot_joined_1 (c : Dev nD) (fw : Buf (Elt F) (wbM.view.loc (c : Thread nD τ))) (Wt : Vec F S4096x2048 .f32) :
    (iprop(((wH 1 0).view.loc (c : Thread nD τ) ↦[(wH 1 0).view.set]{fullShare} ((wH 1 0).view.writes (Elt F) fw [⟨Rect.whole S2048x256, ReadAs.same.apply (View.read (Elt F) (wWin1 c 2).view Wt)⟩])) ∗
           ((wH 1 1).view.loc (c : Thread nD τ) ↦[(wH 1 1).view.set]{fullShare} ((wH 1 1).view.writes (Elt F) fw [⟨Rect.whole S2048x256, ReadAs.same.apply (View.read (Elt F) (wWin2 c 2).view Wt)⟩]))) : sProp 𝕄) ⊢
      (wbM.view.loc (c : Thread nD τ) ↦[(wS 1).set]{fullShare} wLand Wt c) :=
  wslot_join_1 c _ _ (wLand Wt c) (w_landed_1_0 c fw Wt) (w_landed_1_1 c fw Wt)

theorem wslot_joined_2 (c : Dev nD) (fw : Buf (Elt F) (wbM.view.loc (c : Thread nD τ))) (Wt : Vec F S4096x2048 .f32) :
    (iprop(((wH 2 0).view.loc (c : Thread nD τ) ↦[(wH 2 0).view.set]{fullShare} ((wH 2 0).view.writes (Elt F) fw [⟨Rect.whole S2048x256, ReadAs.same.apply (View.read (Elt F) (wWin1 c 5).view Wt)⟩])) ∗
           ((wH 2 1).view.loc (c : Thread nD τ) ↦[(wH 2 1).view.set]{fullShare} ((wH 2 1).view.writes (Elt F) fw [⟨Rect.whole S2048x256, ReadAs.same.apply (View.read (Elt F) (wWin2 c 5).view Wt)⟩]))) : sProp 𝕄) ⊢
      (wbM.view.loc (c : Thread nD τ) ↦[(wS 2).set]{fullShare} wLand Wt c) :=
  wslot_join_2 c _ _ (wLand Wt c) (w_landed_2_0 c fw Wt) (w_landed_2_1 c fw Wt)

theorem wslot_joined_3 (c : Dev nD) (fw : Buf (Elt F) (wbM.view.loc (c : Thread nD τ))) (Wt : Vec F S4096x2048 .f32) :
    (iprop(((wH 3 0).view.loc (c : Thread nD τ) ↦[(wH 3 0).view.set]{fullShare} ((wH 3 0).view.writes (Elt F) fw [⟨Rect.whole S2048x256, ReadAs.same.apply (View.read (Elt F) (wWin1 c 7).view Wt)⟩])) ∗
           ((wH 3 1).view.loc (c : Thread nD τ) ↦[(wH 3 1).view.set]{fullShare} ((wH 3 1).view.writes (Elt F) fw [⟨Rect.whole S2048x256, ReadAs.same.apply (View.read (Elt F) (wWin2 c 7).view Wt)⟩]))) : sProp 𝕄) ⊢
      (wbM.view.loc (c : Thread nD τ) ↦[(wS 3).set]{fullShare} wLand Wt c) :=
  wslot_join_3 c _ _ (wLand Wt c) (w_landed_3_0 c fw Wt) (w_landed_3_1 c fw Wt)

theorem wslot_joined_4 (c : Dev nD) (fw : Buf (Elt F) (wbM.view.loc (c : Thread nD τ))) (Wt : Vec F S4096x2048 .f32) :
    (iprop(((wH 4 0).view.loc (c : Thread nD τ) ↦[(wH 4 0).view.set]{fullShare} ((wH 4 0).view.writes (Elt F) fw [⟨Rect.whole S2048x256, ReadAs.same.apply (View.read (Elt F) (wWin1 c 1).view Wt)⟩])) ∗
           ((wH 4 1).view.loc (c : Thread nD τ) ↦[(wH 4 1).view.set]{fullShare} ((wH 4 1).view.writes (Elt F) fw [⟨Rect.whole S2048x256, ReadAs.same.apply (View.read (Elt F) (wWin2 c 1).view Wt)⟩]))) : sProp 𝕄) ⊢
      (wbM.view.loc (c : Thread nD τ) ↦[(wS 4).set]{fullShare} wLand Wt c) :=
  wslot_join_4 c _ _ (wLand Wt c) (w_landed_4_0 c fw Wt) (w_landed_4_1 c fw Wt)

theorem wslot_joined_5 (c : Dev nD) (fw : Buf (Elt F) (wbM.view.loc (c : Thread nD τ))) (Wt : Vec F S4096x2048 .f32) :
    (iprop(((wH 5 0).view.loc (c : Thread nD τ) ↦[(wH 5 0).view.set]{fullShare} ((wH 5 0).view.writes (Elt F) fw [⟨Rect.whole S2048x256, ReadAs.same.apply (View.read (Elt F) (wWin1 c 3).view Wt)⟩])) ∗
           ((wH 5 1).view.loc (c : Thread nD τ) ↦[(wH 5 1).view.set]{fullShare} ((wH 5 1).view.writes (Elt F) fw [⟨Rect.whole S2048x256, ReadAs.same.apply (View.read (Elt F) (wWin2 c 3).view Wt)⟩]))) : sProp 𝕄) ⊢
      (wbM.view.loc (c : Thread nD τ) ↦[(wS 5).set]{fullShare} wLand Wt c) :=
  wslot_join_5 c _ _ (wLand Wt c) (w_landed_5_0 c fw Wt) (w_landed_5_1 c fw Wt)

theorem wslot_joined_6 (c : Dev nD) (fw : Buf (Elt F) (wbM.view.loc (c : Thread nD τ))) (Wt : Vec F S4096x2048 .f32) :
    (iprop(((wH 6 0).view.loc (c : Thread nD τ) ↦[(wH 6 0).view.set]{fullShare} ((wH 6 0).view.writes (Elt F) fw [⟨Rect.whole S2048x256, ReadAs.same.apply (View.read (Elt F) (wWin1 c 4).view Wt)⟩])) ∗
           ((wH 6 1).view.loc (c : Thread nD τ) ↦[(wH 6 1).view.set]{fullShare} ((wH 6 1).view.writes (Elt F) fw [⟨Rect.whole S2048x256, ReadAs.same.apply (View.read (Elt F) (wWin2 c 4).view Wt)⟩]))) : sProp 𝕄) ⊢
      (wbM.view.loc (c : Thread nD τ) ↦[(wS 6).set]{fullShare} wLand Wt c) :=
  wslot_join_6 c _ _ (wLand Wt c) (w_landed_6_0 c fw Wt) (w_landed_6_1 c fw Wt)

theorem wslot_joined_7 (c : Dev nD) (fw : Buf (Elt F) (wbM.view.loc (c : Thread nD τ))) (Wt : Vec F S4096x2048 .f32) :
    (iprop(((wH 7 0).view.loc (c : Thread nD τ) ↦[(wH 7 0).view.set]{fullShare} ((wH 7 0).view.writes (Elt F) fw [⟨Rect.whole S2048x256, ReadAs.same.apply (View.read (Elt F) (wWin1 c 0).view Wt)⟩])) ∗
           ((wH 7 1).view.loc (c : Thread nD τ) ↦[(wH 7 1).view.set]{fullShare} ((wH 7 1).view.writes (Elt F) fw [⟨Rect.whole S2048x256, ReadAs.same.apply (View.read (Elt F) (wWin2 c 0).view Wt)⟩]))) : sProp 𝕄) ⊢
      (wbM.view.loc (c : Thread nD τ) ↦[(wS 7).set]{fullShare} wLand Wt c) :=
  wslot_join_7 c _ _ (wLand Wt c) (w_landed_7_0 c fw Wt) (w_landed_7_1 c fw Wt)

/-- The landed contents of slot `s`, read as one slot: the 256 columns of the device `c xor ord s`. -/
theorem wLand_slot (m : (ℓ : Loc nD τ sig) → Buf (Elt F) ℓ) (c : Dev nD) (s : Fin 8) (j : S1x4096x256.Idx) :
    wLand (wV m c) c ((wSR s).emb j) = wSlot m c (px c (ord s)) j := by
  have j0 : (j 0).val < 1 := (j 0).isLt
  have e0 : ord (((wSR s).emb j) 0) = ord s :=
    congrArg ord (Fin.ext (by show s.val + 1 * (j 0).val = s.val; omega))
  show wV m c _ = wV m c _
  refine congrArg (wV m c) ?_
  funext d
  match d with
  | ⟨0, _⟩ => exact Fin.ext (by show 0 + 1 * (j 1).val = (j 1).val; omega)
  | ⟨1, _⟩ => exact Fin.ext (by
      show 256 * (px c (ord (((wSR s).emb j) 0))).val + (0 + 1 * (j 2).val) = 256 * (px c (ord s)).val + (j 2).val
      rw [e0]; omega)

theorem wslot_read_0 (m : (ℓ : Loc nD τ sig) → Buf (Elt F) ℓ) (c : Dev nD) :
    wbM.view.readAt (Elt F) (Rect.unit (s := S8x4096x256) ![0, 0, 0] S1x4096x256.size inb_S8x4096x256_S1x4096x256_0_0_0).toLoadRect (wLand (wV m c) c)
      = wSlot m c (px c 6) := by
  funext j
  show wLand (wV m c) c ((wSR 0).emb j) = wSlot m c (px c 6) j
  exact wLand_slot m c 0 j

theorem wslot_read_1 (m : (ℓ : Loc nD τ sig) → Buf (Elt F) ℓ) (c : Dev nD) :
    wbM.view.readAt (Elt F) (Rect.unit (s := S8x4096x256) ![1, 0, 0] S1x4096x256.size inb_S8x4096x256_S1x4096x256_1_0_0).toLoadRect (wLand (wV m c) c)
      = wSlot m c (px c 2) := by
  funext j
  show wLand (wV m c) c ((wSR 1).emb j) = wSlot m c (px c 2) j
  exact wLand_slot m c 1 j

theorem wslot_read_2 (m : (ℓ : Loc nD τ sig) → Buf (Elt F) ℓ) (c : Dev nD) :
    wbM.view.readAt (Elt F) (Rect.unit (s := S8x4096x256) ![2, 0, 0] S1x4096x256.size inb_S8x4096x256_S1x4096x256_2_0_0).toLoadRect (wLand (wV m c) c)
      = wSlot m c (px c 5) := by
  funext j
  show wLand (wV m c) c ((wSR 2).emb j) = wSlot m c (px c 5) j
  exact wLand_slot m c 2 j

theorem wslot_read_3 (m : (ℓ : Loc nD τ sig) → Buf (Elt F) ℓ) (c : Dev nD) :
    wbM.view.readAt (Elt F) (Rect.unit (s := S8x4096x256) ![3, 0, 0] S1x4096x256.size inb_S8x4096x256_S1x4096x256_3_0_0).toLoadRect (wLand (wV m c) c)
      = wSlot m c (px c 7) := by
  funext j
  show wLand (wV m c) c ((wSR 3).emb j) = wSlot m c (px c 7) j
  exact wLand_slot m c 3 j

theorem wslot_read_4 (m : (ℓ : Loc nD τ sig) → Buf (Elt F) ℓ) (c : Dev nD) :
    wbM.view.readAt (Elt F) (Rect.unit (s := S8x4096x256) ![4, 0, 0] S1x4096x256.size inb_S8x4096x256_S1x4096x256_4_0_0).toLoadRect (wLand (wV m c) c)
      = wSlot m c (px c 1) := by
  funext j
  show wLand (wV m c) c ((wSR 4).emb j) = wSlot m c (px c 1) j
  exact wLand_slot m c 4 j

theorem wslot_read_5 (m : (ℓ : Loc nD τ sig) → Buf (Elt F) ℓ) (c : Dev nD) :
    wbM.view.readAt (Elt F) (Rect.unit (s := S8x4096x256) ![5, 0, 0] S1x4096x256.size inb_S8x4096x256_S1x4096x256_5_0_0).toLoadRect (wLand (wV m c) c)
      = wSlot m c (px c 3) := by
  funext j
  show wLand (wV m c) c ((wSR 5).emb j) = wSlot m c (px c 3) j
  exact wLand_slot m c 5 j

theorem wslot_read_6 (m : (ℓ : Loc nD τ sig) → Buf (Elt F) ℓ) (c : Dev nD) :
    wbM.view.readAt (Elt F) (Rect.unit (s := S8x4096x256) ![6, 0, 0] S1x4096x256.size inb_S8x4096x256_S1x4096x256_6_0_0).toLoadRect (wLand (wV m c) c)
      = wSlot m c (px c 4) := by
  funext j
  show wLand (wV m c) c ((wSR 6).emb j) = wSlot m c (px c 4) j
  exact wLand_slot m c 6 j

theorem wslot_read_7 (m : (ℓ : Loc nD τ sig) → Buf (Elt F) ℓ) (c : Dev nD) :
    wbM.view.readAt (Elt F) (Rect.unit (s := S8x4096x256) ![7, 0, 0] S1x4096x256.size inb_S8x4096x256_S1x4096x256_7_0_0).toLoadRect (wLand (wV m c) c)
      = wSlot m c (px c 0) := by
  funext j
  show wLand (wV m c) c ((wSR 7).emb j) = wSlot m c (px c 0) j
  exact wLand_slot m c 7 j

/-- info: 'Cert.KernelIdeal.A2A.x_joined' depends on axioms: [propext, Classical.choice, Quot.sound] -/
#guard_msgs in #print axioms x_joined

/-- info: 'Cert.KernelIdeal.A2A.wslot_joined_0' depends on axioms: [propext, Classical.choice, Quot.sound] -/
#guard_msgs in #print axioms wslot_joined_0

/-- info: 'Cert.KernelIdeal.A2A.wslot_read_0' depends on axioms: [propext, Classical.choice, Quot.sound] -/
#guard_msgs in #print axioms wslot_read_0

end Cert.KernelIdeal.A2A

end
-- ==== Proof.Slots.lean ====
/-
  The slots of the scratch buffers held through the slices a load of a whole slot goes through.

  Slot `s` of the weight buffer is the slice of the buffer at slot `s`, all rows and columns; its elements are
  those the access at that rectangle reads, so an assertion over the one set is an assertion over the other.
  A slot of the send or receive buffer with its unit axis dropped has the same elements as the slice it was
  dropped from: the two assertions are equal.
-/
import proofs.«900796_g7700000000000797_dist_gemm_a2a_m4096_k4096_n2048_f32_gelu_v7x_i8_1_alg».proof.Proof.Landed
import Idealize.ShloMosaic.Lib.Pipeline.Value
import Idealize.ShloMosaic.Lib.Writes
import Idealize.ShloMosaic.Lib.ValueIdx
import Idealize.ShloMosaic.Lib.ValueLayout

noncomputable section

namespace Cert.KernelIdeal.A2A

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The weight buffer's slots as slices -/

/-- Slot `s` of the weight buffer as a slice of it: what a load of the whole slot goes through. -/
abbrev wSM : Fin 8 → Memref sig .tc .vmem S1x4096x256 .f32
  | ⟨0, _⟩ => (Memref.whole cc0_scratch1 : Memref sig .tc .vmem S8x4096x256 .f32).slice (Rect.unit (s := S8x4096x256) ![0, 0, 0] S1x4096x256.size inb_S8x4096x256_S1x4096x256_0_0_0) (fun _ => rfl)
  | ⟨1, _⟩ => (Memref.whole cc0_scratch1 : Memref sig .tc .vmem S8x4096x256 .f32).slice (Rect.unit (s := S8x4096x256) ![1, 0, 0] S1x4096x256.size inb_S8x4096x256_S1x4096x256_1_0_0) (fun _ => rfl)
  | ⟨2, _⟩ => (Memref.whole cc0_scratch1 : Memref sig .tc .vmem S8x4096x256 .f32).slice (Rect.unit (s := S8x4096x256) ![2, 0, 0] S1x4096x256.size inb_S8x4096x256_S1x4096x256_2_0_0) (fun _ => rfl)
  | ⟨3, _⟩ => (Memref.whole cc0_scratch1 : Memref sig .tc .vmem S8x4096x256 .f32).slice (Rect.unit (s := S8x4096x256) ![3, 0, 0] S1x4096x256.size inb_S8x4096x256_S1x4096x256_3_0_0) (fun _ => rfl)
  | ⟨4, _⟩ => (Memref.whole cc0_scratch1 : Memref sig .tc .vmem S8x4096x256 .f32).slice (Rect.unit (s := S8x4096x256) ![4, 0, 0] S1x4096x256.size inb_S8x4096x256_S1x4096x256_4_0_0) (fun _ => rfl)
  | ⟨5, _⟩ => (Memref.whole cc0_scratch1 : Memref sig .tc .vmem S8x4096x256 .f32).slice (Rect.unit (s := S8x4096x256) ![5, 0, 0] S1x4096x256.size inb_S8x4096x256_S1x4096x256_5_0_0) (fun _ => rfl)
  | ⟨6, _⟩ => (Memref.whole cc0_scratch1 : Memref sig .tc .vmem S8x4096x256 .f32).slice (Rect.unit (s := S8x4096x256) ![6, 0, 0] S1x4096x256.size inb_S8x4096x256_S1x4096x256_6_0_0) (fun _ => rfl)
  | ⟨7, _⟩ => (Memref.whole cc0_scratch1 : Memref sig .tc .vmem S8x4096x256 .f32).slice (Rect.unit (s := S8x4096x256) ![7, 0, 0] S1x4096x256.size inb_S8x4096x256_S1x4096x256_7_0_0) (fun _ => rfl)
  | ⟨_ + 8, h⟩ => absurd h (by omega)

theorem wslot_joinedM_0 (c : Dev nD) (fw : Buf (Elt F) (wbM.view.loc (c : Thread nD τ))) (Wt : Vec F S4096x2048 .f32) :
    (iprop(((wH 0 0).view.loc (c : Thread nD τ) ↦[(wH 0 0).view.set]{fullShare} ((wH 0 0).view.writes (Elt F) fw [⟨Rect.whole S2048x256, ReadAs.same.apply (View.read (Elt F) (wWin1 c 6).view Wt)⟩])) ∗
           ((wH 0 1).view.loc (c : Thread nD τ) ↦[(wH 0 1).view.set]{fullShare} ((wH 0 1).view.writes (Elt F) fw [⟨Rect.whole S2048x256, ReadAs.same.apply (View.read (Elt F) (wWin2 c 6).view Wt)⟩]))) : sProp 𝕄) ⊢
      ((wSM 0).view.loc (c : Thread nD τ) ↦[(wSM 0).view.set]{fullShare} wLand Wt c) :=
  wslot_joined_0 c fw Wt

theorem wslotM_cut_0 (c : Dev nD) (g : Buf (Elt F) (wbM.view.loc (c : Thread nD τ))) :
    (((wSM 0).view.loc (c : Thread nD τ) ↦[(wSM 0).view.set]{fullShare} g) : sProp 𝕄) ⊢
      (wbM.view.loc (c : Thread nD τ) ↦[(wS 0).set]{fullShare} g) :=
  BIBase.Entails.rfl

theorem wslot_joinedM_1 (c : Dev nD) (fw : Buf (Elt F) (wbM.view.loc (c : Thread nD τ))) (Wt : Vec F S4096x2048 .f32) :
    (iprop(((wH 1 0).view.loc (c : Thread nD τ) ↦[(wH 1 0).view.set]{fullShare} ((wH 1 0).view.writes (Elt F) fw [⟨Rect.whole S2048x256, ReadAs.same.apply (View.read (Elt F) (wWin1 c 2).view Wt)⟩])) ∗
           ((wH 1 1).view.loc (c : Thread nD τ) ↦[(wH 1 1).view.set]{fullShare} ((wH 1 1).view.writes (Elt F) fw [⟨Rect.whole S2048x256, ReadAs.same.apply (View.read (Elt F) (wWin2 c 2).view Wt)⟩]))) : sProp 𝕄) ⊢
      ((wSM 1).view.loc (c : Thread nD τ) ↦[(wSM 1).view.set]{fullShare} wLand Wt c) :=
  wslot_joined_1 c fw Wt

theorem wslotM_cut_1 (c : Dev nD) (g : Buf (Elt F) (wbM.view.loc (c : Thread nD τ))) :
    (((wSM 1).view.loc (c : Thread nD τ) ↦[(wSM 1).view.set]{fullShare} g) : sProp 𝕄) ⊢
      (wbM.view.loc (c : Thread nD τ) ↦[(wS 1).set]{fullShare} g) :=
  BIBase.Entails.rfl

theorem wslot_joinedM_2 (c : Dev nD) (fw : Buf (Elt F) (wbM.view.loc (c : Thread nD τ))) (Wt : Vec F S4096x2048 .f32) :
    (iprop(((wH 2 0).view.loc (c : Thread nD τ) ↦[(wH 2 0).view.set]{fullShare} ((wH 2 0).view.writes (Elt F) fw [⟨Rect.whole S2048x256, ReadAs.same.apply (View.read (Elt F) (wWin1 c 5).view Wt)⟩])) ∗
           ((wH 2 1).view.loc (c : Thread nD τ) ↦[(wH 2 1).view.set]{fullShare} ((wH 2 1).view.writes (Elt F) fw [⟨Rect.whole S2048x256, ReadAs.same.apply (View.read (Elt F) (wWin2 c 5).view Wt)⟩]))) : sProp 𝕄) ⊢
      ((wSM 2).view.loc (c : Thread nD τ) ↦[(wSM 2).view.set]{fullShare} wLand Wt c) :=
  wslot_joined_2 c fw Wt

theorem wslotM_cut_2 (c : Dev nD) (g : Buf (Elt F) (wbM.view.loc (c : Thread nD τ))) :
    (((wSM 2).view.loc (c : Thread nD τ) ↦[(wSM 2).view.set]{fullShare} g) : sProp 𝕄) ⊢
      (wbM.view.loc (c : Thread nD τ) ↦[(wS 2).set]{fullShare} g) :=
  BIBase.Entails.rfl

theorem wslot_joinedM_3 (c : Dev nD) (fw : Buf (Elt F) (wbM.view.loc (c : Thread nD τ))) (Wt : Vec F S4096x2048 .f32) :
    (iprop(((wH 3 0).view.loc (c : Thread nD τ) ↦[(wH 3 0).view.set]{fullShare} ((wH 3 0).view.writes (Elt F) fw [⟨Rect.whole S2048x256, ReadAs.same.apply (View.read (Elt F) (wWin1 c 7).view Wt)⟩])) ∗
           ((wH 3 1).view.loc (c : Thread nD τ) ↦[(wH 3 1).view.set]{fullShare} ((wH 3 1).view.writes (Elt F) fw [⟨Rect.whole S2048x256, ReadAs.same.apply (View.read (Elt F) (wWin2 c 7).view Wt)⟩]))) : sProp 𝕄) ⊢
      ((wSM 3).view.loc (c : Thread nD τ) ↦[(wSM 3).view.set]{fullShare} wLand Wt c) :=
  wslot_joined_3 c fw Wt

theorem wslotM_cut_3 (c : Dev nD) (g : Buf (Elt F) (wbM.view.loc (c : Thread nD τ))) :
    (((wSM 3).view.loc (c : Thread nD τ) ↦[(wSM 3).view.set]{fullShare} g) : sProp 𝕄) ⊢
      (wbM.view.loc (c : Thread nD τ) ↦[(wS 3).set]{fullShare} g) :=
  BIBase.Entails.rfl

theorem wslot_joinedM_4 (c : Dev nD) (fw : Buf (Elt F) (wbM.view.loc (c : Thread nD τ))) (Wt : Vec F S4096x2048 .f32) :
    (iprop(((wH 4 0).view.loc (c : Thread nD τ) ↦[(wH 4 0).view.set]{fullShare} ((wH 4 0).view.writes (Elt F) fw [⟨Rect.whole S2048x256, ReadAs.same.apply (View.read (Elt F) (wWin1 c 1).view Wt)⟩])) ∗
           ((wH 4 1).view.loc (c : Thread nD τ) ↦[(wH 4 1).view.set]{fullShare} ((wH 4 1).view.writes (Elt F) fw [⟨Rect.whole S2048x256, ReadAs.same.apply (View.read (Elt F) (wWin2 c 1).view Wt)⟩]))) : sProp 𝕄) ⊢
      ((wSM 4).view.loc (c : Thread nD τ) ↦[(wSM 4).view.set]{fullShare} wLand Wt c) :=
  wslot_joined_4 c fw Wt

theorem wslotM_cut_4 (c : Dev nD) (g : Buf (Elt F) (wbM.view.loc (c : Thread nD τ))) :
    (((wSM 4).view.loc (c : Thread nD τ) ↦[(wSM 4).view.set]{fullShare} g) : sProp 𝕄) ⊢
      (wbM.view.loc (c : Thread nD τ) ↦[(wS 4).set]{fullShare} g) :=
  BIBase.Entails.rfl

theorem wslot_joinedM_5 (c : Dev nD) (fw : Buf (Elt F) (wbM.view.loc (c : Thread nD τ))) (Wt : Vec F S4096x2048 .f32) :
    (iprop(((wH 5 0).view.loc (c : Thread nD τ) ↦[(wH 5 0).view.set]{fullShare} ((wH 5 0).view.writes (Elt F) fw [⟨Rect.whole S2048x256, ReadAs.same.apply (View.read (Elt F) (wWin1 c 3).view Wt)⟩])) ∗
           ((wH 5 1).view.loc (c : Thread nD τ) ↦[(wH 5 1).view.set]{fullShare} ((wH 5 1).view.writes (Elt F) fw [⟨Rect.whole S2048x256, ReadAs.same.apply (View.read (Elt F) (wWin2 c 3).view Wt)⟩]))) : sProp 𝕄) ⊢
      ((wSM 5).view.loc (c : Thread nD τ) ↦[(wSM 5).view.set]{fullShare} wLand Wt c) :=
  wslot_joined_5 c fw Wt

theorem wslotM_cut_5 (c : Dev nD) (g : Buf (Elt F) (wbM.view.loc (c : Thread nD τ))) :
    (((wSM 5).view.loc (c : Thread nD τ) ↦[(wSM 5).view.set]{fullShare} g) : sProp 𝕄) ⊢
      (wbM.view.loc (c : Thread nD τ) ↦[(wS 5).set]{fullShare} g) :=
  BIBase.Entails.rfl

theorem wslot_joinedM_6 (c : Dev nD) (fw : Buf (Elt F) (wbM.view.loc (c : Thread nD τ))) (Wt : Vec F S4096x2048 .f32) :
    (iprop(((wH 6 0).view.loc (c : Thread nD τ) ↦[(wH 6 0).view.set]{fullShare} ((wH 6 0).view.writes (Elt F) fw [⟨Rect.whole S2048x256, ReadAs.same.apply (View.read (Elt F) (wWin1 c 4).view Wt)⟩])) ∗
           ((wH 6 1).view.loc (c : Thread nD τ) ↦[(wH 6 1).view.set]{fullShare} ((wH 6 1).view.writes (Elt F) fw [⟨Rect.whole S2048x256, ReadAs.same.apply (View.read (Elt F) (wWin2 c 4).view Wt)⟩]))) : sProp 𝕄) ⊢
      ((wSM 6).view.loc (c : Thread nD τ) ↦[(wSM 6).view.set]{fullShare} wLand Wt c) :=
  wslot_joined_6 c fw Wt

theorem wslotM_cut_6 (c : Dev nD) (g : Buf (Elt F) (wbM.view.loc (c : Thread nD τ))) :
    (((wSM 6).view.loc (c : Thread nD τ) ↦[(wSM 6).view.set]{fullShare} g) : sProp 𝕄) ⊢
      (wbM.view.loc (c : Thread nD τ) ↦[(wS 6).set]{fullShare} g) :=
  BIBase.Entails.rfl

theorem wslot_joinedM_7 (c : Dev nD) (fw : Buf (Elt F) (wbM.view.loc (c : Thread nD τ))) (Wt : Vec F S4096x2048 .f32) :
    (iprop(((wH 7 0).view.loc (c : Thread nD τ) ↦[(wH 7 0).view.set]{fullShare} ((wH 7 0).view.writes (Elt F) fw [⟨Rect.whole S2048x256, ReadAs.same.apply (View.read (Elt F) (wWin1 c 0).view Wt)⟩])) ∗
           ((wH 7 1).view.loc (c : Thread nD τ) ↦[(wH 7 1).view.set]{fullShare} ((wH 7 1).view.writes (Elt F) fw [⟨Rect.whole S2048x256, ReadAs.same.apply (View.read (Elt F) (wWin2 c 0).view Wt)⟩]))) : sProp 𝕄) ⊢
      ((wSM 7).view.loc (c : Thread nD τ) ↦[(wSM 7).view.set]{fullShare} wLand Wt c) :=
  wslot_joined_7 c fw Wt

theorem wslotM_cut_7 (c : Dev nD) (g : Buf (Elt F) (wbM.view.loc (c : Thread nD τ))) :
    (((wSM 7).view.loc (c : Thread nD τ) ↦[(wSM 7).view.set]{fullShare} g) : sProp 𝕄) ⊢
      (wbM.view.loc (c : Thread nD τ) ↦[(wS 7).set]{fullShare} g) :=
  BIBase.Entails.rfl

/-! ## The send and receive buffers' slots, their unit axis kept -/

/-- Slot `t` of the send buffer as a slice of it, its unit axis kept. -/
abbrev sSM : Fin 8 → Memref sig .tc .vmem S1x512x256 .bf16
  | ⟨0, _⟩ => (Memref.whole cc0_scratch2 : Memref sig .tc .vmem S8x512x256 .bf16).slice (Rect.unit (s := S8x512x256) ![0, 0, 0] S1x512x256.size (by decide)) (fun _ => rfl)
  | ⟨1, _⟩ => (Memref.whole cc0_scratch2 : Memref sig .tc .vmem S8x512x256 .bf16).slice (Rect.unit (s := S8x512x256) ![1, 0, 0] S1x512x256.size inb_S8x512x256_S1x512x256_1_0_0) (fun _ => rfl)
  | ⟨2, _⟩ => (Memref.whole cc0_scratch2 : Memref sig .tc .vmem S8x512x256 .bf16).slice (Rect.unit (s := S8x512x256) ![2, 0, 0] S1x512x256.size inb_S8x512x256_S1x512x256_2_0_0) (fun _ => rfl)
  | ⟨3, _⟩ => (Memref.whole cc0_scratch2 : Memref sig .tc .vmem S8x512x256 .bf16).slice (Rect.unit (s := S8x512x256) ![3, 0, 0] S1x512x256.size inb_S8x512x256_S1x512x256_3_0_0) (fun _ => rfl)
  | ⟨4, _⟩ => (Memref.whole cc0_scratch2 : Memref sig .tc .vmem S8x512x256 .bf16).slice (Rect.unit (s := S8x512x256) ![4, 0, 0] S1x512x256.size inb_S8x512x256_S1x512x256_4_0_0) (fun _ => rfl)
  | ⟨5, _⟩ => (Memref.whole cc0_scratch2 : Memref sig .tc .vmem S8x512x256 .bf16).slice (Rect.unit (s := S8x512x256) ![5, 0, 0] S1x512x256.size inb_S8x512x256_S1x512x256_5_0_0) (fun _ => rfl)
  | ⟨6, _⟩ => (Memref.whole cc0_scratch2 : Memref sig .tc .vmem S8x512x256 .bf16).slice (Rect.unit (s := S8x512x256) ![6, 0, 0] S1x512x256.size inb_S8x512x256_S1x512x256_6_0_0) (fun _ => rfl)
  | ⟨7, _⟩ => (Memref.whole cc0_scratch2 : Memref sig .tc .vmem S8x512x256 .bf16).slice (Rect.unit (s := S8x512x256) ![7, 0, 0] S1x512x256.size inb_S8x512x256_S1x512x256_7_0_0) (fun _ => rfl)
  | ⟨_ + 8, h⟩ => absurd h (by omega)
/-- Slot `t` of the receive buffer as a slice of it, its unit axis kept. -/
abbrev rSM : Fin 8 → Memref sig .tc .vmem S1x512x256 .bf16
  | ⟨0, _⟩ => (Memref.whole cc0_scratch3 : Memref sig .tc .vmem S8x512x256 .bf16).slice (Rect.unit (s := S8x512x256) ![0, 0, 0] S1x512x256.size (by decide)) (fun _ => rfl)
  | ⟨1, _⟩ => (Memref.whole cc0_scratch3 : Memref sig .tc .vmem S8x512x256 .bf16).slice (Rect.unit (s := S8x512x256) ![1, 0, 0] S1x512x256.size inb_S8x512x256_S1x512x256_1_0_0) (fun _ => rfl)
  | ⟨2, _⟩ => (Memref.whole cc0_scratch3 : Memref sig .tc .vmem S8x512x256 .bf16).slice (Rect.unit (s := S8x512x256) ![2, 0, 0] S1x512x256.size inb_S8x512x256_S1x512x256_2_0_0) (fun _ => rfl)
  | ⟨3, _⟩ => (Memref.whole cc0_scratch3 : Memref sig .tc .vmem S8x512x256 .bf16).slice (Rect.unit (s := S8x512x256) ![3, 0, 0] S1x512x256.size inb_S8x512x256_S1x512x256_3_0_0) (fun _ => rfl)
  | ⟨4, _⟩ => (Memref.whole cc0_scratch3 : Memref sig .tc .vmem S8x512x256 .bf16).slice (Rect.unit (s := S8x512x256) ![4, 0, 0] S1x512x256.size inb_S8x512x256_S1x512x256_4_0_0) (fun _ => rfl)
  | ⟨5, _⟩ => (Memref.whole cc0_scratch3 : Memref sig .tc .vmem S8x512x256 .bf16).slice (Rect.unit (s := S8x512x256) ![5, 0, 0] S1x512x256.size inb_S8x512x256_S1x512x256_5_0_0) (fun _ => rfl)
  | ⟨6, _⟩ => (Memref.whole cc0_scratch3 : Memref sig .tc .vmem S8x512x256 .bf16).slice (Rect.unit (s := S8x512x256) ![6, 0, 0] S1x512x256.size inb_S8x512x256_S1x512x256_6_0_0) (fun _ => rfl)
  | ⟨7, _⟩ => (Memref.whole cc0_scratch3 : Memref sig .tc .vmem S8x512x256 .bf16).slice (Rect.unit (s := S8x512x256) ![7, 0, 0] S1x512x256.size inb_S8x512x256_S1x512x256_7_0_0) (fun _ => rfl)
  | ⟨_ + 8, h⟩ => absurd h (by omega)

theorem sslot_unsq_0 (d : Dev nD) (f : Buf (Elt F) ((sM 0).view.loc (d : Thread nD τ))) :
    (((sM 0).view.loc (d : Thread nD τ) ↦[(sM 0).view.set]{fullShare} f) : sProp 𝕄) =
      ((sSM 0).view.loc (d : Thread nD τ) ↦[(sSM 0).view.set]{fullShare} f) :=
  pt_set (View.set_reshape _ _) f

theorem sslot_unsq_1 (d : Dev nD) (f : Buf (Elt F) ((sM 1).view.loc (d : Thread nD τ))) :
    (((sM 1).view.loc (d : Thread nD τ) ↦[(sM 1).view.set]{fullShare} f) : sProp 𝕄) =
      ((sSM 1).view.loc (d : Thread nD τ) ↦[(sSM 1).view.set]{fullShare} f) :=
  pt_set (View.set_reshape _ _) f

theorem sslot_unsq_2 (d : Dev nD) (f : Buf (Elt F) ((sM 2).view.loc (d : Thread nD τ))) :
    (((sM 2).view.loc (d : Thread nD τ) ↦[(sM 2).view.set]{fullShare} f) : sProp 𝕄) =
      ((sSM 2).view.loc (d : Thread nD τ) ↦[(sSM 2).view.set]{fullShare} f) :=
  pt_set (View.set_reshape _ _) f

theorem sslot_unsq_3 (d : Dev nD) (f : Buf (Elt F) ((sM 3).view.loc (d : Thread nD τ))) :
    (((sM 3).view.loc (d : Thread nD τ) ↦[(sM 3).view.set]{fullShare} f) : sProp 𝕄) =
      ((sSM 3).view.loc (d : Thread nD τ) ↦[(sSM 3).view.set]{fullShare} f) :=
  pt_set (View.set_reshape _ _) f

theorem sslot_unsq_4 (d : Dev nD) (f : Buf (Elt F) ((sM 4).view.loc (d : Thread nD τ))) :
    (((sM 4).view.loc (d : Thread nD τ) ↦[(sM 4).view.set]{fullShare} f) : sProp 𝕄) =
      ((sSM 4).view.loc (d : Thread nD τ) ↦[(sSM 4).view.set]{fullShare} f) :=
  pt_set (View.set_reshape _ _) f

theorem sslot_unsq_5 (d : Dev nD) (f : Buf (Elt F) ((sM 5).view.loc (d : Thread nD τ))) :
    (((sM 5).view.loc (d : Thread nD τ) ↦[(sM 5).view.set]{fullShare} f) : sProp 𝕄) =
      ((sSM 5).view.loc (d : Thread nD τ) ↦[(sSM 5).view.set]{fullShare} f) :=
  pt_set (View.set_reshape _ _) f

theorem sslot_unsq_6 (d : Dev nD) (f : Buf (Elt F) ((sM 6).view.loc (d : Thread nD τ))) :
    (((sM 6).view.loc (d : Thread nD τ) ↦[(sM 6).view.set]{fullShare} f) : sProp 𝕄) =
      ((sSM 6).view.loc (d : Thread nD τ) ↦[(sSM 6).view.set]{fullShare} f) :=
  pt_set (View.set_reshape _ _) f

theorem sslot_unsq_7 (d : Dev nD) (f : Buf (Elt F) ((sM 7).view.loc (d : Thread nD τ))) :
    (((sM 7).view.loc (d : Thread nD τ) ↦[(sM 7).view.set]{fullShare} f) : sProp 𝕄) =
      ((sSM 7).view.loc (d : Thread nD τ) ↦[(sSM 7).view.set]{fullShare} f) :=
  pt_set (View.set_reshape _ _) f

theorem rslot_unsq_0 (d : Dev nD) (f : Buf (Elt F) ((rM 0).view.loc (d : Thread nD τ))) :
    (((rM 0).view.loc (d : Thread nD τ) ↦[(rM 0).view.set]{fullShare} f) : sProp 𝕄) =
      ((rSM 0).view.loc (d : Thread nD τ) ↦[(rSM 0).view.set]{fullShare} f) :=
  pt_set (View.set_reshape _ _) f

theorem rslot_unsq_1 (d : Dev nD) (f : Buf (Elt F) ((rM 1).view.loc (d : Thread nD τ))) :
    (((rM 1).view.loc (d : Thread nD τ) ↦[(rM 1).view.set]{fullShare} f) : sProp 𝕄) =
      ((rSM 1).view.loc (d : Thread nD τ) ↦[(rSM 1).view.set]{fullShare} f) :=
  pt_set (View.set_reshape _ _) f

theorem rslot_unsq_2 (d : Dev nD) (f : Buf (Elt F) ((rM 2).view.loc (d : Thread nD τ))) :
    (((rM 2).view.loc (d : Thread nD τ) ↦[(rM 2).view.set]{fullShare} f) : sProp 𝕄) =
      ((rSM 2).view.loc (d : Thread nD τ) ↦[(rSM 2).view.set]{fullShare} f) :=
  pt_set (View.set_reshape _ _) f

theorem rslot_unsq_3 (d : Dev nD) (f : Buf (Elt F) ((rM 3).view.loc (d : Thread nD τ))) :
    (((rM 3).view.loc (d : Thread nD τ) ↦[(rM 3).view.set]{fullShare} f) : sProp 𝕄) =
      ((rSM 3).view.loc (d : Thread nD τ) ↦[(rSM 3).view.set]{fullShare} f) :=
  pt_set (View.set_reshape _ _) f

theorem rslot_unsq_4 (d : Dev nD) (f : Buf (Elt F) ((rM 4).view.loc (d : Thread nD τ))) :
    (((rM 4).view.loc (d : Thread nD τ) ↦[(rM 4).view.set]{fullShare} f) : sProp 𝕄) =
      ((rSM 4).view.loc (d : Thread nD τ) ↦[(rSM 4).view.set]{fullShare} f) :=
  pt_set (View.set_reshape _ _) f

theorem rslot_unsq_5 (d : Dev nD) (f : Buf (Elt F) ((rM 5).view.loc (d : Thread nD τ))) :
    (((rM 5).view.loc (d : Thread nD τ) ↦[(rM 5).view.set]{fullShare} f) : sProp 𝕄) =
      ((rSM 5).view.loc (d : Thread nD τ) ↦[(rSM 5).view.set]{fullShare} f) :=
  pt_set (View.set_reshape _ _) f

theorem rslot_unsq_6 (d : Dev nD) (f : Buf (Elt F) ((rM 6).view.loc (d : Thread nD τ))) :
    (((rM 6).view.loc (d : Thread nD τ) ↦[(rM 6).view.set]{fullShare} f) : sProp 𝕄) =
      ((rSM 6).view.loc (d : Thread nD τ) ↦[(rSM 6).view.set]{fullShare} f) :=
  pt_set (View.set_reshape _ _) f

theorem rslot_unsq_7 (d : Dev nD) (f : Buf (Elt F) ((rM 7).view.loc (d : Thread nD τ))) :
    (((rM 7).view.loc (d : Thread nD τ) ↦[(rM 7).view.set]{fullShare} f) : sProp 𝕄) =
      ((rSM 7).view.loc (d : Thread nD τ) ↦[(rSM 7).view.set]{fullShare} f) :=
  pt_set (View.set_reshape _ _) f

/-- info: 'Cert.KernelIdeal.A2A.wslot_joinedM_0' depends on axioms: [propext, Classical.choice, Quot.sound] -/
#guard_msgs in #print axioms wslot_joinedM_0

/-- info: 'Cert.KernelIdeal.A2A.sslot_unsq_6' depends on axioms: [propext, Classical.choice, Quot.sound] -/
#guard_msgs in #print axioms sslot_unsq_6

end Cert.KernelIdeal.A2A

end
-- ==== Proof.SendVal.lean ====
/-
  The value each send slot holds when it is sent. The tile for the partner at mask t is computed from the device's block
  of x and the partner's 256 columns of w, narrowed to 16 bits, and stored whole into slot t of the send buffer. The
  program computes the seven tiles by the same chain of operations, printed under seven names; they are one function. A
  store of a whole slot leaves, at the slot's element (t, r, n), the stored vector's element (0, r, n), whatever the
  buffer held; so after the store the slot agrees with the send buffer's intended contents on all its elements.
-/
import proofs.«900796_g7700000000000797_dist_gemm_a2a_m4096_k4096_n2048_f32_gelu_v7x_i8_1_alg».proof.Proof.Slots
import proofs.«900796_g7700000000000797_dist_gemm_a2a_m4096_k4096_n2048_f32_gelu_v7x_i8_1_alg».proof.Proof.Vals

noncomputable section

namespace Cert.KernelIdeal.A2A

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The seven tiles are one function -/

theorem pay2_eq : (k0_pay2 (F := F)) = k0_pay1 := rfl
theorem pay3_eq : (k0_pay3 (F := F)) = k0_pay1 := rfl
theorem pay4_eq : (k0_pay4 (F := F)) = k0_pay1 := rfl
theorem pay7_eq : (k0_pay7 (F := F)) = k0_pay1 := rfl
theorem pay8_eq : (k0_pay8 (F := F)) = k0_pay1 := rfl
/-- The tile printed in two parts: the narrowed product, then its unit axis added. -/
theorem pay65_eq (x : Vec F S512x4096 .f32) (w : Vec F S1x4096x256 .f32) : k0_pay6 (k0_pay5 (F := F) x w) = k0_pay1 x w := rfl

/-! ## The send buffer's intended contents on one slot -/

/-- On slot `t` the send buffer is to hold the tile for the partner at mask `t`. -/
theorem sendV_slot (c : Dev nD) (t : Fin 8) (i : S8x512x256.Idx) (hi : (i 0).val = t.val) :
    sendV m c i = tileB m c (px c t) (ix3 (n0 := 1) (n1 := 512) (n2 := 256) 0 (i 1) (i 2)) := by
  have e : i 0 = t := Fin.ext hi
  unfold sendV
  rw [e]

/-! ## Slot 1 -/

/-- A store of a whole slot through the slice at slot 1 leaves the stored vector on the slot. -/
theorem slot_write_apply_1 (c : Dev nD) (fs : Buf (Elt F) (sbM.view.loc (c : Thread nD τ))) (v : FVec F S1x512x256 .bf16) :
    ∀ i ∈ (sSM 1).view.set, ((sSM 1).view.write (Elt F) fs v Finset.univ) i = v (ix3 (n0 := 1) (n1 := 512) (n2 := 256) 0 (i 1) (i 2)) := by
  intro i hi
  obtain ⟨y, rfl⟩ := View.exists_emb_of_mem_set (sSM 1).view hi
  refine (View.write_emb_of_mem (v := (sSM 1).view) (Val := Elt F) fs v (Finset.mem_univ y)).trans ?_
  show v y = v (ix3 (n0 := 1) (n1 := 512) (n2 := 256) 0 ((sSM 1).view.emb y 1) ((sSM 1).view.emb y 2))
  refine congrArg v ?_
  funext a
  match a with
  | ⟨0, _⟩ => exact Fin.ext (by have h : (y 0).val < 1 := (y 0).isLt; show (y 0).val = 0; omega)
  | ⟨1, _⟩ => exact Fin.ext (by show (y 1).val = 0 + 1 * (y 1).val; omega)
  | ⟨2, _⟩ => exact Fin.ext (by show (y 2).val = 0 + 1 * (y 2).val; omega)

/-- After the tile for the partner at mask 1 (computed from the x buffer and slot 4 of the weight buffer, both read back
    whole) is stored, slot 1 holds what the send buffer is to hold there. -/
theorem send_val_1 (c : Dev nD) (fs : Buf (Elt F) (sbM.view.loc (c : Thread nD τ))) :
    ∀ i ∈ (sM 1).view.set,
      (View.write (Elt F) ((Memref.whole cc0_scratch2 : Memref sig .tc .vmem S8x512x256 .bf16).access (Rect.unit (s := S8x512x256) ![1, 0, 0] S1x512x256.size inb_S8x512x256_S1x512x256_1_0_0)) fs
        (k0_pay6 (k0_pay5 (View.readAt (Elt F) xbM.view (Rect.unit (s := S512x4096) ![0, 0] S512x4096.size inb_S512x4096_S512x4096_0_0).toLoadRect (xV m c))
          (View.readAt (Elt F) (Memref.whole cc0_scratch1 : Memref sig .tc .vmem S8x4096x256 .f32).view (Rect.unit (s := S8x4096x256) ![4, 0, 0] S1x4096x256.size inb_S8x4096x256_S1x4096x256_4_0_0).toLoadRect (wLand (wV m c) c))))
        Finset.univ) i = sendV m c i := by
  intro i hi
  have hi' : i ∈ (sSM 1).view.set := (View.set_reshape _ _) ▸ hi
  have h0 : (i 0).val = (1 : Fin 8).val := (mem_bSR 1 i).mp (sM_set_1 ▸ hi)
  rw [x_read c (xV m c), wslot_read_4 m c]
  refine (slot_write_apply_1 c fs _ i hi').trans ?_
  rw [sendV_slot m c 1 i h0]
  rfl

/-! ## Slot 2 -/

/-- A store of a whole slot through the slice at slot 2 leaves the stored vector on the slot. -/
theorem slot_write_apply_2 (c : Dev nD) (fs : Buf (Elt F) (sbM.view.loc (c : Thread nD τ))) (v : FVec F S1x512x256 .bf16) :
    ∀ i ∈ (sSM 2).view.set, ((sSM 2).view.write (Elt F) fs v Finset.univ) i = v (ix3 (n0 := 1) (n1 := 512) (n2 := 256) 0 (i 1) (i 2)) := by
  intro i hi
  obtain ⟨y, rfl⟩ := View.exists_emb_of_mem_set (sSM 2).view hi
  refine (View.write_emb_of_mem (v := (sSM 2).view) (Val := Elt F) fs v (Finset.mem_univ y)).trans ?_
  show v y = v (ix3 (n0 := 1) (n1 := 512) (n2 := 256) 0 ((sSM 2).view.emb y 1) ((sSM 2).view.emb y 2))
  refine congrArg v ?_
  funext a
  match a with
  | ⟨0, _⟩ => exact Fin.ext (by have h : (y 0).val < 1 := (y 0).isLt; show (y 0).val = 0; omega)
  | ⟨1, _⟩ => exact Fin.ext (by show (y 1).val = 0 + 1 * (y 1).val; omega)
  | ⟨2, _⟩ => exact Fin.ext (by show (y 2).val = 0 + 1 * (y 2).val; omega)

/-- After the tile for the partner at mask 2 (computed from the x buffer and slot 1 of the weight buffer, both read back
    whole) is stored, slot 2 holds what the send buffer is to hold there. -/
theorem send_val_2 (c : Dev nD) (fs : Buf (Elt F) (sbM.view.loc (c : Thread nD τ))) :
    ∀ i ∈ (sM 2).view.set,
      (View.write (Elt F) ((Memref.whole cc0_scratch2 : Memref sig .tc .vmem S8x512x256 .bf16).access (Rect.unit (s := S8x512x256) ![2, 0, 0] S1x512x256.size inb_S8x512x256_S1x512x256_2_0_0)) fs
        (k0_pay2 (View.readAt (Elt F) xbM.view (Rect.unit (s := S512x4096) ![0, 0] S512x4096.size inb_S512x4096_S512x4096_0_0).toLoadRect (xV m c))
          (View.readAt (Elt F) (Memref.whole cc0_scratch1 : Memref sig .tc .vmem S8x4096x256 .f32).view (Rect.unit (s := S8x4096x256) ![1, 0, 0] S1x4096x256.size inb_S8x4096x256_S1x4096x256_1_0_0).toLoadRect (wLand (wV m c) c)))
        Finset.univ) i = sendV m c i := by
  intro i hi
  have hi' : i ∈ (sSM 2).view.set := (View.set_reshape _ _) ▸ hi
  have h0 : (i 0).val = (2 : Fin 8).val := (mem_bSR 2 i).mp (sM_set_2 ▸ hi)
  rw [x_read c (xV m c), wslot_read_1 m c]
  refine (slot_write_apply_2 c fs _ i hi').trans ?_
  rw [sendV_slot m c 2 i h0]
  rfl

/-! ## Slot 3 -/

/-- A store of a whole slot through the slice at slot 3 leaves the stored vector on the slot. -/
theorem slot_write_apply_3 (c : Dev nD) (fs : Buf (Elt F) (sbM.view.loc (c : Thread nD τ))) (v : FVec F S1x512x256 .bf16) :
    ∀ i ∈ (sSM 3).view.set, ((sSM 3).view.write (Elt F) fs v Finset.univ) i = v (ix3 (n0 := 1) (n1 := 512) (n2 := 256) 0 (i 1) (i 2)) := by
  intro i hi
  obtain ⟨y, rfl⟩ := View.exists_emb_of_mem_set (sSM 3).view hi
  refine (View.write_emb_of_mem (v := (sSM 3).view) (Val := Elt F) fs v (Finset.mem_univ y)).trans ?_
  show v y = v (ix3 (n0 := 1) (n1 := 512) (n2 := 256) 0 ((sSM 3).view.emb y 1) ((sSM 3).view.emb y 2))
  refine congrArg v ?_
  funext a
  match a with
  | ⟨0, _⟩ => exact Fin.ext (by have h : (y 0).val < 1 := (y 0).isLt; show (y 0).val = 0; omega)
  | ⟨1, _⟩ => exact Fin.ext (by show (y 1).val = 0 + 1 * (y 1).val; omega)
  | ⟨2, _⟩ => exact Fin.ext (by show (y 2).val = 0 + 1 * (y 2).val; omega)

/-- After the tile for the partner at mask 3 (computed from the x buffer and slot 5 of the weight buffer, both read back
    whole) is stored, slot 3 holds what the send buffer is to hold there. -/
theorem send_val_3 (c : Dev nD) (fs : Buf (Elt F) (sbM.view.loc (c : Thread nD τ))) :
    ∀ i ∈ (sM 3).view.set,
      (View.write (Elt F) ((Memref.whole cc0_scratch2 : Memref sig .tc .vmem S8x512x256 .bf16).access (Rect.unit (s := S8x512x256) ![3, 0, 0] S1x512x256.size inb_S8x512x256_S1x512x256_3_0_0)) fs
        (k0_pay7 (View.readAt (Elt F) xbM.view (Rect.unit (s := S512x4096) ![0, 0] S512x4096.size inb_S512x4096_S512x4096_0_0).toLoadRect (xV m c))
          (View.readAt (Elt F) (Memref.whole cc0_scratch1 : Memref sig .tc .vmem S8x4096x256 .f32).view (Rect.unit (s := S8x4096x256) ![5, 0, 0] S1x4096x256.size inb_S8x4096x256_S1x4096x256_5_0_0).toLoadRect (wLand (wV m c) c)))
        Finset.univ) i = sendV m c i := by
  intro i hi
  have hi' : i ∈ (sSM 3).view.set := (View.set_reshape _ _) ▸ hi
  have h0 : (i 0).val = (3 : Fin 8).val := (mem_bSR 3 i).mp (sM_set_3 ▸ hi)
  rw [x_read c (xV m c), wslot_read_5 m c]
  refine (slot_write_apply_3 c fs _ i hi').trans ?_
  rw [sendV_slot m c 3 i h0]
  rfl

/-! ## Slot 4 -/

/-- A store of a whole slot through the slice at slot 4 leaves the stored vector on the slot. -/
theorem slot_write_apply_4 (c : Dev nD) (fs : Buf (Elt F) (sbM.view.loc (c : Thread nD τ))) (v : FVec F S1x512x256 .bf16) :
    ∀ i ∈ (sSM 4).view.set, ((sSM 4).view.write (Elt F) fs v Finset.univ) i = v (ix3 (n0 := 1) (n1 := 512) (n2 := 256) 0 (i 1) (i 2)) := by
  intro i hi
  obtain ⟨y, rfl⟩ := View.exists_emb_of_mem_set (sSM 4).view hi
  refine (View.write_emb_of_mem (v := (sSM 4).view) (Val := Elt F) fs v (Finset.mem_univ y)).trans ?_
  show v y = v (ix3 (n0 := 1) (n1 := 512) (n2 := 256) 0 ((sSM 4).view.emb y 1) ((sSM 4).view.emb y 2))
  refine congrArg v ?_
  funext a
  match a with
  | ⟨0, _⟩ => exact Fin.ext (by have h : (y 0).val < 1 := (y 0).isLt; show (y 0).val = 0; omega)
  | ⟨1, _⟩ => exact Fin.ext (by show (y 1).val = 0 + 1 * (y 1).val; omega)
  | ⟨2, _⟩ => exact Fin.ext (by show (y 2).val = 0 + 1 * (y 2).val; omega)

/-- After the tile for the partner at mask 4 (computed from the x buffer and slot 6 of the weight buffer, both read back
    whole) is stored, slot 4 holds what the send buffer is to hold there. -/
theorem send_val_4 (c : Dev nD) (fs : Buf (Elt F) (sbM.view.loc (c : Thread nD τ))) :
    ∀ i ∈ (sM 4).view.set,
      (View.write (Elt F) ((Memref.whole cc0_scratch2 : Memref sig .tc .vmem S8x512x256 .bf16).access (Rect.unit (s := S8x512x256) ![4, 0, 0] S1x512x256.size inb_S8x512x256_S1x512x256_4_0_0)) fs
        (k0_pay8 (View.readAt (Elt F) xbM.view (Rect.unit (s := S512x4096) ![0, 0] S512x4096.size inb_S512x4096_S512x4096_0_0).toLoadRect (xV m c))
          (View.readAt (Elt F) (Memref.whole cc0_scratch1 : Memref sig .tc .vmem S8x4096x256 .f32).view (Rect.unit (s := S8x4096x256) ![6, 0, 0] S1x4096x256.size inb_S8x4096x256_S1x4096x256_6_0_0).toLoadRect (wLand (wV m c) c)))
        Finset.univ) i = sendV m c i := by
  intro i hi
  have hi' : i ∈ (sSM 4).view.set := (View.set_reshape _ _) ▸ hi
  have h0 : (i 0).val = (4 : Fin 8).val := (mem_bSR 4 i).mp (sM_set_4 ▸ hi)
  rw [x_read c (xV m c), wslot_read_6 m c]
  refine (slot_write_apply_4 c fs _ i hi').trans ?_
  rw [sendV_slot m c 4 i h0]
  rfl

/-! ## Slot 5 -/

/-- A store of a whole slot through the slice at slot 5 leaves the stored vector on the slot. -/
theorem slot_write_apply_5 (c : Dev nD) (fs : Buf (Elt F) (sbM.view.loc (c : Thread nD τ))) (v : FVec F S1x512x256 .bf16) :
    ∀ i ∈ (sSM 5).view.set, ((sSM 5).view.write (Elt F) fs v Finset.univ) i = v (ix3 (n0 := 1) (n1 := 512) (n2 := 256) 0 (i 1) (i 2)) := by
  intro i hi
  obtain ⟨y, rfl⟩ := View.exists_emb_of_mem_set (sSM 5).view hi
  refine (View.write_emb_of_mem (v := (sSM 5).view) (Val := Elt F) fs v (Finset.mem_univ y)).trans ?_
  show v y = v (ix3 (n0 := 1) (n1 := 512) (n2 := 256) 0 ((sSM 5).view.emb y 1) ((sSM 5).view.emb y 2))
  refine congrArg v ?_
  funext a
  match a with
  | ⟨0, _⟩ => exact Fin.ext (by have h : (y 0).val < 1 := (y 0).isLt; show (y 0).val = 0; omega)
  | ⟨1, _⟩ => exact Fin.ext (by show (y 1).val = 0 + 1 * (y 1).val; omega)
  | ⟨2, _⟩ => exact Fin.ext (by show (y 2).val = 0 + 1 * (y 2).val; omega)

/-- After the tile for the partner at mask 5 (computed from the x buffer and slot 2 of the weight buffer, both read back
    whole) is stored, slot 5 holds what the send buffer is to hold there. -/
theorem send_val_5 (c : Dev nD) (fs : Buf (Elt F) (sbM.view.loc (c : Thread nD τ))) :
    ∀ i ∈ (sM 5).view.set,
      (View.write (Elt F) ((Memref.whole cc0_scratch2 : Memref sig .tc .vmem S8x512x256 .bf16).access (Rect.unit (s := S8x512x256) ![5, 0, 0] S1x512x256.size inb_S8x512x256_S1x512x256_5_0_0)) fs
        (k0_pay3 (View.readAt (Elt F) xbM.view (Rect.unit (s := S512x4096) ![0, 0] S512x4096.size inb_S512x4096_S512x4096_0_0).toLoadRect (xV m c))
          (View.readAt (Elt F) (Memref.whole cc0_scratch1 : Memref sig .tc .vmem S8x4096x256 .f32).view (Rect.unit (s := S8x4096x256) ![2, 0, 0] S1x4096x256.size inb_S8x4096x256_S1x4096x256_2_0_0).toLoadRect (wLand (wV m c) c)))
        Finset.univ) i = sendV m c i := by
  intro i hi
  have hi' : i ∈ (sSM 5).view.set := (View.set_reshape _ _) ▸ hi
  have h0 : (i 0).val = (5 : Fin 8).val := (mem_bSR 5 i).mp (sM_set_5 ▸ hi)
  rw [x_read c (xV m c), wslot_read_2 m c]
  refine (slot_write_apply_5 c fs _ i hi').trans ?_
  rw [sendV_slot m c 5 i h0]
  rfl

/-! ## Slot 6 -/

/-- A store of a whole slot through the slice at slot 6 leaves the stored vector on the slot. -/
theorem slot_write_apply_6 (c : Dev nD) (fs : Buf (Elt F) (sbM.view.loc (c : Thread nD τ))) (v : FVec F S1x512x256 .bf16) :
    ∀ i ∈ (sSM 6).view.set, ((sSM 6).view.write (Elt F) fs v Finset.univ) i = v (ix3 (n0 := 1) (n1 := 512) (n2 := 256) 0 (i 1) (i 2)) := by
  intro i hi
  obtain ⟨y, rfl⟩ := View.exists_emb_of_mem_set (sSM 6).view hi
  refine (View.write_emb_of_mem (v := (sSM 6).view) (Val := Elt F) fs v (Finset.mem_univ y)).trans ?_
  show v y = v (ix3 (n0 := 1) (n1 := 512) (n2 := 256) 0 ((sSM 6).view.emb y 1) ((sSM 6).view.emb y 2))
  refine congrArg v ?_
  funext a
  match a with
  | ⟨0, _⟩ => exact Fin.ext (by have h : (y 0).val < 1 := (y 0).isLt; show (y 0).val = 0; omega)
  | ⟨1, _⟩ => exact Fin.ext (by show (y 1).val = 0 + 1 * (y 1).val; omega)
  | ⟨2, _⟩ => exact Fin.ext (by show (y 2).val = 0 + 1 * (y 2).val; omega)

/-- After the tile for the partner at mask 6 (computed from the x buffer and slot 0 of the weight buffer, both read back
    whole) is stored, slot 6 holds what the send buffer is to hold there. -/
theorem send_val_6 (c : Dev nD) (fs : Buf (Elt F) (sbM.view.loc (c : Thread nD τ))) :
    ∀ i ∈ (sM 6).view.set,
      (View.write (Elt F) ((Memref.whole cc0_scratch2 : Memref sig .tc .vmem S8x512x256 .bf16).access (Rect.unit (s := S8x512x256) ![6, 0, 0] S1x512x256.size inb_S8x512x256_S1x512x256_6_0_0)) fs
        (k0_pay1 (View.readAt (Elt F) xbM.view (Rect.unit (s := S512x4096) ![0, 0] S512x4096.size inb_S512x4096_S512x4096_0_0).toLoadRect (xV m c))
          (View.readAt (Elt F) (Memref.whole cc0_scratch1 : Memref sig .tc .vmem S8x4096x256 .f32).view (Rect.unit (s := S8x4096x256) ![0, 0, 0] S1x4096x256.size inb_S8x4096x256_S1x4096x256_0_0_0).toLoadRect (wLand (wV m c) c)))
        Finset.univ) i = sendV m c i := by
  intro i hi
  have hi' : i ∈ (sSM 6).view.set := (View.set_reshape _ _) ▸ hi
  have h0 : (i 0).val = (6 : Fin 8).val := (mem_bSR 6 i).mp (sM_set_6 ▸ hi)
  rw [x_read c (xV m c), wslot_read_0 m c]
  refine (slot_write_apply_6 c fs _ i hi').trans ?_
  rw [sendV_slot m c 6 i h0]
  rfl

/-! ## Slot 7 -/

/-- A store of a whole slot through the slice at slot 7 leaves the stored vector on the slot. -/
theorem slot_write_apply_7 (c : Dev nD) (fs : Buf (Elt F) (sbM.view.loc (c : Thread nD τ))) (v : FVec F S1x512x256 .bf16) :
    ∀ i ∈ (sSM 7).view.set, ((sSM 7).view.write (Elt F) fs v Finset.univ) i = v (ix3 (n0 := 1) (n1 := 512) (n2 := 256) 0 (i 1) (i 2)) := by
  intro i hi
  obtain ⟨y, rfl⟩ := View.exists_emb_of_mem_set (sSM 7).view hi
  refine (View.write_emb_of_mem (v := (sSM 7).view) (Val := Elt F) fs v (Finset.mem_univ y)).trans ?_
  show v y = v (ix3 (n0 := 1) (n1 := 512) (n2 := 256) 0 ((sSM 7).view.emb y 1) ((sSM 7).view.emb y 2))
  refine congrArg v ?_
  funext a
  match a with
  | ⟨0, _⟩ => exact Fin.ext (by have h : (y 0).val < 1 := (y 0).isLt; show (y 0).val = 0; omega)
  | ⟨1, _⟩ => exact Fin.ext (by show (y 1).val = 0 + 1 * (y 1).val; omega)
  | ⟨2, _⟩ => exact Fin.ext (by show (y 2).val = 0 + 1 * (y 2).val; omega)

/-- After the tile for the partner at mask 7 (computed from the x buffer and slot 3 of the weight buffer, both read back
    whole) is stored, slot 7 holds what the send buffer is to hold there. -/
theorem send_val_7 (c : Dev nD) (fs : Buf (Elt F) (sbM.view.loc (c : Thread nD τ))) :
    ∀ i ∈ (sM 7).view.set,
      (View.write (Elt F) ((Memref.whole cc0_scratch2 : Memref sig .tc .vmem S8x512x256 .bf16).access (Rect.unit (s := S8x512x256) ![7, 0, 0] S1x512x256.size inb_S8x512x256_S1x512x256_7_0_0)) fs
        (k0_pay4 (View.readAt (Elt F) xbM.view (Rect.unit (s := S512x4096) ![0, 0] S512x4096.size inb_S512x4096_S512x4096_0_0).toLoadRect (xV m c))
          (View.readAt (Elt F) (Memref.whole cc0_scratch1 : Memref sig .tc .vmem S8x4096x256 .f32).view (Rect.unit (s := S8x4096x256) ![3, 0, 0] S1x4096x256.size inb_S8x4096x256_S1x4096x256_3_0_0).toLoadRect (wLand (wV m c) c)))
        Finset.univ) i = sendV m c i := by
  intro i hi
  have hi' : i ∈ (sSM 7).view.set := (View.set_reshape _ _) ▸ hi
  have h0 : (i 0).val = (7 : Fin 8).val := (mem_bSR 7 i).mp (sM_set_7 ▸ hi)
  rw [x_read c (xV m c), wslot_read_3 m c]
  refine (slot_write_apply_7 c fs _ i hi').trans ?_
  rw [sendV_slot m c 7 i h0]
  rfl

/-- info: 'Cert.KernelIdeal.A2A.send_val_1' depends on axioms: [propext, Classical.choice, Quot.sound] -/
#guard_msgs in #print axioms send_val_1

end Cert.KernelIdeal.A2A

end
-- ==== Proof.OutFinal.lean ====
/-
  What the output block holds after the body's eight row-block stores. The block is 4096 x 256: eight row blocks of 512
  rows. The body stores the tile the device keeps into row block c, then for every nonzero mask t the widened tile
  received in slot t into row block c xor t. For a fixed device the map t -> c xor t is a bijection of the masks onto the
  row blocks, so every row block is written exactly once, and a later store at another row block leaves it as it is: the
  element in row block b, row r, column n ends as the kept tile at (r, n) when b = c, and as the tile of slot b xor c at
  (r, n) otherwise, whatever the block held before.
-/
import proofs.«900796_g7700000000000797_dist_gemm_a2a_m4096_k4096_n2048_f32_gelu_v7x_i8_1_alg».proof.Proof.Vals
import proofs.«900796_g7700000000000797_dist_gemm_a2a_m4096_k4096_n2048_f32_gelu_v7x_i8_1_alg».proof.Proof.DevEq
import proofs.«900796_g7700000000000797_dist_gemm_a2a_m4096_k4096_n2048_f32_gelu_v7x_i8_1_alg».proof.Proof.Pieces
import Idealize.ShloMosaic.Lib.Pipeline.Value

noncomputable section

namespace Cert.KernelIdeal.A2A

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

/-! ## One store of a row block -/

/-- A store of a whole 512 x 256 block through the output block at rows `512 p ..` puts the block's element `(r, n)` at
    row `r` of row block `p` and leaves every other row block as it was. -/
theorem write_block (c : Dev nD) (p : ℕ) (off : Fin 2 → ℕ) (hoff : off = ![512 * p, 0])
    (inb : ∀ a, off a + S512x256.size a ≤ S4096x256.size a)
    (f : Buf (Elt F) (outM.view.loc (c : Thread nD τ))) (w : FVec F S512x256 .f32) (b : Fin 8) (r : Fin 512) (n : Fin 256) :
    ((outM.access (Rect.unit (s := S4096x256) off S512x256.size inb)).write (Elt F) f w Finset.univ : Buf (Elt F) (outM.view.loc (c : Thread nD τ)))
        (ix2 (n0 := 4096) (n1 := 256) ⟨512 * b.val + r.val, by have := b.isLt; have := r.isLt; omega⟩ n)
      = if b.val = p then w (ix2 r n) else f (ix2 (n0 := 4096) (n1 := 256) ⟨512 * b.val + r.val, by have := b.isLt; have := r.isLt; omega⟩ n) := by
  subst hoff
  by_cases h : b.val = p
  · rw [if_pos h]
    have he : (outM.access (Rect.unit (s := S4096x256) ![512 * p, 0] S512x256.size inb)).emb (ix2 r n)
        = ix2 (n0 := 4096) (n1 := 256) ⟨512 * b.val + r.val, by have := b.isLt; have := r.isLt; omega⟩ n := by
      funext a
      match a with
      | ⟨0, _⟩ => exact Fin.ext (by show 512 * p + 1 * r.val = 512 * b.val + r.val; omega)
      | ⟨1, _⟩ => exact Fin.ext (by show 0 + 1 * n.val = n.val; omega)
    rw [← he, View.write_emb_of_mem _ _ (Finset.mem_univ _)]
    rfl
  · rw [if_neg h]
    apply View.write_of_not_mem
    rw [View.setOn_univ]
    show _ ∉ ((View.whole cc0_stg0_0).slice (Rect.unit (s := S4096x256) ![512 * p, 0] S512x256.size inb)).set
    rw [View.set_slice_whole, Rect.mem_set_unit]
    intro H
    have H0 := H 0
    have hr := r.isLt
    simp only [Matrix.cons_val_zero, Shape.size] at H0
    have e0 : ((ix2 (n0 := 4096) (n1 := 256) ⟨512 * b.val + r.val, by have := b.isLt; omega⟩ n) 0).val = 512 * b.val + r.val := rfl
    omega

/-! ## The eight stores -/

/-- The row block the device's own tile is stored at, as the program names it. -/
abbrev R0 (c : Dev nD) : Rect S4096x256 := Rect.unit (s := S4096x256) (k0_off3 c) S512x256.size (k0_off3_inb c)
/-- The row block the tile of slot 1 is stored at. -/
abbrev R1 (c : Dev nD) : Rect S4096x256 := Rect.unit (s := S4096x256) (k0_off4 c 1#32) S512x256.size (k0_off4_inb c 0)
/-- The row block the tile of slot 2 is stored at. -/
abbrev R2 (c : Dev nD) : Rect S4096x256 := Rect.unit (s := S4096x256) (k0_off4 c 2#32) S512x256.size (k0_off4_inb c 1)
/-- The row block the tile of slot 3 is stored at. -/
abbrev R3 (c : Dev nD) : Rect S4096x256 := Rect.unit (s := S4096x256) (k0_off4 c 3#32) S512x256.size (k0_off4_inb c 2)
/-- The row block the tile of slot 4 is stored at. -/
abbrev R4 (c : Dev nD) : Rect S4096x256 := Rect.unit (s := S4096x256) (k0_off4 c 4#32) S512x256.size (k0_off4_inb c 3)
/-- The row block the tile of slot 5 is stored at. -/
abbrev R5 (c : Dev nD) : Rect S4096x256 := Rect.unit (s := S4096x256) (k0_off4 c 5#32) S512x256.size (k0_off4_inb c 4)
/-- The row block the tile of slot 6 is stored at. -/
abbrev R6 (c : Dev nD) : Rect S4096x256 := Rect.unit (s := S4096x256) (k0_off4 c 6#32) S512x256.size (k0_off4_inb c 5)
/-- The row block the tile of slot 7 is stored at. -/
abbrev R7 (c : Dev nD) : Rect S4096x256 := Rect.unit (s := S4096x256) (k0_off4 c 7#32) S512x256.size (k0_off4_inb c 6)

/-- The output block after the eight stores, in program order: the kept tile `T0` first, then the tile `V t` of every
    nonzero slot `t` in turn, from contents `fo`. -/
def outWrites (c : Dev nD) (fo : Buf (Elt F) (outM.view.loc (c : Thread nD τ))) (T0 : FVec F S512x256 .f32)
    (V : Fin 8 → FVec F S512x256 .f32) : Buf (Elt F) (outM.view.loc (c : Thread nD τ)) :=
  ((outM.access (R7 c)).write (Elt F)
    ((outM.access (R6 c)).write (Elt F)
    ((outM.access (R5 c)).write (Elt F)
    ((outM.access (R4 c)).write (Elt F)
    ((outM.access (R3 c)).write (Elt F)
    ((outM.access (R2 c)).write (Elt F)
    ((outM.access (R1 c)).write (Elt F)
    ((outM.access (R0 c)).write (Elt F) fo T0 Finset.univ)
    (V 1) Finset.univ)
    (V 2) Finset.univ)
    (V 3) Finset.univ)
    (V 4) Finset.univ)
    (V 5) Finset.univ)
    (V 6) Finset.univ)
    (V 7) Finset.univ)

theorem write_R0 (c : Dev nD) (f : Buf (Elt F) (outM.view.loc (c : Thread nD τ))) (w : FVec F S512x256 .f32) (b : Fin 8) (r : Fin 512) (n : Fin 256) :
    ((outM.access (R0 c)).write (Elt F) f w Finset.univ : Buf (Elt F) (outM.view.loc (c : Thread nD τ)))
        (ix2 (n0 := 4096) (n1 := 256) ⟨512 * b.val + r.val, by have := b.isLt; have := r.isLt; omega⟩ n)
      = if b.val = c.val then w (ix2 r n) else f (ix2 (n0 := 4096) (n1 := 256) ⟨512 * b.val + r.val, by have := b.isLt; have := r.isLt; omega⟩ n) :=
  write_block c c.val (k0_off3 c) (off3_eq' c) (k0_off3_inb c) f w b r n
theorem write_R1 (c : Dev nD) (f : Buf (Elt F) (outM.view.loc (c : Thread nD τ))) (w : FVec F S512x256 .f32) (b : Fin 8) (r : Fin 512) (n : Fin 256) :
    ((outM.access (R1 c)).write (Elt F) f w Finset.univ : Buf (Elt F) (outM.view.loc (c : Thread nD τ)))
        (ix2 (n0 := 4096) (n1 := 256) ⟨512 * b.val + r.val, by have := b.isLt; have := r.isLt; omega⟩ n)
      = if b.val = (px c 1).val then w (ix2 r n) else f (ix2 (n0 := 4096) (n1 := 256) ⟨512 * b.val + r.val, by have := b.isLt; have := r.isLt; omega⟩ n) :=
  write_block c (px c 1).val (k0_off4 c 1#32) (off4_eq_1 c) (k0_off4_inb c 0) f w b r n
theorem write_R2 (c : Dev nD) (f : Buf (Elt F) (outM.view.loc (c : Thread nD τ))) (w : FVec F S512x256 .f32) (b : Fin 8) (r : Fin 512) (n : Fin 256) :
    ((outM.access (R2 c)).write (Elt F) f w Finset.univ : Buf (Elt F) (outM.view.loc (c : Thread nD τ)))
        (ix2 (n0 := 4096) (n1 := 256) ⟨512 * b.val + r.val, by have := b.isLt; have := r.isLt; omega⟩ n)
      = if b.val = (px c 2).val then w (ix2 r n) else f (ix2 (n0 := 4096) (n1 := 256) ⟨512 * b.val + r.val, by have := b.isLt; have := r.isLt; omega⟩ n) :=
  write_block c (px c 2).val (k0_off4 c 2#32) (off4_eq_2 c) (k0_off4_inb c 1) f w b r n
theorem write_R3 (c : Dev nD) (f : Buf (Elt F) (outM.view.loc (c : Thread nD τ))) (w : FVec F S512x256 .f32) (b : Fin 8) (r : Fin 512) (n : Fin 256) :
    ((outM.access (R3 c)).write (Elt F) f w Finset.univ : Buf (Elt F) (outM.view.loc (c : Thread nD τ)))
        (ix2 (n0 := 4096) (n1 := 256) ⟨512 * b.val + r.val, by have := b.isLt; have := r.isLt; omega⟩ n)
      = if b.val = (px c 3).val then w (ix2 r n) else f (ix2 (n0 := 4096) (n1 := 256) ⟨512 * b.val + r.val, by have := b.isLt; have := r.isLt; omega⟩ n) :=
  write_block c (px c 3).val (k0_off4 c 3#32) (off4_eq_3 c) (k0_off4_inb c 2) f w b r n
theorem write_R4 (c : Dev nD) (f : Buf (Elt F) (outM.view.loc (c : Thread nD τ))) (w : FVec F S512x256 .f32) (b : Fin 8) (r : Fin 512) (n : Fin 256) :
    ((outM.access (R4 c)).write (Elt F) f w Finset.univ : Buf (Elt F) (outM.view.loc (c : Thread nD τ)))
        (ix2 (n0 := 4096) (n1 := 256) ⟨512 * b.val + r.val, by have := b.isLt; have := r.isLt; omega⟩ n)
      = if b.val = (px c 4).val then w (ix2 r n) else f (ix2 (n0 := 4096) (n1 := 256) ⟨512 * b.val + r.val, by have := b.isLt; have := r.isLt; omega⟩ n) :=
  write_block c (px c 4).val (k0_off4 c 4#32) (off4_eq_4 c) (k0_off4_inb c 3) f w b r n
theorem write_R5 (c : Dev nD) (f : Buf (Elt F) (outM.view.loc (c : Thread nD τ))) (w : FVec F S512x256 .f32) (b : Fin 8) (r : Fin 512) (n : Fin 256) :
    ((outM.access (R5 c)).write (Elt F) f w Finset.univ : Buf (Elt F) (outM.view.loc (c : Thread nD τ)))
        (ix2 (n0 := 4096) (n1 := 256) ⟨512 * b.val + r.val, by have := b.isLt; have := r.isLt; omega⟩ n)
      = if b.val = (px c 5).val then w (ix2 r n) else f (ix2 (n0 := 4096) (n1 := 256) ⟨512 * b.val + r.val, by have := b.isLt; have := r.isLt; omega⟩ n) :=
  write_block c (px c 5).val (k0_off4 c 5#32) (off4_eq_5 c) (k0_off4_inb c 4) f w b r n
theorem write_R6 (c : Dev nD) (f : Buf (Elt F) (outM.view.loc (c : Thread nD τ))) (w : FVec F S512x256 .f32) (b : Fin 8) (r : Fin 512) (n : Fin 256) :
    ((outM.access (R6 c)).write (Elt F) f w Finset.univ : Buf (Elt F) (outM.view.loc (c : Thread nD τ)))
        (ix2 (n0 := 4096) (n1 := 256) ⟨512 * b.val + r.val, by have := b.isLt; have := r.isLt; omega⟩ n)
      = if b.val = (px c 6).val then w (ix2 r n) else f (ix2 (n0 := 4096) (n1 := 256) ⟨512 * b.val + r.val, by have := b.isLt; have := r.isLt; omega⟩ n) :=
  write_block c (px c 6).val (k0_off4 c 6#32) (off4_eq_6 c) (k0_off4_inb c 5) f w b r n
theorem write_R7 (c : Dev nD) (f : Buf (Elt F) (outM.view.loc (c : Thread nD τ))) (w : FVec F S512x256 .f32) (b : Fin 8) (r : Fin 512) (n : Fin 256) :
    ((outM.access (R7 c)).write (Elt F) f w Finset.univ : Buf (Elt F) (outM.view.loc (c : Thread nD τ)))
        (ix2 (n0 := 4096) (n1 := 256) ⟨512 * b.val + r.val, by have := b.isLt; have := r.isLt; omega⟩ n)
      = if b.val = (px c 7).val then w (ix2 r n) else f (ix2 (n0 := 4096) (n1 := 256) ⟨512 * b.val + r.val, by have := b.isLt; have := r.isLt; omega⟩ n) :=
  write_block c (px c 7).val (k0_off4 c 7#32) (off4_eq_7 c) (k0_off4_inb c 6) f w b r n

/-- Which store a row block takes its contents from: row block `c` from the first, row block `b ≠ c` from the store of
    slot `b xor c` (the masks' images under `t -> c xor t` are pairwise different and cover the row blocks). -/
theorem pick {X : Type} (c : Dev nD) (b : Fin 8) (x0 xo : X) (V : Fin 8 → X) :
    (if b.val = (px c 7).val then V 7 else if b.val = (px c 6).val then V 6 else if b.val = (px c 5).val then V 5 else if b.val = (px c 4).val then V 4 else if b.val = (px c 3).val then V 3 else if b.val = (px c 2).val then V 2 else if b.val = (px c 1).val then V 1 else if b.val = c.val then x0 else xo)
      = if b.val = c.val then x0 else V ⟨b.val ^^^ c.val, Nat.xor_lt_two_pow (n := 3) b.isLt c.isLt⟩ := by
  fin_cases b <;> fin_cases c <;> rfl

/-- The element in row block `b`, row `r`, column `n` after the eight stores. -/
theorem outWrites_apply (c : Dev nD) (fo : Buf (Elt F) (outM.view.loc (c : Thread nD τ))) (T0 : FVec F S512x256 .f32)
    (V : Fin 8 → FVec F S512x256 .f32) (b : Fin 8) (r : Fin 512) (n : Fin 256) :
    outWrites c fo T0 V (ix2 (n0 := 4096) (n1 := 256) ⟨512 * b.val + r.val, by have := b.isLt; have := r.isLt; omega⟩ n)
      = if b.val = c.val then T0 (ix2 r n) else V ⟨b.val ^^^ c.val, Nat.xor_lt_two_pow (n := 3) b.isLt c.isLt⟩ (ix2 r n) := by
  unfold outWrites
  rw [write_R7, write_R6, write_R5, write_R4, write_R3, write_R2, write_R1, write_R0]
  exact pick c b (T0 (ix2 r n)) (fo (ix2 (n0 := 4096) (n1 := 256) ⟨512 * b.val + r.val, by have := b.isLt; have := r.isLt; omega⟩ n)) (fun t => V t (ix2 r n))

/-- With the kept tile and the widened received tiles stored, the output block is the device's result block. -/
theorem outWrites_eq_outV (c : Dev nD) (fo : Buf (Elt F) (outM.view.loc (c : Thread nD τ))) :
    outWrites c fo (tileF m c) (fun t => k0_pay13 (recvSlot m c t)) = outV m c := by
  funext i
  have h0 : (i 0).val < 4096 := (i 0).isLt
  have hi : i = ix2 (n0 := 4096) (n1 := 256) ⟨512 * ((i 0).val / 512) + (i 0).val % 512, by omega⟩ (i 1) := by
    funext a
    match a with
    | ⟨0, _⟩ => exact Fin.ext (by show (i 0).val = 512 * ((i 0).val / 512) + (i 0).val % 512; omega)
    | ⟨1, _⟩ => rfl
  have key := outWrites_apply c fo (tileF m c) (fun t => k0_pay13 (recvSlot m c t))
    ⟨(i 0).val / 512, by omega⟩ ⟨(i 0).val % 512, Nat.mod_lt _ (by decide)⟩ (i 1)
  exact (congrArg (outWrites c fo (tileF m c) (fun t => k0_pay13 (recvSlot m c t))) hi).trans key

/-- info: 'Cert.KernelIdeal.A2A.outWrites_eq_outV' depends on axioms: [propext, Classical.choice, Quot.sound] -/
#guard_msgs in #print axioms outWrites_eq_outV

end Cert.KernelIdeal.A2A

end
-- ==== Proof.RecvVal.lean ====
/-
  What a load of one slot of the receive buffer returns once every slot has landed: slot t read through the whole buffer
  is the tile the device c xor t computed for c, as one slot.
-/
import proofs.«900796_g7700000000000797_dist_gemm_a2a_m4096_k4096_n2048_f32_gelu_v7x_i8_1_alg».proof.Proof.Slots
import proofs.«900796_g7700000000000797_dist_gemm_a2a_m4096_k4096_n2048_f32_gelu_v7x_i8_1_alg».proof.Proof.Vals

noncomputable section

namespace Cert.KernelIdeal.A2A

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The load of slot `t` through the whole buffer reads the buffer at row block `t`: index for index. -/
theorem recv_read (c : Dev nD) (t : Fin 8) (inb : ∀ a, (![t.val, 0, 0] : Fin 3 → ℕ) a + S1x512x256.size a ≤ S8x512x256.size a) :
    View.readAt (Elt F) (Memref.whole cc0_scratch3 : Memref sig .tc .vmem S8x512x256 .bf16).view
        (Rect.unit (s := S8x512x256) ![t.val, 0, 0] S1x512x256.size inb).toLoadRect (recvV m c)
      = recvSlot m c t := by
  funext j
  have j0 : (j 0).val < 1 := (j 0).isLt
  show recvV m c ((Rect.unit (s := S8x512x256) ![t.val, 0, 0] S1x512x256.size inb).emb j)
    = recvV m c (ix3 (n0 := 8) (n1 := 512) (n2 := 256) t (j 1) (j 2))
  refine congrArg (recvV m c) ?_
  funext d
  match d with
  | ⟨0, _⟩ => exact Fin.ext (by show t.val + 1 * (j 0).val = t.val; omega)
  | ⟨1, _⟩ => exact Fin.ext (by show 0 + 1 * (j 1).val = (j 1).val; omega)
  | ⟨2, _⟩ => exact Fin.ext (by show 0 + 1 * (j 2).val = (j 2).val; omega)

/-! ## The seven slots the body loads -/

theorem recv_read_1 (c : Dev nD) :
    View.readAt (Elt F) (Memref.whole cc0_scratch3 : Memref sig .tc .vmem S8x512x256 .bf16).view
        (Rect.unit (s := S8x512x256) ![1, 0, 0] S1x512x256.size inb_S8x512x256_S1x512x256_1_0_0).toLoadRect (recvV m c)
      = recvSlot m c 1 :=
  recv_read m c 1 inb_S8x512x256_S1x512x256_1_0_0

theorem recv_read_2 (c : Dev nD) :
    View.readAt (Elt F) (Memref.whole cc0_scratch3 : Memref sig .tc .vmem S8x512x256 .bf16).view
        (Rect.unit (s := S8x512x256) ![2, 0, 0] S1x512x256.size inb_S8x512x256_S1x512x256_2_0_0).toLoadRect (recvV m c)
      = recvSlot m c 2 :=
  recv_read m c 2 inb_S8x512x256_S1x512x256_2_0_0

theorem recv_read_3 (c : Dev nD) :
    View.readAt (Elt F) (Memref.whole cc0_scratch3 : Memref sig .tc .vmem S8x512x256 .bf16).view
        (Rect.unit (s := S8x512x256) ![3, 0, 0] S1x512x256.size inb_S8x512x256_S1x512x256_3_0_0).toLoadRect (recvV m c)
      = recvSlot m c 3 :=
  recv_read m c 3 inb_S8x512x256_S1x512x256_3_0_0

theorem recv_read_4 (c : Dev nD) :
    View.readAt (Elt F) (Memref.whole cc0_scratch3 : Memref sig .tc .vmem S8x512x256 .bf16).view
        (Rect.unit (s := S8x512x256) ![4, 0, 0] S1x512x256.size inb_S8x512x256_S1x512x256_4_0_0).toLoadRect (recvV m c)
      = recvSlot m c 4 :=
  recv_read m c 4 inb_S8x512x256_S1x512x256_4_0_0

theorem recv_read_5 (c : Dev nD) :
    View.readAt (Elt F) (Memref.whole cc0_scratch3 : Memref sig .tc .vmem S8x512x256 .bf16).view
        (Rect.unit (s := S8x512x256) ![5, 0, 0] S1x512x256.size inb_S8x512x256_S1x512x256_5_0_0).toLoadRect (recvV m c)
      = recvSlot m c 5 :=
  recv_read m c 5 inb_S8x512x256_S1x512x256_5_0_0

theorem recv_read_6 (c : Dev nD) :
    View.readAt (Elt F) (Memref.whole cc0_scratch3 : Memref sig .tc .vmem S8x512x256 .bf16).view
        (Rect.unit (s := S8x512x256) ![6, 0, 0] S1x512x256.size inb_S8x512x256_S1x512x256_6_0_0).toLoadRect (recvV m c)
      = recvSlot m c 6 :=
  recv_read m c 6 inb_S8x512x256_S1x512x256_6_0_0

theorem recv_read_7 (c : Dev nD) :
    View.readAt (Elt F) (Memref.whole cc0_scratch3 : Memref sig .tc .vmem S8x512x256 .bf16).view
        (Rect.unit (s := S8x512x256) ![7, 0, 0] S1x512x256.size inb_S8x512x256_S1x512x256_7_0_0).toLoadRect (recvV m c)
      = recvSlot m c 7 :=
  recv_read m c 7 inb_S8x512x256_S1x512x256_7_0_0

/-- info: 'Cert.KernelIdeal.A2A.recv_read_1' depends on axioms: [propext, Classical.choice, Quot.sound] -/
#guard_msgs in #print axioms recv_read_1

end Cert.KernelIdeal.A2A

end
-- ==== Proof.OutVal.lean ====
/-
  The output block at the end of the body, with the values the stores carry. The kept tile is computed from the x buffer
  and slot 7 of the weight buffer read back whole: the device's block of x and its own 256 columns of w. The tile stored
  for slot t is slot t of the receive buffer read back whole and widened; the program widens the seven slots by the same
  two operations, printed under seven names. With these values the eight stores leave the device's result block.
-/
import proofs.«900796_g7700000000000797_dist_gemm_a2a_m4096_k4096_n2048_f32_gelu_v7x_i8_1_alg».proof.Proof.OutFinal
import proofs.«900796_g7700000000000797_dist_gemm_a2a_m4096_k4096_n2048_f32_gelu_v7x_i8_1_alg».proof.Proof.Slots
import proofs.«900796_g7700000000000797_dist_gemm_a2a_m4096_k4096_n2048_f32_gelu_v7x_i8_1_alg».proof.Proof.SendVal
import proofs.«900796_g7700000000000797_dist_gemm_a2a_m4096_k4096_n2048_f32_gelu_v7x_i8_1_alg».proof.Proof.RecvVal

noncomputable section

namespace Cert.KernelIdeal.A2A

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The seven widenings are one function -/

theorem pay14_eq : (k0_pay14 (F := F)) = k0_pay13 := rfl
theorem pay15_eq : (k0_pay15 (F := F)) = k0_pay13 := rfl
theorem pay16_eq : (k0_pay16 (F := F)) = k0_pay13 := rfl
theorem pay17_eq : (k0_pay17 (F := F)) = k0_pay13 := rfl
theorem pay18_eq : (k0_pay18 (F := F)) = k0_pay13 := rfl
/-- The widening printed in two parts: the unit axis dropped, then the elements widened. -/
theorem pay2019_eq (v : Vec F S1x512x256 .bf16) : k0_pay20 (k0_pay19 (F := F) v) = k0_pay13 v := rfl

/-! ## The values the stores carry -/

/-- The kept tile as the body computes it: from the x buffer and slot 7 of the weight buffer, read back whole. -/
abbrev keptTile (c : Dev nD) : FVec F S512x256 .f32 :=
  (k0_pay12 (k0_pay9 (View.readAt (Elt F) xbM.view (Rect.unit (s := S512x4096) ![0, 0] S512x4096.size inb_S512x4096_S512x4096_0_0).toLoadRect (xV m c)) (View.readAt (Elt F) (Memref.whole cc0_scratch1 : Memref sig .tc .vmem S8x4096x256 .f32).view (Rect.unit (s := S8x4096x256) ![7, 0, 0] S1x4096x256.size inb_S8x4096x256_S1x4096x256_7_0_0).toLoadRect (wLand (wV m c) c)))
      (k0_pay10 (View.readAt (Elt F) xbM.view (Rect.unit (s := S512x4096) ![0, 0] S512x4096.size inb_S512x4096_S512x4096_0_0).toLoadRect (xV m c)) (View.readAt (Elt F) (Memref.whole cc0_scratch1 : Memref sig .tc .vmem S8x4096x256 .f32).view (Rect.unit (s := S8x4096x256) ![7, 0, 0] S1x4096x256.size inb_S8x4096x256_S1x4096x256_7_0_0).toLoadRect (wLand (wV m c) c)))
      (k0_pay11 (View.readAt (Elt F) xbM.view (Rect.unit (s := S512x4096) ![0, 0] S512x4096.size inb_S512x4096_S512x4096_0_0).toLoadRect (xV m c)) (View.readAt (Elt F) (Memref.whole cc0_scratch1 : Memref sig .tc .vmem S8x4096x256 .f32).view (Rect.unit (s := S8x4096x256) ![7, 0, 0] S1x4096x256.size inb_S8x4096x256_S1x4096x256_7_0_0).toLoadRect (wLand (wV m c) c))))

/-- The tile stored for slot `t` as the body computes it: slot `t` of the receive buffer read back whole, widened. (Slot 0 is
    never stored.) -/
abbrev gotTile (c : Dev nD) : Fin 8 → FVec F S512x256 .f32
  | ⟨0, _⟩ => k0_pay13 (recvSlot m c 0)
  | ⟨1, _⟩ => (k0_pay13 (View.readAt (Elt F) (Memref.whole cc0_scratch3 : Memref sig .tc .vmem S8x512x256 .bf16).view (Rect.unit (s := S8x512x256) ![1, 0, 0] S1x512x256.size inb_S8x512x256_S1x512x256_1_0_0).toLoadRect (recvV m c)))
  | ⟨2, _⟩ => (k0_pay14 (View.readAt (Elt F) (Memref.whole cc0_scratch3 : Memref sig .tc .vmem S8x512x256 .bf16).view (Rect.unit (s := S8x512x256) ![2, 0, 0] S1x512x256.size inb_S8x512x256_S1x512x256_2_0_0).toLoadRect (recvV m c)))
  | ⟨3, _⟩ => (k0_pay15 (View.readAt (Elt F) (Memref.whole cc0_scratch3 : Memref sig .tc .vmem S8x512x256 .bf16).view (Rect.unit (s := S8x512x256) ![3, 0, 0] S1x512x256.size inb_S8x512x256_S1x512x256_3_0_0).toLoadRect (recvV m c)))
  | ⟨4, _⟩ => (k0_pay16 (View.readAt (Elt F) (Memref.whole cc0_scratch3 : Memref sig .tc .vmem S8x512x256 .bf16).view (Rect.unit (s := S8x512x256) ![4, 0, 0] S1x512x256.size inb_S8x512x256_S1x512x256_4_0_0).toLoadRect (recvV m c)))
  | ⟨5, _⟩ => (k0_pay17 (View.readAt (Elt F) (Memref.whole cc0_scratch3 : Memref sig .tc .vmem S8x512x256 .bf16).view (Rect.unit (s := S8x512x256) ![5, 0, 0] S1x512x256.size inb_S8x512x256_S1x512x256_5_0_0).toLoadRect (recvV m c)))
  | ⟨6, _⟩ => (k0_pay18 (View.readAt (Elt F) (Memref.whole cc0_scratch3 : Memref sig .tc .vmem S8x512x256 .bf16).view (Rect.unit (s := S8x512x256) ![6, 0, 0] S1x512x256.size inb_S8x512x256_S1x512x256_6_0_0).toLoadRect (recvV m c)))
  | ⟨7, _⟩ => (k0_pay20 (k0_pay19 (View.readAt (Elt F) (Memref.whole cc0_scratch3 : Memref sig .tc .vmem S8x512x256 .bf16).view (Rect.unit (s := S8x512x256) ![7, 0, 0] S1x512x256.size inb_S8x512x256_S1x512x256_7_0_0).toLoadRect (recvV m c))))
  | ⟨_ + 8, h⟩ => absurd h (by omega)

/-- The kept tile is the tile the device computes for its own column block. -/
theorem keptTile_eq (c : Dev nD) : keptTile m c = tileF m c := by
  unfold keptTile tileF
  rw [x_read c (xV m c), wslot_read_7 m c, px_zero]

/-- The tile stored for slot `t` is the widened slot `t` of the landed receive buffer. -/
theorem gotTile_eq (c : Dev nD) : gotTile m c = fun t => k0_pay13 (recvSlot m c t) := by
  funext t
  match t with
  | ⟨0, _⟩ => rfl
  | ⟨1, _⟩ =>
    show k0_pay13 (View.readAt (Elt F) (Memref.whole cc0_scratch3 : Memref sig .tc .vmem S8x512x256 .bf16).view (Rect.unit (s := S8x512x256) ![1, 0, 0] S1x512x256.size inb_S8x512x256_S1x512x256_1_0_0).toLoadRect (recvV m c)) = k0_pay13 (recvSlot m c 1)
    rw [recv_read_1 m c]
  | ⟨2, _⟩ =>
    show k0_pay14 (View.readAt (Elt F) (Memref.whole cc0_scratch3 : Memref sig .tc .vmem S8x512x256 .bf16).view (Rect.unit (s := S8x512x256) ![2, 0, 0] S1x512x256.size inb_S8x512x256_S1x512x256_2_0_0).toLoadRect (recvV m c)) = k0_pay13 (recvSlot m c 2)
    rw [recv_read_2 m c]
    rfl
  | ⟨3, _⟩ =>
    show k0_pay15 (View.readAt (Elt F) (Memref.whole cc0_scratch3 : Memref sig .tc .vmem S8x512x256 .bf16).view (Rect.unit (s := S8x512x256) ![3, 0, 0] S1x512x256.size inb_S8x512x256_S1x512x256_3_0_0).toLoadRect (recvV m c)) = k0_pay13 (recvSlot m c 3)
    rw [recv_read_3 m c]
    rfl
  | ⟨4, _⟩ =>
    show k0_pay16 (View.readAt (Elt F) (Memref.whole cc0_scratch3 : Memref sig .tc .vmem S8x512x256 .bf16).view (Rect.unit (s := S8x512x256) ![4, 0, 0] S1x512x256.size inb_S8x512x256_S1x512x256_4_0_0).toLoadRect (recvV m c)) = k0_pay13 (recvSlot m c 4)
    rw [recv_read_4 m c]
    rfl
  | ⟨5, _⟩ =>
    show k0_pay17 (View.readAt (Elt F) (Memref.whole cc0_scratch3 : Memref sig .tc .vmem S8x512x256 .bf16).view (Rect.unit (s := S8x512x256) ![5, 0, 0] S1x512x256.size inb_S8x512x256_S1x512x256_5_0_0).toLoadRect (recvV m c)) = k0_pay13 (recvSlot m c 5)
    rw [recv_read_5 m c]
    rfl
  | ⟨6, _⟩ =>
    show k0_pay18 (View.readAt (Elt F) (Memref.whole cc0_scratch3 : Memref sig .tc .vmem S8x512x256 .bf16).view (Rect.unit (s := S8x512x256) ![6, 0, 0] S1x512x256.size inb_S8x512x256_S1x512x256_6_0_0).toLoadRect (recvV m c)) = k0_pay13 (recvSlot m c 6)
    rw [recv_read_6 m c]
    rfl
  | ⟨7, _⟩ =>
    show k0_pay20 (k0_pay19 (View.readAt (Elt F) (Memref.whole cc0_scratch3 : Memref sig .tc .vmem S8x512x256 .bf16).view (Rect.unit (s := S8x512x256) ![7, 0, 0] S1x512x256.size inb_S8x512x256_S1x512x256_7_0_0).toLoadRect (recvV m c))) = k0_pay13 (recvSlot m c 7)
    rw [recv_read_7 m c]
    rfl
  | ⟨_ + 8, h⟩ => exact absurd h (by omega)

/-- With the values the body stores, the output block ends as the device's result block. -/
theorem out_val (c : Dev nD) (fo : Buf (Elt F) (outM.view.loc (c : Thread nD τ))) :
    outWrites c fo (keptTile m c) (gotTile m c) = outV m c := by
  rw [keptTile_eq, gotTile_eq]
  exact outWrites_eq_outV m c fo

/-- The same with the eight stores written out. -/
theorem out_val_writes (c : Dev nD) (fo : Buf (Elt F) (outM.view.loc (c : Thread nD τ))) :
    (((outM.access (R7 c)).write (Elt F)
    ((outM.access (R6 c)).write (Elt F)
    ((outM.access (R5 c)).write (Elt F)
    ((outM.access (R4 c)).write (Elt F)
    ((outM.access (R3 c)).write (Elt F)
    ((outM.access (R2 c)).write (Elt F)
    ((outM.access (R1 c)).write (Elt F)
    ((outM.access (R0 c)).write (Elt F) fo
    (k0_pay12 (k0_pay9 (View.readAt (Elt F) xbM.view (Rect.unit (s := S512x4096) ![0, 0] S512x4096.size inb_S512x4096_S512x4096_0_0).toLoadRect (xV m c)) (View.readAt (Elt F) (Memref.whole cc0_scratch1 : Memref sig .tc .vmem S8x4096x256 .f32).view (Rect.unit (s := S8x4096x256) ![7, 0, 0] S1x4096x256.size inb_S8x4096x256_S1x4096x256_7_0_0).toLoadRect (wLand (wV m c) c)))
      (k0_pay10 (View.readAt (Elt F) xbM.view (Rect.unit (s := S512x4096) ![0, 0] S512x4096.size inb_S512x4096_S512x4096_0_0).toLoadRect (xV m c)) (View.readAt (Elt F) (Memref.whole cc0_scratch1 : Memref sig .tc .vmem S8x4096x256 .f32).view (Rect.unit (s := S8x4096x256) ![7, 0, 0] S1x4096x256.size inb_S8x4096x256_S1x4096x256_7_0_0).toLoadRect (wLand (wV m c) c)))
      (k0_pay11 (View.readAt (Elt F) xbM.view (Rect.unit (s := S512x4096) ![0, 0] S512x4096.size inb_S512x4096_S512x4096_0_0).toLoadRect (xV m c)) (View.readAt (Elt F) (Memref.whole cc0_scratch1 : Memref sig .tc .vmem S8x4096x256 .f32).view (Rect.unit (s := S8x4096x256) ![7, 0, 0] S1x4096x256.size inb_S8x4096x256_S1x4096x256_7_0_0).toLoadRect (wLand (wV m c) c)))) Finset.univ)
    (k0_pay13 (View.readAt (Elt F) (Memref.whole cc0_scratch3 : Memref sig .tc .vmem S8x512x256 .bf16).view (Rect.unit (s := S8x512x256) ![1, 0, 0] S1x512x256.size inb_S8x512x256_S1x512x256_1_0_0).toLoadRect (recvV m c))) Finset.univ)
    (k0_pay14 (View.readAt (Elt F) (Memref.whole cc0_scratch3 : Memref sig .tc .vmem S8x512x256 .bf16).view (Rect.unit (s := S8x512x256) ![2, 0, 0] S1x512x256.size inb_S8x512x256_S1x512x256_2_0_0).toLoadRect (recvV m c))) Finset.univ)
    (k0_pay15 (View.readAt (Elt F) (Memref.whole cc0_scratch3 : Memref sig .tc .vmem S8x512x256 .bf16).view (Rect.unit (s := S8x512x256) ![3, 0, 0] S1x512x256.size inb_S8x512x256_S1x512x256_3_0_0).toLoadRect (recvV m c))) Finset.univ)
    (k0_pay16 (View.readAt (Elt F) (Memref.whole cc0_scratch3 : Memref sig .tc .vmem S8x512x256 .bf16).view (Rect.unit (s := S8x512x256) ![4, 0, 0] S1x512x256.size inb_S8x512x256_S1x512x256_4_0_0).toLoadRect (recvV m c))) Finset.univ)
    (k0_pay17 (View.readAt (Elt F) (Memref.whole cc0_scratch3 : Memref sig .tc .vmem S8x512x256 .bf16).view (Rect.unit (s := S8x512x256) ![5, 0, 0] S1x512x256.size inb_S8x512x256_S1x512x256_5_0_0).toLoadRect (recvV m c))) Finset.univ)
    (k0_pay18 (View.readAt (Elt F) (Memref.whole cc0_scratch3 : Memref sig .tc .vmem S8x512x256 .bf16).view (Rect.unit (s := S8x512x256) ![6, 0, 0] S1x512x256.size inb_S8x512x256_S1x512x256_6_0_0).toLoadRect (recvV m c))) Finset.univ)
    (k0_pay20 (k0_pay19 (View.readAt (Elt F) (Memref.whole cc0_scratch3 : Memref sig .tc .vmem S8x512x256 .bf16).view (Rect.unit (s := S8x512x256) ![7, 0, 0] S1x512x256.size inb_S8x512x256_S1x512x256_7_0_0).toLoadRect (recvV m c)))) Finset.univ) : Buf (Elt F) (outM.view.loc (c : Thread nD τ))) = outV m c :=
  out_val m c fo

/-- The same with the stores listed, latest first: a list of stores is one store of its head over the stores of its tail. -/
theorem out_val_list (c : Dev nD) (fo : Buf (Elt F) (outM.view.loc (c : Thread nD τ))) :
    (outM.view.writes (Elt F) fo
      [⟨R7 c, (k0_pay20 (k0_pay19 (View.readAt (Elt F) (Memref.whole cc0_scratch3 : Memref sig .tc .vmem S8x512x256 .bf16).view (Rect.unit (s := S8x512x256) ![7, 0, 0] S1x512x256.size inb_S8x512x256_S1x512x256_7_0_0).toLoadRect (recvV m c))))⟩,
       ⟨R6 c, (k0_pay18 (View.readAt (Elt F) (Memref.whole cc0_scratch3 : Memref sig .tc .vmem S8x512x256 .bf16).view (Rect.unit (s := S8x512x256) ![6, 0, 0] S1x512x256.size inb_S8x512x256_S1x512x256_6_0_0).toLoadRect (recvV m c)))⟩,
       ⟨R5 c, (k0_pay17 (View.readAt (Elt F) (Memref.whole cc0_scratch3 : Memref sig .tc .vmem S8x512x256 .bf16).view (Rect.unit (s := S8x512x256) ![5, 0, 0] S1x512x256.size inb_S8x512x256_S1x512x256_5_0_0).toLoadRect (recvV m c)))⟩,
       ⟨R4 c, (k0_pay16 (View.readAt (Elt F) (Memref.whole cc0_scratch3 : Memref sig .tc .vmem S8x512x256 .bf16).view (Rect.unit (s := S8x512x256) ![4, 0, 0] S1x512x256.size inb_S8x512x256_S1x512x256_4_0_0).toLoadRect (recvV m c)))⟩,
       ⟨R3 c, (k0_pay15 (View.readAt (Elt F) (Memref.whole cc0_scratch3 : Memref sig .tc .vmem S8x512x256 .bf16).view (Rect.unit (s := S8x512x256) ![3, 0, 0] S1x512x256.size inb_S8x512x256_S1x512x256_3_0_0).toLoadRect (recvV m c)))⟩,
       ⟨R2 c, (k0_pay14 (View.readAt (Elt F) (Memref.whole cc0_scratch3 : Memref sig .tc .vmem S8x512x256 .bf16).view (Rect.unit (s := S8x512x256) ![2, 0, 0] S1x512x256.size inb_S8x512x256_S1x512x256_2_0_0).toLoadRect (recvV m c)))⟩,
       ⟨R1 c, (k0_pay13 (View.readAt (Elt F) (Memref.whole cc0_scratch3 : Memref sig .tc .vmem S8x512x256 .bf16).view (Rect.unit (s := S8x512x256) ![1, 0, 0] S1x512x256.size inb_S8x512x256_S1x512x256_1_0_0).toLoadRect (recvV m c)))⟩,
       ⟨R0 c, keptTile m c⟩] : Buf (Elt F) (outM.view.loc (c : Thread nD τ))) = outV m c :=
  out_val m c fo

/-- info: 'Cert.KernelIdeal.A2A.out_val_list' depends on axioms: [propext, Classical.choice, Quot.sound] -/
#guard_msgs in #print axioms out_val_list

/-- info: 'Cert.KernelIdeal.A2A.out_val_writes' depends on axioms: [propext, Classical.choice, Quot.sound] -/
#guard_msgs in #print axioms out_val_writes

end Cert.KernelIdeal.A2A

end
-- ==== Proof.Close.lean ====
/-
  Closing a device's own cells. Each send or receive cell of a nonzero slot has one round; once its owner has consumed
  that round nothing can land on the cell any more, so the owner may close it and take its counter back, at zero.
-/
import proofs.«900796_g7700000000000797_dist_gemm_a2a_m4096_k4096_n2048_f32_gelu_v7x_i8_1_alg».proof.Proof.SchedTab
import proofs.«900796_g7700000000000797_dist_gemm_a2a_m4096_k4096_n2048_f32_gelu_v7x_i8_1_alg».proof.Proof.Data

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A cell whose owner stands at a round from which no round has a duty, having taken nothing of it, closes: its counter
    is the owner's again, at zero. In this schedule every round from the first on is such a round. -/
theorem close_cell (κ : ℕ) (g : GSem nD τ sig) (R : ℕ) (hR : 1 ≤ R) :
    iprop(cellInv ER (sched m) κ g ∗ atPos ER g R ∅ 0) ⊢ |={Set.univ}=> (semVal g 0 : sProp 𝕄) :=
  Rounds.cell_close ER (sched m) (Set.mem_univ κ) (fun h => h) (R := R) (fun r hr => duties_later m g r (le_trans hR hr))

/-! ## The fourteen own cells, after their one round -/

theorem close_send_1 (κ : ℕ) (c : Dev nD) :
    iprop(cellInv ER (sched m) κ (sendCell c 1) ∗ atPos ER (sendCell c 1) 1 ∅ 0) ⊢ |={Set.univ}=> (semVal (sendCell c 1) 0 : sProp 𝕄) :=
  close_cell m κ (sendCell c 1) 1 le_rfl
theorem close_recv_1 (κ : ℕ) (c : Dev nD) :
    iprop(cellInv ER (sched m) κ (recvCell c 1) ∗ atPos ER (recvCell c 1) 1 ∅ 0) ⊢ |={Set.univ}=> (semVal (recvCell c 1) 0 : sProp 𝕄) :=
  close_cell m κ (recvCell c 1) 1 le_rfl

theorem close_send_2 (κ : ℕ) (c : Dev nD) :
    iprop(cellInv ER (sched m) κ (sendCell c 2) ∗ atPos ER (sendCell c 2) 1 ∅ 0) ⊢ |={Set.univ}=> (semVal (sendCell c 2) 0 : sProp 𝕄) :=
  close_cell m κ (sendCell c 2) 1 le_rfl
theorem close_recv_2 (κ : ℕ) (c : Dev nD) :
    iprop(cellInv ER (sched m) κ (recvCell c 2) ∗ atPos ER (recvCell c 2) 1 ∅ 0) ⊢ |={Set.univ}=> (semVal (recvCell c 2) 0 : sProp 𝕄) :=
  close_cell m κ (recvCell c 2) 1 le_rfl

theorem close_send_3 (κ : ℕ) (c : Dev nD) :
    iprop(cellInv ER (sched m) κ (sendCell c 3) ∗ atPos ER (sendCell c 3) 1 ∅ 0) ⊢ |={Set.univ}=> (semVal (sendCell c 3) 0 : sProp 𝕄) :=
  close_cell m κ (sendCell c 3) 1 le_rfl
theorem close_recv_3 (κ : ℕ) (c : Dev nD) :
    iprop(cellInv ER (sched m) κ (recvCell c 3) ∗ atPos ER (recvCell c 3) 1 ∅ 0) ⊢ |={Set.univ}=> (semVal (recvCell c 3) 0 : sProp 𝕄) :=
  close_cell m κ (recvCell c 3) 1 le_rfl

theorem close_send_4 (κ : ℕ) (c : Dev nD) :
    iprop(cellInv ER (sched m) κ (sendCell c 4) ∗ atPos ER (sendCell c 4) 1 ∅ 0) ⊢ |={Set.univ}=> (semVal (sendCell c 4) 0 : sProp 𝕄) :=
  close_cell m κ (sendCell c 4) 1 le_rfl
theorem close_recv_4 (κ : ℕ) (c : Dev nD) :
    iprop(cellInv ER (sched m) κ (recvCell c 4) ∗ atPos ER (recvCell c 4) 1 ∅ 0) ⊢ |={Set.univ}=> (semVal (recvCell c 4) 0 : sProp 𝕄) :=
  close_cell m κ (recvCell c 4) 1 le_rfl

theorem close_send_5 (κ : ℕ) (c : Dev nD) :
    iprop(cellInv ER (sched m) κ (sendCell c 5) ∗ atPos ER (sendCell c 5) 1 ∅ 0) ⊢ |={Set.univ}=> (semVal (sendCell c 5) 0 : sProp 𝕄) :=
  close_cell m κ (sendCell c 5) 1 le_rfl
theorem close_recv_5 (κ : ℕ) (c : Dev nD) :
    iprop(cellInv ER (sched m) κ (recvCell c 5) ∗ atPos ER (recvCell c 5) 1 ∅ 0) ⊢ |={Set.univ}=> (semVal (recvCell c 5) 0 : sProp 𝕄) :=
  close_cell m κ (recvCell c 5) 1 le_rfl

theorem close_send_6 (κ : ℕ) (c : Dev nD) :
    iprop(cellInv ER (sched m) κ (sendCell c 6) ∗ atPos ER (sendCell c 6) 1 ∅ 0) ⊢ |={Set.univ}=> (semVal (sendCell c 6) 0 : sProp 𝕄) :=
  close_cell m κ (sendCell c 6) 1 le_rfl
theorem close_recv_6 (κ : ℕ) (c : Dev nD) :
    iprop(cellInv ER (sched m) κ (recvCell c 6) ∗ atPos ER (recvCell c 6) 1 ∅ 0) ⊢ |={Set.univ}=> (semVal (recvCell c 6) 0 : sProp 𝕄) :=
  close_cell m κ (recvCell c 6) 1 le_rfl

theorem close_send_7 (κ : ℕ) (c : Dev nD) :
    iprop(cellInv ER (sched m) κ (sendCell c 7) ∗ atPos ER (sendCell c 7) 1 ∅ 0) ⊢ |={Set.univ}=> (semVal (sendCell c 7) 0 : sProp 𝕄) :=
  close_cell m κ (sendCell c 7) 1 le_rfl
theorem close_recv_7 (κ : ℕ) (c : Dev nD) :
    iprop(cellInv ER (sched m) κ (recvCell c 7) ∗ atPos ER (recvCell c 7) 1 ∅ 0) ⊢ |={Set.univ}=> (semVal (recvCell c 7) 0 : sProp 𝕄) :=
  close_cell m κ (recvCell c 7) 1 le_rfl

/-! ## The same, with the round spelt as the successor of round 0 -/

theorem close_send_1' (κ : ℕ) (c : Dev nD) :
    iprop(cellInv ER (sched m) κ (sendCell c 1) ∗ atPos ER (sendCell c 1) (0 + 1) ∅ 0) ⊢ |={Set.univ}=> (semVal (sendCell c 1) 0 : sProp 𝕄) :=
  close_cell m κ (sendCell c 1) (0 + 1) le_rfl
theorem close_recv_1' (κ : ℕ) (c : Dev nD) :
    iprop(cellInv ER (sched m) κ (recvCell c 1) ∗ atPos ER (recvCell c 1) (0 + 1) ∅ 0) ⊢ |={Set.univ}=> (semVal (recvCell c 1) 0 : sProp 𝕄) :=
  close_cell m κ (recvCell c 1) (0 + 1) le_rfl

theorem close_send_2' (κ : ℕ) (c : Dev nD) :
    iprop(cellInv ER (sched m) κ (sendCell c 2) ∗ atPos ER (sendCell c 2) (0 + 1) ∅ 0) ⊢ |={Set.univ}=> (semVal (sendCell c 2) 0 : sProp 𝕄) :=
  close_cell m κ (sendCell c 2) (0 + 1) le_rfl
theorem close_recv_2' (κ : ℕ) (c : Dev nD) :
    iprop(cellInv ER (sched m) κ (recvCell c 2) ∗ atPos ER (recvCell c 2) (0 + 1) ∅ 0) ⊢ |={Set.univ}=> (semVal (recvCell c 2) 0 : sProp 𝕄) :=
  close_cell m κ (recvCell c 2) (0 + 1) le_rfl

theorem close_send_3' (κ : ℕ) (c : Dev nD) :
    iprop(cellInv ER (sched m) κ (sendCell c 3) ∗ atPos ER (sendCell c 3) (0 + 1) ∅ 0) ⊢ |={Set.univ}=> (semVal (sendCell c 3) 0 : sProp 𝕄) :=
  close_cell m κ (sendCell c 3) (0 + 1) le_rfl
theorem close_recv_3' (κ : ℕ) (c : Dev nD) :
    iprop(cellInv ER (sched m) κ (recvCell c 3) ∗ atPos ER (recvCell c 3) (0 + 1) ∅ 0) ⊢ |={Set.univ}=> (semVal (recvCell c 3) 0 : sProp 𝕄) :=
  close_cell m κ (recvCell c 3) (0 + 1) le_rfl

theorem close_send_4' (κ : ℕ) (c : Dev nD) :
    iprop(cellInv ER (sched m) κ (sendCell c 4) ∗ atPos ER (sendCell c 4) (0 + 1) ∅ 0) ⊢ |={Set.univ}=> (semVal (sendCell c 4) 0 : sProp 𝕄) :=
  close_cell m κ (sendCell c 4) (0 + 1) le_rfl
theorem close_recv_4' (κ : ℕ) (c : Dev nD) :
    iprop(cellInv ER (sched m) κ (recvCell c 4) ∗ atPos ER (recvCell c 4) (0 + 1) ∅ 0) ⊢ |={Set.univ}=> (semVal (recvCell c 4) 0 : sProp 𝕄) :=
  close_cell m κ (recvCell c 4) (0 + 1) le_rfl

theorem close_send_5' (κ : ℕ) (c : Dev nD) :
    iprop(cellInv ER (sched m) κ (sendCell c 5) ∗ atPos ER (sendCell c 5) (0 + 1) ∅ 0) ⊢ |={Set.univ}=> (semVal (sendCell c 5) 0 : sProp 𝕄) :=
  close_cell m κ (sendCell c 5) (0 + 1) le_rfl
theorem close_recv_5' (κ : ℕ) (c : Dev nD) :
    iprop(cellInv ER (sched m) κ (recvCell c 5) ∗ atPos ER (recvCell c 5) (0 + 1) ∅ 0) ⊢ |={Set.univ}=> (semVal (recvCell c 5) 0 : sProp 𝕄) :=
  close_cell m κ (recvCell c 5) (0 + 1) le_rfl

theorem close_send_6' (κ : ℕ) (c : Dev nD) :
    iprop(cellInv ER (sched m) κ (sendCell c 6) ∗ atPos ER (sendCell c 6) (0 + 1) ∅ 0) ⊢ |={Set.univ}=> (semVal (sendCell c 6) 0 : sProp 𝕄) :=
  close_cell m κ (sendCell c 6) (0 + 1) le_rfl
theorem close_recv_6' (κ : ℕ) (c : Dev nD) :
    iprop(cellInv ER (sched m) κ (recvCell c 6) ∗ atPos ER (recvCell c 6) (0 + 1) ∅ 0) ⊢ |={Set.univ}=> (semVal (recvCell c 6) 0 : sProp 𝕄) :=
  close_cell m κ (recvCell c 6) (0 + 1) le_rfl

theorem close_send_7' (κ : ℕ) (c : Dev nD) :
    iprop(cellInv ER (sched m) κ (sendCell c 7) ∗ atPos ER (sendCell c 7) (0 + 1) ∅ 0) ⊢ |={Set.univ}=> (semVal (sendCell c 7) 0 : sProp 𝕄) :=
  close_cell m κ (sendCell c 7) (0 + 1) le_rfl
theorem close_recv_7' (κ : ℕ) (c : Dev nD) :
    iprop(cellInv ER (sched m) κ (recvCell c 7) ∗ atPos ER (recvCell c 7) (0 + 1) ∅ 0) ⊢ |={Set.univ}=> (semVal (recvCell c 7) 0 : sProp 𝕄) :=
  close_cell m κ (recvCell c 7) (0 + 1) le_rfl

end Cert.KernelIdeal.A2A

end
-- ==== Proof.BodyClose.lean ====
/-
  The end of the body. After its last wait a device holds its x buffer whole, each slot of the weight buffer joined, the
  slots of the send and receive buffers, its own fourteen cells each past its one round, and the output block holding
  its result. Each cell past its round closes and gives back its counter at zero; the buffers are cut back into the
  pieces the body's end names, each at whatever it holds. Nothing about what is computed is used.
-/
import proofs.«900796_g7700000000000797_dist_gemm_a2a_m4096_k4096_n2048_f32_gelu_v7x_i8_1_alg».proof.Proof.BodyIface
import proofs.«900796_g7700000000000797_dist_gemm_a2a_m4096_k4096_n2048_f32_gelu_v7x_i8_1_alg».proof.Proof.Pieces
import proofs.«900796_g7700000000000797_dist_gemm_a2a_m4096_k4096_n2048_f32_gelu_v7x_i8_1_alg».proof.Proof.SchedTab
import proofs.«900796_g7700000000000797_dist_gemm_a2a_m4096_k4096_n2048_f32_gelu_v7x_i8_1_alg».proof.Proof.Close

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A joined weight slot cut back into its two halves -/

/-- A slot's region is the disjoint union of its upper and lower half of the rows; the assertion over the slot splits
    along it, each half keeping the slot's contents. -/
theorem wslot_halves (c : Dev nD) (s : Fin 8) (g : Buf (Elt F) (wbM.view.loc (c : Thread nD τ))) :
    ((wbM.view.loc (c : Thread nD τ) ↦[(wSR s).set]{fullShare} g) : sProp 𝕄) ⊢
      iprop((wbM.view.loc (c : Thread nD τ) ↦[(wHR s 0).set]{fullShare} g) ∗
            (wbM.view.loc (c : Thread nD τ) ↦[(wHR s 1).set]{fullShare} g)) := by
  rw [wSR_halves s]
  exact BiEntails.mp (Region.is_union (wHR_disj s s 0 1 (Or.inr (by decide))))

/-- The same, each half at some contents. -/
theorem wslot_halves_any (c : Dev nD) (s : Fin 8) (g : Buf (Elt F) (wbM.view.loc (c : Thread nD τ))) :
    ((wbM.view.loc (c : Thread nD τ) ↦[(wSR s).set]{fullShare} g) : sProp 𝕄) ⊢
      iprop((∃ f, wbM.view.loc (c : Thread nD τ) ↦[(wHR s 0).set]{fullShare} f) ∗
            (∃ f, wbM.view.loc (c : Thread nD τ) ↦[(wHR s 1).set]{fullShare} f)) := by
  iintro H
  ihave H := (wslot_halves c s g) $$ H
  icases H with ⟨H0, H1⟩
  isplitl [H0]; · (iexists g; iexact H0)
  iexists g; iexact H1

theorem wslot_cut_0 (c : Dev nD) (g : Buf (Elt F) (wbM.view.loc (c : Thread nD τ))) :
    ((wbM.view.loc (c : Thread nD τ) ↦[(wS 0).set]{fullShare} g) : sProp 𝕄) ⊢
      iprop((∃ f, (wH 0 0).view.loc (c : Thread nD τ) ↦[(wH 0 0).view.set]{fullShare} f) ∗ (∃ f, (wH 0 1).view.loc (c : Thread nD τ) ↦[(wH 0 1).view.set]{fullShare} f)) := by
  rw [wS_set_0, wH_set_0_0, wH_set_0_1]
  exact wslot_halves_any c 0 g
theorem wslot_cut_1 (c : Dev nD) (g : Buf (Elt F) (wbM.view.loc (c : Thread nD τ))) :
    ((wbM.view.loc (c : Thread nD τ) ↦[(wS 1).set]{fullShare} g) : sProp 𝕄) ⊢
      iprop((∃ f, (wH 1 0).view.loc (c : Thread nD τ) ↦[(wH 1 0).view.set]{fullShare} f) ∗ (∃ f, (wH 1 1).view.loc (c : Thread nD τ) ↦[(wH 1 1).view.set]{fullShare} f)) := by
  rw [wS_set_1, wH_set_1_0, wH_set_1_1]
  exact wslot_halves_any c 1 g
theorem wslot_cut_2 (c : Dev nD) (g : Buf (Elt F) (wbM.view.loc (c : Thread nD τ))) :
    ((wbM.view.loc (c : Thread nD τ) ↦[(wS 2).set]{fullShare} g) : sProp 𝕄) ⊢
      iprop((∃ f, (wH 2 0).view.loc (c : Thread nD τ) ↦[(wH 2 0).view.set]{fullShare} f) ∗ (∃ f, (wH 2 1).view.loc (c : Thread nD τ) ↦[(wH 2 1).view.set]{fullShare} f)) := by
  rw [wS_set_2, wH_set_2_0, wH_set_2_1]
  exact wslot_halves_any c 2 g
theorem wslot_cut_3 (c : Dev nD) (g : Buf (Elt F) (wbM.view.loc (c : Thread nD τ))) :
    ((wbM.view.loc (c : Thread nD τ) ↦[(wS 3).set]{fullShare} g) : sProp 𝕄) ⊢
      iprop((∃ f, (wH 3 0).view.loc (c : Thread nD τ) ↦[(wH 3 0).view.set]{fullShare} f) ∗ (∃ f, (wH 3 1).view.loc (c : Thread nD τ) ↦[(wH 3 1).view.set]{fullShare} f)) := by
  rw [wS_set_3, wH_set_3_0, wH_set_3_1]
  exact wslot_halves_any c 3 g
theorem wslot_cut_4 (c : Dev nD) (g : Buf (Elt F) (wbM.view.loc (c : Thread nD τ))) :
    ((wbM.view.loc (c : Thread nD τ) ↦[(wS 4).set]{fullShare} g) : sProp 𝕄) ⊢
      iprop((∃ f, (wH 4 0).view.loc (c : Thread nD τ) ↦[(wH 4 0).view.set]{fullShare} f) ∗ (∃ f, (wH 4 1).view.loc (c : Thread nD τ) ↦[(wH 4 1).view.set]{fullShare} f)) := by
  rw [wS_set_4, wH_set_4_0, wH_set_4_1]
  exact wslot_halves_any c 4 g
theorem wslot_cut_5 (c : Dev nD) (g : Buf (Elt F) (wbM.view.loc (c : Thread nD τ))) :
    ((wbM.view.loc (c : Thread nD τ) ↦[(wS 5).set]{fullShare} g) : sProp 𝕄) ⊢
      iprop((∃ f, (wH 5 0).view.loc (c : Thread nD τ) ↦[(wH 5 0).view.set]{fullShare} f) ∗ (∃ f, (wH 5 1).view.loc (c : Thread nD τ) ↦[(wH 5 1).view.set]{fullShare} f)) := by
  rw [wS_set_5, wH_set_5_0, wH_set_5_1]
  exact wslot_halves_any c 5 g
theorem wslot_cut_6 (c : Dev nD) (g : Buf (Elt F) (wbM.view.loc (c : Thread nD τ))) :
    ((wbM.view.loc (c : Thread nD τ) ↦[(wS 6).set]{fullShare} g) : sProp 𝕄) ⊢
      iprop((∃ f, (wH 6 0).view.loc (c : Thread nD τ) ↦[(wH 6 0).view.set]{fullShare} f) ∗ (∃ f, (wH 6 1).view.loc (c : Thread nD τ) ↦[(wH 6 1).view.set]{fullShare} f)) := by
  rw [wS_set_6, wH_set_6_0, wH_set_6_1]
  exact wslot_halves_any c 6 g
theorem wslot_cut_7 (c : Dev nD) (g : Buf (Elt F) (wbM.view.loc (c : Thread nD τ))) :
    ((wbM.view.loc (c : Thread nD τ) ↦[(wS 7).set]{fullShare} g) : sProp 𝕄) ⊢
      iprop((∃ f, (wH 7 0).view.loc (c : Thread nD τ) ↦[(wH 7 0).view.set]{fullShare} f) ∗ (∃ f, (wH 7 1).view.loc (c : Thread nD τ) ↦[(wH 7 1).view.set]{fullShare} f)) := by
  rw [wS_set_7, wH_set_7_0, wH_set_7_1]
  exact wslot_halves_any c 7 g

/-! ## The end of the body -/

theorem body_close (K : GSem nD τ sig → ℕ) (c : Dev nD) (X' : Buf (Elt F) (xbM.view.loc (c : Thread nD τ)))
    (wL : Buf (Elt F) (wbM.view.loc (c : Thread nD τ))) (fo' : Buf (Elt F) (outM.view.loc (c : Thread nD τ)))
    (hfo : fo' = outV m c) :
    (iprop(argPts m c
      ∗ (xbM.view.loc (c : Thread nD τ) ↦[xbM.view.set]{fullShare} X')
      ∗ ((wbM.view.loc (c : Thread nD τ) ↦[(wS 0).set]{fullShare} wL)
        ∗ (wbM.view.loc (c : Thread nD τ) ↦[(wS 1).set]{fullShare} wL)
        ∗ (wbM.view.loc (c : Thread nD τ) ↦[(wS 2).set]{fullShare} wL)
        ∗ (wbM.view.loc (c : Thread nD τ) ↦[(wS 3).set]{fullShare} wL)
        ∗ (wbM.view.loc (c : Thread nD τ) ↦[(wS 4).set]{fullShare} wL)
        ∗ (wbM.view.loc (c : Thread nD τ) ↦[(wS 5).set]{fullShare} wL)
        ∗ (wbM.view.loc (c : Thread nD τ) ↦[(wS 6).set]{fullShare} wL)
        ∗ (wbM.view.loc (c : Thread nD τ) ↦[(wS 7).set]{fullShare} wL))
      ∗ ((∃ f, (sM 0).view.loc (c : Thread nD τ) ↦[(sM 0).view.set]{fullShare} f)
        ∗ (∃ f, (sM 1).view.loc (c : Thread nD τ) ↦[(sM 1).view.set]{fullShare} f)
        ∗ (∃ f, (sM 2).view.loc (c : Thread nD τ) ↦[(sM 2).view.set]{fullShare} f)
        ∗ (∃ f, (sM 3).view.loc (c : Thread nD τ) ↦[(sM 3).view.set]{fullShare} f)
        ∗ (∃ f, (sM 4).view.loc (c : Thread nD τ) ↦[(sM 4).view.set]{fullShare} f)
        ∗ (∃ f, (sM 5).view.loc (c : Thread nD τ) ↦[(sM 5).view.set]{fullShare} f)
        ∗ (∃ f, (sM 6).view.loc (c : Thread nD τ) ↦[(sM 6).view.set]{fullShare} f)
        ∗ (∃ f, (sM 7).view.loc (c : Thread nD τ) ↦[(sM 7).view.set]{fullShare} f))
      ∗ ((∃ f, (rM 0).view.loc (c : Thread nD τ) ↦[(rM 0).view.set]{fullShare} f)
        ∗ (∃ f, (rM 1).view.loc (c : Thread nD τ) ↦[(rM 1).view.set]{fullShare} f)
        ∗ (∃ f, (rM 2).view.loc (c : Thread nD τ) ↦[(rM 2).view.set]{fullShare} f)
        ∗ (∃ f, (rM 3).view.loc (c : Thread nD τ) ↦[(rM 3).view.set]{fullShare} f)
        ∗ (∃ f, (rM 4).view.loc (c : Thread nD τ) ↦[(rM 4).view.set]{fullShare} f)
        ∗ (∃ f, (rM 5).view.loc (c : Thread nD τ) ↦[(rM 5).view.set]{fullShare} f)
        ∗ (∃ f, (rM 6).view.loc (c : Thread nD τ) ↦[(rM 6).view.set]{fullShare} f)
        ∗ (∃ f, (rM 7).view.loc (c : Thread nD τ) ↦[(rM 7).view.set]{fullShare} f))
      ∗ plainSems c
      ∗ ((cellInv ER (sched m) (K (sendCell c 1)) (sendCell c 1) ∗ atPos ER (sendCell c 1) 1 ∅ 0 ∗ cellInv ER (sched m) (K (recvCell c 1)) (recvCell c 1) ∗ atPos ER (recvCell c 1) 1 ∅ 0)
        ∗ (cellInv ER (sched m) (K (sendCell c 2)) (sendCell c 2) ∗ atPos ER (sendCell c 2) 1 ∅ 0 ∗ cellInv ER (sched m) (K (recvCell c 2)) (recvCell c 2) ∗ atPos ER (recvCell c 2) 1 ∅ 0)
        ∗ (cellInv ER (sched m) (K (sendCell c 3)) (sendCell c 3) ∗ atPos ER (sendCell c 3) 1 ∅ 0 ∗ cellInv ER (sched m) (K (recvCell c 3)) (recvCell c 3) ∗ atPos ER (recvCell c 3) 1 ∅ 0)
        ∗ (cellInv ER (sched m) (K (sendCell c 4)) (sendCell c 4) ∗ atPos ER (sendCell c 4) 1 ∅ 0 ∗ cellInv ER (sched m) (K (recvCell c 4)) (recvCell c 4) ∗ atPos ER (recvCell c 4) 1 ∅ 0)
        ∗ (cellInv ER (sched m) (K (sendCell c 5)) (sendCell c 5) ∗ atPos ER (sendCell c 5) 1 ∅ 0 ∗ cellInv ER (sched m) (K (recvCell c 5)) (recvCell c 5) ∗ atPos ER (recvCell c 5) 1 ∅ 0)
        ∗ (cellInv ER (sched m) (K (sendCell c 6)) (sendCell c 6) ∗ atPos ER (sendCell c 6) 1 ∅ 0 ∗ cellInv ER (sched m) (K (recvCell c 6)) (recvCell c 6) ∗ atPos ER (recvCell c 6) 1 ∅ 0)
        ∗ (cellInv ER (sched m) (K (sendCell c 7)) (sendCell c 7) ∗ atPos ER (sendCell c 7) 1 ∅ 0 ∗ cellInv ER (sched m) (K (recvCell c 7)) (recvCell c 7) ∗ atPos ER (recvCell c 7) 1 ∅ 0))
      ∗ (outM.view.loc (c : Thread nD τ) ↦[outM.view.set]{fullShare} fo')
      ∗ (∃ W, owes (c : Thread nD τ) 0 W)) : sProp 𝕄)
    ⊢ |={Set.univ}=> bodyEnd m c := by
  subst hfo
  iintro ⟨Harg, Hx, ⟨Hw0, Hw1, Hw2, Hw3, Hw4, Hw5, Hw6, Hw7⟩, ⟨Hsb0, Hsb1, Hsb2, Hsb3, Hsb4, Hsb5, Hsb6, Hsb7⟩, ⟨Hrb0, Hrb1, Hrb2, Hrb3, Hrb4, Hrb5, Hrb6, Hrb7⟩, Hps, ⟨⟨HIs1, HatS1, HIr1, HatR1⟩, ⟨HIs2, HatS2, HIr2, HatR2⟩, ⟨HIs3, HatS3, HIr3, HatR3⟩, ⟨HIs4, HatS4, HIr4, HatR4⟩, ⟨HIs5, HatS5, HIr5, HatR5⟩, ⟨HIs6, HatS6, HIr6, HatR6⟩, ⟨HIs7, HatS7, HIr7, HatR7⟩⟩, Hout, HO⟩
  -- the fourteen own cells close
  imod (close_send_1 m (K (sendCell c 1)) c) $$ [HIs1 HatS1] with HzS1
  · isplitl [HIs1]; · iexact HIs1
    iexact HatS1
  imod (close_recv_1 m (K (recvCell c 1)) c) $$ [HIr1 HatR1] with HzR1
  · isplitl [HIr1]; · iexact HIr1
    iexact HatR1
  imod (close_send_2 m (K (sendCell c 2)) c) $$ [HIs2 HatS2] with HzS2
  · isplitl [HIs2]; · iexact HIs2
    iexact HatS2
  imod (close_recv_2 m (K (recvCell c 2)) c) $$ [HIr2 HatR2] with HzR2
  · isplitl [HIr2]; · iexact HIr2
    iexact HatR2
  imod (close_send_3 m (K (sendCell c 3)) c) $$ [HIs3 HatS3] with HzS3
  · isplitl [HIs3]; · iexact HIs3
    iexact HatS3
  imod (close_recv_3 m (K (recvCell c 3)) c) $$ [HIr3 HatR3] with HzR3
  · isplitl [HIr3]; · iexact HIr3
    iexact HatR3
  imod (close_send_4 m (K (sendCell c 4)) c) $$ [HIs4 HatS4] with HzS4
  · isplitl [HIs4]; · iexact HIs4
    iexact HatS4
  imod (close_recv_4 m (K (recvCell c 4)) c) $$ [HIr4 HatR4] with HzR4
  · isplitl [HIr4]; · iexact HIr4
    iexact HatR4
  imod (close_send_5 m (K (sendCell c 5)) c) $$ [HIs5 HatS5] with HzS5
  · isplitl [HIs5]; · iexact HIs5
    iexact HatS5
  imod (close_recv_5 m (K (recvCell c 5)) c) $$ [HIr5 HatR5] with HzR5
  · isplitl [HIr5]; · iexact HIr5
    iexact HatR5
  imod (close_send_6 m (K (sendCell c 6)) c) $$ [HIs6 HatS6] with HzS6
  · isplitl [HIs6]; · iexact HIs6
    iexact HatS6
  imod (close_recv_6 m (K (recvCell c 6)) c) $$ [HIr6 HatR6] with HzR6
  · isplitl [HIr6]; · iexact HIr6
    iexact HatR6
  imod (close_send_7 m (K (sendCell c 7)) c) $$ [HIs7 HatS7] with HzS7
  · isplitl [HIs7]; · iexact HIs7
    iexact HatS7
  imod (close_recv_7 m (K (recvCell c 7)) c) $$ [HIr7 HatR7] with HzR7
  · isplitl [HIr7]; · iexact HIr7
    iexact HatR7
  imodintro
  unfold bodyEnd piecesAny allSems0
  isplitl [Harg]; · iexact Harg
  isplitl [Hx Hw0 Hw1 Hw2 Hw3 Hw4 Hw5 Hw6 Hw7 Hsb0 Hsb1 Hsb2 Hsb3 Hsb4 Hsb5 Hsb6 Hsb7 Hrb0 Hrb1 Hrb2 Hrb3 Hrb4 Hrb5 Hrb6 Hrb7]
  · -- the buffers, cut into the pieces
    ihave Hx := (x_cut c X') $$ Hx
    icases Hx with ⟨Hx0, Hx1, Hx2, Hx3⟩
    ihave Hw0 := (wslot_cut_0 c wL) $$ Hw0
    icases Hw0 with ⟨Hw0_0, Hw0_1⟩
    ihave Hw1 := (wslot_cut_1 c wL) $$ Hw1
    icases Hw1 with ⟨Hw1_0, Hw1_1⟩
    ihave Hw2 := (wslot_cut_2 c wL) $$ Hw2
    icases Hw2 with ⟨Hw2_0, Hw2_1⟩
    ihave Hw3 := (wslot_cut_3 c wL) $$ Hw3
    icases Hw3 with ⟨Hw3_0, Hw3_1⟩
    ihave Hw4 := (wslot_cut_4 c wL) $$ Hw4
    icases Hw4 with ⟨Hw4_0, Hw4_1⟩
    ihave Hw5 := (wslot_cut_5 c wL) $$ Hw5
    icases Hw5 with ⟨Hw5_0, Hw5_1⟩
    ihave Hw6 := (wslot_cut_6 c wL) $$ Hw6
    icases Hw6 with ⟨Hw6_0, Hw6_1⟩
    ihave Hw7 := (wslot_cut_7 c wL) $$ Hw7
    icases Hw7 with ⟨Hw7_0, Hw7_1⟩
    isplitl [Hx0]; · (iexists X'; iexact Hx0)
    isplitl [Hx1]; · (iexists X'; iexact Hx1)
    isplitl [Hx2]; · (iexists X'; iexact Hx2)
    isplitl [Hx3]; · (iexists X'; iexact Hx3)
    isplitl [Hw0_0]; · iexact Hw0_0
    isplitl [Hw0_1]; · iexact Hw0_1
    isplitl [Hw1_0]; · iexact Hw1_0
    isplitl [Hw1_1]; · iexact Hw1_1
    isplitl [Hw2_0]; · iexact Hw2_0
    isplitl [Hw2_1]; · iexact Hw2_1
    isplitl [Hw3_0]; · iexact Hw3_0
    isplitl [Hw3_1]; · iexact Hw3_1
    isplitl [Hw4_0]; · iexact Hw4_0
    isplitl [Hw4_1]; · iexact Hw4_1
    isplitl [Hw5_0]; · iexact Hw5_0
    isplitl [Hw5_1]; · iexact Hw5_1
    isplitl [Hw6_0]; · iexact Hw6_0
    isplitl [Hw6_1]; · iexact Hw6_1
    isplitl [Hw7_0]; · iexact Hw7_0
    isplitl [Hw7_1]; · iexact Hw7_1
    isplitl [Hsb0]; · iexact Hsb0
    isplitl [Hsb1]; · iexact Hsb1
    isplitl [Hsb2]; · iexact Hsb2
    isplitl [Hsb3]; · iexact Hsb3
    isplitl [Hsb4]; · iexact Hsb4
    isplitl [Hsb5]; · iexact Hsb5
    isplitl [Hsb6]; · iexact Hsb6
    isplitl [Hsb7]; · iexact Hsb7
    isplitl [Hrb0]; · iexact Hrb0
    isplitl [Hrb1]; · iexact Hrb1
    isplitl [Hrb2]; · iexact Hrb2
    isplitl [Hrb3]; · iexact Hrb3
    isplitl [Hrb4]; · iexact Hrb4
    isplitl [Hrb5]; · iexact Hrb5
    isplitl [Hrb6]; · iexact Hrb6
    iexact Hrb7
  isplitl [Hps HzS1 HzR1 HzS2 HzR2 HzS3 HzR3 HzS4 HzR4 HzS5 HzR5 HzS6 HzR6 HzS7 HzR7]
  · -- every scoped semaphore at zero
    isplitl [Hps]; · iexact Hps
    isplitl [HzS1]; · iexact HzS1
    isplitl [HzR1]; · iexact HzR1
    isplitl [HzS2]; · iexact HzS2
    isplitl [HzR2]; · iexact HzR2
    isplitl [HzS3]; · iexact HzS3
    isplitl [HzR3]; · iexact HzR3
    isplitl [HzS4]; · iexact HzS4
    isplitl [HzR4]; · iexact HzR4
    isplitl [HzS5]; · iexact HzS5
    isplitl [HzR5]; · iexact HzR5
    isplitl [HzS6]; · iexact HzS6
    isplitl [HzR6]; · iexact HzR6
    isplitl [HzS7]; · iexact HzS7
    iexact HzR7
  isplitl [Hout]; · iexact Hout
  iexact HO

/-! ## The same from one flat chain, one conjunct per hypothesis -/

theorem body_close_flat (K : GSem nD τ sig → ℕ) (c : Dev nD) (X' : Buf (Elt F) (xbM.view.loc (c : Thread nD τ)))
    (wL : Buf (Elt F) (wbM.view.loc (c : Thread nD τ))) (fo' : Buf (Elt F) (outM.view.loc (c : Thread nD τ)))
    (hfo : fo' = outV m c) :
    (iprop(((xA).view.loc (c : Thread nD τ) ↦[(xA).view.set]{fullShare} xV m c)
      ∗ ((wA).view.loc (c : Thread nD τ) ↦[(wA).view.set]{fullShare} wV m c)
      ∗ (xbM.view.loc (c : Thread nD τ) ↦[xbM.view.set]{fullShare} X')
      ∗ (wbM.view.loc (c : Thread nD τ) ↦[(wS 0).set]{fullShare} wL)
      ∗ (wbM.view.loc (c : Thread nD τ) ↦[(wS 1).set]{fullShare} wL)
      ∗ (wbM.view.loc (c : Thread nD τ) ↦[(wS 2).set]{fullShare} wL)
      ∗ (wbM.view.loc (c : Thread nD τ) ↦[(wS 3).set]{fullShare} wL)
      ∗ (wbM.view.loc (c : Thread nD τ) ↦[(wS 4).set]{fullShare} wL)
      ∗ (wbM.view.loc (c : Thread nD τ) ↦[(wS 5).set]{fullShare} wL)
      ∗ (wbM.view.loc (c : Thread nD τ) ↦[(wS 6).set]{fullShare} wL)
      ∗ (wbM.view.loc (c : Thread nD τ) ↦[(wS 7).set]{fullShare} wL)
      ∗ (∃ f, (sM 0).view.loc (c : Thread nD τ) ↦[(sM 0).view.set]{fullShare} f)
      ∗ (∃ f, (sM 1).view.loc (c : Thread nD τ) ↦[(sM 1).view.set]{fullShare} f)
      ∗ (∃ f, (sM 2).view.loc (c : Thread nD τ) ↦[(sM 2).view.set]{fullShare} f)
      ∗ (∃ f, (sM 3).view.loc (c : Thread nD τ) ↦[(sM 3).view.set]{fullShare} f)
      ∗ (∃ f, (sM 4).view.loc (c : Thread nD τ) ↦[(sM 4).view.set]{fullShare} f)
      ∗ (∃ f, (sM 5).view.loc (c : Thread nD τ) ↦[(sM 5).view.set]{fullShare} f)
      ∗ (∃ f, (sM 6).view.loc (c : Thread nD τ) ↦[(sM 6).view.set]{fullShare} f)
      ∗ (∃ f, (sM 7).view.loc (c : Thread nD τ) ↦[(sM 7).view.set]{fullShare} f)
      ∗ (∃ f, (rM 0).view.loc (c : Thread nD τ) ↦[(rM 0).view.set]{fullShare} f)
      ∗ (∃ f, (rM 1).view.loc (c : Thread nD τ) ↦[(rM 1).view.set]{fullShare} f)
      ∗ (∃ f, (rM 2).view.loc (c : Thread nD τ) ↦[(rM 2).view.set]{fullShare} f)
      ∗ (∃ f, (rM 3).view.loc (c : Thread nD τ) ↦[(rM 3).view.set]{fullShare} f)
      ∗ (∃ f, (rM 4).view.loc (c : Thread nD τ) ↦[(rM 4).view.set]{fullShare} f)
      ∗ (∃ f, (rM 5).view.loc (c : Thread nD τ) ↦[(rM 5).view.set]{fullShare} f)
      ∗ (∃ f, (rM 6).view.loc (c : Thread nD τ) ↦[(rM 6).view.set]{fullShare} f)
      ∗ (∃ f, (rM 7).view.loc (c : Thread nD τ) ↦[(rM 7).view.set]{fullShare} f)
      ∗ semVal ((c : Thread nD τ), SemLoc.dma (1 : DmaSem sig)) 0
      ∗ semVal ((c : Thread nD τ), SemLoc.dma (2 : DmaSem sig)) 0
      ∗ semVal ((c : Thread nD τ), SemLoc.dma (3 : DmaSem sig)) 0
      ∗ semVal ((c : Thread nD τ), SemLoc.dma (4 : DmaSem sig)) 0
      ∗ semVal ((c : Thread nD τ), SemLoc.dma (5 : DmaSem sig)) 0
      ∗ semVal ((c : Thread nD τ), SemLoc.dma (6 : DmaSem sig)) 0
      ∗ semVal ((c : Thread nD τ), SemLoc.dma (7 : DmaSem sig)) 0
      ∗ semVal ((c : Thread nD τ), SemLoc.dma (8 : DmaSem sig)) 0
      ∗ semVal ((c : Thread nD τ), SemLoc.dma (9 : DmaSem sig)) 0
      ∗ semVal ((c : Thread nD τ), SemLoc.dma (10 : DmaSem sig)) 0
      ∗ semVal ((c : Thread nD τ), SemLoc.dma (11 : DmaSem sig)) 0
      ∗ semVal ((c : Thread nD τ), SemLoc.dma (12 : DmaSem sig)) 0
      ∗ semVal ((c : Thread nD τ), SemLoc.dma (13 : DmaSem sig)) 0
      ∗ semVal ((c : Thread nD τ), SemLoc.dma (21 : DmaSem sig)) 0
      ∗ cellInv ER (sched m) (K (sendCell c 1)) (sendCell c 1)
      ∗ atPos ER (sendCell c 1) 1 ∅ 0
      ∗ cellInv ER (sched m) (K (recvCell c 1)) (recvCell c 1)
      ∗ atPos ER (recvCell c 1) 1 ∅ 0
      ∗ cellInv ER (sched m) (K (sendCell c 2)) (sendCell c 2)
      ∗ atPos ER (sendCell c 2) 1 ∅ 0
      ∗ cellInv ER (sched m) (K (recvCell c 2)) (recvCell c 2)
      ∗ atPos ER (recvCell c 2) 1 ∅ 0
      ∗ cellInv ER (sched m) (K (sendCell c 3)) (sendCell c 3)
      ∗ atPos ER (sendCell c 3) 1 ∅ 0
      ∗ cellInv ER (sched m) (K (recvCell c 3)) (recvCell c 3)
      ∗ atPos ER (recvCell c 3) 1 ∅ 0
      ∗ cellInv ER (sched m) (K (sendCell c 4)) (sendCell c 4)
      ∗ atPos ER (sendCell c 4) 1 ∅ 0
      ∗ cellInv ER (sched m) (K (recvCell c 4)) (recvCell c 4)
      ∗ atPos ER (recvCell c 4) 1 ∅ 0
      ∗ cellInv ER (sched m) (K (sendCell c 5)) (sendCell c 5)
      ∗ atPos ER (sendCell c 5) 1 ∅ 0
      ∗ cellInv ER (sched m) (K (recvCell c 5)) (recvCell c 5)
      ∗ atPos ER (recvCell c 5) 1 ∅ 0
      ∗ cellInv ER (sched m) (K (sendCell c 6)) (sendCell c 6)
      ∗ atPos ER (sendCell c 6) 1 ∅ 0
      ∗ cellInv ER (sched m) (K (recvCell c 6)) (recvCell c 6)
      ∗ atPos ER (recvCell c 6) 1 ∅ 0
      ∗ cellInv ER (sched m) (K (sendCell c 7)) (sendCell c 7)
      ∗ atPos ER (sendCell c 7) 1 ∅ 0
      ∗ cellInv ER (sched m) (K (recvCell c 7)) (recvCell c 7)
      ∗ atPos ER (recvCell c 7) 1 ∅ 0
      ∗ (outM.view.loc (c : Thread nD τ) ↦[outM.view.set]{fullShare} fo')
      ∗ (∃ W, owes (c : Thread nD τ) 0 W)) : sProp 𝕄)
    ⊢ |={Set.univ}=> bodyEnd m c := by
  iintro ⟨HX, HW, Hx, Hw0, Hw1, Hw2, Hw3, Hw4, Hw5, Hw6, Hw7, Hsb0, Hsb1, Hsb2, Hsb3, Hsb4, Hsb5, Hsb6, Hsb7, Hrb0, Hrb1, Hrb2, Hrb3, Hrb4, Hrb5, Hrb6, Hrb7, Hs1, Hs2, Hs3, Hs4, Hs5, Hs6, Hs7, Hs8, Hs9, Hs10, Hs11, Hs12, Hs13, Hs21, HIs1, HatS1, HIr1, HatR1, HIs2, HatS2, HIr2, HatR2, HIs3, HatS3, HIr3, HatR3, HIs4, HatS4, HIr4, HatR4, HIs5, HatS5, HIr5, HatR5, HIs6, HatS6, HIr6, HatR6, HIs7, HatS7, HIr7, HatR7, Hout, HO⟩
  iapply (body_close m K c X' wL fo' hfo)
  unfold argPts plainSems
  isplitl [HX HW]
  · isplitl [HX]; · iexact HX
    iexact HW
  isplitl [Hx]; · iexact Hx
  isplitl [Hw0 Hw1 Hw2 Hw3 Hw4 Hw5 Hw6 Hw7]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    iexact Hw7
  isplitl [Hsb0 Hsb1 Hsb2 Hsb3 Hsb4 Hsb5 Hsb6 Hsb7]
  · isplitl [Hsb0]; · iexact Hsb0
    isplitl [Hsb1]; · iexact Hsb1
    isplitl [Hsb2]; · iexact Hsb2
    isplitl [Hsb3]; · iexact Hsb3
    isplitl [Hsb4]; · iexact Hsb4
    isplitl [Hsb5]; · iexact Hsb5
    isplitl [Hsb6]; · iexact Hsb6
    iexact Hsb7
  isplitl [Hrb0 Hrb1 Hrb2 Hrb3 Hrb4 Hrb5 Hrb6 Hrb7]
  · isplitl [Hrb0]; · iexact Hrb0
    isplitl [Hrb1]; · iexact Hrb1
    isplitl [Hrb2]; · iexact Hrb2
    isplitl [Hrb3]; · iexact Hrb3
    isplitl [Hrb4]; · iexact Hrb4
    isplitl [Hrb5]; · iexact Hrb5
    isplitl [Hrb6]; · iexact Hrb6
    iexact Hrb7
  isplitl [Hs1 Hs2 Hs3 Hs4 Hs5 Hs6 Hs7 Hs8 Hs9 Hs10 Hs11 Hs12 Hs13 Hs21]
  · isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    iexact Hs21
  isplitl [HIs1 HatS1 HIr1 HatR1 HIs2 HatS2 HIr2 HatR2 HIs3 HatS3 HIr3 HatR3 HIs4 HatS4 HIr4 HatR4 HIs5 HatS5 HIr5 HatR5 HIs6 HatS6 HIr6 HatR6 HIs7 HatS7 HIr7 HatR7]
  · isplitl [HIs1 HatS1 HIr1 HatR1]
    · isplitl [HIs1]; · iexact HIs1
      isplitl [HatS1]; · iexact HatS1
      isplitl [HIr1]; · iexact HIr1
      iexact HatR1
    isplitl [HIs2 HatS2 HIr2 HatR2]
    · isplitl [HIs2]; · iexact HIs2
      isplitl [HatS2]; · iexact HatS2
      isplitl [HIr2]; · iexact HIr2
      iexact HatR2
    isplitl [HIs3 HatS3 HIr3 HatR3]
    · isplitl [HIs3]; · iexact HIs3
      isplitl [HatS3]; · iexact HatS3
      isplitl [HIr3]; · iexact HIr3
      iexact HatR3
    isplitl [HIs4 HatS4 HIr4 HatR4]
    · isplitl [HIs4]; · iexact HIs4
      isplitl [HatS4]; · iexact HatS4
      isplitl [HIr4]; · iexact HIr4
      iexact HatR4
    isplitl [HIs5 HatS5 HIr5 HatR5]
    · isplitl [HIs5]; · iexact HIs5
      isplitl [HatS5]; · iexact HatS5
      isplitl [HIr5]; · iexact HIr5
      iexact HatR5
    isplitl [HIs6 HatS6 HIr6 HatR6]
    · isplitl [HIs6]; · iexact HIs6
      isplitl [HatS6]; · iexact HatS6
      isplitl [HIr6]; · iexact HIr6
      iexact HatR6
    isplitl [HIs7]; · iexact HIs7
    isplitl [HatS7]; · iexact HatS7
    isplitl [HIr7]; · iexact HIr7
    iexact HatR7
  isplitl [Hout]; · iexact Hout
  iexact HO

/-- info: 'Cert.KernelIdeal.A2A.body_close' depends on axioms: [propext, Classical.choice, Quot.sound] -/
#guard_msgs in #print axioms body_close

/-- info: 'Cert.KernelIdeal.A2A.body_close_flat' depends on axioms: [propext, Classical.choice, Quot.sound] -/
#guard_msgs in #print axioms body_close_flat

end Cert.KernelIdeal.A2A

end
-- ==== Proof.Body.lean ====
/-
  The stepped body of a device, and with it the body obligation of the launch.

  The body is opened to its skeleton. Its first part, the entry handshake, is a step of its own: the device signals each
  partner's barrier cell once, handing over the receive slot that partner will write, and waits for its own seven units;
  it comes back holding slot t of the receive buffer of each partner c xor t and owing only the seven copies. The rest of
  the body is stepped from there. Two families of facts are put in scope for the stepping: the sixteen windows of the
  weight array that the copies read are pairwise disjoint (two windows of one mask differ in their rows, two of different
  masks in their columns), and a wait on a semaphore that is no receive semaphore is allowed under each of the eight debts
  the device runs through as its copies are issued, because every debt is to receive cells only.

  The stepping then goes tile by tile. The four quarters of the x buffer land and are joined into the device's block of x.
  For each mask t in the order 6, 2, 5, 7, 1, 3, 4 the two halves of a weight slot land and are joined into the 256 columns
  of w that belong to device c xor t; the tile gelu(x · those columns) is stored, narrowed to 16 bits, into slot t of the
  send buffer, which then holds exactly what the schedule says that slot carries, and the copy to c xor t is issued, paying
  the receive credit owed there and minting the credit to wait for the slot's return. The last tile (mask 0) is the device's
  own and goes into row block c of the output at full width. Then, for t = 1..7, the wait on receive cell t hands the
  device slot t of its receive buffer holding the tile that c xor t computed for it, which is widened and stored into row
  block c xor t of the output. The seven waits on the send cells take the send slots back. At the end every buffer is
  whole again, the fourteen cells are closed with their counters at zero, nothing is owed, and the output block holds, row
  block by row block, the device's result.
-/
import proofs.«900796_g7700000000000797_dist_gemm_a2a_m4096_k4096_n2048_f32_gelu_v7x_i8_1_alg».proof.Proof.BodyOb
import proofs.«900796_g7700000000000797_dist_gemm_a2a_m4096_k4096_n2048_f32_gelu_v7x_i8_1_alg».proof.Proof.Part1All
import proofs.«900796_g7700000000000797_dist_gemm_a2a_m4096_k4096_n2048_f32_gelu_v7x_i8_1_alg».proof.Proof.LevelsGen
import proofs.«900796_g7700000000000797_dist_gemm_a2a_m4096_k4096_n2048_f32_gelu_v7x_i8_1_alg».proof.Proof.SendRule
import proofs.«900796_g7700000000000797_dist_gemm_a2a_m4096_k4096_n2048_f32_gelu_v7x_i8_1_alg».proof.Proof.SendVal
import proofs.«900796_g7700000000000797_dist_gemm_a2a_m4096_k4096_n2048_f32_gelu_v7x_i8_1_alg».proof.Proof.OutVal
import proofs.«900796_g7700000000000797_dist_gemm_a2a_m4096_k4096_n2048_f32_gelu_v7x_i8_1_alg».proof.Proof.BodyClose

set_option maxHeartbeats 8000000
set_option maxRecDepth 65536
set_option sl_exec.stepHeartbeats 2000000
set_option sl_exec.rejoinHeartbeats 400000

noncomputable section

namespace Cert.KernelIdeal.A2A

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a wait on a send or receive cell hands over, as one assertion -/

theorem recv_all_1 (c : Dev nD) : bigSep ((sched m).duties (recvCell c 1) 0) (fun d => (sched m).payload (recvCell c 1) 0 d) = ((rM 1).view.loc (c : Thread nD τ) ↦[(rM 1).view.set]{fullShare} recvV m c : sProp 𝕄) := by
  have h := rest_recv_1 m c
  rw [Finset.sdiff_empty] at h
  exact h.trans (recvPay_1 m c)
theorem send_all_1 (c : Dev nD) : bigSep ((sched m).duties (sendCell c 1) 0) (fun d => (sched m).payload (sendCell c 1) 0 d) = ((sM 1).view.loc (c : Thread nD τ) ↦[(sM 1).view.set]{fullShare} sendV m c : sProp 𝕄) := by
  have h := rest_send_1 m c
  rw [Finset.sdiff_empty] at h
  exact h.trans (sendPay_1 m c)
theorem recv_all_2 (c : Dev nD) : bigSep ((sched m).duties (recvCell c 2) 0) (fun d => (sched m).payload (recvCell c 2) 0 d) = ((rM 2).view.loc (c : Thread nD τ) ↦[(rM 2).view.set]{fullShare} recvV m c : sProp 𝕄) := by
  have h := rest_recv_2 m c
  rw [Finset.sdiff_empty] at h
  exact h.trans (recvPay_2 m c)
theorem send_all_2 (c : Dev nD) : bigSep ((sched m).duties (sendCell c 2) 0) (fun d => (sched m).payload (sendCell c 2) 0 d) = ((sM 2).view.loc (c : Thread nD τ) ↦[(sM 2).view.set]{fullShare} sendV m c : sProp 𝕄) := by
  have h := rest_send_2 m c
  rw [Finset.sdiff_empty] at h
  exact h.trans (sendPay_2 m c)
theorem recv_all_3 (c : Dev nD) : bigSep ((sched m).duties (recvCell c 3) 0) (fun d => (sched m).payload (recvCell c 3) 0 d) = ((rM 3).view.loc (c : Thread nD τ) ↦[(rM 3).view.set]{fullShare} recvV m c : sProp 𝕄) := by
  have h := rest_recv_3 m c
  rw [Finset.sdiff_empty] at h
  exact h.trans (recvPay_3 m c)
theorem send_all_3 (c : Dev nD) : bigSep ((sched m).duties (sendCell c 3) 0) (fun d => (sched m).payload (sendCell c 3) 0 d) = ((sM 3).view.loc (c : Thread nD τ) ↦[(sM 3).view.set]{fullShare} sendV m c : sProp 𝕄) := by
  have h := rest_send_3 m c
  rw [Finset.sdiff_empty] at h
  exact h.trans (sendPay_3 m c)
theorem recv_all_4 (c : Dev nD) : bigSep ((sched m).duties (recvCell c 4) 0) (fun d => (sched m).payload (recvCell c 4) 0 d) = ((rM 4).view.loc (c : Thread nD τ) ↦[(rM 4).view.set]{fullShare} recvV m c : sProp 𝕄) := by
  have h := rest_recv_4 m c
  rw [Finset.sdiff_empty] at h
  exact h.trans (recvPay_4 m c)
theorem send_all_4 (c : Dev nD) : bigSep ((sched m).duties (sendCell c 4) 0) (fun d => (sched m).payload (sendCell c 4) 0 d) = ((sM 4).view.loc (c : Thread nD τ) ↦[(sM 4).view.set]{fullShare} sendV m c : sProp 𝕄) := by
  have h := rest_send_4 m c
  rw [Finset.sdiff_empty] at h
  exact h.trans (sendPay_4 m c)
theorem recv_all_5 (c : Dev nD) : bigSep ((sched m).duties (recvCell c 5) 0) (fun d => (sched m).payload (recvCell c 5) 0 d) = ((rM 5).view.loc (c : Thread nD τ) ↦[(rM 5).view.set]{fullShare} recvV m c : sProp 𝕄) := by
  have h := rest_recv_5 m c
  rw [Finset.sdiff_empty] at h
  exact h.trans (recvPay_5 m c)
theorem send_all_5 (c : Dev nD) : bigSep ((sched m).duties (sendCell c 5) 0) (fun d => (sched m).payload (sendCell c 5) 0 d) = ((sM 5).view.loc (c : Thread nD τ) ↦[(sM 5).view.set]{fullShare} sendV m c : sProp 𝕄) := by
  have h := rest_send_5 m c
  rw [Finset.sdiff_empty] at h
  exact h.trans (sendPay_5 m c)
theorem recv_all_6 (c : Dev nD) : bigSep ((sched m).duties (recvCell c 6) 0) (fun d => (sched m).payload (recvCell c 6) 0 d) = ((rM 6).view.loc (c : Thread nD τ) ↦[(rM 6).view.set]{fullShare} recvV m c : sProp 𝕄) := by
  have h := rest_recv_6 m c
  rw [Finset.sdiff_empty] at h
  exact h.trans (recvPay_6 m c)
theorem send_all_6 (c : Dev nD) : bigSep ((sched m).duties (sendCell c 6) 0) (fun d => (sched m).payload (sendCell c 6) 0 d) = ((sM 6).view.loc (c : Thread nD τ) ↦[(sM 6).view.set]{fullShare} sendV m c : sProp 𝕄) := by
  have h := rest_send_6 m c
  rw [Finset.sdiff_empty] at h
  exact h.trans (sendPay_6 m c)
theorem recv_all_7 (c : Dev nD) : bigSep ((sched m).duties (recvCell c 7) 0) (fun d => (sched m).payload (recvCell c 7) 0 d) = ((rM 7).view.loc (c : Thread nD τ) ↦[(rM 7).view.set]{fullShare} recvV m c : sProp 𝕄) := by
  have h := rest_recv_7 m c
  rw [Finset.sdiff_empty] at h
  exact h.trans (recvPay_7 m c)
theorem send_all_7 (c : Dev nD) : bigSep ((sched m).duties (sendCell c 7) 0) (fun d => (sched m).payload (sendCell c 7) 0 d) = ((sM 7).view.loc (c : Thread nD τ) ↦[(sM 7).view.set]{fullShare} sendV m c : sProp 𝕄) := by
  have h := rest_send_7 m c
  rw [Finset.sdiff_empty] at h
  exact h.trans (sendPay_7 m c)

attribute [local sl_rounds] payload_recv_1 recvPay_1 payload_send_1 sendPay_1 expect_recv_1 expect_send_1 payload_recv_2 recvPay_2 payload_send_2 sendPay_2 expect_recv_2 expect_send_2 payload_recv_3 recvPay_3 payload_send_3 sendPay_3 expect_recv_3 expect_send_3 payload_recv_4 recvPay_4 payload_send_4 sendPay_4 expect_recv_4 expect_send_4 payload_recv_5 recvPay_5 payload_send_5 sendPay_5 expect_recv_5 expect_send_5 payload_recv_6 recvPay_6 payload_send_6 sendPay_6 expect_recv_6 expect_send_6 payload_recv_7 recvPay_7 payload_send_7 sendPay_7 expect_recv_7 expect_send_7

/-- The body, stepped on any device from the cut context. -/
theorem sound_body : SoundBody m := by
  intro c K W fx fw fs fo Kt
  unfold bodyCtx ghost invs positions reacheds payToks waitCreds plainSems argPts piecesAt
  iintro ⟨⟨⟨⟨#HIbar, #HIs1, #HIr1, #HIs2, #HIr2, #HIs3, #HIr3, #HIs4, #HIr4, #HIs5, #HIr5, #HIs6, #HIr6, #HIs7, #HIr7, #HIb1, #HIpr1, #HIb2, #HIpr2, #HIb3, #HIpr3, #HIb4, #HIpr4, #HIb5, #HIpr5, #HIb6, #HIpr6, #HIb7, #HIpr7⟩, ⟨HatB, HatS1, HatR1, HatS2, HatR2, HatS3, HatR3, HatS4, HatR4, HatS5, HatR5, HatS6, HatR6, HatS7, HatR7⟩, ⟨#HrB1, #HrR1, #HrS1, #HrB2, #HrR2, #HrS2, #HrB3, #HrR3, #HrS3, #HrB4, #HrR4, #HrS4, #HrB5, #HrR5, #HrS5, #HrB6, #HrR6, #HrS6, #HrB7, #HrR7, #HrS7⟩, ⟨HtB1, HtR1, HtS1, HtB2, HtR2, HtS2, HtB3, HtR3, HtS3, HtB4, HtR4, HtS4, HtB5, HtR5, HtS5, HtB6, HtR6, HtS6, HtB7, HtR7, HtS7⟩⟩, ⟨HcB, HcR1, HcR2, HcR3, HcR4, HcR5, HcR6, HcR7⟩, #Hlev, ⟨Hs1, Hs2, Hs3, Hs4, Hs5, Hs6, Hs7, Hs8, Hs9, Hs10, Hs11, Hs12, Hs13, Hs21⟩, ⟨HX, HW⟩, ⟨Hx0, Hx1, Hx2, Hx3, Hw0_0, Hw0_1, Hw1_0, Hw1_1, Hw2_0, Hw2_1, Hw3_0, Hw3_1, Hw4_0, Hw4_1, Hw5_0, Hw5_1, Hw6_0, Hw6_1, Hw7_0, Hw7_1, Hsb0, Hsb1, Hsb2, Hsb3, Hsb4, Hsb5, Hsb6, Hsb7, Hrb0, Hrb1, Hrb2, Hrb3, Hrb4, Hrb5, Hrb6, Hrb7⟩, Hout, HO⟩, Hk⟩
  rw [cc0_body_eq_skeleton]; unfold cc0_body_skel
  rw [k0_part23_eq_skeleton]; unfold k0_part23_skel
  rw [wp_bind, wp_bind]
  -- the entry handshake
  iapply (part1_run m K c W _)
  isplitl [HatB HtB1 HtB2 HtB3 HtB4 HtB5 HtB6 HtB7 Hrb1 Hrb2 Hrb3 Hrb4 Hrb5 Hrb6 Hrb7 HcB HO]
  · unfold part1Pre
    isplitr; · iexact HIbar
    isplitr; · iexact HIb1
    isplitr; · iexact HIb2
    isplitr; · iexact HIb3
    isplitr; · iexact HIb4
    isplitr; · iexact HIb5
    isplitr; · iexact HIb6
    isplitr; · iexact HIb7
    isplitl [HatB]; · iexact HatB
    isplitr; · iexact HrB1
    isplitr; · iexact HrB2
    isplitr; · iexact HrB3
    isplitr; · iexact HrB4
    isplitr; · iexact HrB5
    isplitr; · iexact HrB6
    isplitr; · iexact HrB7
    isplitl [HtB1]; · iexact HtB1
    isplitl [HtB2]; · iexact HtB2
    isplitl [HtB3]; · iexact HtB3
    isplitl [HtB4]; · iexact HtB4
    isplitl [HtB5]; · iexact HtB5
    isplitl [HtB6]; · iexact HtB6
    isplitl [HtB7]; · iexact HtB7
    isplitl [Hrb1]; · iexact Hrb1
    isplitl [Hrb2]; · iexact Hrb2
    isplitl [Hrb3]; · iexact Hrb3
    isplitl [Hrb4]; · iexact Hrb4
    isplitl [Hrb5]; · iexact Hrb5
    isplitl [Hrb6]; · iexact Hrb6
    isplitl [Hrb7]; · iexact Hrb7
    isplitl [HcB]; · iexact HcB
    isplitr; · iexact Hlev
    iexact HO
  unfold part1Post owedRecv
  iintro ⟨HatB, Hpr1, Hpr2, Hpr3, Hpr4, Hpr5, Hpr6, Hpr7, ⟨%W1, HO⟩⟩
  -- the sixteen windows of the weight array are pairwise disjoint
  have hd_10_11 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off1 c 1#32) S2048x256.size (k0_off1_inb c 1)) (fun _ => rfl)).view.set := wwin_disj_10_11 c
  have hd_10_12 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off1 c 2#32) S2048x256.size (k0_off1_inb c 2)) (fun _ => rfl)).view.set := wwin_disj_10_12 c
  have hd_10_13 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off1 c 3#32) S2048x256.size (k0_off1_inb c 3)) (fun _ => rfl)).view.set := wwin_disj_10_13 c
  have hd_10_14 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off1 c 4#32) S2048x256.size (k0_off1_inb c 4)) (fun _ => rfl)).view.set := wwin_disj_10_14 c
  have hd_10_15 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off1 c 5#32) S2048x256.size (k0_off1_inb c 5)) (fun _ => rfl)).view.set := wwin_disj_10_15 c
  have hd_10_16 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off1 c 6#32) S2048x256.size (k0_off1_inb c 6)) (fun _ => rfl)).view.set := wwin_disj_10_16 c
  have hd_10_17 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off1 c 7#32) S2048x256.size (k0_off1_inb c 7)) (fun _ => rfl)).view.set := wwin_disj_10_17 c
  have hd_10_20 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off2 c 0#32) S2048x256.size (k0_off2_inb c 0)) (fun _ => rfl)).view.set := wwin_disj_10_20 c
  have hd_10_21 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off2 c 1#32) S2048x256.size (k0_off2_inb c 1)) (fun _ => rfl)).view.set := wwin_disj_10_21 c
  have hd_10_22 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off2 c 2#32) S2048x256.size (k0_off2_inb c 2)) (fun _ => rfl)).view.set := wwin_disj_10_22 c
  have hd_10_23 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off2 c 3#32) S2048x256.size (k0_off2_inb c 3)) (fun _ => rfl)).view.set := wwin_disj_10_23 c
  have hd_10_24 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off2 c 4#32) S2048x256.size (k0_off2_inb c 4)) (fun _ => rfl)).view.set := wwin_disj_10_24 c
  have hd_10_25 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off2 c 5#32) S2048x256.size (k0_off2_inb c 5)) (fun _ => rfl)).view.set := wwin_disj_10_25 c
  have hd_10_26 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_10_26 c
  have hd_10_27 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_10_27 c
  have hd_11_12 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off1 c 2#32) S2048x256.size (k0_off1_inb c 2)) (fun _ => rfl)).view.set := wwin_disj_11_12 c
  have hd_11_13 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off1 c 3#32) S2048x256.size (k0_off1_inb c 3)) (fun _ => rfl)).view.set := wwin_disj_11_13 c
  have hd_11_14 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off1 c 4#32) S2048x256.size (k0_off1_inb c 4)) (fun _ => rfl)).view.set := wwin_disj_11_14 c
  have hd_11_15 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off1 c 5#32) S2048x256.size (k0_off1_inb c 5)) (fun _ => rfl)).view.set := wwin_disj_11_15 c
  have hd_11_16 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off1 c 6#32) S2048x256.size (k0_off1_inb c 6)) (fun _ => rfl)).view.set := wwin_disj_11_16 c
  have hd_11_17 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off1 c 7#32) S2048x256.size (k0_off1_inb c 7)) (fun _ => rfl)).view.set := wwin_disj_11_17 c
  have hd_11_20 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off2 c 0#32) S2048x256.size (k0_off2_inb c 0)) (fun _ => rfl)).view.set := wwin_disj_11_20 c
  have hd_11_21 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off2 c 1#32) S2048x256.size (k0_off2_inb c 1)) (fun _ => rfl)).view.set := wwin_disj_11_21 c
  have hd_11_22 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off2 c 2#32) S2048x256.size (k0_off2_inb c 2)) (fun _ => rfl)).view.set := wwin_disj_11_22 c
  have hd_11_23 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off2 c 3#32) S2048x256.size (k0_off2_inb c 3)) (fun _ => rfl)).view.set := wwin_disj_11_23 c
  have hd_11_24 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off2 c 4#32) S2048x256.size (k0_off2_inb c 4)) (fun _ => rfl)).view.set := wwin_disj_11_24 c
  have hd_11_25 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off2 c 5#32) S2048x256.size (k0_off2_inb c 5)) (fun _ => rfl)).view.set := wwin_disj_11_25 c
  have hd_11_26 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_11_26 c
  have hd_11_27 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_11_27 c
  have hd_12_13 : Disjoint ((Memref.whole main_arg1 : Memref sig .tc .hbm S4096x2048 .f32).slice (Rect.unit (s := S4096x2048) (k0_off1 c 2#32) S2048x256.size (k0_off1_inb c 2)) (fun _ => rfl)).view.set ((Memref.whole main_arg1 : Memref sig .tc .hbm S4096x2048 .f32).slice (Rect.unit (s := S4096x2048) (k0_off1 c 3#32) S2048x256.size (k0_off1_inb c 3)) (fun _ => rfl)).view.set := wwin_disj_12_13 c
  have hd_12_14 : Disjoint ((Memref.whole main_arg1 : Memref sig .tc .hbm S4096x2048 .f32).slice (Rect.unit (s := S4096x2048) (k0_off1 c 2#32) S2048x256.size (k0_off1_inb c 2)) (fun _ => rfl)).view.set ((Memref.whole main_arg1 : Memref sig .tc .hbm S4096x2048 .f32).slice (Rect.unit (s := S4096x2048) (k0_off1 c 4#32) S2048x256.size (k0_off1_inb c 4)) (fun _ => rfl)).view.set := wwin_disj_12_14 c
  have hd_12_15 : Disjoint ((Memref.whole main_arg1 : Memref sig .tc .hbm S4096x2048 .f32).slice (Rect.unit (s := S4096x2048) (k0_off1 c 2#32) S2048x256.size (k0_off1_inb c 2)) (fun _ => rfl)).view.set ((Memref.whole main_arg1 : Memref sig .tc .hbm S4096x2048 .f32).slice (Rect.unit (s := S4096x2048) (k0_off1 c 5#32) S2048x256.size (k0_off1_inb c 5)) (fun _ => rfl)).view.set := wwin_disj_12_15 c
  have hd_12_16 : Disjoint ((Memref.whole main_arg1 : Memref sig .tc .hbm S4096x2048 .f32).slice (Rect.unit (s := S4096x2048) (k0_off1 c 2#32) S2048x256.size (k0_off1_inb c 2)) (fun _ => rfl)).view.set ((Memref.whole main_arg1 : Memref sig .tc .hbm S4096x2048 .f32).slice (Rect.unit (s := S4096x2048) (k0_off1 c 6#32) S2048x256.size (k0_off1_inb c 6)) (fun _ => rfl)).view.set := wwin_disj_12_16 c
  have hd_12_17 : Disjoint ((Memref.whole main_arg1 : Memref sig .tc .hbm S4096x2048 .f32).slice (Rect.unit (s := S4096x2048) (k0_off1 c 2#32) S2048x256.size (k0_off1_inb c 2)) (fun _ => rfl)).view.set ((Memref.whole main_arg1 : Memref sig .tc .hbm S4096x2048 .f32).slice (Rect.unit (s := S4096x2048) (k0_off1 c 7#32) S2048x256.size (k0_off1_inb c 7)) (fun _ => rfl)).view.set := wwin_disj_12_17 c
  have hd_12_20 : Disjoint ((Memref.whole main_arg1 : Memref sig .tc .hbm S4096x2048 .f32).slice (Rect.unit (s := S4096x2048) (k0_off1 c 2#32) S2048x256.size (k0_off1_inb c 2)) (fun _ => rfl)).view.set ((Memref.whole main_arg1 : Memref sig .tc .hbm S4096x2048 .f32).slice (Rect.unit (s := S4096x2048) (k0_off2 c 0#32) S2048x256.size (k0_off2_inb c 0)) (fun _ => rfl)).view.set := wwin_disj_12_20 c
  have hd_12_21 : Disjoint ((Memref.whole main_arg1 : Memref sig .tc .hbm S4096x2048 .f32).slice (Rect.unit (s := S4096x2048) (k0_off1 c 2#32) S2048x256.size (k0_off1_inb c 2)) (fun _ => rfl)).view.set ((Memref.whole main_arg1 : Memref sig .tc .hbm S4096x2048 .f32).slice (Rect.unit (s := S4096x2048) (k0_off2 c 1#32) S2048x256.size (k0_off2_inb c 1)) (fun _ => rfl)).view.set := wwin_disj_12_21 c
  have hd_12_22 : Disjoint ((Memref.whole main_arg1 : Memref sig .tc .hbm S4096x2048 .f32).slice (Rect.unit (s := S4096x2048) (k0_off1 c 2#32) S2048x256.size (k0_off1_inb c 2)) (fun _ => rfl)).view.set ((Memref.whole main_arg1 : Memref sig .tc .hbm S4096x2048 .f32).slice (Rect.unit (s := S4096x2048) (k0_off2 c 2#32) S2048x256.size (k0_off2_inb c 2)) (fun _ => rfl)).view.set := wwin_disj_12_22 c
  have hd_12_23 : Disjoint ((Memref.whole main_arg1 : Memref sig .tc .hbm S4096x2048 .f32).slice (Rect.unit (s := S4096x2048) (k0_off1 c 2#32) S2048x256.size (k0_off1_inb c 2)) (fun _ => rfl)).view.set ((Memref.whole main_arg1 : Memref sig .tc .hbm S4096x2048 .f32).slice (Rect.unit (s := S4096x2048) (k0_off2 c 3#32) S2048x256.size (k0_off2_inb c 3)) (fun _ => rfl)).view.set := wwin_disj_12_23 c
  have hd_12_24 : Disjoint ((Memref.whole main_arg1 : Memref sig .tc .hbm S4096x2048 .f32).slice (Rect.unit (s := S4096x2048) (k0_off1 c 2#32) S2048x256.size (k0_off1_inb c 2)) (fun _ => rfl)).view.set ((Memref.whole main_arg1 : Memref sig .tc .hbm S4096x2048 .f32).slice (Rect.unit (s := S4096x2048) (k0_off2 c 4#32) S2048x256.size (k0_off2_inb c 4)) (fun _ => rfl)).view.set := wwin_disj_12_24 c
  have hd_12_25 : Disjoint ((Memref.whole main_arg1 : Memref sig .tc .hbm S4096x2048 .f32).slice (Rect.unit (s := S4096x2048) (k0_off1 c 2#32) S2048x256.size (k0_off1_inb c 2)) (fun _ => rfl)).view.set ((Memref.whole main_arg1 : Memref sig .tc .hbm S4096x2048 .f32).slice (Rect.unit (s := S4096x2048) (k0_off2 c 5#32) S2048x256.size (k0_off2_inb c 5)) (fun _ => rfl)).view.set := wwin_disj_12_25 c
  have hd_12_26 : Disjoint ((Memref.whole main_arg1 : Memref sig .tc .hbm S4096x2048 .f32).slice (Rect.unit (s := S4096x2048) (k0_off1 c 2#32) S2048x256.size (k0_off1_inb c 2)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_12_26 c
  have hd_12_27 : Disjoint ((Memref.whole main_arg1 : Memref sig .tc .hbm S4096x2048 .f32).slice (Rect.unit (s := S4096x2048) (k0_off1 c 2#32) S2048x256.size (k0_off1_inb c 2)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_12_27 c
  have hd_13_14 : Disjoint ((Memref.whole main_arg1 : Memref sig .tc .hbm S4096x2048 .f32).slice (Rect.unit (s := S4096x2048) (k0_off1 c 3#32) S2048x256.size (k0_off1_inb c 3)) (fun _ => rfl)).view.set ((Memref.whole main_arg1 : Memref sig .tc .hbm S4096x2048 .f32).slice (Rect.unit (s := S4096x2048) (k0_off1 c 4#32) S2048x256.size (k0_off1_inb c 4)) (fun _ => rfl)).view.set := wwin_disj_13_14 c
  have hd_13_15 : Disjoint ((Memref.whole main_arg1 : Memref sig .tc .hbm S4096x2048 .f32).slice (Rect.unit (s := S4096x2048) (k0_off1 c 3#32) S2048x256.size (k0_off1_inb c 3)) (fun _ => rfl)).view.set ((Memref.whole main_arg1 : Memref sig .tc .hbm S4096x2048 .f32).slice (Rect.unit (s := S4096x2048) (k0_off1 c 5#32) S2048x256.size (k0_off1_inb c 5)) (fun _ => rfl)).view.set := wwin_disj_13_15 c
  have hd_13_16 : Disjoint ((Memref.whole main_arg1 : Memref sig .tc .hbm S4096x2048 .f32).slice (Rect.unit (s := S4096x2048) (k0_off1 c 3#32) S2048x256.size (k0_off1_inb c 3)) (fun _ => rfl)).view.set ((Memref.whole main_arg1 : Memref sig .tc .hbm S4096x2048 .f32).slice (Rect.unit (s := S4096x2048) (k0_off1 c 6#32) S2048x256.size (k0_off1_inb c 6)) (fun _ => rfl)).view.set := wwin_disj_13_16 c
  have hd_13_17 : Disjoint ((Memref.whole main_arg1 : Memref sig .tc .hbm S4096x2048 .f32).slice (Rect.unit (s := S4096x2048) (k0_off1 c 3#32) S2048x256.size (k0_off1_inb c 3)) (fun _ => rfl)).view.set ((Memref.whole main_arg1 : Memref sig .tc .hbm S4096x2048 .f32).slice (Rect.unit (s := S4096x2048) (k0_off1 c 7#32) S2048x256.size (k0_off1_inb c 7)) (fun _ => rfl)).view.set := wwin_disj_13_17 c
  have hd_13_20 : Disjoint ((Memref.whole main_arg1 : Memref sig .tc .hbm S4096x2048 .f32).slice (Rect.unit (s := S4096x2048) (k0_off1 c 3#32) S2048x256.size (k0_off1_inb c 3)) (fun _ => rfl)).view.set ((Memref.whole main_arg1 : Memref sig .tc .hbm S4096x2048 .f32).slice (Rect.unit (s := S4096x2048) (k0_off2 c 0#32) S2048x256.size (k0_off2_inb c 0)) (fun _ => rfl)).view.set := wwin_disj_13_20 c
  have hd_13_21 : Disjoint ((Memref.whole main_arg1 : Memref sig .tc .hbm S4096x2048 .f32).slice (Rect.unit (s := S4096x2048) (k0_off1 c 3#32) S2048x256.size (k0_off1_inb c 3)) (fun _ => rfl)).view.set ((Memref.whole main_arg1 : Memref sig .tc .hbm S4096x2048 .f32).slice (Rect.unit (s := S4096x2048) (k0_off2 c 1#32) S2048x256.size (k0_off2_inb c 1)) (fun _ => rfl)).view.set := wwin_disj_13_21 c
  have hd_13_22 : Disjoint ((Memref.whole main_arg1 : Memref sig .tc .hbm S4096x2048 .f32).slice (Rect.unit (s := S4096x2048) (k0_off1 c 3#32) S2048x256.size (k0_off1_inb c 3)) (fun _ => rfl)).view.set ((Memref.whole main_arg1 : Memref sig .tc .hbm S4096x2048 .f32).slice (Rect.unit (s := S4096x2048) (k0_off2 c 2#32) S2048x256.size (k0_off2_inb c 2)) (fun _ => rfl)).view.set := wwin_disj_13_22 c
  have hd_13_23 : Disjoint ((Memref.whole main_arg1 : Memref sig .tc .hbm S4096x2048 .f32).slice (Rect.unit (s := S4096x2048) (k0_off1 c 3#32) S2048x256.size (k0_off1_inb c 3)) (fun _ => rfl)).view.set ((Memref.whole main_arg1 : Memref sig .tc .hbm S4096x2048 .f32).slice (Rect.unit (s := S4096x2048) (k0_off2 c 3#32) S2048x256.size (k0_off2_inb c 3)) (fun _ => rfl)).view.set := wwin_disj_13_23 c
  have hd_13_24 : Disjoint ((Memref.whole main_arg1 : Memref sig .tc .hbm S4096x2048 .f32).slice (Rect.unit (s := S4096x2048) (k0_off1 c 3#32) S2048x256.size (k0_off1_inb c 3)) (fun _ => rfl)).view.set ((Memref.whole main_arg1 : Memref sig .tc .hbm S4096x2048 .f32).slice (Rect.unit (s := S4096x2048) (k0_off2 c 4#32) S2048x256.size (k0_off2_inb c 4)) (fun _ => rfl)).view.set := wwin_disj_13_24 c
  have hd_13_25 : Disjoint ((Memref.whole main_arg1 : Memref sig .tc .hbm S4096x2048 .f32).slice (Rect.unit (s := S4096x2048) (k0_off1 c 3#32) S2048x256.size (k0_off1_inb c 3)) (fun _ => rfl)).view.set ((Memref.whole main_arg1 : Memref sig .tc .hbm S4096x2048 .f32).slice (Rect.unit (s := S4096x2048) (k0_off2 c 5#32) S2048x256.size (k0_off2_inb c 5)) (fun _ => rfl)).view.set := wwin_disj_13_25 c
  have hd_13_26 : Disjoint ((Memref.whole main_arg1 : Memref sig .tc .hbm S4096x2048 .f32).slice (Rect.unit (s := S4096x2048) (k0_off1 c 3#32) S2048x256.size (k0_off1_inb c 3)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_13_26 c
  have hd_13_27 : Disjoint ((Memref.whole main_arg1 : Memref sig .tc .hbm S4096x2048 .f32).slice (Rect.unit (s := S4096x2048) (k0_off1 c 3#32) S2048x256.size (k0_off1_inb c 3)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_13_27 c
  have hd_14_15 : Disjoint ((Memref.whole main_arg1 : Memref sig .tc .hbm S4096x2048 .f32).slice (Rect.unit (s := S4096x2048) (k0_off1 c 4#32) S2048x256.size (k0_off1_inb c 4)) (fun _ => rfl)).view.set ((Memref.whole main_arg1 : Memref sig .tc .hbm S4096x2048 .f32).slice (Rect.unit (s := S4096x2048) (k0_off1 c 5#32) S2048x256.size (k0_off1_inb c 5)) (fun _ => rfl)).view.set := wwin_disj_14_15 c
  have hd_14_16 : Disjoint ((Memref.whole main_arg1 : Memref sig .tc .hbm S4096x2048 .f32).slice (Rect.unit (s := S4096x2048) (k0_off1 c 4#32) S2048x256.size (k0_off1_inb c 4)) (fun _ => rfl)).view.set ((Memref.whole main_arg1 : Memref sig .tc .hbm S4096x2048 .f32).slice (Rect.unit (s := S4096x2048) (k0_off1 c 6#32) S2048x256.size (k0_off1_inb c 6)) (fun _ => rfl)).view.set := wwin_disj_14_16 c
  have hd_14_17 : Disjoint ((Memref.whole main_arg1 : Memref sig .tc .hbm S4096x2048 .f32).slice (Rect.unit (s := S4096x2048) (k0_off1 c 4#32) S2048x256.size (k0_off1_inb c 4)) (fun _ => rfl)).view.set ((Memref.whole main_arg1 : Memref sig .tc .hbm S4096x2048 .f32).slice (Rect.unit (s := S4096x2048) (k0_off1 c 7#32) S2048x256.size (k0_off1_inb c 7)) (fun _ => rfl)).view.set := wwin_disj_14_17 c
  have hd_14_20 : Disjoint ((Memref.whole main_arg1 : Memref sig .tc .hbm S4096x2048 .f32).slice (Rect.unit (s := S4096x2048) (k0_off1 c 4#32) S2048x256.size (k0_off1_inb c 4)) (fun _ => rfl)).view.set ((Memref.whole main_arg1 : Memref sig .tc .hbm S4096x2048 .f32).slice (Rect.unit (s := S4096x2048) (k0_off2 c 0#32) S2048x256.size (k0_off2_inb c 0)) (fun _ => rfl)).view.set := wwin_disj_14_20 c
  have hd_14_21 : Disjoint ((Memref.whole main_arg1 : Memref sig .tc .hbm S4096x2048 .f32).slice (Rect.unit (s := S4096x2048) (k0_off1 c 4#32) S2048x256.size (k0_off1_inb c 4)) (fun _ => rfl)).view.set ((Memref.whole main_arg1 : Memref sig .tc .hbm S4096x2048 .f32).slice (Rect.unit (s := S4096x2048) (k0_off2 c 1#32) S2048x256.size (k0_off2_inb c 1)) (fun _ => rfl)).view.set := wwin_disj_14_21 c
  have hd_14_22 : Disjoint ((Memref.whole main_arg1 : Memref sig .tc .hbm S4096x2048 .f32).slice (Rect.unit (s := S4096x2048) (k0_off1 c 4#32) S2048x256.size (k0_off1_inb c 4)) (fun _ => rfl)).view.set ((Memref.whole main_arg1 : Memref sig .tc .hbm S4096x2048 .f32).slice (Rect.unit (s := S4096x2048) (k0_off2 c 2#32) S2048x256.size (k0_off2_inb c 2)) (fun _ => rfl)).view.set := wwin_disj_14_22 c
  have hd_14_23 : Disjoint ((Memref.whole main_arg1 : Memref sig .tc .hbm S4096x2048 .f32).slice (Rect.unit (s := S4096x2048) (k0_off1 c 4#32) S2048x256.size (k0_off1_inb c 4)) (fun _ => rfl)).view.set ((Memref.whole main_arg1 : Memref sig .tc .hbm S4096x2048 .f32).slice (Rect.unit (s := S4096x2048) (k0_off2 c 3#32) S2048x256.size (k0_off2_inb c 3)) (fun _ => rfl)).view.set := wwin_disj_14_23 c
  have hd_14_24 : Disjoint ((Memref.whole main_arg1 : Memref sig .tc .hbm S4096x2048 .f32).slice (Rect.unit (s := S4096x2048) (k0_off1 c 4#32) S2048x256.size (k0_off1_inb c 4)) (fun _ => rfl)).view.set ((Memref.whole main_arg1 : Memref sig .tc .hbm S4096x2048 .f32).slice (Rect.unit (s := S4096x2048) (k0_off2 c 4#32) S2048x256.size (k0_off2_inb c 4)) (fun _ => rfl)).view.set := wwin_disj_14_24 c
  have hd_14_25 : Disjoint ((Memref.whole main_arg1 : Memref sig .tc .hbm S4096x2048 .f32).slice (Rect.unit (s := S4096x2048) (k0_off1 c 4#32) S2048x256.size (k0_off1_inb c 4)) (fun _ => rfl)).view.set ((Memref.whole main_arg1 : Memref sig .tc .hbm S4096x2048 .f32).slice (Rect.unit (s := S4096x2048) (k0_off2 c 5#32) S2048x256.size (k0_off2_inb c 5)) (fun _ => rfl)).view.set := wwin_disj_14_25 c
  have hd_14_26 : Disjoint ((Memref.whole main_arg1 : Memref sig .tc .hbm S4096x2048 .f32).slice (Rect.unit (s := S4096x2048) (k0_off1 c 4#32) S2048x256.size (k0_off1_inb c 4)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_14_26 c
  have hd_14_27 : Disjoint ((Memref.whole main_arg1 : Memref sig .tc .hbm S4096x2048 .f32).slice (Rect.unit (s := S4096x2048) (k0_off1 c 4#32) S2048x256.size (k0_off1_inb c 4)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_14_27 c
  have hd_15_16 : Disjoint ((Memref.whole main_arg1 : Memref sig .tc .hbm S4096x2048 .f32).slice (Rect.unit (s := S4096x2048) (k0_off1 c 5#32) S2048x256.size (k0_off1_inb c 5)) (fun _ => rfl)).view.set ((Memref.whole main_arg1 : Memref sig .tc .hbm S4096x2048 .f32).slice (Rect.unit (s := S4096x2048) (k0_off1 c 6#32) S2048x256.size (k0_off1_inb c 6)) (fun _ => rfl)).view.set := wwin_disj_15_16 c
  have hd_15_17 : Disjoint ((Memref.whole main_arg1 : Memref sig .tc .hbm S4096x2048 .f32).slice (Rect.unit (s := S4096x2048) (k0_off1 c 5#32) S2048x256.size (k0_off1_inb c 5)) (fun _ => rfl)).view.set ((Memref.whole main_arg1 : Memref sig .tc .hbm S4096x2048 .f32).slice (Rect.unit (s := S4096x2048) (k0_off1 c 7#32) S2048x256.size (k0_off1_inb c 7)) (fun _ => rfl)).view.set := wwin_disj_15_17 c
  have hd_15_20 : Disjoint ((Memref.whole main_arg1 : Memref sig .tc .hbm S4096x2048 .f32).slice (Rect.unit (s := S4096x2048) (k0_off1 c 5#32) S2048x256.size (k0_off1_inb c 5)) (fun _ => rfl)).view.set ((Memref.whole main_arg1 : Memref sig .tc .hbm S4096x2048 .f32).slice (Rect.unit (s := S4096x2048) (k0_off2 c 0#32) S2048x256.size (k0_off2_inb c 0)) (fun _ => rfl)).view.set := wwin_disj_15_20 c
  have hd_15_21 : Disjoint ((Memref.whole main_arg1 : Memref sig .tc .hbm S4096x2048 .f32).slice (Rect.unit (s := S4096x2048) (k0_off1 c 5#32) S2048x256.size (k0_off1_inb c 5)) (fun _ => rfl)).view.set ((Memref.whole main_arg1 : Memref sig .tc .hbm S4096x2048 .f32).slice (Rect.unit (s := S4096x2048) (k0_off2 c 1#32) S2048x256.size (k0_off2_inb c 1)) (fun _ => rfl)).view.set := wwin_disj_15_21 c
  have hd_15_22 : Disjoint ((Memref.whole main_arg1 : Memref sig .tc .hbm S4096x2048 .f32).slice (Rect.unit (s := S4096x2048) (k0_off1 c 5#32) S2048x256.size (k0_off1_inb c 5)) (fun _ => rfl)).view.set ((Memref.whole main_arg1 : Memref sig .tc .hbm S4096x2048 .f32).slice (Rect.unit (s := S4096x2048) (k0_off2 c 2#32) S2048x256.size (k0_off2_inb c 2)) (fun _ => rfl)).view.set := wwin_disj_15_22 c
  have hd_15_23 : Disjoint ((Memref.whole main_arg1 : Memref sig .tc .hbm S4096x2048 .f32).slice (Rect.unit (s := S4096x2048) (k0_off1 c 5#32) S2048x256.size (k0_off1_inb c 5)) (fun _ => rfl)).view.set ((Memref.whole main_arg1 : Memref sig .tc .hbm S4096x2048 .f32).slice (Rect.unit (s := S4096x2048) (k0_off2 c 3#32) S2048x256.size (k0_off2_inb c 3)) (fun _ => rfl)).view.set := wwin_disj_15_23 c
  have hd_15_24 : Disjoint ((Memref.whole main_arg1 : Memref sig .tc .hbm S4096x2048 .f32).slice (Rect.unit (s := S4096x2048) (k0_off1 c 5#32) S2048x256.size (k0_off1_inb c 5)) (fun _ => rfl)).view.set ((Memref.whole main_arg1 : Memref sig .tc .hbm S4096x2048 .f32).slice (Rect.unit (s := S4096x2048) (k0_off2 c 4#32) S2048x256.size (k0_off2_inb c 4)) (fun _ => rfl)).view.set := wwin_disj_15_24 c
  have hd_15_25 : Disjoint ((Memref.whole main_arg1 : Memref sig .tc .hbm S4096x2048 .f32).slice (Rect.unit (s := S4096x2048) (k0_off1 c 5#32) S2048x256.size (k0_off1_inb c 5)) (fun _ => rfl)).view.set ((Memref.whole main_arg1 : Memref sig .tc .hbm S4096x2048 .f32).slice (Rect.unit (s := S4096x2048) (k0_off2 c 5#32) S2048x256.size (k0_off2_inb c 5)) (fun _ => rfl)).view.set := wwin_disj_15_25 c
  have hd_15_26 : Disjoint ((Memref.whole main_arg1 : Memref sig .tc .hbm S4096x2048 .f32).slice (Rect.unit (s := S4096x2048) (k0_off1 c 5#32) S2048x256.size (k0_off1_inb c 5)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_15_26 c
  have hd_15_27 : Disjoint ((Memref.whole main_arg1 : Memref sig .tc .hbm S4096x2048 .f32).slice (Rect.unit (s := S4096x2048) (k0_off1 c 5#32) S2048x256.size (k0_off1_inb c 5)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_15_27 c
  have hd_16_17 : Disjoint ((Memref.whole main_arg1 : Memref sig .tc .hbm S4096x2048 .f32).slice (Rect.unit (s := S4096x2048) (k0_off1 c 6#32) S2048x256.size (k0_off1_inb c 6)) (fun _ => rfl)).view.set ((Memref.whole main_arg1 : Memref sig .tc .hbm S4096x2048 .f32).slice (Rect.unit (s := S4096x2048) (k0_off1 c 7#32) S2048x256.size (k0_off1_inb c 7)) (fun _ => rfl)).view.set := wwin_disj_16_17 c
  have hd_16_20 : Disjoint ((Memref.whole main_arg1 : Memref sig .tc .hbm S4096x2048 .f32).slice (Rect.unit (s := S4096x2048) (k0_off1 c 6#32) S2048x256.size (k0_off1_inb c 6)) (fun _ => rfl)).view.set ((Memref.whole main_arg1 : Memref sig .tc .hbm S4096x2048 .f32).slice (Rect.unit (s := S4096x2048) (k0_off2 c 0#32) S2048x256.size (k0_off2_inb c 0)) (fun _ => rfl)).view.set := wwin_disj_16_20 c
  have hd_16_21 : Disjoint ((Memref.whole main_arg1 : Memref sig .tc .hbm S4096x2048 .f32).slice (Rect.unit (s := S4096x2048) (k0_off1 c 6#32) S2048x256.size (k0_off1_inb c 6)) (fun _ => rfl)).view.set ((Memref.whole main_arg1 : Memref sig .tc .hbm S4096x2048 .f32).slice (Rect.unit (s := S4096x2048) (k0_off2 c 1#32) S2048x256.size (k0_off2_inb c 1)) (fun _ => rfl)).view.set := wwin_disj_16_21 c
  have hd_16_22 : Disjoint ((Memref.whole main_arg1 : Memref sig .tc .hbm S4096x2048 .f32).slice (Rect.unit (s := S4096x2048) (k0_off1 c 6#32) S2048x256.size (k0_off1_inb c 6)) (fun _ => rfl)).view.set ((Memref.whole main_arg1 : Memref sig .tc .hbm S4096x2048 .f32).slice (Rect.unit (s := S4096x2048) (k0_off2 c 2#32) S2048x256.size (k0_off2_inb c 2)) (fun _ => rfl)).view.set := wwin_disj_16_22 c
  have hd_16_23 : Disjoint ((Memref.whole main_arg1 : Memref sig .tc .hbm S4096x2048 .f32).slice (Rect.unit (s := S4096x2048) (k0_off1 c 6#32) S2048x256.size (k0_off1_inb c 6)) (fun _ => rfl)).view.set ((Memref.whole main_arg1 : Memref sig .tc .hbm S4096x2048 .f32).slice (Rect.unit (s := S4096x2048) (k0_off2 c 3#32) S2048x256.size (k0_off2_inb c 3)) (fun _ => rfl)).view.set := wwin_disj_16_23 c
  have hd_16_24 : Disjoint ((Memref.whole main_arg1 : Memref sig .tc .hbm S4096x2048 .f32).slice (Rect.unit (s := S4096x2048) (k0_off1 c 6#32) S2048x256.size (k0_off1_inb c 6)) (fun _ => rfl)).view.set ((Memref.whole main_arg1 : Memref sig .tc .hbm S4096x2048 .f32).slice (Rect.unit (s := S4096x2048) (k0_off2 c 4#32) S2048x256.size (k0_off2_inb c 4)) (fun _ => rfl)).view.set := wwin_disj_16_24 c
  have hd_16_25 : Disjoint ((Memref.whole main_arg1 : Memref sig .tc .hbm S4096x2048 .f32).slice (Rect.unit (s := S4096x2048) (k0_off1 c 6#32) S2048x256.size (k0_off1_inb c 6)) (fun _ => rfl)).view.set ((Memref.whole main_arg1 : Memref sig .tc .hbm S4096x2048 .f32).slice (Rect.unit (s := S4096x2048) (k0_off2 c 5#32) S2048x256.size (k0_off2_inb c 5)) (fun _ => rfl)).view.set := wwin_disj_16_25 c
  have hd_16_26 : Disjoint ((Memref.whole main_arg1 : Memref sig .tc .hbm S4096x2048 .f32).slice (Rect.unit (s := S4096x2048) (k0_off1 c 6#32) S2048x256.size (k0_off1_inb c 6)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_16_26 c
  have hd_16_27 : Disjoint ((Memref.whole main_arg1 : Memref sig .tc .hbm S4096x2048 .f32).slice (Rect.unit (s := S4096x2048) (k0_off1 c 6#32) S2048x256.size (k0_off1_inb c 6)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_16_27 c
  have hd_17_20 : Disjoint ((Memref.whole main_arg1 : Memref sig .tc .hbm S4096x2048 .f32).slice (Rect.unit (s := S4096x2048) (k0_off1 c 7#32) S2048x256.size (k0_off1_inb c 7)) (fun _ => rfl)).view.set ((Memref.whole main_arg1 : Memref sig .tc .hbm S4096x2048 .f32).slice (Rect.unit (s := S4096x2048) (k0_off2 c 0#32) S2048x256.size (k0_off2_inb c 0)) (fun _ => rfl)).view.set := wwin_disj_17_20 c
  have hd_17_21 : Disjoint ((Memref.whole main_arg1 : Memref sig .tc .hbm S4096x2048 .f32).slice (Rect.unit (s := S4096x2048) (k0_off1 c 7#32) S2048x256.size (k0_off1_inb c 7)) (fun _ => rfl)).view.set ((Memref.whole main_arg1 : Memref sig .tc .hbm S4096x2048 .f32).slice (Rect.unit (s := S4096x2048) (k0_off2 c 1#32) S2048x256.size (k0_off2_inb c 1)) (fun _ => rfl)).view.set := wwin_disj_17_21 c
  have hd_17_22 : Disjoint ((Memref.whole main_arg1 : Memref sig .tc .hbm S4096x2048 .f32).slice (Rect.unit (s := S4096x2048) (k0_off1 c 7#32) S2048x256.size (k0_off1_inb c 7)) (fun _ => rfl)).view.set ((Memref.whole main_arg1 : Memref sig .tc .hbm S4096x2048 .f32).slice (Rect.unit (s := S4096x2048) (k0_off2 c 2#32) S2048x256.size (k0_off2_inb c 2)) (fun _ => rfl)).view.set := wwin_disj_17_22 c
  have hd_17_23 : Disjoint ((Memref.whole main_arg1 : Memref sig .tc .hbm S4096x2048 .f32).slice (Rect.unit (s := S4096x2048) (k0_off1 c 7#32) S2048x256.size (k0_off1_inb c 7)) (fun _ => rfl)).view.set ((Memref.whole main_arg1 : Memref sig .tc .hbm S4096x2048 .f32).slice (Rect.unit (s := S4096x2048) (k0_off2 c 3#32) S2048x256.size (k0_off2_inb c 3)) (fun _ => rfl)).view.set := wwin_disj_17_23 c
  have hd_17_24 : Disjoint ((Memref.whole main_arg1 : Memref sig .tc .hbm S4096x2048 .f32).slice (Rect.unit (s := S4096x2048) (k0_off1 c 7#32) S2048x256.size (k0_off1_inb c 7)) (fun _ => rfl)).view.set ((Memref.whole main_arg1 : Memref sig .tc .hbm S4096x2048 .f32).slice (Rect.unit (s := S4096x2048) (k0_off2 c 4#32) S2048x256.size (k0_off2_inb c 4)) (fun _ => rfl)).view.set := wwin_disj_17_24 c
  have hd_17_25 : Disjoint ((Memref.whole main_arg1 : Memref sig .tc .hbm S4096x2048 .f32).slice (Rect.unit (s := S4096x2048) (k0_off1 c 7#32) S2048x256.size (k0_off1_inb c 7)) (fun _ => rfl)).view.set ((Memref.whole main_arg1 : Memref sig .tc .hbm S4096x2048 .f32).slice (Rect.unit (s := S4096x2048) (k0_off2 c 5#32) S2048x256.size (k0_off2_inb c 5)) (fun _ => rfl)).view.set := wwin_disj_17_25 c
  have hd_17_26 : Disjoint ((Memref.whole main_arg1 : Memref sig .tc .hbm S4096x2048 .f32).slice (Rect.unit (s := S4096x2048) (k0_off1 c 7#32) S2048x256.size (k0_off1_inb c 7)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_17_26 c
  have hd_17_27 : Disjoint ((Memref.whole main_arg1 : Memref sig .tc .hbm S4096x2048 .f32).slice (Rect.unit (s := S4096x2048) (k0_off1 c 7#32) S2048x256.size (k0_off1_inb c 7)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_17_27 c
  have hd_20_21 : Disjoint ((Memref.whole main_arg1 : Memref sig .tc .hbm S4096x2048 .f32).slice (Rect.unit (s := S4096x2048) (k0_off2 c 0#32) S2048x256.size (k0_off2_inb c 0)) (fun _ => rfl)).view.set ((Memref.whole main_arg1 : Memref sig .tc .hbm S4096x2048 .f32).slice (Rect.unit (s := S4096x2048) (k0_off2 c 1#32) S2048x256.size (k0_off2_inb c 1)) (fun _ => rfl)).view.set := wwin_disj_20_21 c
  have hd_20_22 : Disjoint ((Memref.whole main_arg1 : Memref sig .tc .hbm S4096x2048 .f32).slice (Rect.unit (s := S4096x2048) (k0_off2 c 0#32) S2048x256.size (k0_off2_inb c 0)) (fun _ => rfl)).view.set ((Memref.whole main_arg1 : Memref sig .tc .hbm S4096x2048 .f32).slice (Rect.unit (s := S4096x2048) (k0_off2 c 2#32) S2048x256.size (k0_off2_inb c 2)) (fun _ => rfl)).view.set := wwin_disj_20_22 c
  have hd_20_23 : Disjoint ((Memref.whole main_arg1 : Memref sig .tc .hbm S4096x2048 .f32).slice (Rect.unit (s := S4096x2048) (k0_off2 c 0#32) S2048x256.size (k0_off2_inb c 0)) (fun _ => rfl)).view.set ((Memref.whole main_arg1 : Memref sig .tc .hbm S4096x2048 .f32).slice (Rect.unit (s := S4096x2048) (k0_off2 c 3#32) S2048x256.size (k0_off2_inb c 3)) (fun _ => rfl)).view.set := wwin_disj_20_23 c
  have hd_20_24 : Disjoint ((Memref.whole main_arg1 : Memref sig .tc .hbm S4096x2048 .f32).slice (Rect.unit (s := S4096x2048) (k0_off2 c 0#32) S2048x256.size (k0_off2_inb c 0)) (fun _ => rfl)).view.set ((Memref.whole main_arg1 : Memref sig .tc .hbm S4096x2048 .f32).slice (Rect.unit (s := S4096x2048) (k0_off2 c 4#32) S2048x256.size (k0_off2_inb c 4)) (fun _ => rfl)).view.set := wwin_disj_20_24 c
  have hd_20_25 : Disjoint ((Memref.whole main_arg1 : Memref sig .tc .hbm S4096x2048 .f32).slice (Rect.unit (s := S4096x2048) (k0_off2 c 0#32) S2048x256.size (k0_off2_inb c 0)) (fun _ => rfl)).view.set ((Memref.whole main_arg1 : Memref sig .tc .hbm S4096x2048 .f32).slice (Rect.unit (s := S4096x2048) (k0_off2 c 5#32) S2048x256.size (k0_off2_inb c 5)) (fun _ => rfl)).view.set := wwin_disj_20_25 c
  have hd_20_26 : Disjoint ((Memref.whole main_arg1 : Memref sig .tc .hbm S4096x2048 .f32).slice (Rect.unit (s := S4096x2048) (k0_off2 c 0#32) S2048x256.size (k0_off2_inb c 0)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_20_26 c
  have hd_20_27 : Disjoint ((Memref.whole main_arg1 : Memref sig .tc .hbm S4096x2048 .f32).slice (Rect.unit (s := S4096x2048) (k0_off2 c 0#32) S2048x256.size (k0_off2_inb c 0)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_20_27 c
  have hd_21_22 : Disjoint ((Memref.whole main_arg1 : Memref sig .tc .hbm S4096x2048 .f32).slice (Rect.unit (s := S4096x2048) (k0_off2 c 1#32) S2048x256.size (k0_off2_inb c 1)) (fun _ => rfl)).view.set ((Memref.whole main_arg1 : Memref sig .tc .hbm S4096x2048 .f32).slice (Rect.unit (s := S4096x2048) (k0_off2 c 2#32) S2048x256.size (k0_off2_inb c 2)) (fun _ => rfl)).view.set := wwin_disj_21_22 c
  have hd_21_23 : Disjoint ((Memref.whole main_arg1 : Memref sig .tc .hbm S4096x2048 .f32).slice (Rect.unit (s := S4096x2048) (k0_off2 c 1#32) S2048x256.size (k0_off2_inb c 1)) (fun _ => rfl)).view.set ((Memref.whole main_arg1 : Memref sig .tc .hbm S4096x2048 .f32).slice (Rect.unit (s := S4096x2048) (k0_off2 c 3#32) S2048x256.size (k0_off2_inb c 3)) (fun _ => rfl)).view.set := wwin_disj_21_23 c
  have hd_21_24 : Disjoint ((Memref.whole main_arg1 : Memref sig .tc .hbm S4096x2048 .f32).slice (Rect.unit (s := S4096x2048) (k0_off2 c 1#32) S2048x256.size (k0_off2_inb c 1)) (fun _ => rfl)).view.set ((Memref.whole main_arg1 : Memref sig .tc .hbm S4096x2048 .f32).slice (Rect.unit (s := S4096x2048) (k0_off2 c 4#32) S2048x256.size (k0_off2_inb c 4)) (fun _ => rfl)).view.set := wwin_disj_21_24 c
  have hd_21_25 : Disjoint ((Memref.whole main_arg1 : Memref sig .tc .hbm S4096x2048 .f32).slice (Rect.unit (s := S4096x2048) (k0_off2 c 1#32) S2048x256.size (k0_off2_inb c 1)) (fun _ => rfl)).view.set ((Memref.whole main_arg1 : Memref sig .tc .hbm S4096x2048 .f32).slice (Rect.unit (s := S4096x2048) (k0_off2 c 5#32) S2048x256.size (k0_off2_inb c 5)) (fun _ => rfl)).view.set := wwin_disj_21_25 c
  have hd_21_26 : Disjoint ((Memref.whole main_arg1 : Memref sig .tc .hbm S4096x2048 .f32).slice (Rect.unit (s := S4096x2048) (k0_off2 c 1#32) S2048x256.size (k0_off2_inb c 1)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_21_26 c
  have hd_21_27 : Disjoint ((Memref.whole main_arg1 : Memref sig .tc .hbm S4096x2048 .f32).slice (Rect.unit (s := S4096x2048) (k0_off2 c 1#32) S2048x256.size (k0_off2_inb c 1)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_21_27 c
  have hd_22_23 : Disjoint ((Memref.whole main_arg1 : Memref sig .tc .hbm S4096x2048 .f32).slice (Rect.unit (s := S4096x2048) (k0_off2 c 2#32) S2048x256.size (k0_off2_inb c 2)) (fun _ => rfl)).view.set ((Memref.whole main_arg1 : Memref sig .tc .hbm S4096x2048 .f32).slice (Rect.unit (s := S4096x2048) (k0_off2 c 3#32) S2048x256.size (k0_off2_inb c 3)) (fun _ => rfl)).view.set := wwin_disj_22_23 c
  have hd_22_24 : Disjoint ((Memref.whole main_arg1 : Memref sig .tc .hbm S4096x2048 .f32).slice (Rect.unit (s := S4096x2048) (k0_off2 c 2#32) S2048x256.size (k0_off2_inb c 2)) (fun _ => rfl)).view.set ((Memref.whole main_arg1 : Memref sig .tc .hbm S4096x2048 .f32).slice (Rect.unit (s := S4096x2048) (k0_off2 c 4#32) S2048x256.size (k0_off2_inb c 4)) (fun _ => rfl)).view.set := wwin_disj_22_24 c
  have hd_22_25 : Disjoint ((Memref.whole main_arg1 : Memref sig .tc .hbm S4096x2048 .f32).slice (Rect.unit (s := S4096x2048) (k0_off2 c 2#32) S2048x256.size (k0_off2_inb c 2)) (fun _ => rfl)).view.set ((Memref.whole main_arg1 : Memref sig .tc .hbm S4096x2048 .f32).slice (Rect.unit (s := S4096x2048) (k0_off2 c 5#32) S2048x256.size (k0_off2_inb c 5)) (fun _ => rfl)).view.set := wwin_disj_22_25 c
  have hd_22_26 : Disjoint ((Memref.whole main_arg1 : Memref sig .tc .hbm S4096x2048 .f32).slice (Rect.unit (s := S4096x2048) (k0_off2 c 2#32) S2048x256.size (k0_off2_inb c 2)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_22_26 c
  have hd_22_27 : Disjoint ((Memref.whole main_arg1 : Memref sig .tc .hbm S4096x2048 .f32).slice (Rect.unit (s := S4096x2048) (k0_off2 c 2#32) S2048x256.size (k0_off2_inb c 2)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_22_27 c
  have hd_23_24 : Disjoint ((Memref.whole main_arg1 : Memref sig .tc .hbm S4096x2048 .f32).slice (Rect.unit (s := S4096x2048) (k0_off2 c 3#32) S2048x256.size (k0_off2_inb c 3)) (fun _ => rfl)).view.set ((Memref.whole main_arg1 : Memref sig .tc .hbm S4096x2048 .f32).slice (Rect.unit (s := S4096x2048) (k0_off2 c 4#32) S2048x256.size (k0_off2_inb c 4)) (fun _ => rfl)).view.set := wwin_disj_23_24 c
  have hd_23_25 : Disjoint ((Memref.whole main_arg1 : Memref sig .tc .hbm S4096x2048 .f32).slice (Rect.unit (s := S4096x2048) (k0_off2 c 3#32) S2048x256.size (k0_off2_inb c 3)) (fun _ => rfl)).view.set ((Memref.whole main_arg1 : Memref sig .tc .hbm S4096x2048 .f32).slice (Rect.unit (s := S4096x2048) (k0_off2 c 5#32) S2048x256.size (k0_off2_inb c 5)) (fun _ => rfl)).view.set := wwin_disj_23_25 c
  have hd_23_26 : Disjoint ((Memref.whole main_arg1 : Memref sig .tc .hbm S4096x2048 .f32).slice (Rect.unit (s := S4096x2048) (k0_off2 c 3#32) S2048x256.size (k0_off2_inb c 3)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_23_26 c
  have hd_23_27 : Disjoint ((Memref.whole main_arg1 : Memref sig .tc .hbm S4096x2048 .f32).slice (Rect.unit (s := S4096x2048) (k0_off2 c 3#32) S2048x256.size (k0_off2_inb c 3)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_23_27 c
  have hd_24_25 : Disjoint ((Memref.whole main_arg1 : Memref sig .tc .hbm S4096x2048 .f32).slice (Rect.unit (s := S4096x2048) (k0_off2 c 4#32) S2048x256.size (k0_off2_inb c 4)) (fun _ => rfl)).view.set ((Memref.whole main_arg1 : Memref sig .tc .hbm S4096x2048 .f32).slice (Rect.unit (s := S4096x2048) (k0_off2 c 5#32) S2048x256.size (k0_off2_inb c 5)) (fun _ => rfl)).view.set := wwin_disj_24_25 c
  have hd_24_26 : Disjoint ((Memref.whole main_arg1 : Memref sig .tc .hbm S4096x2048 .f32).slice (Rect.unit (s := S4096x2048) (k0_off2 c 4#32) S2048x256.size (k0_off2_inb c 4)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_24_26 c
  have hd_24_27 : Disjoint ((Memref.whole main_arg1 : Memref sig .tc .hbm S4096x2048 .f32).slice (Rect.unit (s := S4096x2048) (k0_off2 c 4#32) S2048x256.size (k0_off2_inb c 4)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_24_27 c
  have hd_25_26 : Disjoint ((Memref.whole main_arg1 : Memref sig .tc .hbm S4096x2048 .f32).slice (Rect.unit (s := S4096x2048) (k0_off2 c 5#32) S2048x256.size (k0_off2_inb c 5)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_25_26 c
  have hd_25_27 : Disjoint ((Memref.whole main_arg1 : Memref sig .tc .hbm S4096x2048 .f32).slice (Rect.unit (s := S4096x2048) (k0_off2 c 5#32) S2048x256.size (k0_off2_inb c 5)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_25_27 c
  have hd_26_27 : Disjoint ((Memref.whole main_arg1 : Memref sig .tc .hbm S4096x2048 .f32).slice (Rect.unit (s := S4096x2048) (k0_off2 c 6#32) S2048x256.size (k0_off2_inb c 6)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_26_27 c
  -- a wait on a semaphore that is no receive semaphore is allowed under each debt to receive cells
  have hmw0 : ∀ (q : DmaSem sig), recvT (SemLoc.dma q : SemLoc sig) = none → ((levAts L lv : sProp 𝕄) ⊢ MayWait (c : Thread nD τ) (SemLoc.dma q) (default : Unit) (tallyAt (recvCell (px c 1) 1) () NS + tallyAt (recvCell (px c 2) 2) () NS + tallyAt (recvCell (px c 3) 3) () NS + tallyAt (recvCell (px c 4) 4) () NS + tallyAt (recvCell (px c 5) 5) () NS + tallyAt (recvCell (px c 6) 6) () NS + tallyAt (recvCell (px c 7) 7) () NS)) := fun q hq => mw_0 c q hq
  have hmw1 : ∀ (q : DmaSem sig), recvT (SemLoc.dma q : SemLoc sig) = none → ((levAts L lv : sProp 𝕄) ⊢ MayWait (c : Thread nD τ) (SemLoc.dma q) (default : Unit) (tallyAt (recvCell (px c 1) 1) () NS + tallyAt (recvCell (px c 2) 2) () NS + tallyAt (recvCell (px c 3) 3) () NS + tallyAt (recvCell (px c 4) 4) () NS + tallyAt (recvCell (px c 5) 5) () NS + tallyAt (recvCell (px c 7) 7) () NS)) := fun q hq => mw_1 c q hq
  have hmw2 : ∀ (q : DmaSem sig), recvT (SemLoc.dma q : SemLoc sig) = none → ((levAts L lv : sProp 𝕄) ⊢ MayWait (c : Thread nD τ) (SemLoc.dma q) (default : Unit) (tallyAt (recvCell (px c 1) 1) () NS + tallyAt (recvCell (px c 3) 3) () NS + tallyAt (recvCell (px c 4) 4) () NS + tallyAt (recvCell (px c 5) 5) () NS + tallyAt (recvCell (px c 7) 7) () NS)) := fun q hq => mw_2 c q hq
  have hmw3 : ∀ (q : DmaSem sig), recvT (SemLoc.dma q : SemLoc sig) = none → ((levAts L lv : sProp 𝕄) ⊢ MayWait (c : Thread nD τ) (SemLoc.dma q) (default : Unit) (tallyAt (recvCell (px c 1) 1) () NS + tallyAt (recvCell (px c 3) 3) () NS + tallyAt (recvCell (px c 4) 4) () NS + tallyAt (recvCell (px c 7) 7) () NS)) := fun q hq => mw_3 c q hq
  have hmw4 : ∀ (q : DmaSem sig), recvT (SemLoc.dma q : SemLoc sig) = none → ((levAts L lv : sProp 𝕄) ⊢ MayWait (c : Thread nD τ) (SemLoc.dma q) (default : Unit) (tallyAt (recvCell (px c 1) 1) () NS + tallyAt (recvCell (px c 3) 3) () NS + tallyAt (recvCell (px c 4) 4) () NS)) := fun q hq => mw_4 c q hq
  have hmw5 : ∀ (q : DmaSem sig), recvT (SemLoc.dma q : SemLoc sig) = none → ((levAts L lv : sProp 𝕄) ⊢ MayWait (c : Thread nD τ) (SemLoc.dma q) (default : Unit) (tallyAt (recvCell (px c 3) 3) () NS + tallyAt (recvCell (px c 4) 4) () NS)) := fun q hq => mw_5 c q hq
  have hmw6 : ∀ (q : DmaSem sig), recvT (SemLoc.dma q : SemLoc sig) = none → ((levAts L lv : sProp 𝕄) ⊢ MayWait (c : Thread nD τ) (SemLoc.dma q) (default : Unit) (tallyAt (recvCell (px c 4) 4) () NS)) := fun q hq => mw_6 c q hq
  have hmw7 : ∀ (q : DmaSem sig), recvT (SemLoc.dma q : SemLoc sig) = none → ((levAts L lv : sProp 𝕄) ⊢ MayWait (c : Thread nD τ) (SemLoc.dma q) (default : Unit) (0)) := fun q hq => mw_7 c q hq
  -- the local copies are issued; the run stops at the load of the whole x buffer
  sl_exec_parts (disch := decide)
  -- the send slots, held through their unsqueezed slices for the stores
  ihave Hsb1u := (Entails.of_eq (sslot_unsq_1 (F := F) c fs)) $$ Hsb1
  ihave Hsb2u := (Entails.of_eq (sslot_unsq_2 (F := F) c fs)) $$ Hsb2
  ihave Hsb3u := (Entails.of_eq (sslot_unsq_3 (F := F) c fs)) $$ Hsb3
  ihave Hsb4u := (Entails.of_eq (sslot_unsq_4 (F := F) c fs)) $$ Hsb4
  ihave Hsb5u := (Entails.of_eq (sslot_unsq_5 (F := F) c fs)) $$ Hsb5
  ihave Hsb6u := (Entails.of_eq (sslot_unsq_6 (F := F) c fs)) $$ Hsb6
  ihave Hsb7u := (Entails.of_eq (sslot_unsq_7 (F := F) c fs)) $$ Hsb7
  -- the x buffer: its four quarters have landed and hold the device's block of x
  have xl0 : ∀ i ∈ (xQ 0).view.set, ((xQ 0).view.writes (Elt F) fx [⟨Rect.whole S128x4096, sound_body.sl.dma0 m c⟩]) i = xV m c i := x_landed_0 c fx (xV m c)
  have xl1 : ∀ i ∈ (xQ 1).view.set, ((xQ 1).view.writes (Elt F) fx [⟨Rect.whole S128x4096, sound_body.sl.dma0_1 m c⟩]) i = xV m c i := x_landed_1 c fx (xV m c)
  have xl2 : ∀ i ∈ (xQ 2).view.set, ((xQ 2).view.writes (Elt F) fx [⟨Rect.whole S128x4096, sound_body.sl.dma0_2 m c⟩]) i = xV m c i := x_landed_2 c fx (xV m c)
  have xl3 : ∀ i ∈ (xQ 3).view.set, ((xQ 3).view.writes (Elt F) fx [⟨Rect.whole S128x4096, sound_body.sl.dma0_3 m c⟩]) i = xV m c i := x_landed_3 c fx (xV m c)
  ihave Hxb := (x_join (F := F) c _ _ _ _ (xV m c) xl0 xl1 xl2 xl3) $$ [Hx0 Hx1 Hx2 Hx3]
  · isplitl [Hx0]; · iexact Hx0
    isplitl [Hx1]; · iexact Hx1
    isplitl [Hx2]; · iexact Hx2
    iexact Hx3
  sl_exec_parts (disch := decide)
  -- weight slot 0: its two halves have landed and hold the columns of device c xor 6
  ihave Hws0m := (wslot_joinedM_0 (F := F) c fw (wV m c)) $$ [Hw0_0 Hw0_1]
  · isplitl [Hw0_0]; · iexact Hw0_0
    iexact Hw0_1
  sl_exec_parts (disch := decide)
  -- the copy of slot 6 to device c xor 6: the slot holds the tile computed for that device
  ihave Hsb6s := (Entails.of_eq (sslot_unsq_6 (F := F) c _).symm) $$ Hsb6u
  ihave Hsb6v := (Entails.of_eq (pt_congr (send_val_6 m c fs))) $$ Hsb6s
  icases Hpr6 with ⟨%fn6, Hpr6⟩
  iapply (wp_send_slot_6 m K c _ (dev9_eq c) fn6 (tallyAt (recvCell (px c 1) 1) () NS + tallyAt (recvCell (px c 2) 2) () NS + tallyAt (recvCell (px c 3) 3) () NS + tallyAt (recvCell (px c 4) 4) () NS + tallyAt (recvCell (px c 5) 5) () NS + tallyAt (recvCell (px c 7) 7) () NS) (tallyAt (recvCell (px c 1) 1) () NS + tallyAt (recvCell (px c 2) 2) () NS + tallyAt (recvCell (px c 3) 3) () NS + tallyAt (recvCell (px c 4) 4) () NS + tallyAt (recvCell (px c 5) 5) () NS + tallyAt (recvCell (px c 6) 6) () NS + tallyAt (recvCell (px c 7) 7) () NS) (by ac_rfl) _) $$ [Hsb6v Hpr6 HO HtS6 HtR6]
  · isplitr; · iexact HIs6
    isplitr; · iexact HIpr6
    isplitl [Hsb6v]; · iexact Hsb6v
    isplitl [Hpr6]; · iexact Hpr6
    isplitl [HO]; · iexact HO
    isplitl [HtS6]; · iexact HtS6
    isplitr; · iexact HrS6
    isplitl [HtR6]; · iexact HtR6
    iexact HrR6
  iintro ⟨HcS6, HO⟩
  sl_exec_parts (disch := decide)
  -- weight slot 1: its two halves have landed and hold the columns of device c xor 2
  ihave Hws1m := (wslot_joinedM_1 (F := F) c fw (wV m c)) $$ [Hw1_0 Hw1_1]
  · isplitl [Hw1_0]; · iexact Hw1_0
    iexact Hw1_1
  sl_exec_parts (disch := decide)
  -- the copy of slot 2 to device c xor 2: the slot holds the tile computed for that device
  ihave Hsb2s := (Entails.of_eq (sslot_unsq_2 (F := F) c _).symm) $$ Hsb2u
  ihave Hsb2v := (Entails.of_eq (pt_congr (send_val_2 m c fs))) $$ Hsb2s
  icases Hpr2 with ⟨%fn2, Hpr2⟩
  iapply (wp_send_slot_2 m K c _ (dev10_eq c) fn2 (tallyAt (recvCell (px c 1) 1) () NS + tallyAt (recvCell (px c 3) 3) () NS + tallyAt (recvCell (px c 4) 4) () NS + tallyAt (recvCell (px c 5) 5) () NS + tallyAt (recvCell (px c 7) 7) () NS) (tallyAt (recvCell (px c 1) 1) () NS + tallyAt (recvCell (px c 2) 2) () NS + tallyAt (recvCell (px c 3) 3) () NS + tallyAt (recvCell (px c 4) 4) () NS + tallyAt (recvCell (px c 5) 5) () NS + tallyAt (recvCell (px c 7) 7) () NS) (by ac_rfl) _) $$ [Hsb2v Hpr2 HO HtS2 HtR2]
  · isplitr; · iexact HIs2
    isplitr; · iexact HIpr2
    isplitl [Hsb2v]; · iexact Hsb2v
    isplitl [Hpr2]; · iexact Hpr2
    isplitl [HO]; · iexact HO
    isplitl [HtS2]; · iexact HtS2
    isplitr; · iexact HrS2
    isplitl [HtR2]; · iexact HtR2
    iexact HrR2
  iintro ⟨HcS2, HO⟩
  sl_exec_parts (disch := decide)
  -- weight slot 2: its two halves have landed and hold the columns of device c xor 5
  ihave Hws2m := (wslot_joinedM_2 (F := F) c fw (wV m c)) $$ [Hw2_0 Hw2_1]
  · isplitl [Hw2_0]; · iexact Hw2_0
    iexact Hw2_1
  sl_exec_parts (disch := decide)
  -- the copy of slot 5 to device c xor 5: the slot holds the tile computed for that device
  ihave Hsb5s := (Entails.of_eq (sslot_unsq_5 (F := F) c _).symm) $$ Hsb5u
  ihave Hsb5v := (Entails.of_eq (pt_congr (send_val_5 m c fs))) $$ Hsb5s
  icases Hpr5 with ⟨%fn5, Hpr5⟩
  iapply (wp_send_slot_5 m K c _ (dev11_eq c) fn5 (tallyAt (recvCell (px c 1) 1) () NS + tallyAt (recvCell (px c 3) 3) () NS + tallyAt (recvCell (px c 4) 4) () NS + tallyAt (recvCell (px c 7) 7) () NS) (tallyAt (recvCell (px c 1) 1) () NS + tallyAt (recvCell (px c 3) 3) () NS + tallyAt (recvCell (px c 4) 4) () NS + tallyAt (recvCell (px c 5) 5) () NS + tallyAt (recvCell (px c 7) 7) () NS) (by ac_rfl) _) $$ [Hsb5v Hpr5 HO HtS5 HtR5]
  · isplitr; · iexact HIs5
    isplitr; · iexact HIpr5
    isplitl [Hsb5v]; · iexact Hsb5v
    isplitl [Hpr5]; · iexact Hpr5
    isplitl [HO]; · iexact HO
    isplitl [HtS5]; · iexact HtS5
    isplitr; · iexact HrS5
    isplitl [HtR5]; · iexact HtR5
    iexact HrR5
  iintro ⟨HcS5, HO⟩
  sl_exec_parts (disch := decide)
  -- weight slot 3: its two halves have landed and hold the columns of device c xor 7
  ihave Hws3m := (wslot_joinedM_3 (F := F) c fw (wV m c)) $$ [Hw3_0 Hw3_1]
  · isplitl [Hw3_0]; · iexact Hw3_0
    iexact Hw3_1
  sl_exec_parts (disch := decide)
  -- the copy of slot 7 to device c xor 7: the slot holds the tile computed for that device
  ihave Hsb7s := (Entails.of_eq (sslot_unsq_7 (F := F) c _).symm) $$ Hsb7u
  ihave Hsb7v := (Entails.of_eq (pt_congr (send_val_7 m c fs))) $$ Hsb7s
  icases Hpr7 with ⟨%fn7, Hpr7⟩
  iapply (wp_send_slot_7 m K c _ (dev12_eq c) fn7 (tallyAt (recvCell (px c 1) 1) () NS + tallyAt (recvCell (px c 3) 3) () NS + tallyAt (recvCell (px c 4) 4) () NS) (tallyAt (recvCell (px c 1) 1) () NS + tallyAt (recvCell (px c 3) 3) () NS + tallyAt (recvCell (px c 4) 4) () NS + tallyAt (recvCell (px c 7) 7) () NS) (by ac_rfl) _) $$ [Hsb7v Hpr7 HO HtS7 HtR7]
  · isplitr; · iexact HIs7
    isplitr; · iexact HIpr7
    isplitl [Hsb7v]; · iexact Hsb7v
    isplitl [Hpr7]; · iexact Hpr7
    isplitl [HO]; · iexact HO
    isplitl [HtS7]; · iexact HtS7
    isplitr; · iexact HrS7
    isplitl [HtR7]; · iexact HtR7
    iexact HrR7
  iintro ⟨HcS7, HO⟩
  sl_exec_parts (disch := decide)
  -- weight slot 4: its two halves have landed and hold the columns of device c xor 1
  ihave Hws4m := (wslot_joinedM_4 (F := F) c fw (wV m c)) $$ [Hw4_0 Hw4_1]
  · isplitl [Hw4_0]; · iexact Hw4_0
    iexact Hw4_1
  sl_exec_parts (disch := decide)
  -- the copy of slot 1 to device c xor 1: the slot holds the tile computed for that device
  ihave Hsb1s := (Entails.of_eq (sslot_unsq_1 (F := F) c _).symm) $$ Hsb1u
  ihave Hsb1v := (Entails.of_eq (pt_congr (send_val_1 m c fs))) $$ Hsb1s
  icases Hpr1 with ⟨%fn1, Hpr1⟩
  iapply (wp_send_slot_1 m K c _ (dev13_eq c) fn1 (tallyAt (recvCell (px c 3) 3) () NS + tallyAt (recvCell (px c 4) 4) () NS) (tallyAt (recvCell (px c 1) 1) () NS + tallyAt (recvCell (px c 3) 3) () NS + tallyAt (recvCell (px c 4) 4) () NS) (by ac_rfl) _) $$ [Hsb1v Hpr1 HO HtS1 HtR1]
  · isplitr; · iexact HIs1
    isplitr; · iexact HIpr1
    isplitl [Hsb1v]; · iexact Hsb1v
    isplitl [Hpr1]; · iexact Hpr1
    isplitl [HO]; · iexact HO
    isplitl [HtS1]; · iexact HtS1
    isplitr; · iexact HrS1
    isplitl [HtR1]; · iexact HtR1
    iexact HrR1
  iintro ⟨HcS1, HO⟩
  sl_exec_parts (disch := decide)
  -- weight slot 5: its two halves have landed and hold the columns of device c xor 3
  ihave Hws5m := (wslot_joinedM_5 (F := F) c fw (wV m c)) $$ [Hw5_0 Hw5_1]
  · isplitl [Hw5_0]; · iexact Hw5_0
    iexact Hw5_1
  sl_exec_parts (disch := decide)
  -- the copy of slot 3 to device c xor 3: the slot holds the tile computed for that device
  ihave Hsb3s := (Entails.of_eq (sslot_unsq_3 (F := F) c _).symm) $$ Hsb3u
  ihave Hsb3v := (Entails.of_eq (pt_congr (send_val_3 m c fs))) $$ Hsb3s
  icases Hpr3 with ⟨%fn3, Hpr3⟩
  iapply (wp_send_slot_3 m K c _ (dev14_eq c) fn3 (tallyAt (recvCell (px c 4) 4) () NS) (tallyAt (recvCell (px c 3) 3) () NS + tallyAt (recvCell (px c 4) 4) () NS) (by ac_rfl) _) $$ [Hsb3v Hpr3 HO HtS3 HtR3]
  · isplitr; · iexact HIs3
    isplitr; · iexact HIpr3
    isplitl [Hsb3v]; · iexact Hsb3v
    isplitl [Hpr3]; · iexact Hpr3
    isplitl [HO]; · iexact HO
    isplitl [HtS3]; · iexact HtS3
    isplitr; · iexact HrS3
    isplitl [HtR3]; · iexact HtR3
    iexact HrR3
  iintro ⟨HcS3, HO⟩
  sl_exec_parts (disch := decide)
  -- weight slot 6: its two halves have landed and hold the columns of device c xor 4
  ihave Hws6m := (wslot_joinedM_6 (F := F) c fw (wV m c)) $$ [Hw6_0 Hw6_1]
  · isplitl [Hw6_0]; · iexact Hw6_0
    iexact Hw6_1
  sl_exec_parts (disch := decide)
  -- the copy of slot 4 to device c xor 4: the slot holds the tile computed for that device
  ihave Hsb4s := (Entails.of_eq (sslot_unsq_4 (F := F) c _).symm) $$ Hsb4u
  ihave Hsb4v := (Entails.of_eq (pt_congr (send_val_4 m c fs))) $$ Hsb4s
  icases Hpr4 with ⟨%fn4, Hpr4⟩
  iapply (wp_send_slot_4 m K c _ (dev15_eq c) fn4 (0) (tallyAt (recvCell (px c 4) 4) () NS) (by ac_rfl) _) $$ [Hsb4v Hpr4 HO HtS4 HtR4]
  · isplitr; · iexact HIs4
    isplitr; · iexact HIpr4
    isplitl [Hsb4v]; · iexact Hsb4v
    isplitl [Hpr4]; · iexact Hpr4
    isplitl [HO]; · iexact HO
    isplitl [HtS4]; · iexact HtS4
    isplitr; · iexact HrS4
    isplitl [HtR4]; · iexact HtR4
    iexact HrR4
  iintro ⟨HcS4, HO⟩
  sl_exec_parts (disch := decide)
  -- weight slot 7: its two halves have landed and hold the columns of device c xor 0
  ihave Hws7m := (wslot_joinedM_7 (F := F) c fw (wV m c)) $$ [Hw7_0 Hw7_1]
  · isplitl [Hw7_0]; · iexact Hw7_0
    iexact Hw7_1
  sl_exec_parts (disch := decide)
  -- receive slot 1 has landed: it holds the tile device c xor 1 computed for this device
  ihave Hr1p := (Entails.of_eq (recv_all_1 m c)) $$ HatR1_pay1
  ihave Hr1u := (Entails.of_eq (rslot_unsq_1 (F := F) c _)) $$ Hr1p
  sl_exec_parts (disch := decide)
  -- receive slot 2 has landed: it holds the tile device c xor 2 computed for this device
  ihave Hr2p := (Entails.of_eq (recv_all_2 m c)) $$ HatR2_pay1
  ihave Hr2u := (Entails.of_eq (rslot_unsq_2 (F := F) c _)) $$ Hr2p
  sl_exec_parts (disch := decide)
  -- receive slot 3 has landed: it holds the tile device c xor 3 computed for this device
  ihave Hr3p := (Entails.of_eq (recv_all_3 m c)) $$ HatR3_pay1
  ihave Hr3u := (Entails.of_eq (rslot_unsq_3 (F := F) c _)) $$ Hr3p
  sl_exec_parts (disch := decide)
  -- receive slot 4 has landed: it holds the tile device c xor 4 computed for this device
  ihave Hr4p := (Entails.of_eq (recv_all_4 m c)) $$ HatR4_pay1
  ihave Hr4u := (Entails.of_eq (rslot_unsq_4 (F := F) c _)) $$ Hr4p
  sl_exec_parts (disch := decide)
  -- receive slot 5 has landed: it holds the tile device c xor 5 computed for this device
  ihave Hr5p := (Entails.of_eq (recv_all_5 m c)) $$ HatR5_pay1
  ihave Hr5u := (Entails.of_eq (rslot_unsq_5 (F := F) c _)) $$ Hr5p
  sl_exec_parts (disch := decide)
  -- receive slot 6 has landed: it holds the tile device c xor 6 computed for this device
  ihave Hr6p := (Entails.of_eq (recv_all_6 m c)) $$ HatR6_pay1
  ihave Hr6u := (Entails.of_eq (rslot_unsq_6 (F := F) c _)) $$ Hr6p
  sl_exec_parts (disch := decide)
  -- receive slot 7 has landed: it holds the tile device c xor 7 computed for this device
  ihave Hr7p := (Entails.of_eq (recv_all_7 m c)) $$ HatR7_pay1
  ihave Hr7u := (Entails.of_eq (rslot_unsq_7 (F := F) c _)) $$ Hr7p
  sl_exec_parts (disch := decide)
  ihave Hsp1 := (Entails.of_eq (send_all_1 m c)) $$ HatS1_pay1
  ihave Hsp2 := (Entails.of_eq (send_all_2 m c)) $$ HatS2_pay1
  ihave Hsp3 := (Entails.of_eq (send_all_3 m c)) $$ HatS3_pay1
  ihave Hsp4 := (Entails.of_eq (send_all_4 m c)) $$ HatS4_pay1
  ihave Hsp5 := (Entails.of_eq (send_all_5 m c)) $$ HatS5_pay1
  ihave Hsp6 := (Entails.of_eq (send_all_6 m c)) $$ HatS6_pay1
  ihave Hsp7 := (Entails.of_eq (send_all_7 m c)) $$ HatS7_pay1
  -- the end: every piece back, the fourteen cells closed, the output block at the device's result
  ihave Hwr0 := (wslotM_cut_0 (F := F) c (wLand (wV m c) c)) $$ Hws0m
  ihave Hwr1 := (wslotM_cut_1 (F := F) c (wLand (wV m c) c)) $$ Hws1m
  ihave Hwr2 := (wslotM_cut_2 (F := F) c (wLand (wV m c) c)) $$ Hws2m
  ihave Hwr3 := (wslotM_cut_3 (F := F) c (wLand (wV m c) c)) $$ Hws3m
  ihave Hwr4 := (wslotM_cut_4 (F := F) c (wLand (wV m c) c)) $$ Hws4m
  ihave Hwr5 := (wslotM_cut_5 (F := F) c (wLand (wV m c) c)) $$ Hws5m
  ihave Hwr6 := (wslotM_cut_6 (F := F) c (wLand (wV m c) c)) $$ Hws6m
  ihave Hwr7 := (wslotM_cut_7 (F := F) c (wLand (wV m c) c)) $$ Hws7m
  ihave Hrs1 := (Entails.of_eq (rslot_unsq_1 (F := F) c _).symm) $$ Hr1u
  ihave Hrs2 := (Entails.of_eq (rslot_unsq_2 (F := F) c _).symm) $$ Hr2u
  ihave Hrs3 := (Entails.of_eq (rslot_unsq_3 (F := F) c _).symm) $$ Hr3u
  ihave Hrs4 := (Entails.of_eq (rslot_unsq_4 (F := F) c _).symm) $$ Hr4u
  ihave Hrs5 := (Entails.of_eq (rslot_unsq_5 (F := F) c _).symm) $$ Hr5u
  ihave Hrs6 := (Entails.of_eq (rslot_unsq_6 (F := F) c _).symm) $$ Hr6u
  ihave Hrs7 := (Entails.of_eq (rslot_unsq_7 (F := F) c _).symm) $$ Hr7u
  have hfo : _ = outV m c := out_val_list m c fo
  imod (body_close_flat m K c (xV m c) (wLand (wV m c) c) _ hfo) $$ [HX HW Hxb Hwr0 Hwr1 Hwr2 Hwr3 Hwr4 Hwr5 Hwr6 Hwr7 Hsb0 Hsp1 Hsp2 Hsp3 Hsp4 Hsp5 Hsp6 Hsp7 Hrb0 Hrs1 Hrs2 Hrs3 Hrs4 Hrs5 Hrs6 Hrs7 Hs1 Hs2 Hs3 Hs4 Hs5 Hs6 Hs7 Hs8 Hs9 Hs10 Hs11 Hs12 Hs13 Hs21 HatS1 HatR1 HatS2 HatR2 HatS3 HatR3 HatS4 HatR4 HatS5 HatR5 HatS6 HatR6 HatS7 HatR7 Hout HO] with Hend
  · isplitl [HX]; · iexact HX
    isplitl [HW]; · iexact HW
    isplitl [Hxb]; · iexact Hxb
    isplitl [Hwr0]; · iexact Hwr0
    isplitl [Hwr1]; · iexact Hwr1
    isplitl [Hwr2]; · iexact Hwr2
    isplitl [Hwr3]; · iexact Hwr3
    isplitl [Hwr4]; · iexact Hwr4
    isplitl [Hwr5]; · iexact Hwr5
    isplitl [Hwr6]; · iexact Hwr6
    isplitl [Hwr7]; · iexact Hwr7
    isplitl [Hsb0]; · iexists _; iexact Hsb0
    isplitl [Hsp1]; · iexists _; iexact Hsp1
    isplitl [Hsp2]; · iexists _; iexact Hsp2
    isplitl [Hsp3]; · iexists _; iexact Hsp3
    isplitl [Hsp4]; · iexists _; iexact Hsp4
    isplitl [Hsp5]; · iexists _; iexact Hsp5
    isplitl [Hsp6]; · iexists _; iexact Hsp6
    isplitl [Hsp7]; · iexists _; iexact Hsp7
    isplitl [Hrb0]; · iexact Hrb0
    isplitl [Hrs1]; · iexists _; iexact Hrs1
    isplitl [Hrs2]; · iexists _; iexact Hrs2
    isplitl [Hrs3]; · iexists _; iexact Hrs3
    isplitl [Hrs4]; · iexists _; iexact Hrs4
    isplitl [Hrs5]; · iexists _; iexact Hrs5
    isplitl [Hrs6]; · iexists _; iexact Hrs6
    isplitl [Hrs7]; · iexists _; iexact Hrs7
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs21]; · iexact Hs21
    isplitr; · iexact HIs1
    isplitl [HatS1]; · iexact HatS1
    isplitr; · iexact HIr1
    isplitl [HatR1]; · iexact HatR1
    isplitr; · iexact HIs2
    isplitl [HatS2]; · iexact HatS2
    isplitr; · iexact HIr2
    isplitl [HatR2]; · iexact HatR2
    isplitr; · iexact HIs3
    isplitl [HatS3]; · iexact HatS3
    isplitr; · iexact HIr3
    isplitl [HatR3]; · iexact HatR3
    isplitr; · iexact HIs4
    isplitl [HatS4]; · iexact HatS4
    isplitr; · iexact HIr4
    isplitl [HatR4]; · iexact HatR4
    isplitr; · iexact HIs5
    isplitl [HatS5]; · iexact HatS5
    isplitr; · iexact HIr5
    isplitl [HatR5]; · iexact HatR5
    isplitr; · iexact HIs6
    isplitl [HatS6]; · iexact HatS6
    isplitr; · iexact HIr6
    isplitl [HatR6]; · iexact HatR6
    isplitr; · iexact HIs7
    isplitl [HatS7]; · iexact HatS7
    isplitr; · iexact HIr7
    isplitl [HatR7]; · iexact HatR7
    isplitl [Hout]; · iexact Hout
    iexists _; iexact HO
  rw [wp_ret]; imodintro
  iapply Hk; iexact Hend

/-- The library's body obligation on device `c`. -/
theorem body_obligation (c : Dev nD) : BodyObligation (dats (F := F) m 0 c) (defs₀ (F := F)) 𝒱₀ () Set.univ :=
  body_obligation_of m (sound_body m) c

end Cert.KernelIdeal.A2A

end
-- ==== Proof.Launch.lean ====
/-
  The launch: from "each device's body is proved" to the run of the whole program on the eight devices.

  What a device is handed at launch is sorted into what its body starts from: the two argument arrays (they are not staged,
  so they reach the body as the unscoped buffers no window owns), the four scratch buffers at arbitrary contents, the
  credit to wait on its barrier and receive cells, the level facts, and the ghost state of the exchange. When the body
  ends the device hands back the scratch buffers, all twenty-eight scoped semaphores at zero, and keeps the two argument
  arrays, which are then read against the final memory: they hold what they held. The result array is the one window's
  array; the window has one block, the whole array, written back once, so the array ends as what the body left.
-/
import proofs.«900796_g7700000000000797_dist_gemm_a2a_m4096_k4096_n2048_f32_gelu_v7x_i8_1_alg».proof.Proof.Levels
import proofs.«900796_g7700000000000797_dist_gemm_a2a_m4096_k4096_n2048_f32_gelu_v7x_i8_1_alg».proof.Proof.Credit
import proofs.«900796_g7700000000000797_dist_gemm_a2a_m4096_k4096_n2048_f32_gelu_v7x_i8_1_alg».proof.Proof.Glob
import proofs.«900796_g7700000000000797_dist_gemm_a2a_m4096_k4096_n2048_f32_gelu_v7x_i8_1_alg».proof.Proof.Body

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Whole buffers, as the launch hands them over

  The launch theorem speaks of a whole buffer at every index; the proof data name the same buffers through the view of the
  whole memref. The two agree: the view of a whole memref covers every index. -/

omit [FloatOps F] in
theorem argPts_eq (c : Dev nD) : argPts m c
    = (iprop((((c : Thread nD τ).loc main_arg0) ↦{fullShare} m ((c : Thread nD τ).loc main_arg0))
        ∗ (((c : Thread nD τ).loc main_arg1) ↦{fullShare} m ((c : Thread nD τ).loc main_arg1))) : sProp 𝕄) := by
  unfold argPts xV wV
  rw [show (xA).view.set = Finset.univ from View.set_whole _, show (wA).view.set = Finset.univ from View.set_whole _]

omit [FloatOps F] in
theorem scopedRest_eq (c : Dev nD) : (Pipeline.scopedRest cfg0.spec c : sProp 𝕄) = scratchAny c := by
  rw [scopedRest0_eq]
  unfold scratchAny
  rw [show (xbM).view.set = Finset.univ from View.set_whole _, show (wbM).view.set = Finset.univ from View.set_whole _,
    show (sbM).view.set = Finset.univ from View.set_whole _, show (rbM).view.set = Finset.univ from View.set_whole _]

omit [FloatOps F] in
/-- The kernel's twenty-eight scoped semaphores at zero, listed: the fourteen no other device touches, then each slot's
    send and receive semaphore. -/
theorem ownSems0_list (c : Dev nD) :
    (Pipeline.ownSems0 (Ix := Unit) (Name := ℕ) (U := UU) (Lvl := ℕ) (Val := Elt F) (τ := τ) osem c : sProp 𝕄)
      = iprop(semVal ((c : Thread nD τ), SemLoc.dma (1 : DmaSem sig)) 0
        ∗ semVal ((c : Thread nD τ), SemLoc.dma (2 : DmaSem sig)) 0
        ∗ semVal ((c : Thread nD τ), SemLoc.dma (3 : DmaSem sig)) 0
        ∗ semVal ((c : Thread nD τ), SemLoc.dma (4 : DmaSem sig)) 0
        ∗ semVal ((c : Thread nD τ), SemLoc.dma (5 : DmaSem sig)) 0
        ∗ semVal ((c : Thread nD τ), SemLoc.dma (6 : DmaSem sig)) 0
        ∗ semVal ((c : Thread nD τ), SemLoc.dma (7 : DmaSem sig)) 0
        ∗ semVal ((c : Thread nD τ), SemLoc.dma (8 : DmaSem sig)) 0
        ∗ semVal ((c : Thread nD τ), SemLoc.dma (9 : DmaSem sig)) 0
        ∗ semVal ((c : Thread nD τ), SemLoc.dma (10 : DmaSem sig)) 0
        ∗ semVal ((c : Thread nD τ), SemLoc.dma (11 : DmaSem sig)) 0
        ∗ semVal ((c : Thread nD τ), SemLoc.dma (12 : DmaSem sig)) 0
        ∗ semVal ((c : Thread nD τ), SemLoc.dma (13 : DmaSem sig)) 0
        ∗ semVal ((c : Thread nD τ), SemLoc.dma (21 : DmaSem sig)) 0
        ∗ semVal (sendCell c 1) 0 ∗ semVal (recvCell c 1) 0
        ∗ semVal (sendCell c 2) 0 ∗ semVal (recvCell c 2) 0
        ∗ semVal (sendCell c 3) 0 ∗ semVal (recvCell c 3) 0
        ∗ semVal (sendCell c 4) 0 ∗ semVal (recvCell c 4) 0
        ∗ semVal (sendCell c 5) 0 ∗ semVal (recvCell c 5) 0
        ∗ semVal (sendCell c 6) 0 ∗ semVal (recvCell c 6) 0
        ∗ semVal (sendCell c 7) 0 ∗ semVal (recvCell c 7) 0) := by
  rw [Pipeline.ownSems0_eq_of_list c osem
    [0, 1, 2, 3, 4, 5, 6, 7, 8, 9, 10, 11, 12, 20, 13, 21, 14, 22, 15, 23, 16, 24, 17, 25, 18, 26, 19, 27] (by decide) (by decide)]
  rfl

omit [FloatOps F] in
/-- They are the ones the proof data hold at the end, regrouped. -/
theorem ownSems0_of_all (c : Dev nD) :
    allSems0 c ⊢ (Pipeline.ownSems0 (Ix := Unit) (Name := ℕ) (U := UU) (Lvl := ℕ) (Val := Elt F) (τ := τ) osem c : sProp 𝕄) := by
  rw [ownSems0_list]
  unfold allSems0 plainSems
  iintro ⟨⟨P1, P2, P3, P4, P5, P6, P7, P8, P9, P10, P11, P12, P13, P14⟩, Q⟩
  isplitl [P1]; · iexact P1
  isplitl [P2]; · iexact P2
  isplitl [P3]; · iexact P3
  isplitl [P4]; · iexact P4
  isplitl [P5]; · iexact P5
  isplitl [P6]; · iexact P6
  isplitl [P7]; · iexact P7
  isplitl [P8]; · iexact P8
  isplitl [P9]; · iexact P9
  isplitl [P10]; · iexact P10
  isplitl [P11]; · iexact P11
  isplitl [P12]; · iexact P12
  isplitl [P13]; · iexact P13
  isplitl [P14]; · iexact P14
  iexact Q

theorem share_eq (c : Dev nD) (w : Fin cfg0.W) : (dats m 0 c).share w = fullShare :=
  Pipeline.Dat.share_full _ (fun _ => rfl) w

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hargs, Hlev, Hcr, -, HG⟩
  ihave Hc := (creds (F := F) c) $$ Hcr
  imodintro
  unfold start G'
  rw [argPts_eq]
  icases HG with ⟨HK, Hpl⟩
  isplitl
  · isplitl [HK]; · iexact HK
    isplitl [Hc]; · iexact Hc
    isplitl [Hlev]; · iexact Hlev
    isplitl [Hpl]; · iexact Hpl
    iexact Hargs
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest_eq]
  unfold Φ₀
  iintro ⟨Hs, -, Hr⟩
  isplitl [Hs]; · iexact Hs
  iexact Hr

theorem phi1_exit (c : Dev nD) :
    (dats m 0 c).Φ (Fin.last cfg0.N) ⊢ iprop(argPts m c ∗ Pipeline.ownSems0 osem c ∗ Pipeline.scopedRest cfg0.spec c) := by
  rw [show (dats m 0 c).Φ (Fin.last cfg0.N) = Φ₁ m c from rfl, scopedRest_eq]
  unfold Φ₁
  iintro ⟨Ha, Hs, Hz⟩
  isplitl [Ha]; · iexact Ha
  isplitl [Hz]; · iapply (ownSems0_of_all c); iexact Hz
  iexact Hs

theorem waits (c : Dev nD) : (levAts L lv : sProp 𝕄) ⊢ Pipeline.cellsWaits cfgs (dats m) () 0 c :=
  Pipeline.cellsWaits_intro cfgs (dats m) () 0 c fun w s t =>
    mayWait_local c _ (by fin_cases w <;> fin_cases s <;> decide) _ (by
      rcases t with ⟨_ | _, ht⟩
      · exact Or.inl rfl
      · exact Or.inr (Or.inr rfl))

/-! ## The run -/

/-- The result array after the one write-back: the window has one block, the whole array, written back at the one point,
    so the array ends holding what the body left in the staging buffer. -/
theorem final_out (c : Dev nD) : (dats m 0 c).arrAt (0 : Fin cfg0.W) cfg0.N = outV m c := by
  have hN : cfg0.N = t0_0.val + 1 := N_0
  have h := (dats m 0 c).arrAt_succ (0 : Fin cfg0.W) t0_0
  rw [flush0_0, if_pos rfl] at h
  refine (congrArg ((dats m 0 c).arrAt (0 : Fin cfg0.W)) hN).trans (h.trans ?_)
  refine (Memref.write_access_unit_zero_univ (Elt F) main_v1 (funext fun a => Nat.zero_mul _) _ _ _).trans ?_
  rfl

set_option maxRecDepth 8000 in
/-- On the eight devices, at any float values, from any memory with every counter at zero: every weakly fair execution
    of the program terminates without fault, and in every final state each device's result array holds its block of the
    exchange's result while its two argument arrays hold what they held. -/
theorem run_main : θ_run defs (onTc (τ := τ) (main (F := F))) ⟨m, fun _ => 0, ρ⟩ (fun r => ∀ c : Dev nD,
    r.2.mem ((c.tc : Thread nD τ).loc main_v1) = outV m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu₀ m)
    (hglob := glob m)
    (hA := fun _ _ => rfl) (hpf := fun _ k => k.elim0)
    (X := start m) (Y := argPts m) (Z := fun _ => iprop(emp))
    (hX := start_intro m ρ) (hin := phi0_intro m) (hout := phi1_exit m)
    (QY := fun c s => s.mem ((c.tc : Thread nD τ).loc main_arg0) = m ((c.tc : Thread nD τ).loc main_arg0)
      ∧ s.mem ((c.tc : Thread nD τ).loc main_arg1) = m ((c.tc : Thread nD τ).loc main_arg1))
    (hY := fun c s' => by
      rw [argPts_eq]
      iintro ⟨⟨Hx, Hw⟩, -, HSI⟩
      icombine HSI Hx gives %hx
      icombine HSI Hw gives %hw
      imodintro
      isplitr; · ipureintro; exact ⟨Buf.eq_of_forall_mem_univ hx, Buf.eq_of_forall_mem_univ hw⟩
      iexact HSI)
    (hQ := fun s h c => ⟨((h c).1 0).trans (final_out m c), (h c).2.2⟩)

/-- The same run, the result's value dropped: the argument arrays end unchanged. -/
theorem frame_run : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => (h c).2) (run_main m ρ)

/-- info: 'Cert.KernelIdeal.A2A.run_main' depends on axioms: [propext, Classical.choice, Quot.sound] -/
#guard_msgs in #print axioms run_main

end Cert.KernelIdeal.A2A

end
-- ==== Proof.PeerB.lean ====
/-
  The exchange partner. The eight devices are numbered 0..7; at the step with mask t a device exchanges a tile with the
  device whose number differs from its own exactly in the bits of t (bitwise exclusive or). For a fixed mask this pairing
  is an involution, and for a fixed device the seven nonzero masks reach the seven other devices once each.
-/
import proofs.«900796_g7700000000000797_dist_gemm_a2a_m4096_k4096_n2048_f32_gelu_v7x_i8_1_alg».proof.Kernel

namespace Cert.Kernel.A2A

open Idealize.ShloMosaic Cert.Kernel

/-- The partner of device `c` at mask `t`: the device numbered `c xor t`. -/
def px (c : Dev nD) (t : Fin 8) : Dev nD :=
  ⟨c.val ^^^ t.val, by have h1 := c.isLt; have h2 := t.isLt; exact Nat.xor_lt_two_pow (n := 3) h1 h2⟩

end Cert.Kernel.A2A
-- ==== Proof.CellsB.lean ====
/-
  The exchange protocol of the eight devices, as data: which semaphore cells there are, who pays which, with how much, and
  what each payment hands the cell's owner.

  Every device c owns fifteen cells. Its barrier cell is paid one unit by each of the seven other devices; the unit paid by
  the device p = c xor t hands c the right to write slot t of p's receive buffer (p is inside the kernel, and will read that
  slot only after its own receive cell for t is paid). Its send cell t (t = 1..7) is paid by c's own copy of slot t of its
  send buffer, once the slot has been read, and hands the slot back. Its receive cell t is paid by the copy issued by
  c xor t, once slot t of c's receive buffer has been written, and hands c that slot holding the tile that device computed
  for c's column block. A device waits on its barrier cell while it still owes the seven copies, and on a receive cell
  while it owes nothing: barrier cells sit below receive cells, so no wait is below a debt.
-/
import proofs.«900796_g7700000000000797_dist_gemm_a2a_m4096_k4096_n2048_f32_gelu_v7x_i8_1_alg».proof.Proof.Gen.Kernel
import proofs.«900796_g7700000000000797_dist_gemm_a2a_m4096_k4096_n2048_f32_gelu_v7x_i8_1_alg».proof.Proof.Gen.Kernel.Skeleton
import proofs.«900796_g7700000000000797_dist_gemm_a2a_m4096_k4096_n2048_f32_gelu_v7x_i8_1_alg».proof.Proof.Gen.Kernel.Launch
import proofs.«900796_g7700000000000797_dist_gemm_a2a_m4096_k4096_n2048_f32_gelu_v7x_i8_1_alg».proof.Proof.Gen.Kernel.Points
import proofs.«900796_g7700000000000797_dist_gemm_a2a_m4096_k4096_n2048_f32_gelu_v7x_i8_1_alg».proof.Proof.PeerB
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the exchange's (duties named by a mask), and the local copies' counters -/

abbrev UB : Type := URounds (GSem nD τ sig) (Fin 8)
/-- The third component counts the device's own local copies in flight. -/
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds copy: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ) (ρ : Dev nD → PrngReg)

/-- The memory at launch: arbitrary contents, every semaphore counter zero, arbitrary generator registers. -/
def st0 : MemSt nD τ sig (Elt F) := ⟨m, fun _ => 0, ρ⟩

/-! ## The memrefs -/

abbrev xA : Memref sig .tc .hbm S512x4096 .f32 := Memref.whole main_arg0
abbrev wA : Memref sig .tc .hbm S4096x2048 .f32 := Memref.whole main_arg1
abbrev outM : Memref sig .tc .vmem S4096x256 .f32 := Memref.whole cc0_stg0_0
abbrev xbM : Memref sig .tc .vmem S512x4096 .f32 := Memref.whole cc0_scratch0
abbrev wbM : Memref sig .tc .vmem S8x4096x256 .f32 := Memref.whole cc0_scratch1
abbrev sbM : Memref sig .tc .vmem S8x512x256 .bf16 := Memref.whole cc0_scratch2
abbrev rbM : Memref sig .tc .vmem S8x512x256 .bf16 := Memref.whole cc0_scratch3

/-- Slot `t` of the send buffer, as the copies name it: the slice at row-block `t`, its unit axis dropped. -/
abbrev sM : Fin 8 → Memref sig .tc .vmem S512x256 .bf16
  | ⟨0, _⟩ => ((Memref.whole cc0_scratch2 : Memref sig .tc .vmem S8x512x256 .bf16).slice (Rect.unit (s := S8x512x256) ![0, 0, 0] S1x512x256.size (by decide)) (fun _ => rfl)).squeeze S512x256 squeezes_S1x512x256_S512x256
  | ⟨1, _⟩ => ((Memref.whole cc0_scratch2 : Memref sig .tc .vmem S8x512x256 .bf16).slice (Rect.unit (s := S8x512x256) ![1, 0, 0] S1x512x256.size inb_S8x512x256_S1x512x256_1_0_0) (fun _ => rfl)).squeeze S512x256 squeezes_S1x512x256_S512x256
  | ⟨2, _⟩ => ((Memref.whole cc0_scratch2 : Memref sig .tc .vmem S8x512x256 .bf16).slice (Rect.unit (s := S8x512x256) ![2, 0, 0] S1x512x256.size inb_S8x512x256_S1x512x256_2_0_0) (fun _ => rfl)).squeeze S512x256 squeezes_S1x512x256_S512x256
  | ⟨3, _⟩ => ((Memref.whole cc0_scratch2 : Memref sig .tc .vmem S8x512x256 .bf16).slice (Rect.unit (s := S8x512x256) ![3, 0, 0] S1x512x256.size inb_S8x512x256_S1x512x256_3_0_0) (fun _ => rfl)).squeeze S512x256 squeezes_S1x512x256_S512x256
  | ⟨4, _⟩ => ((Memref.whole cc0_scratch2 : Memref sig .tc .vmem S8x512x256 .bf16).slice (Rect.unit (s := S8x512x256) ![4, 0, 0] S1x512x256.size inb_S8x512x256_S1x512x256_4_0_0) (fun _ => rfl)).squeeze S512x256 squeezes_S1x512x256_S512x256
  | ⟨5, _⟩ => ((Memref.whole cc0_scratch2 : Memref sig .tc .vmem S8x512x256 .bf16).slice (Rect.unit (s := S8x512x256) ![5, 0, 0] S1x512x256.size inb_S8x512x256_S1x512x256_5_0_0) (fun _ => rfl)).squeeze S512x256 squeezes_S1x512x256_S512x256
  | ⟨6, _⟩ => ((Memref.whole cc0_scratch2 : Memref sig .tc .vmem S8x512x256 .bf16).slice (Rect.unit (s := S8x512x256) ![6, 0, 0] S1x512x256.size inb_S8x512x256_S1x512x256_6_0_0) (fun _ => rfl)).squeeze S512x256 squeezes_S1x512x256_S512x256
  | ⟨7, _⟩ => ((Memref.whole cc0_scratch2 : Memref sig .tc .vmem S8x512x256 .bf16).slice (Rect.unit (s := S8x512x256) ![7, 0, 0] S1x512x256.size inb_S8x512x256_S1x512x256_7_0_0) (fun _ => rfl)).squeeze S512x256 squeezes_S1x512x256_S512x256
  | ⟨_ + 8, h⟩ => absurd h (by omega)
/-- Slot `t` of the receive buffer. -/
abbrev rM : Fin 8 → Memref sig .tc .vmem S512x256 .bf16
  | ⟨0, _⟩ => ((Memref.whole cc0_scratch3 : Memref sig .tc .vmem S8x512x256 .bf16).slice (Rect.unit (s := S8x512x256) ![0, 0, 0] S1x512x256.size (by decide)) (fun _ => rfl)).squeeze S512x256 squeezes_S1x512x256_S512x256
  | ⟨1, _⟩ => ((Memref.whole cc0_scratch3 : Memref sig .tc .vmem S8x512x256 .bf16).slice (Rect.unit (s := S8x512x256) ![1, 0, 0] S1x512x256.size inb_S8x512x256_S1x512x256_1_0_0) (fun _ => rfl)).squeeze S512x256 squeezes_S1x512x256_S512x256
  | ⟨2, _⟩ => ((Memref.whole cc0_scratch3 : Memref sig .tc .vmem S8x512x256 .bf16).slice (Rect.unit (s := S8x512x256) ![2, 0, 0] S1x512x256.size inb_S8x512x256_S1x512x256_2_0_0) (fun _ => rfl)).squeeze S512x256 squeezes_S1x512x256_S512x256
  | ⟨3, _⟩ => ((Memref.whole cc0_scratch3 : Memref sig .tc .vmem S8x512x256 .bf16).slice (Rect.unit (s := S8x512x256) ![3, 0, 0] S1x512x256.size inb_S8x512x256_S1x512x256_3_0_0) (fun _ => rfl)).squeeze S512x256 squeezes_S1x512x256_S512x256
  | ⟨4, _⟩ => ((Memref.whole cc0_scratch3 : Memref sig .tc .vmem S8x512x256 .bf16).slice (Rect.unit (s := S8x512x256) ![4, 0, 0] S1x512x256.size inb_S8x512x256_S1x512x256_4_0_0) (fun _ => rfl)).squeeze S512x256 squeezes_S1x512x256_S512x256
  | ⟨5, _⟩ => ((Memref.whole cc0_scratch3 : Memref sig .tc .vmem S8x512x256 .bf16).slice (Rect.unit (s := S8x512x256) ![5, 0, 0] S1x512x256.size inb_S8x512x256_S1x512x256_5_0_0) (fun _ => rfl)).squeeze S512x256 squeezes_S1x512x256_S512x256
  | ⟨6, _⟩ => ((Memref.whole cc0_scratch3 : Memref sig .tc .vmem S8x512x256 .bf16).slice (Rect.unit (s := S8x512x256) ![6, 0, 0] S1x512x256.size inb_S8x512x256_S1x512x256_6_0_0) (fun _ => rfl)).squeeze S512x256 squeezes_S1x512x256_S512x256
  | ⟨7, _⟩ => ((Memref.whole cc0_scratch3 : Memref sig .tc .vmem S8x512x256 .bf16).slice (Rect.unit (s := S8x512x256) ![7, 0, 0] S1x512x256.size inb_S8x512x256_S1x512x256_7_0_0) (fun _ => rfl)).squeeze S512x256 squeezes_S1x512x256_S512x256
  | ⟨_ + 8, h⟩ => absurd h (by omega)

/-- The runtime's barrier semaphore (not scoped to the launch); the send and receive semaphores of slot `t` (scoped scratch). -/
abbrev barS : Sem sig := (SemArray.scalar (sig.barrier 0 rfl) : Sems sig S_).sem
abbrev sendSA : Fin 8 → DmaSems sig S_
  | ⟨0, _⟩ => (cc0_scratch6.slice (Rect.unit (s := S8) ![0] S1.size inb_S8_S1_0)).squeeze S_ squeezes_S1_S_
  | ⟨1, _⟩ => (cc0_scratch6.slice (Rect.unit (s := S8) ![1] S1.size inb_S8_S1_1)).squeeze S_ squeezes_S1_S_
  | ⟨2, _⟩ => (cc0_scratch6.slice (Rect.unit (s := S8) ![2] S1.size inb_S8_S1_2)).squeeze S_ squeezes_S1_S_
  | ⟨3, _⟩ => (cc0_scratch6.slice (Rect.unit (s := S8) ![3] S1.size inb_S8_S1_3)).squeeze S_ squeezes_S1_S_
  | ⟨4, _⟩ => (cc0_scratch6.slice (Rect.unit (s := S8) ![4] S1.size inb_S8_S1_4)).squeeze S_ squeezes_S1_S_
  | ⟨5, _⟩ => (cc0_scratch6.slice (Rect.unit (s := S8) ![5] S1.size inb_S8_S1_5)).squeeze S_ squeezes_S1_S_
  | ⟨6, _⟩ => (cc0_scratch6.slice (Rect.unit (s := S8) ![6] S1.size inb_S8_S1_6)).squeeze S_ squeezes_S1_S_
  | ⟨7, _⟩ => (cc0_scratch6.slice (Rect.unit (s := S8) ![7] S1.size inb_S8_S1_7)).squeeze S_ squeezes_S1_S_
  | ⟨_ + 8, h⟩ => absurd h (by omega)
abbrev recvSA : Fin 8 → DmaSems sig S_
  | ⟨0, _⟩ => (cc0_scratch7.slice (Rect.unit (s := S8) ![0] S1.size inb_S8_S1_0)).squeeze S_ squeezes_S1_S_
  | ⟨1, _⟩ => (cc0_scratch7.slice (Rect.unit (s := S8) ![1] S1.size inb_S8_S1_1)).squeeze S_ squeezes_S1_S_
  | ⟨2, _⟩ => (cc0_scratch7.slice (Rect.unit (s := S8) ![2] S1.size inb_S8_S1_2)).squeeze S_ squeezes_S1_S_
  | ⟨3, _⟩ => (cc0_scratch7.slice (Rect.unit (s := S8) ![3] S1.size inb_S8_S1_3)).squeeze S_ squeezes_S1_S_
  | ⟨4, _⟩ => (cc0_scratch7.slice (Rect.unit (s := S8) ![4] S1.size inb_S8_S1_4)).squeeze S_ squeezes_S1_S_
  | ⟨5, _⟩ => (cc0_scratch7.slice (Rect.unit (s := S8) ![5] S1.size inb_S8_S1_5)).squeeze S_ squeezes_S1_S_
  | ⟨6, _⟩ => (cc0_scratch7.slice (Rect.unit (s := S8) ![6] S1.size inb_S8_S1_6)).squeeze S_ squeezes_S1_S_
  | ⟨7, _⟩ => (cc0_scratch7.slice (Rect.unit (s := S8) ![7] S1.size inb_S8_S1_7)).squeeze S_ squeezes_S1_S_
  | ⟨_ + 8, h⟩ => absurd h (by omega)

abbrev barCell (c : Dev nD) : GSem nD τ sig := ((c : Thread nD τ), .reg barS)
abbrev sendCell (c : Dev nD) (t : Fin 8) : GSem nD τ sig := ((c : Thread nD τ), .dma (sendSA t).sem)
abbrev recvCell (c : Dev nD) (t : Fin 8) : GSem nD τ sig := ((c : Thread nD τ), .dma (recvSA t).sem)

/-- The units one slot copy credits: the same for every slot and either end. -/
abbrev NS : ℕ := (rM 1 : Memref sig .tc .vmem S512x256 .bf16).view.dmaCredit

end Cert.Kernel.A2A

end
-- ==== Proof.ValsB.lean ====
/-
  What the buffers hold, as functions of the launch memory.

  Device c holds rows 512c.. of x (its block, 512 × 4096) and a full copy of w (4096 × 2048). The tile it computes for the
  column block of device p is gelu of its block of x against columns 256p.. of w: 512 × 256. It keeps the tile for its
  own column block at full width; the seven others it narrows to 16 bits and sends. Slot t of its send buffer holds the
  tile for p = c xor t; slot t of its receive buffer ends holding the tile that c xor t computed for c.
-/
import proofs.«900796_g7700000000000797_dist_gemm_a2a_m4096_k4096_n2048_f32_gelu_v7x_i8_1_alg».proof.Proof.CellsB
import Idealize.ShloMosaic.Lib.ValueIdx

noncomputable section

namespace Cert.Kernel.A2A

open Cert.Kernel Cert.Kernel.Gen
open Idealize.ShloMosaic Idealize.ShloMosaic.TcCoe Idealize.ShloMosaic.ValueIdx

variable {F : FTy → Type} [FloatOps F]
variable (m : (ℓ : Loc nD τ sig) → Buf (Elt F) ℓ)

/-- Device `c`'s block of x, as launched. -/
def xV (c : Dev nD) : Vec F S512x4096 .f32 := m ((c : Thread nD τ).loc main_arg0)
/-- Device `c`'s copy of w, as launched. -/
def wV (c : Dev nD) : Vec F S4096x2048 .f32 := m ((c : Thread nD τ).loc main_arg1)

/-- The 256 columns of device `c`'s w that belong to device `p`, laid out as one slot of the weight buffer. -/
def wSlot (c p : Dev nD) : Vec F S1x4096x256 .f32 := fun i =>
  wV m c (ix2 (n0 := 4096) (n1 := 2048) (i 1)
    ⟨256 * p.val + (i 2).val, by have h2 : (i 2).val < 256 := (i 2).isLt; have hp : p.val < 8 := p.isLt; omega⟩)

/-- The tile device `c` computes for the column block of device `p`, narrowed to 16 bits: what it sends. -/
def tileB (c p : Dev nD) : FVec F S1x512x256 .bf16 := k0_pay1 (xV m c) (wSlot m c p)

/-- The tile device `c` computes for its own column block, at full width: what it keeps. -/
def tileF (c : Dev nD) : FVec F S512x256 .f32 :=
  k0_pay12 (k0_pay9 (xV m c) (wSlot m c c)) (k0_pay10 (xV m c) (wSlot m c c)) (k0_pay11 (xV m c) (wSlot m c c))

/-- Device `c`'s send buffer: slot `t` holds the tile for device `c xor t`. (A function on the whole buffer; slot 0 is never sent.) -/
def sendV (c : Dev nD) : Buf (Elt F) ((c : Thread nD τ).loc cc0_scratch2) := fun i =>
  tileB m c (px c (i 0)) (ix3 (n0 := 1) (n1 := 512) (n2 := 256) 0 (i 1) (i 2))

/-- Device `c`'s receive buffer once every slot has landed: slot `t` holds the tile device `c xor t` computed for `c`. -/
def recvV (c : Dev nD) : Buf (Elt F) ((c : Thread nD τ).loc cc0_scratch3) := fun i =>
  tileB m (px c (i 0)) c (ix3 (n0 := 1) (n1 := 512) (n2 := 256) 0 (i 1) (i 2))

/-- Slot `t` of the receive buffer as the vector a load of it returns. -/
def recvSlot (c : Dev nD) (t : Fin 8) : Vec F S1x512x256 .bf16 := fun j =>
  recvV m c (ix3 (n0 := 8) (n1 := 512) (n2 := 256) t (j 1) (j 2))

/-- Device `c`'s result block (4096 × 256: all rows, its 256 columns) when the kernel ends: row block `c` is the tile it
    kept; row block `b ≠ c` is the tile device `b` sent it, widened back. -/
def outV (c : Dev nD) : Buf (Elt F) ((c : Thread nD τ).loc cc0_stg0_0) := fun i =>
  let b : Fin 8 := ⟨(i 0).val / 512, by have h : (i 0).val < 4096 := (i 0).isLt; omega⟩
  let r : Fin 512 := ⟨(i 0).val % 512, Nat.mod_lt _ (by decide)⟩
  if b.val = c.val then tileF m c (ix2 (n0 := 512) (n1 := 256) r (i 1))
  else k0_pay13 (recvSlot m c ⟨b.val ^^^ c.val, by have h1 := b.isLt; have h2 : c.val < 8 := c.isLt; exact Nat.xor_lt_two_pow (n := 3) h1 h2⟩) (ix2 (n0 := 512) (n1 := 256) r (i 1))

end Cert.Kernel.A2A

end
-- ==== Proof.DevEqB.lean ====
/-
  Closed forms of the integer chains the kernel's body computes from its own device id: the
  addressed devices, the branch conditions of the entry handshake, and the slice offsets.

  On a mesh of eight devices the kernel pairs device `c` with device `c XOR t` at mask `t`.
  XOR with a fixed mask is an involution of `{0, …, 7}`, so for each mask the pairing is a perfect
  matching of the devices (the identity at mask 0), and for each device the map `t ↦ c XOR t` is a
  bijection of the masks onto the devices, with inverse `d ↦ c XOR d`. Every statement here is a
  finite check over the eight devices (and the eight masks).
-/
import proofs.«900796_g7700000000000797_dist_gemm_a2a_m4096_k4096_n2048_f32_gelu_v7x_i8_1_alg».proof.Proof.Gen.Kernel
import proofs.«900796_g7700000000000797_dist_gemm_a2a_m4096_k4096_n2048_f32_gelu_v7x_i8_1_alg».proof.Proof.PeerB
import Idealize.ShloMosaic.Lib.Tactic
import Mathlib.Logic.Equiv.Defs

set_option Elab.async false

namespace Cert.Kernel.A2A

open Cert.Kernel Cert.Kernel.Gen Idealize.ShloMosaic

/-! ## The peer of a device at a mask -/

/- The peer `px c t` of device `c` at mask `t` (the device whose id is `c XOR t`) is defined in the
   module imported above; its value is the XOR of the two numbers. -/

@[simp] theorem px_val (c : Dev nD) (t : Fin 8) : (px c t).val = c.val ^^^ t.val := rfl

/-- The mask that takes device `c` to device `d`: `c XOR d`. -/
def tOf (c d : Dev nD) : Fin 8 :=
  ⟨c.val ^^^ d.val, Nat.xor_lt_two_pow (n := 3) c.isLt d.isLt⟩

@[simp] theorem tOf_val (c d : Dev nD) : (tOf c d).val = c.val ^^^ d.val := rfl

/-- XOR with a mask is an involution. -/
theorem px_px (c : Dev nD) (t : Fin 8) : px (px c t) t = c := by
  revert c t; decide +kernel

/-- Mask 0 pairs a device with itself. -/
theorem px_zero (c : Dev nD) : px c 0 = c := by
  revert c; decide +kernel

/-- A nonzero mask moves every device. -/
theorem px_ne (c : Dev nD) (t : Fin 8) (ht : t ≠ 0) : px c t ≠ c := by
  revert c t; decide +kernel

/-- `c XOR (c XOR d) = d`. -/
theorem px_tOf (c d : Dev nD) : px c (tOf c d) = d := by
  revert c d; decide +kernel

/-- `c XOR (c XOR t) = t`. -/
theorem tOf_px (c : Dev nD) (t : Fin 8) : tOf c (px c t) = t := by
  revert c t; decide +kernel

/-- The mask between two devices is 0 exactly when they are the same device. -/
theorem tOf_eq_zero (c d : Dev nD) : tOf c d = 0 ↔ c = d := by
  revert c d; decide +kernel

/-- For a fixed device, distinct masks give distinct peers: the mask is recovered from the peer. -/
theorem px_inj (c : Dev nD) : Function.Injective (px c) := by
  intro a b h
  rw [← tOf_px c a, h, tOf_px]

/-- The pairing at a mask is symmetric: `d` is `c`'s peer exactly when `c` is `d`'s. -/
theorem px_eq_iff (c d : Dev nD) (t : Fin 8) : px c t = d ↔ px d t = c := by
  constructor
  · intro h; rw [← h, px_px]
  · intro h; rw [← h, px_px]

/-- The pairing at a mask, as a permutation of the devices; it is its own inverse. -/
def pxEquiv (t : Fin 8) : Dev nD ≃ Dev nD where
  toFun := fun c => px c t
  invFun := fun c => px c t
  left_inv := fun c => px_px c t
  right_inv := fun c => px_px c t

@[simp] theorem pxEquiv_apply (t : Fin 8) (c : Dev nD) : pxEquiv t c = px c t := rfl
@[simp] theorem pxEquiv_symm_apply (t : Fin 8) (c : Dev nD) : (pxEquiv t).symm c = px c t := rfl

/-! ## The devices the remote copies address

The seven remote copies are addressed, in program order, at the masks 6, 2, 5, 7, 1, 3, 4: each
chain computes `((c / 1) % 8 XOR t) * 1 + 0` over 32-bit words, which is `c XOR t`. -/

@[sl_canon] theorem dev9_eq (c : Dev nD) : (⟨k0_dev9 c, k0_dev9_lt c⟩ : Dev nD) = px c 6 := by
  revert c; decide +kernel
@[sl_canon] theorem dev10_eq (c : Dev nD) : (⟨k0_dev10 c, k0_dev10_lt c⟩ : Dev nD) = px c 2 := by
  revert c; decide +kernel
@[sl_canon] theorem dev11_eq (c : Dev nD) : (⟨k0_dev11 c, k0_dev11_lt c⟩ : Dev nD) = px c 5 := by
  revert c; decide +kernel
@[sl_canon] theorem dev12_eq (c : Dev nD) : (⟨k0_dev12 c, k0_dev12_lt c⟩ : Dev nD) = px c 7 := by
  revert c; decide +kernel
@[sl_canon] theorem dev13_eq (c : Dev nD) : (⟨k0_dev13 c, k0_dev13_lt c⟩ : Dev nD) = px c 1 := by
  revert c; decide +kernel
@[sl_canon] theorem dev14_eq (c : Dev nD) : (⟨k0_dev14 c, k0_dev14_lt c⟩ : Dev nD) = px c 3 := by
  revert c; decide +kernel
@[sl_canon] theorem dev15_eq (c : Dev nD) : (⟨k0_dev15 c, k0_dev15_lt c⟩ : Dev nD) = px c 4 := by
  revert c; decide +kernel

/-! ## The branch conditions of the entry handshake

The `p`-th condition (`p = 1, …, 8`) compares the device id with `p - 1` for inequality: it holds on
every device but device `p - 1`. -/

theorem cond1_iff (c : Dev nD) : k0_cond1 c = 1#1 ↔ c ≠ 0 := by
  revert c; decide +kernel
theorem cond1_pos (c : Dev nD) (h : c ≠ 0) : k0_cond1 c = 1#1 := (cond1_iff c).2 h
theorem cond1_neg : k0_cond1 (0 : Dev nD) ≠ 1#1 := by decide +kernel
theorem cond2_iff (c : Dev nD) : k0_cond2 c = 1#1 ↔ c ≠ 1 := by
  revert c; decide +kernel
theorem cond2_pos (c : Dev nD) (h : c ≠ 1) : k0_cond2 c = 1#1 := (cond2_iff c).2 h
theorem cond2_neg : k0_cond2 (1 : Dev nD) ≠ 1#1 := by decide +kernel
theorem cond3_iff (c : Dev nD) : k0_cond3 c = 1#1 ↔ c ≠ 2 := by
  revert c; decide +kernel
theorem cond3_pos (c : Dev nD) (h : c ≠ 2) : k0_cond3 c = 1#1 := (cond3_iff c).2 h
theorem cond3_neg : k0_cond3 (2 : Dev nD) ≠ 1#1 := by decide +kernel
theorem cond4_iff (c : Dev nD) : k0_cond4 c = 1#1 ↔ c ≠ 3 := by
  revert c; decide +kernel
theorem cond4_pos (c : Dev nD) (h : c ≠ 3) : k0_cond4 c = 1#1 := (cond4_iff c).2 h
theorem cond4_neg : k0_cond4 (3 : Dev nD) ≠ 1#1 := by decide +kernel
theorem cond5_iff (c : Dev nD) : k0_cond5 c = 1#1 ↔ c ≠ 4 := by
  revert c; decide +kernel
theorem cond5_pos (c : Dev nD) (h : c ≠ 4) : k0_cond5 c = 1#1 := (cond5_iff c).2 h
theorem cond5_neg : k0_cond5 (4 : Dev nD) ≠ 1#1 := by decide +kernel
theorem cond6_iff (c : Dev nD) : k0_cond6 c = 1#1 ↔ c ≠ 5 := by
  revert c; decide +kernel
theorem cond6_pos (c : Dev nD) (h : c ≠ 5) : k0_cond6 c = 1#1 := (cond6_iff c).2 h
theorem cond6_neg : k0_cond6 (5 : Dev nD) ≠ 1#1 := by decide +kernel
theorem cond7_iff (c : Dev nD) : k0_cond7 c = 1#1 ↔ c ≠ 6 := by
  revert c; decide +kernel
theorem cond7_pos (c : Dev nD) (h : c ≠ 6) : k0_cond7 c = 1#1 := (cond7_iff c).2 h
theorem cond7_neg : k0_cond7 (6 : Dev nD) ≠ 1#1 := by decide +kernel
theorem cond8_iff (c : Dev nD) : k0_cond8 c = 1#1 ↔ c ≠ 7 := by
  revert c; decide +kernel
theorem cond8_pos (c : Dev nD) (h : c ≠ 7) : k0_cond8 c = 1#1 := (cond8_iff c).2 h
theorem cond8_neg : k0_cond8 (7 : Dev nD) ≠ 1#1 := by decide +kernel

/-! ## The devices the entry handshake signals

Under its condition the `p`-th signal addresses the constant device `p - 1` (the chain is
`(p - 1) * 1 + 0`). -/

@[sl_canon] theorem dev1_eq (c : Dev nD) (h : k0_cond1 c = 1#1) :
    (⟨k0_dev1, k0_dev1_lt c h⟩ : Dev nD) = 0 :=
  Fin.ext (by show k0_dev1 = 0; exact k0_dev1_eq)
@[sl_canon] theorem dev2_eq (c : Dev nD) (h : k0_cond2 c = 1#1) :
    (⟨k0_dev2, k0_dev2_lt c h⟩ : Dev nD) = 1 :=
  Fin.ext (by show k0_dev2 = 1; exact k0_dev2_eq)
@[sl_canon] theorem dev3_eq (c : Dev nD) (h : k0_cond3 c = 1#1) :
    (⟨k0_dev3, k0_dev3_lt c h⟩ : Dev nD) = 2 :=
  Fin.ext (by show k0_dev3 = 2; exact k0_dev3_eq)
@[sl_canon] theorem dev4_eq (c : Dev nD) (h : k0_cond4 c = 1#1) :
    (⟨k0_dev4, k0_dev4_lt c h⟩ : Dev nD) = 3 :=
  Fin.ext (by show k0_dev4 = 3; exact k0_dev4_eq)
@[sl_canon] theorem dev5_eq (c : Dev nD) (h : k0_cond5 c = 1#1) :
    (⟨k0_dev5, k0_dev5_lt c h⟩ : Dev nD) = 4 :=
  Fin.ext (by show k0_dev5 = 4; exact k0_dev5_eq)
@[sl_canon] theorem dev6_eq (c : Dev nD) (h : k0_cond6 c = 1#1) :
    (⟨k0_dev6, k0_dev6_lt c h⟩ : Dev nD) = 5 :=
  Fin.ext (by show k0_dev6 = 5; exact k0_dev6_eq)
@[sl_canon] theorem dev7_eq (c : Dev nD) (h : k0_cond7 c = 1#1) :
    (⟨k0_dev7, k0_dev7_lt c h⟩ : Dev nD) = 6 :=
  Fin.ext (by show k0_dev7 = 6; exact k0_dev7_eq)
@[sl_canon] theorem dev8_eq (c : Dev nD) (h : k0_cond8 c = 1#1) :
    (⟨k0_dev8, k0_dev8_lt c h⟩ : Dev nD) = 7 :=
  Fin.ext (by show k0_dev8 = 7; exact k0_dev8_eq)

/-! ## The slice offsets

`k0_off3`: the device's own row block of the result, rows `512 * c`. `k0_off4` at the word `t`: the
row block of the peer at mask `t`, rows `512 * (c XOR t)`. `k0_off1` and `k0_off2` at the word `r`: the
column block `256 * (c XOR r)` of the weight, its upper half of the rows (from row 0) and its lower
half (from row 2048). -/

theorem off3_eq' (c : Dev nD) : k0_off3 c = ![512 * c.val, 0] := k0_off3_eq c

theorem off4_eq (c : Dev nD) (t : Fin 7) :
    k0_off4 c (BitVec.ofNat 32 (1 + t.val)) = ![512 * (px c ⟨1 + t.val, by omega⟩).val, 0] := by
  revert c t; decide +kernel

theorem off4_eq_1 (c : Dev nD) : k0_off4 c 1#32 = ![512 * (px c 1).val, 0] := by
  revert c; decide +kernel
theorem off4_eq_2 (c : Dev nD) : k0_off4 c 2#32 = ![512 * (px c 2).val, 0] := by
  revert c; decide +kernel
theorem off4_eq_3 (c : Dev nD) : k0_off4 c 3#32 = ![512 * (px c 3).val, 0] := by
  revert c; decide +kernel
theorem off4_eq_4 (c : Dev nD) : k0_off4 c 4#32 = ![512 * (px c 4).val, 0] := by
  revert c; decide +kernel
theorem off4_eq_5 (c : Dev nD) : k0_off4 c 5#32 = ![512 * (px c 5).val, 0] := by
  revert c; decide +kernel
theorem off4_eq_6 (c : Dev nD) : k0_off4 c 6#32 = ![512 * (px c 6).val, 0] := by
  revert c; decide +kernel
theorem off4_eq_7 (c : Dev nD) : k0_off4 c 7#32 = ![512 * (px c 7).val, 0] := by
  revert c; decide +kernel

theorem off1_eq (c : Dev nD) (r : Fin 8) :
    k0_off1 c (BitVec.ofNat 32 r.val) = ![0, 256 * (px c r).val] := by
  revert c r; decide +kernel

theorem off2_eq (c : Dev nD) (r : Fin 8) :
    k0_off2 c (BitVec.ofNat 32 r.val) = ![2048, 256 * (px c r).val] := by
  revert c r; decide +kernel

theorem off1_eq_0 (c : Dev nD) : k0_off1 c 0#32 = ![0, 256 * (px c 0).val] := by
  revert c; decide +kernel
theorem off1_eq_1 (c : Dev nD) : k0_off1 c 1#32 = ![0, 256 * (px c 1).val] := by
  revert c; decide +kernel
theorem off1_eq_2 (c : Dev nD) : k0_off1 c 2#32 = ![0, 256 * (px c 2).val] := by
  revert c; decide +kernel
theorem off1_eq_3 (c : Dev nD) : k0_off1 c 3#32 = ![0, 256 * (px c 3).val] := by
  revert c; decide +kernel
theorem off1_eq_4 (c : Dev nD) : k0_off1 c 4#32 = ![0, 256 * (px c 4).val] := by
  revert c; decide +kernel
theorem off1_eq_5 (c : Dev nD) : k0_off1 c 5#32 = ![0, 256 * (px c 5).val] := by
  revert c; decide +kernel
theorem off1_eq_6 (c : Dev nD) : k0_off1 c 6#32 = ![0, 256 * (px c 6).val] := by
  revert c; decide +kernel
theorem off1_eq_7 (c : Dev nD) : k0_off1 c 7#32 = ![0, 256 * (px c 7).val] := by
  revert c; decide +kernel

theorem off2_eq_0 (c : Dev nD) : k0_off2 c 0#32 = ![2048, 256 * (px c 0).val] := by
  revert c; decide +kernel
theorem off2_eq_1 (c : Dev nD) : k0_off2 c 1#32 = ![2048, 256 * (px c 1).val] := by
  revert c; decide +kernel
theorem off2_eq_2 (c : Dev nD) : k0_off2 c 2#32 = ![2048, 256 * (px c 2).val] := by
  revert c; decide +kernel
theorem off2_eq_3 (c : Dev nD) : k0_off2 c 3#32 = ![2048, 256 * (px c 3).val] := by
  revert c; decide +kernel
theorem off2_eq_4 (c : Dev nD) : k0_off2 c 4#32 = ![2048, 256 * (px c 4).val] := by
  revert c; decide +kernel
theorem off2_eq_5 (c : Dev nD) : k0_off2 c 5#32 = ![2048, 256 * (px c 5).val] := by
  revert c; decide +kernel
theorem off2_eq_6 (c : Dev nD) : k0_off2 c 6#32 = ![2048, 256 * (px c 6).val] := by
  revert c; decide +kernel
theorem off2_eq_7 (c : Dev nD) : k0_off2 c 7#32 = ![2048, 256 * (px c 7).val] := by
  revert c; decide +kernel

/-- info: 'Cert.Kernel.A2A.off1_eq' depends on axioms: [propext, Classical.choice, Quot.sound] -/
#guard_msgs in #print axioms off1_eq

end Cert.Kernel.A2A
-- ==== Proof.SchedB.lean ====
/-
  The schedule of the exchange: one round. A barrier cell has seven duties of one unit, one per nonzero mask t, paid by the
  device c xor t; a send or receive cell of a nonzero slot has one duty of one slot's credit. What each payment hands over
  is stated with the contents it carries.
-/
import proofs.«900796_g7700000000000797_dist_gemm_a2a_m4096_k4096_n2048_f32_gelu_v7x_i8_1_alg».proof.Proof.ValsB
import proofs.«900796_g7700000000000797_dist_gemm_a2a_m4096_k4096_n2048_f32_gelu_v7x_i8_1_alg».proof.Proof.DevEqB

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which slot a semaphore belongs to -/

/-- The nonzero slot a receive semaphore belongs to (the receive semaphores are DMA semaphores 21..28; slot 0 is unused). -/
def recvT : SemLoc sig → Option (Fin 8)
  | .dma q => if h : 22 ≤ q.val ∧ q.val < 29 then some ⟨q.val - 21, by omega⟩ else none
  | _ => none
/-- The nonzero slot a send semaphore belongs to (DMA semaphores 13..20). -/
def sendT : SemLoc sig → Option (Fin 8)
  | .dma q => if h : 14 ≤ q.val ∧ q.val < 21 then some ⟨q.val - 13, by omega⟩ else none
  | _ => none

/-! ## What a payment hands over -/

/-- Slot `t` of device `c`'s receive buffer, at some contents: what the device `c xor t` needs to write it. -/
def slotAny (c : Dev nD) : Fin 8 → sProp 𝕄
  | ⟨0, _⟩ => iprop(∃ f, (rM 0).view.loc (c : Thread nD τ) ↦[(rM 0).view.set]{fullShare} f)
  | ⟨1, _⟩ => iprop(∃ f, (rM 1).view.loc (c : Thread nD τ) ↦[(rM 1).view.set]{fullShare} f)
  | ⟨2, _⟩ => iprop(∃ f, (rM 2).view.loc (c : Thread nD τ) ↦[(rM 2).view.set]{fullShare} f)
  | ⟨3, _⟩ => iprop(∃ f, (rM 3).view.loc (c : Thread nD τ) ↦[(rM 3).view.set]{fullShare} f)
  | ⟨4, _⟩ => iprop(∃ f, (rM 4).view.loc (c : Thread nD τ) ↦[(rM 4).view.set]{fullShare} f)
  | ⟨5, _⟩ => iprop(∃ f, (rM 5).view.loc (c : Thread nD τ) ↦[(rM 5).view.set]{fullShare} f)
  | ⟨6, _⟩ => iprop(∃ f, (rM 6).view.loc (c : Thread nD τ) ↦[(rM 6).view.set]{fullShare} f)
  | ⟨7, _⟩ => iprop(∃ f, (rM 7).view.loc (c : Thread nD τ) ↦[(rM 7).view.set]{fullShare} f)
  | ⟨_ + 8, h⟩ => absurd h (by omega)

/-- The unit the device `c xor t` pays into `c`'s barrier cell hands `c` slot `t` of that device's receive buffer. -/
def barPay (c : Dev nD) (t : Fin 8) : sProp 𝕄 := slotAny (px c t) t

/-- The copy device `c xor t` issues, once it has written slot `t` of `c`'s receive buffer, hands `c` that slot holding the
    tile computed for `c`. -/
def recvPay (c : Dev nD) : Fin 8 → sProp 𝕄
  | ⟨0, _⟩ => (rM 0).view.loc (c : Thread nD τ) ↦[(rM 0).view.set]{fullShare} recvV m c
  | ⟨1, _⟩ => (rM 1).view.loc (c : Thread nD τ) ↦[(rM 1).view.set]{fullShare} recvV m c
  | ⟨2, _⟩ => (rM 2).view.loc (c : Thread nD τ) ↦[(rM 2).view.set]{fullShare} recvV m c
  | ⟨3, _⟩ => (rM 3).view.loc (c : Thread nD τ) ↦[(rM 3).view.set]{fullShare} recvV m c
  | ⟨4, _⟩ => (rM 4).view.loc (c : Thread nD τ) ↦[(rM 4).view.set]{fullShare} recvV m c
  | ⟨5, _⟩ => (rM 5).view.loc (c : Thread nD τ) ↦[(rM 5).view.set]{fullShare} recvV m c
  | ⟨6, _⟩ => (rM 6).view.loc (c : Thread nD τ) ↦[(rM 6).view.set]{fullShare} recvV m c
  | ⟨7, _⟩ => (rM 7).view.loc (c : Thread nD τ) ↦[(rM 7).view.set]{fullShare} recvV m c
  | ⟨_ + 8, h⟩ => absurd h (by omega)

/-- `c`'s own copy of slot `t`, once the slot has been read, hands the slot back. -/
def sendPay (c : Dev nD) : Fin 8 → sProp 𝕄
  | ⟨0, _⟩ => (sM 0).view.loc (c : Thread nD τ) ↦[(sM 0).view.set]{fullShare} sendV m c
  | ⟨1, _⟩ => (sM 1).view.loc (c : Thread nD τ) ↦[(sM 1).view.set]{fullShare} sendV m c
  | ⟨2, _⟩ => (sM 2).view.loc (c : Thread nD τ) ↦[(sM 2).view.set]{fullShare} sendV m c
  | ⟨3, _⟩ => (sM 3).view.loc (c : Thread nD τ) ↦[(sM 3).view.set]{fullShare} sendV m c
  | ⟨4, _⟩ => (sM 4).view.loc (c : Thread nD τ) ↦[(sM 4).view.set]{fullShare} sendV m c
  | ⟨5, _⟩ => (sM 5).view.loc (c : Thread nD τ) ↦[(sM 5).view.set]{fullShare} sendV m c
  | ⟨6, _⟩ => (sM 6).view.loc (c : Thread nD τ) ↦[(sM 6).view.set]{fullShare} sendV m c
  | ⟨7, _⟩ => (sM 7).view.loc (c : Thread nD τ) ↦[(sM 7).view.set]{fullShare} sendV m c
  | ⟨_ + 8, h⟩ => absurd h (by omega)

/-! ## The schedule -/

abbrev IsBar (g : GSem nD τ sig) : Prop := g.1.2 = .tc ∧ g.2 = .reg barS
abbrev IsXfer (g : GSem nD τ sig) : Prop := g.1.2 = .tc ∧ ((recvT g.2).isSome ∨ (sendT g.2).isSome)

theorem NS_pos : 0 < NS := View.dmaCredit_pos _ (by decide)

def sched : Rounds.Schedule (GSem nD τ sig) (Fin 8) 𝕄 where
  duties g r := if r = 0 ∧ IsBar g then Finset.univ.erase 0 else if r = 0 ∧ IsXfer g then {0} else ∅
  unitless _ := False
  amount g _ _ := if g.2 = .reg barS then 1 else NS
  payload g _ d :=
    if g.2 = .reg barS then barPay g.1.1 d
    else match recvT g.2 with
      | some t => recvPay m g.1.1 t
      | none => match sendT g.2 with
        | some t => sendPay m g.1.1 t
        | none => iprop(emp)
  amount_pos g _ _ _ := by
    by_cases h : g.2 = .reg barS
    · rw [if_pos h]; exact Nat.one_pos
    · rw [if_neg h]; exact NS_pos

/-! ## What each device owes at launch; the levels -/

/-- Device `c` owes, for every nonzero mask `t`, one unit to the barrier cell of `c xor t` and one slot's credit to that
    device's receive cell `t`. -/
def owedBar (c : Dev nD) : CellTallies nD τ sig Unit :=
  tallyAt (barCell (px c 1)) () 1 + tallyAt (barCell (px c 2)) () 1 + tallyAt (barCell (px c 3)) () 1 + tallyAt (barCell (px c 4)) () 1 + tallyAt (barCell (px c 5)) () 1 + tallyAt (barCell (px c 6)) () 1 + tallyAt (barCell (px c 7)) () 1
def owedRecv (c : Dev nD) : CellTallies nD τ sig Unit :=
  tallyAt (recvCell (px c 1) 1) () NS + tallyAt (recvCell (px c 2) 2) () NS + tallyAt (recvCell (px c 3) 3) () NS + tallyAt (recvCell (px c 4) 4) () NS + tallyAt (recvCell (px c 5) 5) () NS + tallyAt (recvCell (px c 6) 6) () NS + tallyAt (recvCell (px c 7) 7) () NS
def O₀ (c : Dev nD) : CellTallies nD τ sig Unit := owedRecv c + owedBar c

def L (g : GSem nD τ sig) : Finset Unit := if g.1.2 = .tc then {()} else ∅
/-- Barrier cells at 1, receive cells at 2, everything else (staging, local copies, send cells) at 0. -/
def lv (g : GSem nD τ sig) (_ : Unit) : ℕ := if g.2 = .reg barS then 1 else if (recvT g.2).isSome then 2 else 0

end Cert.Kernel.A2A

end
-- ==== Proof.DataB.lean ====
/-
  The proof data of the launch: what a device holds when its body starts, what it holds when the body ends, and what the
  body leaves in the output block.

  At the start a device holds: the invariants of the cells it touches (its own fifteen; for every nonzero mask t the
  barrier cell and the receive cell t of its partner c xor t); its position at round 0 of its own cells; the tokens of the
  twenty-one duties it pays (one barrier unit and one receive credit at each partner, its own seven send credits); the
  credit to wait seven units on its barrier cell and one slot on each receive cell; its two argument arrays; its four
  scratch buffers at arbitrary contents; and the counters of the semaphores no other device touches, at zero.
-/
import proofs.«900796_g7700000000000797_dist_gemm_a2a_m4096_k4096_n2048_f32_gelu_v7x_i8_1_alg».proof.Proof.SchedB

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The invariants device `c`'s body opens, under the names `K` the launch allocated them at. -/
def invs (K : GSem nD τ sig → ℕ) (c : Dev nD) : sProp 𝕄 :=
  iprop(cellInv ER (sched m) (K (barCell c)) (barCell c)
    ∗ cellInv ER (sched m) (K (sendCell c 1)) (sendCell c 1) ∗ cellInv ER (sched m) (K (recvCell c 1)) (recvCell c 1)
    ∗ cellInv ER (sched m) (K (sendCell c 2)) (sendCell c 2) ∗ cellInv ER (sched m) (K (recvCell c 2)) (recvCell c 2)
    ∗ cellInv ER (sched m) (K (sendCell c 3)) (sendCell c 3) ∗ cellInv ER (sched m) (K (recvCell c 3)) (recvCell c 3)
    ∗ cellInv ER (sched m) (K (sendCell c 4)) (sendCell c 4) ∗ cellInv ER (sched m) (K (recvCell c 4)) (recvCell c 4)
    ∗ cellInv ER (sched m) (K (sendCell c 5)) (sendCell c 5) ∗ cellInv ER (sched m) (K (recvCell c 5)) (recvCell c 5)
    ∗ cellInv ER (sched m) (K (sendCell c 6)) (sendCell c 6) ∗ cellInv ER (sched m) (K (recvCell c 6)) (recvCell c 6)
    ∗ cellInv ER (sched m) (K (sendCell c 7)) (sendCell c 7) ∗ cellInv ER (sched m) (K (recvCell c 7)) (recvCell c 7)
    ∗ cellInv ER (sched m) (K (barCell (px c 1))) (barCell (px c 1)) ∗ cellInv ER (sched m) (K (recvCell (px c 1) 1)) (recvCell (px c 1) 1)
    ∗ cellInv ER (sched m) (K (barCell (px c 2))) (barCell (px c 2)) ∗ cellInv ER (sched m) (K (recvCell (px c 2) 2)) (recvCell (px c 2) 2)
    ∗ cellInv ER (sched m) (K (barCell (px c 3))) (barCell (px c 3)) ∗ cellInv ER (sched m) (K (recvCell (px c 3) 3)) (recvCell (px c 3) 3)
    ∗ cellInv ER (sched m) (K (barCell (px c 4))) (barCell (px c 4)) ∗ cellInv ER (sched m) (K (recvCell (px c 4) 4)) (recvCell (px c 4) 4)
    ∗ cellInv ER (sched m) (K (barCell (px c 5))) (barCell (px c 5)) ∗ cellInv ER (sched m) (K (recvCell (px c 5) 5)) (recvCell (px c 5) 5)
    ∗ cellInv ER (sched m) (K (barCell (px c 6))) (barCell (px c 6)) ∗ cellInv ER (sched m) (K (recvCell (px c 6) 6)) (recvCell (px c 6) 6)
    ∗ cellInv ER (sched m) (K (barCell (px c 7))) (barCell (px c 7)) ∗ cellInv ER (sched m) (K (recvCell (px c 7) 7)) (recvCell (px c 7) 7))

instance invs_persistent (K : GSem nD τ sig → ℕ) (c : Dev nD) : BI.Persistent (invs m K c) := by unfold invs; infer_instance

/-- Device `c`'s positions at round 0 of its own cells. -/
def positions (c : Dev nD) : sProp 𝕄 :=
  iprop(atPos ER (barCell c) 0 ∅ 0
    ∗ atPos ER (sendCell c 1) 0 ∅ 0 ∗ atPos ER (recvCell c 1) 0 ∅ 0
    ∗ atPos ER (sendCell c 2) 0 ∅ 0 ∗ atPos ER (recvCell c 2) 0 ∅ 0
    ∗ atPos ER (sendCell c 3) 0 ∅ 0 ∗ atPos ER (recvCell c 3) 0 ∅ 0
    ∗ atPos ER (sendCell c 4) 0 ∅ 0 ∗ atPos ER (recvCell c 4) 0 ∅ 0
    ∗ atPos ER (sendCell c 5) 0 ∅ 0 ∗ atPos ER (recvCell c 5) 0 ∅ 0
    ∗ atPos ER (sendCell c 6) 0 ∅ 0 ∗ atPos ER (recvCell c 6) 0 ∅ 0
    ∗ atPos ER (sendCell c 7) 0 ∅ 0 ∗ atPos ER (recvCell c 7) 0 ∅ 0)

/-- Round 0 of every cell `c` pays is reached. -/
def reacheds (c : Dev nD) : sProp 𝕄 :=
  iprop(reached ER (barCell (px c 1)) 0 ∗ reached ER (recvCell (px c 1) 1) 0 ∗ reached ER (sendCell c 1) 0
    ∗ reached ER (barCell (px c 2)) 0 ∗ reached ER (recvCell (px c 2) 2) 0 ∗ reached ER (sendCell c 2) 0
    ∗ reached ER (barCell (px c 3)) 0 ∗ reached ER (recvCell (px c 3) 3) 0 ∗ reached ER (sendCell c 3) 0
    ∗ reached ER (barCell (px c 4)) 0 ∗ reached ER (recvCell (px c 4) 4) 0 ∗ reached ER (sendCell c 4) 0
    ∗ reached ER (barCell (px c 5)) 0 ∗ reached ER (recvCell (px c 5) 5) 0 ∗ reached ER (sendCell c 5) 0
    ∗ reached ER (barCell (px c 6)) 0 ∗ reached ER (recvCell (px c 6) 6) 0 ∗ reached ER (sendCell c 6) 0
    ∗ reached ER (barCell (px c 7)) 0 ∗ reached ER (recvCell (px c 7) 7) 0 ∗ reached ER (sendCell c 7) 0)

instance reacheds_persistent (c : Dev nD) : BI.Persistent (reacheds (F := F) c) := by unfold reacheds; infer_instance

/-- The tokens of the duties `c` pays: for every nonzero mask `t`, duty `t` of its partner's barrier cell, the duty of its
    partner's receive cell `t`, the duty of its own send cell `t`. -/
def payToks (c : Dev nD) : sProp 𝕄 :=
  iprop(dutyTok ER (barCell (px c 1)) 0 1 ∗ dutyTok ER (recvCell (px c 1) 1) 0 0 ∗ dutyTok ER (sendCell c 1) 0 0
    ∗ dutyTok ER (barCell (px c 2)) 0 2 ∗ dutyTok ER (recvCell (px c 2) 2) 0 0 ∗ dutyTok ER (sendCell c 2) 0 0
    ∗ dutyTok ER (barCell (px c 3)) 0 3 ∗ dutyTok ER (recvCell (px c 3) 3) 0 0 ∗ dutyTok ER (sendCell c 3) 0 0
    ∗ dutyTok ER (barCell (px c 4)) 0 4 ∗ dutyTok ER (recvCell (px c 4) 4) 0 0 ∗ dutyTok ER (sendCell c 4) 0 0
    ∗ dutyTok ER (barCell (px c 5)) 0 5 ∗ dutyTok ER (recvCell (px c 5) 5) 0 0 ∗ dutyTok ER (sendCell c 5) 0 0
    ∗ dutyTok ER (barCell (px c 6)) 0 6 ∗ dutyTok ER (recvCell (px c 6) 6) 0 0 ∗ dutyTok ER (sendCell c 6) 0 0
    ∗ dutyTok ER (barCell (px c 7)) 0 7 ∗ dutyTok ER (recvCell (px c 7) 7) 0 0 ∗ dutyTok ER (sendCell c 7) 0 0)

def ghost (K : GSem nD τ sig → ℕ) (c : Dev nD) : sProp 𝕄 :=
  iprop(invs m K c ∗ positions c ∗ reacheds c ∗ payToks c)

/-- The credit to wait: seven units on the barrier cell, one slot's credit on each receive cell. -/
def waitCreds (c : Dev nD) : sProp 𝕄 :=
  iprop(cred (tallyAt (barCell c) () 7)
    ∗ cred (tallyAt (recvCell c 1) () NS)
    ∗ cred (tallyAt (recvCell c 2) () NS)
    ∗ cred (tallyAt (recvCell c 3) () NS)
    ∗ cred (tallyAt (recvCell c 4) () NS)
    ∗ cred (tallyAt (recvCell c 5) () NS)
    ∗ cred (tallyAt (recvCell c 6) () NS)
    ∗ cred (tallyAt (recvCell c 7) () NS))

/-- The counters of the scoped semaphores no other device touches (the local copies' twelve, and the unused slot 0 of the
    send and receive arrays), at zero. -/
def plainSems (c : Dev nD) : sProp 𝕄 :=
  iprop(semVal ((c : Thread nD τ), SemLoc.dma (1 : DmaSem sig)) 0
    ∗ semVal ((c : Thread nD τ), SemLoc.dma (2 : DmaSem sig)) 0
    ∗ semVal ((c : Thread nD τ), SemLoc.dma (3 : DmaSem sig)) 0
    ∗ semVal ((c : Thread nD τ), SemLoc.dma (4 : DmaSem sig)) 0
    ∗ semVal ((c : Thread nD τ), SemLoc.dma (5 : DmaSem sig)) 0
    ∗ semVal ((c : Thread nD τ), SemLoc.dma (6 : DmaSem sig)) 0
    ∗ semVal ((c : Thread nD τ), SemLoc.dma (7 : DmaSem sig)) 0
    ∗ semVal ((c : Thread nD τ), SemLoc.dma (8 : DmaSem sig)) 0
    ∗ semVal ((c : Thread nD τ), SemLoc.dma (9 : DmaSem sig)) 0
    ∗ semVal ((c : Thread nD τ), SemLoc.dma (10 : DmaSem sig)) 0
    ∗ semVal ((c : Thread nD τ), SemLoc.dma (11 : DmaSem sig)) 0
    ∗ semVal ((c : Thread nD τ), SemLoc.dma (12 : DmaSem sig)) 0
    ∗ semVal ((c : Thread nD τ), SemLoc.dma (13 : DmaSem sig)) 0
    ∗ semVal ((c : Thread nD τ), SemLoc.dma (21 : DmaSem sig)) 0)

/-- The two argument arrays, as launched (each held through its whole memref's view). -/
def argPts (c : Dev nD) : sProp 𝕄 :=
  iprop(((xA).view.loc (c : Thread nD τ) ↦[(xA).view.set]{fullShare} xV m c) ∗ ((wA).view.loc (c : Thread nD τ) ↦[(wA).view.set]{fullShare} wV m c))

/-- The four scratch buffers at some contents. -/
def scratchAny (c : Dev nD) : sProp 𝕄 :=
  iprop((∃ f, (xbM).view.loc (c : Thread nD τ) ↦[(xbM).view.set]{fullShare} f)
    ∗ (∃ f, (wbM).view.loc (c : Thread nD τ) ↦[(wbM).view.set]{fullShare} f)
    ∗ (∃ f, (sbM).view.loc (c : Thread nD τ) ↦[(sbM).view.set]{fullShare} f)
    ∗ (∃ f, (rbM).view.loc (c : Thread nD τ) ↦[(rbM).view.set]{fullShare} f))

/-- What the launch hands device `c` outside the pipeline. -/
def start (c : Dev nD) : sProp 𝕄 :=
  iprop((∃ K, ghost m K c) ∗ waitCreds c ∗ levAts L lv ∗ plainSems c ∗ argPts m c)

/-- Every scoped semaphore of the kernel at zero: the fourteen of `plainSems` and the fourteen cells', closed. -/
def allSems0 (c : Dev nD) : sProp 𝕄 :=
  iprop(plainSems c
    ∗ semVal (sendCell c 1) 0 ∗ semVal (recvCell c 1) 0
    ∗ semVal (sendCell c 2) 0 ∗ semVal (recvCell c 2) 0
    ∗ semVal (sendCell c 3) 0 ∗ semVal (recvCell c 3) 0
    ∗ semVal (sendCell c 4) 0 ∗ semVal (recvCell c 4) 0
    ∗ semVal (sendCell c 5) 0 ∗ semVal (recvCell c 5) 0
    ∗ semVal (sendCell c 6) 0 ∗ semVal (recvCell c 6) 0
    ∗ semVal (sendCell c 7) 0 ∗ semVal (recvCell c 7) 0)

def Φ₀ (c : Dev nD) : sProp 𝕄 := iprop(start m c ∗ scratchAny c)
def Φ₁ (c : Dev nD) : sProp 𝕄 := iprop(argPts m c ∗ scratchAny c ∗ allSems0 c)

def dats (_ : Fin 1) (c : Dev nD) : Dat τ (Elt F) Unit ℕ UU ℕ cfg0 c where
  A w := m ((cfg0.win w).arr.view.loc (c : Thread nD τ))
  after w _ := match w with
    | ⟨0, _⟩ => outV m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.A2A

end
-- ==== Proof.LevelsB.lean ====
/-
  The levels of the exchange's cells, and why no wait is below a debt.

  A device's barrier cell sits at level 1, its seven receive cells at level 2, every other semaphore at level 0. At
  launch a device owes only barrier cells and receive cells of its partners, so it may wait on its local copies
  (level 0) at any time; by the time it waits on its own barrier cell it owes receive cells only (level 2 above level
  1); and it waits on its receive cells owing nothing.
-/
import proofs.«900796_g7700000000000797_dist_gemm_a2a_m4096_k4096_n2048_f32_gelu_v7x_i8_1_alg».proof.Proof.DataB

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The receive semaphores' numbers -/

/-- The receive semaphore of slot `t` is DMA semaphore `21 + t`. -/
theorem recvSem_val (t : Fin 8) : ((recvSA t).sem : DmaSem sig).val = 21 + t.val := by
  fin_cases t <;> rfl

/-- A receive semaphore of a nonzero slot belongs to a slot. -/
theorem recvT_recvSem_isSome (t : Fin 8) (ht : t ≠ 0) : (recvT (SemLoc.dma (recvSA t).sem : SemLoc sig)).isSome = true := by
  have hv := recvSem_val t
  have h0 : t.val ≠ 0 := fun h => ht (Fin.ext h)
  have hl := t.isLt
  show (if h : 22 ≤ ((recvSA t).sem : DmaSem sig).val ∧ ((recvSA t).sem : DmaSem sig).val < 29 then some (⟨((recvSA t).sem : DmaSem sig).val - 21, by omega⟩ : Fin 8) else none).isSome = true
  rw [dif_pos ⟨by omega, by omega⟩]
  rfl

/-- A receive cell is no barrier cell. -/
theorem recvCell_ne_barCell (a c : Dev nD) (t : Fin 8) : recvCell a t ≠ barCell c :=
  fun h => by have e := congrArg Prod.snd h; cases e

/-! ## Who holds a level -/

theorem L_of_ne (g : GSem nD τ sig) (h : g.1.2 ≠ .tc) : L g = ∅ := if_neg h
theorem L_tc (c : Dev nD) (sm : SemLoc sig) : L ((c : Thread nD τ), sm) = {()} := if_pos rfl

/-! ## The levels -/

theorem lv_bar (c : Dev nD) : lv (barCell c) () = 1 := if_pos rfl

theorem lv_recv (c : Dev nD) (t : Fin 8) (ht : t ≠ 0) : lv (recvCell c t) () = 2 := by
  show (if (SemLoc.dma (recvSA t).sem : SemLoc sig) = .reg barS then 1 else if (recvT (SemLoc.dma (recvSA t).sem : SemLoc sig)).isSome then 2 else 0) = 2
  rw [if_neg (fun h => by cases h), if_pos (recvT_recvSem_isSome t ht)]

theorem lv_other (c : Dev nD) (q : DmaSem sig) (hq : recvT (SemLoc.dma q : SemLoc sig) = none) :
    lv ((c : Thread nD τ), .dma q) () = 0 := by
  show (if (SemLoc.dma q : SemLoc sig) = .reg barS then 1 else if (recvT (SemLoc.dma q : SemLoc sig)).isSome then 2 else 0) = 0
  rw [if_neg (fun h => by cases h), hq]
  rfl

/-! ## What a device owes lies at its partners' receive and barrier cells -/

theorem owedRecv_pos {c : Dev nD} {g : GSem nD τ sig} {u : Unit} (h : 0 < owedRecv c g u) :
    ∃ t : Fin 8, t ≠ 0 ∧ g = recvCell (px c t) t := by
  by_contra hn
  have hn' : ∀ t : Fin 8, t ≠ 0 → ¬ (g = recvCell (px c t) t) := fun t ht hg => hn ⟨t, ht, hg⟩
  unfold owedRecv at h
  simp only [Pi.add_apply, Finsupp.add_apply, tallyAt_apply, and_true,
    if_neg (hn' 1 (by decide)),
    if_neg (hn' 2 (by decide)),
    if_neg (hn' 3 (by decide)),
    if_neg (hn' 4 (by decide)),
    if_neg (hn' 5 (by decide)),
    if_neg (hn' 6 (by decide)),
    if_neg (hn' 7 (by decide))] at h
  exact Nat.lt_irrefl 0 h

theorem owedBar_pos {c : Dev nD} {g : GSem nD τ sig} {u : Unit} (h : 0 < owedBar c g u) :
    ∃ t : Fin 8, t ≠ 0 ∧ g = barCell (px c t) := by
  by_contra hn
  have hn' : ∀ t : Fin 8, t ≠ 0 → ¬ (g = barCell (px c t)) := fun t ht hg => hn ⟨t, ht, hg⟩
  unfold owedBar at h
  simp only [Pi.add_apply, Finsupp.add_apply, tallyAt_apply, and_true,
    if_neg (hn' 1 (by decide)),
    if_neg (hn' 2 (by decide)),
    if_neg (hn' 3 (by decide)),
    if_neg (hn' 4 (by decide)),
    if_neg (hn' 5 (by decide)),
    if_neg (hn' 6 (by decide)),
    if_neg (hn' 7 (by decide))] at h
  exact Nat.lt_irrefl 0 h

theorem O₀_pos {c : Dev nD} {g : GSem nD τ sig} {u : Unit} (h : 0 < O₀ c g u) :
    (∃ t : Fin 8, t ≠ 0 ∧ g = recvCell (px c t) t) ∨ (∃ t : Fin 8, t ≠ 0 ∧ g = barCell (px c t)) := by
  unfold O₀ at h
  rw [Pi.add_apply, Finsupp.add_apply] at h
  rcases Nat.add_pos_iff_pos_or_pos.mp h with h1 | h2
  · exact Or.inl (owedRecv_pos h1)
  · exact Or.inr (owedBar_pos h2)

/-! ## The waits -/

omit [FloatOps F] in
/-- A wait on a local copy's semaphore, at level 0, while owing at most barrier and receive cells. -/
theorem mayWait_local (c : Dev nD) (q : DmaSem sig) (hq : recvT (SemLoc.dma q : SemLoc sig) = none) (O : CellTallies nD τ sig Unit)
    (hO : O = O₀ c ∨ O = owedRecv c ∨ O = 0) :
    (levAts L lv : sProp 𝕄) ⊢ MayWait (c : Thread nD τ) (.dma q) () O := by
  have hW : ∀ p ∈ ({(SemLoc.dma q, ())} : Finset (SemLoc sig × Unit)), p.2 ∈ L ((c : Thread nD τ), p.1) := fun p hp => by
    rw [Finset.mem_singleton.mp hp, L_tc]; exact Finset.mem_singleton_self _
  have hWb : ∀ p ∈ ({(SemLoc.dma q, ())} : Finset (SemLoc sig × Unit)), lv ((c : Thread nD τ), p.1) p.2 ≤ 0 := fun p hp => by
    rw [Finset.mem_singleton.mp hp]
    show lv ((c : Thread nD τ), SemLoc.dma q) () ≤ 0
    rw [lv_other c q hq]
  rcases hO with rfl | rfl | rfl
  · refine MayOwe.of_cut (L := L) (lev := lv) 0 hW
      (fun g u hg => by
        cases u
        rcases O₀_pos hg with ⟨t, ht, rfl⟩ | ⟨t, ht, rfl⟩
        · rw [L_tc]; exact Finset.mem_singleton_self _
        · rw [L_tc]; exact Finset.mem_singleton_self _)
      hWb
      (fun g u hg => by
        cases u
        rcases O₀_pos hg with ⟨t, ht, rfl⟩ | ⟨t, ht, rfl⟩
        · rw [lv_recv _ _ ht]; decide
        · rw [lv_bar]; decide)
  · refine MayOwe.of_cut (L := L) (lev := lv) 0 hW
      (fun g u hg => by
        cases u
        obtain ⟨t, ht, rfl⟩ := owedRecv_pos hg
        rw [L_tc]; exact Finset.mem_singleton_self _)
      hWb
      (fun g u hg => by
        cases u
        obtain ⟨t, ht, rfl⟩ := owedRecv_pos hg
        rw [lv_recv _ _ ht]; decide)
  · rw [MayWait_zero]; iintro -; iempintro

omit [FloatOps F] in
/-- At its barrier wait a device owes its partners' receive cells only: level 2, above its barrier cell's level 1. -/
theorem mayWait_bar (c : Dev nD) :
    (levAts L lv : sProp 𝕄) ⊢ MayWait (c : Thread nD τ) (.reg barS) () (owedRecv c) :=
  MayOwe.of_cut (L := L) (lev := lv) 1
    (fun p hp => by rw [Finset.mem_singleton.mp hp, L_tc]; exact Finset.mem_singleton_self _)
    (fun g u hg => by
      cases u
      obtain ⟨t, ht, rfl⟩ := owedRecv_pos hg
      rw [L_tc]; exact Finset.mem_singleton_self _)
    (fun p hp => by
      rw [Finset.mem_singleton.mp hp]
      show lv (barCell c) () ≤ 1
      rw [lv_bar])
    (fun g u hg => by
      cases u
      obtain ⟨t, ht, rfl⟩ := owedRecv_pos hg
      rw [lv_recv _ _ ht]; decide)

omit [FloatOps F] in
/-- Owing nothing, a device may wait on any of its semaphores. -/
theorem mayWait_zero' (c : Dev nD) (sm : SemLoc sig) :
    (levAts L lv : sProp 𝕄) ⊢ MayWait (c : Thread nD τ) sm () 0 := by
  rw [MayWait_zero]; iintro -; iempintro

/-- info: 'Cert.Kernel.A2A.mayWait_local' depends on axioms: [propext, Classical.choice, Quot.sound] -/
#guard_msgs in #print axioms mayWait_local
/-- info: 'Cert.Kernel.A2A.mayWait_bar' depends on axioms: [propext, Classical.choice, Quot.sound] -/
#guard_msgs in #print axioms mayWait_bar

end Cert.Kernel.A2A

end
-- ==== Proof.CreditB.lean ====
/-
  The launch credit: what the other devices owe a device's cells sums to what the device waits for.

  Device d owes the barrier cell of c one unit exactly when c is one of d's seven partners, that is when d is not c: the
  seven other devices together owe it seven units. Device d owes receive cell t of c one slot's credit exactly when c is
  d's partner at mask t, that is when d is c's partner at mask t: one device owes it, one slot's credit.
-/
import proofs.«900796_g7700000000000797_dist_gemm_a2a_m4096_k4096_n2048_f32_gelu_v7x_i8_1_alg».proof.Proof.LevelsB

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Telling cells apart -/

omit [FloatOps F] in
theorem barCell_eq_iff {a b : Dev nD} : Iff (barCell a = barCell b) (a = b) :=
  ⟨fun h => Fin.ext (congrArg (fun g : GSem nD τ sig => g.1.1.val) h), fun h => h ▸ rfl⟩

omit [FloatOps F] in
/-- Receive semaphores of different slots are different semaphores. -/
theorem recvSem_ne {s t : Fin 8} (h : s ≠ t) : (SemLoc.dma (recvSA s).sem : SemLoc sig) ≠ .dma (recvSA t).sem := fun e => by
  have e' := congrArg Fin.val (SemLoc.dma.inj e)
  have h1 := recvSem_val s; have h2 := recvSem_val t
  exact h (Fin.ext (by omega))

omit [FloatOps F] in
/-- Receive cells are the same only on the same device and for the same slot. -/
theorem recvCell_eq_iff {a b : Dev nD} {s t : Fin 8} : Iff (recvCell a s = recvCell b t) (a = b ∧ s = t) :=
  ⟨fun h => ⟨Fin.ext (congrArg (fun g : GSem nD τ sig => g.1.1.val) h),
      Classical.byContradiction fun hst => recvSem_ne hst (congrArg Prod.snd h)⟩,
   fun h => by rw [h.1, h.2]⟩

/-! ## One summand of a debt, read at a cell -/

omit [FloatOps F] in
theorem tally_bar_bar (a c : Dev nD) (k : ℕ) : tallyAt (barCell a) () k (barCell c) () = if c = a then k else 0 := by
  rw [tallyAt_apply]
  by_cases h : c = a
  · subst h; rw [if_pos ⟨rfl, rfl⟩, if_pos rfl]
  · rw [if_neg (fun h' => h (barCell_eq_iff.mp h'.1)), if_neg h]

omit [FloatOps F] in
theorem tally_recv_recv (a c : Dev nD) (s t : Fin 8) (k : ℕ) :
    tallyAt (recvCell a s) () k (recvCell c t) () = if c = a ∧ t = s then k else 0 := by
  rw [tallyAt_apply]
  by_cases h : c = a ∧ t = s
  · rw [if_pos h, h.1, h.2, if_pos ⟨rfl, rfl⟩]
  · rw [if_neg h, if_neg (fun h' => h (recvCell_eq_iff.mp h'.1))]

omit [FloatOps F] in
theorem tally_recv_bar (a c : Dev nD) (s : Fin 8) (k : ℕ) : tallyAt (recvCell a s) () k (barCell c) () = 0 := by
  rw [tallyAt_ne_cell (fun h => recvCell_ne_barCell a c s h.symm)]; rfl

omit [FloatOps F] in
theorem tally_bar_recv (a c : Dev nD) (t : Fin 8) (k : ℕ) : tallyAt (barCell a) () k (recvCell c t) () = 0 := by
  rw [tallyAt_ne_cell (recvCell_ne_barCell c a t)]; rfl

/-! ## Counting the partners -/

/-- Among the seven partners of d, c occurs once if it is another device and never if it is d. -/
theorem bar_count (d c : Dev nD) :
    (if c = px d 1 then 1 else 0) + (if c = px d 2 then 1 else 0) + (if c = px d 3 then 1 else 0) + (if c = px d 4 then 1 else 0)
      + (if c = px d 5 then 1 else 0) + (if c = px d 6 then 1 else 0) + (if c = px d 7 then 1 else 0) = if d = c then 0 else 1 := by
  revert d c; decide +kernel

/-- Of the seven receive debts of d, the one at slot t lands on c exactly when d is c's partner at mask t. -/
theorem recv_count (k : ℕ) (d c : Dev nD) (t : Fin 8) (ht : t ≠ 0) :
    (if c = px d 1 ∧ t = 1 then k else 0) + (if c = px d 2 ∧ t = 2 then k else 0) + (if c = px d 3 ∧ t = 3 then k else 0)
      + (if c = px d 4 ∧ t = 4 then k else 0) + (if c = px d 5 ∧ t = 5 then k else 0) + (if c = px d 6 ∧ t = 6 then k else 0)
      + (if c = px d 7 ∧ t = 7 then k else 0) = if d = px c t then k else 0 := by
  have hsym : ∀ s : Fin 8, (c = px d s) = (d = px c s) := fun s =>
    propext ⟨fun h => ((px_eq_iff d c s).mp h.symm).symm, fun h => ((px_eq_iff c d s).mp h.symm).symm⟩
  fin_cases t
  · exact absurd rfl ht
  all_goals simp [hsym]

/-! ## What one device owes another's cells -/

omit [FloatOps F] in
theorem owedRecv_bar (d c : Dev nD) : owedRecv d (barCell c) () = 0 := by
  unfold owedRecv
  simp only [Pi.add_apply, Finsupp.add_apply, tally_recv_bar (px d 1) c 1, tally_recv_bar (px d 2) c 2, tally_recv_bar (px d 3) c 3, tally_recv_bar (px d 4) c 4, tally_recv_bar (px d 5) c 5, tally_recv_bar (px d 6) c 6, tally_recv_bar (px d 7) c 7, Nat.add_zero]

omit [FloatOps F] in
theorem owedBar_bar (d c : Dev nD) : owedBar d (barCell c) () = if d = c then 0 else 1 := by
  unfold owedBar
  simp only [Pi.add_apply, Finsupp.add_apply, tally_bar_bar]
  exact bar_count d c

omit [FloatOps F] in
theorem owed_bar (d c : Dev nD) : O₀ d (barCell c) () = if d = c then 0 else 1 := by
  unfold O₀
  rw [Pi.add_apply, Finsupp.add_apply, owedRecv_bar, owedBar_bar, Nat.zero_add]

omit [FloatOps F] in
theorem owedBar_recv (d c : Dev nD) (t : Fin 8) : owedBar d (recvCell c t) () = 0 := by
  unfold owedBar
  simp only [Pi.add_apply, Finsupp.add_apply, tally_bar_recv, Nat.add_zero]

omit [FloatOps F] in
theorem owedRecv_recv (d c : Dev nD) (t : Fin 8) (ht : t ≠ 0) : owedRecv d (recvCell c t) () = if d = px c t then NS else 0 := by
  unfold owedRecv
  simp only [Pi.add_apply, Finsupp.add_apply, tally_recv_recv (px d 1) c 1 t, tally_recv_recv (px d 2) c 2 t, tally_recv_recv (px d 3) c 3 t, tally_recv_recv (px d 4) c 4 t, tally_recv_recv (px d 5) c 5 t, tally_recv_recv (px d 6) c 6 t, tally_recv_recv (px d 7) c 7 t]
  exact recv_count NS d c t ht

omit [FloatOps F] in
theorem owed_recv (d c : Dev nD) (t : Fin 8) (ht : t ≠ 0) : O₀ d (recvCell c t) () = if d = px c t then NS else 0 := by
  unfold O₀
  rw [Pi.add_apply, Finsupp.add_apply, owedRecv_recv d c t ht, owedBar_recv, Nat.add_zero]

/-! ## The launch credit of a device's cells -/

omit [FloatOps F] in
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel

omit [FloatOps F] in
theorem launch_recv (c : Dev nD) (t : Fin 8) (ht : t ≠ 0) :
    tallyOn (recvCell c t) (launchCredit (Pipeline.owing O₀) 0 (recvCell c t)) = (tallyAt (recvCell c t) () NS : CellTallies nD τ sig Unit) := by
  unfold tallyAt; refine congrArg _ (Finsupp.ext fun u => ?_); cases u
  rw [Pipeline.launchCredit_owing, Finsupp.single_eq_same, Finset.sum_congr rfl fun d _ => owed_recv d c t ht,
    Finset.sum_ite_eq' Finset.univ (px c t) fun _ => NS, if_pos (Finset.mem_univ _)]

/-! ## The credit a device starts with -/

omit [FloatOps F] in
/-- One factor of a product over a finite set, split off. -/
theorem peel {s : Finset (SemLoc sig)} {Φ : SemLoc sig → sProp 𝕄} {i : SemLoc sig} (hi : i ∈ s) {P R : sProp 𝕄}
    (hP : Φ i ⊢ P) (hR : bigSep (s.erase i) Φ ⊢ R) : bigSep s Φ ⊢ iprop(P ∗ R) := by
  rw [bigSep_erase hi]; exact BIClass.sep_mono hP hR

omit [FloatOps F] in
/-- One factor of a product over a finite set, the rest dropped. -/
theorem pickCell {s : Finset (SemLoc sig)} {Φ : SemLoc sig → sProp 𝕄} {i : SemLoc sig} (hi : i ∈ s) {P : sProp 𝕄}
    (hP : Φ i ⊢ P) : bigSep s Φ ⊢ P := (bigSep_elim hi).trans hP

omit [FloatOps F] in
theorem recvSem_ne_bar (t : Fin 8) : (SemLoc.dma (recvSA t).sem : SemLoc sig) ≠ .reg barS := fun h => by cases h

omit [FloatOps F] in
theorem creds (c : Dev nD) : (Pipeline.launchCred O₀ c : sProp 𝕄) ⊢ waitCreds c := by
  unfold Pipeline.launchCred waitCreds
  refine peel (i := SemLoc.reg barS) (Finset.mem_univ _) (Entails.of_eq (by rw [launch_bar])) ?_
  refine peel (i := SemLoc.dma (recvSA 1).sem) (Finset.mem_erase.mpr ⟨recvSem_ne_bar _, Finset.mem_univ _⟩) (Entails.of_eq (by rw [launch_recv c 1 (by decide)])) ?_
  refine peel (i := SemLoc.dma (recvSA 2).sem) (Finset.mem_erase.mpr ⟨recvSem_ne (by decide), Finset.mem_erase.mpr ⟨recvSem_ne_bar _, Finset.mem_univ _⟩⟩) (Entails.of_eq (by rw [launch_recv c 2 (by decide)])) ?_
  refine peel (i := SemLoc.dma (recvSA 3).sem) (Finset.mem_erase.mpr ⟨recvSem_ne (by decide), Finset.mem_erase.mpr ⟨recvSem_ne (by decide), Finset.mem_erase.mpr ⟨recvSem_ne_bar _, Finset.mem_univ _⟩⟩⟩) (Entails.of_eq (by rw [launch_recv c 3 (by decide)])) ?_
  refine peel (i := SemLoc.dma (recvSA 4).sem) (Finset.mem_erase.mpr ⟨recvSem_ne (by decide), Finset.mem_erase.mpr ⟨recvSem_ne (by decide), Finset.mem_erase.mpr ⟨recvSem_ne (by decide), Finset.mem_erase.mpr ⟨recvSem_ne_bar _, Finset.mem_univ _⟩⟩⟩⟩) (Entails.of_eq (by rw [launch_recv c 4 (by decide)])) ?_
  refine peel (i := SemLoc.dma (recvSA 5).sem) (Finset.mem_erase.mpr ⟨recvSem_ne (by decide), Finset.mem_erase.mpr ⟨recvSem_ne (by decide), Finset.mem_erase.mpr ⟨recvSem_ne (by decide), Finset.mem_erase.mpr ⟨recvSem_ne (by decide), Finset.mem_erase.mpr ⟨recvSem_ne_bar _, Finset.mem_univ _⟩⟩⟩⟩⟩) (Entails.of_eq (by rw [launch_recv c 5 (by decide)])) ?_
  refine peel (i := SemLoc.dma (recvSA 6).sem) (Finset.mem_erase.mpr ⟨recvSem_ne (by decide), Finset.mem_erase.mpr ⟨recvSem_ne (by decide), Finset.mem_erase.mpr ⟨recvSem_ne (by decide), Finset.mem_erase.mpr ⟨recvSem_ne (by decide), Finset.mem_erase.mpr ⟨recvSem_ne (by decide), Finset.mem_erase.mpr ⟨recvSem_ne_bar _, Finset.mem_univ _⟩⟩⟩⟩⟩⟩) (Entails.of_eq (by rw [launch_recv c 6 (by decide)])) ?_
  exact pickCell (i := SemLoc.dma (recvSA 7).sem) (Finset.mem_erase.mpr ⟨recvSem_ne (by decide), Finset.mem_erase.mpr ⟨recvSem_ne (by decide), Finset.mem_erase.mpr ⟨recvSem_ne (by decide), Finset.mem_erase.mpr ⟨recvSem_ne (by decide), Finset.mem_erase.mpr ⟨recvSem_ne (by decide), Finset.mem_erase.mpr ⟨recvSem_ne (by decide), Finset.mem_erase.mpr ⟨recvSem_ne_bar _, Finset.mem_univ _⟩⟩⟩⟩⟩⟩⟩) (Entails.of_eq (by rw [launch_recv c 7 (by decide)]))

/-- info: 'Cert.Kernel.A2A.creds' depends on axioms: [propext, Classical.choice, Quot.sound] -/
#guard_msgs in #print axioms creds

end Cert.Kernel.A2A

end
-- ==== Proof.SchedTabB.lean ====
/-
  The schedule's tables: for each cell of the exchange, its duties, their amounts, the units it expects and what each
  payment hands over, as equations with the table entry on the left.

  The send semaphores of the slots 0..7 are the DMA semaphores 13..20 and the receive semaphores 21..28, so a semaphore's
  number tells which kind of cell it is and of which slot; the barrier semaphore is a regular one and is neither. The one
  round of a barrier cell has the seven nonzero masks as duties, one unit each: seven units. The one round of a send or
  receive cell of a nonzero slot has the single duty 0 of one slot's credit. No cell has a later round.
-/
import proofs.«900796_g7700000000000797_dist_gemm_a2a_m4096_k4096_n2048_f32_gelu_v7x_i8_1_alg».proof.Proof.SchedB

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The semaphores' numbers, and which slot a semaphore belongs to -/

/-- The send semaphore of slot `t` is DMA semaphore `13 + t`. -/
theorem sendSA_val (t : Fin 8) : ((sendSA t).sem : DmaSem sig).val = 13 + t.val := by
  fin_cases t <;> rfl
/-- The receive semaphore of slot `t` is DMA semaphore `21 + t`. -/
theorem recvSA_val (t : Fin 8) : ((recvSA t).sem : DmaSem sig).val = 21 + t.val := by
  fin_cases t <;> rfl

theorem recvT_dma (q : DmaSem sig) :
    recvT (SemLoc.dma q) = if h : 22 ≤ q.val ∧ q.val < 29 then some ⟨q.val - 21, by omega⟩ else none := rfl
theorem sendT_dma (q : DmaSem sig) :
    sendT (SemLoc.dma q) = if h : 14 ≤ q.val ∧ q.val < 21 then some ⟨q.val - 13, by omega⟩ else none := rfl

theorem recvT_recv (t : Fin 8) (ht : t ≠ 0) : recvT (SemLoc.dma (recvSA t).sem) = some t := by
  have hv := recvSA_val t
  have h0 : t.val ≠ 0 := fun h => ht (Fin.ext h)
  have hl := t.isLt
  rw [recvT_dma, dif_pos ⟨by omega, by omega⟩]
  exact congrArg some (Fin.ext (by show ((recvSA t).sem : DmaSem sig).val - 21 = t.val; omega))
theorem sendT_send (t : Fin 8) (ht : t ≠ 0) : sendT (SemLoc.dma (sendSA t).sem) = some t := by
  have hv := sendSA_val t
  have h0 : t.val ≠ 0 := fun h => ht (Fin.ext h)
  have hl := t.isLt
  rw [sendT_dma, dif_pos ⟨by omega, by omega⟩]
  exact congrArg some (Fin.ext (by show ((sendSA t).sem : DmaSem sig).val - 13 = t.val; omega))
theorem recvT_send (t : Fin 8) : recvT (SemLoc.dma (sendSA t).sem) = none := by
  have hv := sendSA_val t
  have hl := t.isLt
  rw [recvT_dma, dif_neg (fun h => by omega)]
theorem sendT_recv (t : Fin 8) : sendT (SemLoc.dma (recvSA t).sem) = none := by
  have hv := recvSA_val t
  have hl := t.isLt
  rw [sendT_dma, dif_neg (fun h => by omega)]
theorem recvT_bar : recvT (SemLoc.reg barS : SemLoc sig) = none := rfl
theorem sendT_bar : sendT (SemLoc.reg barS : SemLoc sig) = none := rfl

theorem send_ne_bar (t : Fin 8) : (SemLoc.dma (sendSA t).sem : SemLoc sig) ≠ .reg barS := fun h => by cases h
theorem recv_ne_bar (t : Fin 8) : (SemLoc.dma (recvSA t).sem : SemLoc sig) ≠ .reg barS := fun h => by cases h
theorem send_ne_recv (t t' : Fin 8) : (SemLoc.dma (sendSA t).sem : SemLoc sig) ≠ .dma (recvSA t').sem := fun h => by
  have e := congrArg Fin.val (SemLoc.dma.inj h)
  have h1 := sendSA_val t; have h2 := recvSA_val t'; have hl := t.isLt
  omega
theorem recv_ne_send (t t' : Fin 8) : (SemLoc.dma (recvSA t).sem : SemLoc sig) ≠ .dma (sendSA t').sem :=
  fun h => send_ne_recv t' t h.symm
theorem sendSA_inj {t t' : Fin 8} (h : t ≠ t') : (sendSA t).sem ≠ (sendSA t').sem := fun e => by
  have e' := congrArg Fin.val e
  have h1 := sendSA_val t; have h2 := sendSA_val t'
  exact h (Fin.ext (by omega))
theorem recvSA_inj {t t' : Fin 8} (h : t ≠ t') : (recvSA t).sem ≠ (recvSA t').sem := fun e => by
  have e' := congrArg Fin.val e
  have h1 := recvSA_val t; have h2 := recvSA_val t'
  exact h (Fin.ext (by omega))

theorem not_bar_send (c : Dev nD) (t : Fin 8) : ¬ IsBar (sendCell c t) := fun h => send_ne_bar t h.2
theorem not_bar_recv (c : Dev nD) (t : Fin 8) : ¬ IsBar (recvCell c t) := fun h => recv_ne_bar t h.2

/-! ## Duties -/

theorem duties_bar (c : Dev nD) : (sched m).duties (barCell c) 0 = Finset.univ.erase 0 := by
  dsimp only [sched]; exact if_pos ⟨rfl, rfl, rfl⟩
theorem duties_send (c : Dev nD) (t : Fin 8) (ht : t ≠ 0) : (sched m).duties (sendCell c t) 0 = {0} := by
  dsimp only [sched]; rw [if_neg (fun h => not_bar_send c t h.2)]
  exact if_pos ⟨rfl, rfl, .inr (by show (sendT (SemLoc.dma (sendSA t).sem)).isSome = true; rw [sendT_send t ht]; rfl)⟩
theorem duties_recv (c : Dev nD) (t : Fin 8) (ht : t ≠ 0) : (sched m).duties (recvCell c t) 0 = {0} := by
  dsimp only [sched]; rw [if_neg (fun h => not_bar_recv c t h.2)]
  exact if_pos ⟨rfl, rfl, .inl (by show (recvT (SemLoc.dma (recvSA t).sem)).isSome = true; rw [recvT_recv t ht]; rfl)⟩
theorem duties_later (g : GSem nD τ sig) : ∀ r, 1 ≤ r → (sched m).duties g r = ∅ :=
  fun r hr => by dsimp only [sched]; rw [if_neg fun h => by omega, if_neg fun h => by omega]

/-! ## Amounts and expected units -/

theorem amount_bar (c : Dev nD) (d : Fin 8) : (sched m).amount (barCell c) 0 d = 1 := by
  dsimp only [sched]; exact if_pos rfl
theorem amount_send (c : Dev nD) (t d : Fin 8) : (sched m).amount (sendCell c t) 0 d = NS := by
  dsimp only [sched]; exact if_neg (send_ne_bar t)
theorem amount_recv (c : Dev nD) (t d : Fin 8) : (sched m).amount (recvCell c t) 0 d = NS := by
  dsimp only [sched]; exact if_neg (recv_ne_bar t)

theorem expect_bar (c : Dev nD) : (sched m).expect (barCell c) 0 = 7 := by
  unfold Schedule.expect Schedule.amountOf
  rw [duties_bar, Finset.sum_congr rfl fun d _ => amount_bar m c d, Finset.sum_const, smul_eq_mul, mul_one]
  decide
theorem expect_send (c : Dev nD) (t : Fin 8) (ht : t ≠ 0) : (sched m).expect (sendCell c t) 0 = NS := by
  unfold Schedule.expect Schedule.amountOf; rw [duties_send m c t ht, Finset.sum_singleton, amount_send]
theorem expect_recv (c : Dev nD) (t : Fin 8) (ht : t ≠ 0) : (sched m).expect (recvCell c t) 0 = NS := by
  unfold Schedule.expect Schedule.amountOf; rw [duties_recv m c t ht, Finset.sum_singleton, amount_recv]

/-! ## Payloads -/

theorem payload_bar (c : Dev nD) (t : Fin 8) : (sched m).payload (barCell c) 0 t = barPay c t := by
  dsimp only [sched]; exact if_pos rfl
theorem payload_send (c : Dev nD) (t : Fin 8) (ht : t ≠ 0) (d : Fin 8) :
    (sched m).payload (sendCell c t) 0 d = sendPay m c t := by
  dsimp only [sched]; rw [if_neg (send_ne_bar t), recvT_send t, sendT_send t ht]
theorem payload_recv (c : Dev nD) (t : Fin 8) (ht : t ≠ 0) (d : Fin 8) :
    (sched m).payload (recvCell c t) 0 d = recvPay m c t := by
  dsimp only [sched]; rw [if_neg (recv_ne_bar t), recvT_recv t ht]

/-- The rest of a barrier cell's round, no duty taken: the seven payloads in the order of the masks. -/
theorem rest_bar (c : Dev nD) :
    bigSep ((sched m).duties (barCell c) 0 \ ∅) (fun d => (sched m).payload (barCell c) 0 d)
      = iprop(barPay c 1 ∗ barPay c 2 ∗ barPay c 3 ∗ barPay c 4 ∗ barPay c 5 ∗ barPay c 6 ∗ barPay c 7) := by
  rw [Finset.sdiff_empty, duties_bar, bigSep_eq_bigSepL_of_eq [1, 2, 3, 4, 5, 6, 7] (by decide) (by decide)]
  simp only [bigSepL_cons_cons, bigSepL_singleton, payload_bar]
  rfl
theorem rest_send (c : Dev nD) (t : Fin 8) (ht : t ≠ 0) :
    bigSep ((sched m).duties (sendCell c t) 0 \ ∅) (fun d => (sched m).payload (sendCell c t) 0 d) = sendPay m c t := by
  rw [Finset.sdiff_empty, duties_send m c t ht, bigSep_singleton, payload_send m c t ht]
theorem rest_recv (c : Dev nD) (t : Fin 8) (ht : t ≠ 0) :
    bigSep ((sched m).duties (recvCell c t) 0 \ ∅) (fun d => (sched m).payload (recvCell c t) 0 d) = recvPay m c t := by
  rw [Finset.sdiff_empty, duties_recv m c t ht, bigSep_singleton, payload_recv m c t ht]

/-! ## The tables at each nonzero slot, with no side condition -/

theorem recvT_recv_1 : recvT (SemLoc.dma (recvSA 1).sem : SemLoc sig) = some 1 := recvT_recv 1 (by decide)
theorem sendT_send_1 : sendT (SemLoc.dma (sendSA 1).sem : SemLoc sig) = some 1 := sendT_send 1 (by decide)
theorem duties_send_1 (c : Dev nD) : (sched m).duties (sendCell c 1) 0 = {0} := duties_send m c 1 (by decide)
theorem duties_recv_1 (c : Dev nD) : (sched m).duties (recvCell c 1) 0 = {0} := duties_recv m c 1 (by decide)
theorem expect_send_1 (c : Dev nD) : (sched m).expect (sendCell c 1) 0 = NS := expect_send m c 1 (by decide)
theorem expect_recv_1 (c : Dev nD) : (sched m).expect (recvCell c 1) 0 = NS := expect_recv m c 1 (by decide)
theorem payload_send_1 (c : Dev nD) (d : Fin 8) : (sched m).payload (sendCell c 1) 0 d = sendPay m c 1 := payload_send m c 1 (by decide) d
theorem payload_recv_1 (c : Dev nD) (d : Fin 8) : (sched m).payload (recvCell c 1) 0 d = recvPay m c 1 := payload_recv m c 1 (by decide) d
theorem rest_send_1 (c : Dev nD) :
    bigSep ((sched m).duties (sendCell c 1) 0 \ ∅) (fun d => (sched m).payload (sendCell c 1) 0 d) = sendPay m c 1 := rest_send m c 1 (by decide)
theorem rest_recv_1 (c : Dev nD) :
    bigSep ((sched m).duties (recvCell c 1) 0 \ ∅) (fun d => (sched m).payload (recvCell c 1) 0 d) = recvPay m c 1 := rest_recv m c 1 (by decide)

theorem recvT_recv_2 : recvT (SemLoc.dma (recvSA 2).sem : SemLoc sig) = some 2 := recvT_recv 2 (by decide)
theorem sendT_send_2 : sendT (SemLoc.dma (sendSA 2).sem : SemLoc sig) = some 2 := sendT_send 2 (by decide)
theorem duties_send_2 (c : Dev nD) : (sched m).duties (sendCell c 2) 0 = {0} := duties_send m c 2 (by decide)
theorem duties_recv_2 (c : Dev nD) : (sched m).duties (recvCell c 2) 0 = {0} := duties_recv m c 2 (by decide)
theorem expect_send_2 (c : Dev nD) : (sched m).expect (sendCell c 2) 0 = NS := expect_send m c 2 (by decide)
theorem expect_recv_2 (c : Dev nD) : (sched m).expect (recvCell c 2) 0 = NS := expect_recv m c 2 (by decide)
theorem payload_send_2 (c : Dev nD) (d : Fin 8) : (sched m).payload (sendCell c 2) 0 d = sendPay m c 2 := payload_send m c 2 (by decide) d
theorem payload_recv_2 (c : Dev nD) (d : Fin 8) : (sched m).payload (recvCell c 2) 0 d = recvPay m c 2 := payload_recv m c 2 (by decide) d
theorem rest_send_2 (c : Dev nD) :
    bigSep ((sched m).duties (sendCell c 2) 0 \ ∅) (fun d => (sched m).payload (sendCell c 2) 0 d) = sendPay m c 2 := rest_send m c 2 (by decide)
theorem rest_recv_2 (c : Dev nD) :
    bigSep ((sched m).duties (recvCell c 2) 0 \ ∅) (fun d => (sched m).payload (recvCell c 2) 0 d) = recvPay m c 2 := rest_recv m c 2 (by decide)

theorem recvT_recv_3 : recvT (SemLoc.dma (recvSA 3).sem : SemLoc sig) = some 3 := recvT_recv 3 (by decide)
theorem sendT_send_3 : sendT (SemLoc.dma (sendSA 3).sem : SemLoc sig) = some 3 := sendT_send 3 (by decide)
theorem duties_send_3 (c : Dev nD) : (sched m).duties (sendCell c 3) 0 = {0} := duties_send m c 3 (by decide)
theorem duties_recv_3 (c : Dev nD) : (sched m).duties (recvCell c 3) 0 = {0} := duties_recv m c 3 (by decide)
theorem expect_send_3 (c : Dev nD) : (sched m).expect (sendCell c 3) 0 = NS := expect_send m c 3 (by decide)
theorem expect_recv_3 (c : Dev nD) : (sched m).expect (recvCell c 3) 0 = NS := expect_recv m c 3 (by decide)
theorem payload_send_3 (c : Dev nD) (d : Fin 8) : (sched m).payload (sendCell c 3) 0 d = sendPay m c 3 := payload_send m c 3 (by decide) d
theorem payload_recv_3 (c : Dev nD) (d : Fin 8) : (sched m).payload (recvCell c 3) 0 d = recvPay m c 3 := payload_recv m c 3 (by decide) d
theorem rest_send_3 (c : Dev nD) :
    bigSep ((sched m).duties (sendCell c 3) 0 \ ∅) (fun d => (sched m).payload (sendCell c 3) 0 d) = sendPay m c 3 := rest_send m c 3 (by decide)
theorem rest_recv_3 (c : Dev nD) :
    bigSep ((sched m).duties (recvCell c 3) 0 \ ∅) (fun d => (sched m).payload (recvCell c 3) 0 d) = recvPay m c 3 := rest_recv m c 3 (by decide)

theorem recvT_recv_4 : recvT (SemLoc.dma (recvSA 4).sem : SemLoc sig) = some 4 := recvT_recv 4 (by decide)
theorem sendT_send_4 : sendT (SemLoc.dma (sendSA 4).sem : SemLoc sig) = some 4 := sendT_send 4 (by decide)
theorem duties_send_4 (c : Dev nD) : (sched m).duties (sendCell c 4) 0 = {0} := duties_send m c 4 (by decide)
theorem duties_recv_4 (c : Dev nD) : (sched m).duties (recvCell c 4) 0 = {0} := duties_recv m c 4 (by decide)
theorem expect_send_4 (c : Dev nD) : (sched m).expect (sendCell c 4) 0 = NS := expect_send m c 4 (by decide)
theorem expect_recv_4 (c : Dev nD) : (sched m).expect (recvCell c 4) 0 = NS := expect_recv m c 4 (by decide)
theorem payload_send_4 (c : Dev nD) (d : Fin 8) : (sched m).payload (sendCell c 4) 0 d = sendPay m c 4 := payload_send m c 4 (by decide) d
theorem payload_recv_4 (c : Dev nD) (d : Fin 8) : (sched m).payload (recvCell c 4) 0 d = recvPay m c 4 := payload_recv m c 4 (by decide) d
theorem rest_send_4 (c : Dev nD) :
    bigSep ((sched m).duties (sendCell c 4) 0 \ ∅) (fun d => (sched m).payload (sendCell c 4) 0 d) = sendPay m c 4 := rest_send m c 4 (by decide)
theorem rest_recv_4 (c : Dev nD) :
    bigSep ((sched m).duties (recvCell c 4) 0 \ ∅) (fun d => (sched m).payload (recvCell c 4) 0 d) = recvPay m c 4 := rest_recv m c 4 (by decide)

theorem recvT_recv_5 : recvT (SemLoc.dma (recvSA 5).sem : SemLoc sig) = some 5 := recvT_recv 5 (by decide)
theorem sendT_send_5 : sendT (SemLoc.dma (sendSA 5).sem : SemLoc sig) = some 5 := sendT_send 5 (by decide)
theorem duties_send_5 (c : Dev nD) : (sched m).duties (sendCell c 5) 0 = {0} := duties_send m c 5 (by decide)
theorem duties_recv_5 (c : Dev nD) : (sched m).duties (recvCell c 5) 0 = {0} := duties_recv m c 5 (by decide)
theorem expect_send_5 (c : Dev nD) : (sched m).expect (sendCell c 5) 0 = NS := expect_send m c 5 (by decide)
theorem expect_recv_5 (c : Dev nD) : (sched m).expect (recvCell c 5) 0 = NS := expect_recv m c 5 (by decide)
theorem payload_send_5 (c : Dev nD) (d : Fin 8) : (sched m).payload (sendCell c 5) 0 d = sendPay m c 5 := payload_send m c 5 (by decide) d
theorem payload_recv_5 (c : Dev nD) (d : Fin 8) : (sched m).payload (recvCell c 5) 0 d = recvPay m c 5 := payload_recv m c 5 (by decide) d
theorem rest_send_5 (c : Dev nD) :
    bigSep ((sched m).duties (sendCell c 5) 0 \ ∅) (fun d => (sched m).payload (sendCell c 5) 0 d) = sendPay m c 5 := rest_send m c 5 (by decide)
theorem rest_recv_5 (c : Dev nD) :
    bigSep ((sched m).duties (recvCell c 5) 0 \ ∅) (fun d => (sched m).payload (recvCell c 5) 0 d) = recvPay m c 5 := rest_recv m c 5 (by decide)

theorem recvT_recv_6 : recvT (SemLoc.dma (recvSA 6).sem : SemLoc sig) = some 6 := recvT_recv 6 (by decide)
theorem sendT_send_6 : sendT (SemLoc.dma (sendSA 6).sem : SemLoc sig) = some 6 := sendT_send 6 (by decide)
theorem duties_send_6 (c : Dev nD) : (sched m).duties (sendCell c 6) 0 = {0} := duties_send m c 6 (by decide)
theorem duties_recv_6 (c : Dev nD) : (sched m).duties (recvCell c 6) 0 = {0} := duties_recv m c 6 (by decide)
theorem expect_send_6 (c : Dev nD) : (sched m).expect (sendCell c 6) 0 = NS := expect_send m c 6 (by decide)
theorem expect_recv_6 (c : Dev nD) : (sched m).expect (recvCell c 6) 0 = NS := expect_recv m c 6 (by decide)
theorem payload_send_6 (c : Dev nD) (d : Fin 8) : (sched m).payload (sendCell c 6) 0 d = sendPay m c 6 := payload_send m c 6 (by decide) d
theorem payload_recv_6 (c : Dev nD) (d : Fin 8) : (sched m).payload (recvCell c 6) 0 d = recvPay m c 6 := payload_recv m c 6 (by decide) d
theorem rest_send_6 (c : Dev nD) :
    bigSep ((sched m).duties (sendCell c 6) 0 \ ∅) (fun d => (sched m).payload (sendCell c 6) 0 d) = sendPay m c 6 := rest_send m c 6 (by decide)
theorem rest_recv_6 (c : Dev nD) :
    bigSep ((sched m).duties (recvCell c 6) 0 \ ∅) (fun d => (sched m).payload (recvCell c 6) 0 d) = recvPay m c 6 := rest_recv m c 6 (by decide)

theorem recvT_recv_7 : recvT (SemLoc.dma (recvSA 7).sem : SemLoc sig) = some 7 := recvT_recv 7 (by decide)
theorem sendT_send_7 : sendT (SemLoc.dma (sendSA 7).sem : SemLoc sig) = some 7 := sendT_send 7 (by decide)
theorem duties_send_7 (c : Dev nD) : (sched m).duties (sendCell c 7) 0 = {0} := duties_send m c 7 (by decide)
theorem duties_recv_7 (c : Dev nD) : (sched m).duties (recvCell c 7) 0 = {0} := duties_recv m c 7 (by decide)
theorem expect_send_7 (c : Dev nD) : (sched m).expect (sendCell c 7) 0 = NS := expect_send m c 7 (by decide)
theorem expect_recv_7 (c : Dev nD) : (sched m).expect (recvCell c 7) 0 = NS := expect_recv m c 7 (by decide)
theorem payload_send_7 (c : Dev nD) (d : Fin 8) : (sched m).payload (sendCell c 7) 0 d = sendPay m c 7 := payload_send m c 7 (by decide) d
theorem payload_recv_7 (c : Dev nD) (d : Fin 8) : (sched m).payload (recvCell c 7) 0 d = recvPay m c 7 := payload_recv m c 7 (by decide) d
theorem rest_send_7 (c : Dev nD) :
    bigSep ((sched m).duties (sendCell c 7) 0 \ ∅) (fun d => (sched m).payload (sendCell c 7) 0 d) = sendPay m c 7 := rest_send m c 7 (by decide)
theorem rest_recv_7 (c : Dev nD) :
    bigSep ((sched m).duties (recvCell c 7) 0 \ ∅) (fun d => (sched m).payload (recvCell c 7) 0 d) = recvPay m c 7 := rest_recv m c 7 (by decide)

/-! ## The payloads at each nonzero slot, spelt out -/

theorem barPay_unfold_1 (c : Dev nD) :
    barPay (F := F) c 1 = iprop(∃ f, (rM 1).view.loc (px c 1 : Thread nD τ) ↦[(rM 1).view.set]{fullShare} f) := rfl
theorem recvPay_1 (c : Dev nD) :
    recvPay m c 1 = ((rM 1).view.loc (c : Thread nD τ) ↦[(rM 1).view.set]{fullShare} recvV m c) := rfl
theorem sendPay_1 (c : Dev nD) :
    sendPay m c 1 = ((sM 1).view.loc (c : Thread nD τ) ↦[(sM 1).view.set]{fullShare} sendV m c) := rfl
theorem barPay_unfold_2 (c : Dev nD) :
    barPay (F := F) c 2 = iprop(∃ f, (rM 2).view.loc (px c 2 : Thread nD τ) ↦[(rM 2).view.set]{fullShare} f) := rfl
theorem recvPay_2 (c : Dev nD) :
    recvPay m c 2 = ((rM 2).view.loc (c : Thread nD τ) ↦[(rM 2).view.set]{fullShare} recvV m c) := rfl
theorem sendPay_2 (c : Dev nD) :
    sendPay m c 2 = ((sM 2).view.loc (c : Thread nD τ) ↦[(sM 2).view.set]{fullShare} sendV m c) := rfl
theorem barPay_unfold_3 (c : Dev nD) :
    barPay (F := F) c 3 = iprop(∃ f, (rM 3).view.loc (px c 3 : Thread nD τ) ↦[(rM 3).view.set]{fullShare} f) := rfl
theorem recvPay_3 (c : Dev nD) :
    recvPay m c 3 = ((rM 3).view.loc (c : Thread nD τ) ↦[(rM 3).view.set]{fullShare} recvV m c) := rfl
theorem sendPay_3 (c : Dev nD) :
    sendPay m c 3 = ((sM 3).view.loc (c : Thread nD τ) ↦[(sM 3).view.set]{fullShare} sendV m c) := rfl
theorem barPay_unfold_4 (c : Dev nD) :
    barPay (F := F) c 4 = iprop(∃ f, (rM 4).view.loc (px c 4 : Thread nD τ) ↦[(rM 4).view.set]{fullShare} f) := rfl
theorem recvPay_4 (c : Dev nD) :
    recvPay m c 4 = ((rM 4).view.loc (c : Thread nD τ) ↦[(rM 4).view.set]{fullShare} recvV m c) := rfl
theorem sendPay_4 (c : Dev nD) :
    sendPay m c 4 = ((sM 4).view.loc (c : Thread nD τ) ↦[(sM 4).view.set]{fullShare} sendV m c) := rfl
theorem barPay_unfold_5 (c : Dev nD) :
    barPay (F := F) c 5 = iprop(∃ f, (rM 5).view.loc (px c 5 : Thread nD τ) ↦[(rM 5).view.set]{fullShare} f) := rfl
theorem recvPay_5 (c : Dev nD) :
    recvPay m c 5 = ((rM 5).view.loc (c : Thread nD τ) ↦[(rM 5).view.set]{fullShare} recvV m c) := rfl
theorem sendPay_5 (c : Dev nD) :
    sendPay m c 5 = ((sM 5).view.loc (c : Thread nD τ) ↦[(sM 5).view.set]{fullShare} sendV m c) := rfl
theorem barPay_unfold_6 (c : Dev nD) :
    barPay (F := F) c 6 = iprop(∃ f, (rM 6).view.loc (px c 6 : Thread nD τ) ↦[(rM 6).view.set]{fullShare} f) := rfl
theorem recvPay_6 (c : Dev nD) :
    recvPay m c 6 = ((rM 6).view.loc (c : Thread nD τ) ↦[(rM 6).view.set]{fullShare} recvV m c) := rfl
theorem sendPay_6 (c : Dev nD) :
    sendPay m c 6 = ((sM 6).view.loc (c : Thread nD τ) ↦[(sM 6).view.set]{fullShare} sendV m c) := rfl
theorem barPay_unfold_7 (c : Dev nD) :
    barPay (F := F) c 7 = iprop(∃ f, (rM 7).view.loc (px c 7 : Thread nD τ) ↦[(rM 7).view.set]{fullShare} f) := rfl
theorem recvPay_7 (c : Dev nD) :
    recvPay m c 7 = ((rM 7).view.loc (c : Thread nD τ) ↦[(rM 7).view.set]{fullShare} recvV m c) := rfl
theorem sendPay_7 (c : Dev nD) :
    sendPay m c 7 = ((sM 7).view.loc (c : Thread nD τ) ↦[(sM 7).view.set]{fullShare} sendV m c) := rfl

/-! ## A barrier cell's payloads at each device and nonzero mask, the paying device computed -/

theorem pay_bar_0_1 : (sched m).payload (barCell (0 : Dev nD)) 0 1 = iprop(∃ f, (rM 1).view.loc ((1 : Dev nD) : Thread nD τ) ↦[(rM 1).view.set]{fullShare} f) :=
  (payload_bar m 0 1).trans rfl
theorem pay_bar_0_2 : (sched m).payload (barCell (0 : Dev nD)) 0 2 = iprop(∃ f, (rM 2).view.loc ((2 : Dev nD) : Thread nD τ) ↦[(rM 2).view.set]{fullShare} f) :=
  (payload_bar m 0 2).trans rfl
theorem pay_bar_0_3 : (sched m).payload (barCell (0 : Dev nD)) 0 3 = iprop(∃ f, (rM 3).view.loc ((3 : Dev nD) : Thread nD τ) ↦[(rM 3).view.set]{fullShare} f) :=
  (payload_bar m 0 3).trans rfl
theorem pay_bar_0_4 : (sched m).payload (barCell (0 : Dev nD)) 0 4 = iprop(∃ f, (rM 4).view.loc ((4 : Dev nD) : Thread nD τ) ↦[(rM 4).view.set]{fullShare} f) :=
  (payload_bar m 0 4).trans rfl
theorem pay_bar_0_5 : (sched m).payload (barCell (0 : Dev nD)) 0 5 = iprop(∃ f, (rM 5).view.loc ((5 : Dev nD) : Thread nD τ) ↦[(rM 5).view.set]{fullShare} f) :=
  (payload_bar m 0 5).trans rfl
theorem pay_bar_0_6 : (sched m).payload (barCell (0 : Dev nD)) 0 6 = iprop(∃ f, (rM 6).view.loc ((6 : Dev nD) : Thread nD τ) ↦[(rM 6).view.set]{fullShare} f) :=
  (payload_bar m 0 6).trans rfl
theorem pay_bar_0_7 : (sched m).payload (barCell (0 : Dev nD)) 0 7 = iprop(∃ f, (rM 7).view.loc ((7 : Dev nD) : Thread nD τ) ↦[(rM 7).view.set]{fullShare} f) :=
  (payload_bar m 0 7).trans rfl
theorem pay_bar_1_1 : (sched m).payload (barCell (1 : Dev nD)) 0 1 = iprop(∃ f, (rM 1).view.loc ((0 : Dev nD) : Thread nD τ) ↦[(rM 1).view.set]{fullShare} f) :=
  (payload_bar m 1 1).trans rfl
theorem pay_bar_1_2 : (sched m).payload (barCell (1 : Dev nD)) 0 2 = iprop(∃ f, (rM 2).view.loc ((3 : Dev nD) : Thread nD τ) ↦[(rM 2).view.set]{fullShare} f) :=
  (payload_bar m 1 2).trans rfl
theorem pay_bar_1_3 : (sched m).payload (barCell (1 : Dev nD)) 0 3 = iprop(∃ f, (rM 3).view.loc ((2 : Dev nD) : Thread nD τ) ↦[(rM 3).view.set]{fullShare} f) :=
  (payload_bar m 1 3).trans rfl
theorem pay_bar_1_4 : (sched m).payload (barCell (1 : Dev nD)) 0 4 = iprop(∃ f, (rM 4).view.loc ((5 : Dev nD) : Thread nD τ) ↦[(rM 4).view.set]{fullShare} f) :=
  (payload_bar m 1 4).trans rfl
theorem pay_bar_1_5 : (sched m).payload (barCell (1 : Dev nD)) 0 5 = iprop(∃ f, (rM 5).view.loc ((4 : Dev nD) : Thread nD τ) ↦[(rM 5).view.set]{fullShare} f) :=
  (payload_bar m 1 5).trans rfl
theorem pay_bar_1_6 : (sched m).payload (barCell (1 : Dev nD)) 0 6 = iprop(∃ f, (rM 6).view.loc ((7 : Dev nD) : Thread nD τ) ↦[(rM 6).view.set]{fullShare} f) :=
  (payload_bar m 1 6).trans rfl
theorem pay_bar_1_7 : (sched m).payload (barCell (1 : Dev nD)) 0 7 = iprop(∃ f, (rM 7).view.loc ((6 : Dev nD) : Thread nD τ) ↦[(rM 7).view.set]{fullShare} f) :=
  (payload_bar m 1 7).trans rfl
theorem pay_bar_2_1 : (sched m).payload (barCell (2 : Dev nD)) 0 1 = iprop(∃ f, (rM 1).view.loc ((3 : Dev nD) : Thread nD τ) ↦[(rM 1).view.set]{fullShare} f) :=
  (payload_bar m 2 1).trans rfl
theorem pay_bar_2_2 : (sched m).payload (barCell (2 : Dev nD)) 0 2 = iprop(∃ f, (rM 2).view.loc ((0 : Dev nD) : Thread nD τ) ↦[(rM 2).view.set]{fullShare} f) :=
  (payload_bar m 2 2).trans rfl
theorem pay_bar_2_3 : (sched m).payload (barCell (2 : Dev nD)) 0 3 = iprop(∃ f, (rM 3).view.loc ((1 : Dev nD) : Thread nD τ) ↦[(rM 3).view.set]{fullShare} f) :=
  (payload_bar m 2 3).trans rfl
theorem pay_bar_2_4 : (sched m).payload (barCell (2 : Dev nD)) 0 4 = iprop(∃ f, (rM 4).view.loc ((6 : Dev nD) : Thread nD τ) ↦[(rM 4).view.set]{fullShare} f) :=
  (payload_bar m 2 4).trans rfl
theorem pay_bar_2_5 : (sched m).payload (barCell (2 : Dev nD)) 0 5 = iprop(∃ f, (rM 5).view.loc ((7 : Dev nD) : Thread nD τ) ↦[(rM 5).view.set]{fullShare} f) :=
  (payload_bar m 2 5).trans rfl
theorem pay_bar_2_6 : (sched m).payload (barCell (2 : Dev nD)) 0 6 = iprop(∃ f, (rM 6).view.loc ((4 : Dev nD) : Thread nD τ) ↦[(rM 6).view.set]{fullShare} f) :=
  (payload_bar m 2 6).trans rfl
theorem pay_bar_2_7 : (sched m).payload (barCell (2 : Dev nD)) 0 7 = iprop(∃ f, (rM 7).view.loc ((5 : Dev nD) : Thread nD τ) ↦[(rM 7).view.set]{fullShare} f) :=
  (payload_bar m 2 7).trans rfl
theorem pay_bar_3_1 : (sched m).payload (barCell (3 : Dev nD)) 0 1 = iprop(∃ f, (rM 1).view.loc ((2 : Dev nD) : Thread nD τ) ↦[(rM 1).view.set]{fullShare} f) :=
  (payload_bar m 3 1).trans rfl
theorem pay_bar_3_2 : (sched m).payload (barCell (3 : Dev nD)) 0 2 = iprop(∃ f, (rM 2).view.loc ((1 : Dev nD) : Thread nD τ) ↦[(rM 2).view.set]{fullShare} f) :=
  (payload_bar m 3 2).trans rfl
theorem pay_bar_3_3 : (sched m).payload (barCell (3 : Dev nD)) 0 3 = iprop(∃ f, (rM 3).view.loc ((0 : Dev nD) : Thread nD τ) ↦[(rM 3).view.set]{fullShare} f) :=
  (payload_bar m 3 3).trans rfl
theorem pay_bar_3_4 : (sched m).payload (barCell (3 : Dev nD)) 0 4 = iprop(∃ f, (rM 4).view.loc ((7 : Dev nD) : Thread nD τ) ↦[(rM 4).view.set]{fullShare} f) :=
  (payload_bar m 3 4).trans rfl
theorem pay_bar_3_5 : (sched m).payload (barCell (3 : Dev nD)) 0 5 = iprop(∃ f, (rM 5).view.loc ((6 : Dev nD) : Thread nD τ) ↦[(rM 5).view.set]{fullShare} f) :=
  (payload_bar m 3 5).trans rfl
theorem pay_bar_3_6 : (sched m).payload (barCell (3 : Dev nD)) 0 6 = iprop(∃ f, (rM 6).view.loc ((5 : Dev nD) : Thread nD τ) ↦[(rM 6).view.set]{fullShare} f) :=
  (payload_bar m 3 6).trans rfl
theorem pay_bar_3_7 : (sched m).payload (barCell (3 : Dev nD)) 0 7 = iprop(∃ f, (rM 7).view.loc ((4 : Dev nD) : Thread nD τ) ↦[(rM 7).view.set]{fullShare} f) :=
  (payload_bar m 3 7).trans rfl
theorem pay_bar_4_1 : (sched m).payload (barCell (4 : Dev nD)) 0 1 = iprop(∃ f, (rM 1).view.loc ((5 : Dev nD) : Thread nD τ) ↦[(rM 1).view.set]{fullShare} f) :=
  (payload_bar m 4 1).trans rfl
theorem pay_bar_4_2 : (sched m).payload (barCell (4 : Dev nD)) 0 2 = iprop(∃ f, (rM 2).view.loc ((6 : Dev nD) : Thread nD τ) ↦[(rM 2).view.set]{fullShare} f) :=
  (payload_bar m 4 2).trans rfl
theorem pay_bar_4_3 : (sched m).payload (barCell (4 : Dev nD)) 0 3 = iprop(∃ f, (rM 3).view.loc ((7 : Dev nD) : Thread nD τ) ↦[(rM 3).view.set]{fullShare} f) :=
  (payload_bar m 4 3).trans rfl
theorem pay_bar_4_4 : (sched m).payload (barCell (4 : Dev nD)) 0 4 = iprop(∃ f, (rM 4).view.loc ((0 : Dev nD) : Thread nD τ) ↦[(rM 4).view.set]{fullShare} f) :=
  (payload_bar m 4 4).trans rfl
theorem pay_bar_4_5 : (sched m).payload (barCell (4 : Dev nD)) 0 5 = iprop(∃ f, (rM 5).view.loc ((1 : Dev nD) : Thread nD τ) ↦[(rM 5).view.set]{fullShare} f) :=
  (payload_bar m 4 5).trans rfl
theorem pay_bar_4_6 : (sched m).payload (barCell (4 : Dev nD)) 0 6 = iprop(∃ f, (rM 6).view.loc ((2 : Dev nD) : Thread nD τ) ↦[(rM 6).view.set]{fullShare} f) :=
  (payload_bar m 4 6).trans rfl
theorem pay_bar_4_7 : (sched m).payload (barCell (4 : Dev nD)) 0 7 = iprop(∃ f, (rM 7).view.loc ((3 : Dev nD) : Thread nD τ) ↦[(rM 7).view.set]{fullShare} f) :=
  (payload_bar m 4 7).trans rfl
theorem pay_bar_5_1 : (sched m).payload (barCell (5 : Dev nD)) 0 1 = iprop(∃ f, (rM 1).view.loc ((4 : Dev nD) : Thread nD τ) ↦[(rM 1).view.set]{fullShare} f) :=
  (payload_bar m 5 1).trans rfl
theorem pay_bar_5_2 : (sched m).payload (barCell (5 : Dev nD)) 0 2 = iprop(∃ f, (rM 2).view.loc ((7 : Dev nD) : Thread nD τ) ↦[(rM 2).view.set]{fullShare} f) :=
  (payload_bar m 5 2).trans rfl
theorem pay_bar_5_3 : (sched m).payload (barCell (5 : Dev nD)) 0 3 = iprop(∃ f, (rM 3).view.loc ((6 : Dev nD) : Thread nD τ) ↦[(rM 3).view.set]{fullShare} f) :=
  (payload_bar m 5 3).trans rfl
theorem pay_bar_5_4 : (sched m).payload (barCell (5 : Dev nD)) 0 4 = iprop(∃ f, (rM 4).view.loc ((1 : Dev nD) : Thread nD τ) ↦[(rM 4).view.set]{fullShare} f) :=
  (payload_bar m 5 4).trans rfl
theorem pay_bar_5_5 : (sched m).payload (barCell (5 : Dev nD)) 0 5 = iprop(∃ f, (rM 5).view.loc ((0 : Dev nD) : Thread nD τ) ↦[(rM 5).view.set]{fullShare} f) :=
  (payload_bar m 5 5).trans rfl
theorem pay_bar_5_6 : (sched m).payload (barCell (5 : Dev nD)) 0 6 = iprop(∃ f, (rM 6).view.loc ((3 : Dev nD) : Thread nD τ) ↦[(rM 6).view.set]{fullShare} f) :=
  (payload_bar m 5 6).trans rfl
theorem pay_bar_5_7 : (sched m).payload (barCell (5 : Dev nD)) 0 7 = iprop(∃ f, (rM 7).view.loc ((2 : Dev nD) : Thread nD τ) ↦[(rM 7).view.set]{fullShare} f) :=
  (payload_bar m 5 7).trans rfl
theorem pay_bar_6_1 : (sched m).payload (barCell (6 : Dev nD)) 0 1 = iprop(∃ f, (rM 1).view.loc ((7 : Dev nD) : Thread nD τ) ↦[(rM 1).view.set]{fullShare} f) :=
  (payload_bar m 6 1).trans rfl
theorem pay_bar_6_2 : (sched m).payload (barCell (6 : Dev nD)) 0 2 = iprop(∃ f, (rM 2).view.loc ((4 : Dev nD) : Thread nD τ) ↦[(rM 2).view.set]{fullShare} f) :=
  (payload_bar m 6 2).trans rfl
theorem pay_bar_6_3 : (sched m).payload (barCell (6 : Dev nD)) 0 3 = iprop(∃ f, (rM 3).view.loc ((5 : Dev nD) : Thread nD τ) ↦[(rM 3).view.set]{fullShare} f) :=
  (payload_bar m 6 3).trans rfl
theorem pay_bar_6_4 : (sched m).payload (barCell (6 : Dev nD)) 0 4 = iprop(∃ f, (rM 4).view.loc ((2 : Dev nD) : Thread nD τ) ↦[(rM 4).view.set]{fullShare} f) :=
  (payload_bar m 6 4).trans rfl
theorem pay_bar_6_5 : (sched m).payload (barCell (6 : Dev nD)) 0 5 = iprop(∃ f, (rM 5).view.loc ((3 : Dev nD) : Thread nD τ) ↦[(rM 5).view.set]{fullShare} f) :=
  (payload_bar m 6 5).trans rfl
theorem pay_bar_6_6 : (sched m).payload (barCell (6 : Dev nD)) 0 6 = iprop(∃ f, (rM 6).view.loc ((0 : Dev nD) : Thread nD τ) ↦[(rM 6).view.set]{fullShare} f) :=
  (payload_bar m 6 6).trans rfl
theorem pay_bar_6_7 : (sched m).payload (barCell (6 : Dev nD)) 0 7 = iprop(∃ f, (rM 7).view.loc ((1 : Dev nD) : Thread nD τ) ↦[(rM 7).view.set]{fullShare} f) :=
  (payload_bar m 6 7).trans rfl
theorem pay_bar_7_1 : (sched m).payload (barCell (7 : Dev nD)) 0 1 = iprop(∃ f, (rM 1).view.loc ((6 : Dev nD) : Thread nD τ) ↦[(rM 1).view.set]{fullShare} f) :=
  (payload_bar m 7 1).trans rfl
theorem pay_bar_7_2 : (sched m).payload (barCell (7 : Dev nD)) 0 2 = iprop(∃ f, (rM 2).view.loc ((5 : Dev nD) : Thread nD τ) ↦[(rM 2).view.set]{fullShare} f) :=
  (payload_bar m 7 2).trans rfl
theorem pay_bar_7_3 : (sched m).payload (barCell (7 : Dev nD)) 0 3 = iprop(∃ f, (rM 3).view.loc ((4 : Dev nD) : Thread nD τ) ↦[(rM 3).view.set]{fullShare} f) :=
  (payload_bar m 7 3).trans rfl
theorem pay_bar_7_4 : (sched m).payload (barCell (7 : Dev nD)) 0 4 = iprop(∃ f, (rM 4).view.loc ((3 : Dev nD) : Thread nD τ) ↦[(rM 4).view.set]{fullShare} f) :=
  (payload_bar m 7 4).trans rfl
theorem pay_bar_7_5 : (sched m).payload (barCell (7 : Dev nD)) 0 5 = iprop(∃ f, (rM 5).view.loc ((2 : Dev nD) : Thread nD τ) ↦[(rM 5).view.set]{fullShare} f) :=
  (payload_bar m 7 5).trans rfl
theorem pay_bar_7_6 : (sched m).payload (barCell (7 : Dev nD)) 0 6 = iprop(∃ f, (rM 6).view.loc ((1 : Dev nD) : Thread nD τ) ↦[(rM 6).view.set]{fullShare} f) :=
  (payload_bar m 7 6).trans rfl
theorem pay_bar_7_7 : (sched m).payload (barCell (7 : Dev nD)) 0 7 = iprop(∃ f, (rM 7).view.loc ((0 : Dev nD) : Thread nD τ) ↦[(rM 7).view.set]{fullShare} f) :=
  (payload_bar m 7 7).trans rfl

/-- info: 'Cert.Kernel.A2A.rest_bar' depends on axioms: [propext, Classical.choice, Quot.sound] -/
#guard_msgs in #print axioms rest_bar

end Cert.Kernel.A2A

end
-- ==== Proof.SchedInstB.lean ====
/-
  Every payload of the exchange's schedule is an assertion a cell's invariant can store: each is a points-to of a slot, at
  fixed or at some contents.
-/
import proofs.«900796_g7700000000000797_dist_gemm_a2a_m4096_k4096_n2048_f32_gelu_v7x_i8_1_alg».proof.Proof.SchedTabB

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Every payload can be stored in a cell's invariant -/

instance slotAny_storable (c : Dev nD) (t : Fin 8) : BI.Storable (upEmb : UEmb _ 𝕄) (slotAny (F := F) c t) := by
  unfold slotAny; split <;> first | infer_instance | (exfalso; omega)
instance barPay_storable (c : Dev nD) (t : Fin 8) : BI.Storable (upEmb : UEmb _ 𝕄) (barPay (F := F) c t) := by
  unfold barPay; infer_instance
instance recvPay_storable (c : Dev nD) (t : Fin 8) : BI.Storable (upEmb : UEmb _ 𝕄) (recvPay m c t) := by
  unfold recvPay; split <;> first | infer_instance | (exfalso; omega)
instance sendPay_storable (c : Dev nD) (t : Fin 8) : BI.Storable (upEmb : UEmb _ 𝕄) (sendPay m c t) := by
  unfold sendPay; split <;> first | infer_instance | (exfalso; omega)
instance sched_payload_storable (g : GSem nD τ sig) (r : ℕ) (d : Fin 8) :
    BI.Storable (upEmb : UEmb _ 𝕄) ((sched m).payload g r d) := by
  dsimp only [sched]
  (repeat' split) <;> infer_instance

end Cert.Kernel.A2A

end
-- ==== Proof.GlobB.lean ====
/-
  The global allocation step of the launch. The launch element of the exchange's algebra deals every device the round
  state, the position and the reached-round fact of its fifteen cells and the twenty-one duty tokens minted on them. From
  the fifteen counters at zero each device allocates its cells' invariants; the other fourteen scoped counters stay
  plain. Then the devices exchange: every device learns (persistently) the invariants and reached-round facts of the cells
  it pays, and the tokens travel to their payers: duty t of a barrier cell and the duty of receive cell t go to the device
  at mask t from the owner; the duty of a send cell stays.
-/
import proofs.«900796_g7700000000000797_dist_gemm_a2a_m4096_k4096_n2048_f32_gelu_v7x_i8_1_alg».proof.Proof.DataB
import proofs.«900796_g7700000000000797_dist_gemm_a2a_m4096_k4096_n2048_f32_gelu_v7x_i8_1_alg».proof.Proof.SchedInstB
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own scoped semaphores, and the exchange's cells -/

/-- The kernel's own scoped semaphores: the DMA semaphores 1 to 28 (semaphore 0 is the staging semaphore of the result). -/
abbrev osem : Fin 28 → SemLoc sig := fun q => .dma (⟨q.val + 1, by have := q.isLt; show q.val + 1 < 29; omega⟩ : DmaSem sig)

theorem ownSemFacts : Pipeline.OwnSemFacts cfg0.spec osem := by decide

/-- The semaphore of a device's `k`-th cell: the barrier's, then the send and the receive semaphore of each nonzero slot. -/
abbrev csem : Fin 15 → SemLoc sig := fun
  | 0 => .reg barS
  | 1 => .dma (sendSA 1).sem | 2 => .dma (recvSA 1).sem
  | 3 => .dma (sendSA 2).sem | 4 => .dma (recvSA 2).sem
  | 5 => .dma (sendSA 3).sem | 6 => .dma (recvSA 3).sem
  | 7 => .dma (sendSA 4).sem | 8 => .dma (recvSA 4).sem
  | 9 => .dma (sendSA 5).sem | 10 => .dma (recvSA 5).sem
  | 11 => .dma (sendSA 6).sem | 12 => .dma (recvSA 6).sem
  | 13 => .dma (sendSA 7).sem | 14 => .dma (recvSA 7).sem
abbrev kcell (ck : Dev nD × Fin 15) : GSem nD τ sig := ((ck.1 : Thread nD τ), csem ck.2)

theorem csem_injective : Function.Injective csem := by decide

theorem kcell_injective : Function.Injective (kcell : Dev nD × Fin 15 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def xCells : Finset (GSem nD τ sig) := Finset.univ.map ⟨kcell, kcell_injective⟩

/-- The duty tokens minted on a device's own cells: the seven duties of its barrier cell, the one duty of each send cell and
    of each receive cell. -/
abbrev tokOf (cj : Dev nD × Fin 21) : GSem nD τ sig × ℕ × Fin 8 := match cj.2 with
  | ⟨0, _⟩ => (barCell cj.1, 0, 1)
  | ⟨1, _⟩ => (barCell cj.1, 0, 2)
  | ⟨2, _⟩ => (barCell cj.1, 0, 3)
  | ⟨3, _⟩ => (barCell cj.1, 0, 4)
  | ⟨4, _⟩ => (barCell cj.1, 0, 5)
  | ⟨5, _⟩ => (barCell cj.1, 0, 6)
  | ⟨6, _⟩ => (barCell cj.1, 0, 7)
  | ⟨7, _⟩ => (sendCell cj.1 1, 0, 0)
  | ⟨8, _⟩ => (sendCell cj.1 2, 0, 0)
  | ⟨9, _⟩ => (sendCell cj.1 3, 0, 0)
  | ⟨10, _⟩ => (sendCell cj.1 4, 0, 0)
  | ⟨11, _⟩ => (sendCell cj.1 5, 0, 0)
  | ⟨12, _⟩ => (sendCell cj.1 6, 0, 0)
  | ⟨13, _⟩ => (sendCell cj.1 7, 0, 0)
  | ⟨14, _⟩ => (recvCell cj.1 1, 0, 0)
  | ⟨15, _⟩ => (recvCell cj.1 2, 0, 0)
  | ⟨16, _⟩ => (recvCell cj.1 3, 0, 0)
  | ⟨17, _⟩ => (recvCell cj.1 4, 0, 0)
  | ⟨18, _⟩ => (recvCell cj.1 5, 0, 0)
  | ⟨19, _⟩ => (recvCell cj.1 6, 0, 0)
  | ⟨20, _⟩ => (recvCell cj.1 7, 0, 0)
  | ⟨_ + 21, h⟩ => absurd h (by omega)

/-- The semaphore and the duty a token index names: distinct indices name distinct pairs. -/
abbrev tokKey : Fin 21 → SemLoc sig × Fin 8 := fun
  | ⟨0, _⟩ => (.reg barS, 1)
  | ⟨1, _⟩ => (.reg barS, 2)
  | ⟨2, _⟩ => (.reg barS, 3)
  | ⟨3, _⟩ => (.reg barS, 4)
  | ⟨4, _⟩ => (.reg barS, 5)
  | ⟨5, _⟩ => (.reg barS, 6)
  | ⟨6, _⟩ => (.reg barS, 7)
  | ⟨7, _⟩ => (.dma (sendSA 1).sem, 0)
  | ⟨8, _⟩ => (.dma (sendSA 2).sem, 0)
  | ⟨9, _⟩ => (.dma (sendSA 3).sem, 0)
  | ⟨10, _⟩ => (.dma (sendSA 4).sem, 0)
  | ⟨11, _⟩ => (.dma (sendSA 5).sem, 0)
  | ⟨12, _⟩ => (.dma (sendSA 6).sem, 0)
  | ⟨13, _⟩ => (.dma (sendSA 7).sem, 0)
  | ⟨14, _⟩ => (.dma (recvSA 1).sem, 0)
  | ⟨15, _⟩ => (.dma (recvSA 2).sem, 0)
  | ⟨16, _⟩ => (.dma (recvSA 3).sem, 0)
  | ⟨17, _⟩ => (.dma (recvSA 4).sem, 0)
  | ⟨18, _⟩ => (.dma (recvSA 5).sem, 0)
  | ⟨19, _⟩ => (.dma (recvSA 6).sem, 0)
  | ⟨20, _⟩ => (.dma (recvSA 7).sem, 0)
  | ⟨_ + 21, h⟩ => absurd h (by omega)
theorem tokKey_injective : Function.Injective tokKey := by decide
theorem tokOf_key (c : Dev nD) (j : Fin 21) : ((tokOf (c, j)).1.2, (tokOf (c, j)).2.2) = tokKey j := by
  fin_cases j <;> rfl
theorem tokOf_dev (c : Dev nD) (j : Fin 21) : (tokOf (c, j)).1.1.1 = c := by
  fin_cases j <;> rfl

theorem tokOf_injective : Function.Injective (tokOf : Dev nD × Fin 21 → GSem nD τ sig × ℕ × Fin 8) := by
  rintro ⟨c, j⟩ ⟨c', j'⟩ h
  have h1 : c = c' := by
    have := congrArg (fun x : GSem nD τ sig × ℕ × Fin 8 => x.1.1.1) h
    simpa only [tokOf_dev] using this
  subst h1
  have : j = j' := tokKey_injective (by rw [← tokOf_key c j, ← tokOf_key c j', h])
  subst this; rfl
def xToks : Finset (GSem nD τ sig × ℕ × Fin 8) := Finset.univ.map ⟨tokOf, tokOf_injective⟩

/-- The launch element: the pipeline's, the exchange's, and no local copy in flight. -/
def u₀ : UU :=
  (initOf (Pipeline.cells cfgs cellOf_inj) (Pipeline.launchToks cfgs cellOf_inj), (initOf xCells xToks, 1))

omit [FloatOps F] in
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The duty tokens minted on device `c`'s own cells. -/
def toks (c : Dev nD) : sProp 𝕄 :=
  iprop(dutyTok ER (barCell c) 0 1 ∗ dutyTok ER (barCell c) 0 2 ∗ dutyTok ER (barCell c) 0 3 ∗ dutyTok ER (barCell c) 0 4 ∗ dutyTok ER (barCell c) 0 5 ∗ dutyTok ER (barCell c) 0 6 ∗ dutyTok ER (barCell c) 0 7
    ∗ dutyTok ER (sendCell c 1) 0 0 ∗ dutyTok ER (sendCell c 2) 0 0 ∗ dutyTok ER (sendCell c 3) 0 0 ∗ dutyTok ER (sendCell c 4) 0 0 ∗ dutyTok ER (sendCell c 5) 0 0 ∗ dutyTok ER (sendCell c 6) 0 0 ∗ dutyTok ER (sendCell c 7) 0 0
    ∗ dutyTok ER (recvCell c 1) 0 0 ∗ dutyTok ER (recvCell c 2) 0 0 ∗ dutyTok ER (recvCell c 3) 0 0 ∗ dutyTok ER (recvCell c 4) 0 0 ∗ dutyTok ER (recvCell c 5) 0 0 ∗ dutyTok ER (recvCell c 6) 0 0 ∗ dutyTok ER (recvCell c 7) 0 0)

/-- What the launch element deals device `c`. -/
def G (c : Dev nD) : sProp 𝕄 :=
  iprop((bigSep Finset.univ fun k : Fin 15 => roundState ER (sched m) (kcell (c, k)) 0)
    ∗ (bigSep Finset.univ fun k : Fin 15 => iprop(atPos ER (kcell (c, k)) 0 ∅ 0 ∗ reached ER (kcell (c, k)) 0)) ∗ toks c)

/-- What the global step makes of it. -/
def G' (c : Dev nD) : sProp 𝕄 := iprop((∃ K, ghost m K c) ∗ plainSems c)

/-! ## The launch element dealt -/

omit [FloatOps F] in
theorem bigSep_fin15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
omit [FloatOps F] in
theorem bigSep_fin21 (Φ : Fin 21 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ

theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 15 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin21]; rfl
  iintro HX
  imod (Rounds.fund ER (sched m) xCells xToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element splits into the pipeline's and, under an update, what every device is dealt. -/
theorem hu₀ : (ownU u₀ : sProp 𝕄) ⊢ |={Set.univ}=> iprop(BI.own (EP (initOf (Pipeline.cells cfgs cellOf_inj) (Pipeline.launchToks cfgs cellOf_inj))) ∗ bigSep Finset.univ (G m)) := by
  unfold u₀
  iintro Hu
  ihave H := (ownU_split _ _) $$ Hu
  icases H with ⟨HP, HX⟩
  imod (fund_x m) $$ HX with HG
  imodintro
  isplitl [HP] <;> iassumption

/-! ## The counters at launch -/

omit [FloatOps F] in
/-- The kernel's own scoped counters, one by one: thirteen plain ones, the seven send cells', the unused slot 0 of the
    receive array, the seven receive cells'. -/
theorem ownSems0_eq (c : Dev nD) : (Pipeline.ownSems0 (Ix := Unit) (Name := ℕ) (U := UU) (Lvl := ℕ) (Val := Elt F) (τ := τ) osem c : sProp 𝕄)
    = iprop(semVal ((c : Thread nD τ), SemLoc.dma (1 : DmaSem sig)) 0
      ∗ semVal ((c : Thread nD τ), SemLoc.dma (2 : DmaSem sig)) 0
      ∗ semVal ((c : Thread nD τ), SemLoc.dma (3 : DmaSem sig)) 0
      ∗ semVal ((c : Thread nD τ), SemLoc.dma (4 : DmaSem sig)) 0
      ∗ semVal ((c : Thread nD τ), SemLoc.dma (5 : DmaSem sig)) 0
      ∗ semVal ((c : Thread nD τ), SemLoc.dma (6 : DmaSem sig)) 0
      ∗ semVal ((c : Thread nD τ), SemLoc.dma (7 : DmaSem sig)) 0
      ∗ semVal ((c : Thread nD τ), SemLoc.dma (8 : DmaSem sig)) 0
      ∗ semVal ((c : Thread nD τ), SemLoc.dma (9 : DmaSem sig)) 0
      ∗ semVal ((c : Thread nD τ), SemLoc.dma (10 : DmaSem sig)) 0
      ∗ semVal ((c : Thread nD τ), SemLoc.dma (11 : DmaSem sig)) 0
      ∗ semVal ((c : Thread nD τ), SemLoc.dma (12 : DmaSem sig)) 0
      ∗ semVal ((c : Thread nD τ), SemLoc.dma (13 : DmaSem sig)) 0
      ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0
      ∗ semVal ((c : Thread nD τ), SemLoc.dma (21 : DmaSem sig)) 0
      ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0) := by
  rw [Pipeline.ownSems0_eq_of_list c osem [0, 1, 2, 3, 4, 5, 6, 7, 8, 9, 10, 11, 12, 13, 14, 15, 16, 17, 18, 19, 20, 21, 22, 23, 24, 25, 26, 27] (by decide) (by decide)]; rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The fifteen cells' counters, and the fourteen that stay plain. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 15 => semVal (kcell (c, k)) 0) ∗ plainSems c) : sProp 𝕄) := by
  rw [ownSems0_eq, unscopedSems0_eq, bigSep_fin15]
  unfold plainSems
  iintro ⟨⟨P1, P2, P3, P4, P5, P6, P7, P8, P9, P10, P11, P12, P13, S1, S2, S3, S4, S5, S6, S7, P21, R1, R2, R3, R4, R5, R6, R7⟩, HB⟩
  isplitr [P1 P2 P3 P4 P5 P6 P7 P8 P9 P10 P11 P12 P13 P21]
  · isplitl [HB]; · iexact HB
    isplitl [S1]; · iexact S1
    isplitl [R1]; · iexact R1
    isplitl [S2]; · iexact S2
    isplitl [R2]; · iexact R2
    isplitl [S3]; · iexact S3
    isplitl [R3]; · iexact R3
    isplitl [S4]; · iexact S4
    isplitl [R4]; · iexact R4
    isplitl [S5]; · iexact S5
    isplitl [R5]; · iexact R5
    isplitl [S6]; · iexact S6
    isplitl [R6]; · iexact R6
    isplitl [S7]; · iexact S7
    iexact R7
  · isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    isplitl [P10]; · iexact P10
    isplitl [P11]; · iexact P11
    isplitl [P12]; · iexact P12
    isplitl [P13]; · iexact P13
    iexact P21

/-! ## Each device allocates its cells' invariants -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ plainSems c) := by
  unfold G
  iintro ⟨Hos, Hus, Hst, Hat, Htok⟩
  ihave Hv := (sems0_eq (F := F) c) $$ [Hos Hus]
  · isplitl [Hos] <;> iassumption
  icases Hv with ⟨Hv, Hpl⟩
  imod (show iprop((bigSep Finset.univ fun k : Fin 15 => semVal (kcell (c, k)) 0) ∗ bigSep Finset.univ fun k : Fin 15 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hpl

/-! ## The devices exchange -/

/-- What every device may keep a copy of: every cell's invariant, under the name `K` gives it, and that round 0 of every
    cell is reached. -/
def records (K : GSem nD τ sig → ℕ) : sProp 𝕄 :=
  iprop((bigSep Finset.univ fun ck : Dev nD × Fin 15 => cellInv ER (sched m) (K (kcell ck)) (kcell ck))
    ∗ bigSep Finset.univ fun ck : Dev nD × Fin 15 => reached ER (kcell ck) 0)

instance records_persistent (K : GSem nD τ sig → ℕ) : BI.Persistent (records m K) := by unfold records; infer_instance

theorem inv_at (K : GSem nD τ sig → ℕ) (ck : Dev nD × Fin 15) :
    (bigSep Finset.univ fun ck : Dev nD × Fin 15 => (cellInv ER (sched m) (K (kcell ck)) (kcell ck) : sProp 𝕄)) ⊢ cellInv ER (sched m) (K (kcell ck)) (kcell ck) :=
  bigSep_elim (Finset.mem_univ ck)
omit [FloatOps F] in
theorem reached_at (ck : Dev nD × Fin 15) :
    (bigSep Finset.univ fun ck : Dev nD × Fin 15 => (reached ER (kcell ck) 0 : sProp 𝕄)) ⊢ reached ER (kcell ck) 0 :=
  bigSep_elim (Finset.mem_univ ck)

/-- From the records, its own positions, the tokens of the duties it pays and its plain counters, a device has what its
    body starts from. -/
theorem ghost_intro (K : GSem nD τ sig → ℕ) (c : Dev nD) : iprop(records m K ∗ (positions c ∗ payToks c) ∗ plainSems c) ⊢ G' m c := by
  unfold records G' ghost invs reacheds
  iintro ⟨⟨#HI, #HR⟩, ⟨Hpos, Htok⟩, Hpl⟩
  isplitr [Hpl]
  · iexists K
    isplitr
    · isplitr; · iapply (inv_at m K (c, 0)); iexact HI
      isplitr; · iapply (inv_at m K (c, 1)); iexact HI
      isplitr; · iapply (inv_at m K (c, 2)); iexact HI
      isplitr; · iapply (inv_at m K (c, 3)); iexact HI
      isplitr; · iapply (inv_at m K (c, 4)); iexact HI
      isplitr; · iapply (inv_at m K (c, 5)); iexact HI
      isplitr; · iapply (inv_at m K (c, 6)); iexact HI
      isplitr; · iapply (inv_at m K (c, 7)); iexact HI
      isplitr; · iapply (inv_at m K (c, 8)); iexact HI
      isplitr; · iapply (inv_at m K (c, 9)); iexact HI
      isplitr; · iapply (inv_at m K (c, 10)); iexact HI
      isplitr; · iapply (inv_at m K (c, 11)); iexact HI
      isplitr; · iapply (inv_at m K (c, 12)); iexact HI
      isplitr; · iapply (inv_at m K (c, 13)); iexact HI
      isplitr; · iapply (inv_at m K (c, 14)); iexact HI
      isplitr; · iapply (inv_at m K (px c 1, 0)); iexact HI
      isplitr; · iapply (inv_at m K (px c 1, 2)); iexact HI
      isplitr; · iapply (inv_at m K (px c 2, 0)); iexact HI
      isplitr; · iapply (inv_at m K (px c 2, 4)); iexact HI
      isplitr; · iapply (inv_at m K (px c 3, 0)); iexact HI
      isplitr; · iapply (inv_at m K (px c 3, 6)); iexact HI
      isplitr; · iapply (inv_at m K (px c 4, 0)); iexact HI
      isplitr; · iapply (inv_at m K (px c 4, 8)); iexact HI
      isplitr; · iapply (inv_at m K (px c 5, 0)); iexact HI
      isplitr; · iapply (inv_at m K (px c 5, 10)); iexact HI
      isplitr; · iapply (inv_at m K (px c 6, 0)); iexact HI
      isplitr; · iapply (inv_at m K (px c 6, 12)); iexact HI
      isplitr; · iapply (inv_at m K (px c 7, 0)); iexact HI
      iapply (inv_at m K (px c 7, 14)); iexact HI
    isplitl [Hpos]; · iexact Hpos
    isplitr
    · isplitr; · iapply (reached_at (F := F) (px c 1, 0)); iexact HR
      isplitr; · iapply (reached_at (F := F) (px c 1, 2)); iexact HR
      isplitr; · iapply (reached_at (F := F) (c, 1)); iexact HR
      isplitr; · iapply (reached_at (F := F) (px c 2, 0)); iexact HR
      isplitr; · iapply (reached_at (F := F) (px c 2, 4)); iexact HR
      isplitr; · iapply (reached_at (F := F) (c, 3)); iexact HR
      isplitr; · iapply (reached_at (F := F) (px c 3, 0)); iexact HR
      isplitr; · iapply (reached_at (F := F) (px c 3, 6)); iexact HR
      isplitr; · iapply (reached_at (F := F) (c, 5)); iexact HR
      isplitr; · iapply (reached_at (F := F) (px c 4, 0)); iexact HR
      isplitr; · iapply (reached_at (F := F) (px c 4, 8)); iexact HR
      isplitr; · iapply (reached_at (F := F) (c, 7)); iexact HR
      isplitr; · iapply (reached_at (F := F) (px c 5, 0)); iexact HR
      isplitr; · iapply (reached_at (F := F) (px c 5, 10)); iexact HR
      isplitr; · iapply (reached_at (F := F) (c, 9)); iexact HR
      isplitr; · iapply (reached_at (F := F) (px c 6, 0)); iexact HR
      isplitr; · iapply (reached_at (F := F) (px c 6, 12)); iexact HR
      isplitr; · iapply (reached_at (F := F) (c, 11)); iexact HR
      isplitr; · iapply (reached_at (F := F) (px c 7, 0)); iexact HR
      isplitr; · iapply (reached_at (F := F) (px c 7, 14)); iexact HR
      iapply (reached_at (F := F) (c, 13)); iexact HR
    iexact Htok
  · iexact Hpl

omit [FloatOps F] in
/-- The tokens travel to their payers: duty `t` of a barrier cell and the duty of receive cell `t` go to the device at mask
    `t` from the owner (the pairing at a mask is a permutation of the devices); the duty of a send cell stays. -/
theorem toks_around : (bigSep Finset.univ fun c : Dev nD => (toks c : sProp 𝕄)) ⊢ bigSep Finset.univ fun c : Dev nD => payToks c := by
  unfold toks payToks
  simp only [bigSep_sep']
  rw [bigSep_univ_equiv (pxEquiv 1) (fun c : Dev nD => (dutyTok ER (barCell c) 0 1 : sProp 𝕄)),
    bigSep_univ_equiv (pxEquiv 2) (fun c : Dev nD => (dutyTok ER (barCell c) 0 2 : sProp 𝕄)),
    bigSep_univ_equiv (pxEquiv 3) (fun c : Dev nD => (dutyTok ER (barCell c) 0 3 : sProp 𝕄)),
    bigSep_univ_equiv (pxEquiv 4) (fun c : Dev nD => (dutyTok ER (barCell c) 0 4 : sProp 𝕄)),
    bigSep_univ_equiv (pxEquiv 5) (fun c : Dev nD => (dutyTok ER (barCell c) 0 5 : sProp 𝕄)),
    bigSep_univ_equiv (pxEquiv 6) (fun c : Dev nD => (dutyTok ER (barCell c) 0 6 : sProp 𝕄)),
    bigSep_univ_equiv (pxEquiv 7) (fun c : Dev nD => (dutyTok ER (barCell c) 0 7 : sProp 𝕄)),
    bigSep_univ_equiv (pxEquiv 1) (fun c : Dev nD => (dutyTok ER (recvCell c 1) 0 0 : sProp 𝕄)),
    bigSep_univ_equiv (pxEquiv 2) (fun c : Dev nD => (dutyTok ER (recvCell c 2) 0 0 : sProp 𝕄)),
    bigSep_univ_equiv (pxEquiv 3) (fun c : Dev nD => (dutyTok ER (recvCell c 3) 0 0 : sProp 𝕄)),
    bigSep_univ_equiv (pxEquiv 4) (fun c : Dev nD => (dutyTok ER (recvCell c 4) 0 0 : sProp 𝕄)),
    bigSep_univ_equiv (pxEquiv 5) (fun c : Dev nD => (dutyTok ER (recvCell c 5) 0 0 : sProp 𝕄)),
    bigSep_univ_equiv (pxEquiv 6) (fun c : Dev nD => (dutyTok ER (recvCell c 6) 0 0 : sProp 𝕄)),
    bigSep_univ_equiv (pxEquiv 7) (fun c : Dev nD => (dutyTok ER (recvCell c 7) 0 0 : sProp 𝕄))]
  iintro ⟨B1, B2, B3, B4, B5, B6, B7, S1, S2, S3, S4, S5, S6, S7, R1, R2, R3, R4, R5, R6, R7⟩
  isplitl [B1]; · iexact B1
  isplitl [R1]; · iexact R1
  isplitl [S1]; · iexact S1
  isplitl [B2]; · iexact B2
  isplitl [R2]; · iexact R2
  isplitl [S2]; · iexact S2
  isplitl [B3]; · iexact B3
  isplitl [R3]; · iexact R3
  isplitl [S3]; · iexact S3
  isplitl [B4]; · iexact B4
  isplitl [R4]; · iexact R4
  isplitl [S4]; · iexact S4
  isplitl [B5]; · iexact B5
  isplitl [R5]; · iexact R5
  isplitl [S5]; · iexact S5
  isplitl [B6]; · iexact B6
  isplitl [R6]; · iexact R6
  isplitl [S6]; · iexact S6
  isplitl [B7]; · iexact B7
  isplitl [R7]; · iexact R7
  iexact S7

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- A device's positions, the tokens it pays and its plain counters. -/
theorem deal_one (c : Dev nD) :
    iprop((bigSep Finset.univ fun k : Fin 15 => (atPos ER (kcell (c, k)) 0 ∅ 0 : sProp 𝕄)) ∗ payToks c ∗ plainSems c)
      ⊢ (iprop((positions c ∗ payToks c) ∗ plainSems c) : sProp 𝕄) := by
  unfold positions; rw [bigSep_fin15]
  iintro ⟨Hat, Htk, Hpl⟩
  isplitr [Hpl]
  · isplitl [Hat]; · iexact Hat
    iexact Htk
  · iexact Hpl

omit [FloatOps F] in
/-- The same, device by device. -/
theorem deal :
    iprop((bigSep Finset.univ fun c : Dev nD => bigSep Finset.univ fun k : Fin 15 => (atPos ER (kcell (c, k)) 0 ∅ 0 : sProp 𝕄))
        ∗ (bigSep Finset.univ fun c : Dev nD => (payToks c : sProp 𝕄)) ∗ (bigSep Finset.univ fun c : Dev nD => (plainSems c : sProp 𝕄)))
      ⊢ bigSep Finset.univ fun c : Dev nD => (iprop((positions c ∗ payToks c) ∗ plainSems c) : sProp 𝕄) := by
  rw [← bigSep_sep', ← bigSep_sep']
  exact bigSep_mono fun c _ => deal_one c

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ plainSems c) : sProp 𝕄)
      ⊢ bigSep Finset.univ (G' m) := by
  rw [bigSep_sep', bigSep_sep', bigSep_sep', ← bigSep_univ_prod (fun ck : Dev nD × Fin 15 => iprop(∃ κ : ℕ, cellInv ER (sched m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok, Hpl⟩
  ihave HK := (BI.bigSep_exists_pi Finset.univ (fun (ck : Dev nD × Fin 15) (κ : ℕ) => (cellInv ER (sched m) κ (kcell ck) : sProp 𝕄))) $$ HI
  icases HK with ⟨%K', #HI⟩
  ihave Htk := (toks_around (F := F)) $$ Htok
  iapply (bigSep_with_persistent (R := records m (Function.extend kcell K' 0)) fun c _ => ghost_intro m (Function.extend kcell K' 0) c)
  isplitr
  · unfold records; isplitl
    · iapply (Entails.of_eq (bigSep_congr (s := Finset.univ) fun (ck : Dev nD × Fin 15) _ =>
        show (cellInv ER (sched m) (K' ck) (kcell ck) : sProp 𝕄) = cellInv ER (sched m) (Function.extend kcell K' 0 (kcell ck)) (kcell ck) from by
          rw [kcell_injective.extend_apply]))
      iexact HI
    iexact HR
  · iapply (deal (F := F))
    isplitl [Hat]; · iexact Hat
    isplitl [Htk]; · iexact Htk
    iexact Hpl

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.Kernel.A2A.glob' depends on axioms: [propext, Classical.choice, Quot.sound] -/
#guard_msgs in #print axioms glob

end Cert.Kernel.A2A

end
-- ==== Proof.BodyIfaceB.lean ====
/-
  The body's two ends. The body is stepped from a context in which every buffer a copy targets is already cut into the
  pieces the copies name (the four row-quarters of the x buffer, the sixteen half-slots of the weight buffer, the eight
  slots of the send and of the receive buffer), and it ends with the same pieces at whatever they then hold, every scoped
  semaphore back at zero, the argument arrays untouched, nothing owed, and the output block holding the device's result.
-/
import proofs.«900796_g7700000000000797_dist_gemm_a2a_m4096_k4096_n2048_f32_gelu_v7x_i8_1_alg».proof.Proof.DataB

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The four row-quarters of the x buffer, as the copies name them. -/
abbrev xQ : Fin 4 → Memref sig .tc .vmem S128x4096 .f32
  | ⟨0, _⟩ => ((Memref.whole cc0_scratch0 : Memref sig .tc .vmem S512x4096 .f32).slice (Rect.unit (s := S512x4096) ![0, 0] S128x4096.size inb_S512x4096_S128x4096_0_0) (fun _ => rfl))
  | ⟨1, _⟩ => ((Memref.whole cc0_scratch0 : Memref sig .tc .vmem S512x4096 .f32).slice (Rect.unit (s := S512x4096) ![128, 0] S128x4096.size inb_S512x4096_S128x4096_128_0) (fun _ => rfl))
  | ⟨2, _⟩ => ((Memref.whole cc0_scratch0 : Memref sig .tc .vmem S512x4096 .f32).slice (Rect.unit (s := S512x4096) ![256, 0] S128x4096.size inb_S512x4096_S128x4096_256_0) (fun _ => rfl))
  | ⟨3, _⟩ => ((Memref.whole cc0_scratch0 : Memref sig .tc .vmem S512x4096 .f32).slice (Rect.unit (s := S512x4096) ![384, 0] S128x4096.size inb_S512x4096_S128x4096_384_0) (fun _ => rfl))
  | ⟨_ + 4, h⟩ => absurd h (by omega)

/-- The sixteen half-slots of the weight buffer, as the copies name them: slot `s`, upper or lower half of its rows. -/
abbrev wH : Fin 8 → Fin 2 → Memref sig .tc .vmem S2048x256 .f32
  | ⟨0, _⟩, ⟨0, _⟩ => (((Memref.whole cc0_scratch1 : Memref sig .tc .vmem S8x4096x256 .f32).slice (Rect.unit (s := S8x4096x256) ![0, 0, 0] S1x2048x256.size inb_S8x4096x256_S1x2048x256_0_0_0) (fun _ => rfl)).squeeze S2048x256 squeezes_S1x2048x256_S2048x256)
  | ⟨0, _⟩, ⟨1, _⟩ => (((Memref.whole cc0_scratch1 : Memref sig .tc .vmem S8x4096x256 .f32).slice (Rect.unit (s := S8x4096x256) ![0, 2048, 0] S1x2048x256.size inb_S8x4096x256_S1x2048x256_0_2048_0) (fun _ => rfl)).squeeze S2048x256 squeezes_S1x2048x256_S2048x256)
  | ⟨1, _⟩, ⟨0, _⟩ => (((Memref.whole cc0_scratch1 : Memref sig .tc .vmem S8x4096x256 .f32).slice (Rect.unit (s := S8x4096x256) ![1, 0, 0] S1x2048x256.size inb_S8x4096x256_S1x2048x256_1_0_0) (fun _ => rfl)).squeeze S2048x256 squeezes_S1x2048x256_S2048x256)
  | ⟨1, _⟩, ⟨1, _⟩ => (((Memref.whole cc0_scratch1 : Memref sig .tc .vmem S8x4096x256 .f32).slice (Rect.unit (s := S8x4096x256) ![1, 2048, 0] S1x2048x256.size inb_S8x4096x256_S1x2048x256_1_2048_0) (fun _ => rfl)).squeeze S2048x256 squeezes_S1x2048x256_S2048x256)
  | ⟨2, _⟩, ⟨0, _⟩ => (((Memref.whole cc0_scratch1 : Memref sig .tc .vmem S8x4096x256 .f32).slice (Rect.unit (s := S8x4096x256) ![2, 0, 0] S1x2048x256.size inb_S8x4096x256_S1x2048x256_2_0_0) (fun _ => rfl)).squeeze S2048x256 squeezes_S1x2048x256_S2048x256)
  | ⟨2, _⟩, ⟨1, _⟩ => (((Memref.whole cc0_scratch1 : Memref sig .tc .vmem S8x4096x256 .f32).slice (Rect.unit (s := S8x4096x256) ![2, 2048, 0] S1x2048x256.size inb_S8x4096x256_S1x2048x256_2_2048_0) (fun _ => rfl)).squeeze S2048x256 squeezes_S1x2048x256_S2048x256)
  | ⟨3, _⟩, ⟨0, _⟩ => (((Memref.whole cc0_scratch1 : Memref sig .tc .vmem S8x4096x256 .f32).slice (Rect.unit (s := S8x4096x256) ![3, 0, 0] S1x2048x256.size inb_S8x4096x256_S1x2048x256_3_0_0) (fun _ => rfl)).squeeze S2048x256 squeezes_S1x2048x256_S2048x256)
  | ⟨3, _⟩, ⟨1, _⟩ => (((Memref.whole cc0_scratch1 : Memref sig .tc .vmem S8x4096x256 .f32).slice (Rect.unit (s := S8x4096x256) ![3, 2048, 0] S1x2048x256.size inb_S8x4096x256_S1x2048x256_3_2048_0) (fun _ => rfl)).squeeze S2048x256 squeezes_S1x2048x256_S2048x256)
  | ⟨4, _⟩, ⟨0, _⟩ => (((Memref.whole cc0_scratch1 : Memref sig .tc .vmem S8x4096x256 .f32).slice (Rect.unit (s := S8x4096x256) ![4, 0, 0] S1x2048x256.size inb_S8x4096x256_S1x2048x256_4_0_0) (fun _ => rfl)).squeeze S2048x256 squeezes_S1x2048x256_S2048x256)
  | ⟨4, _⟩, ⟨1, _⟩ => (((Memref.whole cc0_scratch1 : Memref sig .tc .vmem S8x4096x256 .f32).slice (Rect.unit (s := S8x4096x256) ![4, 2048, 0] S1x2048x256.size inb_S8x4096x256_S1x2048x256_4_2048_0) (fun _ => rfl)).squeeze S2048x256 squeezes_S1x2048x256_S2048x256)
  | ⟨5, _⟩, ⟨0, _⟩ => (((Memref.whole cc0_scratch1 : Memref sig .tc .vmem S8x4096x256 .f32).slice (Rect.unit (s := S8x4096x256) ![5, 0, 0] S1x2048x256.size inb_S8x4096x256_S1x2048x256_5_0_0) (fun _ => rfl)).squeeze S2048x256 squeezes_S1x2048x256_S2048x256)
  | ⟨5, _⟩, ⟨1, _⟩ => (((Memref.whole cc0_scratch1 : Memref sig .tc .vmem S8x4096x256 .f32).slice (Rect.unit (s := S8x4096x256) ![5, 2048, 0] S1x2048x256.size inb_S8x4096x256_S1x2048x256_5_2048_0) (fun _ => rfl)).squeeze S2048x256 squeezes_S1x2048x256_S2048x256)
  | ⟨6, _⟩, ⟨0, _⟩ => (((Memref.whole cc0_scratch1 : Memref sig .tc .vmem S8x4096x256 .f32).slice (Rect.unit (s := S8x4096x256) ![6, 0, 0] S1x2048x256.size inb_S8x4096x256_S1x2048x256_6_0_0) (fun _ => rfl)).squeeze S2048x256 squeezes_S1x2048x256_S2048x256)
  | ⟨6, _⟩, ⟨1, _⟩ => (((Memref.whole cc0_scratch1 : Memref sig .tc .vmem S8x4096x256 .f32).slice (Rect.unit (s := S8x4096x256) ![6, 2048, 0] S1x2048x256.size inb_S8x4096x256_S1x2048x256_6_2048_0) (fun _ => rfl)).squeeze S2048x256 squeezes_S1x2048x256_S2048x256)
  | ⟨7, _⟩, ⟨0, _⟩ => (((Memref.whole cc0_scratch1 : Memref sig .tc .vmem S8x4096x256 .f32).slice (Rect.unit (s := S8x4096x256) ![7, 0, 0] S1x2048x256.size inb_S8x4096x256_S1x2048x256_7_0_0) (fun _ => rfl)).squeeze S2048x256 squeezes_S1x2048x256_S2048x256)
  | ⟨7, _⟩, ⟨1, _⟩ => (((Memref.whole cc0_scratch1 : Memref sig .tc .vmem S8x4096x256 .f32).slice (Rect.unit (s := S8x4096x256) ![7, 2048, 0] S1x2048x256.size inb_S8x4096x256_S1x2048x256_7_2048_0) (fun _ => rfl)).squeeze S2048x256 squeezes_S1x2048x256_S2048x256)
  | ⟨_ + 8, h⟩, _ => absurd h (by omega)
  | _, ⟨_ + 2, h⟩ => absurd h (by omega)

/-- The scratch buffers cut into their pieces, each piece at the contents its buffer has. -/
def piecesAt (c : Dev nD) (fx : Buf (Elt F) ((xbM).view.loc (c : Thread nD τ))) (fw : Buf (Elt F) ((wbM).view.loc (c : Thread nD τ)))
    (fs : Buf (Elt F) ((sbM).view.loc (c : Thread nD τ))) : sProp 𝕄 :=
  iprop(((xQ 0).view.loc (c : Thread nD τ) ↦[(xQ 0).view.set]{fullShare} fx)
    ∗ ((xQ 1).view.loc (c : Thread nD τ) ↦[(xQ 1).view.set]{fullShare} fx)
    ∗ ((xQ 2).view.loc (c : Thread nD τ) ↦[(xQ 2).view.set]{fullShare} fx)
    ∗ ((xQ 3).view.loc (c : Thread nD τ) ↦[(xQ 3).view.set]{fullShare} fx)
    ∗ ((wH 0 0).view.loc (c : Thread nD τ) ↦[(wH 0 0).view.set]{fullShare} fw) ∗ ((wH 0 1).view.loc (c : Thread nD τ) ↦[(wH 0 1).view.set]{fullShare} fw)
    ∗ ((wH 1 0).view.loc (c : Thread nD τ) ↦[(wH 1 0).view.set]{fullShare} fw) ∗ ((wH 1 1).view.loc (c : Thread nD τ) ↦[(wH 1 1).view.set]{fullShare} fw)
    ∗ ((wH 2 0).view.loc (c : Thread nD τ) ↦[(wH 2 0).view.set]{fullShare} fw) ∗ ((wH 2 1).view.loc (c : Thread nD τ) ↦[(wH 2 1).view.set]{fullShare} fw)
    ∗ ((wH 3 0).view.loc (c : Thread nD τ) ↦[(wH 3 0).view.set]{fullShare} fw) ∗ ((wH 3 1).view.loc (c : Thread nD τ) ↦[(wH 3 1).view.set]{fullShare} fw)
    ∗ ((wH 4 0).view.loc (c : Thread nD τ) ↦[(wH 4 0).view.set]{fullShare} fw) ∗ ((wH 4 1).view.loc (c : Thread nD τ) ↦[(wH 4 1).view.set]{fullShare} fw)
    ∗ ((wH 5 0).view.loc (c : Thread nD τ) ↦[(wH 5 0).view.set]{fullShare} fw) ∗ ((wH 5 1).view.loc (c : Thread nD τ) ↦[(wH 5 1).view.set]{fullShare} fw)
    ∗ ((wH 6 0).view.loc (c : Thread nD τ) ↦[(wH 6 0).view.set]{fullShare} fw) ∗ ((wH 6 1).view.loc (c : Thread nD τ) ↦[(wH 6 1).view.set]{fullShare} fw)
    ∗ ((wH 7 0).view.loc (c : Thread nD τ) ↦[(wH 7 0).view.set]{fullShare} fw) ∗ ((wH 7 1).view.loc (c : Thread nD τ) ↦[(wH 7 1).view.set]{fullShare} fw)
    ∗ ((sM 0).view.loc (c : Thread nD τ) ↦[(sM 0).view.set]{fullShare} fs)
    ∗ ((sM 1).view.loc (c : Thread nD τ) ↦[(sM 1).view.set]{fullShare} fs)
    ∗ ((sM 2).view.loc (c : Thread nD τ) ↦[(sM 2).view.set]{fullShare} fs)
    ∗ ((sM 3).view.loc (c : Thread nD τ) ↦[(sM 3).view.set]{fullShare} fs)
    ∗ ((sM 4).view.loc (c : Thread nD τ) ↦[(sM 4).view.set]{fullShare} fs)
    ∗ ((sM 5).view.loc (c : Thread nD τ) ↦[(sM 5).view.set]{fullShare} fs)
    ∗ ((sM 6).view.loc (c : Thread nD τ) ↦[(sM 6).view.set]{fullShare} fs)
    ∗ ((sM 7).view.loc (c : Thread nD τ) ↦[(sM 7).view.set]{fullShare} fs)
    ∗ (∃ f, (rM 0).view.loc (c : Thread nD τ) ↦[(rM 0).view.set]{fullShare} f)
    ∗ (∃ f, (rM 1).view.loc (c : Thread nD τ) ↦[(rM 1).view.set]{fullShare} f)
    ∗ (∃ f, (rM 2).view.loc (c : Thread nD τ) ↦[(rM 2).view.set]{fullShare} f)
    ∗ (∃ f, (rM 3).view.loc (c : Thread nD τ) ↦[(rM 3).view.set]{fullShare} f)
    ∗ (∃ f, (rM 4).view.loc (c : Thread nD τ) ↦[(rM 4).view.set]{fullShare} f)
    ∗ (∃ f, (rM 5).view.loc (c : Thread nD τ) ↦[(rM 5).view.set]{fullShare} f)
    ∗ (∃ f, (rM 6).view.loc (c : Thread nD τ) ↦[(rM 6).view.set]{fullShare} f)
    ∗ (∃ f, (rM 7).view.loc (c : Thread nD τ) ↦[(rM 7).view.set]{fullShare} f))

/-- The same pieces at some contents: what the body leaves of the scratch buffers. -/
def piecesAny (c : Dev nD) : sProp 𝕄 :=
  iprop((∃ f, (xQ 0).view.loc (c : Thread nD τ) ↦[(xQ 0).view.set]{fullShare} f)
    ∗ (∃ f, (xQ 1).view.loc (c : Thread nD τ) ↦[(xQ 1).view.set]{fullShare} f)
    ∗ (∃ f, (xQ 2).view.loc (c : Thread nD τ) ↦[(xQ 2).view.set]{fullShare} f)
    ∗ (∃ f, (xQ 3).view.loc (c : Thread nD τ) ↦[(xQ 3).view.set]{fullShare} f)
    ∗ (∃ f, (wH 0 0).view.loc (c : Thread nD τ) ↦[(wH 0 0).view.set]{fullShare} f) ∗ (∃ f, (wH 0 1).view.loc (c : Thread nD τ) ↦[(wH 0 1).view.set]{fullShare} f)
    ∗ (∃ f, (wH 1 0).view.loc (c : Thread nD τ) ↦[(wH 1 0).view.set]{fullShare} f) ∗ (∃ f, (wH 1 1).view.loc (c : Thread nD τ) ↦[(wH 1 1).view.set]{fullShare} f)
    ∗ (∃ f, (wH 2 0).view.loc (c : Thread nD τ) ↦[(wH 2 0).view.set]{fullShare} f) ∗ (∃ f, (wH 2 1).view.loc (c : Thread nD τ) ↦[(wH 2 1).view.set]{fullShare} f)
    ∗ (∃ f, (wH 3 0).view.loc (c : Thread nD τ) ↦[(wH 3 0).view.set]{fullShare} f) ∗ (∃ f, (wH 3 1).view.loc (c : Thread nD τ) ↦[(wH 3 1).view.set]{fullShare} f)
    ∗ (∃ f, (wH 4 0).view.loc (c : Thread nD τ) ↦[(wH 4 0).view.set]{fullShare} f) ∗ (∃ f, (wH 4 1).view.loc (c : Thread nD τ) ↦[(wH 4 1).view.set]{fullShare} f)
    ∗ (∃ f, (wH 5 0).view.loc (c : Thread nD τ) ↦[(wH 5 0).view.set]{fullShare} f) ∗ (∃ f, (wH 5 1).view.loc (c : Thread nD τ) ↦[(wH 5 1).view.set]{fullShare} f)
    ∗ (∃ f, (wH 6 0).view.loc (c : Thread nD τ) ↦[(wH 6 0).view.set]{fullShare} f) ∗ (∃ f, (wH 6 1).view.loc (c : Thread nD τ) ↦[(wH 6 1).view.set]{fullShare} f)
    ∗ (∃ f, (wH 7 0).view.loc (c : Thread nD τ) ↦[(wH 7 0).view.set]{fullShare} f) ∗ (∃ f, (wH 7 1).view.loc (c : Thread nD τ) ↦[(wH 7 1).view.set]{fullShare} f)
    ∗ (∃ f, (sM 0).view.loc (c : Thread nD τ) ↦[(sM 0).view.set]{fullShare} f)
    ∗ (∃ f, (sM 1).view.loc (c : Thread nD τ) ↦[(sM 1).view.set]{fullShare} f)
    ∗ (∃ f, (sM 2).view.loc (c : Thread nD τ) ↦[(sM 2).view.set]{fullShare} f)
    ∗ (∃ f, (sM 3).view.loc (c : Thread nD τ) ↦[(sM 3).view.set]{fullShare} f)
    ∗ (∃ f, (sM 4).view.loc (c : Thread nD τ) ↦[(sM 4).view.set]{fullShare} f)
    ∗ (∃ f, (sM 5).view.loc (c : Thread nD τ) ↦[(sM 5).view.set]{fullShare} f)
    ∗ (∃ f, (sM 6).view.loc (c : Thread nD τ) ↦[(sM 6).view.set]{fullShare} f)
    ∗ (∃ f, (sM 7).view.loc (c : Thread nD τ) ↦[(sM 7).view.set]{fullShare} f)
    ∗ (∃ f, (rM 0).view.loc (c : Thread nD τ) ↦[(rM 0).view.set]{fullShare} f)
    ∗ (∃ f, (rM 1).view.loc (c : Thread nD τ) ↦[(rM 1).view.set]{fullShare} f)
    ∗ (∃ f, (rM 2).view.loc (c : Thread nD τ) ↦[(rM 2).view.set]{fullShare} f)
    ∗ (∃ f, (rM 3).view.loc (c : Thread nD τ) ↦[(rM 3).view.set]{fullShare} f)
    ∗ (∃ f, (rM 4).view.loc (c : Thread nD τ) ↦[(rM 4).view.set]{fullShare} f)
    ∗ (∃ f, (rM 5).view.loc (c : Thread nD τ) ↦[(rM 5).view.set]{fullShare} f)
    ∗ (∃ f, (rM 6).view.loc (c : Thread nD τ) ↦[(rM 6).view.set]{fullShare} f)
    ∗ (∃ f, (rM 7).view.loc (c : Thread nD τ) ↦[(rM 7).view.set]{fullShare} f))

/-- What the stepped body starts from. -/
def bodyCtx (K : GSem nD τ sig → ℕ) (c : Dev nD) (W : Waits sig Unit)
    (fx : Buf (Elt F) ((xbM).view.loc (c : Thread nD τ))) (fw : Buf (Elt F) ((wbM).view.loc (c : Thread nD τ)))
    (fs : Buf (Elt F) ((sbM).view.loc (c : Thread nD τ))) (fo : Buf (Elt F) ((outM).view.loc (c : Thread nD τ))) : sProp 𝕄 :=
  iprop(ghost m K c ∗ waitCreds c ∗ levAts L lv ∗ plainSems c ∗ argPts m c ∗ piecesAt c fx fw fs
    ∗ ((outM).view.loc (c : Thread nD τ) ↦[(outM).view.set]{fullShare} fo)
    ∗ owes (c : Thread nD τ) (O₀ c) W)

/-- What the stepped body ends with. -/
def bodyEnd (c : Dev nD) : sProp 𝕄 :=
  iprop(argPts m c ∗ piecesAny c ∗ allSems0 c
    ∗ ((outM).view.loc (c : Thread nD τ) ↦[(outM).view.set]{fullShare} outV m c)
    ∗ ∃ W, owes (c : Thread nD τ) 0 W)

end Cert.Kernel.A2A

end
-- ==== Proof.PiecesB.lean ====
/-
  One buffer cut into the pieces the kernel's copies write, and joined back.

  A points-to assertion over a set of elements splits along any partition of the set. The activation buffer
  (512 x 4096) is the disjoint union of its four row-quarters; the weight buffer (8 x 4096 x 256) of its eight
  slots, each slot of its upper and lower half of the rows; the send and receive buffers (8 x 512 x 256) of
  their eight slots. Each piece is held through the slice the program itself forms, so that a copy into the
  piece finds it as its own assertion; before the buffer (or a slot) is read whole, the pieces are joined
  back, each piece's contents replaced by the joint contents it agrees with on its own elements.

  The sixteen windows of the weight array the copies read are pairwise disjoint: two windows of one mask
  differ in their rows (0..2047 against 2048..4095), two windows of different masks in their columns, because
  XOR with the device's own index is injective.
-/
import proofs.«900796_g7700000000000797_dist_gemm_a2a_m4096_k4096_n2048_f32_gelu_v7x_i8_1_alg».proof.Proof.BodyIfaceB
import Idealize.ShloMosaic.Lib.Pipeline.Value

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The activation buffer: four row-quarters -/

/-- Rows `128 j .. 128 j + 127` of the 512 x 4096 index space, all columns. -/
abbrev xR (j : Fin 4) : Rect S512x4096 :=
  Rect.unit (s := S512x4096) ![128 * j.val, 0] S128x4096.size
    (Fin.forall_fin_two.mpr ⟨by show 128 * j.val + 128 ≤ 512; omega, by show 0 + 4096 ≤ 4096; omega⟩)

theorem mem_xR (j : Fin 4) (i : S512x4096.Idx) :
    i ∈ (xR j).set ↔ 128 * j.val ≤ (i 0).val ∧ (i 0).val < 128 * j.val + 128 := by
  have h1 : (i 1 : ℕ) < 4096 := (i 1).isLt
  rw [Rect.mem_set_unit]
  simp only [Fin.forall_fin_two, Matrix.cons_val_zero, Matrix.cons_val_one, Shape.size]
  omega

theorem xQ_set_0 : (xQ 0).view.set = (xR 0).set := View.set_slice_whole _ _
theorem xQ_set_1 : (xQ 1).view.set = (xR 1).set := View.set_slice_whole _ _
theorem xQ_set_2 : (xQ 2).view.set = (xR 2).set := View.set_slice_whole _ _
theorem xQ_set_3 : (xQ 3).view.set = (xR 3).set := View.set_slice_whole _ _

/-- The four quarters cover the index space. -/
theorem x_cover : (Finset.univ : Finset S512x4096.Idx) = (xR 0).set ∪ ((xR 1).set ∪ ((xR 2).set ∪ (xR 3).set)) := by
  ext i
  have h0 : (i 0 : ℕ) < 512 := (i 0).isLt
  simp only [Finset.mem_univ, Finset.mem_union, mem_xR, true_iff]
  simp only [Fin.val_zero, Fin.val_one, Fin.val_two, show ((3 : Fin 4).val = 3) from rfl]
  omega

/-- Quarters at different positions share no element. -/
theorem xR_disj (j k : Fin 4) (h : j ≠ k) : Disjoint (xR j).set (xR k).set := by
  rw [Finset.disjoint_left]
  intro i hi hk
  rw [mem_xR] at hi hk
  have : j.val ≠ k.val := fun e => h (Fin.ext e)
  omega

theorem x_split (c : Dev nD) (f : Buf (Elt F) ((xbM).view.loc (c : Thread nD τ))) :
    (((xbM).view.loc (c : Thread nD τ) ↦[(xbM).view.set]{fullShare} f) : sProp 𝕄) ⊣⊢
      iprop(((xQ 0).view.loc (c : Thread nD τ) ↦[(xQ 0).view.set]{fullShare} f) ∗
            ((xQ 1).view.loc (c : Thread nD τ) ↦[(xQ 1).view.set]{fullShare} f) ∗
            ((xQ 2).view.loc (c : Thread nD τ) ↦[(xQ 2).view.set]{fullShare} f) ∗
            ((xQ 3).view.loc (c : Thread nD τ) ↦[(xQ 3).view.set]{fullShare} f)) := by
  have e : (xbM).view.set = (xR 0).set ∪ ((xR 1).set ∪ ((xR 2).set ∪ ((xR 3).set))) := (View.set_whole _).trans x_cover
  rw [e, xQ_set_0, xQ_set_1, xQ_set_2, xQ_set_3]
  refine BiEntails.trans (Region.is_union (by simp only [Finset.disjoint_union_right]; exact ⟨xR_disj _ _ (by decide), xR_disj _ _ (by decide), xR_disj _ _ (by decide)⟩)) (sep_congr_right ?_)
  refine BiEntails.trans (Region.is_union (by simp only [Finset.disjoint_union_right]; exact ⟨xR_disj _ _ (by decide), xR_disj _ _ (by decide)⟩)) (sep_congr_right ?_)
  exact Region.is_union (xR_disj _ _ (by decide))

theorem x_cut (c : Dev nD) (f : Buf (Elt F) ((xbM).view.loc (c : Thread nD τ))) :
    (((xbM).view.loc (c : Thread nD τ) ↦[(xbM).view.set]{fullShare} f) : sProp 𝕄) ⊢
      iprop(((xQ 0).view.loc (c : Thread nD τ) ↦[(xQ 0).view.set]{fullShare} f) ∗
            ((xQ 1).view.loc (c : Thread nD τ) ↦[(xQ 1).view.set]{fullShare} f) ∗
            ((xQ 2).view.loc (c : Thread nD τ) ↦[(xQ 2).view.set]{fullShare} f) ∗
            ((xQ 3).view.loc (c : Thread nD τ) ↦[(xQ 3).view.set]{fullShare} f)) := (x_split c f).mp
/-- A points-to assertion depends on the contents only at the elements it holds. -/
theorem pt_congr {ℓ : Loc nD τ sig} {I : Finset (Idx ℓ)} {f g : Buf (Elt F) ℓ} (h : ∀ i ∈ I, f i = g i) :
    (ℓ ↦[I]{fullShare} f : sProp 𝕄) = (ℓ ↦[I]{fullShare} g) := Region.is_congr h

theorem x_join (c : Dev nD) (f0 f1 f2 f3 g : Buf (Elt F) (xbM.view.loc (c : Thread nD τ)))
    (h0 : ∀ i ∈ (xQ 0).view.set, f0 i = g i) (h1 : ∀ i ∈ (xQ 1).view.set, f1 i = g i)
    (h2 : ∀ i ∈ (xQ 2).view.set, f2 i = g i) (h3 : ∀ i ∈ (xQ 3).view.set, f3 i = g i) :
    (iprop(((xQ 0).view.loc (c : Thread nD τ) ↦[(xQ 0).view.set]{fullShare} f0) ∗
           ((xQ 1).view.loc (c : Thread nD τ) ↦[(xQ 1).view.set]{fullShare} f1) ∗
           ((xQ 2).view.loc (c : Thread nD τ) ↦[(xQ 2).view.set]{fullShare} f2) ∗
           ((xQ 3).view.loc (c : Thread nD τ) ↦[(xQ 3).view.set]{fullShare} f3)) : sProp 𝕄) ⊢
      (xbM.view.loc (c : Thread nD τ) ↦[xbM.view.set]{fullShare} g) := by
  refine BIBase.Entails.trans (BIClass.sep_mono (BIBase.Entails.of_eq (pt_congr h0)) (BIClass.sep_mono (BIBase.Entails.of_eq (pt_congr h1))
    (BIClass.sep_mono (BIBase.Entails.of_eq (pt_congr h2)) (BIBase.Entails.of_eq (pt_congr h3))))) ?_
  exact (x_split c g).mpr

/-- Two assertions over disjoint sets of one buffer's elements, each at some contents, make one over the union
    (at the contents that are the first's on its set and the second's on its own). -/
theorem pt_join_any {ℓ : Loc nD τ sig} {I J : Finset (Idx ℓ)} (h : Disjoint I J) :
    (iprop((∃ f, ℓ ↦[I]{fullShare} f) ∗ (∃ g, ℓ ↦[J]{fullShare} g)) : sProp 𝕄) ⊢
      iprop(∃ f, ℓ ↦[I ∪ J]{fullShare} f) := by
  refine sep_exists_right.mp.trans (exists_elim fun f => ?_)
  refine sep_exists_left.mp.trans (exists_elim fun g => ?_)
  exact exists_intro_trans (J.piecewise g f) (Region.is_join h)

theorem x_join_any (c : Dev nD) :
    (iprop((∃ f, (xQ 0).view.loc (c : Thread nD τ) ↦[(xQ 0).view.set]{fullShare} f) ∗
            (∃ f, (xQ 1).view.loc (c : Thread nD τ) ↦[(xQ 1).view.set]{fullShare} f) ∗
            (∃ f, (xQ 2).view.loc (c : Thread nD τ) ↦[(xQ 2).view.set]{fullShare} f) ∗
            (∃ f, (xQ 3).view.loc (c : Thread nD τ) ↦[(xQ 3).view.set]{fullShare} f)) : sProp 𝕄) ⊢
      iprop(∃ f, (xbM).view.loc (c : Thread nD τ) ↦[(xbM).view.set]{fullShare} f) := by
  have e : (xbM).view.set = (xR 0).set ∪ ((xR 1).set ∪ ((xR 2).set ∪ ((xR 3).set))) := (View.set_whole _).trans x_cover
  rw [e, xQ_set_0, xQ_set_1, xQ_set_2, xQ_set_3]
  refine BIBase.Entails.trans (sep_mono_right (sep_mono_right (pt_join_any (xR_disj _ _ (by decide))))) ?_
  refine BIBase.Entails.trans (sep_mono_right (pt_join_any (by simp only [Finset.disjoint_union_right]; exact ⟨xR_disj _ _ (by decide), xR_disj _ _ (by decide)⟩))) ?_
  exact pt_join_any (by simp only [Finset.disjoint_union_right]; exact ⟨xR_disj _ _ (by decide), xR_disj _ _ (by decide), xR_disj _ _ (by decide)⟩)

/-- A points-to assertion over a set of elements, at an equal set. -/
theorem pt_set {ℓ : Loc nD τ sig} {I J : Finset (Idx ℓ)} (h : I = J) (f : Buf (Elt F) ℓ) :
    (ℓ ↦[I]{fullShare} f : sProp 𝕄) = (ℓ ↦[J]{fullShare} f) := by rw [h]

/-! ## The windows of the weight array the copies read -/

/-- The window of the weight array copied into the upper half of a slot at mask `r`: rows 0..2047 of the column
    block of the device `c xor r`, as the program names it. -/
abbrev wWin1 (c : Dev nD) : Fin 8 → Memref sig .tc .hbm S2048x256 .f32
  | ⟨0, _⟩ => (Memref.whole main_arg1 : Memref sig .tc .hbm S4096x2048 .f32).slice (Rect.unit (s := S4096x2048) (k0_off1 c 0#32) S2048x256.size (k0_off1_inb c 0)) (fun _ => rfl)
  | ⟨1, _⟩ => (Memref.whole main_arg1 : Memref sig .tc .hbm S4096x2048 .f32).slice (Rect.unit (s := S4096x2048) (k0_off1 c 1#32) S2048x256.size (k0_off1_inb c 1)) (fun _ => rfl)
  | ⟨2, _⟩ => (Memref.whole main_arg1 : Memref sig .tc .hbm S4096x2048 .f32).slice (Rect.unit (s := S4096x2048) (k0_off1 c 2#32) S2048x256.size (k0_off1_inb c 2)) (fun _ => rfl)
  | ⟨3, _⟩ => (Memref.whole main_arg1 : Memref sig .tc .hbm S4096x2048 .f32).slice (Rect.unit (s := S4096x2048) (k0_off1 c 3#32) S2048x256.size (k0_off1_inb c 3)) (fun _ => rfl)
  | ⟨4, _⟩ => (Memref.whole main_arg1 : Memref sig .tc .hbm S4096x2048 .f32).slice (Rect.unit (s := S4096x2048) (k0_off1 c 4#32) S2048x256.size (k0_off1_inb c 4)) (fun _ => rfl)
  | ⟨5, _⟩ => (Memref.whole main_arg1 : Memref sig .tc .hbm S4096x2048 .f32).slice (Rect.unit (s := S4096x2048) (k0_off1 c 5#32) S2048x256.size (k0_off1_inb c 5)) (fun _ => rfl)
  | ⟨6, _⟩ => (Memref.whole main_arg1 : Memref sig .tc .hbm S4096x2048 .f32).slice (Rect.unit (s := S4096x2048) (k0_off1 c 6#32) S2048x256.size (k0_off1_inb c 6)) (fun _ => rfl)
  | ⟨7, _⟩ => (Memref.whole main_arg1 : Memref sig .tc .hbm S4096x2048 .f32).slice (Rect.unit (s := S4096x2048) (k0_off1 c 7#32) S2048x256.size (k0_off1_inb c 7)) (fun _ => rfl)
  | ⟨_ + 8, h⟩ => absurd h (by omega)
/-- The window copied into the lower half: rows 2048..4095 of the same column block. -/
abbrev wWin2 (c : Dev nD) : Fin 8 → Memref sig .tc .hbm S2048x256 .f32
  | ⟨0, _⟩ => (Memref.whole main_arg1 : Memref sig .tc .hbm S4096x2048 .f32).slice (Rect.unit (s := S4096x2048) (k0_off2 c 0#32) S2048x256.size (k0_off2_inb c 0)) (fun _ => rfl)
  | ⟨1, _⟩ => (Memref.whole main_arg1 : Memref sig .tc .hbm S4096x2048 .f32).slice (Rect.unit (s := S4096x2048) (k0_off2 c 1#32) S2048x256.size (k0_off2_inb c 1)) (fun _ => rfl)
  | ⟨2, _⟩ => (Memref.whole main_arg1 : Memref sig .tc .hbm S4096x2048 .f32).slice (Rect.unit (s := S4096x2048) (k0_off2 c 2#32) S2048x256.size (k0_off2_inb c 2)) (fun _ => rfl)
  | ⟨3, _⟩ => (Memref.whole main_arg1 : Memref sig .tc .hbm S4096x2048 .f32).slice (Rect.unit (s := S4096x2048) (k0_off2 c 3#32) S2048x256.size (k0_off2_inb c 3)) (fun _ => rfl)
  | ⟨4, _⟩ => (Memref.whole main_arg1 : Memref sig .tc .hbm S4096x2048 .f32).slice (Rect.unit (s := S4096x2048) (k0_off2 c 4#32) S2048x256.size (k0_off2_inb c 4)) (fun _ => rfl)
  | ⟨5, _⟩ => (Memref.whole main_arg1 : Memref sig .tc .hbm S4096x2048 .f32).slice (Rect.unit (s := S4096x2048) (k0_off2 c 5#32) S2048x256.size (k0_off2_inb c 5)) (fun _ => rfl)
  | ⟨6, _⟩ => (Memref.whole main_arg1 : Memref sig .tc .hbm S4096x2048 .f32).slice (Rect.unit (s := S4096x2048) (k0_off2 c 6#32) S2048x256.size (k0_off2_inb c 6)) (fun _ => rfl)
  | ⟨7, _⟩ => (Memref.whole main_arg1 : Memref sig .tc .hbm S4096x2048 .f32).slice (Rect.unit (s := S4096x2048) (k0_off2 c 7#32) S2048x256.size (k0_off2_inb c 7)) (fun _ => rfl)
  | ⟨_ + 8, h⟩ => absurd h (by omega)

/-- The two windows' rectangles, at a mask that is a variable. -/
abbrev wWR1 (c : Dev nD) (r : Fin 8) : Rect S4096x2048 :=
  Rect.unit (s := S4096x2048) (k0_off1 c (BitVec.ofNat 32 r.val)) S2048x256.size (k0_off1_inb c r)
abbrev wWR2 (c : Dev nD) (r : Fin 8) : Rect S4096x2048 :=
  Rect.unit (s := S4096x2048) (k0_off2 c (BitVec.ofNat 32 r.val)) S2048x256.size (k0_off2_inb c r)

theorem wWin1_set_0 (c : Dev nD) : (wWin1 c 0).view.set = (wWR1 c 0).set := View.set_slice_whole _ _
theorem wWin1_set_1 (c : Dev nD) : (wWin1 c 1).view.set = (wWR1 c 1).set := View.set_slice_whole _ _
theorem wWin1_set_2 (c : Dev nD) : (wWin1 c 2).view.set = (wWR1 c 2).set := View.set_slice_whole _ _
theorem wWin1_set_3 (c : Dev nD) : (wWin1 c 3).view.set = (wWR1 c 3).set := View.set_slice_whole _ _
theorem wWin1_set_4 (c : Dev nD) : (wWin1 c 4).view.set = (wWR1 c 4).set := View.set_slice_whole _ _
theorem wWin1_set_5 (c : Dev nD) : (wWin1 c 5).view.set = (wWR1 c 5).set := View.set_slice_whole _ _
theorem wWin1_set_6 (c : Dev nD) : (wWin1 c 6).view.set = (wWR1 c 6).set := View.set_slice_whole _ _
theorem wWin1_set_7 (c : Dev nD) : (wWin1 c 7).view.set = (wWR1 c 7).set := View.set_slice_whole _ _
theorem wWin2_set_0 (c : Dev nD) : (wWin2 c 0).view.set = (wWR2 c 0).set := View.set_slice_whole _ _
theorem wWin2_set_1 (c : Dev nD) : (wWin2 c 1).view.set = (wWR2 c 1).set := View.set_slice_whole _ _
theorem wWin2_set_2 (c : Dev nD) : (wWin2 c 2).view.set = (wWR2 c 2).set := View.set_slice_whole _ _
theorem wWin2_set_3 (c : Dev nD) : (wWin2 c 3).view.set = (wWR2 c 3).set := View.set_slice_whole _ _
theorem wWin2_set_4 (c : Dev nD) : (wWin2 c 4).view.set = (wWR2 c 4).set := View.set_slice_whole _ _
theorem wWin2_set_5 (c : Dev nD) : (wWin2 c 5).view.set = (wWR2 c 5).set := View.set_slice_whole _ _
theorem wWin2_set_6 (c : Dev nD) : (wWin2 c 6).view.set = (wWR2 c 6).set := View.set_slice_whole _ _
theorem wWin2_set_7 (c : Dev nD) : (wWin2 c 7).view.set = (wWR2 c 7).set := View.set_slice_whole _ _

/-- Upper windows at different masks lie in different column blocks. -/
theorem wWR11_disj (c : Dev nD) (r r' : Fin 8) (h : r ≠ r') : Disjoint (wWR1 c r).set (wWR1 c r').set := by
  have hp : (px c r).val ≠ (px c r').val := fun e => h (px_inj c (Fin.ext e))
  refine Rect.unit_disjoint 1 ?_
  rw [off1_eq c r, off1_eq c r']
  show 256 * (px c r).val + 256 ≤ 256 * (px c r').val ∨ 256 * (px c r').val + 256 ≤ 256 * (px c r).val
  omega
/-- Lower windows at different masks lie in different column blocks. -/
theorem wWR22_disj (c : Dev nD) (r r' : Fin 8) (h : r ≠ r') : Disjoint (wWR2 c r).set (wWR2 c r').set := by
  have hp : (px c r).val ≠ (px c r').val := fun e => h (px_inj c (Fin.ext e))
  refine Rect.unit_disjoint 1 ?_
  rw [off2_eq c r, off2_eq c r']
  show 256 * (px c r).val + 256 ≤ 256 * (px c r').val ∨ 256 * (px c r').val + 256 ≤ 256 * (px c r).val
  omega
/-- An upper and a lower window lie in different rows, whatever their masks. -/
theorem wWR12_disj (c : Dev nD) (r r' : Fin 8) : Disjoint (wWR1 c r).set (wWR2 c r').set := by
  refine Rect.unit_disjoint 0 ?_
  rw [off1_eq c r, off2_eq c r']
  exact Or.inl (by show 0 + 2048 ≤ 2048; omega)
theorem wWR21_disj (c : Dev nD) (r r' : Fin 8) : Disjoint (wWR2 c r).set (wWR1 c r').set :=
  (wWR12_disj c r' r).symm

/-! Every two distinct windows, by name: `wwin_disj_<k><r>_<k'><r'>` for window `k` (1 upper, 2 lower) at mask `r`
    against window `k'` at mask `r'`, the pair in the order upper before lower, then by mask. -/
theorem wwin_disj_10_11 (c : Dev nD) : Disjoint (wWin1 c 0).view.set (wWin1 c 1).view.set := by
  rw [wWin1_set_0, wWin1_set_1]; exact wWR11_disj c 0 1 (by decide)
theorem wwin_disj_10_12 (c : Dev nD) : Disjoint (wWin1 c 0).view.set (wWin1 c 2).view.set := by
  rw [wWin1_set_0, wWin1_set_2]; exact wWR11_disj c 0 2 (by decide)
theorem wwin_disj_10_13 (c : Dev nD) : Disjoint (wWin1 c 0).view.set (wWin1 c 3).view.set := by
  rw [wWin1_set_0, wWin1_set_3]; exact wWR11_disj c 0 3 (by decide)
theorem wwin_disj_10_14 (c : Dev nD) : Disjoint (wWin1 c 0).view.set (wWin1 c 4).view.set := by
  rw [wWin1_set_0, wWin1_set_4]; exact wWR11_disj c 0 4 (by decide)
theorem wwin_disj_10_15 (c : Dev nD) : Disjoint (wWin1 c 0).view.set (wWin1 c 5).view.set := by
  rw [wWin1_set_0, wWin1_set_5]; exact wWR11_disj c 0 5 (by decide)
theorem wwin_disj_10_16 (c : Dev nD) : Disjoint (wWin1 c 0).view.set (wWin1 c 6).view.set := by
  rw [wWin1_set_0, wWin1_set_6]; exact wWR11_disj c 0 6 (by decide)
theorem wwin_disj_10_17 (c : Dev nD) : Disjoint (wWin1 c 0).view.set (wWin1 c 7).view.set := by
  rw [wWin1_set_0, wWin1_set_7]; exact wWR11_disj c 0 7 (by decide)
theorem wwin_disj_10_20 (c : Dev nD) : Disjoint (wWin1 c 0).view.set (wWin2 c 0).view.set := by
  rw [wWin1_set_0, wWin2_set_0]; exact wWR12_disj c 0 0
theorem wwin_disj_10_21 (c : Dev nD) : Disjoint (wWin1 c 0).view.set (wWin2 c 1).view.set := by
  rw [wWin1_set_0, wWin2_set_1]; exact wWR12_disj c 0 1
theorem wwin_disj_10_22 (c : Dev nD) : Disjoint (wWin1 c 0).view.set (wWin2 c 2).view.set := by
  rw [wWin1_set_0, wWin2_set_2]; exact wWR12_disj c 0 2
theorem wwin_disj_10_23 (c : Dev nD) : Disjoint (wWin1 c 0).view.set (wWin2 c 3).view.set := by
  rw [wWin1_set_0, wWin2_set_3]; exact wWR12_disj c 0 3
theorem wwin_disj_10_24 (c : Dev nD) : Disjoint (wWin1 c 0).view.set (wWin2 c 4).view.set := by
  rw [wWin1_set_0, wWin2_set_4]; exact wWR12_disj c 0 4
theorem wwin_disj_10_25 (c : Dev nD) : Disjoint (wWin1 c 0).view.set (wWin2 c 5).view.set := by
  rw [wWin1_set_0, wWin2_set_5]; exact wWR12_disj c 0 5
theorem wwin_disj_10_26 (c : Dev nD) : Disjoint (wWin1 c 0).view.set (wWin2 c 6).view.set := by
  rw [wWin1_set_0, wWin2_set_6]; exact wWR12_disj c 0 6
theorem wwin_disj_10_27 (c : Dev nD) : Disjoint (wWin1 c 0).view.set (wWin2 c 7).view.set := by
  rw [wWin1_set_0, wWin2_set_7]; exact wWR12_disj c 0 7
theorem wwin_disj_11_12 (c : Dev nD) : Disjoint (wWin1 c 1).view.set (wWin1 c 2).view.set := by
  rw [wWin1_set_1, wWin1_set_2]; exact wWR11_disj c 1 2 (by decide)
theorem wwin_disj_11_13 (c : Dev nD) : Disjoint (wWin1 c 1).view.set (wWin1 c 3).view.set := by
  rw [wWin1_set_1, wWin1_set_3]; exact wWR11_disj c 1 3 (by decide)
theorem wwin_disj_11_14 (c : Dev nD) : Disjoint (wWin1 c 1).view.set (wWin1 c 4).view.set := by
  rw [wWin1_set_1, wWin1_set_4]; exact wWR11_disj c 1 4 (by decide)
theorem wwin_disj_11_15 (c : Dev nD) : Disjoint (wWin1 c 1).view.set (wWin1 c 5).view.set := by
  rw [wWin1_set_1, wWin1_set_5]; exact wWR11_disj c 1 5 (by decide)
theorem wwin_disj_11_16 (c : Dev nD) : Disjoint (wWin1 c 1).view.set (wWin1 c 6).view.set := by
  rw [wWin1_set_1, wWin1_set_6]; exact wWR11_disj c 1 6 (by decide)
theorem wwin_disj_11_17 (c : Dev nD) : Disjoint (wWin1 c 1).view.set (wWin1 c 7).view.set := by
  rw [wWin1_set_1, wWin1_set_7]; exact wWR11_disj c 1 7 (by decide)
theorem wwin_disj_11_20 (c : Dev nD) : Disjoint (wWin1 c 1).view.set (wWin2 c 0).view.set := by
  rw [wWin1_set_1, wWin2_set_0]; exact wWR12_disj c 1 0
theorem wwin_disj_11_21 (c : Dev nD) : Disjoint (wWin1 c 1).view.set (wWin2 c 1).view.set := by
  rw [wWin1_set_1, wWin2_set_1]; exact wWR12_disj c 1 1
theorem wwin_disj_11_22 (c : Dev nD) : Disjoint (wWin1 c 1).view.set (wWin2 c 2).view.set := by
  rw [wWin1_set_1, wWin2_set_2]; exact wWR12_disj c 1 2
theorem wwin_disj_11_23 (c : Dev nD) : Disjoint (wWin1 c 1).view.set (wWin2 c 3).view.set := by
  rw [wWin1_set_1, wWin2_set_3]; exact wWR12_disj c 1 3
theorem wwin_disj_11_24 (c : Dev nD) : Disjoint (wWin1 c 1).view.set (wWin2 c 4).view.set := by
  rw [wWin1_set_1, wWin2_set_4]; exact wWR12_disj c 1 4
theorem wwin_disj_11_25 (c : Dev nD) : Disjoint (wWin1 c 1).view.set (wWin2 c 5).view.set := by
  rw [wWin1_set_1, wWin2_set_5]; exact wWR12_disj c 1 5
theorem wwin_disj_11_26 (c : Dev nD) : Disjoint (wWin1 c 1).view.set (wWin2 c 6).view.set := by
  rw [wWin1_set_1, wWin2_set_6]; exact wWR12_disj c 1 6
theorem wwin_disj_11_27 (c : Dev nD) : Disjoint (wWin1 c 1).view.set (wWin2 c 7).view.set := by
  rw [wWin1_set_1, wWin2_set_7]; exact wWR12_disj c 1 7
theorem wwin_disj_12_13 (c : Dev nD) : Disjoint (wWin1 c 2).view.set (wWin1 c 3).view.set := by
  rw [wWin1_set_2, wWin1_set_3]; exact wWR11_disj c 2 3 (by decide)
theorem wwin_disj_12_14 (c : Dev nD) : Disjoint (wWin1 c 2).view.set (wWin1 c 4).view.set := by
  rw [wWin1_set_2, wWin1_set_4]; exact wWR11_disj c 2 4 (by decide)
theorem wwin_disj_12_15 (c : Dev nD) : Disjoint (wWin1 c 2).view.set (wWin1 c 5).view.set := by
  rw [wWin1_set_2, wWin1_set_5]; exact wWR11_disj c 2 5 (by decide)
theorem wwin_disj_12_16 (c : Dev nD) : Disjoint (wWin1 c 2).view.set (wWin1 c 6).view.set := by
  rw [wWin1_set_2, wWin1_set_6]; exact wWR11_disj c 2 6 (by decide)
theorem wwin_disj_12_17 (c : Dev nD) : Disjoint (wWin1 c 2).view.set (wWin1 c 7).view.set := by
  rw [wWin1_set_2, wWin1_set_7]; exact wWR11_disj c 2 7 (by decide)
theorem wwin_disj_12_20 (c : Dev nD) : Disjoint (wWin1 c 2).view.set (wWin2 c 0).view.set := by
  rw [wWin1_set_2, wWin2_set_0]; exact wWR12_disj c 2 0
theorem wwin_disj_12_21 (c : Dev nD) : Disjoint (wWin1 c 2).view.set (wWin2 c 1).view.set := by
  rw [wWin1_set_2, wWin2_set_1]; exact wWR12_disj c 2 1
theorem wwin_disj_12_22 (c : Dev nD) : Disjoint (wWin1 c 2).view.set (wWin2 c 2).view.set := by
  rw [wWin1_set_2, wWin2_set_2]; exact wWR12_disj c 2 2
theorem wwin_disj_12_23 (c : Dev nD) : Disjoint (wWin1 c 2).view.set (wWin2 c 3).view.set := by
  rw [wWin1_set_2, wWin2_set_3]; exact wWR12_disj c 2 3
theorem wwin_disj_12_24 (c : Dev nD) : Disjoint (wWin1 c 2).view.set (wWin2 c 4).view.set := by
  rw [wWin1_set_2, wWin2_set_4]; exact wWR12_disj c 2 4
theorem wwin_disj_12_25 (c : Dev nD) : Disjoint (wWin1 c 2).view.set (wWin2 c 5).view.set := by
  rw [wWin1_set_2, wWin2_set_5]; exact wWR12_disj c 2 5
theorem wwin_disj_12_26 (c : Dev nD) : Disjoint (wWin1 c 2).view.set (wWin2 c 6).view.set := by
  rw [wWin1_set_2, wWin2_set_6]; exact wWR12_disj c 2 6
theorem wwin_disj_12_27 (c : Dev nD) : Disjoint (wWin1 c 2).view.set (wWin2 c 7).view.set := by
  rw [wWin1_set_2, wWin2_set_7]; exact wWR12_disj c 2 7
theorem wwin_disj_13_14 (c : Dev nD) : Disjoint (wWin1 c 3).view.set (wWin1 c 4).view.set := by
  rw [wWin1_set_3, wWin1_set_4]; exact wWR11_disj c 3 4 (by decide)
theorem wwin_disj_13_15 (c : Dev nD) : Disjoint (wWin1 c 3).view.set (wWin1 c 5).view.set := by
  rw [wWin1_set_3, wWin1_set_5]; exact wWR11_disj c 3 5 (by decide)
theorem wwin_disj_13_16 (c : Dev nD) : Disjoint (wWin1 c 3).view.set (wWin1 c 6).view.set := by
  rw [wWin1_set_3, wWin1_set_6]; exact wWR11_disj c 3 6 (by decide)
theorem wwin_disj_13_17 (c : Dev nD) : Disjoint (wWin1 c 3).view.set (wWin1 c 7).view.set := by
  rw [wWin1_set_3, wWin1_set_7]; exact wWR11_disj c 3 7 (by decide)
theorem wwin_disj_13_20 (c : Dev nD) : Disjoint (wWin1 c 3).view.set (wWin2 c 0).view.set := by
  rw [wWin1_set_3, wWin2_set_0]; exact wWR12_disj c 3 0
theorem wwin_disj_13_21 (c : Dev nD) : Disjoint (wWin1 c 3).view.set (wWin2 c 1).view.set := by
  rw [wWin1_set_3, wWin2_set_1]; exact wWR12_disj c 3 1
theorem wwin_disj_13_22 (c : Dev nD) : Disjoint (wWin1 c 3).view.set (wWin2 c 2).view.set := by
  rw [wWin1_set_3, wWin2_set_2]; exact wWR12_disj c 3 2
theorem wwin_disj_13_23 (c : Dev nD) : Disjoint (wWin1 c 3).view.set (wWin2 c 3).view.set := by
  rw [wWin1_set_3, wWin2_set_3]; exact wWR12_disj c 3 3
theorem wwin_disj_13_24 (c : Dev nD) : Disjoint (wWin1 c 3).view.set (wWin2 c 4).view.set := by
  rw [wWin1_set_3, wWin2_set_4]; exact wWR12_disj c 3 4
theorem wwin_disj_13_25 (c : Dev nD) : Disjoint (wWin1 c 3).view.set (wWin2 c 5).view.set := by
  rw [wWin1_set_3, wWin2_set_5]; exact wWR12_disj c 3 5
theorem wwin_disj_13_26 (c : Dev nD) : Disjoint (wWin1 c 3).view.set (wWin2 c 6).view.set := by
  rw [wWin1_set_3, wWin2_set_6]; exact wWR12_disj c 3 6
theorem wwin_disj_13_27 (c : Dev nD) : Disjoint (wWin1 c 3).view.set (wWin2 c 7).view.set := by
  rw [wWin1_set_3, wWin2_set_7]; exact wWR12_disj c 3 7
theorem wwin_disj_14_15 (c : Dev nD) : Disjoint (wWin1 c 4).view.set (wWin1 c 5).view.set := by
  rw [wWin1_set_4, wWin1_set_5]; exact wWR11_disj c 4 5 (by decide)
theorem wwin_disj_14_16 (c : Dev nD) : Disjoint (wWin1 c 4).view.set (wWin1 c 6).view.set := by
  rw [wWin1_set_4, wWin1_set_6]; exact wWR11_disj c 4 6 (by decide)
theorem wwin_disj_14_17 (c : Dev nD) : Disjoint (wWin1 c 4).view.set (wWin1 c 7).view.set := by
  rw [wWin1_set_4, wWin1_set_7]; exact wWR11_disj c 4 7 (by decide)
theorem wwin_disj_14_20 (c : Dev nD) : Disjoint (wWin1 c 4).view.set (wWin2 c 0).view.set := by
  rw [wWin1_set_4, wWin2_set_0]; exact wWR12_disj c 4 0
theorem wwin_disj_14_21 (c : Dev nD) : Disjoint (wWin1 c 4).view.set (wWin2 c 1).view.set := by
  rw [wWin1_set_4, wWin2_set_1]; exact wWR12_disj c 4 1
theorem wwin_disj_14_22 (c : Dev nD) : Disjoint (wWin1 c 4).view.set (wWin2 c 2).view.set := by
  rw [wWin1_set_4, wWin2_set_2]; exact wWR12_disj c 4 2
theorem wwin_disj_14_23 (c : Dev nD) : Disjoint (wWin1 c 4).view.set (wWin2 c 3).view.set := by
  rw [wWin1_set_4, wWin2_set_3]; exact wWR12_disj c 4 3
theorem wwin_disj_14_24 (c : Dev nD) : Disjoint (wWin1 c 4).view.set (wWin2 c 4).view.set := by
  rw [wWin1_set_4, wWin2_set_4]; exact wWR12_disj c 4 4
theorem wwin_disj_14_25 (c : Dev nD) : Disjoint (wWin1 c 4).view.set (wWin2 c 5).view.set := by
  rw [wWin1_set_4, wWin2_set_5]; exact wWR12_disj c 4 5
theorem wwin_disj_14_26 (c : Dev nD) : Disjoint (wWin1 c 4).view.set (wWin2 c 6).view.set := by
  rw [wWin1_set_4, wWin2_set_6]; exact wWR12_disj c 4 6
theorem wwin_disj_14_27 (c : Dev nD) : Disjoint (wWin1 c 4).view.set (wWin2 c 7).view.set := by
  rw [wWin1_set_4, wWin2_set_7]; exact wWR12_disj c 4 7
theorem wwin_disj_15_16 (c : Dev nD) : Disjoint (wWin1 c 5).view.set (wWin1 c 6).view.set := by
  rw [wWin1_set_5, wWin1_set_6]; exact wWR11_disj c 5 6 (by decide)
theorem wwin_disj_15_17 (c : Dev nD) : Disjoint (wWin1 c 5).view.set (wWin1 c 7).view.set := by
  rw [wWin1_set_5, wWin1_set_7]; exact wWR11_disj c 5 7 (by decide)
theorem wwin_disj_15_20 (c : Dev nD) : Disjoint (wWin1 c 5).view.set (wWin2 c 0).view.set := by
  rw [wWin1_set_5, wWin2_set_0]; exact wWR12_disj c 5 0
theorem wwin_disj_15_21 (c : Dev nD) : Disjoint (wWin1 c 5).view.set (wWin2 c 1).view.set := by
  rw [wWin1_set_5, wWin2_set_1]; exact wWR12_disj c 5 1
theorem wwin_disj_15_22 (c : Dev nD) : Disjoint (wWin1 c 5).view.set (wWin2 c 2).view.set := by
  rw [wWin1_set_5, wWin2_set_2]; exact wWR12_disj c 5 2
theorem wwin_disj_15_23 (c : Dev nD) : Disjoint (wWin1 c 5).view.set (wWin2 c 3).view.set := by
  rw [wWin1_set_5, wWin2_set_3]; exact wWR12_disj c 5 3
theorem wwin_disj_15_24 (c : Dev nD) : Disjoint (wWin1 c 5).view.set (wWin2 c 4).view.set := by
  rw [wWin1_set_5, wWin2_set_4]; exact wWR12_disj c 5 4
theorem wwin_disj_15_25 (c : Dev nD) : Disjoint (wWin1 c 5).view.set (wWin2 c 5).view.set := by
  rw [wWin1_set_5, wWin2_set_5]; exact wWR12_disj c 5 5
theorem wwin_disj_15_26 (c : Dev nD) : Disjoint (wWin1 c 5).view.set (wWin2 c 6).view.set := by
  rw [wWin1_set_5, wWin2_set_6]; exact wWR12_disj c 5 6
theorem wwin_disj_15_27 (c : Dev nD) : Disjoint (wWin1 c 5).view.set (wWin2 c 7).view.set := by
  rw [wWin1_set_5, wWin2_set_7]; exact wWR12_disj c 5 7
theorem wwin_disj_16_17 (c : Dev nD) : Disjoint (wWin1 c 6).view.set (wWin1 c 7).view.set := by
  rw [wWin1_set_6, wWin1_set_7]; exact wWR11_disj c 6 7 (by decide)
theorem wwin_disj_16_20 (c : Dev nD) : Disjoint (wWin1 c 6).view.set (wWin2 c 0).view.set := by
  rw [wWin1_set_6, wWin2_set_0]; exact wWR12_disj c 6 0
theorem wwin_disj_16_21 (c : Dev nD) : Disjoint (wWin1 c 6).view.set (wWin2 c 1).view.set := by
  rw [wWin1_set_6, wWin2_set_1]; exact wWR12_disj c 6 1
theorem wwin_disj_16_22 (c : Dev nD) : Disjoint (wWin1 c 6).view.set (wWin2 c 2).view.set := by
  rw [wWin1_set_6, wWin2_set_2]; exact wWR12_disj c 6 2
theorem wwin_disj_16_23 (c : Dev nD) : Disjoint (wWin1 c 6).view.set (wWin2 c 3).view.set := by
  rw [wWin1_set_6, wWin2_set_3]; exact wWR12_disj c 6 3
theorem wwin_disj_16_24 (c : Dev nD) : Disjoint (wWin1 c 6).view.set (wWin2 c 4).view.set := by
  rw [wWin1_set_6, wWin2_set_4]; exact wWR12_disj c 6 4
theorem wwin_disj_16_25 (c : Dev nD) : Disjoint (wWin1 c 6).view.set (wWin2 c 5).view.set := by
  rw [wWin1_set_6, wWin2_set_5]; exact wWR12_disj c 6 5
theorem wwin_disj_16_26 (c : Dev nD) : Disjoint (wWin1 c 6).view.set (wWin2 c 6).view.set := by
  rw [wWin1_set_6, wWin2_set_6]; exact wWR12_disj c 6 6
theorem wwin_disj_16_27 (c : Dev nD) : Disjoint (wWin1 c 6).view.set (wWin2 c 7).view.set := by
  rw [wWin1_set_6, wWin2_set_7]; exact wWR12_disj c 6 7
theorem wwin_disj_17_20 (c : Dev nD) : Disjoint (wWin1 c 7).view.set (wWin2 c 0).view.set := by
  rw [wWin1_set_7, wWin2_set_0]; exact wWR12_disj c 7 0
theorem wwin_disj_17_21 (c : Dev nD) : Disjoint (wWin1 c 7).view.set (wWin2 c 1).view.set := by
  rw [wWin1_set_7, wWin2_set_1]; exact wWR12_disj c 7 1
theorem wwin_disj_17_22 (c : Dev nD) : Disjoint (wWin1 c 7).view.set (wWin2 c 2).view.set := by
  rw [wWin1_set_7, wWin2_set_2]; exact wWR12_disj c 7 2
theorem wwin_disj_17_23 (c : Dev nD) : Disjoint (wWin1 c 7).view.set (wWin2 c 3).view.set := by
  rw [wWin1_set_7, wWin2_set_3]; exact wWR12_disj c 7 3
theorem wwin_disj_17_24 (c : Dev nD) : Disjoint (wWin1 c 7).view.set (wWin2 c 4).view.set := by
  rw [wWin1_set_7, wWin2_set_4]; exact wWR12_disj c 7 4
theorem wwin_disj_17_25 (c : Dev nD) : Disjoint (wWin1 c 7).view.set (wWin2 c 5).view.set := by
  rw [wWin1_set_7, wWin2_set_5]; exact wWR12_disj c 7 5
theorem wwin_disj_17_26 (c : Dev nD) : Disjoint (wWin1 c 7).view.set (wWin2 c 6).view.set := by
  rw [wWin1_set_7, wWin2_set_6]; exact wWR12_disj c 7 6
theorem wwin_disj_17_27 (c : Dev nD) : Disjoint (wWin1 c 7).view.set (wWin2 c 7).view.set := by
  rw [wWin1_set_7, wWin2_set_7]; exact wWR12_disj c 7 7
theorem wwin_disj_20_21 (c : Dev nD) : Disjoint (wWin2 c 0).view.set (wWin2 c 1).view.set := by
  rw [wWin2_set_0, wWin2_set_1]; exact wWR22_disj c 0 1 (by decide)
theorem wwin_disj_20_22 (c : Dev nD) : Disjoint (wWin2 c 0).view.set (wWin2 c 2).view.set := by
  rw [wWin2_set_0, wWin2_set_2]; exact wWR22_disj c 0 2 (by decide)
theorem wwin_disj_20_23 (c : Dev nD) : Disjoint (wWin2 c 0).view.set (wWin2 c 3).view.set := by
  rw [wWin2_set_0, wWin2_set_3]; exact wWR22_disj c 0 3 (by decide)
theorem wwin_disj_20_24 (c : Dev nD) : Disjoint (wWin2 c 0).view.set (wWin2 c 4).view.set := by
  rw [wWin2_set_0, wWin2_set_4]; exact wWR22_disj c 0 4 (by decide)
theorem wwin_disj_20_25 (c : Dev nD) : Disjoint (wWin2 c 0).view.set (wWin2 c 5).view.set := by
  rw [wWin2_set_0, wWin2_set_5]; exact wWR22_disj c 0 5 (by decide)
theorem wwin_disj_20_26 (c : Dev nD) : Disjoint (wWin2 c 0).view.set (wWin2 c 6).view.set := by
  rw [wWin2_set_0, wWin2_set_6]; exact wWR22_disj c 0 6 (by decide)
theorem wwin_disj_20_27 (c : Dev nD) : Disjoint (wWin2 c 0).view.set (wWin2 c 7).view.set := by
  rw [wWin2_set_0, wWin2_set_7]; exact wWR22_disj c 0 7 (by decide)
theorem wwin_disj_21_22 (c : Dev nD) : Disjoint (wWin2 c 1).view.set (wWin2 c 2).view.set := by
  rw [wWin2_set_1, wWin2_set_2]; exact wWR22_disj c 1 2 (by decide)
theorem wwin_disj_21_23 (c : Dev nD) : Disjoint (wWin2 c 1).view.set (wWin2 c 3).view.set := by
  rw [wWin2_set_1, wWin2_set_3]; exact wWR22_disj c 1 3 (by decide)
theorem wwin_disj_21_24 (c : Dev nD) : Disjoint (wWin2 c 1).view.set (wWin2 c 4).view.set := by
  rw [wWin2_set_1, wWin2_set_4]; exact wWR22_disj c 1 4 (by decide)
theorem wwin_disj_21_25 (c : Dev nD) : Disjoint (wWin2 c 1).view.set (wWin2 c 5).view.set := by
  rw [wWin2_set_1, wWin2_set_5]; exact wWR22_disj c 1 5 (by decide)
theorem wwin_disj_21_26 (c : Dev nD) : Disjoint (wWin2 c 1).view.set (wWin2 c 6).view.set := by
  rw [wWin2_set_1, wWin2_set_6]; exact wWR22_disj c 1 6 (by decide)
theorem wwin_disj_21_27 (c : Dev nD) : Disjoint (wWin2 c 1).view.set (wWin2 c 7).view.set := by
  rw [wWin2_set_1, wWin2_set_7]; exact wWR22_disj c 1 7 (by decide)
theorem wwin_disj_22_23 (c : Dev nD) : Disjoint (wWin2 c 2).view.set (wWin2 c 3).view.set := by
  rw [wWin2_set_2, wWin2_set_3]; exact wWR22_disj c 2 3 (by decide)
theorem wwin_disj_22_24 (c : Dev nD) : Disjoint (wWin2 c 2).view.set (wWin2 c 4).view.set := by
  rw [wWin2_set_2, wWin2_set_4]; exact wWR22_disj c 2 4 (by decide)
theorem wwin_disj_22_25 (c : Dev nD) : Disjoint (wWin2 c 2).view.set (wWin2 c 5).view.set := by
  rw [wWin2_set_2, wWin2_set_5]; exact wWR22_disj c 2 5 (by decide)
theorem wwin_disj_22_26 (c : Dev nD) : Disjoint (wWin2 c 2).view.set (wWin2 c 6).view.set := by
  rw [wWin2_set_2, wWin2_set_6]; exact wWR22_disj c 2 6 (by decide)
theorem wwin_disj_22_27 (c : Dev nD) : Disjoint (wWin2 c 2).view.set (wWin2 c 7).view.set := by
  rw [wWin2_set_2, wWin2_set_7]; exact wWR22_disj c 2 7 (by decide)
theorem wwin_disj_23_24 (c : Dev nD) : Disjoint (wWin2 c 3).view.set (wWin2 c 4).view.set := by
  rw [wWin2_set_3, wWin2_set_4]; exact wWR22_disj c 3 4 (by decide)
theorem wwin_disj_23_25 (c : Dev nD) : Disjoint (wWin2 c 3).view.set (wWin2 c 5).view.set := by
  rw [wWin2_set_3, wWin2_set_5]; exact wWR22_disj c 3 5 (by decide)
theorem wwin_disj_23_26 (c : Dev nD) : Disjoint (wWin2 c 3).view.set (wWin2 c 6).view.set := by
  rw [wWin2_set_3, wWin2_set_6]; exact wWR22_disj c 3 6 (by decide)
theorem wwin_disj_23_27 (c : Dev nD) : Disjoint (wWin2 c 3).view.set (wWin2 c 7).view.set := by
  rw [wWin2_set_3, wWin2_set_7]; exact wWR22_disj c 3 7 (by decide)
theorem wwin_disj_24_25 (c : Dev nD) : Disjoint (wWin2 c 4).view.set (wWin2 c 5).view.set := by
  rw [wWin2_set_4, wWin2_set_5]; exact wWR22_disj c 4 5 (by decide)
theorem wwin_disj_24_26 (c : Dev nD) : Disjoint (wWin2 c 4).view.set (wWin2 c 6).view.set := by
  rw [wWin2_set_4, wWin2_set_6]; exact wWR22_disj c 4 6 (by decide)
theorem wwin_disj_24_27 (c : Dev nD) : Disjoint (wWin2 c 4).view.set (wWin2 c 7).view.set := by
  rw [wWin2_set_4, wWin2_set_7]; exact wWR22_disj c 4 7 (by decide)
theorem wwin_disj_25_26 (c : Dev nD) : Disjoint (wWin2 c 5).view.set (wWin2 c 6).view.set := by
  rw [wWin2_set_5, wWin2_set_6]; exact wWR22_disj c 5 6 (by decide)
theorem wwin_disj_25_27 (c : Dev nD) : Disjoint (wWin2 c 5).view.set (wWin2 c 7).view.set := by
  rw [wWin2_set_5, wWin2_set_7]; exact wWR22_disj c 5 7 (by decide)
theorem wwin_disj_26_27 (c : Dev nD) : Disjoint (wWin2 c 6).view.set (wWin2 c 7).view.set := by
  rw [wWin2_set_6, wWin2_set_7]; exact wWR22_disj c 6 7 (by decide)

/-- Puts the disjointness of every two distinct windows at device `c` into the context, as plain facts. -/
macro "wwin_haves " c:term : tactic => `(tactic| (
  have := wwin_disj_10_11 $c
  have := wwin_disj_10_12 $c
  have := wwin_disj_10_13 $c
  have := wwin_disj_10_14 $c
  have := wwin_disj_10_15 $c
  have := wwin_disj_10_16 $c
  have := wwin_disj_10_17 $c
  have := wwin_disj_10_20 $c
  have := wwin_disj_10_21 $c
  have := wwin_disj_10_22 $c
  have := wwin_disj_10_23 $c
  have := wwin_disj_10_24 $c
  have := wwin_disj_10_25 $c
  have := wwin_disj_10_26 $c
  have := wwin_disj_10_27 $c
  have := wwin_disj_11_12 $c
  have := wwin_disj_11_13 $c
  have := wwin_disj_11_14 $c
  have := wwin_disj_11_15 $c
  have := wwin_disj_11_16 $c
  have := wwin_disj_11_17 $c
  have := wwin_disj_11_20 $c
  have := wwin_disj_11_21 $c
  have := wwin_disj_11_22 $c
  have := wwin_disj_11_23 $c
  have := wwin_disj_11_24 $c
  have := wwin_disj_11_25 $c
  have := wwin_disj_11_26 $c
  have := wwin_disj_11_27 $c
  have := wwin_disj_12_13 $c
  have := wwin_disj_12_14 $c
  have := wwin_disj_12_15 $c
  have := wwin_disj_12_16 $c
  have := wwin_disj_12_17 $c
  have := wwin_disj_12_20 $c
  have := wwin_disj_12_21 $c
  have := wwin_disj_12_22 $c
  have := wwin_disj_12_23 $c
  have := wwin_disj_12_24 $c
  have := wwin_disj_12_25 $c
  have := wwin_disj_12_26 $c
  have := wwin_disj_12_27 $c
  have := wwin_disj_13_14 $c
  have := wwin_disj_13_15 $c
  have := wwin_disj_13_16 $c
  have := wwin_disj_13_17 $c
  have := wwin_disj_13_20 $c
  have := wwin_disj_13_21 $c
  have := wwin_disj_13_22 $c
  have := wwin_disj_13_23 $c
  have := wwin_disj_13_24 $c
  have := wwin_disj_13_25 $c
  have := wwin_disj_13_26 $c
  have := wwin_disj_13_27 $c
  have := wwin_disj_14_15 $c
  have := wwin_disj_14_16 $c
  have := wwin_disj_14_17 $c
  have := wwin_disj_14_20 $c
  have := wwin_disj_14_21 $c
  have := wwin_disj_14_22 $c
  have := wwin_disj_14_23 $c
  have := wwin_disj_14_24 $c
  have := wwin_disj_14_25 $c
  have := wwin_disj_14_26 $c
  have := wwin_disj_14_27 $c
  have := wwin_disj_15_16 $c
  have := wwin_disj_15_17 $c
  have := wwin_disj_15_20 $c
  have := wwin_disj_15_21 $c
  have := wwin_disj_15_22 $c
  have := wwin_disj_15_23 $c
  have := wwin_disj_15_24 $c
  have := wwin_disj_15_25 $c
  have := wwin_disj_15_26 $c
  have := wwin_disj_15_27 $c
  have := wwin_disj_16_17 $c
  have := wwin_disj_16_20 $c
  have := wwin_disj_16_21 $c
  have := wwin_disj_16_22 $c
  have := wwin_disj_16_23 $c
  have := wwin_disj_16_24 $c
  have := wwin_disj_16_25 $c
  have := wwin_disj_16_26 $c
  have := wwin_disj_16_27 $c
  have := wwin_disj_17_20 $c
  have := wwin_disj_17_21 $c
  have := wwin_disj_17_22 $c
  have := wwin_disj_17_23 $c
  have := wwin_disj_17_24 $c
  have := wwin_disj_17_25 $c
  have := wwin_disj_17_26 $c
  have := wwin_disj_17_27 $c
  have := wwin_disj_20_21 $c
  have := wwin_disj_20_22 $c
  have := wwin_disj_20_23 $c
  have := wwin_disj_20_24 $c
  have := wwin_disj_20_25 $c
  have := wwin_disj_20_26 $c
  have := wwin_disj_20_27 $c
  have := wwin_disj_21_22 $c
  have := wwin_disj_21_23 $c
  have := wwin_disj_21_24 $c
  have := wwin_disj_21_25 $c
  have := wwin_disj_21_26 $c
  have := wwin_disj_21_27 $c
  have := wwin_disj_22_23 $c
  have := wwin_disj_22_24 $c
  have := wwin_disj_22_25 $c
  have := wwin_disj_22_26 $c
  have := wwin_disj_22_27 $c
  have := wwin_disj_23_24 $c
  have := wwin_disj_23_25 $c
  have := wwin_disj_23_26 $c
  have := wwin_disj_23_27 $c
  have := wwin_disj_24_25 $c
  have := wwin_disj_24_26 $c
  have := wwin_disj_24_27 $c
  have := wwin_disj_25_26 $c
  have := wwin_disj_25_27 $c
  have := wwin_disj_26_27 $c))
/-- The literal values of the slot and half indices, for the arithmetic below. -/
theorem fin8_vals : (0 : Fin 8).val = 0 ∧ (1 : Fin 8).val = 1 ∧ (2 : Fin 8).val = 2 ∧ (3 : Fin 8).val = 3 ∧
    (4 : Fin 8).val = 4 ∧ (5 : Fin 8).val = 5 ∧ (6 : Fin 8).val = 6 ∧ (7 : Fin 8).val = 7 := by decide
theorem fin2_vals : (0 : Fin 2).val = 0 ∧ (1 : Fin 2).val = 1 := by decide

/-! ## The weight buffer: eight slots, each in two halves of its rows -/

/-- Slot `s`, rows `2048 h .. 2048 h + 2047`, all columns, of the 8 x 4096 x 256 index space. -/
abbrev wHR (s : Fin 8) (h : Fin 2) : Rect S8x4096x256 :=
  Rect.unit (s := S8x4096x256) ![s.val, 2048 * h.val, 0] S1x2048x256.size
    (Fin.forall_fin_succ.mpr ⟨by show s.val + 1 ≤ 8; omega,
      Fin.forall_fin_two.mpr ⟨by show 2048 * h.val + 2048 ≤ 4096; omega, by show 0 + 256 ≤ 256; omega⟩⟩)

/-- Slot `s`, whole. -/
abbrev wSR (s : Fin 8) : Rect S8x4096x256 :=
  Rect.unit (s := S8x4096x256) ![s.val, 0, 0] S1x4096x256.size
    (Fin.forall_fin_succ.mpr ⟨by show s.val + 1 ≤ 8; omega, Fin.forall_fin_two.mpr ⟨by show 0 + 4096 ≤ 4096; omega, by show 0 + 256 ≤ 256; omega⟩⟩)

theorem mem_wHR (s : Fin 8) (h : Fin 2) (i : S8x4096x256.Idx) :
    i ∈ (wHR s h).set ↔ (i 0).val = s.val ∧ 2048 * h.val ≤ (i 1).val ∧ (i 1).val < 2048 * h.val + 2048 := by
  have h2 : (i 2 : ℕ) < 256 := (i 2).isLt
  rw [Rect.mem_set_unit]
  constructor
  · intro H
    have a0 := H 0; have a1 := H 1
    simp only [Matrix.cons_val_zero, Matrix.cons_val_one, Shape.size] at a0 a1
    omega
  · rintro ⟨e0, e1, e2⟩ a
    fin_cases a
    · show s.val ≤ (i 0).val ∧ (i 0).val < s.val + 1; omega
    · show 2048 * h.val ≤ (i 1).val ∧ (i 1).val < 2048 * h.val + 2048; omega
    · show 0 ≤ (i 2).val ∧ (i 2).val < 0 + 256; omega

theorem mem_wSR (s : Fin 8) (i : S8x4096x256.Idx) : i ∈ (wSR s).set ↔ (i 0).val = s.val := by
  have h1 : (i 1 : ℕ) < 4096 := (i 1).isLt
  have h2 : (i 2 : ℕ) < 256 := (i 2).isLt
  rw [Rect.mem_set_unit]
  constructor
  · intro H
    have a0 := H 0
    simp only [Matrix.cons_val_zero, Shape.size] at a0
    omega
  · rintro e0 a
    fin_cases a
    · show s.val ≤ (i 0).val ∧ (i 0).val < s.val + 1; omega
    · show 0 ≤ (i 1).val ∧ (i 1).val < 0 + 4096; omega
    · show 0 ≤ (i 2).val ∧ (i 2).val < 0 + 256; omega

theorem wH_set_0_0 : (wH 0 0).view.set = (wHR 0 0).set := (View.set_reshape _ _).trans (View.set_slice_whole _ _)
theorem wH_set_0_1 : (wH 0 1).view.set = (wHR 0 1).set := (View.set_reshape _ _).trans (View.set_slice_whole _ _)
theorem wH_set_1_0 : (wH 1 0).view.set = (wHR 1 0).set := (View.set_reshape _ _).trans (View.set_slice_whole _ _)
theorem wH_set_1_1 : (wH 1 1).view.set = (wHR 1 1).set := (View.set_reshape _ _).trans (View.set_slice_whole _ _)
theorem wH_set_2_0 : (wH 2 0).view.set = (wHR 2 0).set := (View.set_reshape _ _).trans (View.set_slice_whole _ _)
theorem wH_set_2_1 : (wH 2 1).view.set = (wHR 2 1).set := (View.set_reshape _ _).trans (View.set_slice_whole _ _)
theorem wH_set_3_0 : (wH 3 0).view.set = (wHR 3 0).set := (View.set_reshape _ _).trans (View.set_slice_whole _ _)
theorem wH_set_3_1 : (wH 3 1).view.set = (wHR 3 1).set := (View.set_reshape _ _).trans (View.set_slice_whole _ _)
theorem wH_set_4_0 : (wH 4 0).view.set = (wHR 4 0).set := (View.set_reshape _ _).trans (View.set_slice_whole _ _)
theorem wH_set_4_1 : (wH 4 1).view.set = (wHR 4 1).set := (View.set_reshape _ _).trans (View.set_slice_whole _ _)
theorem wH_set_5_0 : (wH 5 0).view.set = (wHR 5 0).set := (View.set_reshape _ _).trans (View.set_slice_whole _ _)
theorem wH_set_5_1 : (wH 5 1).view.set = (wHR 5 1).set := (View.set_reshape _ _).trans (View.set_slice_whole _ _)
theorem wH_set_6_0 : (wH 6 0).view.set = (wHR 6 0).set := (View.set_reshape _ _).trans (View.set_slice_whole _ _)
theorem wH_set_6_1 : (wH 6 1).view.set = (wHR 6 1).set := (View.set_reshape _ _).trans (View.set_slice_whole _ _)
theorem wH_set_7_0 : (wH 7 0).view.set = (wHR 7 0).set := (View.set_reshape _ _).trans (View.set_slice_whole _ _)
theorem wH_set_7_1 : (wH 7 1).view.set = (wHR 7 1).set := (View.set_reshape _ _).trans (View.set_slice_whole _ _)

/-- The sixteen half-slots cover the index space. -/
theorem w_cover : (Finset.univ : Finset S8x4096x256.Idx) = (wHR 0 0).set ∪ ((wHR 0 1).set ∪ ((wHR 1 0).set ∪ ((wHR 1 1).set ∪ ((wHR 2 0).set ∪ ((wHR 2 1).set ∪ ((wHR 3 0).set ∪ ((wHR 3 1).set ∪ ((wHR 4 0).set ∪ ((wHR 4 1).set ∪ ((wHR 5 0).set ∪ ((wHR 5 1).set ∪ ((wHR 6 0).set ∪ ((wHR 6 1).set ∪ ((wHR 7 0).set ∪ ((wHR 7 1).set))))))))))))))) := by
  ext i
  have h0 : (i 0 : ℕ) < 8 := (i 0).isLt
  have h1 : (i 1 : ℕ) < 4096 := (i 1).isLt
  obtain ⟨v0, v1, v2, v3, v4, v5, v6, v7⟩ := fin8_vals
  obtain ⟨u0, u1⟩ := fin2_vals
  simp only [Finset.mem_univ, Finset.mem_union, mem_wHR, true_iff, v0, v1, v2, v3, v4, v5, v6, v7, u0, u1]
  omega

/-- Half-slots at different positions share no element. -/
theorem wHR_disj (s s' : Fin 8) (h h' : Fin 2) (hne : s ≠ s' ∨ h ≠ h') : Disjoint (wHR s h).set (wHR s' h').set := by
  rw [Finset.disjoint_left]
  intro i hi hk
  rw [mem_wHR] at hi hk
  rcases hne with hne | hne
  · have : s.val ≠ s'.val := fun e => hne (Fin.ext e)
    omega
  · have : h.val ≠ h'.val := fun e => hne (Fin.ext e)
    omega

/-- The weight buffer as its sixteen half-slots, each held as a set of the buffer's own elements. -/
theorem w_split_R (c : Dev nD) (f : Buf (Elt F) (wbM.view.loc (c : Thread nD τ))) :
    ((wbM.view.loc (c : Thread nD τ) ↦[wbM.view.set]{fullShare} f) : sProp 𝕄) ⊣⊢
      iprop((wbM.view.loc (c : Thread nD τ) ↦[(wHR 0 0).set]{fullShare} f) ∗
            (wbM.view.loc (c : Thread nD τ) ↦[(wHR 0 1).set]{fullShare} f) ∗
            (wbM.view.loc (c : Thread nD τ) ↦[(wHR 1 0).set]{fullShare} f) ∗
            (wbM.view.loc (c : Thread nD τ) ↦[(wHR 1 1).set]{fullShare} f) ∗
            (wbM.view.loc (c : Thread nD τ) ↦[(wHR 2 0).set]{fullShare} f) ∗
            (wbM.view.loc (c : Thread nD τ) ↦[(wHR 2 1).set]{fullShare} f) ∗
            (wbM.view.loc (c : Thread nD τ) ↦[(wHR 3 0).set]{fullShare} f) ∗
            (wbM.view.loc (c : Thread nD τ) ↦[(wHR 3 1).set]{fullShare} f) ∗
            (wbM.view.loc (c : Thread nD τ) ↦[(wHR 4 0).set]{fullShare} f) ∗
            (wbM.view.loc (c : Thread nD τ) ↦[(wHR 4 1).set]{fullShare} f) ∗
            (wbM.view.loc (c : Thread nD τ) ↦[(wHR 5 0).set]{fullShare} f) ∗
            (wbM.view.loc (c : Thread nD τ) ↦[(wHR 5 1).set]{fullShare} f) ∗
            (wbM.view.loc (c : Thread nD τ) ↦[(wHR 6 0).set]{fullShare} f) ∗
            (wbM.view.loc (c : Thread nD τ) ↦[(wHR 6 1).set]{fullShare} f) ∗
            (wbM.view.loc (c : Thread nD τ) ↦[(wHR 7 0).set]{fullShare} f) ∗
            (wbM.view.loc (c : Thread nD τ) ↦[(wHR 7 1).set]{fullShare} f)) := by
  have e : wbM.view.set = (wHR 0 0).set ∪ ((wHR 0 1).set ∪ ((wHR 1 0).set ∪ ((wHR 1 1).set ∪ ((wHR 2 0).set ∪ ((wHR 2 1).set ∪ ((wHR 3 0).set ∪ ((wHR 3 1).set ∪ ((wHR 4 0).set ∪ ((wHR 4 1).set ∪ ((wHR 5 0).set ∪ ((wHR 5 1).set ∪ ((wHR 6 0).set ∪ ((wHR 6 1).set ∪ ((wHR 7 0).set ∪ ((wHR 7 1).set))))))))))))))) := (View.set_whole _).trans w_cover
  rw [e]
  refine BiEntails.trans (Region.is_union (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)) (sep_congr_right ?_)
  refine BiEntails.trans (Region.is_union (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)) (sep_congr_right ?_)
  refine BiEntails.trans (Region.is_union (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)) (sep_congr_right ?_)
  refine BiEntails.trans (Region.is_union (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)) (sep_congr_right ?_)
  refine BiEntails.trans (Region.is_union (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)) (sep_congr_right ?_)
  refine BiEntails.trans (Region.is_union (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)) (sep_congr_right ?_)
  refine BiEntails.trans (Region.is_union (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)) (sep_congr_right ?_)
  refine BiEntails.trans (Region.is_union (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)) (sep_congr_right ?_)
  refine BiEntails.trans (Region.is_union (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)) (sep_congr_right ?_)
  refine BiEntails.trans (Region.is_union (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide)⟩)) (sep_congr_right ?_)
  refine BiEntails.trans (Region.is_union (by simp only [Finset.disjoint_union_right]; exact ⟨wHR_disj _ _ _ _ (by decide), wHR_disj _ _ _ _ (by decide), wHR_disj _ _ _ _ (by decide), wHR_disj _ _ _ _ (by decide), wHR_disj _ _ _ _ (by decide)⟩)) (sep_congr_right ?_)
  refine BiEntails.trans (Region.is_union (by simp only [Finset.disjoint_union_right]; exact ⟨wHR_disj _ _ _ _ (by decide), wHR_disj _ _ _ _ (by decide), wHR_disj _ _ _ _ (by decide), wHR_disj _ _ _ _ (by decide)⟩)) (sep_congr_right ?_)
  refine BiEntails.trans (Region.is_union (by simp only [Finset.disjoint_union_right]; exact ⟨wHR_disj _ _ _ _ (by decide), wHR_disj _ _ _ _ (by decide), wHR_disj _ _ _ _ (by decide)⟩)) (sep_congr_right ?_)
  refine BiEntails.trans (Region.is_union (by simp only [Finset.disjoint_union_right]; exact ⟨wHR_disj _ _ _ _ (by decide), wHR_disj _ _ _ _ (by decide)⟩)) (sep_congr_right ?_)
  exact Region.is_union (wHR_disj _ _ _ _ (by decide))

theorem w_split (c : Dev nD) (f : Buf (Elt F) ((wbM).view.loc (c : Thread nD τ))) :
    (((wbM).view.loc (c : Thread nD τ) ↦[(wbM).view.set]{fullShare} f) : sProp 𝕄) ⊣⊢
      iprop(((wH 0 0).view.loc (c : Thread nD τ) ↦[(wH 0 0).view.set]{fullShare} f) ∗
            ((wH 0 1).view.loc (c : Thread nD τ) ↦[(wH 0 1).view.set]{fullShare} f) ∗
            ((wH 1 0).view.loc (c : Thread nD τ) ↦[(wH 1 0).view.set]{fullShare} f) ∗
            ((wH 1 1).view.loc (c : Thread nD τ) ↦[(wH 1 1).view.set]{fullShare} f) ∗
            ((wH 2 0).view.loc (c : Thread nD τ) ↦[(wH 2 0).view.set]{fullShare} f) ∗
            ((wH 2 1).view.loc (c : Thread nD τ) ↦[(wH 2 1).view.set]{fullShare} f) ∗
            ((wH 3 0).view.loc (c : Thread nD τ) ↦[(wH 3 0).view.set]{fullShare} f) ∗
            ((wH 3 1).view.loc (c : Thread nD τ) ↦[(wH 3 1).view.set]{fullShare} f) ∗
            ((wH 4 0).view.loc (c : Thread nD τ) ↦[(wH 4 0).view.set]{fullShare} f) ∗
            ((wH 4 1).view.loc (c : Thread nD τ) ↦[(wH 4 1).view.set]{fullShare} f) ∗
            ((wH 5 0).view.loc (c : Thread nD τ) ↦[(wH 5 0).view.set]{fullShare} f) ∗
            ((wH 5 1).view.loc (c : Thread nD τ) ↦[(wH 5 1).view.set]{fullShare} f) ∗
            ((wH 6 0).view.loc (c : Thread nD τ) ↦[(wH 6 0).view.set]{fullShare} f) ∗
            ((wH 6 1).view.loc (c : Thread nD τ) ↦[(wH 6 1).view.set]{fullShare} f) ∗
            ((wH 7 0).view.loc (c : Thread nD τ) ↦[(wH 7 0).view.set]{fullShare} f) ∗
            ((wH 7 1).view.loc (c : Thread nD τ) ↦[(wH 7 1).view.set]{fullShare} f)) := by
  refine BiEntails.trans (w_split_R c f) ?_
  exact sep_congr (BiEntails.of_eq (pt_set wH_set_0_0.symm f)) (sep_congr (BiEntails.of_eq (pt_set wH_set_0_1.symm f)) (sep_congr (BiEntails.of_eq (pt_set wH_set_1_0.symm f)) (sep_congr (BiEntails.of_eq (pt_set wH_set_1_1.symm f)) (sep_congr (BiEntails.of_eq (pt_set wH_set_2_0.symm f)) (sep_congr (BiEntails.of_eq (pt_set wH_set_2_1.symm f)) (sep_congr (BiEntails.of_eq (pt_set wH_set_3_0.symm f)) (sep_congr (BiEntails.of_eq (pt_set wH_set_3_1.symm f)) (sep_congr (BiEntails.of_eq (pt_set wH_set_4_0.symm f)) (sep_congr (BiEntails.of_eq (pt_set wH_set_4_1.symm f)) (sep_congr (BiEntails.of_eq (pt_set wH_set_5_0.symm f)) (sep_congr (BiEntails.of_eq (pt_set wH_set_5_1.symm f)) (sep_congr (BiEntails.of_eq (pt_set wH_set_6_0.symm f)) (sep_congr (BiEntails.of_eq (pt_set wH_set_6_1.symm f)) (sep_congr (BiEntails.of_eq (pt_set wH_set_7_0.symm f)) (BiEntails.of_eq (pt_set wH_set_7_1.symm f))))))))))))))))

theorem w_cut (c : Dev nD) (f : Buf (Elt F) ((wbM).view.loc (c : Thread nD τ))) :
    (((wbM).view.loc (c : Thread nD τ) ↦[(wbM).view.set]{fullShare} f) : sProp 𝕄) ⊢
      iprop(((wH 0 0).view.loc (c : Thread nD τ) ↦[(wH 0 0).view.set]{fullShare} f) ∗
            ((wH 0 1).view.loc (c : Thread nD τ) ↦[(wH 0 1).view.set]{fullShare} f) ∗
            ((wH 1 0).view.loc (c : Thread nD τ) ↦[(wH 1 0).view.set]{fullShare} f) ∗
            ((wH 1 1).view.loc (c : Thread nD τ) ↦[(wH 1 1).view.set]{fullShare} f) ∗
            ((wH 2 0).view.loc (c : Thread nD τ) ↦[(wH 2 0).view.set]{fullShare} f) ∗
            ((wH 2 1).view.loc (c : Thread nD τ) ↦[(wH 2 1).view.set]{fullShare} f) ∗
            ((wH 3 0).view.loc (c : Thread nD τ) ↦[(wH 3 0).view.set]{fullShare} f) ∗
            ((wH 3 1).view.loc (c : Thread nD τ) ↦[(wH 3 1).view.set]{fullShare} f) ∗
            ((wH 4 0).view.loc (c : Thread nD τ) ↦[(wH 4 0).view.set]{fullShare} f) ∗
            ((wH 4 1).view.loc (c : Thread nD τ) ↦[(wH 4 1).view.set]{fullShare} f) ∗
            ((wH 5 0).view.loc (c : Thread nD τ) ↦[(wH 5 0).view.set]{fullShare} f) ∗
            ((wH 5 1).view.loc (c : Thread nD τ) ↦[(wH 5 1).view.set]{fullShare} f) ∗
            ((wH 6 0).view.loc (c : Thread nD τ) ↦[(wH 6 0).view.set]{fullShare} f) ∗
            ((wH 6 1).view.loc (c : Thread nD τ) ↦[(wH 6 1).view.set]{fullShare} f) ∗
            ((wH 7 0).view.loc (c : Thread nD τ) ↦[(wH 7 0).view.set]{fullShare} f) ∗
            ((wH 7 1).view.loc (c : Thread nD τ) ↦[(wH 7 1).view.set]{fullShare} f)) := (w_split c f).mp

/-- The sixteen half-slots, each at some contents, make the buffer at some contents. -/
theorem w_join_R (c : Dev nD) :
    (iprop((∃ f, wbM.view.loc (c : Thread nD τ) ↦[(wHR 0 0).set]{fullShare} f) ∗
            (∃ f, wbM.view.loc (c : Thread nD τ) ↦[(wHR 0 1).set]{fullShare} f) ∗
            (∃ f, wbM.view.loc (c : Thread nD τ) ↦[(wHR 1 0).set]{fullShare} f) ∗
            (∃ f, wbM.view.loc (c : Thread nD τ) ↦[(wHR 1 1).set]{fullShare} f) ∗
            (∃ f, wbM.view.loc (c : Thread nD τ) ↦[(wHR 2 0).set]{fullShare} f) ∗
            (∃ f, wbM.view.loc (c : Thread nD τ) ↦[(wHR 2 1).set]{fullShare} f) ∗
            (∃ f, wbM.view.loc (c : Thread nD τ) ↦[(wHR 3 0).set]{fullShare} f) ∗
            (∃ f, wbM.view.loc (c : Thread nD τ) ↦[(wHR 3 1).set]{fullShare} f) ∗
            (∃ f, wbM.view.loc (c : Thread nD τ) ↦[(wHR 4 0).set]{fullShare} f) ∗
            (∃ f, wbM.view.loc (c : Thread nD τ) ↦[(wHR 4 1).set]{fullShare} f) ∗
            (∃ f, wbM.view.loc (c : Thread nD τ) ↦[(wHR 5 0).set]{fullShare} f) ∗
            (∃ f, wbM.view.loc (c : Thread nD τ) ↦[(wHR 5 1).set]{fullShare} f) ∗
            (∃ f, wbM.view.loc (c : Thread nD τ) ↦[(wHR 6 0).set]{fullShare} f) ∗
            (∃ f, wbM.view.loc (c : Thread nD τ) ↦[(wHR 6 1).set]{fullShare} f) ∗
            (∃ f, wbM.view.loc (c : Thread nD τ) ↦[(wHR 7 0).set]{fullShare} f) ∗
            (∃ f, wbM.view.loc (c : Thread nD τ) ↦[(wHR 7 1).set]{fullShare} f)) : sProp 𝕄) ⊢
      iprop(∃ f, wbM.view.loc (c : Thread nD τ) ↦[wbM.view.set]{fullShare} f) := by
  have e : wbM.view.set = (wHR 0 0).set ∪ ((wHR 0 1).set ∪ ((wHR 1 0).set ∪ ((wHR 1 1).set ∪ ((wHR 2 0).set ∪ ((wHR 2 1).set ∪ ((wHR 3 0).set ∪ ((wHR 3 1).set ∪ ((wHR 4 0).set ∪ ((wHR 4 1).set ∪ ((wHR 5 0).set ∪ ((wHR 5 1).set ∪ ((wHR 6 0).set ∪ ((wHR 6 1).set ∪ ((wHR 7 0).set ∪ ((wHR 7 1).set))))))))))))))) := (View.set_whole _).trans w_cover
  rw [e]
  refine BIBase.Entails.trans (sep_mono_right (sep_mono_right (sep_mono_right (sep_mono_right (sep_mono_right (sep_mono_right (sep_mono_right (sep_mono_right (sep_mono_right (sep_mono_right (sep_mono_right (sep_mono_right (sep_mono_right (sep_mono_right (pt_join_any (wHR_disj _ _ _ _ (by decide))))))))))))))))) ?_
  refine BIBase.Entails.trans (sep_mono_right (sep_mono_right (sep_mono_right (sep_mono_right (sep_mono_right (sep_mono_right (sep_mono_right (sep_mono_right (sep_mono_right (sep_mono_right (sep_mono_right (sep_mono_right (sep_mono_right (pt_join_any (by simp only [Finset.disjoint_union_right]; exact ⟨wHR_disj _ _ _ _ (by decide), wHR_disj _ _ _ _ (by decide)⟩))))))))))))))) ?_
  refine BIBase.Entails.trans (sep_mono_right (sep_mono_right (sep_mono_right (sep_mono_right (sep_mono_right (sep_mono_right (sep_mono_right (sep_mono_right (sep_mono_right (sep_mono_right (sep_mono_right (sep_mono_right (pt_join_any (by simp only [Finset.disjoint_union_right]; exact ⟨wHR_disj _ _ _ _ (by decide), wHR_disj _ _ _ _ (by decide), wHR_disj _ _ _ _ (by decide)⟩)))))))))))))) ?_
  refine BIBase.Entails.trans (sep_mono_right (sep_mono_right (sep_mono_right (sep_mono_right (sep_mono_right (sep_mono_right (sep_mono_right (sep_mono_right (sep_mono_right (sep_mono_right (sep_mono_right (pt_join_any (by simp only [Finset.disjoint_union_right]; exact ⟨wHR_disj _ _ _ _ (by decide), wHR_disj _ _ _ _ (by decide), wHR_disj _ _ _ _ (by decide), wHR_disj _ _ _ _ (by decide)⟩))))))))))))) ?_
  refine BIBase.Entails.trans (sep_mono_right (sep_mono_right (sep_mono_right (sep_mono_right (sep_mono_right (sep_mono_right (sep_mono_right (sep_mono_right (sep_mono_right (sep_mono_right (pt_join_any (by simp only [Finset.disjoint_union_right]; exact ⟨wHR_disj _ _ _ _ (by decide), wHR_disj _ _ _ _ (by decide), wHR_disj _ _ _ _ (by decide), wHR_disj _ _ _ _ (by decide), wHR_disj _ _ _ _ (by decide)⟩)))))))))))) ?_
  refine BIBase.Entails.trans (sep_mono_right (sep_mono_right (sep_mono_right (sep_mono_right (sep_mono_right (sep_mono_right (sep_mono_right (sep_mono_right (sep_mono_right (pt_join_any (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide)⟩))))))))))) ?_
  refine BIBase.Entails.trans (sep_mono_right (sep_mono_right (sep_mono_right (sep_mono_right (sep_mono_right (sep_mono_right (sep_mono_right (sep_mono_right (pt_join_any (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)))))))))) ?_
  refine BIBase.Entails.trans (sep_mono_right (sep_mono_right (sep_mono_right (sep_mono_right (sep_mono_right (sep_mono_right (sep_mono_right (pt_join_any (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩))))))))) ?_
  refine BIBase.Entails.trans (sep_mono_right (sep_mono_right (sep_mono_right (sep_mono_right (sep_mono_right (sep_mono_right (pt_join_any (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)))))))) ?_
  refine BIBase.Entails.trans (sep_mono_right (sep_mono_right (sep_mono_right (sep_mono_right (sep_mono_right (pt_join_any (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩))))))) ?_
  refine BIBase.Entails.trans (sep_mono_right (sep_mono_right (sep_mono_right (sep_mono_right (pt_join_any (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)))))) ?_
  refine BIBase.Entails.trans (sep_mono_right (sep_mono_right (sep_mono_right (pt_join_any (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩))))) ?_
  refine BIBase.Entails.trans (sep_mono_right (sep_mono_right (pt_join_any (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)))) ?_
  refine BIBase.Entails.trans (sep_mono_right (pt_join_any (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩))) ?_
  exact pt_join_any (by simp only [Finset.disjoint_union_right]; exact ⟨wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide), wHR_disj _ _ _ _ (by decide)⟩)

theorem w_join_all (c : Dev nD) :
    (iprop((∃ f, (wH 0 0).view.loc (c : Thread nD τ) ↦[(wH 0 0).view.set]{fullShare} f) ∗
            (∃ f, (wH 0 1).view.loc (c : Thread nD τ) ↦[(wH 0 1).view.set]{fullShare} f) ∗
            (∃ f, (wH 1 0).view.loc (c : Thread nD τ) ↦[(wH 1 0).view.set]{fullShare} f) ∗
            (∃ f, (wH 1 1).view.loc (c : Thread nD τ) ↦[(wH 1 1).view.set]{fullShare} f) ∗
            (∃ f, (wH 2 0).view.loc (c : Thread nD τ) ↦[(wH 2 0).view.set]{fullShare} f) ∗
            (∃ f, (wH 2 1).view.loc (c : Thread nD τ) ↦[(wH 2 1).view.set]{fullShare} f) ∗
            (∃ f, (wH 3 0).view.loc (c : Thread nD τ) ↦[(wH 3 0).view.set]{fullShare} f) ∗
            (∃ f, (wH 3 1).view.loc (c : Thread nD τ) ↦[(wH 3 1).view.set]{fullShare} f) ∗
            (∃ f, (wH 4 0).view.loc (c : Thread nD τ) ↦[(wH 4 0).view.set]{fullShare} f) ∗
            (∃ f, (wH 4 1).view.loc (c : Thread nD τ) ↦[(wH 4 1).view.set]{fullShare} f) ∗
            (∃ f, (wH 5 0).view.loc (c : Thread nD τ) ↦[(wH 5 0).view.set]{fullShare} f) ∗
            (∃ f, (wH 5 1).view.loc (c : Thread nD τ) ↦[(wH 5 1).view.set]{fullShare} f) ∗
            (∃ f, (wH 6 0).view.loc (c : Thread nD τ) ↦[(wH 6 0).view.set]{fullShare} f) ∗
            (∃ f, (wH 6 1).view.loc (c : Thread nD τ) ↦[(wH 6 1).view.set]{fullShare} f) ∗
            (∃ f, (wH 7 0).view.loc (c : Thread nD τ) ↦[(wH 7 0).view.set]{fullShare} f) ∗
            (∃ f, (wH 7 1).view.loc (c : Thread nD τ) ↦[(wH 7 1).view.set]{fullShare} f)) : sProp 𝕄) ⊢
      iprop(∃ f, (wbM).view.loc (c : Thread nD τ) ↦[(wbM).view.set]{fullShare} f) := by
  refine BIBase.Entails.trans ?_ (w_join_R c)
  exact BIClass.sep_mono (exists_mono fun f => BIBase.Entails.of_eq (pt_set wH_set_0_0 f)) (BIClass.sep_mono (exists_mono fun f => BIBase.Entails.of_eq (pt_set wH_set_0_1 f)) (BIClass.sep_mono (exists_mono fun f => BIBase.Entails.of_eq (pt_set wH_set_1_0 f)) (BIClass.sep_mono (exists_mono fun f => BIBase.Entails.of_eq (pt_set wH_set_1_1 f)) (BIClass.sep_mono (exists_mono fun f => BIBase.Entails.of_eq (pt_set wH_set_2_0 f)) (BIClass.sep_mono (exists_mono fun f => BIBase.Entails.of_eq (pt_set wH_set_2_1 f)) (BIClass.sep_mono (exists_mono fun f => BIBase.Entails.of_eq (pt_set wH_set_3_0 f)) (BIClass.sep_mono (exists_mono fun f => BIBase.Entails.of_eq (pt_set wH_set_3_1 f)) (BIClass.sep_mono (exists_mono fun f => BIBase.Entails.of_eq (pt_set wH_set_4_0 f)) (BIClass.sep_mono (exists_mono fun f => BIBase.Entails.of_eq (pt_set wH_set_4_1 f)) (BIClass.sep_mono (exists_mono fun f => BIBase.Entails.of_eq (pt_set wH_set_5_0 f)) (BIClass.sep_mono (exists_mono fun f => BIBase.Entails.of_eq (pt_set wH_set_5_1 f)) (BIClass.sep_mono (exists_mono fun f => BIBase.Entails.of_eq (pt_set wH_set_6_0 f)) (BIClass.sep_mono (exists_mono fun f => BIBase.Entails.of_eq (pt_set wH_set_6_1 f)) (BIClass.sep_mono (exists_mono fun f => BIBase.Entails.of_eq (pt_set wH_set_7_0 f)) (exists_mono fun f => BIBase.Entails.of_eq (pt_set wH_set_7_1 f))))))))))))))))

theorem w_join (c : Dev nD) :
    (iprop((∃ f, (wH 0 0).view.loc (c : Thread nD τ) ↦[(wH 0 0).view.set]{fullShare} f) ∗
            (∃ f, (wH 0 1).view.loc (c : Thread nD τ) ↦[(wH 0 1).view.set]{fullShare} f) ∗
            (∃ f, (wH 1 0).view.loc (c : Thread nD τ) ↦[(wH 1 0).view.set]{fullShare} f) ∗
            (∃ f, (wH 1 1).view.loc (c : Thread nD τ) ↦[(wH 1 1).view.set]{fullShare} f) ∗
            (∃ f, (wH 2 0).view.loc (c : Thread nD τ) ↦[(wH 2 0).view.set]{fullShare} f) ∗
            (∃ f, (wH 2 1).view.loc (c : Thread nD τ) ↦[(wH 2 1).view.set]{fullShare} f) ∗
            (∃ f, (wH 3 0).view.loc (c : Thread nD τ) ↦[(wH 3 0).view.set]{fullShare} f) ∗
            (∃ f, (wH 3 1).view.loc (c : Thread nD τ) ↦[(wH 3 1).view.set]{fullShare} f) ∗
            (∃ f, (wH 4 0).view.loc (c : Thread nD τ) ↦[(wH 4 0).view.set]{fullShare} f) ∗
            (∃ f, (wH 4 1).view.loc (c : Thread nD τ) ↦[(wH 4 1).view.set]{fullShare} f) ∗
            (∃ f, (wH 5 0).view.loc (c : Thread nD τ) ↦[(wH 5 0).view.set]{fullShare} f) ∗
            (∃ f, (wH 5 1).view.loc (c : Thread nD τ) ↦[(wH 5 1).view.set]{fullShare} f) ∗
            (∃ f, (wH 6 0).view.loc (c : Thread nD τ) ↦[(wH 6 0).view.set]{fullShare} f) ∗
            (∃ f, (wH 6 1).view.loc (c : Thread nD τ) ↦[(wH 6 1).view.set]{fullShare} f) ∗
            (∃ f, (wH 7 0).view.loc (c : Thread nD τ) ↦[(wH 7 0).view.set]{fullShare} f) ∗
            (∃ f, (wH 7 1).view.loc (c : Thread nD τ) ↦[(wH 7 1).view.set]{fullShare} f)) : sProp 𝕄) ⊢
      iprop(∃ f, (wbM).view.loc (c : Thread nD τ) ↦[(wbM).view.set]{fullShare} f) := w_join_all c

/-! ### One slot from its two halves -/

/-- Slot `s` of the weight buffer as the loads read it: the access at slot `s`, all rows and columns. -/
abbrev wS : Fin 8 → View sig .tc .vmem S1x4096x256 .f32
  | ⟨0, _⟩ => (Memref.whole cc0_scratch1 : Memref sig .tc .vmem S8x4096x256 .f32).access (Rect.unit (s := S8x4096x256) ![0, 0, 0] S1x4096x256.size inb_S8x4096x256_S1x4096x256_0_0_0)
  | ⟨1, _⟩ => (Memref.whole cc0_scratch1 : Memref sig .tc .vmem S8x4096x256 .f32).access (Rect.unit (s := S8x4096x256) ![1, 0, 0] S1x4096x256.size inb_S8x4096x256_S1x4096x256_1_0_0)
  | ⟨2, _⟩ => (Memref.whole cc0_scratch1 : Memref sig .tc .vmem S8x4096x256 .f32).access (Rect.unit (s := S8x4096x256) ![2, 0, 0] S1x4096x256.size inb_S8x4096x256_S1x4096x256_2_0_0)
  | ⟨3, _⟩ => (Memref.whole cc0_scratch1 : Memref sig .tc .vmem S8x4096x256 .f32).access (Rect.unit (s := S8x4096x256) ![3, 0, 0] S1x4096x256.size inb_S8x4096x256_S1x4096x256_3_0_0)
  | ⟨4, _⟩ => (Memref.whole cc0_scratch1 : Memref sig .tc .vmem S8x4096x256 .f32).access (Rect.unit (s := S8x4096x256) ![4, 0, 0] S1x4096x256.size inb_S8x4096x256_S1x4096x256_4_0_0)
  | ⟨5, _⟩ => (Memref.whole cc0_scratch1 : Memref sig .tc .vmem S8x4096x256 .f32).access (Rect.unit (s := S8x4096x256) ![5, 0, 0] S1x4096x256.size inb_S8x4096x256_S1x4096x256_5_0_0)
  | ⟨6, _⟩ => (Memref.whole cc0_scratch1 : Memref sig .tc .vmem S8x4096x256 .f32).access (Rect.unit (s := S8x4096x256) ![6, 0, 0] S1x4096x256.size inb_S8x4096x256_S1x4096x256_6_0_0)
  | ⟨7, _⟩ => (Memref.whole cc0_scratch1 : Memref sig .tc .vmem S8x4096x256 .f32).access (Rect.unit (s := S8x4096x256) ![7, 0, 0] S1x4096x256.size inb_S8x4096x256_S1x4096x256_7_0_0)
  | ⟨_ + 8, h⟩ => absurd h (by omega)

theorem wS_set_0 : (wS 0).set = (wSR 0).set := View.set_slice_whole _ _
theorem wS_set_1 : (wS 1).set = (wSR 1).set := View.set_slice_whole _ _
theorem wS_set_2 : (wS 2).set = (wSR 2).set := View.set_slice_whole _ _
theorem wS_set_3 : (wS 3).set = (wSR 3).set := View.set_slice_whole _ _
theorem wS_set_4 : (wS 4).set = (wSR 4).set := View.set_slice_whole _ _
theorem wS_set_5 : (wS 5).set = (wSR 5).set := View.set_slice_whole _ _
theorem wS_set_6 : (wS 6).set = (wSR 6).set := View.set_slice_whole _ _
theorem wS_set_7 : (wS 7).set = (wSR 7).set := View.set_slice_whole _ _

/-- A slot is its upper and its lower half. -/
theorem wSR_halves (s : Fin 8) : (wSR s).set = (wHR s 0).set ∪ (wHR s 1).set := by
  ext i
  have h1 : (i 1 : ℕ) < 4096 := (i 1).isLt
  obtain ⟨u0, u1⟩ := fin2_vals
  simp only [Finset.mem_union, mem_wSR, mem_wHR, u0, u1]
  omega

theorem wslot_core (c : Dev nD) (s : Fin 8) (f0 f1 g : Buf (Elt F) (wbM.view.loc (c : Thread nD τ)))
    (h0 : ∀ i ∈ (wHR s 0).set, f0 i = g i) (h1 : ∀ i ∈ (wHR s 1).set, f1 i = g i) :
    (iprop((wbM.view.loc (c : Thread nD τ) ↦[(wHR s 0).set]{fullShare} f0) ∗
           (wbM.view.loc (c : Thread nD τ) ↦[(wHR s 1).set]{fullShare} f1)) : sProp 𝕄) ⊢
      (wbM.view.loc (c : Thread nD τ) ↦[(wSR s).set]{fullShare} g) := by
  rw [wSR_halves s]
  refine BIBase.Entails.trans (BIClass.sep_mono (BIBase.Entails.of_eq (pt_congr h0)) (BIBase.Entails.of_eq (pt_congr h1))) ?_
  exact BiEntails.mpr (Region.is_union (wHR_disj s s 0 1 (Or.inr (by decide))))

theorem wslot_join_0 (c : Dev nD) (f0 f1 g : Buf (Elt F) (wbM.view.loc (c : Thread nD τ)))
    (h0 : ∀ i ∈ (wH 0 0).view.set, f0 i = g i) (h1 : ∀ i ∈ (wH 0 1).view.set, f1 i = g i) :
    (iprop(((wH 0 0).view.loc (c : Thread nD τ) ↦[(wH 0 0).view.set]{fullShare} f0) ∗
           ((wH 0 1).view.loc (c : Thread nD τ) ↦[(wH 0 1).view.set]{fullShare} f1)) : sProp 𝕄) ⊢
      (wbM.view.loc (c : Thread nD τ) ↦[(wS 0).set]{fullShare} g) := by
  rw [wH_set_0_0] at h0; rw [wH_set_0_1] at h1
  rw [wH_set_0_0, wH_set_0_1, wS_set_0]
  exact wslot_core c 0 f0 f1 g h0 h1

theorem wslot_join_1 (c : Dev nD) (f0 f1 g : Buf (Elt F) (wbM.view.loc (c : Thread nD τ)))
    (h0 : ∀ i ∈ (wH 1 0).view.set, f0 i = g i) (h1 : ∀ i ∈ (wH 1 1).view.set, f1 i = g i) :
    (iprop(((wH 1 0).view.loc (c : Thread nD τ) ↦[(wH 1 0).view.set]{fullShare} f0) ∗
           ((wH 1 1).view.loc (c : Thread nD τ) ↦[(wH 1 1).view.set]{fullShare} f1)) : sProp 𝕄) ⊢
      (wbM.view.loc (c : Thread nD τ) ↦[(wS 1).set]{fullShare} g) := by
  rw [wH_set_1_0] at h0; rw [wH_set_1_1] at h1
  rw [wH_set_1_0, wH_set_1_1, wS_set_1]
  exact wslot_core c 1 f0 f1 g h0 h1

theorem wslot_join_2 (c : Dev nD) (f0 f1 g : Buf (Elt F) (wbM.view.loc (c : Thread nD τ)))
    (h0 : ∀ i ∈ (wH 2 0).view.set, f0 i = g i) (h1 : ∀ i ∈ (wH 2 1).view.set, f1 i = g i) :
    (iprop(((wH 2 0).view.loc (c : Thread nD τ) ↦[(wH 2 0).view.set]{fullShare} f0) ∗
           ((wH 2 1).view.loc (c : Thread nD τ) ↦[(wH 2 1).view.set]{fullShare} f1)) : sProp 𝕄) ⊢
      (wbM.view.loc (c : Thread nD τ) ↦[(wS 2).set]{fullShare} g) := by
  rw [wH_set_2_0] at h0; rw [wH_set_2_1] at h1
  rw [wH_set_2_0, wH_set_2_1, wS_set_2]
  exact wslot_core c 2 f0 f1 g h0 h1

theorem wslot_join_3 (c : Dev nD) (f0 f1 g : Buf (Elt F) (wbM.view.loc (c : Thread nD τ)))
    (h0 : ∀ i ∈ (wH 3 0).view.set, f0 i = g i) (h1 : ∀ i ∈ (wH 3 1).view.set, f1 i = g i) :
    (iprop(((wH 3 0).view.loc (c : Thread nD τ) ↦[(wH 3 0).view.set]{fullShare} f0) ∗
           ((wH 3 1).view.loc (c : Thread nD τ) ↦[(wH 3 1).view.set]{fullShare} f1)) : sProp 𝕄) ⊢
      (wbM.view.loc (c : Thread nD τ) ↦[(wS 3).set]{fullShare} g) := by
  rw [wH_set_3_0] at h0; rw [wH_set_3_1] at h1
  rw [wH_set_3_0, wH_set_3_1, wS_set_3]
  exact wslot_core c 3 f0 f1 g h0 h1

theorem wslot_join_4 (c : Dev nD) (f0 f1 g : Buf (Elt F) (wbM.view.loc (c : Thread nD τ)))
    (h0 : ∀ i ∈ (wH 4 0).view.set, f0 i = g i) (h1 : ∀ i ∈ (wH 4 1).view.set, f1 i = g i) :
    (iprop(((wH 4 0).view.loc (c : Thread nD τ) ↦[(wH 4 0).view.set]{fullShare} f0) ∗
           ((wH 4 1).view.loc (c : Thread nD τ) ↦[(wH 4 1).view.set]{fullShare} f1)) : sProp 𝕄) ⊢
      (wbM.view.loc (c : Thread nD τ) ↦[(wS 4).set]{fullShare} g) := by
  rw [wH_set_4_0] at h0; rw [wH_set_4_1] at h1
  rw [wH_set_4_0, wH_set_4_1, wS_set_4]
  exact wslot_core c 4 f0 f1 g h0 h1

theorem wslot_join_5 (c : Dev nD) (f0 f1 g : Buf (Elt F) (wbM.view.loc (c : Thread nD τ)))
    (h0 : ∀ i ∈ (wH 5 0).view.set, f0 i = g i) (h1 : ∀ i ∈ (wH 5 1).view.set, f1 i = g i) :
    (iprop(((wH 5 0).view.loc (c : Thread nD τ) ↦[(wH 5 0).view.set]{fullShare} f0) ∗
           ((wH 5 1).view.loc (c : Thread nD τ) ↦[(wH 5 1).view.set]{fullShare} f1)) : sProp 𝕄) ⊢
      (wbM.view.loc (c : Thread nD τ) ↦[(wS 5).set]{fullShare} g) := by
  rw [wH_set_5_0] at h0; rw [wH_set_5_1] at h1
  rw [wH_set_5_0, wH_set_5_1, wS_set_5]
  exact wslot_core c 5 f0 f1 g h0 h1

theorem wslot_join_6 (c : Dev nD) (f0 f1 g : Buf (Elt F) (wbM.view.loc (c : Thread nD τ)))
    (h0 : ∀ i ∈ (wH 6 0).view.set, f0 i = g i) (h1 : ∀ i ∈ (wH 6 1).view.set, f1 i = g i) :
    (iprop(((wH 6 0).view.loc (c : Thread nD τ) ↦[(wH 6 0).view.set]{fullShare} f0) ∗
           ((wH 6 1).view.loc (c : Thread nD τ) ↦[(wH 6 1).view.set]{fullShare} f1)) : sProp 𝕄) ⊢
      (wbM.view.loc (c : Thread nD τ) ↦[(wS 6).set]{fullShare} g) := by
  rw [wH_set_6_0] at h0; rw [wH_set_6_1] at h1
  rw [wH_set_6_0, wH_set_6_1, wS_set_6]
  exact wslot_core c 6 f0 f1 g h0 h1

theorem wslot_join_7 (c : Dev nD) (f0 f1 g : Buf (Elt F) (wbM.view.loc (c : Thread nD τ)))
    (h0 : ∀ i ∈ (wH 7 0).view.set, f0 i = g i) (h1 : ∀ i ∈ (wH 7 1).view.set, f1 i = g i) :
    (iprop(((wH 7 0).view.loc (c : Thread nD τ) ↦[(wH 7 0).view.set]{fullShare} f0) ∗
           ((wH 7 1).view.loc (c : Thread nD τ) ↦[(wH 7 1).view.set]{fullShare} f1)) : sProp 𝕄) ⊢
      (wbM.view.loc (c : Thread nD τ) ↦[(wS 7).set]{fullShare} g) := by
  rw [wH_set_7_0] at h0; rw [wH_set_7_1] at h1
  rw [wH_set_7_0, wH_set_7_1, wS_set_7]
  exact wslot_core c 7 f0 f1 g h0 h1

/-! ## The send and receive buffers: eight slots each -/

/-- Slot `t` of the 8 x 512 x 256 index space. -/
abbrev bSR (t : Fin 8) : Rect S8x512x256 :=
  Rect.unit (s := S8x512x256) ![t.val, 0, 0] S1x512x256.size
    (Fin.forall_fin_succ.mpr ⟨by show t.val + 1 ≤ 8; omega,
      Fin.forall_fin_two.mpr ⟨by show 0 + 512 ≤ 512; omega, by show 0 + 256 ≤ 256; omega⟩⟩)

theorem mem_bSR (t : Fin 8) (i : S8x512x256.Idx) : i ∈ (bSR t).set ↔ (i 0).val = t.val := by
  have h1 : (i 1 : ℕ) < 512 := (i 1).isLt
  have h2 : (i 2 : ℕ) < 256 := (i 2).isLt
  rw [Rect.mem_set_unit]
  constructor
  · intro H
    have a0 := H 0
    simp only [Matrix.cons_val_zero, Shape.size] at a0
    omega
  · rintro e0 a
    fin_cases a
    · show t.val ≤ (i 0).val ∧ (i 0).val < t.val + 1; omega
    · show 0 ≤ (i 1).val ∧ (i 1).val < 0 + 512; omega
    · show 0 ≤ (i 2).val ∧ (i 2).val < 0 + 256; omega

theorem sM_set_0 : (sM 0).view.set = (bSR 0).set := (View.set_reshape _ _).trans (View.set_slice_whole _ _)
theorem sM_set_1 : (sM 1).view.set = (bSR 1).set := (View.set_reshape _ _).trans (View.set_slice_whole _ _)
theorem sM_set_2 : (sM 2).view.set = (bSR 2).set := (View.set_reshape _ _).trans (View.set_slice_whole _ _)
theorem sM_set_3 : (sM 3).view.set = (bSR 3).set := (View.set_reshape _ _).trans (View.set_slice_whole _ _)
theorem sM_set_4 : (sM 4).view.set = (bSR 4).set := (View.set_reshape _ _).trans (View.set_slice_whole _ _)
theorem sM_set_5 : (sM 5).view.set = (bSR 5).set := (View.set_reshape _ _).trans (View.set_slice_whole _ _)
theorem sM_set_6 : (sM 6).view.set = (bSR 6).set := (View.set_reshape _ _).trans (View.set_slice_whole _ _)
theorem sM_set_7 : (sM 7).view.set = (bSR 7).set := (View.set_reshape _ _).trans (View.set_slice_whole _ _)
theorem rM_set_0 : (rM 0).view.set = (bSR 0).set := (View.set_reshape _ _).trans (View.set_slice_whole _ _)
theorem rM_set_1 : (rM 1).view.set = (bSR 1).set := (View.set_reshape _ _).trans (View.set_slice_whole _ _)
theorem rM_set_2 : (rM 2).view.set = (bSR 2).set := (View.set_reshape _ _).trans (View.set_slice_whole _ _)
theorem rM_set_3 : (rM 3).view.set = (bSR 3).set := (View.set_reshape _ _).trans (View.set_slice_whole _ _)
theorem rM_set_4 : (rM 4).view.set = (bSR 4).set := (View.set_reshape _ _).trans (View.set_slice_whole _ _)
theorem rM_set_5 : (rM 5).view.set = (bSR 5).set := (View.set_reshape _ _).trans (View.set_slice_whole _ _)
theorem rM_set_6 : (rM 6).view.set = (bSR 6).set := (View.set_reshape _ _).trans (View.set_slice_whole _ _)
theorem rM_set_7 : (rM 7).view.set = (bSR 7).set := (View.set_reshape _ _).trans (View.set_slice_whole _ _)

/-- The eight slots cover the index space. -/
theorem b_cover : (Finset.univ : Finset S8x512x256.Idx) = (bSR 0).set ∪ ((bSR 1).set ∪ ((bSR 2).set ∪ ((bSR 3).set ∪ ((bSR 4).set ∪ ((bSR 5).set ∪ ((bSR 6).set ∪ ((bSR 7).set))))))) := by
  ext i
  have h0 : (i 0 : ℕ) < 8 := (i 0).isLt
  obtain ⟨v0, v1, v2, v3, v4, v5, v6, v7⟩ := fin8_vals
  simp only [Finset.mem_univ, Finset.mem_union, mem_bSR, true_iff, v0, v1, v2, v3, v4, v5, v6, v7]
  omega

/-- Different slots share no element. -/
theorem bSR_disj (t t' : Fin 8) (h : t ≠ t') : Disjoint (bSR t).set (bSR t').set := by
  rw [Finset.disjoint_left]
  intro i hi hk
  rw [mem_bSR] at hi hk
  exact h (Fin.ext (hi.symm.trans hk))

theorem sb_split (c : Dev nD) (f : Buf (Elt F) ((sbM).view.loc (c : Thread nD τ))) :
    (((sbM).view.loc (c : Thread nD τ) ↦[(sbM).view.set]{fullShare} f) : sProp 𝕄) ⊣⊢
      iprop(((sM 0).view.loc (c : Thread nD τ) ↦[(sM 0).view.set]{fullShare} f) ∗
            ((sM 1).view.loc (c : Thread nD τ) ↦[(sM 1).view.set]{fullShare} f) ∗
            ((sM 2).view.loc (c : Thread nD τ) ↦[(sM 2).view.set]{fullShare} f) ∗
            ((sM 3).view.loc (c : Thread nD τ) ↦[(sM 3).view.set]{fullShare} f) ∗
            ((sM 4).view.loc (c : Thread nD τ) ↦[(sM 4).view.set]{fullShare} f) ∗
            ((sM 5).view.loc (c : Thread nD τ) ↦[(sM 5).view.set]{fullShare} f) ∗
            ((sM 6).view.loc (c : Thread nD τ) ↦[(sM 6).view.set]{fullShare} f) ∗
            ((sM 7).view.loc (c : Thread nD τ) ↦[(sM 7).view.set]{fullShare} f)) := by
  have e : (sbM).view.set = (bSR 0).set ∪ ((bSR 1).set ∪ ((bSR 2).set ∪ ((bSR 3).set ∪ ((bSR 4).set ∪ ((bSR 5).set ∪ ((bSR 6).set ∪ ((bSR 7).set))))))) := (View.set_whole _).trans b_cover
  rw [e, sM_set_0, sM_set_1, sM_set_2, sM_set_3, sM_set_4, sM_set_5, sM_set_6, sM_set_7]
  refine BiEntails.trans (Region.is_union (by simp only [Finset.disjoint_union_right]; exact ⟨bSR_disj _ _ (by decide), bSR_disj _ _ (by decide), bSR_disj _ _ (by decide), bSR_disj _ _ (by decide), bSR_disj _ _ (by decide), bSR_disj _ _ (by decide), bSR_disj _ _ (by decide)⟩)) (sep_congr_right ?_)
  refine BiEntails.trans (Region.is_union (by simp only [Finset.disjoint_union_right]; exact ⟨bSR_disj _ _ (by decide), bSR_disj _ _ (by decide), bSR_disj _ _ (by decide), bSR_disj _ _ (by decide), bSR_disj _ _ (by decide), bSR_disj _ _ (by decide)⟩)) (sep_congr_right ?_)
  refine BiEntails.trans (Region.is_union (by simp only [Finset.disjoint_union_right]; exact ⟨bSR_disj _ _ (by decide), bSR_disj _ _ (by decide), bSR_disj _ _ (by decide), bSR_disj _ _ (by decide), bSR_disj _ _ (by decide)⟩)) (sep_congr_right ?_)
  refine BiEntails.trans (Region.is_union (by simp only [Finset.disjoint_union_right]; exact ⟨bSR_disj _ _ (by decide), bSR_disj _ _ (by decide), bSR_disj _ _ (by decide), bSR_disj _ _ (by decide)⟩)) (sep_congr_right ?_)
  refine BiEntails.trans (Region.is_union (by simp only [Finset.disjoint_union_right]; exact ⟨bSR_disj _ _ (by decide), bSR_disj _ _ (by decide), bSR_disj _ _ (by decide)⟩)) (sep_congr_right ?_)
  refine BiEntails.trans (Region.is_union (by simp only [Finset.disjoint_union_right]; exact ⟨bSR_disj _ _ (by decide), bSR_disj _ _ (by decide)⟩)) (sep_congr_right ?_)
  exact Region.is_union (bSR_disj _ _ (by decide))

theorem sb_cut (c : Dev nD) (f : Buf (Elt F) ((sbM).view.loc (c : Thread nD τ))) :
    (((sbM).view.loc (c : Thread nD τ) ↦[(sbM).view.set]{fullShare} f) : sProp 𝕄) ⊢
      iprop(((sM 0).view.loc (c : Thread nD τ) ↦[(sM 0).view.set]{fullShare} f) ∗
            ((sM 1).view.loc (c : Thread nD τ) ↦[(sM 1).view.set]{fullShare} f) ∗
            ((sM 2).view.loc (c : Thread nD τ) ↦[(sM 2).view.set]{fullShare} f) ∗
            ((sM 3).view.loc (c : Thread nD τ) ↦[(sM 3).view.set]{fullShare} f) ∗
            ((sM 4).view.loc (c : Thread nD τ) ↦[(sM 4).view.set]{fullShare} f) ∗
            ((sM 5).view.loc (c : Thread nD τ) ↦[(sM 5).view.set]{fullShare} f) ∗
            ((sM 6).view.loc (c : Thread nD τ) ↦[(sM 6).view.set]{fullShare} f) ∗
            ((sM 7).view.loc (c : Thread nD τ) ↦[(sM 7).view.set]{fullShare} f)) := (sb_split c f).mp

theorem sb_join (c : Dev nD) :
    (iprop((∃ f, (sM 0).view.loc (c : Thread nD τ) ↦[(sM 0).view.set]{fullShare} f) ∗
            (∃ f, (sM 1).view.loc (c : Thread nD τ) ↦[(sM 1).view.set]{fullShare} f) ∗
            (∃ f, (sM 2).view.loc (c : Thread nD τ) ↦[(sM 2).view.set]{fullShare} f) ∗
            (∃ f, (sM 3).view.loc (c : Thread nD τ) ↦[(sM 3).view.set]{fullShare} f) ∗
            (∃ f, (sM 4).view.loc (c : Thread nD τ) ↦[(sM 4).view.set]{fullShare} f) ∗
            (∃ f, (sM 5).view.loc (c : Thread nD τ) ↦[(sM 5).view.set]{fullShare} f) ∗
            (∃ f, (sM 6).view.loc (c : Thread nD τ) ↦[(sM 6).view.set]{fullShare} f) ∗
            (∃ f, (sM 7).view.loc (c : Thread nD τ) ↦[(sM 7).view.set]{fullShare} f)) : sProp 𝕄) ⊢
      iprop(∃ f, (sbM).view.loc (c : Thread nD τ) ↦[(sbM).view.set]{fullShare} f) := by
  have e : (sbM).view.set = (bSR 0).set ∪ ((bSR 1).set ∪ ((bSR 2).set ∪ ((bSR 3).set ∪ ((bSR 4).set ∪ ((bSR 5).set ∪ ((bSR 6).set ∪ ((bSR 7).set))))))) := (View.set_whole _).trans b_cover
  rw [e, sM_set_0, sM_set_1, sM_set_2, sM_set_3, sM_set_4, sM_set_5, sM_set_6, sM_set_7]
  refine BIBase.Entails.trans (sep_mono_right (sep_mono_right (sep_mono_right (sep_mono_right (sep_mono_right (sep_mono_right (pt_join_any (bSR_disj _ _ (by decide))))))))) ?_
  refine BIBase.Entails.trans (sep_mono_right (sep_mono_right (sep_mono_right (sep_mono_right (sep_mono_right (pt_join_any (by simp only [Finset.disjoint_union_right]; exact ⟨bSR_disj _ _ (by decide), bSR_disj _ _ (by decide)⟩))))))) ?_
  refine BIBase.Entails.trans (sep_mono_right (sep_mono_right (sep_mono_right (sep_mono_right (pt_join_any (by simp only [Finset.disjoint_union_right]; exact ⟨bSR_disj _ _ (by decide), bSR_disj _ _ (by decide), bSR_disj _ _ (by decide)⟩)))))) ?_
  refine BIBase.Entails.trans (sep_mono_right (sep_mono_right (sep_mono_right (pt_join_any (by simp only [Finset.disjoint_union_right]; exact ⟨bSR_disj _ _ (by decide), bSR_disj _ _ (by decide), bSR_disj _ _ (by decide), bSR_disj _ _ (by decide)⟩))))) ?_
  refine BIBase.Entails.trans (sep_mono_right (sep_mono_right (pt_join_any (by simp only [Finset.disjoint_union_right]; exact ⟨bSR_disj _ _ (by decide), bSR_disj _ _ (by decide), bSR_disj _ _ (by decide), bSR_disj _ _ (by decide), bSR_disj _ _ (by decide)⟩)))) ?_
  refine BIBase.Entails.trans (sep_mono_right (pt_join_any (by simp only [Finset.disjoint_union_right]; exact ⟨bSR_disj _ _ (by decide), bSR_disj _ _ (by decide), bSR_disj _ _ (by decide), bSR_disj _ _ (by decide), bSR_disj _ _ (by decide), bSR_disj _ _ (by decide)⟩))) ?_
  exact pt_join_any (by simp only [Finset.disjoint_union_right]; exact ⟨bSR_disj _ _ (by decide), bSR_disj _ _ (by decide), bSR_disj _ _ (by decide), bSR_disj _ _ (by decide), bSR_disj _ _ (by decide), bSR_disj _ _ (by decide), bSR_disj _ _ (by decide)⟩)

theorem rb_split (c : Dev nD) (f : Buf (Elt F) ((rbM).view.loc (c : Thread nD τ))) :
    (((rbM).view.loc (c : Thread nD τ) ↦[(rbM).view.set]{fullShare} f) : sProp 𝕄) ⊣⊢
      iprop(((rM 0).view.loc (c : Thread nD τ) ↦[(rM 0).view.set]{fullShare} f) ∗
            ((rM 1).view.loc (c : Thread nD τ) ↦[(rM 1).view.set]{fullShare} f) ∗
            ((rM 2).view.loc (c : Thread nD τ) ↦[(rM 2).view.set]{fullShare} f) ∗
            ((rM 3).view.loc (c : Thread nD τ) ↦[(rM 3).view.set]{fullShare} f) ∗
            ((rM 4).view.loc (c : Thread nD τ) ↦[(rM 4).view.set]{fullShare} f) ∗
            ((rM 5).view.loc (c : Thread nD τ) ↦[(rM 5).view.set]{fullShare} f) ∗
            ((rM 6).view.loc (c : Thread nD τ) ↦[(rM 6).view.set]{fullShare} f) ∗
            ((rM 7).view.loc (c : Thread nD τ) ↦[(rM 7).view.set]{fullShare} f)) := by
  have e : (rbM).view.set = (bSR 0).set ∪ ((bSR 1).set ∪ ((bSR 2).set ∪ ((bSR 3).set ∪ ((bSR 4).set ∪ ((bSR 5).set ∪ ((bSR 6).set ∪ ((bSR 7).set))))))) := (View.set_whole _).trans b_cover
  rw [e, rM_set_0, rM_set_1, rM_set_2, rM_set_3, rM_set_4, rM_set_5, rM_set_6, rM_set_7]
  refine BiEntails.trans (Region.is_union (by simp only [Finset.disjoint_union_right]; exact ⟨bSR_disj _ _ (by decide), bSR_disj _ _ (by decide), bSR_disj _ _ (by decide), bSR_disj _ _ (by decide), bSR_disj _ _ (by decide), bSR_disj _ _ (by decide), bSR_disj _ _ (by decide)⟩)) (sep_congr_right ?_)
  refine BiEntails.trans (Region.is_union (by simp only [Finset.disjoint_union_right]; exact ⟨bSR_disj _ _ (by decide), bSR_disj _ _ (by decide), bSR_disj _ _ (by decide), bSR_disj _ _ (by decide), bSR_disj _ _ (by decide), bSR_disj _ _ (by decide)⟩)) (sep_congr_right ?_)
  refine BiEntails.trans (Region.is_union (by simp only [Finset.disjoint_union_right]; exact ⟨bSR_disj _ _ (by decide), bSR_disj _ _ (by decide), bSR_disj _ _ (by decide), bSR_disj _ _ (by decide), bSR_disj _ _ (by decide)⟩)) (sep_congr_right ?_)
  refine BiEntails.trans (Region.is_union (by simp only [Finset.disjoint_union_right]; exact ⟨bSR_disj _ _ (by decide), bSR_disj _ _ (by decide), bSR_disj _ _ (by decide), bSR_disj _ _ (by decide)⟩)) (sep_congr_right ?_)
  refine BiEntails.trans (Region.is_union (by simp only [Finset.disjoint_union_right]; exact ⟨bSR_disj _ _ (by decide), bSR_disj _ _ (by decide), bSR_disj _ _ (by decide)⟩)) (sep_congr_right ?_)
  refine BiEntails.trans (Region.is_union (by simp only [Finset.disjoint_union_right]; exact ⟨bSR_disj _ _ (by decide), bSR_disj _ _ (by decide)⟩)) (sep_congr_right ?_)
  exact Region.is_union (bSR_disj _ _ (by decide))

theorem rb_cut (c : Dev nD) (f : Buf (Elt F) ((rbM).view.loc (c : Thread nD τ))) :
    (((rbM).view.loc (c : Thread nD τ) ↦[(rbM).view.set]{fullShare} f) : sProp 𝕄) ⊢
      iprop(((rM 0).view.loc (c : Thread nD τ) ↦[(rM 0).view.set]{fullShare} f) ∗
            ((rM 1).view.loc (c : Thread nD τ) ↦[(rM 1).view.set]{fullShare} f) ∗
            ((rM 2).view.loc (c : Thread nD τ) ↦[(rM 2).view.set]{fullShare} f) ∗
            ((rM 3).view.loc (c : Thread nD τ) ↦[(rM 3).view.set]{fullShare} f) ∗
            ((rM 4).view.loc (c : Thread nD τ) ↦[(rM 4).view.set]{fullShare} f) ∗
            ((rM 5).view.loc (c : Thread nD τ) ↦[(rM 5).view.set]{fullShare} f) ∗
            ((rM 6).view.loc (c : Thread nD τ) ↦[(rM 6).view.set]{fullShare} f) ∗
            ((rM 7).view.loc (c : Thread nD τ) ↦[(rM 7).view.set]{fullShare} f)) := (rb_split c f).mp

theorem rb_join (c : Dev nD) :
    (iprop((∃ f, (rM 0).view.loc (c : Thread nD τ) ↦[(rM 0).view.set]{fullShare} f) ∗
            (∃ f, (rM 1).view.loc (c : Thread nD τ) ↦[(rM 1).view.set]{fullShare} f) ∗
            (∃ f, (rM 2).view.loc (c : Thread nD τ) ↦[(rM 2).view.set]{fullShare} f) ∗
            (∃ f, (rM 3).view.loc (c : Thread nD τ) ↦[(rM 3).view.set]{fullShare} f) ∗
            (∃ f, (rM 4).view.loc (c : Thread nD τ) ↦[(rM 4).view.set]{fullShare} f) ∗
            (∃ f, (rM 5).view.loc (c : Thread nD τ) ↦[(rM 5).view.set]{fullShare} f) ∗
            (∃ f, (rM 6).view.loc (c : Thread nD τ) ↦[(rM 6).view.set]{fullShare} f) ∗
            (∃ f, (rM 7).view.loc (c : Thread nD τ) ↦[(rM 7).view.set]{fullShare} f)) : sProp 𝕄) ⊢
      iprop(∃ f, (rbM).view.loc (c : Thread nD τ) ↦[(rbM).view.set]{fullShare} f) := by
  have e : (rbM).view.set = (bSR 0).set ∪ ((bSR 1).set ∪ ((bSR 2).set ∪ ((bSR 3).set ∪ ((bSR 4).set ∪ ((bSR 5).set ∪ ((bSR 6).set ∪ ((bSR 7).set))))))) := (View.set_whole _).trans b_cover
  rw [e, rM_set_0, rM_set_1, rM_set_2, rM_set_3, rM_set_4, rM_set_5, rM_set_6, rM_set_7]
  refine BIBase.Entails.trans (sep_mono_right (sep_mono_right (sep_mono_right (sep_mono_right (sep_mono_right (sep_mono_right (pt_join_any (bSR_disj _ _ (by decide))))))))) ?_
  refine BIBase.Entails.trans (sep_mono_right (sep_mono_right (sep_mono_right (sep_mono_right (sep_mono_right (pt_join_any (by simp only [Finset.disjoint_union_right]; exact ⟨bSR_disj _ _ (by decide), bSR_disj _ _ (by decide)⟩))))))) ?_
  refine BIBase.Entails.trans (sep_mono_right (sep_mono_right (sep_mono_right (sep_mono_right (pt_join_any (by simp only [Finset.disjoint_union_right]; exact ⟨bSR_disj _ _ (by decide), bSR_disj _ _ (by decide), bSR_disj _ _ (by decide)⟩)))))) ?_
  refine BIBase.Entails.trans (sep_mono_right (sep_mono_right (sep_mono_right (pt_join_any (by simp only [Finset.disjoint_union_right]; exact ⟨bSR_disj _ _ (by decide), bSR_disj _ _ (by decide), bSR_disj _ _ (by decide), bSR_disj _ _ (by decide)⟩))))) ?_
  refine BIBase.Entails.trans (sep_mono_right (sep_mono_right (pt_join_any (by simp only [Finset.disjoint_union_right]; exact ⟨bSR_disj _ _ (by decide), bSR_disj _ _ (by decide), bSR_disj _ _ (by decide), bSR_disj _ _ (by decide), bSR_disj _ _ (by decide)⟩)))) ?_
  refine BIBase.Entails.trans (sep_mono_right (pt_join_any (by simp only [Finset.disjoint_union_right]; exact ⟨bSR_disj _ _ (by decide), bSR_disj _ _ (by decide), bSR_disj _ _ (by decide), bSR_disj _ _ (by decide), bSR_disj _ _ (by decide), bSR_disj _ _ (by decide)⟩))) ?_
  exact pt_join_any (by simp only [Finset.disjoint_union_right]; exact ⟨bSR_disj _ _ (by decide), bSR_disj _ _ (by decide), bSR_disj _ _ (by decide), bSR_disj _ _ (by decide), bSR_disj _ _ (by decide), bSR_disj _ _ (by decide), bSR_disj _ _ (by decide)⟩)

/-- info: 'Cert.Kernel.A2A.x_join' depends on axioms: [propext, Classical.choice, Quot.sound] -/
#guard_msgs in #print axioms x_join

/-- info: 'Cert.Kernel.A2A.wwin_disj_16_26' depends on axioms: [propext, Classical.choice, Quot.sound] -/
#guard_msgs in #print axioms wwin_disj_16_26

/-- info: 'Cert.Kernel.A2A.sb_split' depends on axioms: [propext, Classical.choice, Quot.sound] -/
#guard_msgs in #print axioms sb_split

/-- info: 'Cert.Kernel.A2A.w_split' depends on axioms: [propext, Classical.choice, Quot.sound] -/
#guard_msgs in #print axioms w_split

/-- info: 'Cert.Kernel.A2A.wslot_join_3' depends on axioms: [propext, Classical.choice, Quot.sound] -/
#guard_msgs in #print axioms wslot_join_3

end Cert.Kernel.A2A

end
-- ==== Proof.BodyObB.lean ====
/-
  The body obligation of the launch, from the stepped body.

  The launch hands a device its start invariant, what it owes, and the output block's staging buffer at some contents.
  The stepped body wants the four scratch buffers already cut into the pieces its copies name, and leaves the pieces at
  whatever they then hold. Between the two there is only re-arranging: cut before, join after, read the staging buffer
  as a points-to of the whole output block, and restate what is owed. No fact about what the kernel computes is used.
-/
import proofs.«900796_g7700000000000797_dist_gemm_a2a_m4096_k4096_n2048_f32_gelu_v7x_i8_1_alg».proof.Proof.PiecesB

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The stepped body: from the cut context, and a continuation that takes the body's end, the kernel's body runs. -/
def SoundBody : Prop :=
  ∀ (c : Dev nD) (K : GSem nD τ sig → ℕ) (W : Waits sig Unit)
    (fx : Buf (Elt F) ((xbM).view.loc (c : Thread nD τ))) (fw : Buf (Elt F) ((wbM).view.loc (c : Thread nD τ)))
    (fs : Buf (Elt F) ((sbM).view.loc (c : Thread nD τ))) (fo : Buf (Elt F) ((outM).view.loc (c : Thread nD τ)))
    (Kt : PUnit → sProp 𝕄),
    iprop(bodyCtx m K c W fx fw fs fo ∗ (bodyEnd m c -∗ Kt ⟨⟩))
      ⊢ wp frame (wpE (defs₀ (F := F)) 𝒱₀ (c : Thread nD τ) none) Set.univ
          (cc0_body (Memref.whole main_arg0) (Memref.isWhole_whole _) (Memref.whole main_arg1) (Memref.isWhole_whole _)
            (Memref.whole cc0_stg0_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7) Kt

/-- The four scratch buffers cut into the pieces the body names, the receive buffer's pieces at some contents. -/
theorem pieces_cut (c : Dev nD) (fx : Buf (Elt F) ((xbM).view.loc (c : Thread nD τ))) (fw : Buf (Elt F) ((wbM).view.loc (c : Thread nD τ)))
    (fs : Buf (Elt F) ((sbM).view.loc (c : Thread nD τ))) :
    (iprop(((xbM).view.loc (c : Thread nD τ) ↦[(xbM).view.set]{fullShare} fx) ∗ ((wbM).view.loc (c : Thread nD τ) ↦[(wbM).view.set]{fullShare} fw) ∗ ((sbM).view.loc (c : Thread nD τ) ↦[(sbM).view.set]{fullShare} fs) ∗ (∃ f, (rbM).view.loc (c : Thread nD τ) ↦[(rbM).view.set]{fullShare} f)) : sProp 𝕄)
      ⊢ piecesAt c fx fw fs := by
  unfold piecesAt
  iintro ⟨Hx, Hw, Hs, ⟨%fr, Hr⟩⟩
  ihave Hx := (x_cut c fx) $$ Hx
  ihave Hw := (w_cut c fw) $$ Hw
  ihave Hs := (sb_cut c fs) $$ Hs
  ihave Hr := (rb_cut c fr) $$ Hr
  icases Hx with ⟨Hx0, Hx1, Hx2, Hx3⟩
  icases Hw with ⟨Hw0, Hw1, Hw2, Hw3, Hw4, Hw5, Hw6, Hw7, Hw8, Hw9, Hw10, Hw11, Hw12, Hw13, Hw14, Hw15⟩
  icases Hs with ⟨Hs0, Hs1, Hs2, Hs3, Hs4, Hs5, Hs6, Hs7⟩
  icases Hr with ⟨Hr0, Hr1, Hr2, Hr3, Hr4, Hr5, Hr6, Hr7⟩
  isplitl [Hx0]; · iexact Hx0
  isplitl [Hx1]; · iexact Hx1
  isplitl [Hx2]; · iexact Hx2
  isplitl [Hx3]; · iexact Hx3
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [Hw8]; · iexact Hw8
  isplitl [Hw9]; · iexact Hw9
  isplitl [Hw10]; · iexact Hw10
  isplitl [Hw11]; · iexact Hw11
  isplitl [Hw12]; · iexact Hw12
  isplitl [Hw13]; · iexact Hw13
  isplitl [Hw14]; · iexact Hw14
  isplitl [Hw15]; · iexact Hw15
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hr0]; · (iexists fr; iexact Hr0)
  isplitl [Hr1]; · (iexists fr; iexact Hr1)
  isplitl [Hr2]; · (iexists fr; iexact Hr2)
  isplitl [Hr3]; · (iexists fr; iexact Hr3)
  isplitl [Hr4]; · (iexists fr; iexact Hr4)
  isplitl [Hr5]; · (iexists fr; iexact Hr5)
  isplitl [Hr6]; · (iexists fr; iexact Hr6)
  (iexists fr; iexact Hr7)

/-- The pieces, each at some contents, joined back into the four scratch buffers at some contents. -/
theorem pieces_join (c : Dev nD) : (piecesAny c : sProp 𝕄) ⊢ scratchAny c := by
  unfold piecesAny scratchAny
  iintro ⟨Hx0, Hx1, Hx2, Hx3, Hw0, Hw1, Hw2, Hw3, Hw4, Hw5, Hw6, Hw7, Hw8, Hw9, Hw10, Hw11, Hw12, Hw13, Hw14, Hw15, Hs0, Hs1, Hs2, Hs3, Hs4, Hs5, Hs6, Hs7, Hr0, Hr1, Hr2, Hr3, Hr4, Hr5, Hr6, Hr7⟩
  isplitl [Hx0 Hx1 Hx2 Hx3]
  · iapply (x_join_any c)
    isplitl [Hx0]; · iexact Hx0
    isplitl [Hx1]; · iexact Hx1
    isplitl [Hx2]; · iexact Hx2
    iexact Hx3
  isplitl [Hw0 Hw1 Hw2 Hw3 Hw4 Hw5 Hw6 Hw7 Hw8 Hw9 Hw10 Hw11 Hw12 Hw13 Hw14 Hw15]
  · iapply (w_join c)
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    iexact Hw15
  isplitl [Hs0 Hs1 Hs2 Hs3 Hs4 Hs5 Hs6 Hs7]
  · iapply (sb_join c)
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hs7
  iapply (rb_join c)
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  iexact Hr7

/-- The obligation's precondition at the one point, named. -/
def bodyPre' (c : Dev nD) : sProp 𝕄 :=
  iprop(Φ₀ m c ∗ (dats m 0 c).owesAt () t0_0.castSucc
    ∗ (∃ d, owns (Ix := Unit) (Name := ℕ) (U := UU) (Lvl := ℕ) (c : Thread nD τ) outM fullShare ((dats m 0 c).before (0 : Fin 1) t0_0 d)))

/-- The obligation's postcondition at the one point, named. -/
def bodyPost (c : Dev nD) : sProp 𝕄 :=
  iprop(Φ₁ m c ∗ (dats m 0 c).owesAt () t0_0.succ
    ∗ owns (Ix := Unit) (Name := ℕ) (U := UU) (Lvl := ℕ) (c : Thread nD τ) outM fullShare ((dats m 0 c).after (0 : Fin 1) t0_0))

set_option maxRecDepth 4000 in
/-- The library's body obligation on device `c`, from the stepped body. -/
theorem body_obligation_of (hsb : SoundBody m) (c : Dev nD) :
    BodyObligation (dats (F := F) m 0 c) (defs₀ (F := F)) 𝒱₀ () Set.univ := fun t => by
  rw [fin_N0 t]
  rw [bigSep_W0, bigSep_W0]
  show bodyPre' m c ⊢ wp frame (wpE (defs₀ (F := F)) 𝒱₀ (c : Thread nD τ) none) Set.univ
          (cc0_body (Memref.whole main_arg0) (Memref.isWhole_whole _) (Memref.whole main_arg1) (Memref.isWhole_whole _)
            (Memref.whole cc0_stg0_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7) (fun _ => bodyPost m c)
  unfold bodyPre' Φ₀ start Dat.owesAt Pipeline.owesWithin owns
  rw [show (dats m 0 c).owed t0_0.castSucc = O₀ c from rfl]
  iintro ⟨⟨⟨⟨%K, Hg⟩, Hwc, Hlev, Hps, Harg⟩, Hscr⟩, ⟨%W, -, HO⟩, ⟨%d, %fo, -, Hout⟩⟩
  unfold scratchAny
  icases Hscr with ⟨⟨%fx, Hx⟩, ⟨%fw, Hw⟩, ⟨%fs, Hs⟩, Hr⟩
  ihave Hpc := (pieces_cut c fx fw fs) $$ [Hx Hw Hs Hr]
  · isplitl [Hx]; · iexact Hx
    isplitl [Hw]; · iexact Hw
    isplitl [Hs]; · iexact Hs
    iexact Hr
  iapply (hsb c K W fx fw fs fo fun _ => bodyPost m c)
  unfold bodyCtx
  isplitr []
  · isplitl [Hg]; · iexact Hg
    isplitl [Hwc]; · iexact Hwc
    isplitl [Hlev]; · iexact Hlev
    isplitl [Hps]; · iexact Hps
    isplitl [Harg]; · iexact Harg
    isplitl [Hpc]; · iexact Hpc
    isplitl [Hout]; · iexact Hout
    iexact HO
  · unfold bodyEnd bodyPost Φ₁ Dat.owesAt Pipeline.owesWithin owns
    rw [show (dats m 0 c).owed t0_0.succ = 0 from rfl]
    iintro ⟨Harg, Hpc, Hsem, Hout, ⟨%W', HO⟩⟩
    isplitl [Harg Hpc Hsem]
    · isplitl [Harg]; · iexact Harg
      isplitl [Hpc]; · iapply (pieces_join c); iexact Hpc
      iexact Hsem
    isplitl [HO]
    · iexists W'
      isplitr; · ipureintro; exact fun _ _ => Or.inl trivial
      iexact HO
    iexists (outV m c)
    isplitr; · ipureintro; rfl
    iexact Hout

/-- info: 'Cert.Kernel.A2A.body_obligation_of' depends on axioms: [propext, Classical.choice, Quot.sound] -/
#guard_msgs in #print axioms body_obligation_of

end Cert.Kernel.A2A

end
-- ==== Proof.Part1IfaceB.lean ====
/-
  The entry handshake, as a step of its own. A device starts the part holding its barrier cell's position and wait credit,
  the seven barrier duties it pays at its partners, and slots 1..7 of its own receive buffer; it signals each partner's
  barrier cell once, handing over the slot that partner will write, waits for its own seven units, and leaves holding
  slot t of each partner c xor t's receive buffer and owing only the seven copies.
-/
import proofs.«900796_g7700000000000797_dist_gemm_a2a_m4096_k4096_n2048_f32_gelu_v7x_i8_1_alg».proof.Proof.DataB
import proofs.«900796_g7700000000000797_dist_gemm_a2a_m4096_k4096_n2048_f32_gelu_v7x_i8_1_alg».proof.Proof.SchedTabB

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The word the part returns beside the device: the device's position on the mesh axis, as the program computes it. -/
def v2c (c : Dev nD) : BitVec 32 := Scalar.remsi (Scalar.divsi (Dev.word c) 1#32) 8#32

def part1Pre (K : GSem nD τ sig → ℕ) (c : Dev nD) (W : Waits sig Unit) : sProp 𝕄 :=
  iprop(cellInv ER (sched m) (K (barCell c)) (barCell c)
    ∗ cellInv ER (sched m) (K (barCell (px c 1))) (barCell (px c 1))
    ∗ cellInv ER (sched m) (K (barCell (px c 2))) (barCell (px c 2))
    ∗ cellInv ER (sched m) (K (barCell (px c 3))) (barCell (px c 3))
    ∗ cellInv ER (sched m) (K (barCell (px c 4))) (barCell (px c 4))
    ∗ cellInv ER (sched m) (K (barCell (px c 5))) (barCell (px c 5))
    ∗ cellInv ER (sched m) (K (barCell (px c 6))) (barCell (px c 6))
    ∗ cellInv ER (sched m) (K (barCell (px c 7))) (barCell (px c 7))
    ∗ atPos ER (barCell c) 0 ∅ 0
    ∗ reached ER (barCell (px c 1)) 0 ∗ reached ER (barCell (px c 2)) 0 ∗ reached ER (barCell (px c 3)) 0 ∗ reached ER (barCell (px c 4)) 0 ∗ reached ER (barCell (px c 5)) 0 ∗ reached ER (barCell (px c 6)) 0 ∗ reached ER (barCell (px c 7)) 0
    ∗ dutyTok ER (barCell (px c 1)) 0 1 ∗ dutyTok ER (barCell (px c 2)) 0 2 ∗ dutyTok ER (barCell (px c 3)) 0 3 ∗ dutyTok ER (barCell (px c 4)) 0 4 ∗ dutyTok ER (barCell (px c 5)) 0 5 ∗ dutyTok ER (barCell (px c 6)) 0 6 ∗ dutyTok ER (barCell (px c 7)) 0 7
    ∗ (∃ f, (rM 1).view.loc (c : Thread nD τ) ↦[(rM 1).view.set]{fullShare} f)
    ∗ (∃ f, (rM 2).view.loc (c : Thread nD τ) ↦[(rM 2).view.set]{fullShare} f)
    ∗ (∃ f, (rM 3).view.loc (c : Thread nD τ) ↦[(rM 3).view.set]{fullShare} f)
    ∗ (∃ f, (rM 4).view.loc (c : Thread nD τ) ↦[(rM 4).view.set]{fullShare} f)
    ∗ (∃ f, (rM 5).view.loc (c : Thread nD τ) ↦[(rM 5).view.set]{fullShare} f)
    ∗ (∃ f, (rM 6).view.loc (c : Thread nD τ) ↦[(rM 6).view.set]{fullShare} f)
    ∗ (∃ f, (rM 7).view.loc (c : Thread nD τ) ↦[(rM 7).view.set]{fullShare} f)
    ∗ cred (tallyAt (barCell c) () 7) ∗ levAts L lv ∗ owes (c : Thread nD τ) (O₀ c) W)

def part1Post (c : Dev nD) : sProp 𝕄 :=
  iprop(atPos ER (barCell c) 1 ∅ 0
    ∗ (∃ f, (rM 1).view.loc (px c 1 : Thread nD τ) ↦[(rM 1).view.set]{fullShare} f)
    ∗ (∃ f, (rM 2).view.loc (px c 2 : Thread nD τ) ↦[(rM 2).view.set]{fullShare} f)
    ∗ (∃ f, (rM 3).view.loc (px c 3 : Thread nD τ) ↦[(rM 3).view.set]{fullShare} f)
    ∗ (∃ f, (rM 4).view.loc (px c 4 : Thread nD τ) ↦[(rM 4).view.set]{fullShare} f)
    ∗ (∃ f, (rM 5).view.loc (px c 5 : Thread nD τ) ↦[(rM 5).view.set]{fullShare} f)
    ∗ (∃ f, (rM 6).view.loc (px c 6 : Thread nD τ) ↦[(rM 6).view.set]{fullShare} f)
    ∗ (∃ f, (rM 7).view.loc (px c 7 : Thread nD τ) ↦[(rM 7).view.set]{fullShare} f)
    ∗ ∃ W', owes (c : Thread nD τ) (owedRecv c) W')

/-- All seven payloads of a barrier cell's round, as a list. -/
theorem bar_all (c : Dev nD) :
    bigSep ((sched m).duties (barCell c) 0) (fun d => (sched m).payload (barCell c) 0 d)
      = iprop(barPay c 1 ∗ barPay c 2 ∗ barPay c 3 ∗ barPay c 4 ∗ barPay c 5 ∗ barPay c 6 ∗ barPay c 7) := by
  have h := rest_bar m c
  rwa [Finset.sdiff_empty] at h

end Cert.Kernel.A2A

end
-- ==== Proof.Part1_0B.lean ====
/-
  The entry handshake on device 0: its seven signals go to devices 1, 2, 3, 4, 5, 6, 7 in that order; the unit it pays at device p is
  duty p xor 0 of p's barrier cell and carries slot p xor 0 of its own receive buffer.
-/
import proofs.«900796_g7700000000000797_dist_gemm_a2a_m4096_k4096_n2048_f32_gelu_v7x_i8_1_alg».proof.Proof.Part1IfaceB
import proofs.«900796_g7700000000000797_dist_gemm_a2a_m4096_k4096_n2048_f32_gelu_v7x_i8_1_alg».proof.Proof.LevelsB

set_option maxHeartbeats 8000000
set_option sl_exec.stepHeartbeats 2000000

noncomputable section

namespace Cert.Kernel.A2A

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

attribute [local sl_rounds] pay_bar_0_1 pay_bar_0_2 pay_bar_0_3 pay_bar_0_4 pay_bar_0_5 pay_bar_0_6 pay_bar_0_7 pay_bar_1_1 pay_bar_1_2 pay_bar_1_3 pay_bar_1_4 pay_bar_1_5 pay_bar_1_6 pay_bar_1_7 pay_bar_2_1 pay_bar_2_2 pay_bar_2_3 pay_bar_2_4 pay_bar_2_5 pay_bar_2_6 pay_bar_2_7 pay_bar_3_1 pay_bar_3_2 pay_bar_3_3 pay_bar_3_4 pay_bar_3_5 pay_bar_3_6 pay_bar_3_7 pay_bar_4_1 pay_bar_4_2 pay_bar_4_3 pay_bar_4_4 pay_bar_4_5 pay_bar_4_6 pay_bar_4_7 pay_bar_5_1 pay_bar_5_2 pay_bar_5_3 pay_bar_5_4 pay_bar_5_5 pay_bar_5_6 pay_bar_5_7 pay_bar_6_1 pay_bar_6_2 pay_bar_6_3 pay_bar_6_4 pay_bar_6_5 pay_bar_6_6 pay_bar_6_7 pay_bar_7_1 pay_bar_7_2 pay_bar_7_3 pay_bar_7_4 pay_bar_7_5 pay_bar_7_6 pay_bar_7_7

theorem part1_0 (K : GSem nD τ sig → ℕ) (W : Waits sig Unit) (Kt : (Σ' (d0 : Dev nD), BitVec 32) → sProp 𝕄) :
    iprop(part1Pre m K (0 : Dev nD) W ∗ (part1Post (0 : Dev nD) -∗ Kt ⟨(0 : Dev nD), 0#32⟩))
      ⊢ wp frame (wpE (defs₀ (F := F)) 𝒱₀ ((0 : Dev nD) : Thread nD τ) none) Set.univ
          (k0_part1 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  have e1 : px (0 : Dev nD) 1 = 1 := rfl
  have e2 : px (0 : Dev nD) 2 = 2 := rfl
  have e3 : px (0 : Dev nD) 3 = 3 := rfl
  have e4 : px (0 : Dev nD) 4 = 4 := rfl
  have e5 : px (0 : Dev nD) 5 = 5 := rfl
  have e6 : px (0 : Dev nD) 6 = 6 := rfl
  have e7 : px (0 : Dev nD) 7 = 7 := rfl
  have hmw := mayWait_bar (F := F) (0 : Dev nD)
  unfold owedRecv at hmw
  unfold part1Pre part1Post O₀ owedRecv owedBar
  simp only [e1, e2, e3, e4, e5, e6, e7] at hmw ⊢
  simp only [← add_assoc]
  iintro ⟨⟨#HIbar, #HIb1, #HIb2, #HIb3, #HIb4, #HIb5, #HIb6, #HIb7, HatB, #HrB1, #HrB2, #HrB3, #HrB4, #HrB5, #HrB6, #HrB7, HtB1, HtB2, HtB3, HtB4, HtB5, HtB6, HtB7, Hrb1, Hrb2, Hrb3, Hrb4, Hrb5, Hrb6, Hrb7, HcB, #Hlev, HO⟩, Hk⟩
  sl_exec_parts (disch := decide)
  rw [wp_ret]; imodintro
  iapply Hk
  ihave Hp := (Entails.of_eq ((bar_all m (0 : Dev nD)).trans (by rw [barPay_unfold_1, barPay_unfold_2, barPay_unfold_3, barPay_unfold_4, barPay_unfold_5, barPay_unfold_6, barPay_unfold_7]))) $$ HatB_pay1
  icases Hp with ⟨H1, H2, H3, H4, H5, H6, H7⟩
  isplitl [HatB]; · iexact HatB
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact HO

end Cert.Kernel.A2A

end
-- ==== Proof.Part1_1B.lean ====
/-
  The entry handshake on device 1: its seven signals go to devices 0, 2, 3, 4, 5, 6, 7 in that order; the unit it pays at device p is
  duty p xor 1 of p's barrier cell and carries slot p xor 1 of its own receive buffer.
-/
import proofs.«900796_g7700000000000797_dist_gemm_a2a_m4096_k4096_n2048_f32_gelu_v7x_i8_1_alg».proof.Proof.Part1IfaceB
import proofs.«900796_g7700000000000797_dist_gemm_a2a_m4096_k4096_n2048_f32_gelu_v7x_i8_1_alg».proof.Proof.LevelsB

set_option maxHeartbeats 8000000
set_option sl_exec.stepHeartbeats 2000000

noncomputable section

namespace Cert.Kernel.A2A

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

attribute [local sl_rounds] pay_bar_0_1 pay_bar_0_2 pay_bar_0_3 pay_bar_0_4 pay_bar_0_5 pay_bar_0_6 pay_bar_0_7 pay_bar_1_1 pay_bar_1_2 pay_bar_1_3 pay_bar_1_4 pay_bar_1_5 pay_bar_1_6 pay_bar_1_7 pay_bar_2_1 pay_bar_2_2 pay_bar_2_3 pay_bar_2_4 pay_bar_2_5 pay_bar_2_6 pay_bar_2_7 pay_bar_3_1 pay_bar_3_2 pay_bar_3_3 pay_bar_3_4 pay_bar_3_5 pay_bar_3_6 pay_bar_3_7 pay_bar_4_1 pay_bar_4_2 pay_bar_4_3 pay_bar_4_4 pay_bar_4_5 pay_bar_4_6 pay_bar_4_7 pay_bar_5_1 pay_bar_5_2 pay_bar_5_3 pay_bar_5_4 pay_bar_5_5 pay_bar_5_6 pay_bar_5_7 pay_bar_6_1 pay_bar_6_2 pay_bar_6_3 pay_bar_6_4 pay_bar_6_5 pay_bar_6_6 pay_bar_6_7 pay_bar_7_1 pay_bar_7_2 pay_bar_7_3 pay_bar_7_4 pay_bar_7_5 pay_bar_7_6 pay_bar_7_7

theorem part1_1 (K : GSem nD τ sig → ℕ) (W : Waits sig Unit) (Kt : (Σ' (d0 : Dev nD), BitVec 32) → sProp 𝕄) :
    iprop(part1Pre m K (1 : Dev nD) W ∗ (part1Post (1 : Dev nD) -∗ Kt ⟨(1 : Dev nD), 1#32⟩))
      ⊢ wp frame (wpE (defs₀ (F := F)) 𝒱₀ ((1 : Dev nD) : Thread nD τ) none) Set.univ
          (k0_part1 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  have e1 : px (1 : Dev nD) 1 = 0 := rfl
  have e2 : px (1 : Dev nD) 2 = 3 := rfl
  have e3 : px (1 : Dev nD) 3 = 2 := rfl
  have e4 : px (1 : Dev nD) 4 = 5 := rfl
  have e5 : px (1 : Dev nD) 5 = 4 := rfl
  have e6 : px (1 : Dev nD) 6 = 7 := rfl
  have e7 : px (1 : Dev nD) 7 = 6 := rfl
  have hmw := mayWait_bar (F := F) (1 : Dev nD)
  unfold owedRecv at hmw
  unfold part1Pre part1Post O₀ owedRecv owedBar
  simp only [e1, e2, e3, e4, e5, e6, e7] at hmw ⊢
  simp only [← add_assoc]
  iintro ⟨⟨#HIbar, #HIb1, #HIb2, #HIb3, #HIb4, #HIb5, #HIb6, #HIb7, HatB, #HrB1, #HrB2, #HrB3, #HrB4, #HrB5, #HrB6, #HrB7, HtB1, HtB2, HtB3, HtB4, HtB5, HtB6, HtB7, Hrb1, Hrb2, Hrb3, Hrb4, Hrb5, Hrb6, Hrb7, HcB, #Hlev, HO⟩, Hk⟩
  sl_exec_parts (disch := decide)
  rw [wp_ret]; imodintro
  iapply Hk
  ihave Hp := (Entails.of_eq ((bar_all m (1 : Dev nD)).trans (by rw [barPay_unfold_1, barPay_unfold_2, barPay_unfold_3, barPay_unfold_4, barPay_unfold_5, barPay_unfold_6, barPay_unfold_7]))) $$ HatB_pay1
  icases Hp with ⟨H1, H2, H3, H4, H5, H6, H7⟩
  isplitl [HatB]; · iexact HatB
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact HO

end Cert.Kernel.A2A

end
-- ==== Proof.Part1_2B.lean ====
/-
  The entry handshake on device 2: its seven signals go to devices 0, 1, 3, 4, 5, 6, 7 in that order; the unit it pays at device p is
  duty p xor 2 of p's barrier cell and carries slot p xor 2 of its own receive buffer.
-/
import proofs.«900796_g7700000000000797_dist_gemm_a2a_m4096_k4096_n2048_f32_gelu_v7x_i8_1_alg».proof.Proof.Part1IfaceB
import proofs.«900796_g7700000000000797_dist_gemm_a2a_m4096_k4096_n2048_f32_gelu_v7x_i8_1_alg».proof.Proof.LevelsB

set_option maxHeartbeats 8000000
set_option sl_exec.stepHeartbeats 2000000

noncomputable section

namespace Cert.Kernel.A2A

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

attribute [local sl_rounds] pay_bar_0_1 pay_bar_0_2 pay_bar_0_3 pay_bar_0_4 pay_bar_0_5 pay_bar_0_6 pay_bar_0_7 pay_bar_1_1 pay_bar_1_2 pay_bar_1_3 pay_bar_1_4 pay_bar_1_5 pay_bar_1_6 pay_bar_1_7 pay_bar_2_1 pay_bar_2_2 pay_bar_2_3 pay_bar_2_4 pay_bar_2_5 pay_bar_2_6 pay_bar_2_7 pay_bar_3_1 pay_bar_3_2 pay_bar_3_3 pay_bar_3_4 pay_bar_3_5 pay_bar_3_6 pay_bar_3_7 pay_bar_4_1 pay_bar_4_2 pay_bar_4_3 pay_bar_4_4 pay_bar_4_5 pay_bar_4_6 pay_bar_4_7 pay_bar_5_1 pay_bar_5_2 pay_bar_5_3 pay_bar_5_4 pay_bar_5_5 pay_bar_5_6 pay_bar_5_7 pay_bar_6_1 pay_bar_6_2 pay_bar_6_3 pay_bar_6_4 pay_bar_6_5 pay_bar_6_6 pay_bar_6_7 pay_bar_7_1 pay_bar_7_2 pay_bar_7_3 pay_bar_7_4 pay_bar_7_5 pay_bar_7_6 pay_bar_7_7

theorem part1_2 (K : GSem nD τ sig → ℕ) (W : Waits sig Unit) (Kt : (Σ' (d0 : Dev nD), BitVec 32) → sProp 𝕄) :
    iprop(part1Pre m K (2 : Dev nD) W ∗ (part1Post (2 : Dev nD) -∗ Kt ⟨(2 : Dev nD), 2#32⟩))
      ⊢ wp frame (wpE (defs₀ (F := F)) 𝒱₀ ((2 : Dev nD) : Thread nD τ) none) Set.univ
          (k0_part1 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  have e1 : px (2 : Dev nD) 1 = 3 := rfl
  have e2 : px (2 : Dev nD) 2 = 0 := rfl
  have e3 : px (2 : Dev nD) 3 = 1 := rfl
  have e4 : px (2 : Dev nD) 4 = 6 := rfl
  have e5 : px (2 : Dev nD) 5 = 7 := rfl
  have e6 : px (2 : Dev nD) 6 = 4 := rfl
  have e7 : px (2 : Dev nD) 7 = 5 := rfl
  have hmw := mayWait_bar (F := F) (2 : Dev nD)
  unfold owedRecv at hmw
  unfold part1Pre part1Post O₀ owedRecv owedBar
  simp only [e1, e2, e3, e4, e5, e6, e7] at hmw ⊢
  simp only [← add_assoc]
  iintro ⟨⟨#HIbar, #HIb1, #HIb2, #HIb3, #HIb4, #HIb5, #HIb6, #HIb7, HatB, #HrB1, #HrB2, #HrB3, #HrB4, #HrB5, #HrB6, #HrB7, HtB1, HtB2, HtB3, HtB4, HtB5, HtB6, HtB7, Hrb1, Hrb2, Hrb3, Hrb4, Hrb5, Hrb6, Hrb7, HcB, #Hlev, HO⟩, Hk⟩
  sl_exec_parts (disch := decide)
  rw [wp_ret]; imodintro
  iapply Hk
  ihave Hp := (Entails.of_eq ((bar_all m (2 : Dev nD)).trans (by rw [barPay_unfold_1, barPay_unfold_2, barPay_unfold_3, barPay_unfold_4, barPay_unfold_5, barPay_unfold_6, barPay_unfold_7]))) $$ HatB_pay1
  icases Hp with ⟨H1, H2, H3, H4, H5, H6, H7⟩
  isplitl [HatB]; · iexact HatB
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact HO

end Cert.Kernel.A2A

end
-- ==== Proof.Part1_3B.lean ====
/-
  The entry handshake on device 3: its seven signals go to devices 0, 1, 2, 4, 5, 6, 7 in that order; the unit it pays at device p is
  duty p xor 3 of p's barrier cell and carries slot p xor 3 of its own receive buffer.
-/
import proofs.«900796_g7700000000000797_dist_gemm_a2a_m4096_k4096_n2048_f32_gelu_v7x_i8_1_alg».proof.Proof.Part1IfaceB
import proofs.«900796_g7700000000000797_dist_gemm_a2a_m4096_k4096_n2048_f32_gelu_v7x_i8_1_alg».proof.Proof.LevelsB

set_option maxHeartbeats 8000000
set_option sl_exec.stepHeartbeats 2000000

noncomputable section

namespace Cert.Kernel.A2A

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

attribute [local sl_rounds] pay_bar_0_1 pay_bar_0_2 pay_bar_0_3 pay_bar_0_4 pay_bar_0_5 pay_bar_0_6 pay_bar_0_7 pay_bar_1_1 pay_bar_1_2 pay_bar_1_3 pay_bar_1_4 pay_bar_1_5 pay_bar_1_6 pay_bar_1_7 pay_bar_2_1 pay_bar_2_2 pay_bar_2_3 pay_bar_2_4 pay_bar_2_5 pay_bar_2_6 pay_bar_2_7 pay_bar_3_1 pay_bar_3_2 pay_bar_3_3 pay_bar_3_4 pay_bar_3_5 pay_bar_3_6 pay_bar_3_7 pay_bar_4_1 pay_bar_4_2 pay_bar_4_3 pay_bar_4_4 pay_bar_4_5 pay_bar_4_6 pay_bar_4_7 pay_bar_5_1 pay_bar_5_2 pay_bar_5_3 pay_bar_5_4 pay_bar_5_5 pay_bar_5_6 pay_bar_5_7 pay_bar_6_1 pay_bar_6_2 pay_bar_6_3 pay_bar_6_4 pay_bar_6_5 pay_bar_6_6 pay_bar_6_7 pay_bar_7_1 pay_bar_7_2 pay_bar_7_3 pay_bar_7_4 pay_bar_7_5 pay_bar_7_6 pay_bar_7_7

theorem part1_3 (K : GSem nD τ sig → ℕ) (W : Waits sig Unit) (Kt : (Σ' (d0 : Dev nD), BitVec 32) → sProp 𝕄) :
    iprop(part1Pre m K (3 : Dev nD) W ∗ (part1Post (3 : Dev nD) -∗ Kt ⟨(3 : Dev nD), 3#32⟩))
      ⊢ wp frame (wpE (defs₀ (F := F)) 𝒱₀ ((3 : Dev nD) : Thread nD τ) none) Set.univ
          (k0_part1 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  have e1 : px (3 : Dev nD) 1 = 2 := rfl
  have e2 : px (3 : Dev nD) 2 = 1 := rfl
  have e3 : px (3 : Dev nD) 3 = 0 := rfl
  have e4 : px (3 : Dev nD) 4 = 7 := rfl
  have e5 : px (3 : Dev nD) 5 = 6 := rfl
  have e6 : px (3 : Dev nD) 6 = 5 := rfl
  have e7 : px (3 : Dev nD) 7 = 4 := rfl
  have hmw := mayWait_bar (F := F) (3 : Dev nD)
  unfold owedRecv at hmw
  unfold part1Pre part1Post O₀ owedRecv owedBar
  simp only [e1, e2, e3, e4, e5, e6, e7] at hmw ⊢
  simp only [← add_assoc]
  iintro ⟨⟨#HIbar, #HIb1, #HIb2, #HIb3, #HIb4, #HIb5, #HIb6, #HIb7, HatB, #HrB1, #HrB2, #HrB3, #HrB4, #HrB5, #HrB6, #HrB7, HtB1, HtB2, HtB3, HtB4, HtB5, HtB6, HtB7, Hrb1, Hrb2, Hrb3, Hrb4, Hrb5, Hrb6, Hrb7, HcB, #Hlev, HO⟩, Hk⟩
  sl_exec_parts (disch := decide)
  rw [wp_ret]; imodintro
  iapply Hk
  ihave Hp := (Entails.of_eq ((bar_all m (3 : Dev nD)).trans (by rw [barPay_unfold_1, barPay_unfold_2, barPay_unfold_3, barPay_unfold_4, barPay_unfold_5, barPay_unfold_6, barPay_unfold_7]))) $$ HatB_pay1
  icases Hp with ⟨H1, H2, H3, H4, H5, H6, H7⟩
  isplitl [HatB]; · iexact HatB
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact HO

end Cert.Kernel.A2A

end
-- ==== Proof.Part1_4B.lean ====
/-
  The entry handshake on device 4: its seven signals go to devices 0, 1, 2, 3, 5, 6, 7 in that order; the unit it pays at device p is
  duty p xor 4 of p's barrier cell and carries slot p xor 4 of its own receive buffer.
-/
import proofs.«900796_g7700000000000797_dist_gemm_a2a_m4096_k4096_n2048_f32_gelu_v7x_i8_1_alg».proof.Proof.Part1IfaceB
import proofs.«900796_g7700000000000797_dist_gemm_a2a_m4096_k4096_n2048_f32_gelu_v7x_i8_1_alg».proof.Proof.LevelsB

set_option maxHeartbeats 8000000
set_option sl_exec.stepHeartbeats 2000000

noncomputable section

namespace Cert.Kernel.A2A

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

attribute [local sl_rounds] pay_bar_0_1 pay_bar_0_2 pay_bar_0_3 pay_bar_0_4 pay_bar_0_5 pay_bar_0_6 pay_bar_0_7 pay_bar_1_1 pay_bar_1_2 pay_bar_1_3 pay_bar_1_4 pay_bar_1_5 pay_bar_1_6 pay_bar_1_7 pay_bar_2_1 pay_bar_2_2 pay_bar_2_3 pay_bar_2_4 pay_bar_2_5 pay_bar_2_6 pay_bar_2_7 pay_bar_3_1 pay_bar_3_2 pay_bar_3_3 pay_bar_3_4 pay_bar_3_5 pay_bar_3_6 pay_bar_3_7 pay_bar_4_1 pay_bar_4_2 pay_bar_4_3 pay_bar_4_4 pay_bar_4_5 pay_bar_4_6 pay_bar_4_7 pay_bar_5_1 pay_bar_5_2 pay_bar_5_3 pay_bar_5_4 pay_bar_5_5 pay_bar_5_6 pay_bar_5_7 pay_bar_6_1 pay_bar_6_2 pay_bar_6_3 pay_bar_6_4 pay_bar_6_5 pay_bar_6_6 pay_bar_6_7 pay_bar_7_1 pay_bar_7_2 pay_bar_7_3 pay_bar_7_4 pay_bar_7_5 pay_bar_7_6 pay_bar_7_7

theorem part1_4 (K : GSem nD τ sig → ℕ) (W : Waits sig Unit) (Kt : (Σ' (d0 : Dev nD), BitVec 32) → sProp 𝕄) :
    iprop(part1Pre m K (4 : Dev nD) W ∗ (part1Post (4 : Dev nD) -∗ Kt ⟨(4 : Dev nD), 4#32⟩))
      ⊢ wp frame (wpE (defs₀ (F := F)) 𝒱₀ ((4 : Dev nD) : Thread nD τ) none) Set.univ
          (k0_part1 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  have e1 : px (4 : Dev nD) 1 = 5 := rfl
  have e2 : px (4 : Dev nD) 2 = 6 := rfl
  have e3 : px (4 : Dev nD) 3 = 7 := rfl
  have e4 : px (4 : Dev nD) 4 = 0 := rfl
  have e5 : px (4 : Dev nD) 5 = 1 := rfl
  have e6 : px (4 : Dev nD) 6 = 2 := rfl
  have e7 : px (4 : Dev nD) 7 = 3 := rfl
  have hmw := mayWait_bar (F := F) (4 : Dev nD)
  unfold owedRecv at hmw
  unfold part1Pre part1Post O₀ owedRecv owedBar
  simp only [e1, e2, e3, e4, e5, e6, e7] at hmw ⊢
  simp only [← add_assoc]
  iintro ⟨⟨#HIbar, #HIb1, #HIb2, #HIb3, #HIb4, #HIb5, #HIb6, #HIb7, HatB, #HrB1, #HrB2, #HrB3, #HrB4, #HrB5, #HrB6, #HrB7, HtB1, HtB2, HtB3, HtB4, HtB5, HtB6, HtB7, Hrb1, Hrb2, Hrb3, Hrb4, Hrb5, Hrb6, Hrb7, HcB, #Hlev, HO⟩, Hk⟩
  sl_exec_parts (disch := decide)
  rw [wp_ret]; imodintro
  iapply Hk
  ihave Hp := (Entails.of_eq ((bar_all m (4 : Dev nD)).trans (by rw [barPay_unfold_1, barPay_unfold_2, barPay_unfold_3, barPay_unfold_4, barPay_unfold_5, barPay_unfold_6, barPay_unfold_7]))) $$ HatB_pay1
  icases Hp with ⟨H1, H2, H3, H4, H5, H6, H7⟩
  isplitl [HatB]; · iexact HatB
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact HO

end Cert.Kernel.A2A

end
-- ==== Proof.Part1_5B.lean ====
/-
  The entry handshake on device 5: its seven signals go to devices 0, 1, 2, 3, 4, 6, 7 in that order; the unit it pays at device p is
  duty p xor 5 of p's barrier cell and carries slot p xor 5 of its own receive buffer.
-/
import proofs.«900796_g7700000000000797_dist_gemm_a2a_m4096_k4096_n2048_f32_gelu_v7x_i8_1_alg».proof.Proof.Part1IfaceB
import proofs.«900796_g7700000000000797_dist_gemm_a2a_m4096_k4096_n2048_f32_gelu_v7x_i8_1_alg».proof.Proof.LevelsB

set_option maxHeartbeats 8000000
set_option sl_exec.stepHeartbeats 2000000

noncomputable section

namespace Cert.Kernel.A2A

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

attribute [local sl_rounds] pay_bar_0_1 pay_bar_0_2 pay_bar_0_3 pay_bar_0_4 pay_bar_0_5 pay_bar_0_6 pay_bar_0_7 pay_bar_1_1 pay_bar_1_2 pay_bar_1_3 pay_bar_1_4 pay_bar_1_5 pay_bar_1_6 pay_bar_1_7 pay_bar_2_1 pay_bar_2_2 pay_bar_2_3 pay_bar_2_4 pay_bar_2_5 pay_bar_2_6 pay_bar_2_7 pay_bar_3_1 pay_bar_3_2 pay_bar_3_3 pay_bar_3_4 pay_bar_3_5 pay_bar_3_6 pay_bar_3_7 pay_bar_4_1 pay_bar_4_2 pay_bar_4_3 pay_bar_4_4 pay_bar_4_5 pay_bar_4_6 pay_bar_4_7 pay_bar_5_1 pay_bar_5_2 pay_bar_5_3 pay_bar_5_4 pay_bar_5_5 pay_bar_5_6 pay_bar_5_7 pay_bar_6_1 pay_bar_6_2 pay_bar_6_3 pay_bar_6_4 pay_bar_6_5 pay_bar_6_6 pay_bar_6_7 pay_bar_7_1 pay_bar_7_2 pay_bar_7_3 pay_bar_7_4 pay_bar_7_5 pay_bar_7_6 pay_bar_7_7

theorem part1_5 (K : GSem nD τ sig → ℕ) (W : Waits sig Unit) (Kt : (Σ' (d0 : Dev nD), BitVec 32) → sProp 𝕄) :
    iprop(part1Pre m K (5 : Dev nD) W ∗ (part1Post (5 : Dev nD) -∗ Kt ⟨(5 : Dev nD), 5#32⟩))
      ⊢ wp frame (wpE (defs₀ (F := F)) 𝒱₀ ((5 : Dev nD) : Thread nD τ) none) Set.univ
          (k0_part1 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  have e1 : px (5 : Dev nD) 1 = 4 := rfl
  have e2 : px (5 : Dev nD) 2 = 7 := rfl
  have e3 : px (5 : Dev nD) 3 = 6 := rfl
  have e4 : px (5 : Dev nD) 4 = 1 := rfl
  have e5 : px (5 : Dev nD) 5 = 0 := rfl
  have e6 : px (5 : Dev nD) 6 = 3 := rfl
  have e7 : px (5 : Dev nD) 7 = 2 := rfl
  have hmw := mayWait_bar (F := F) (5 : Dev nD)
  unfold owedRecv at hmw
  unfold part1Pre part1Post O₀ owedRecv owedBar
  simp only [e1, e2, e3, e4, e5, e6, e7] at hmw ⊢
  simp only [← add_assoc]
  iintro ⟨⟨#HIbar, #HIb1, #HIb2, #HIb3, #HIb4, #HIb5, #HIb6, #HIb7, HatB, #HrB1, #HrB2, #HrB3, #HrB4, #HrB5, #HrB6, #HrB7, HtB1, HtB2, HtB3, HtB4, HtB5, HtB6, HtB7, Hrb1, Hrb2, Hrb3, Hrb4, Hrb5, Hrb6, Hrb7, HcB, #Hlev, HO⟩, Hk⟩
  sl_exec_parts (disch := decide)
  rw [wp_ret]; imodintro
  iapply Hk
  ihave Hp := (Entails.of_eq ((bar_all m (5 : Dev nD)).trans (by rw [barPay_unfold_1, barPay_unfold_2, barPay_unfold_3, barPay_unfold_4, barPay_unfold_5, barPay_unfold_6, barPay_unfold_7]))) $$ HatB_pay1
  icases Hp with ⟨H1, H2, H3, H4, H5, H6, H7⟩
  isplitl [HatB]; · iexact HatB
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact HO

end Cert.Kernel.A2A

end
-- ==== Proof.Part1_6B.lean ====
/-
  The entry handshake on device 6: its seven signals go to devices 0, 1, 2, 3, 4, 5, 7 in that order; the unit it pays at device p is
  duty p xor 6 of p's barrier cell and carries slot p xor 6 of its own receive buffer.
-/
import proofs.«900796_g7700000000000797_dist_gemm_a2a_m4096_k4096_n2048_f32_gelu_v7x_i8_1_alg».proof.Proof.Part1IfaceB
import proofs.«900796_g7700000000000797_dist_gemm_a2a_m4096_k4096_n2048_f32_gelu_v7x_i8_1_alg».proof.Proof.LevelsB

set_option maxHeartbeats 8000000
set_option sl_exec.stepHeartbeats 2000000

noncomputable section

namespace Cert.Kernel.A2A

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

attribute [local sl_rounds] pay_bar_0_1 pay_bar_0_2 pay_bar_0_3 pay_bar_0_4 pay_bar_0_5 pay_bar_0_6 pay_bar_0_7 pay_bar_1_1 pay_bar_1_2 pay_bar_1_3 pay_bar_1_4 pay_bar_1_5 pay_bar_1_6 pay_bar_1_7 pay_bar_2_1 pay_bar_2_2 pay_bar_2_3 pay_bar_2_4 pay_bar_2_5 pay_bar_2_6 pay_bar_2_7 pay_bar_3_1 pay_bar_3_2 pay_bar_3_3 pay_bar_3_4 pay_bar_3_5 pay_bar_3_6 pay_bar_3_7 pay_bar_4_1 pay_bar_4_2 pay_bar_4_3 pay_bar_4_4 pay_bar_4_5 pay_bar_4_6 pay_bar_4_7 pay_bar_5_1 pay_bar_5_2 pay_bar_5_3 pay_bar_5_4 pay_bar_5_5 pay_bar_5_6 pay_bar_5_7 pay_bar_6_1 pay_bar_6_2 pay_bar_6_3 pay_bar_6_4 pay_bar_6_5 pay_bar_6_6 pay_bar_6_7 pay_bar_7_1 pay_bar_7_2 pay_bar_7_3 pay_bar_7_4 pay_bar_7_5 pay_bar_7_6 pay_bar_7_7

theorem part1_6 (K : GSem nD τ sig → ℕ) (W : Waits sig Unit) (Kt : (Σ' (d0 : Dev nD), BitVec 32) → sProp 𝕄) :
    iprop(part1Pre m K (6 : Dev nD) W ∗ (part1Post (6 : Dev nD) -∗ Kt ⟨(6 : Dev nD), 6#32⟩))
      ⊢ wp frame (wpE (defs₀ (F := F)) 𝒱₀ ((6 : Dev nD) : Thread nD τ) none) Set.univ
          (k0_part1 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  have e1 : px (6 : Dev nD) 1 = 7 := rfl
  have e2 : px (6 : Dev nD) 2 = 4 := rfl
  have e3 : px (6 : Dev nD) 3 = 5 := rfl
  have e4 : px (6 : Dev nD) 4 = 2 := rfl
  have e5 : px (6 : Dev nD) 5 = 3 := rfl
  have e6 : px (6 : Dev nD) 6 = 0 := rfl
  have e7 : px (6 : Dev nD) 7 = 1 := rfl
  have hmw := mayWait_bar (F := F) (6 : Dev nD)
  unfold owedRecv at hmw
  unfold part1Pre part1Post O₀ owedRecv owedBar
  simp only [e1, e2, e3, e4, e5, e6, e7] at hmw ⊢
  simp only [← add_assoc]
  iintro ⟨⟨#HIbar, #HIb1, #HIb2, #HIb3, #HIb4, #HIb5, #HIb6, #HIb7, HatB, #HrB1, #HrB2, #HrB3, #HrB4, #HrB5, #HrB6, #HrB7, HtB1, HtB2, HtB3, HtB4, HtB5, HtB6, HtB7, Hrb1, Hrb2, Hrb3, Hrb4, Hrb5, Hrb6, Hrb7, HcB, #Hlev, HO⟩, Hk⟩
  sl_exec_parts (disch := decide)
  rw [wp_ret]; imodintro
  iapply Hk
  ihave Hp := (Entails.of_eq ((bar_all m (6 : Dev nD)).trans (by rw [barPay_unfold_1, barPay_unfold_2, barPay_unfold_3, barPay_unfold_4, barPay_unfold_5, barPay_unfold_6, barPay_unfold_7]))) $$ HatB_pay1
  icases Hp with ⟨H1, H2, H3, H4, H5, H6, H7⟩
  isplitl [HatB]; · iexact HatB
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact HO

end Cert.Kernel.A2A

end
-- ==== Proof.Part1_7B.lean ====
/-
  The entry handshake on device 7: its seven signals go to devices 0, 1, 2, 3, 4, 5, 6 in that order; the unit it pays at device p is
  duty p xor 7 of p's barrier cell and carries slot p xor 7 of its own receive buffer.
-/
import proofs.«900796_g7700000000000797_dist_gemm_a2a_m4096_k4096_n2048_f32_gelu_v7x_i8_1_alg».proof.Proof.Part1IfaceB
import proofs.«900796_g7700000000000797_dist_gemm_a2a_m4096_k4096_n2048_f32_gelu_v7x_i8_1_alg».proof.Proof.LevelsB

set_option maxHeartbeats 8000000
set_option sl_exec.stepHeartbeats 2000000

noncomputable section

namespace Cert.Kernel.A2A

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

attribute [local sl_rounds] pay_bar_0_1 pay_bar_0_2 pay_bar_0_3 pay_bar_0_4 pay_bar_0_5 pay_bar_0_6 pay_bar_0_7 pay_bar_1_1 pay_bar_1_2 pay_bar_1_3 pay_bar_1_4 pay_bar_1_5 pay_bar_1_6 pay_bar_1_7 pay_bar_2_1 pay_bar_2_2 pay_bar_2_3 pay_bar_2_4 pay_bar_2_5 pay_bar_2_6 pay_bar_2_7 pay_bar_3_1 pay_bar_3_2 pay_bar_3_3 pay_bar_3_4 pay_bar_3_5 pay_bar_3_6 pay_bar_3_7 pay_bar_4_1 pay_bar_4_2 pay_bar_4_3 pay_bar_4_4 pay_bar_4_5 pay_bar_4_6 pay_bar_4_7 pay_bar_5_1 pay_bar_5_2 pay_bar_5_3 pay_bar_5_4 pay_bar_5_5 pay_bar_5_6 pay_bar_5_7 pay_bar_6_1 pay_bar_6_2 pay_bar_6_3 pay_bar_6_4 pay_bar_6_5 pay_bar_6_6 pay_bar_6_7 pay_bar_7_1 pay_bar_7_2 pay_bar_7_3 pay_bar_7_4 pay_bar_7_5 pay_bar_7_6 pay_bar_7_7

theorem part1_7 (K : GSem nD τ sig → ℕ) (W : Waits sig Unit) (Kt : (Σ' (d0 : Dev nD), BitVec 32) → sProp 𝕄) :
    iprop(part1Pre m K (7 : Dev nD) W ∗ (part1Post (7 : Dev nD) -∗ Kt ⟨(7 : Dev nD), 7#32⟩))
      ⊢ wp frame (wpE (defs₀ (F := F)) 𝒱₀ ((7 : Dev nD) : Thread nD τ) none) Set.univ
          (k0_part1 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  have e1 : px (7 : Dev nD) 1 = 6 := rfl
  have e2 : px (7 : Dev nD) 2 = 5 := rfl
  have e3 : px (7 : Dev nD) 3 = 4 := rfl
  have e4 : px (7 : Dev nD) 4 = 3 := rfl
  have e5 : px (7 : Dev nD) 5 = 2 := rfl
  have e6 : px (7 : Dev nD) 6 = 1 := rfl
  have e7 : px (7 : Dev nD) 7 = 0 := rfl
  have hmw := mayWait_bar (F := F) (7 : Dev nD)
  unfold owedRecv at hmw
  unfold part1Pre part1Post O₀ owedRecv owedBar
  simp only [e1, e2, e3, e4, e5, e6, e7] at hmw ⊢
  simp only [← add_assoc]
  iintro ⟨⟨#HIbar, #HIb1, #HIb2, #HIb3, #HIb4, #HIb5, #HIb6, #HIb7, HatB, #HrB1, #HrB2, #HrB3, #HrB4, #HrB5, #HrB6, #HrB7, HtB1, HtB2, HtB3, HtB4, HtB5, HtB6, HtB7, Hrb1, Hrb2, Hrb3, Hrb4, Hrb5, Hrb6, Hrb7, HcB, #Hlev, HO⟩, Hk⟩
  sl_exec_parts (disch := decide)
  rw [wp_ret]; imodintro
  iapply Hk
  ihave Hp := (Entails.of_eq ((bar_all m (7 : Dev nD)).trans (by rw [barPay_unfold_1, barPay_unfold_2, barPay_unfold_3, barPay_unfold_4, barPay_unfold_5, barPay_unfold_6, barPay_unfold_7]))) $$ HatB_pay1
  icases Hp with ⟨H1, H2, H3, H4, H5, H6, H7⟩
  isplitl [HatB]; · iexact HatB
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact HO

end Cert.Kernel.A2A

end
-- ==== Proof.Part1AllB.lean ====
/-
  The entry handshake on any device: the eight devices' cases, each proved with the device's number and its seven partners
  written out, joined by cases on the device. The word the part returns is the device's position on the mesh axis, which on
  device k is the word k.
-/
import proofs.«900796_g7700000000000797_dist_gemm_a2a_m4096_k4096_n2048_f32_gelu_v7x_i8_1_alg».proof.Proof.Part1_0B
import proofs.«900796_g7700000000000797_dist_gemm_a2a_m4096_k4096_n2048_f32_gelu_v7x_i8_1_alg».proof.Proof.Part1_1B
import proofs.«900796_g7700000000000797_dist_gemm_a2a_m4096_k4096_n2048_f32_gelu_v7x_i8_1_alg».proof.Proof.Part1_2B
import proofs.«900796_g7700000000000797_dist_gemm_a2a_m4096_k4096_n2048_f32_gelu_v7x_i8_1_alg».proof.Proof.Part1_3B
import proofs.«900796_g7700000000000797_dist_gemm_a2a_m4096_k4096_n2048_f32_gelu_v7x_i8_1_alg».proof.Proof.Part1_4B
import proofs.«900796_g7700000000000797_dist_gemm_a2a_m4096_k4096_n2048_f32_gelu_v7x_i8_1_alg».proof.Proof.Part1_5B
import proofs.«900796_g7700000000000797_dist_gemm_a2a_m4096_k4096_n2048_f32_gelu_v7x_i8_1_alg».proof.Proof.Part1_6B
import proofs.«900796_g7700000000000797_dist_gemm_a2a_m4096_k4096_n2048_f32_gelu_v7x_i8_1_alg».proof.Proof.Part1_7B

noncomputable section

namespace Cert.Kernel.A2A

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The position word of each device -/

theorem v2c_0 : v2c (0 : Dev nD) = 0#32 := by decide
theorem v2c_1 : v2c (1 : Dev nD) = 1#32 := by decide
theorem v2c_2 : v2c (2 : Dev nD) = 2#32 := by decide
theorem v2c_3 : v2c (3 : Dev nD) = 3#32 := by decide
theorem v2c_4 : v2c (4 : Dev nD) = 4#32 := by decide
theorem v2c_5 : v2c (5 : Dev nD) = 5#32 := by decide
theorem v2c_6 : v2c (6 : Dev nD) = 6#32 := by decide
theorem v2c_7 : v2c (7 : Dev nD) = 7#32 := by decide

/-! ## The handshake at a device whose position word is known -/

/-- A proof of the handshake stated with the position word written out is one stated with the word as the program computes it. -/
theorem part1_at (K : GSem nD τ sig → ℕ) (W : Waits sig Unit) (Kt : (Σ' (d0 : Dev nD), BitVec 32) → sProp 𝕄)
    (e : Prog (TpuEff nD τ sig (Elt F) Λ₀ .tc) (Σ' (d0 : Dev nD), BitVec 32)) (k : Dev nD) (w : BitVec 32) (hw : v2c k = w)
    (H : iprop(part1Pre m K k W ∗ (part1Post k -∗ Kt ⟨k, w⟩)) ⊢ wp frame (wpE (defs₀ (F := F)) 𝒱₀ (k : Thread nD τ) none) Set.univ e Kt) :
    iprop(part1Pre m K k W ∗ (part1Post k -∗ Kt ⟨k, v2c k⟩)) ⊢ wp frame (wpE (defs₀ (F := F)) 𝒱₀ (k : Thread nD τ) none) Set.univ e Kt := by
  rw [hw]; exact H

/-! ## The handshake on any device -/

theorem part1_run (K : GSem nD τ sig → ℕ) (c : Dev nD) (W : Waits sig Unit) (Kt : (Σ' (d0 : Dev nD), BitVec 32) → sProp 𝕄) :
    iprop(part1Pre m K c W ∗ (part1Post c -∗ Kt ⟨c, v2c c⟩))
      ⊢ wp frame (wpE (defs₀ (F := F)) 𝒱₀ (c : Thread nD τ) none) Set.univ
          (k0_part1 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  fin_cases c
  · exact part1_at m K W Kt _ (0 : Dev nD) 0#32 v2c_0 (part1_0 m K W Kt)
  · exact part1_at m K W Kt _ (1 : Dev nD) 1#32 v2c_1 (part1_1 m K W Kt)
  · exact part1_at m K W Kt _ (2 : Dev nD) 2#32 v2c_2 (part1_2 m K W Kt)
  · exact part1_at m K W Kt _ (3 : Dev nD) 3#32 v2c_3 (part1_3 m K W Kt)
  · exact part1_at m K W Kt _ (4 : Dev nD) 4#32 v2c_4 (part1_4 m K W Kt)
  · exact part1_at m K W Kt _ (5 : Dev nD) 5#32 v2c_5 (part1_5 m K W Kt)
  · exact part1_at m K W Kt _ (6 : Dev nD) 6#32 v2c_6 (part1_6 m K W Kt)
  · exact part1_at m K W Kt _ (7 : Dev nD) 7#32 v2c_7 (part1_7 m K W Kt)

end Cert.Kernel.A2A

end
-- ==== Proof.LevelsGenB.lean ====
/-
  The waits on a device's own local copies, whatever part of its receive debts is still unpaid.

  A device pays its seven receive debts one remote copy at a time, so at a local wait it may hold any of eight debts:
  the seven receive debts, or what is left of them after the copies at masks 6, 2, 5, 7, 1, 3, 4 in that order. Each is
  a sum of debts to receive cells of partners, at level 2, and a local copy's semaphore sits at level 0.
-/
import proofs.«900796_g7700000000000797_dist_gemm_a2a_m4096_k4096_n2048_f32_gelu_v7x_i8_1_alg».proof.Proof.LevelsB

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Where a sum of receive debts is positive -/

omit [FloatOps F] in
/-- One receive debt is positive only at its own cell. -/
theorem supp_tally (c : Dev nD) (t : Fin 8) (ht : t ≠ 0) (k : ℕ) (g : GSem nD τ sig) (u : Unit)
    (h : 0 < tallyAt (recvCell (px c t) t) () k g u) : ∃ t : Fin 8, t ≠ 0 ∧ g = recvCell (px c t) t := by
  rw [tallyAt_apply] at h
  by_cases hg : g = recvCell (px c t) t ∧ u = ()
  · exact ⟨t, ht, hg.1⟩
  · rw [if_neg hg] at h; exact absurd h (Nat.lt_irrefl 0)

omit [FloatOps F] in
/-- A sum is positive only where a summand is. -/
theorem supp_add {A B : CellTallies nD τ sig Unit} {P : GSem nD τ sig → Prop}
    (hA : ∀ g u, 0 < A g u → P g) (hB : ∀ g u, 0 < B g u → P g) (g : GSem nD τ sig) (u : Unit) (h : 0 < (A + B) g u) : P g := by
  rw [Pi.add_apply, Finsupp.add_apply] at h
  rcases Nat.add_pos_iff_pos_or_pos.mp h with h1 | h2
  · exact hA g u h1
  · exact hB g u h2

/-! ## The wait, for any debt to partners' receive cells -/

omit [FloatOps F] in
theorem mayWait_local_gen (c : Dev nD) (q : DmaSem sig) (hq : recvT (SemLoc.dma q : SemLoc sig) = none) (O : CellTallies nD τ sig Unit)
    (hO : ∀ g u, 0 < O g u → ∃ t : Fin 8, t ≠ 0 ∧ g = recvCell (px c t) t) :
    (levAts L lv : sProp 𝕄) ⊢ MayWait (c : Thread nD τ) (.dma q) () O :=
  MayOwe.of_cut (L := L) (lev := lv) 0
    (fun p hp => by rw [Finset.mem_singleton.mp hp, L_tc]; exact Finset.mem_singleton_self _)
    (fun g u hg => by
      cases u
      obtain ⟨t, ht, rfl⟩ := hO g () hg
      rw [L_tc]; exact Finset.mem_singleton_self _)
    (fun p hp => by
      rw [Finset.mem_singleton.mp hp]
      show lv ((c : Thread nD τ), SemLoc.dma q) () ≤ 0
      rw [lv_other c q hq])
    (fun g u hg => by
      cases u
      obtain ⟨t, ht, rfl⟩ := hO g () hg
      rw [lv_recv _ _ ht]; decide)

/-! ## The eight debts a device holds at a local wait -/

omit [FloatOps F] in
theorem mw_0 (c : Dev nD) (q : DmaSem sig) (hq : recvT (SemLoc.dma q : SemLoc sig) = none) :
    (levAts L lv : sProp 𝕄) ⊢ MayWait (c : Thread nD τ) (.dma q) () (tallyAt (recvCell (px c 1) 1) () NS + tallyAt (recvCell (px c 2) 2) () NS + tallyAt (recvCell (px c 3) 3) () NS + tallyAt (recvCell (px c 4) 4) () NS + tallyAt (recvCell (px c 5) 5) () NS + tallyAt (recvCell (px c 6) 6) () NS + tallyAt (recvCell (px c 7) 7) () NS) :=
  mayWait_local_gen c q hq _ (supp_add (supp_add (supp_add (supp_add (supp_add (supp_add (supp_tally c 1 (by decide) NS) (supp_tally c 2 (by decide) NS)) (supp_tally c 3 (by decide) NS)) (supp_tally c 4 (by decide) NS)) (supp_tally c 5 (by decide) NS)) (supp_tally c 6 (by decide) NS)) (supp_tally c 7 (by decide) NS))

omit [FloatOps F] in
theorem mw_1 (c : Dev nD) (q : DmaSem sig) (hq : recvT (SemLoc.dma q : SemLoc sig) = none) :
    (levAts L lv : sProp 𝕄) ⊢ MayWait (c : Thread nD τ) (.dma q) () (tallyAt (recvCell (px c 1) 1) () NS + tallyAt (recvCell (px c 2) 2) () NS + tallyAt (recvCell (px c 3) 3) () NS + tallyAt (recvCell (px c 4) 4) () NS + tallyAt (recvCell (px c 5) 5) () NS + tallyAt (recvCell (px c 7) 7) () NS) :=
  mayWait_local_gen c q hq _ (supp_add (supp_add (supp_add (supp_add (supp_add (supp_tally c 1 (by decide) NS) (supp_tally c 2 (by decide) NS)) (supp_tally c 3 (by decide) NS)) (supp_tally c 4 (by decide) NS)) (supp_tally c 5 (by decide) NS)) (supp_tally c 7 (by decide) NS))

omit [FloatOps F] in
theorem mw_2 (c : Dev nD) (q : DmaSem sig) (hq : recvT (SemLoc.dma q : SemLoc sig) = none) :
    (levAts L lv : sProp 𝕄) ⊢ MayWait (c : Thread nD τ) (.dma q) () (tallyAt (recvCell (px c 1) 1) () NS + tallyAt (recvCell (px c 3) 3) () NS + tallyAt (recvCell (px c 4) 4) () NS + tallyAt (recvCell (px c 5) 5) () NS + tallyAt (recvCell (px c 7) 7) () NS) :=
  mayWait_local_gen c q hq _ (supp_add (supp_add (supp_add (supp_add (supp_tally c 1 (by decide) NS) (supp_tally c 3 (by decide) NS)) (supp_tally c 4 (by decide) NS)) (supp_tally c 5 (by decide) NS)) (supp_tally c 7 (by decide) NS))

omit [FloatOps F] in
theorem mw_3 (c : Dev nD) (q : DmaSem sig) (hq : recvT (SemLoc.dma q : SemLoc sig) = none) :
    (levAts L lv : sProp 𝕄) ⊢ MayWait (c : Thread nD τ) (.dma q) () (tallyAt (recvCell (px c 1) 1) () NS + tallyAt (recvCell (px c 3) 3) () NS + tallyAt (recvCell (px c 4) 4) () NS + tallyAt (recvCell (px c 7) 7) () NS) :=
  mayWait_local_gen c q hq _ (supp_add (supp_add (supp_add (supp_tally c 1 (by decide) NS) (supp_tally c 3 (by decide) NS)) (supp_tally c 4 (by decide) NS)) (supp_tally c 7 (by decide) NS))

omit [FloatOps F] in
theorem mw_4 (c : Dev nD) (q : DmaSem sig) (hq : recvT (SemLoc.dma q : SemLoc sig) = none) :
    (levAts L lv : sProp 𝕄) ⊢ MayWait (c : Thread nD τ) (.dma q) () (tallyAt (recvCell (px c 1) 1) () NS + tallyAt (recvCell (px c 3) 3) () NS + tallyAt (recvCell (px c 4) 4) () NS) :=
  mayWait_local_gen c q hq _ (supp_add (supp_add (supp_tally c 1 (by decide) NS) (supp_tally c 3 (by decide) NS)) (supp_tally c 4 (by decide) NS))

omit [FloatOps F] in
theorem mw_5 (c : Dev nD) (q : DmaSem sig) (hq : recvT (SemLoc.dma q : SemLoc sig) = none) :
    (levAts L lv : sProp 𝕄) ⊢ MayWait (c : Thread nD τ) (.dma q) () (tallyAt (recvCell (px c 3) 3) () NS + tallyAt (recvCell (px c 4) 4) () NS) :=
  mayWait_local_gen c q hq _ (supp_add (supp_tally c 3 (by decide) NS) (supp_tally c 4 (by decide) NS))

omit [FloatOps F] in
theorem mw_6 (c : Dev nD) (q : DmaSem sig) (hq : recvT (SemLoc.dma q : SemLoc sig) = none) :
    (levAts L lv : sProp 𝕄) ⊢ MayWait (c : Thread nD τ) (.dma q) () (tallyAt (recvCell (px c 4) 4) () NS) :=
  mayWait_local_gen c q hq _ (supp_tally c 4 (by decide) NS)

omit [FloatOps F] in
theorem mw_7 (c : Dev nD) (q : DmaSem sig) (hq : recvT (SemLoc.dma q : SemLoc sig) = none) :
    (levAts L lv : sProp 𝕄) ⊢ MayWait (c : Thread nD τ) (.dma q) () (0) :=
  mayWait_zero' c (.dma q)

/-- info: 'Cert.Kernel.A2A.mw_0' depends on axioms: [propext, Classical.choice, Quot.sound] -/
#guard_msgs in #print axioms mw_0

end Cert.Kernel.A2A

end
-- ==== Proof.SendRuleB.lean ====
/-
  The remote copy of one slot. Device c copies slot t of its send buffer into slot t of the receive buffer of the device
  at mask t from it. The copy pays two duties: the one duty of c's own send cell t, with the source slot handed back as it
  stands, and the one duty of the partner's receive cell t, with the destination slot at what the copy wrote. What it wrote
  is what the partner expects: at an element (t, r, n) of the slot the source holds the tile c computed for the partner's
  column block, and the partner's expected contents are the tile computed for it by the device at mask t from the partner,
  which is c again because the pairing at a mask is an involution.
-/
import proofs.«900796_g7700000000000797_dist_gemm_a2a_m4096_k4096_n2048_f32_gelu_v7x_i8_1_alg».proof.Proof.SchedTabB
import proofs.«900796_g7700000000000797_dist_gemm_a2a_m4096_k4096_n2048_f32_gelu_v7x_i8_1_alg».proof.Proof.DataB
import proofs.«900796_g7700000000000797_dist_gemm_a2a_m4096_k4096_n2048_f32_gelu_v7x_i8_1_alg».proof.Proof.PiecesB

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Slot 1 -/

/-- What the copy of slot 1 leaves in the partner's receive buffer is, on the slot, what the partner expects there. -/
theorem landed_1 (c : Dev nD) (fn : Buf (Elt F) ((rM 1).view.loc (px c 1 : Thread nD τ))) :
    ∀ i ∈ (rM 1).view.set, ((rM 1).view.write (Elt F) fn ((sM 1).view.read (Elt F) (sendV m c)) Finset.univ) i = recvV m (px c 1) i := by
  intro i hi
  have h0 : (i 0).val = (1 : Fin 8).val := (mem_bSR 1 i).mp (rM_set_1 ▸ hi)
  obtain ⟨y, rfl⟩ := View.exists_emb_of_mem_set (rM 1).view hi
  rw [View.write_emb_of_mem _ _ (Finset.mem_univ y), View.read_apply]
  show sendV m c ((rM 1).view.emb y) = recvV m (px c 1) ((rM 1).view.emb y)
  have h0' : ((rM 1).view.emb y) 0 = (1 : Fin 8) := Fin.ext h0
  unfold sendV recvV
  rw [h0', px_px]

/-- The library's rule for an addressed copy, at the cells of slot 1, the copy addressed to `n = px c 1`. -/
theorem wp_send_slot_1 (K : GSem nD τ sig → ℕ) (c n : Dev nD) (hn : n = px c 1)
    {hsc : (rM 1 : Memref sig (Dev.tc n : Thread nD τ).2.kind .vmem S512x256 .bf16).view.ref.isScScratch = false}
    {hsrc : (sM 1).view.WordExact} {hdst : (rM 1).view.WordExact}
    {hsem : DmaTarget.Typed .vmem (.dma (recvSA 1).sem) (.remote (Dev.tc n : Thread nD τ) (rM 1) (.dma (sendSA 1).sem) hsc)}
    {α : Type} {Q : α → sProp 𝕄} {k : PUnit → Prog (TpuEff nD τ sig (Elt F) Λ₀ .tc) α}
    (fn : Buf (Elt F) ((rM 1).view.loc (px c 1 : Thread nD τ))) (O Otot : CellTallies nD τ sig Unit)
    (hO : Otot = O + tallyAt (recvCell (px c 1) 1) () NS) (W : Waits sig Unit) :
    iprop(cellInv ER (sched m) (K (sendCell c 1)) (sendCell c 1) ∗ cellInv ER (sched m) (K (recvCell (px c 1) 1)) (recvCell (px c 1) 1)
        ∗ ((sM 1).view.loc (c : Thread nD τ) ↦[(sM 1).view.set]{fullShare} sendV m c) ∗ ((rM 1).view.loc (px c 1 : Thread nD τ) ↦[(rM 1).view.set]{fullShare} fn)
        ∗ owes (c : Thread nD τ) Otot W
        ∗ dutyTok ER (sendCell c 1) 0 0 ∗ reached ER (sendCell c 1) 0 ∗ dutyTok ER (recvCell (px c 1) 1) 0 0 ∗ reached ER (recvCell (px c 1) 1) 0)
      ⊢ iprop(((cred (tallyAt (sendCell c 1) () NS) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sM 1) (.remote (Dev.tc n : Thread nD τ) (rM 1) (.dma (sendSA 1).sem) hsc) (.dma (recvSA 1).sem) hsrc hdst hsem) k) Q) := by
  subst hn
  exact Rounds.wp_send_pointsTo 𝒱₀ ER (sched m) (c : Thread nD τ) none (c' := (px c 1 : Thread nD τ)) (src := sM 1) (dst := rM 1)
    (q := fullShare) (fs := sendV m c) (fd := fn) (κ₁ := K (sendCell c 1)) (κ₂ := K (recvCell (px c 1) 1))
    (r₁ := 0) (r₂ := 0) (d₁ := 0) (d₂ := 0)
    (by rw [duties_send_1]; exact Finset.mem_singleton_self _) (by rw [duties_recv_1]; exact Finset.mem_singleton_self _)
    () () NS rfl (amount_send m c 1 0) (amount_recv m (px c 1) 1 0) O hO (W := W)
    (by rw [payload_send_1, sendPay_1])
    (by rw [payload_recv_1, recvPay_1]; exact BIBase.Entails.of_eq (pt_congr (landed_1 m c fn)))

/-! ## Slot 2 -/

/-- What the copy of slot 2 leaves in the partner's receive buffer is, on the slot, what the partner expects there. -/
theorem landed_2 (c : Dev nD) (fn : Buf (Elt F) ((rM 2).view.loc (px c 2 : Thread nD τ))) :
    ∀ i ∈ (rM 2).view.set, ((rM 2).view.write (Elt F) fn ((sM 2).view.read (Elt F) (sendV m c)) Finset.univ) i = recvV m (px c 2) i := by
  intro i hi
  have h0 : (i 0).val = (2 : Fin 8).val := (mem_bSR 2 i).mp (rM_set_2 ▸ hi)
  obtain ⟨y, rfl⟩ := View.exists_emb_of_mem_set (rM 2).view hi
  rw [View.write_emb_of_mem _ _ (Finset.mem_univ y), View.read_apply]
  show sendV m c ((rM 2).view.emb y) = recvV m (px c 2) ((rM 2).view.emb y)
  have h0' : ((rM 2).view.emb y) 0 = (2 : Fin 8) := Fin.ext h0
  unfold sendV recvV
  rw [h0', px_px]

/-- The library's rule for an addressed copy, at the cells of slot 2, the copy addressed to `n = px c 2`. -/
theorem wp_send_slot_2 (K : GSem nD τ sig → ℕ) (c n : Dev nD) (hn : n = px c 2)
    {hsc : (rM 2 : Memref sig (Dev.tc n : Thread nD τ).2.kind .vmem S512x256 .bf16).view.ref.isScScratch = false}
    {hsrc : (sM 2).view.WordExact} {hdst : (rM 2).view.WordExact}
    {hsem : DmaTarget.Typed .vmem (.dma (recvSA 2).sem) (.remote (Dev.tc n : Thread nD τ) (rM 2) (.dma (sendSA 2).sem) hsc)}
    {α : Type} {Q : α → sProp 𝕄} {k : PUnit → Prog (TpuEff nD τ sig (Elt F) Λ₀ .tc) α}
    (fn : Buf (Elt F) ((rM 2).view.loc (px c 2 : Thread nD τ))) (O Otot : CellTallies nD τ sig Unit)
    (hO : Otot = O + tallyAt (recvCell (px c 2) 2) () NS) (W : Waits sig Unit) :
    iprop(cellInv ER (sched m) (K (sendCell c 2)) (sendCell c 2) ∗ cellInv ER (sched m) (K (recvCell (px c 2) 2)) (recvCell (px c 2) 2)
        ∗ ((sM 2).view.loc (c : Thread nD τ) ↦[(sM 2).view.set]{fullShare} sendV m c) ∗ ((rM 2).view.loc (px c 2 : Thread nD τ) ↦[(rM 2).view.set]{fullShare} fn)
        ∗ owes (c : Thread nD τ) Otot W
        ∗ dutyTok ER (sendCell c 2) 0 0 ∗ reached ER (sendCell c 2) 0 ∗ dutyTok ER (recvCell (px c 2) 2) 0 0 ∗ reached ER (recvCell (px c 2) 2) 0)
      ⊢ iprop(((cred (tallyAt (sendCell c 2) () NS) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sM 2) (.remote (Dev.tc n : Thread nD τ) (rM 2) (.dma (sendSA 2).sem) hsc) (.dma (recvSA 2).sem) hsrc hdst hsem) k) Q) := by
  subst hn
  exact Rounds.wp_send_pointsTo 𝒱₀ ER (sched m) (c : Thread nD τ) none (c' := (px c 2 : Thread nD τ)) (src := sM 2) (dst := rM 2)
    (q := fullShare) (fs := sendV m c) (fd := fn) (κ₁ := K (sendCell c 2)) (κ₂ := K (recvCell (px c 2) 2))
    (r₁ := 0) (r₂ := 0) (d₁ := 0) (d₂ := 0)
    (by rw [duties_send_2]; exact Finset.mem_singleton_self _) (by rw [duties_recv_2]; exact Finset.mem_singleton_self _)
    () () NS rfl (amount_send m c 2 0) (amount_recv m (px c 2) 2 0) O hO (W := W)
    (by rw [payload_send_2, sendPay_2])
    (by rw [payload_recv_2, recvPay_2]; exact BIBase.Entails.of_eq (pt_congr (landed_2 m c fn)))

/-! ## Slot 3 -/

/-- What the copy of slot 3 leaves in the partner's receive buffer is, on the slot, what the partner expects there. -/
theorem landed_3 (c : Dev nD) (fn : Buf (Elt F) ((rM 3).view.loc (px c 3 : Thread nD τ))) :
    ∀ i ∈ (rM 3).view.set, ((rM 3).view.write (Elt F) fn ((sM 3).view.read (Elt F) (sendV m c)) Finset.univ) i = recvV m (px c 3) i := by
  intro i hi
  have h0 : (i 0).val = (3 : Fin 8).val := (mem_bSR 3 i).mp (rM_set_3 ▸ hi)
  obtain ⟨y, rfl⟩ := View.exists_emb_of_mem_set (rM 3).view hi
  rw [View.write_emb_of_mem _ _ (Finset.mem_univ y), View.read_apply]
  show sendV m c ((rM 3).view.emb y) = recvV m (px c 3) ((rM 3).view.emb y)
  have h0' : ((rM 3).view.emb y) 0 = (3 : Fin 8) := Fin.ext h0
  unfold sendV recvV
  rw [h0', px_px]

/-- The library's rule for an addressed copy, at the cells of slot 3, the copy addressed to `n = px c 3`. -/
theorem wp_send_slot_3 (K : GSem nD τ sig → ℕ) (c n : Dev nD) (hn : n = px c 3)
    {hsc : (rM 3 : Memref sig (Dev.tc n : Thread nD τ).2.kind .vmem S512x256 .bf16).view.ref.isScScratch = false}
    {hsrc : (sM 3).view.WordExact} {hdst : (rM 3).view.WordExact}
    {hsem : DmaTarget.Typed .vmem (.dma (recvSA 3).sem) (.remote (Dev.tc n : Thread nD τ) (rM 3) (.dma (sendSA 3).sem) hsc)}
    {α : Type} {Q : α → sProp 𝕄} {k : PUnit → Prog (TpuEff nD τ sig (Elt F) Λ₀ .tc) α}
    (fn : Buf (Elt F) ((rM 3).view.loc (px c 3 : Thread nD τ))) (O Otot : CellTallies nD τ sig Unit)
    (hO : Otot = O + tallyAt (recvCell (px c 3) 3) () NS) (W : Waits sig Unit) :
    iprop(cellInv ER (sched m) (K (sendCell c 3)) (sendCell c 3) ∗ cellInv ER (sched m) (K (recvCell (px c 3) 3)) (recvCell (px c 3) 3)
        ∗ ((sM 3).view.loc (c : Thread nD τ) ↦[(sM 3).view.set]{fullShare} sendV m c) ∗ ((rM 3).view.loc (px c 3 : Thread nD τ) ↦[(rM 3).view.set]{fullShare} fn)
        ∗ owes (c : Thread nD τ) Otot W
        ∗ dutyTok ER (sendCell c 3) 0 0 ∗ reached ER (sendCell c 3) 0 ∗ dutyTok ER (recvCell (px c 3) 3) 0 0 ∗ reached ER (recvCell (px c 3) 3) 0)
      ⊢ iprop(((cred (tallyAt (sendCell c 3) () NS) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sM 3) (.remote (Dev.tc n : Thread nD τ) (rM 3) (.dma (sendSA 3).sem) hsc) (.dma (recvSA 3).sem) hsrc hdst hsem) k) Q) := by
  subst hn
  exact Rounds.wp_send_pointsTo 𝒱₀ ER (sched m) (c : Thread nD τ) none (c' := (px c 3 : Thread nD τ)) (src := sM 3) (dst := rM 3)
    (q := fullShare) (fs := sendV m c) (fd := fn) (κ₁ := K (sendCell c 3)) (κ₂ := K (recvCell (px c 3) 3))
    (r₁ := 0) (r₂ := 0) (d₁ := 0) (d₂ := 0)
    (by rw [duties_send_3]; exact Finset.mem_singleton_self _) (by rw [duties_recv_3]; exact Finset.mem_singleton_self _)
    () () NS rfl (amount_send m c 3 0) (amount_recv m (px c 3) 3 0) O hO (W := W)
    (by rw [payload_send_3, sendPay_3])
    (by rw [payload_recv_3, recvPay_3]; exact BIBase.Entails.of_eq (pt_congr (landed_3 m c fn)))

/-! ## Slot 4 -/

/-- What the copy of slot 4 leaves in the partner's receive buffer is, on the slot, what the partner expects there. -/
theorem landed_4 (c : Dev nD) (fn : Buf (Elt F) ((rM 4).view.loc (px c 4 : Thread nD τ))) :
    ∀ i ∈ (rM 4).view.set, ((rM 4).view.write (Elt F) fn ((sM 4).view.read (Elt F) (sendV m c)) Finset.univ) i = recvV m (px c 4) i := by
  intro i hi
  have h0 : (i 0).val = (4 : Fin 8).val := (mem_bSR 4 i).mp (rM_set_4 ▸ hi)
  obtain ⟨y, rfl⟩ := View.exists_emb_of_mem_set (rM 4).view hi
  rw [View.write_emb_of_mem _ _ (Finset.mem_univ y), View.read_apply]
  show sendV m c ((rM 4).view.emb y) = recvV m (px c 4) ((rM 4).view.emb y)
  have h0' : ((rM 4).view.emb y) 0 = (4 : Fin 8) := Fin.ext h0
  unfold sendV recvV
  rw [h0', px_px]

/-- The library's rule for an addressed copy, at the cells of slot 4, the copy addressed to `n = px c 4`. -/
theorem wp_send_slot_4 (K : GSem nD τ sig → ℕ) (c n : Dev nD) (hn : n = px c 4)
    {hsc : (rM 4 : Memref sig (Dev.tc n : Thread nD τ).2.kind .vmem S512x256 .bf16).view.ref.isScScratch = false}
    {hsrc : (sM 4).view.WordExact} {hdst : (rM 4).view.WordExact}
    {hsem : DmaTarget.Typed .vmem (.dma (recvSA 4).sem) (.remote (Dev.tc n : Thread nD τ) (rM 4) (.dma (sendSA 4).sem) hsc)}
    {α : Type} {Q : α → sProp 𝕄} {k : PUnit → Prog (TpuEff nD τ sig (Elt F) Λ₀ .tc) α}
    (fn : Buf (Elt F) ((rM 4).view.loc (px c 4 : Thread nD τ))) (O Otot : CellTallies nD τ sig Unit)
    (hO : Otot = O + tallyAt (recvCell (px c 4) 4) () NS) (W : Waits sig Unit) :
    iprop(cellInv ER (sched m) (K (sendCell c 4)) (sendCell c 4) ∗ cellInv ER (sched m) (K (recvCell (px c 4) 4)) (recvCell (px c 4) 4)
        ∗ ((sM 4).view.loc (c : Thread nD τ) ↦[(sM 4).view.set]{fullShare} sendV m c) ∗ ((rM 4).view.loc (px c 4 : Thread nD τ) ↦[(rM 4).view.set]{fullShare} fn)
        ∗ owes (c : Thread nD τ) Otot W
        ∗ dutyTok ER (sendCell c 4) 0 0 ∗ reached ER (sendCell c 4) 0 ∗ dutyTok ER (recvCell (px c 4) 4) 0 0 ∗ reached ER (recvCell (px c 4) 4) 0)
      ⊢ iprop(((cred (tallyAt (sendCell c 4) () NS) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sM 4) (.remote (Dev.tc n : Thread nD τ) (rM 4) (.dma (sendSA 4).sem) hsc) (.dma (recvSA 4).sem) hsrc hdst hsem) k) Q) := by
  subst hn
  exact Rounds.wp_send_pointsTo 𝒱₀ ER (sched m) (c : Thread nD τ) none (c' := (px c 4 : Thread nD τ)) (src := sM 4) (dst := rM 4)
    (q := fullShare) (fs := sendV m c) (fd := fn) (κ₁ := K (sendCell c 4)) (κ₂ := K (recvCell (px c 4) 4))
    (r₁ := 0) (r₂ := 0) (d₁ := 0) (d₂ := 0)
    (by rw [duties_send_4]; exact Finset.mem_singleton_self _) (by rw [duties_recv_4]; exact Finset.mem_singleton_self _)
    () () NS rfl (amount_send m c 4 0) (amount_recv m (px c 4) 4 0) O hO (W := W)
    (by rw [payload_send_4, sendPay_4])
    (by rw [payload_recv_4, recvPay_4]; exact BIBase.Entails.of_eq (pt_congr (landed_4 m c fn)))

/-! ## Slot 5 -/

/-- What the copy of slot 5 leaves in the partner's receive buffer is, on the slot, what the partner expects there. -/
theorem landed_5 (c : Dev nD) (fn : Buf (Elt F) ((rM 5).view.loc (px c 5 : Thread nD τ))) :
    ∀ i ∈ (rM 5).view.set, ((rM 5).view.write (Elt F) fn ((sM 5).view.read (Elt F) (sendV m c)) Finset.univ) i = recvV m (px c 5) i := by
  intro i hi
  have h0 : (i 0).val = (5 : Fin 8).val := (mem_bSR 5 i).mp (rM_set_5 ▸ hi)
  obtain ⟨y, rfl⟩ := View.exists_emb_of_mem_set (rM 5).view hi
  rw [View.write_emb_of_mem _ _ (Finset.mem_univ y), View.read_apply]
  show sendV m c ((rM 5).view.emb y) = recvV m (px c 5) ((rM 5).view.emb y)
  have h0' : ((rM 5).view.emb y) 0 = (5 : Fin 8) := Fin.ext h0
  unfold sendV recvV
  rw [h0', px_px]

/-- The library's rule for an addressed copy, at the cells of slot 5, the copy addressed to `n = px c 5`. -/
theorem wp_send_slot_5 (K : GSem nD τ sig → ℕ) (c n : Dev nD) (hn : n = px c 5)
    {hsc : (rM 5 : Memref sig (Dev.tc n : Thread nD τ).2.kind .vmem S512x256 .bf16).view.ref.isScScratch = false}
    {hsrc : (sM 5).view.WordExact} {hdst : (rM 5).view.WordExact}
    {hsem : DmaTarget.Typed .vmem (.dma (recvSA 5).sem) (.remote (Dev.tc n : Thread nD τ) (rM 5) (.dma (sendSA 5).sem) hsc)}
    {α : Type} {Q : α → sProp 𝕄} {k : PUnit → Prog (TpuEff nD τ sig (Elt F) Λ₀ .tc) α}
    (fn : Buf (Elt F) ((rM 5).view.loc (px c 5 : Thread nD τ))) (O Otot : CellTallies nD τ sig Unit)
    (hO : Otot = O + tallyAt (recvCell (px c 5) 5) () NS) (W : Waits sig Unit) :
    iprop(cellInv ER (sched m) (K (sendCell c 5)) (sendCell c 5) ∗ cellInv ER (sched m) (K (recvCell (px c 5) 5)) (recvCell (px c 5) 5)
        ∗ ((sM 5).view.loc (c : Thread nD τ) ↦[(sM 5).view.set]{fullShare} sendV m c) ∗ ((rM 5).view.loc (px c 5 : Thread nD τ) ↦[(rM 5).view.set]{fullShare} fn)
        ∗ owes (c : Thread nD τ) Otot W
        ∗ dutyTok ER (sendCell c 5) 0 0 ∗ reached ER (sendCell c 5) 0 ∗ dutyTok ER (recvCell (px c 5) 5) 0 0 ∗ reached ER (recvCell (px c 5) 5) 0)
      ⊢ iprop(((cred (tallyAt (sendCell c 5) () NS) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sM 5) (.remote (Dev.tc n : Thread nD τ) (rM 5) (.dma (sendSA 5).sem) hsc) (.dma (recvSA 5).sem) hsrc hdst hsem) k) Q) := by
  subst hn
  exact Rounds.wp_send_pointsTo 𝒱₀ ER (sched m) (c : Thread nD τ) none (c' := (px c 5 : Thread nD τ)) (src := sM 5) (dst := rM 5)
    (q := fullShare) (fs := sendV m c) (fd := fn) (κ₁ := K (sendCell c 5)) (κ₂ := K (recvCell (px c 5) 5))
    (r₁ := 0) (r₂ := 0) (d₁ := 0) (d₂ := 0)
    (by rw [duties_send_5]; exact Finset.mem_singleton_self _) (by rw [duties_recv_5]; exact Finset.mem_singleton_self _)
    () () NS rfl (amount_send m c 5 0) (amount_recv m (px c 5) 5 0) O hO (W := W)
    (by rw [payload_send_5, sendPay_5])
    (by rw [payload_recv_5, recvPay_5]; exact BIBase.Entails.of_eq (pt_congr (landed_5 m c fn)))

/-! ## Slot 6 -/

/-- What the copy of slot 6 leaves in the partner's receive buffer is, on the slot, what the partner expects there. -/
theorem landed_6 (c : Dev nD) (fn : Buf (Elt F) ((rM 6).view.loc (px c 6 : Thread nD τ))) :
    ∀ i ∈ (rM 6).view.set, ((rM 6).view.write (Elt F) fn ((sM 6).view.read (Elt F) (sendV m c)) Finset.univ) i = recvV m (px c 6) i := by
  intro i hi
  have h0 : (i 0).val = (6 : Fin 8).val := (mem_bSR 6 i).mp (rM_set_6 ▸ hi)
  obtain ⟨y, rfl⟩ := View.exists_emb_of_mem_set (rM 6).view hi
  rw [View.write_emb_of_mem _ _ (Finset.mem_univ y), View.read_apply]
  show sendV m c ((rM 6).view.emb y) = recvV m (px c 6) ((rM 6).view.emb y)
  have h0' : ((rM 6).view.emb y) 0 = (6 : Fin 8) := Fin.ext h0
  unfold sendV recvV
  rw [h0', px_px]

/-- The library's rule for an addressed copy, at the cells of slot 6, the copy addressed to `n = px c 6`. -/
theorem wp_send_slot_6 (K : GSem nD τ sig → ℕ) (c n : Dev nD) (hn : n = px c 6)
    {hsc : (rM 6 : Memref sig (Dev.tc n : Thread nD τ).2.kind .vmem S512x256 .bf16).view.ref.isScScratch = false}
    {hsrc : (sM 6).view.WordExact} {hdst : (rM 6).view.WordExact}
    {hsem : DmaTarget.Typed .vmem (.dma (recvSA 6).sem) (.remote (Dev.tc n : Thread nD τ) (rM 6) (.dma (sendSA 6).sem) hsc)}
    {α : Type} {Q : α → sProp 𝕄} {k : PUnit → Prog (TpuEff nD τ sig (Elt F) Λ₀ .tc) α}
    (fn : Buf (Elt F) ((rM 6).view.loc (px c 6 : Thread nD τ))) (O Otot : CellTallies nD τ sig Unit)
    (hO : Otot = O + tallyAt (recvCell (px c 6) 6) () NS) (W : Waits sig Unit) :
    iprop(cellInv ER (sched m) (K (sendCell c 6)) (sendCell c 6) ∗ cellInv ER (sched m) (K (recvCell (px c 6) 6)) (recvCell (px c 6) 6)
        ∗ ((sM 6).view.loc (c : Thread nD τ) ↦[(sM 6).view.set]{fullShare} sendV m c) ∗ ((rM 6).view.loc (px c 6 : Thread nD τ) ↦[(rM 6).view.set]{fullShare} fn)
        ∗ owes (c : Thread nD τ) Otot W
        ∗ dutyTok ER (sendCell c 6) 0 0 ∗ reached ER (sendCell c 6) 0 ∗ dutyTok ER (recvCell (px c 6) 6) 0 0 ∗ reached ER (recvCell (px c 6) 6) 0)
      ⊢ iprop(((cred (tallyAt (sendCell c 6) () NS) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sM 6) (.remote (Dev.tc n : Thread nD τ) (rM 6) (.dma (sendSA 6).sem) hsc) (.dma (recvSA 6).sem) hsrc hdst hsem) k) Q) := by
  subst hn
  exact Rounds.wp_send_pointsTo 𝒱₀ ER (sched m) (c : Thread nD τ) none (c' := (px c 6 : Thread nD τ)) (src := sM 6) (dst := rM 6)
    (q := fullShare) (fs := sendV m c) (fd := fn) (κ₁ := K (sendCell c 6)) (κ₂ := K (recvCell (px c 6) 6))
    (r₁ := 0) (r₂ := 0) (d₁ := 0) (d₂ := 0)
    (by rw [duties_send_6]; exact Finset.mem_singleton_self _) (by rw [duties_recv_6]; exact Finset.mem_singleton_self _)
    () () NS rfl (amount_send m c 6 0) (amount_recv m (px c 6) 6 0) O hO (W := W)
    (by rw [payload_send_6, sendPay_6])
    (by rw [payload_recv_6, recvPay_6]; exact BIBase.Entails.of_eq (pt_congr (landed_6 m c fn)))

/-! ## Slot 7 -/

/-- What the copy of slot 7 leaves in the partner's receive buffer is, on the slot, what the partner expects there. -/
theorem landed_7 (c : Dev nD) (fn : Buf (Elt F) ((rM 7).view.loc (px c 7 : Thread nD τ))) :
    ∀ i ∈ (rM 7).view.set, ((rM 7).view.write (Elt F) fn ((sM 7).view.read (Elt F) (sendV m c)) Finset.univ) i = recvV m (px c 7) i := by
  intro i hi
  have h0 : (i 0).val = (7 : Fin 8).val := (mem_bSR 7 i).mp (rM_set_7 ▸ hi)
  obtain ⟨y, rfl⟩ := View.exists_emb_of_mem_set (rM 7).view hi
  rw [View.write_emb_of_mem _ _ (Finset.mem_univ y), View.read_apply]
  show sendV m c ((rM 7).view.emb y) = recvV m (px c 7) ((rM 7).view.emb y)
  have h0' : ((rM 7).view.emb y) 0 = (7 : Fin 8) := Fin.ext h0
  unfold sendV recvV
  rw [h0', px_px]

/-- The library's rule for an addressed copy, at the cells of slot 7, the copy addressed to `n = px c 7`. -/
theorem wp_send_slot_7 (K : GSem nD τ sig → ℕ) (c n : Dev nD) (hn : n = px c 7)
    {hsc : (rM 7 : Memref sig (Dev.tc n : Thread nD τ).2.kind .vmem S512x256 .bf16).view.ref.isScScratch = false}
    {hsrc : (sM 7).view.WordExact} {hdst : (rM 7).view.WordExact}
    {hsem : DmaTarget.Typed .vmem (.dma (recvSA 7).sem) (.remote (Dev.tc n : Thread nD τ) (rM 7) (.dma (sendSA 7).sem) hsc)}
    {α : Type} {Q : α → sProp 𝕄} {k : PUnit → Prog (TpuEff nD τ sig (Elt F) Λ₀ .tc) α}
    (fn : Buf (Elt F) ((rM 7).view.loc (px c 7 : Thread nD τ))) (O Otot : CellTallies nD τ sig Unit)
    (hO : Otot = O + tallyAt (recvCell (px c 7) 7) () NS) (W : Waits sig Unit) :
    iprop(cellInv ER (sched m) (K (sendCell c 7)) (sendCell c 7) ∗ cellInv ER (sched m) (K (recvCell (px c 7) 7)) (recvCell (px c 7) 7)
        ∗ ((sM 7).view.loc (c : Thread nD τ) ↦[(sM 7).view.set]{fullShare} sendV m c) ∗ ((rM 7).view.loc (px c 7 : Thread nD τ) ↦[(rM 7).view.set]{fullShare} fn)
        ∗ owes (c : Thread nD τ) Otot W
        ∗ dutyTok ER (sendCell c 7) 0 0 ∗ reached ER (sendCell c 7) 0 ∗ dutyTok ER (recvCell (px c 7) 7) 0 0 ∗ reached ER (recvCell (px c 7) 7) 0)
      ⊢ iprop(((cred (tallyAt (sendCell c 7) () NS) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sM 7) (.remote (Dev.tc n : Thread nD τ) (rM 7) (.dma (sendSA 7).sem) hsc) (.dma (recvSA 7).sem) hsrc hdst hsem) k) Q) := by
  subst hn
  exact Rounds.wp_send_pointsTo 𝒱₀ ER (sched m) (c : Thread nD τ) none (c' := (px c 7 : Thread nD τ)) (src := sM 7) (dst := rM 7)
    (q := fullShare) (fs := sendV m c) (fd := fn) (κ₁ := K (sendCell c 7)) (κ₂ := K (recvCell (px c 7) 7))
    (r₁ := 0) (r₂ := 0) (d₁ := 0) (d₂ := 0)
    (by rw [duties_send_7]; exact Finset.mem_singleton_self _) (by rw [duties_recv_7]; exact Finset.mem_singleton_self _)
    () () NS rfl (amount_send m c 7 0) (amount_recv m (px c 7) 7 0) O hO (W := W)
    (by rw [payload_send_7, sendPay_7])
    (by rw [payload_recv_7, recvPay_7]; exact BIBase.Entails.of_eq (pt_congr (landed_7 m c fn)))

/-- info: 'Cert.Kernel.A2A.wp_send_slot_7' depends on axioms: [propext, Classical.choice, Quot.sound] -/
#guard_msgs in #print axioms wp_send_slot_7

end Cert.Kernel.A2A

end
-- ==== Proof.LandedB.lean ====
/-
  What a piece of a scratch buffer holds once the copy into it has landed.

  A copy into a piece writes, under each index of the piece, the element of the source window under the same
  index. A quarter of the activation buffer and the quarter of the activation argument it is copied from are
  the same rows of arrays of one shape, so a landed quarter agrees with the argument on its own elements, and
  the four landed quarters joined are the buffer holding the argument. A half-slot of the weight buffer is
  copied from the window of the weight argument at the rows of that half and the 256 columns of the device
  the step's mask pairs with this one; a landed slot holds those columns.
-/
import proofs.«900796_g7700000000000797_dist_gemm_a2a_m4096_k4096_n2048_f32_gelu_v7x_i8_1_alg».proof.Proof.PiecesB
import Idealize.ShloMosaic.Lib.Pipeline.Value
import Idealize.ShloMosaic.Lib.Writes
import Idealize.ShloMosaic.Lib.ValueIdx
import Idealize.ShloMosaic.Lib.ValueLayout

noncomputable section

namespace Cert.Kernel.A2A

open Cert.Kernel Cert.Kernel.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What a piece holds once the copy into it has landed -/

/-- One unmasked write through the whole of a view leaves, under each of the view's indices, the payload there. -/
theorem writes_whole_emb {sig' : RefSig} {κ : Kind} {sp : Space} {S : Shape} {e : EltTy} {Val : EltTy → Type}
    (v : View sig' κ sp S e) (f : v.ty.Contents Val) (w : S.Idx → Val e) (y : S.Idx) :
    v.writes Val f [⟨Rect.whole S, w⟩] (v.emb y) = _root_.cast (congrArg Val v.elt_eq.symm) (w y) := by
  have h := View.write_emb_of_mem (v := v.slice (Rect.whole S)) (Val := Val) f w (M := Finset.univ) (x := y) (Finset.mem_univ _)
  have he : (v.slice (Rect.whole S)).emb y = v.emb y := by
    show v.emb ((Rect.whole S).emb y) = v.emb y
    rw [Rect.emb_whole_apply]
  rw [he] at h
  exact h

/-- Row-quarter `j` of the activation argument: the rows the copy into quarter `j` of the buffer reads. -/
abbrev xAQ : Fin 4 → Memref sig .tc .hbm S128x4096 .f32
  | ⟨0, _⟩ => (Memref.whole main_arg0 : Memref sig .tc .hbm S512x4096 .f32).slice (Rect.unit (s := S512x4096) ![0, 0] S128x4096.size inb_S512x4096_S128x4096_0_0) (fun _ => rfl)
  | ⟨1, _⟩ => (Memref.whole main_arg0 : Memref sig .tc .hbm S512x4096 .f32).slice (Rect.unit (s := S512x4096) ![128, 0] S128x4096.size inb_S512x4096_S128x4096_128_0) (fun _ => rfl)
  | ⟨2, _⟩ => (Memref.whole main_arg0 : Memref sig .tc .hbm S512x4096 .f32).slice (Rect.unit (s := S512x4096) ![256, 0] S128x4096.size inb_S512x4096_S128x4096_256_0) (fun _ => rfl)
  | ⟨3, _⟩ => (Memref.whole main_arg0 : Memref sig .tc .hbm S512x4096 .f32).slice (Rect.unit (s := S512x4096) ![384, 0] S128x4096.size inb_S512x4096_S128x4096_384_0) (fun _ => rfl)
  | ⟨_ + 4, h⟩ => absurd h (by omega)

theorem x_landed_0 (c : Dev nD) (fx : Buf (Elt F) (xbM.view.loc (c : Thread nD τ))) (X : Buf (Elt F) (xA.view.loc (c : Thread nD τ))) :
    ∀ i ∈ (xQ 0).view.set, ((xQ 0).view.writes (Elt F) fx [⟨Rect.whole S128x4096, ReadAs.same.apply (View.read (Elt F) (xAQ 0).view X)⟩]) i = X i := by
  intro i hi
  obtain ⟨y, rfl⟩ := View.exists_emb_of_mem_set _ hi
  exact (writes_whole_emb (xQ 0).view fx _ y).trans rfl

theorem x_landed_1 (c : Dev nD) (fx : Buf (Elt F) (xbM.view.loc (c : Thread nD τ))) (X : Buf (Elt F) (xA.view.loc (c : Thread nD τ))) :
    ∀ i ∈ (xQ 1).view.set, ((xQ 1).view.writes (Elt F) fx [⟨Rect.whole S128x4096, ReadAs.same.apply (View.read (Elt F) (xAQ 1).view X)⟩]) i = X i := by
  intro i hi
  obtain ⟨y, rfl⟩ := View.exists_emb_of_mem_set _ hi
  exact (writes_whole_emb (xQ 1).view fx _ y).trans rfl

theorem x_landed_2 (c : Dev nD) (fx : Buf (Elt F) (xbM.view.loc (c : Thread nD τ))) (X : Buf (Elt F) (xA.view.loc (c : Thread nD τ))) :
    ∀ i ∈ (xQ 2).view.set, ((xQ 2).view.writes (Elt F) fx [⟨Rect.whole S128x4096, ReadAs.same.apply (View.read (Elt F) (xAQ 2).view X)⟩]) i = X i := by
  intro i hi
  obtain ⟨y, rfl⟩ := View.exists_emb_of_mem_set _ hi
  exact (writes_whole_emb (xQ 2).view fx _ y).trans rfl

theorem x_landed_3 (c : Dev nD) (fx : Buf (Elt F) (xbM.view.loc (c : Thread nD τ))) (X : Buf (Elt F) (xA.view.loc (c : Thread nD τ))) :
    ∀ i ∈ (xQ 3).view.set, ((xQ 3).view.writes (Elt F) fx [⟨Rect.whole S128x4096, ReadAs.same.apply (View.read (Elt F) (xAQ 3).view X)⟩]) i = X i := by
  intro i hi
  obtain ⟨y, rfl⟩ := View.exists_emb_of_mem_set _ hi
  exact (writes_whole_emb (xQ 3).view fx _ y).trans rfl

/-- The four landed quarters are the activation buffer holding the argument. -/
theorem x_joined (c : Dev nD) (fx : Buf (Elt F) (xbM.view.loc (c : Thread nD τ))) (X : Buf (Elt F) (xA.view.loc (c : Thread nD τ))) :
    (iprop(((xQ 0).view.loc (c : Thread nD τ) ↦[(xQ 0).view.set]{fullShare} ((xQ 0).view.writes (Elt F) fx [⟨Rect.whole S128x4096, ReadAs.same.apply (View.read (Elt F) (xAQ 0).view X)⟩])) ∗
           ((xQ 1).view.loc (c : Thread nD τ) ↦[(xQ 1).view.set]{fullShare} ((xQ 1).view.writes (Elt F) fx [⟨Rect.whole S128x4096, ReadAs.same.apply (View.read (Elt F) (xAQ 1).view X)⟩])) ∗
           ((xQ 2).view.loc (c : Thread nD τ) ↦[(xQ 2).view.set]{fullShare} ((xQ 2).view.writes (Elt F) fx [⟨Rect.whole S128x4096, ReadAs.same.apply (View.read (Elt F) (xAQ 2).view X)⟩])) ∗
           ((xQ 3).view.loc (c : Thread nD τ) ↦[(xQ 3).view.set]{fullShare} ((xQ 3).view.writes (Elt F) fx [⟨Rect.whole S128x4096, ReadAs.same.apply (View.read (Elt F) (xAQ 3).view X)⟩]))) : sProp 𝕄) ⊢
      (xbM.view.loc (c : Thread nD τ) ↦[xbM.view.set]{fullShare} X) :=
  x_join c _ _ _ _ X (x_landed_0 c fx X) (x_landed_1 c fx X) (x_landed_2 c fx X) (x_landed_3 c fx X)

/-- A load of the whole activation buffer reads its contents. -/
theorem x_read (c : Dev nD) (X : Buf (Elt F) (xbM.view.loc (c : Thread nD τ))) :
    xbM.view.readAt (Elt F) (Rect.unit (s := S512x4096) ![0, 0] S512x4096.size inb_S512x4096_S512x4096_0_0).toLoadRect X = X :=
  Memref.readAt_unit_zero (Elt F) cc0_scratch0 (by funext a; fin_cases a <;> rfl) _ X

/-! ## The weight buffer -/

/-- The mask of step `s`: the order in which the kernel visits its peers. -/
def ord : Fin 8 → Fin 8 := ![6, 2, 5, 7, 1, 3, 4, 0]

/-- What the weight buffer holds once its slots have landed: slot `s` holds the 256 columns of the weight that
    belong to the device `c xor ord s`. -/
def wLand (Wt : Vec F S4096x2048 .f32) (c : Dev nD) : Buf (Elt F) (wbM.view.loc (c : Thread nD τ)) :=
  fun (i : S8x4096x256.Idx) =>
    Wt (ix2 (n0 := 4096) (n1 := 2048) (i 1)
      ⟨256 * (px c (ord (i 0))).val + (i 2).val, by
        have h2 : (i 2).val < 256 := (i 2).isLt
        have hp : (px c (ord (i 0))).val < 8 := (px c (ord (i 0))).isLt
        omega⟩)

/-- The landed contents at row `a`, column `b` of half `h` of slot `s`. -/
theorem wLand_apply (Wt : Vec F S4096x2048 .f32) (c : Dev nD) (s : Fin 8) (h : Fin 2) (a : Fin 2048) (b : Fin 256) :
    wLand Wt c ((wHR s h).emb (ix3 (⟨0, Nat.one_pos⟩ : Fin 1) a b)) =
      Wt (ix2 (n0 := 4096) (n1 := 2048) ⟨2048 * h.val + a.val, by have := h.isLt; have := a.isLt; omega⟩
        ⟨256 * (px c (ord s)).val + b.val, by have := b.isLt; have hp : (px c (ord s)).val < 8 := (px c (ord s)).isLt; omega⟩) := by
  have e0 : ord (((wHR s h).emb (ix3 (⟨0, Nat.one_pos⟩ : Fin 1) a b)) 0) = ord s :=
    congrArg ord (Fin.ext (by show s.val + 1 * 0 = s.val; omega))
  show Wt _ = Wt _
  refine congrArg Wt ?_
  funext d
  match d with
  | ⟨0, _⟩ => exact Fin.ext (by show 2048 * h.val + 1 * a.val = 2048 * h.val + a.val; omega)
  | ⟨1, _⟩ => exact Fin.ext (by
      show 256 * (px c (ord (((wHR s h).emb (ix3 (⟨0, Nat.one_pos⟩ : Fin 1) a b)) 0))).val + (0 + 1 * b.val)
        = 256 * (px c (ord s)).val + b.val
      rw [e0]; omega)

/-- Half `h` of slot `s` as a view of the buffer, at a slot and a half that are variables. -/
abbrev wHv (s : Fin 8) (h : Fin 2) : View sig .tc .vmem S2048x256 .f32 :=
  ((View.whole cc0_scratch1 : View sig .tc .vmem S8x4096x256 .f32).slice (wHR s h)).reshape S2048x256
    squeezes_S1x2048x256_S2048x256.numel_eq
/-- The two source windows as views of the weight argument, at a mask that is a variable. -/
abbrev wWv1 (c : Dev nD) (r : Fin 8) : View sig .tc .hbm S2048x256 .f32 :=
  (View.whole main_arg1 : View sig .tc .hbm S4096x2048 .f32).slice (wWR1 c r)
abbrev wWv2 (c : Dev nD) (r : Fin 8) : View sig .tc .hbm S2048x256 .f32 :=
  (View.whole main_arg1 : View sig .tc .hbm S4096x2048 .f32).slice (wWR2 c r)

theorem w_landed_core1 (c : Dev nD) (s : Fin 8) (fw : Buf (Elt F) (wbM.view.loc (c : Thread nD τ))) (Wt : Vec F S4096x2048 .f32) :
    ∀ i ∈ (wHv s 0).set,
      ((wHv s 0).writes (Elt F) fw [⟨Rect.whole S2048x256, ReadAs.same.apply (View.read (Elt F) (wWv1 c (ord s)) Wt)⟩]) i
        = wLand Wt c i := by
  intro i hi
  obtain ⟨y, rfl⟩ := View.exists_emb_of_mem_set _ hi
  obtain ⟨a, b, rfl⟩ : ∃ (a : Fin 2048) (b : Fin 256), y = ix2 a b := ⟨y 0, y 1, eq_ix2 y⟩
  refine (writes_whole_emb (wHv s 0) fw _ (ix2 a b)).trans ?_
  have e1 : (wHv s 0).emb (ix2 a b) = (wHR s 0).emb (ix3 (⟨0, Nat.one_pos⟩ : Fin 1) a b) := by
    show (wHR s 0).emb (Shape.reshapeEquiv _ (ix2 a b)) = _
    rw [reshapeEquiv_ix2_1ab]
  rw [e1, wLand_apply]
  show Wt ((wWR1 c (ord s)).emb (ix2 a b)) = _
  refine congrArg Wt ?_
  have o := off1_eq c (ord s)
  funext d
  match d with
  | ⟨0, _⟩ => exact Fin.ext (by
      show (k0_off1 c (BitVec.ofNat 32 (ord s).val)) 0 + 1 * a.val = 2048 * (0 : Fin 2).val + a.val
      rw [o]; show 0 + 1 * a.val = 2048 * 0 + a.val; omega)
  | ⟨1, _⟩ => exact Fin.ext (by
      show (k0_off1 c (BitVec.ofNat 32 (ord s).val)) 1 + 1 * b.val = 256 * (px c (ord s)).val + b.val
      rw [o]; show 256 * (px c (ord s)).val + 1 * b.val = 256 * (px c (ord s)).val + b.val; omega)

theorem w_landed_core2 (c : Dev nD) (s : Fin 8) (fw : Buf (Elt F) (wbM.view.loc (c : Thread nD τ))) (Wt : Vec F S4096x2048 .f32) :
    ∀ i ∈ (wHv s 1).set,
      ((wHv s 1).writes (Elt F) fw [⟨Rect.whole S2048x256, ReadAs.same.apply (View.read (Elt F) (wWv2 c (ord s)) Wt)⟩]) i
        = wLand Wt c i := by
  intro i hi
  obtain ⟨y, rfl⟩ := View.exists_emb_of_mem_set _ hi
  obtain ⟨a, b, rfl⟩ : ∃ (a : Fin 2048) (b : Fin 256), y = ix2 a b := ⟨y 0, y 1, eq_ix2 y⟩
  refine (writes_whole_emb (wHv s 1) fw _ (ix2 a b)).trans ?_
  have e1 : (wHv s 1).emb (ix2 a b) = (wHR s 1).emb (ix3 (⟨0, Nat.one_pos⟩ : Fin 1) a b) := by
    show (wHR s 1).emb (Shape.reshapeEquiv _ (ix2 a b)) = _
    rw [reshapeEquiv_ix2_1ab]
  rw [e1, wLand_apply]
  show Wt ((wWR2 c (ord s)).emb (ix2 a b)) = _
  refine congrArg Wt ?_
  have o := off2_eq c (ord s)
  funext d
  match d with
  | ⟨0, _⟩ => exact Fin.ext (by
      show (k0_off2 c (BitVec.ofNat 32 (ord s).val)) 0 + 1 * a.val = 2048 * (1 : Fin 2).val + a.val
      rw [o]; show 2048 + 1 * a.val = 2048 * 1 + a.val; omega)
  | ⟨1, _⟩ => exact Fin.ext (by
      show (k0_off2 c (BitVec.ofNat 32 (ord s).val)) 1 + 1 * b.val = 256 * (px c (ord s)).val + b.val
      rw [o]; show 256 * (px c (ord s)).val + 1 * b.val = 256 * (px c (ord s)).val + b.val; omega)

/-! ### The sixteen half-slots, by name -/

theorem w_landed_0_0 (c : Dev nD) (fw : Buf (Elt F) (wbM.view.loc (c : Thread nD τ))) (Wt : Vec F S4096x2048 .f32) :
    ∀ i ∈ (wH 0 0).view.set, ((wH 0 0).view.writes (Elt F) fw [⟨Rect.whole S2048x256, ReadAs.same.apply (View.read (Elt F) (wWin1 c 6).view Wt)⟩]) i = wLand Wt c i :=
  w_landed_core1 c 0 fw Wt

theorem w_landed_0_1 (c : Dev nD) (fw : Buf (Elt F) (wbM.view.loc (c : Thread nD τ))) (Wt : Vec F S4096x2048 .f32) :
    ∀ i ∈ (wH 0 1).view.set, ((wH 0 1).view.writes (Elt F) fw [⟨Rect.whole S2048x256, ReadAs.same.apply (View.read (Elt F) (wWin2 c 6).view Wt)⟩]) i = wLand Wt c i :=
  w_landed_core2 c 0 fw Wt

theorem w_landed_1_0 (c : Dev nD) (fw : Buf (Elt F) (wbM.view.loc (c : Thread nD τ))) (Wt : Vec F S4096x2048 .f32) :
    ∀ i ∈ (wH 1 0).view.set, ((wH 1 0).view.writes (Elt F) fw [⟨Rect.whole S2048x256, ReadAs.same.apply (View.read (Elt F) (wWin1 c 2).view Wt)⟩]) i = wLand Wt c i :=
  w_landed_core1 c 1 fw Wt

theorem w_landed_1_1 (c : Dev nD) (fw : Buf (Elt F) (wbM.view.loc (c : Thread nD τ))) (Wt : Vec F S4096x2048 .f32) :
    ∀ i ∈ (wH 1 1).view.set, ((wH 1 1).view.writes (Elt F) fw [⟨Rect.whole S2048x256, ReadAs.same.apply (View.read (Elt F) (wWin2 c 2).view Wt)⟩]) i = wLand Wt c i :=
  w_landed_core2 c 1 fw Wt

theorem w_landed_2_0 (c : Dev nD) (fw : Buf (Elt F) (wbM.view.loc (c : Thread nD τ))) (Wt : Vec F S4096x2048 .f32) :
    ∀ i ∈ (wH 2 0).view.set, ((wH 2 0).view.writes (Elt F) fw [⟨Rect.whole S2048x256, ReadAs.same.apply (View.read (Elt F) (wWin1 c 5).view Wt)⟩]) i = wLand Wt c i :=
  w_landed_core1 c 2 fw Wt

theorem w_landed_2_1 (c : Dev nD) (fw : Buf (Elt F) (wbM.view.loc (c : Thread nD τ))) (Wt : Vec F S4096x2048 .f32) :
    ∀ i ∈ (wH 2 1).view.set, ((wH 2 1).view.writes (Elt F) fw [⟨Rect.whole S2048x256, ReadAs.same.apply (View.read (Elt F) (wWin2 c 5).view Wt)⟩]) i = wLand Wt c i :=
  w_landed_core2 c 2 fw Wt

theorem w_landed_3_0 (c : Dev nD) (fw : Buf (Elt F) (wbM.view.loc (c : Thread nD τ))) (Wt : Vec F S4096x2048 .f32) :
    ∀ i ∈ (wH 3 0).view.set, ((wH 3 0).view.writes (Elt F) fw [⟨Rect.whole S2048x256, ReadAs.same.apply (View.read (Elt F) (wWin1 c 7).view Wt)⟩]) i = wLand Wt c i :=
  w_landed_core1 c 3 fw Wt

theorem w_landed_3_1 (c : Dev nD) (fw : Buf (Elt F) (wbM.view.loc (c : Thread nD τ))) (Wt : Vec F S4096x2048 .f32) :
    ∀ i ∈ (wH 3 1).view.set, ((wH 3 1).view.writes (Elt F) fw [⟨Rect.whole S2048x256, ReadAs.same.apply (View.read (Elt F) (wWin2 c 7).view Wt)⟩]) i = wLand Wt c i :=
  w_landed_core2 c 3 fw Wt

theorem w_landed_4_0 (c : Dev nD) (fw : Buf (Elt F) (wbM.view.loc (c : Thread nD τ))) (Wt : Vec F S4096x2048 .f32) :
    ∀ i ∈ (wH 4 0).view.set, ((wH 4 0).view.writes (Elt F) fw [⟨Rect.whole S2048x256, ReadAs.same.apply (View.read (Elt F) (wWin1 c 1).view Wt)⟩]) i = wLand Wt c i :=
  w_landed_core1 c 4 fw Wt

theorem w_landed_4_1 (c : Dev nD) (fw : Buf (Elt F) (wbM.view.loc (c : Thread nD τ))) (Wt : Vec F S4096x2048 .f32) :
    ∀ i ∈ (wH 4 1).view.set, ((wH 4 1).view.writes (Elt F) fw [⟨Rect.whole S2048x256, ReadAs.same.apply (View.read (Elt F) (wWin2 c 1).view Wt)⟩]) i = wLand Wt c i :=
  w_landed_core2 c 4 fw Wt

theorem w_landed_5_0 (c : Dev nD) (fw : Buf (Elt F) (wbM.view.loc (c : Thread nD τ))) (Wt : Vec F S4096x2048 .f32) :
    ∀ i ∈ (wH 5 0).view.set, ((wH 5 0).view.writes (Elt F) fw [⟨Rect.whole S2048x256, ReadAs.same.apply (View.read (Elt F) (wWin1 c 3).view Wt)⟩]) i = wLand Wt c i :=
  w_landed_core1 c 5 fw Wt

theorem w_landed_5_1 (c : Dev nD) (fw : Buf (Elt F) (wbM.view.loc (c : Thread nD τ))) (Wt : Vec F S4096x2048 .f32) :
    ∀ i ∈ (wH 5 1).view.set, ((wH 5 1).view.writes (Elt F) fw [⟨Rect.whole S2048x256, ReadAs.same.apply (View.read (Elt F) (wWin2 c 3).view Wt)⟩]) i = wLand Wt c i :=
  w_landed_core2 c 5 fw Wt

theorem w_landed_6_0 (c : Dev nD) (fw : Buf (Elt F) (wbM.view.loc (c : Thread nD τ))) (Wt : Vec F S4096x2048 .f32) :
    ∀ i ∈ (wH 6 0).view.set, ((wH 6 0).view.writes (Elt F) fw [⟨Rect.whole S2048x256, ReadAs.same.apply (View.read (Elt F) (wWin1 c 4).view Wt)⟩]) i = wLand Wt c i :=
  w_landed_core1 c 6 fw Wt

theorem w_landed_6_1 (c : Dev nD) (fw : Buf (Elt F) (wbM.view.loc (c : Thread nD τ))) (Wt : Vec F S4096x2048 .f32) :
    ∀ i ∈ (wH 6 1).view.set, ((wH 6 1).view.writes (Elt F) fw [⟨Rect.whole S2048x256, ReadAs.same.apply (View.read (Elt F) (wWin2 c 4).view Wt)⟩]) i = wLand Wt c i :=
  w_landed_core2 c 6 fw Wt

theorem w_landed_7_0 (c : Dev nD) (fw : Buf (Elt F) (wbM.view.loc (c : Thread nD τ))) (Wt : Vec F S4096x2048 .f32) :
    ∀ i ∈ (wH 7 0).view.set, ((wH 7 0).view.writes (Elt F) fw [⟨Rect.whole S2048x256, ReadAs.same.apply (View.read (Elt F) (wWin1 c 0).view Wt)⟩]) i = wLand Wt c i :=
  w_landed_core1 c 7 fw Wt

theorem w_landed_7_1 (c : Dev nD) (fw : Buf (Elt F) (wbM.view.loc (c : Thread nD τ))) (Wt : Vec F S4096x2048 .f32) :
    ∀ i ∈ (wH 7 1).view.set, ((wH 7 1).view.writes (Elt F) fw [⟨Rect.whole S2048x256, ReadAs.same.apply (View.read (Elt F) (wWin2 c 0).view Wt)⟩]) i = wLand Wt c i :=
  w_landed_core2 c 7 fw Wt

/-! ### A landed slot -/

theorem wslot_joined_0 (c : Dev nD) (fw : Buf (Elt F) (wbM.view.loc (c : Thread nD τ))) (Wt : Vec F S4096x2048 .f32) :
    (iprop(((wH 0 0).view.loc (c : Thread nD τ) ↦[(wH 0 0).view.set]{fullShare} ((wH 0 0).view.writes (Elt F) fw [⟨Rect.whole S2048x256, ReadAs.same.apply (View.read (Elt F) (wWin1 c 6).view Wt)⟩])) ∗
           ((wH 0 1).view.loc (c : Thread nD τ) ↦[(wH 0 1).view.set]{fullShare} ((wH 0 1).view.writes (Elt F) fw [⟨Rect.whole S2048x256, ReadAs.same.apply (View.read (Elt F) (wWin2 c 6).view Wt)⟩]))) : sProp 𝕄) ⊢
      (wbM.view.loc (c : Thread nD τ) ↦[(wS 0).set]{fullShare} wLand Wt c) :=
  wslot_join_0 c _ _ (wLand Wt c) (w_landed_0_0 c fw Wt) (w_landed_0_1 c fw Wt)

theorem wslot_joined_1 (c : Dev nD) (fw : Buf (Elt F) (wbM.view.loc (c : Thread nD τ))) (Wt : Vec F S4096x2048 .f32) :
    (iprop(((wH 1 0).view.loc (c : Thread nD τ) ↦[(wH 1 0).view.set]{fullShare} ((wH 1 0).view.writes (Elt F) fw [⟨Rect.whole S2048x256, ReadAs.same.apply (View.read (Elt F) (wWin1 c 2).view Wt)⟩])) ∗
           ((wH 1 1).view.loc (c : Thread nD τ) ↦[(wH 1 1).view.set]{fullShare} ((wH 1 1).view.writes (Elt F) fw [⟨Rect.whole S2048x256, ReadAs.same.apply (View.read (Elt F) (wWin2 c 2).view Wt)⟩]))) : sProp 𝕄) ⊢
      (wbM.view.loc (c : Thread nD τ) ↦[(wS 1).set]{fullShare} wLand Wt c) :=
  wslot_join_1 c _ _ (wLand Wt c) (w_landed_1_0 c fw Wt) (w_landed_1_1 c fw Wt)

theorem wslot_joined_2 (c : Dev nD) (fw : Buf (Elt F) (wbM.view.loc (c : Thread nD τ))) (Wt : Vec F S4096x2048 .f32) :
    (iprop(((wH 2 0).view.loc (c : Thread nD τ) ↦[(wH 2 0).view.set]{fullShare} ((wH 2 0).view.writes (Elt F) fw [⟨Rect.whole S2048x256, ReadAs.same.apply (View.read (Elt F) (wWin1 c 5).view Wt)⟩])) ∗
           ((wH 2 1).view.loc (c : Thread nD τ) ↦[(wH 2 1).view.set]{fullShare} ((wH 2 1).view.writes (Elt F) fw [⟨Rect.whole S2048x256, ReadAs.same.apply (View.read (Elt F) (wWin2 c 5).view Wt)⟩]))) : sProp 𝕄) ⊢
      (wbM.view.loc (c : Thread nD τ) ↦[(wS 2).set]{fullShare} wLand Wt c) :=
  wslot_join_2 c _ _ (wLand Wt c) (w_landed_2_0 c fw Wt) (w_landed_2_1 c fw Wt)

theorem wslot_joined_3 (c : Dev nD) (fw : Buf (Elt F) (wbM.view.loc (c : Thread nD τ))) (Wt : Vec F S4096x2048 .f32) :
    (iprop(((wH 3 0).view.loc (c : Thread nD τ) ↦[(wH 3 0).view.set]{fullShare} ((wH 3 0).view.writes (Elt F) fw [⟨Rect.whole S2048x256, ReadAs.same.apply (View.read (Elt F) (wWin1 c 7).view Wt)⟩])) ∗
           ((wH 3 1).view.loc (c : Thread nD τ) ↦[(wH 3 1).view.set]{fullShare} ((wH 3 1).view.writes (Elt F) fw [⟨Rect.whole S2048x256, ReadAs.same.apply (View.read (Elt F) (wWin2 c 7).view Wt)⟩]))) : sProp 𝕄) ⊢
      (wbM.view.loc (c : Thread nD τ) ↦[(wS 3).set]{fullShare} wLand Wt c) :=
  wslot_join_3 c _ _ (wLand Wt c) (w_landed_3_0 c fw Wt) (w_landed_3_1 c fw Wt)

theorem wslot_joined_4 (c : Dev nD) (fw : Buf (Elt F) (wbM.view.loc (c : Thread nD τ))) (Wt : Vec F S4096x2048 .f32) :
    (iprop(((wH 4 0).view.loc (c : Thread nD τ) ↦[(wH 4 0).view.set]{fullShare} ((wH 4 0).view.writes (Elt F) fw [⟨Rect.whole S2048x256, ReadAs.same.apply (View.read (Elt F) (wWin1 c 1).view Wt)⟩])) ∗
           ((wH 4 1).view.loc (c : Thread nD τ) ↦[(wH 4 1).view.set]{fullShare} ((wH 4 1).view.writes (Elt F) fw [⟨Rect.whole S2048x256, ReadAs.same.apply (View.read (Elt F) (wWin2 c 1).view Wt)⟩]))) : sProp 𝕄) ⊢
      (wbM.view.loc (c : Thread nD τ) ↦[(wS 4).set]{fullShare} wLand Wt c) :=
  wslot_join_4 c _ _ (wLand Wt c) (w_landed_4_0 c fw Wt) (w_landed_4_1 c fw Wt)

theorem wslot_joined_5 (c : Dev nD) (fw : Buf (Elt F) (wbM.view.loc (c : Thread nD τ))) (Wt : Vec F S4096x2048 .f32) :
    (iprop(((wH 5 0).view.loc (c : Thread nD τ) ↦[(wH 5 0).view.set]{fullShare} ((wH 5 0).view.writes (Elt F) fw [⟨Rect.whole S2048x256, ReadAs.same.apply (View.read (Elt F) (wWin1 c 3).view Wt)⟩])) ∗
           ((wH 5 1).view.loc (c : Thread nD τ) ↦[(wH 5 1).view.set]{fullShare} ((wH 5 1).view.writes (Elt F) fw [⟨Rect.whole S2048x256, ReadAs.same.apply (View.read (Elt F) (wWin2 c 3).view Wt)⟩]))) : sProp 𝕄) ⊢
      (wbM.view.loc (c : Thread nD τ) ↦[(wS 5).set]{fullShare} wLand Wt c) :=
  wslot_join_5 c _ _ (wLand Wt c) (w_landed_5_0 c fw Wt) (w_landed_5_1 c fw Wt)

theorem wslot_joined_6 (c : Dev nD) (fw : Buf (Elt F) (wbM.view.loc (c : Thread nD τ))) (Wt : Vec F S4096x2048 .f32) :
    (iprop(((wH 6 0).view.loc (c : Thread nD τ) ↦[(wH 6 0).view.set]{fullShare} ((wH 6 0).view.writes (Elt F) fw [⟨Rect.whole S2048x256, ReadAs.same.apply (View.read (Elt F) (wWin1 c 4).view Wt)⟩])) ∗
           ((wH 6 1).view.loc (c : Thread nD τ) ↦[(wH 6 1).view.set]{fullShare} ((wH 6 1).view.writes (Elt F) fw [⟨Rect.whole S2048x256, ReadAs.same.apply (View.read (Elt F) (wWin2 c 4).view Wt)⟩]))) : sProp 𝕄) ⊢
      (wbM.view.loc (c : Thread nD τ) ↦[(wS 6).set]{fullShare} wLand Wt c) :=
  wslot_join_6 c _ _ (wLand Wt c) (w_landed_6_0 c fw Wt) (w_landed_6_1 c fw Wt)

theorem wslot_joined_7 (c : Dev nD) (fw : Buf (Elt F) (wbM.view.loc (c : Thread nD τ))) (Wt : Vec F S4096x2048 .f32) :
    (iprop(((wH 7 0).view.loc (c : Thread nD τ) ↦[(wH 7 0).view.set]{fullShare} ((wH 7 0).view.writes (Elt F) fw [⟨Rect.whole S2048x256, ReadAs.same.apply (View.read (Elt F) (wWin1 c 0).view Wt)⟩])) ∗
           ((wH 7 1).view.loc (c : Thread nD τ) ↦[(wH 7 1).view.set]{fullShare} ((wH 7 1).view.writes (Elt F) fw [⟨Rect.whole S2048x256, ReadAs.same.apply (View.read (Elt F) (wWin2 c 0).view Wt)⟩]))) : sProp 𝕄) ⊢
      (wbM.view.loc (c : Thread nD τ) ↦[(wS 7).set]{fullShare} wLand Wt c) :=
  wslot_join_7 c _ _ (wLand Wt c) (w_landed_7_0 c fw Wt) (w_landed_7_1 c fw Wt)

/-- The landed contents of slot `s`, read as one slot: the 256 columns of the device `c xor ord s`. -/
theorem wLand_slot (m : (ℓ : Loc nD τ sig) → Buf (Elt F) ℓ) (c : Dev nD) (s : Fin 8) (j : S1x4096x256.Idx) :
    wLand (wV m c) c ((wSR s).emb j) = wSlot m c (px c (ord s)) j := by
  have j0 : (j 0).val < 1 := (j 0).isLt
  have e0 : ord (((wSR s).emb j) 0) = ord s :=
    congrArg ord (Fin.ext (by show s.val + 1 * (j 0).val = s.val; omega))
  show wV m c _ = wV m c _
  refine congrArg (wV m c) ?_
  funext d
  match d with
  | ⟨0, _⟩ => exact Fin.ext (by show 0 + 1 * (j 1).val = (j 1).val; omega)
  | ⟨1, _⟩ => exact Fin.ext (by
      show 256 * (px c (ord (((wSR s).emb j) 0))).val + (0 + 1 * (j 2).val) = 256 * (px c (ord s)).val + (j 2).val
      rw [e0]; omega)

theorem wslot_read_0 (m : (ℓ : Loc nD τ sig) → Buf (Elt F) ℓ) (c : Dev nD) :
    wbM.view.readAt (Elt F) (Rect.unit (s := S8x4096x256) ![0, 0, 0] S1x4096x256.size inb_S8x4096x256_S1x4096x256_0_0_0).toLoadRect (wLand (wV m c) c)
      = wSlot m c (px c 6) := by
  funext j
  show wLand (wV m c) c ((wSR 0).emb j) = wSlot m c (px c 6) j
  exact wLand_slot m c 0 j

theorem wslot_read_1 (m : (ℓ : Loc nD τ sig) → Buf (Elt F) ℓ) (c : Dev nD) :
    wbM.view.readAt (Elt F) (Rect.unit (s := S8x4096x256) ![1, 0, 0] S1x4096x256.size inb_S8x4096x256_S1x4096x256_1_0_0).toLoadRect (wLand (wV m c) c)
      = wSlot m c (px c 2) := by
  funext j
  show wLand (wV m c) c ((wSR 1).emb j) = wSlot m c (px c 2) j
  exact wLand_slot m c 1 j

theorem wslot_read_2 (m : (ℓ : Loc nD τ sig) → Buf (Elt F) ℓ) (c : Dev nD) :
    wbM.view.readAt (Elt F) (Rect.unit (s := S8x4096x256) ![2, 0, 0] S1x4096x256.size inb_S8x4096x256_S1x4096x256_2_0_0).toLoadRect (wLand (wV m c) c)
      = wSlot m c (px c 5) := by
  funext j
  show wLand (wV m c) c ((wSR 2).emb j) = wSlot m c (px c 5) j
  exact wLand_slot m c 2 j

theorem wslot_read_3 (m : (ℓ : Loc nD τ sig) → Buf (Elt F) ℓ) (c : Dev nD) :
    wbM.view.readAt (Elt F) (Rect.unit (s := S8x4096x256) ![3, 0, 0] S1x4096x256.size inb_S8x4096x256_S1x4096x256_3_0_0).toLoadRect (wLand (wV m c) c)
      = wSlot m c (px c 7) := by
  funext j
  show wLand (wV m c) c ((wSR 3).emb j) = wSlot m c (px c 7) j
  exact wLand_slot m c 3 j

theorem wslot_read_4 (m : (ℓ : Loc nD τ sig) → Buf (Elt F) ℓ) (c : Dev nD) :
    wbM.view.readAt (Elt F) (Rect.unit (s := S8x4096x256) ![4, 0, 0] S1x4096x256.size inb_S8x4096x256_S1x4096x256_4_0_0).toLoadRect (wLand (wV m c) c)
      = wSlot m c (px c 1) := by
  funext j
  show wLand (wV m c) c ((wSR 4).emb j) = wSlot m c (px c 1) j
  exact wLand_slot m c 4 j

theorem wslot_read_5 (m : (ℓ : Loc nD τ sig) → Buf (Elt F) ℓ) (c : Dev nD) :
    wbM.view.readAt (Elt F) (Rect.unit (s := S8x4096x256) ![5, 0, 0] S1x4096x256.size inb_S8x4096x256_S1x4096x256_5_0_0).toLoadRect (wLand (wV m c) c)
      = wSlot m c (px c 3) := by
  funext j
  show wLand (wV m c) c ((wSR 5).emb j) = wSlot m c (px c 3) j
  exact wLand_slot m c 5 j

theorem wslot_read_6 (m : (ℓ : Loc nD τ sig) → Buf (Elt F) ℓ) (c : Dev nD) :
    wbM.view.readAt (Elt F) (Rect.unit (s := S8x4096x256) ![6, 0, 0] S1x4096x256.size inb_S8x4096x256_S1x4096x256_6_0_0).toLoadRect (wLand (wV m c) c)
      = wSlot m c (px c 4) := by
  funext j
  show wLand (wV m c) c ((wSR 6).emb j) = wSlot m c (px c 4) j
  exact wLand_slot m c 6 j

theorem wslot_read_7 (m : (ℓ : Loc nD τ sig) → Buf (Elt F) ℓ) (c : Dev nD) :
    wbM.view.readAt (Elt F) (Rect.unit (s := S8x4096x256) ![7, 0, 0] S1x4096x256.size inb_S8x4096x256_S1x4096x256_7_0_0).toLoadRect (wLand (wV m c) c)
      = wSlot m c (px c 0) := by
  funext j
  show wLand (wV m c) c ((wSR 7).emb j) = wSlot m c (px c 0) j
  exact wLand_slot m c 7 j

/-- info: 'Cert.Kernel.A2A.x_joined' depends on axioms: [propext, Classical.choice, Quot.sound] -/
#guard_msgs in #print axioms x_joined

/-- info: 'Cert.Kernel.A2A.wslot_joined_0' depends on axioms: [propext, Classical.choice, Quot.sound] -/
#guard_msgs in #print axioms wslot_joined_0

/-- info: 'Cert.Kernel.A2A.wslot_read_0' depends on axioms: [propext, Classical.choice, Quot.sound] -/
#guard_msgs in #print axioms wslot_read_0

end Cert.Kernel.A2A

end
-- ==== Proof.SlotsB.lean ====
/-
  The slots of the scratch buffers held through the slices a load of a whole slot goes through.

  Slot `s` of the weight buffer is the slice of the buffer at slot `s`, all rows and columns; its elements are
  those the access at that rectangle reads, so an assertion over the one set is an assertion over the other.
  A slot of the send or receive buffer with its unit axis dropped has the same elements as the slice it was
  dropped from: the two assertions are equal.
-/
import proofs.«900796_g7700000000000797_dist_gemm_a2a_m4096_k4096_n2048_f32_gelu_v7x_i8_1_alg».proof.Proof.LandedB
import Idealize.ShloMosaic.Lib.Pipeline.Value
import Idealize.ShloMosaic.Lib.Writes
import Idealize.ShloMosaic.Lib.ValueIdx
import Idealize.ShloMosaic.Lib.ValueLayout

noncomputable section

namespace Cert.Kernel.A2A

open Cert.Kernel Cert.Kernel.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The weight buffer's slots as slices -/

/-- Slot `s` of the weight buffer as a slice of it: what a load of the whole slot goes through. -/
abbrev wSM : Fin 8 → Memref sig .tc .vmem S1x4096x256 .f32
  | ⟨0, _⟩ => (Memref.whole cc0_scratch1 : Memref sig .tc .vmem S8x4096x256 .f32).slice (Rect.unit (s := S8x4096x256) ![0, 0, 0] S1x4096x256.size inb_S8x4096x256_S1x4096x256_0_0_0) (fun _ => rfl)
  | ⟨1, _⟩ => (Memref.whole cc0_scratch1 : Memref sig .tc .vmem S8x4096x256 .f32).slice (Rect.unit (s := S8x4096x256) ![1, 0, 0] S1x4096x256.size inb_S8x4096x256_S1x4096x256_1_0_0) (fun _ => rfl)
  | ⟨2, _⟩ => (Memref.whole cc0_scratch1 : Memref sig .tc .vmem S8x4096x256 .f32).slice (Rect.unit (s := S8x4096x256) ![2, 0, 0] S1x4096x256.size inb_S8x4096x256_S1x4096x256_2_0_0) (fun _ => rfl)
  | ⟨3, _⟩ => (Memref.whole cc0_scratch1 : Memref sig .tc .vmem S8x4096x256 .f32).slice (Rect.unit (s := S8x4096x256) ![3, 0, 0] S1x4096x256.size inb_S8x4096x256_S1x4096x256_3_0_0) (fun _ => rfl)
  | ⟨4, _⟩ => (Memref.whole cc0_scratch1 : Memref sig .tc .vmem S8x4096x256 .f32).slice (Rect.unit (s := S8x4096x256) ![4, 0, 0] S1x4096x256.size inb_S8x4096x256_S1x4096x256_4_0_0) (fun _ => rfl)
  | ⟨5, _⟩ => (Memref.whole cc0_scratch1 : Memref sig .tc .vmem S8x4096x256 .f32).slice (Rect.unit (s := S8x4096x256) ![5, 0, 0] S1x4096x256.size inb_S8x4096x256_S1x4096x256_5_0_0) (fun _ => rfl)
  | ⟨6, _⟩ => (Memref.whole cc0_scratch1 : Memref sig .tc .vmem S8x4096x256 .f32).slice (Rect.unit (s := S8x4096x256) ![6, 0, 0] S1x4096x256.size inb_S8x4096x256_S1x4096x256_6_0_0) (fun _ => rfl)
  | ⟨7, _⟩ => (Memref.whole cc0_scratch1 : Memref sig .tc .vmem S8x4096x256 .f32).slice (Rect.unit (s := S8x4096x256) ![7, 0, 0] S1x4096x256.size inb_S8x4096x256_S1x4096x256_7_0_0) (fun _ => rfl)
  | ⟨_ + 8, h⟩ => absurd h (by omega)

theorem wslot_joinedM_0 (c : Dev nD) (fw : Buf (Elt F) (wbM.view.loc (c : Thread nD τ))) (Wt : Vec F S4096x2048 .f32) :
    (iprop(((wH 0 0).view.loc (c : Thread nD τ) ↦[(wH 0 0).view.set]{fullShare} ((wH 0 0).view.writes (Elt F) fw [⟨Rect.whole S2048x256, ReadAs.same.apply (View.read (Elt F) (wWin1 c 6).view Wt)⟩])) ∗
           ((wH 0 1).view.loc (c : Thread nD τ) ↦[(wH 0 1).view.set]{fullShare} ((wH 0 1).view.writes (Elt F) fw [⟨Rect.whole S2048x256, ReadAs.same.apply (View.read (Elt F) (wWin2 c 6).view Wt)⟩]))) : sProp 𝕄) ⊢
      ((wSM 0).view.loc (c : Thread nD τ) ↦[(wSM 0).view.set]{fullShare} wLand Wt c) :=
  wslot_joined_0 c fw Wt

theorem wslotM_cut_0 (c : Dev nD) (g : Buf (Elt F) (wbM.view.loc (c : Thread nD τ))) :
    (((wSM 0).view.loc (c : Thread nD τ) ↦[(wSM 0).view.set]{fullShare} g) : sProp 𝕄) ⊢
      (wbM.view.loc (c : Thread nD τ) ↦[(wS 0).set]{fullShare} g) :=
  BIBase.Entails.rfl

theorem wslot_joinedM_1 (c : Dev nD) (fw : Buf (Elt F) (wbM.view.loc (c : Thread nD τ))) (Wt : Vec F S4096x2048 .f32) :
    (iprop(((wH 1 0).view.loc (c : Thread nD τ) ↦[(wH 1 0).view.set]{fullShare} ((wH 1 0).view.writes (Elt F) fw [⟨Rect.whole S2048x256, ReadAs.same.apply (View.read (Elt F) (wWin1 c 2).view Wt)⟩])) ∗
           ((wH 1 1).view.loc (c : Thread nD τ) ↦[(wH 1 1).view.set]{fullShare} ((wH 1 1).view.writes (Elt F) fw [⟨Rect.whole S2048x256, ReadAs.same.apply (View.read (Elt F) (wWin2 c 2).view Wt)⟩]))) : sProp 𝕄) ⊢
      ((wSM 1).view.loc (c : Thread nD τ) ↦[(wSM 1).view.set]{fullShare} wLand Wt c) :=
  wslot_joined_1 c fw Wt

theorem wslotM_cut_1 (c : Dev nD) (g : Buf (Elt F) (wbM.view.loc (c : Thread nD τ))) :
    (((wSM 1).view.loc (c : Thread nD τ) ↦[(wSM 1).view.set]{fullShare} g) : sProp 𝕄) ⊢
      (wbM.view.loc (c : Thread nD τ) ↦[(wS 1).set]{fullShare} g) :=
  BIBase.Entails.rfl

theorem wslot_joinedM_2 (c : Dev nD) (fw : Buf (Elt F) (wbM.view.loc (c : Thread nD τ))) (Wt : Vec F S4096x2048 .f32) :
    (iprop(((wH 2 0).view.loc (c : Thread nD τ) ↦[(wH 2 0).view.set]{fullShare} ((wH 2 0).view.writes (Elt F) fw [⟨Rect.whole S2048x256, ReadAs.same.apply (View.read (Elt F) (wWin1 c 5).view Wt)⟩])) ∗
           ((wH 2 1).view.loc (c : Thread nD τ) ↦[(wH 2 1).view.set]{fullShare} ((wH 2 1).view.writes (Elt F) fw [⟨Rect.whole S2048x256, ReadAs.same.apply (View.read (Elt F) (wWin2 c 5).view Wt)⟩]))) : sProp 𝕄) ⊢
      ((wSM 2).view.loc (c : Thread nD τ) ↦[(wSM 2).view.set]{fullShare} wLand Wt c) :=
  wslot_joined_2 c fw Wt

theorem wslotM_cut_2 (c : Dev nD) (g : Buf (Elt F) (wbM.view.loc (c : Thread nD τ))) :
    (((wSM 2).view.loc (c : Thread nD τ) ↦[(wSM 2).view.set]{fullShare} g) : sProp 𝕄) ⊢
      (wbM.view.loc (c : Thread nD τ) ↦[(wS 2).set]{fullShare} g) :=
  BIBase.Entails.rfl

theorem wslot_joinedM_3 (c : Dev nD) (fw : Buf (Elt F) (wbM.view.loc (c : Thread nD τ))) (Wt : Vec F S4096x2048 .f32) :
    (iprop(((wH 3 0).view.loc (c : Thread nD τ) ↦[(wH 3 0).view.set]{fullShare} ((wH 3 0).view.writes (Elt F) fw [⟨Rect.whole S2048x256, ReadAs.same.apply (View.read (Elt F) (wWin1 c 7).view Wt)⟩])) ∗
           ((wH 3 1).view.loc (c : Thread nD τ) ↦[(wH 3 1).view.set]{fullShare} ((wH 3 1).view.writes (Elt F) fw [⟨Rect.whole S2048x256, ReadAs.same.apply (View.read (Elt F) (wWin2 c 7).view Wt)⟩]))) : sProp 𝕄) ⊢
      ((wSM 3).view.loc (c : Thread nD τ) ↦[(wSM 3).view.set]{fullShare} wLand Wt c) :=
  wslot_joined_3 c fw Wt

theorem wslotM_cut_3 (c : Dev nD) (g : Buf (Elt F) (wbM.view.loc (c : Thread nD τ))) :
    (((wSM 3).view.loc (c : Thread nD τ) ↦[(wSM 3).view.set]{fullShare} g) : sProp 𝕄) ⊢
      (wbM.view.loc (c : Thread nD τ) ↦[(wS 3).set]{fullShare} g) :=
  BIBase.Entails.rfl

theorem wslot_joinedM_4 (c : Dev nD) (fw : Buf (Elt F) (wbM.view.loc (c : Thread nD τ))) (Wt : Vec F S4096x2048 .f32) :
    (iprop(((wH 4 0).view.loc (c : Thread nD τ) ↦[(wH 4 0).view.set]{fullShare} ((wH 4 0).view.writes (Elt F) fw [⟨Rect.whole S2048x256, ReadAs.same.apply (View.read (Elt F) (wWin1 c 1).view Wt)⟩])) ∗
           ((wH 4 1).view.loc (c : Thread nD τ) ↦[(wH 4 1).view.set]{fullShare} ((wH 4 1).view.writes (Elt F) fw [⟨Rect.whole S2048x256, ReadAs.same.apply (View.read (Elt F) (wWin2 c 1).view Wt)⟩]))) : sProp 𝕄) ⊢
      ((wSM 4).view.loc (c : Thread nD τ) ↦[(wSM 4).view.set]{fullShare} wLand Wt c) :=
  wslot_joined_4 c fw Wt

theorem wslotM_cut_4 (c : Dev nD) (g : Buf (Elt F) (wbM.view.loc (c : Thread nD τ))) :
    (((wSM 4).view.loc (c : Thread nD τ) ↦[(wSM 4).view.set]{fullShare} g) : sProp 𝕄) ⊢
      (wbM.view.loc (c : Thread nD τ) ↦[(wS 4).set]{fullShare} g) :=
  BIBase.Entails.rfl

theorem wslot_joinedM_5 (c : Dev nD) (fw : Buf (Elt F) (wbM.view.loc (c : Thread nD τ))) (Wt : Vec F S4096x2048 .f32) :
    (iprop(((wH 5 0).view.loc (c : Thread nD τ) ↦[(wH 5 0).view.set]{fullShare} ((wH 5 0).view.writes (Elt F) fw [⟨Rect.whole S2048x256, ReadAs.same.apply (View.read (Elt F) (wWin1 c 3).view Wt)⟩])) ∗
           ((wH 5 1).view.loc (c : Thread nD τ) ↦[(wH 5 1).view.set]{fullShare} ((wH 5 1).view.writes (Elt F) fw [⟨Rect.whole S2048x256, ReadAs.same.apply (View.read (Elt F) (wWin2 c 3).view Wt)⟩]))) : sProp 𝕄) ⊢
      ((wSM 5).view.loc (c : Thread nD τ) ↦[(wSM 5).view.set]{fullShare} wLand Wt c) :=
  wslot_joined_5 c fw Wt

theorem wslotM_cut_5 (c : Dev nD) (g : Buf (Elt F) (wbM.view.loc (c : Thread nD τ))) :
    (((wSM 5).view.loc (c : Thread nD τ) ↦[(wSM 5).view.set]{fullShare} g) : sProp 𝕄) ⊢
      (wbM.view.loc (c : Thread nD τ) ↦[(wS 5).set]{fullShare} g) :=
  BIBase.Entails.rfl

theorem wslot_joinedM_6 (c : Dev nD) (fw : Buf (Elt F) (wbM.view.loc (c : Thread nD τ))) (Wt : Vec F S4096x2048 .f32) :
    (iprop(((wH 6 0).view.loc (c : Thread nD τ) ↦[(wH 6 0).view.set]{fullShare} ((wH 6 0).view.writes (Elt F) fw [⟨Rect.whole S2048x256, ReadAs.same.apply (View.read (Elt F) (wWin1 c 4).view Wt)⟩])) ∗
           ((wH 6 1).view.loc (c : Thread nD τ) ↦[(wH 6 1).view.set]{fullShare} ((wH 6 1).view.writes (Elt F) fw [⟨Rect.whole S2048x256, ReadAs.same.apply (View.read (Elt F) (wWin2 c 4).view Wt)⟩]))) : sProp 𝕄) ⊢
      ((wSM 6).view.loc (c : Thread nD τ) ↦[(wSM 6).view.set]{fullShare} wLand Wt c) :=
  wslot_joined_6 c fw Wt

theorem wslotM_cut_6 (c : Dev nD) (g : Buf (Elt F) (wbM.view.loc (c : Thread nD τ))) :
    (((wSM 6).view.loc (c : Thread nD τ) ↦[(wSM 6).view.set]{fullShare} g) : sProp 𝕄) ⊢
      (wbM.view.loc (c : Thread nD τ) ↦[(wS 6).set]{fullShare} g) :=
  BIBase.Entails.rfl

theorem wslot_joinedM_7 (c : Dev nD) (fw : Buf (Elt F) (wbM.view.loc (c : Thread nD τ))) (Wt : Vec F S4096x2048 .f32) :
    (iprop(((wH 7 0).view.loc (c : Thread nD τ) ↦[(wH 7 0).view.set]{fullShare} ((wH 7 0).view.writes (Elt F) fw [⟨Rect.whole S2048x256, ReadAs.same.apply (View.read (Elt F) (wWin1 c 0).view Wt)⟩])) ∗
           ((wH 7 1).view.loc (c : Thread nD τ) ↦[(wH 7 1).view.set]{fullShare} ((wH 7 1).view.writes (Elt F) fw [⟨Rect.whole S2048x256, ReadAs.same.apply (View.read (Elt F) (wWin2 c 0).view Wt)⟩]))) : sProp 𝕄) ⊢
      ((wSM 7).view.loc (c : Thread nD τ) ↦[(wSM 7).view.set]{fullShare} wLand Wt c) :=
  wslot_joined_7 c fw Wt

theorem wslotM_cut_7 (c : Dev nD) (g : Buf (Elt F) (wbM.view.loc (c : Thread nD τ))) :
    (((wSM 7).view.loc (c : Thread nD τ) ↦[(wSM 7).view.set]{fullShare} g) : sProp 𝕄) ⊢
      (wbM.view.loc (c : Thread nD τ) ↦[(wS 7).set]{fullShare} g) :=
  BIBase.Entails.rfl

/-! ## The send and receive buffers' slots, their unit axis kept -/

/-- Slot `t` of the send buffer as a slice of it, its unit axis kept. -/
abbrev sSM : Fin 8 → Memref sig .tc .vmem S1x512x256 .bf16
  | ⟨0, _⟩ => (Memref.whole cc0_scratch2 : Memref sig .tc .vmem S8x512x256 .bf16).slice (Rect.unit (s := S8x512x256) ![0, 0, 0] S1x512x256.size (by decide)) (fun _ => rfl)
  | ⟨1, _⟩ => (Memref.whole cc0_scratch2 : Memref sig .tc .vmem S8x512x256 .bf16).slice (Rect.unit (s := S8x512x256) ![1, 0, 0] S1x512x256.size inb_S8x512x256_S1x512x256_1_0_0) (fun _ => rfl)
  | ⟨2, _⟩ => (Memref.whole cc0_scratch2 : Memref sig .tc .vmem S8x512x256 .bf16).slice (Rect.unit (s := S8x512x256) ![2, 0, 0] S1x512x256.size inb_S8x512x256_S1x512x256_2_0_0) (fun _ => rfl)
  | ⟨3, _⟩ => (Memref.whole cc0_scratch2 : Memref sig .tc .vmem S8x512x256 .bf16).slice (Rect.unit (s := S8x512x256) ![3, 0, 0] S1x512x256.size inb_S8x512x256_S1x512x256_3_0_0) (fun _ => rfl)
  | ⟨4, _⟩ => (Memref.whole cc0_scratch2 : Memref sig .tc .vmem S8x512x256 .bf16).slice (Rect.unit (s := S8x512x256) ![4, 0, 0] S1x512x256.size inb_S8x512x256_S1x512x256_4_0_0) (fun _ => rfl)
  | ⟨5, _⟩ => (Memref.whole cc0_scratch2 : Memref sig .tc .vmem S8x512x256 .bf16).slice (Rect.unit (s := S8x512x256) ![5, 0, 0] S1x512x256.size inb_S8x512x256_S1x512x256_5_0_0) (fun _ => rfl)
  | ⟨6, _⟩ => (Memref.whole cc0_scratch2 : Memref sig .tc .vmem S8x512x256 .bf16).slice (Rect.unit (s := S8x512x256) ![6, 0, 0] S1x512x256.size inb_S8x512x256_S1x512x256_6_0_0) (fun _ => rfl)
  | ⟨7, _⟩ => (Memref.whole cc0_scratch2 : Memref sig .tc .vmem S8x512x256 .bf16).slice (Rect.unit (s := S8x512x256) ![7, 0, 0] S1x512x256.size inb_S8x512x256_S1x512x256_7_0_0) (fun _ => rfl)
  | ⟨_ + 8, h⟩ => absurd h (by omega)
/-- Slot `t` of the receive buffer as a slice of it, its unit axis kept. -/
abbrev rSM : Fin 8 → Memref sig .tc .vmem S1x512x256 .bf16
  | ⟨0, _⟩ => (Memref.whole cc0_scratch3 : Memref sig .tc .vmem S8x512x256 .bf16).slice (Rect.unit (s := S8x512x256) ![0, 0, 0] S1x512x256.size (by decide)) (fun _ => rfl)
  | ⟨1, _⟩ => (Memref.whole cc0_scratch3 : Memref sig .tc .vmem S8x512x256 .bf16).slice (Rect.unit (s := S8x512x256) ![1, 0, 0] S1x512x256.size inb_S8x512x256_S1x512x256_1_0_0) (fun _ => rfl)
  | ⟨2, _⟩ => (Memref.whole cc0_scratch3 : Memref sig .tc .vmem S8x512x256 .bf16).slice (Rect.unit (s := S8x512x256) ![2, 0, 0] S1x512x256.size inb_S8x512x256_S1x512x256_2_0_0) (fun _ => rfl)
  | ⟨3, _⟩ => (Memref.whole cc0_scratch3 : Memref sig .tc .vmem S8x512x256 .bf16).slice (Rect.unit (s := S8x512x256) ![3, 0, 0] S1x512x256.size inb_S8x512x256_S1x512x256_3_0_0) (fun _ => rfl)
  | ⟨4, _⟩ => (Memref.whole cc0_scratch3 : Memref sig .tc .vmem S8x512x256 .bf16).slice (Rect.unit (s := S8x512x256) ![4, 0, 0] S1x512x256.size inb_S8x512x256_S1x512x256_4_0_0) (fun _ => rfl)
  | ⟨5, _⟩ => (Memref.whole cc0_scratch3 : Memref sig .tc .vmem S8x512x256 .bf16).slice (Rect.unit (s := S8x512x256) ![5, 0, 0] S1x512x256.size inb_S8x512x256_S1x512x256_5_0_0) (fun _ => rfl)
  | ⟨6, _⟩ => (Memref.whole cc0_scratch3 : Memref sig .tc .vmem S8x512x256 .bf16).slice (Rect.unit (s := S8x512x256) ![6, 0, 0] S1x512x256.size inb_S8x512x256_S1x512x256_6_0_0) (fun _ => rfl)
  | ⟨7, _⟩ => (Memref.whole cc0_scratch3 : Memref sig .tc .vmem S8x512x256 .bf16).slice (Rect.unit (s := S8x512x256) ![7, 0, 0] S1x512x256.size inb_S8x512x256_S1x512x256_7_0_0) (fun _ => rfl)
  | ⟨_ + 8, h⟩ => absurd h (by omega)

theorem sslot_unsq_0 (d : Dev nD) (f : Buf (Elt F) ((sM 0).view.loc (d : Thread nD τ))) :
    (((sM 0).view.loc (d : Thread nD τ) ↦[(sM 0).view.set]{fullShare} f) : sProp 𝕄) =
      ((sSM 0).view.loc (d : Thread nD τ) ↦[(sSM 0).view.set]{fullShare} f) :=
  pt_set (View.set_reshape _ _) f

theorem sslot_unsq_1 (d : Dev nD) (f : Buf (Elt F) ((sM 1).view.loc (d : Thread nD τ))) :
    (((sM 1).view.loc (d : Thread nD τ) ↦[(sM 1).view.set]{fullShare} f) : sProp 𝕄) =
      ((sSM 1).view.loc (d : Thread nD τ) ↦[(sSM 1).view.set]{fullShare} f) :=
  pt_set (View.set_reshape _ _) f

theorem sslot_unsq_2 (d : Dev nD) (f : Buf (Elt F) ((sM 2).view.loc (d : Thread nD τ))) :
    (((sM 2).view.loc (d : Thread nD τ) ↦[(sM 2).view.set]{fullShare} f) : sProp 𝕄) =
      ((sSM 2).view.loc (d : Thread nD τ) ↦[(sSM 2).view.set]{fullShare} f) :=
  pt_set (View.set_reshape _ _) f

theorem sslot_unsq_3 (d : Dev nD) (f : Buf (Elt F) ((sM 3).view.loc (d : Thread nD τ))) :
    (((sM 3).view.loc (d : Thread nD τ) ↦[(sM 3).view.set]{fullShare} f) : sProp 𝕄) =
      ((sSM 3).view.loc (d : Thread nD τ) ↦[(sSM 3).view.set]{fullShare} f) :=
  pt_set (View.set_reshape _ _) f

theorem sslot_unsq_4 (d : Dev nD) (f : Buf (Elt F) ((sM 4).view.loc (d : Thread nD τ))) :
    (((sM 4).view.loc (d : Thread nD τ) ↦[(sM 4).view.set]{fullShare} f) : sProp 𝕄) =
      ((sSM 4).view.loc (d : Thread nD τ) ↦[(sSM 4).view.set]{fullShare} f) :=
  pt_set (View.set_reshape _ _) f

theorem sslot_unsq_5 (d : Dev nD) (f : Buf (Elt F) ((sM 5).view.loc (d : Thread nD τ))) :
    (((sM 5).view.loc (d : Thread nD τ) ↦[(sM 5).view.set]{fullShare} f) : sProp 𝕄) =
      ((sSM 5).view.loc (d : Thread nD τ) ↦[(sSM 5).view.set]{fullShare} f) :=
  pt_set (View.set_reshape _ _) f

theorem sslot_unsq_6 (d : Dev nD) (f : Buf (Elt F) ((sM 6).view.loc (d : Thread nD τ))) :
    (((sM 6).view.loc (d : Thread nD τ) ↦[(sM 6).view.set]{fullShare} f) : sProp 𝕄) =
      ((sSM 6).view.loc (d : Thread nD τ) ↦[(sSM 6).view.set]{fullShare} f) :=
  pt_set (View.set_reshape _ _) f

theorem sslot_unsq_7 (d : Dev nD) (f : Buf (Elt F) ((sM 7).view.loc (d : Thread nD τ))) :
    (((sM 7).view.loc (d : Thread nD τ) ↦[(sM 7).view.set]{fullShare} f) : sProp 𝕄) =
      ((sSM 7).view.loc (d : Thread nD τ) ↦[(sSM 7).view.set]{fullShare} f) :=
  pt_set (View.set_reshape _ _) f

theorem rslot_unsq_0 (d : Dev nD) (f : Buf (Elt F) ((rM 0).view.loc (d : Thread nD τ))) :
    (((rM 0).view.loc (d : Thread nD τ) ↦[(rM 0).view.set]{fullShare} f) : sProp 𝕄) =
      ((rSM 0).view.loc (d : Thread nD τ) ↦[(rSM 0).view.set]{fullShare} f) :=
  pt_set (View.set_reshape _ _) f

theorem rslot_unsq_1 (d : Dev nD) (f : Buf (Elt F) ((rM 1).view.loc (d : Thread nD τ))) :
    (((rM 1).view.loc (d : Thread nD τ) ↦[(rM 1).view.set]{fullShare} f) : sProp 𝕄) =
      ((rSM 1).view.loc (d : Thread nD τ) ↦[(rSM 1).view.set]{fullShare} f) :=
  pt_set (View.set_reshape _ _) f

theorem rslot_unsq_2 (d : Dev nD) (f : Buf (Elt F) ((rM 2).view.loc (d : Thread nD τ))) :
    (((rM 2).view.loc (d : Thread nD τ) ↦[(rM 2).view.set]{fullShare} f) : sProp 𝕄) =
      ((rSM 2).view.loc (d : Thread nD τ) ↦[(rSM 2).view.set]{fullShare} f) :=
  pt_set (View.set_reshape _ _) f

theorem rslot_unsq_3 (d : Dev nD) (f : Buf (Elt F) ((rM 3).view.loc (d : Thread nD τ))) :
    (((rM 3).view.loc (d : Thread nD τ) ↦[(rM 3).view.set]{fullShare} f) : sProp 𝕄) =
      ((rSM 3).view.loc (d : Thread nD τ) ↦[(rSM 3).view.set]{fullShare} f) :=
  pt_set (View.set_reshape _ _) f

theorem rslot_unsq_4 (d : Dev nD) (f : Buf (Elt F) ((rM 4).view.loc (d : Thread nD τ))) :
    (((rM 4).view.loc (d : Thread nD τ) ↦[(rM 4).view.set]{fullShare} f) : sProp 𝕄) =
      ((rSM 4).view.loc (d : Thread nD τ) ↦[(rSM 4).view.set]{fullShare} f) :=
  pt_set (View.set_reshape _ _) f

theorem rslot_unsq_5 (d : Dev nD) (f : Buf (Elt F) ((rM 5).view.loc (d : Thread nD τ))) :
    (((rM 5).view.loc (d : Thread nD τ) ↦[(rM 5).view.set]{fullShare} f) : sProp 𝕄) =
      ((rSM 5).view.loc (d : Thread nD τ) ↦[(rSM 5).view.set]{fullShare} f) :=
  pt_set (View.set_reshape _ _) f

theorem rslot_unsq_6 (d : Dev nD) (f : Buf (Elt F) ((rM 6).view.loc (d : Thread nD τ))) :
    (((rM 6).view.loc (d : Thread nD τ) ↦[(rM 6).view.set]{fullShare} f) : sProp 𝕄) =
      ((rSM 6).view.loc (d : Thread nD τ) ↦[(rSM 6).view.set]{fullShare} f) :=
  pt_set (View.set_reshape _ _) f

theorem rslot_unsq_7 (d : Dev nD) (f : Buf (Elt F) ((rM 7).view.loc (d : Thread nD τ))) :
    (((rM 7).view.loc (d : Thread nD τ) ↦[(rM 7).view.set]{fullShare} f) : sProp 𝕄) =
      ((rSM 7).view.loc (d : Thread nD τ) ↦[(rSM 7).view.set]{fullShare} f) :=
  pt_set (View.set_reshape _ _) f

/-- info: 'Cert.Kernel.A2A.wslot_joinedM_0' depends on axioms: [propext, Classical.choice, Quot.sound] -/
#guard_msgs in #print axioms wslot_joinedM_0

/-- info: 'Cert.Kernel.A2A.sslot_unsq_6' depends on axioms: [propext, Classical.choice, Quot.sound] -/
#guard_msgs in #print axioms sslot_unsq_6

end Cert.Kernel.A2A

end
-- ==== Proof.SendValB.lean ====
/-
  The value each send slot holds when it is sent. The tile for the partner at mask t is computed from the device's block
  of x and the partner's 256 columns of w, narrowed to 16 bits, and stored whole into slot t of the send buffer. The
  program computes the seven tiles by the same chain of operations, printed under seven names; they are one function. A
  store of a whole slot leaves, at the slot's element (t, r, n), the stored vector's element (0, r, n), whatever the
  buffer held; so after the store the slot agrees with the send buffer's intended contents on all its elements.
-/
import proofs.«900796_g7700000000000797_dist_gemm_a2a_m4096_k4096_n2048_f32_gelu_v7x_i8_1_alg».proof.Proof.SlotsB
import proofs.«900796_g7700000000000797_dist_gemm_a2a_m4096_k4096_n2048_f32_gelu_v7x_i8_1_alg».proof.Proof.ValsB

noncomputable section

namespace Cert.Kernel.A2A

open Cert.Kernel Cert.Kernel.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The seven tiles are one function -/

theorem pay2_eq : (k0_pay2 (F := F)) = k0_pay1 := rfl
theorem pay3_eq : (k0_pay3 (F := F)) = k0_pay1 := rfl
theorem pay4_eq : (k0_pay4 (F := F)) = k0_pay1 := rfl
theorem pay7_eq : (k0_pay7 (F := F)) = k0_pay1 := rfl
theorem pay8_eq : (k0_pay8 (F := F)) = k0_pay1 := rfl
/-- The tile printed in two parts: the narrowed product, then its unit axis added. -/
theorem pay65_eq (x : Vec F S512x4096 .f32) (w : Vec F S1x4096x256 .f32) : k0_pay6 (k0_pay5 (F := F) x w) = k0_pay1 x w := rfl

/-! ## The send buffer's intended contents on one slot -/

/-- On slot `t` the send buffer is to hold the tile for the partner at mask `t`. -/
theorem sendV_slot (c : Dev nD) (t : Fin 8) (i : S8x512x256.Idx) (hi : (i 0).val = t.val) :
    sendV m c i = tileB m c (px c t) (ix3 (n0 := 1) (n1 := 512) (n2 := 256) 0 (i 1) (i 2)) := by
  have e : i 0 = t := Fin.ext hi
  unfold sendV
  rw [e]

/-! ## Slot 1 -/

/-- A store of a whole slot through the slice at slot 1 leaves the stored vector on the slot. -/
theorem slot_write_apply_1 (c : Dev nD) (fs : Buf (Elt F) (sbM.view.loc (c : Thread nD τ))) (v : FVec F S1x512x256 .bf16) :
    ∀ i ∈ (sSM 1).view.set, ((sSM 1).view.write (Elt F) fs v Finset.univ) i = v (ix3 (n0 := 1) (n1 := 512) (n2 := 256) 0 (i 1) (i 2)) := by
  intro i hi
  obtain ⟨y, rfl⟩ := View.exists_emb_of_mem_set (sSM 1).view hi
  refine (View.write_emb_of_mem (v := (sSM 1).view) (Val := Elt F) fs v (Finset.mem_univ y)).trans ?_
  show v y = v (ix3 (n0 := 1) (n1 := 512) (n2 := 256) 0 ((sSM 1).view.emb y 1) ((sSM 1).view.emb y 2))
  refine congrArg v ?_
  funext a
  match a with
  | ⟨0, _⟩ => exact Fin.ext (by have h : (y 0).val < 1 := (y 0).isLt; show (y 0).val = 0; omega)
  | ⟨1, _⟩ => exact Fin.ext (by show (y 1).val = 0 + 1 * (y 1).val; omega)
  | ⟨2, _⟩ => exact Fin.ext (by show (y 2).val = 0 + 1 * (y 2).val; omega)

/-- After the tile for the partner at mask 1 (computed from the x buffer and slot 4 of the weight buffer, both read back
    whole) is stored, slot 1 holds what the send buffer is to hold there. -/
theorem send_val_1 (c : Dev nD) (fs : Buf (Elt F) (sbM.view.loc (c : Thread nD τ))) :
    ∀ i ∈ (sM 1).view.set,
      (View.write (Elt F) ((Memref.whole cc0_scratch2 : Memref sig .tc .vmem S8x512x256 .bf16).access (Rect.unit (s := S8x512x256) ![1, 0, 0] S1x512x256.size inb_S8x512x256_S1x512x256_1_0_0)) fs
        (k0_pay6 (k0_pay5 (View.readAt (Elt F) xbM.view (Rect.unit (s := S512x4096) ![0, 0] S512x4096.size inb_S512x4096_S512x4096_0_0).toLoadRect (xV m c))
          (View.readAt (Elt F) (Memref.whole cc0_scratch1 : Memref sig .tc .vmem S8x4096x256 .f32).view (Rect.unit (s := S8x4096x256) ![4, 0, 0] S1x4096x256.size inb_S8x4096x256_S1x4096x256_4_0_0).toLoadRect (wLand (wV m c) c))))
        Finset.univ) i = sendV m c i := by
  intro i hi
  have hi' : i ∈ (sSM 1).view.set := (View.set_reshape _ _) ▸ hi
  have h0 : (i 0).val = (1 : Fin 8).val := (mem_bSR 1 i).mp (sM_set_1 ▸ hi)
  rw [x_read c (xV m c), wslot_read_4 m c]
  refine (slot_write_apply_1 c fs _ i hi').trans ?_
  rw [sendV_slot m c 1 i h0]
  rfl

/-! ## Slot 2 -/

/-- A store of a whole slot through the slice at slot 2 leaves the stored vector on the slot. -/
theorem slot_write_apply_2 (c : Dev nD) (fs : Buf (Elt F) (sbM.view.loc (c : Thread nD τ))) (v : FVec F S1x512x256 .bf16) :
    ∀ i ∈ (sSM 2).view.set, ((sSM 2).view.write (Elt F) fs v Finset.univ) i = v (ix3 (n0 := 1) (n1 := 512) (n2 := 256) 0 (i 1) (i 2)) := by
  intro i hi
  obtain ⟨y, rfl⟩ := View.exists_emb_of_mem_set (sSM 2).view hi
  refine (View.write_emb_of_mem (v := (sSM 2).view) (Val := Elt F) fs v (Finset.mem_univ y)).trans ?_
  show v y = v (ix3 (n0 := 1) (n1 := 512) (n2 := 256) 0 ((sSM 2).view.emb y 1) ((sSM 2).view.emb y 2))
  refine congrArg v ?_
  funext a
  match a with
  | ⟨0, _⟩ => exact Fin.ext (by have h : (y 0).val < 1 := (y 0).isLt; show (y 0).val = 0; omega)
  | ⟨1, _⟩ => exact Fin.ext (by show (y 1).val = 0 + 1 * (y 1).val; omega)
  | ⟨2, _⟩ => exact Fin.ext (by show (y 2).val = 0 + 1 * (y 2).val; omega)

/-- After the tile for the partner at mask 2 (computed from the x buffer and slot 1 of the weight buffer, both read back
    whole) is stored, slot 2 holds what the send buffer is to hold there. -/
theorem send_val_2 (c : Dev nD) (fs : Buf (Elt F) (sbM.view.loc (c : Thread nD τ))) :
    ∀ i ∈ (sM 2).view.set,
      (View.write (Elt F) ((Memref.whole cc0_scratch2 : Memref sig .tc .vmem S8x512x256 .bf16).access (Rect.unit (s := S8x512x256) ![2, 0, 0] S1x512x256.size inb_S8x512x256_S1x512x256_2_0_0)) fs
        (k0_pay2 (View.readAt (Elt F) xbM.view (Rect.unit (s := S512x4096) ![0, 0] S512x4096.size inb_S512x4096_S512x4096_0_0).toLoadRect (xV m c))
          (View.readAt (Elt F) (Memref.whole cc0_scratch1 : Memref sig .tc .vmem S8x4096x256 .f32).view (Rect.unit (s := S8x4096x256) ![1, 0, 0] S1x4096x256.size inb_S8x4096x256_S1x4096x256_1_0_0).toLoadRect (wLand (wV m c) c)))
        Finset.univ) i = sendV m c i := by
  intro i hi
  have hi' : i ∈ (sSM 2).view.set := (View.set_reshape _ _) ▸ hi
  have h0 : (i 0).val = (2 : Fin 8).val := (mem_bSR 2 i).mp (sM_set_2 ▸ hi)
  rw [x_read c (xV m c), wslot_read_1 m c]
  refine (slot_write_apply_2 c fs _ i hi').trans ?_
  rw [sendV_slot m c 2 i h0]
  rfl

/-! ## Slot 3 -/

/-- A store of a whole slot through the slice at slot 3 leaves the stored vector on the slot. -/
theorem slot_write_apply_3 (c : Dev nD) (fs : Buf (Elt F) (sbM.view.loc (c : Thread nD τ))) (v : FVec F S1x512x256 .bf16) :
    ∀ i ∈ (sSM 3).view.set, ((sSM 3).view.write (Elt F) fs v Finset.univ) i = v (ix3 (n0 := 1) (n1 := 512) (n2 := 256) 0 (i 1) (i 2)) := by
  intro i hi
  obtain ⟨y, rfl⟩ := View.exists_emb_of_mem_set (sSM 3).view hi
  refine (View.write_emb_of_mem (v := (sSM 3).view) (Val := Elt F) fs v (Finset.mem_univ y)).trans ?_
  show v y = v (ix3 (n0 := 1) (n1 := 512) (n2 := 256) 0 ((sSM 3).view.emb y 1) ((sSM 3).view.emb y 2))
  refine congrArg v ?_
  funext a
  match a with
  | ⟨0, _⟩ => exact Fin.ext (by have h : (y 0).val < 1 := (y 0).isLt; show (y 0).val = 0; omega)
  | ⟨1, _⟩ => exact Fin.ext (by show (y 1).val = 0 + 1 * (y 1).val; omega)
  | ⟨2, _⟩ => exact Fin.ext (by show (y 2).val = 0 + 1 * (y 2).val; omega)

/-- After the tile for the partner at mask 3 (computed from the x buffer and slot 5 of the weight buffer, both read back
    whole) is stored, slot 3 holds what the send buffer is to hold there. -/
theorem send_val_3 (c : Dev nD) (fs : Buf (Elt F) (sbM.view.loc (c : Thread nD τ))) :
    ∀ i ∈ (sM 3).view.set,
      (View.write (Elt F) ((Memref.whole cc0_scratch2 : Memref sig .tc .vmem S8x512x256 .bf16).access (Rect.unit (s := S8x512x256) ![3, 0, 0] S1x512x256.size inb_S8x512x256_S1x512x256_3_0_0)) fs
        (k0_pay7 (View.readAt (Elt F) xbM.view (Rect.unit (s := S512x4096) ![0, 0] S512x4096.size inb_S512x4096_S512x4096_0_0).toLoadRect (xV m c))
          (View.readAt (Elt F) (Memref.whole cc0_scratch1 : Memref sig .tc .vmem S8x4096x256 .f32).view (Rect.unit (s := S8x4096x256) ![5, 0, 0] S1x4096x256.size inb_S8x4096x256_S1x4096x256_5_0_0).toLoadRect (wLand (wV m c) c)))
        Finset.univ) i = sendV m c i := by
  intro i hi
  have hi' : i ∈ (sSM 3).view.set := (View.set_reshape _ _) ▸ hi
  have h0 : (i 0).val = (3 : Fin 8).val := (mem_bSR 3 i).mp (sM_set_3 ▸ hi)
  rw [x_read c (xV m c), wslot_read_5 m c]
  refine (slot_write_apply_3 c fs _ i hi').trans ?_
  rw [sendV_slot m c 3 i h0]
  rfl

/-! ## Slot 4 -/

/-- A store of a whole slot through the slice at slot 4 leaves the stored vector on the slot. -/
theorem slot_write_apply_4 (c : Dev nD) (fs : Buf (Elt F) (sbM.view.loc (c : Thread nD τ))) (v : FVec F S1x512x256 .bf16) :
    ∀ i ∈ (sSM 4).view.set, ((sSM 4).view.write (Elt F) fs v Finset.univ) i = v (ix3 (n0 := 1) (n1 := 512) (n2 := 256) 0 (i 1) (i 2)) := by
  intro i hi
  obtain ⟨y, rfl⟩ := View.exists_emb_of_mem_set (sSM 4).view hi
  refine (View.write_emb_of_mem (v := (sSM 4).view) (Val := Elt F) fs v (Finset.mem_univ y)).trans ?_
  show v y = v (ix3 (n0 := 1) (n1 := 512) (n2 := 256) 0 ((sSM 4).view.emb y 1) ((sSM 4).view.emb y 2))
  refine congrArg v ?_
  funext a
  match a with
  | ⟨0, _⟩ => exact Fin.ext (by have h : (y 0).val < 1 := (y 0).isLt; show (y 0).val = 0; omega)
  | ⟨1, _⟩ => exact Fin.ext (by show (y 1).val = 0 + 1 * (y 1).val; omega)
  | ⟨2, _⟩ => exact Fin.ext (by show (y 2).val = 0 + 1 * (y 2).val; omega)

/-- After the tile for the partner at mask 4 (computed from the x buffer and slot 6 of the weight buffer, both read back
    whole) is stored, slot 4 holds what the send buffer is to hold there. -/
theorem send_val_4 (c : Dev nD) (fs : Buf (Elt F) (sbM.view.loc (c : Thread nD τ))) :
    ∀ i ∈ (sM 4).view.set,
      (View.write (Elt F) ((Memref.whole cc0_scratch2 : Memref sig .tc .vmem S8x512x256 .bf16).access (Rect.unit (s := S8x512x256) ![4, 0, 0] S1x512x256.size inb_S8x512x256_S1x512x256_4_0_0)) fs
        (k0_pay8 (View.readAt (Elt F) xbM.view (Rect.unit (s := S512x4096) ![0, 0] S512x4096.size inb_S512x4096_S512x4096_0_0).toLoadRect (xV m c))
          (View.readAt (Elt F) (Memref.whole cc0_scratch1 : Memref sig .tc .vmem S8x4096x256 .f32).view (Rect.unit (s := S8x4096x256) ![6, 0, 0] S1x4096x256.size inb_S8x4096x256_S1x4096x256_6_0_0).toLoadRect (wLand (wV m c) c)))
        Finset.univ) i = sendV m c i := by
  intro i hi
  have hi' : i ∈ (sSM 4).view.set := (View.set_reshape _ _) ▸ hi
  have h0 : (i 0).val = (4 : Fin 8).val := (mem_bSR 4 i).mp (sM_set_4 ▸ hi)
  rw [x_read c (xV m c), wslot_read_6 m c]
  refine (slot_write_apply_4 c fs _ i hi').trans ?_
  rw [sendV_slot m c 4 i h0]
  rfl

/-! ## Slot 5 -/

/-- A store of a whole slot through the slice at slot 5 leaves the stored vector on the slot. -/
theorem slot_write_apply_5 (c : Dev nD) (fs : Buf (Elt F) (sbM.view.loc (c : Thread nD τ))) (v : FVec F S1x512x256 .bf16) :
    ∀ i ∈ (sSM 5).view.set, ((sSM 5).view.write (Elt F) fs v Finset.univ) i = v (ix3 (n0 := 1) (n1 := 512) (n2 := 256) 0 (i 1) (i 2)) := by
  intro i hi
  obtain ⟨y, rfl⟩ := View.exists_emb_of_mem_set (sSM 5).view hi
  refine (View.write_emb_of_mem (v := (sSM 5).view) (Val := Elt F) fs v (Finset.mem_univ y)).trans ?_
  show v y = v (ix3 (n0 := 1) (n1 := 512) (n2 := 256) 0 ((sSM 5).view.emb y 1) ((sSM 5).view.emb y 2))
  refine congrArg v ?_
  funext a
  match a with
  | ⟨0, _⟩ => exact Fin.ext (by have h : (y 0).val < 1 := (y 0).isLt; show (y 0).val = 0; omega)
  | ⟨1, _⟩ => exact Fin.ext (by show (y 1).val = 0 + 1 * (y 1).val; omega)
  | ⟨2, _⟩ => exact Fin.ext (by show (y 2).val = 0 + 1 * (y 2).val; omega)

/-- After the tile for the partner at mask 5 (computed from the x buffer and slot 2 of the weight buffer, both read back
    whole) is stored, slot 5 holds what the send buffer is to hold there. -/
theorem send_val_5 (c : Dev nD) (fs : Buf (Elt F) (sbM.view.loc (c : Thread nD τ))) :
    ∀ i ∈ (sM 5).view.set,
      (View.write (Elt F) ((Memref.whole cc0_scratch2 : Memref sig .tc .vmem S8x512x256 .bf16).access (Rect.unit (s := S8x512x256) ![5, 0, 0] S1x512x256.size inb_S8x512x256_S1x512x256_5_0_0)) fs
        (k0_pay3 (View.readAt (Elt F) xbM.view (Rect.unit (s := S512x4096) ![0, 0] S512x4096.size inb_S512x4096_S512x4096_0_0).toLoadRect (xV m c))
          (View.readAt (Elt F) (Memref.whole cc0_scratch1 : Memref sig .tc .vmem S8x4096x256 .f32).view (Rect.unit (s := S8x4096x256) ![2, 0, 0] S1x4096x256.size inb_S8x4096x256_S1x4096x256_2_0_0).toLoadRect (wLand (wV m c) c)))
        Finset.univ) i = sendV m c i := by
  intro i hi
  have hi' : i ∈ (sSM 5).view.set := (View.set_reshape _ _) ▸ hi
  have h0 : (i 0).val = (5 : Fin 8).val := (mem_bSR 5 i).mp (sM_set_5 ▸ hi)
  rw [x_read c (xV m c), wslot_read_2 m c]
  refine (slot_write_apply_5 c fs _ i hi').trans ?_
  rw [sendV_slot m c 5 i h0]
  rfl

/-! ## Slot 6 -/

/-- A store of a whole slot through the slice at slot 6 leaves the stored vector on the slot. -/
theorem slot_write_apply_6 (c : Dev nD) (fs : Buf (Elt F) (sbM.view.loc (c : Thread nD τ))) (v : FVec F S1x512x256 .bf16) :
    ∀ i ∈ (sSM 6).view.set, ((sSM 6).view.write (Elt F) fs v Finset.univ) i = v (ix3 (n0 := 1) (n1 := 512) (n2 := 256) 0 (i 1) (i 2)) := by
  intro i hi
  obtain ⟨y, rfl⟩ := View.exists_emb_of_mem_set (sSM 6).view hi
  refine (View.write_emb_of_mem (v := (sSM 6).view) (Val := Elt F) fs v (Finset.mem_univ y)).trans ?_
  show v y = v (ix3 (n0 := 1) (n1 := 512) (n2 := 256) 0 ((sSM 6).view.emb y 1) ((sSM 6).view.emb y 2))
  refine congrArg v ?_
  funext a
  match a with
  | ⟨0, _⟩ => exact Fin.ext (by have h : (y 0).val < 1 := (y 0).isLt; show (y 0).val = 0; omega)
  | ⟨1, _⟩ => exact Fin.ext (by show (y 1).val = 0 + 1 * (y 1).val; omega)
  | ⟨2, _⟩ => exact Fin.ext (by show (y 2).val = 0 + 1 * (y 2).val; omega)

/-- After the tile for the partner at mask 6 (computed from the x buffer and slot 0 of the weight buffer, both read back
    whole) is stored, slot 6 holds what the send buffer is to hold there. -/
theorem send_val_6 (c : Dev nD) (fs : Buf (Elt F) (sbM.view.loc (c : Thread nD τ))) :
    ∀ i ∈ (sM 6).view.set,
      (View.write (Elt F) ((Memref.whole cc0_scratch2 : Memref sig .tc .vmem S8x512x256 .bf16).access (Rect.unit (s := S8x512x256) ![6, 0, 0] S1x512x256.size inb_S8x512x256_S1x512x256_6_0_0)) fs
        (k0_pay1 (View.readAt (Elt F) xbM.view (Rect.unit (s := S512x4096) ![0, 0] S512x4096.size inb_S512x4096_S512x4096_0_0).toLoadRect (xV m c))
          (View.readAt (Elt F) (Memref.whole cc0_scratch1 : Memref sig .tc .vmem S8x4096x256 .f32).view (Rect.unit (s := S8x4096x256) ![0, 0, 0] S1x4096x256.size inb_S8x4096x256_S1x4096x256_0_0_0).toLoadRect (wLand (wV m c) c)))
        Finset.univ) i = sendV m c i := by
  intro i hi
  have hi' : i ∈ (sSM 6).view.set := (View.set_reshape _ _) ▸ hi
  have h0 : (i 0).val = (6 : Fin 8).val := (mem_bSR 6 i).mp (sM_set_6 ▸ hi)
  rw [x_read c (xV m c), wslot_read_0 m c]
  refine (slot_write_apply_6 c fs _ i hi').trans ?_
  rw [sendV_slot m c 6 i h0]
  rfl

/-! ## Slot 7 -/

/-- A store of a whole slot through the slice at slot 7 leaves the stored vector on the slot. -/
theorem slot_write_apply_7 (c : Dev nD) (fs : Buf (Elt F) (sbM.view.loc (c : Thread nD τ))) (v : FVec F S1x512x256 .bf16) :
    ∀ i ∈ (sSM 7).view.set, ((sSM 7).view.write (Elt F) fs v Finset.univ) i = v (ix3 (n0 := 1) (n1 := 512) (n2 := 256) 0 (i 1) (i 2)) := by
  intro i hi
  obtain ⟨y, rfl⟩ := View.exists_emb_of_mem_set (sSM 7).view hi
  refine (View.write_emb_of_mem (v := (sSM 7).view) (Val := Elt F) fs v (Finset.mem_univ y)).trans ?_
  show v y = v (ix3 (n0 := 1) (n1 := 512) (n2 := 256) 0 ((sSM 7).view.emb y 1) ((sSM 7).view.emb y 2))
  refine congrArg v ?_
  funext a
  match a with
  | ⟨0, _⟩ => exact Fin.ext (by have h : (y 0).val < 1 := (y 0).isLt; show (y 0).val = 0; omega)
  | ⟨1, _⟩ => exact Fin.ext (by show (y 1).val = 0 + 1 * (y 1).val; omega)
  | ⟨2, _⟩ => exact Fin.ext (by show (y 2).val = 0 + 1 * (y 2).val; omega)

/-- After the tile for the partner at mask 7 (computed from the x buffer and slot 3 of the weight buffer, both read back
    whole) is stored, slot 7 holds what the send buffer is to hold there. -/
theorem send_val_7 (c : Dev nD) (fs : Buf (Elt F) (sbM.view.loc (c : Thread nD τ))) :
    ∀ i ∈ (sM 7).view.set,
      (View.write (Elt F) ((Memref.whole cc0_scratch2 : Memref sig .tc .vmem S8x512x256 .bf16).access (Rect.unit (s := S8x512x256) ![7, 0, 0] S1x512x256.size inb_S8x512x256_S1x512x256_7_0_0)) fs
        (k0_pay4 (View.readAt (Elt F) xbM.view (Rect.unit (s := S512x4096) ![0, 0] S512x4096.size inb_S512x4096_S512x4096_0_0).toLoadRect (xV m c))
          (View.readAt (Elt F) (Memref.whole cc0_scratch1 : Memref sig .tc .vmem S8x4096x256 .f32).view (Rect.unit (s := S8x4096x256) ![3, 0, 0] S1x4096x256.size inb_S8x4096x256_S1x4096x256_3_0_0).toLoadRect (wLand (wV m c) c)))
        Finset.univ) i = sendV m c i := by
  intro i hi
  have hi' : i ∈ (sSM 7).view.set := (View.set_reshape _ _) ▸ hi
  have h0 : (i 0).val = (7 : Fin 8).val := (mem_bSR 7 i).mp (sM_set_7 ▸ hi)
  rw [x_read c (xV m c), wslot_read_3 m c]
  refine (slot_write_apply_7 c fs _ i hi').trans ?_
  rw [sendV_slot m c 7 i h0]
  rfl

/-- info: 'Cert.Kernel.A2A.send_val_1' depends on axioms: [propext, Classical.choice, Quot.sound] -/
#guard_msgs in #print axioms send_val_1

end Cert.Kernel.A2A

end
-- ==== Proof.OutFinalB.lean ====
/-
  What the output block holds after the body's eight row-block stores. The block is 4096 x 256: eight row blocks of 512
  rows. The body stores the tile the device keeps into row block c, then for every nonzero mask t the widened tile
  received in slot t into row block c xor t. For a fixed device the map t -> c xor t is a bijection of the masks onto the
  row blocks, so every row block is written exactly once, and a later store at another row block leaves it as it is: the
  element in row block b, row r, column n ends as the kept tile at (r, n) when b = c, and as the tile of slot b xor c at
  (r, n) otherwise, whatever the block held before.
-/
import proofs.«900796_g7700000000000797_dist_gemm_a2a_m4096_k4096_n2048_f32_gelu_v7x_i8_1_alg».proof.Proof.ValsB
import proofs.«900796_g7700000000000797_dist_gemm_a2a_m4096_k4096_n2048_f32_gelu_v7x_i8_1_alg».proof.Proof.DevEqB
import proofs.«900796_g7700000000000797_dist_gemm_a2a_m4096_k4096_n2048_f32_gelu_v7x_i8_1_alg».proof.Proof.PiecesB
import Idealize.ShloMosaic.Lib.Pipeline.Value

noncomputable section

namespace Cert.Kernel.A2A

open Cert.Kernel Cert.Kernel.Gen
open Idealize.ShloMosaic Idealize.ShloMosaic.TcCoe Idealize.ShloMosaic.ValueIdx

variable {F : FTy → Type} [FloatOps F]
variable (m : (ℓ : Loc nD τ sig) → Buf (Elt F) ℓ)

/-! ## One store of a row block -/

/-- A store of a whole 512 x 256 block through the output block at rows `512 p ..` puts the block's element `(r, n)` at
    row `r` of row block `p` and leaves every other row block as it was. -/
theorem write_block (c : Dev nD) (p : ℕ) (off : Fin 2 → ℕ) (hoff : off = ![512 * p, 0])
    (inb : ∀ a, off a + S512x256.size a ≤ S4096x256.size a)
    (f : Buf (Elt F) (outM.view.loc (c : Thread nD τ))) (w : FVec F S512x256 .f32) (b : Fin 8) (r : Fin 512) (n : Fin 256) :
    ((outM.access (Rect.unit (s := S4096x256) off S512x256.size inb)).write (Elt F) f w Finset.univ : Buf (Elt F) (outM.view.loc (c : Thread nD τ)))
        (ix2 (n0 := 4096) (n1 := 256) ⟨512 * b.val + r.val, by have := b.isLt; have := r.isLt; omega⟩ n)
      = if b.val = p then w (ix2 r n) else f (ix2 (n0 := 4096) (n1 := 256) ⟨512 * b.val + r.val, by have := b.isLt; have := r.isLt; omega⟩ n) := by
  subst hoff
  by_cases h : b.val = p
  · rw [if_pos h]
    have he : (outM.access (Rect.unit (s := S4096x256) ![512 * p, 0] S512x256.size inb)).emb (ix2 r n)
        = ix2 (n0 := 4096) (n1 := 256) ⟨512 * b.val + r.val, by have := b.isLt; have := r.isLt; omega⟩ n := by
      funext a
      match a with
      | ⟨0, _⟩ => exact Fin.ext (by show 512 * p + 1 * r.val = 512 * b.val + r.val; omega)
      | ⟨1, _⟩ => exact Fin.ext (by show 0 + 1 * n.val = n.val; omega)
    rw [← he, View.write_emb_of_mem _ _ (Finset.mem_univ _)]
    rfl
  · rw [if_neg h]
    apply View.write_of_not_mem
    rw [View.setOn_univ]
    show _ ∉ ((View.whole cc0_stg0_0).slice (Rect.unit (s := S4096x256) ![512 * p, 0] S512x256.size inb)).set
    rw [View.set_slice_whole, Rect.mem_set_unit]
    intro H
    have H0 := H 0
    have hr := r.isLt
    simp only [Matrix.cons_val_zero, Shape.size] at H0
    have e0 : ((ix2 (n0 := 4096) (n1 := 256) ⟨512 * b.val + r.val, by have := b.isLt; omega⟩ n) 0).val = 512 * b.val + r.val := rfl
    omega

/-! ## The eight stores -/

/-- The row block the device's own tile is stored at, as the program names it. -/
abbrev R0 (c : Dev nD) : Rect S4096x256 := Rect.unit (s := S4096x256) (k0_off3 c) S512x256.size (k0_off3_inb c)
/-- The row block the tile of slot 1 is stored at. -/
abbrev R1 (c : Dev nD) : Rect S4096x256 := Rect.unit (s := S4096x256) (k0_off4 c 1#32) S512x256.size (k0_off4_inb c 0)
/-- The row block the tile of slot 2 is stored at. -/
abbrev R2 (c : Dev nD) : Rect S4096x256 := Rect.unit (s := S4096x256) (k0_off4 c 2#32) S512x256.size (k0_off4_inb c 1)
/-- The row block the tile of slot 3 is stored at. -/
abbrev R3 (c : Dev nD) : Rect S4096x256 := Rect.unit (s := S4096x256) (k0_off4 c 3#32) S512x256.size (k0_off4_inb c 2)
/-- The row block the tile of slot 4 is stored at. -/
abbrev R4 (c : Dev nD) : Rect S4096x256 := Rect.unit (s := S4096x256) (k0_off4 c 4#32) S512x256.size (k0_off4_inb c 3)
/-- The row block the tile of slot 5 is stored at. -/
abbrev R5 (c : Dev nD) : Rect S4096x256 := Rect.unit (s := S4096x256) (k0_off4 c 5#32) S512x256.size (k0_off4_inb c 4)
/-- The row block the tile of slot 6 is stored at. -/
abbrev R6 (c : Dev nD) : Rect S4096x256 := Rect.unit (s := S4096x256) (k0_off4 c 6#32) S512x256.size (k0_off4_inb c 5)
/-- The row block the tile of slot 7 is stored at. -/
abbrev R7 (c : Dev nD) : Rect S4096x256 := Rect.unit (s := S4096x256) (k0_off4 c 7#32) S512x256.size (k0_off4_inb c 6)

/-- The output block after the eight stores, in program order: the kept tile `T0` first, then the tile `V t` of every
    nonzero slot `t` in turn, from contents `fo`. -/
def outWrites (c : Dev nD) (fo : Buf (Elt F) (outM.view.loc (c : Thread nD τ))) (T0 : FVec F S512x256 .f32)
    (V : Fin 8 → FVec F S512x256 .f32) : Buf (Elt F) (outM.view.loc (c : Thread nD τ)) :=
  ((outM.access (R7 c)).write (Elt F)
    ((outM.access (R6 c)).write (Elt F)
    ((outM.access (R5 c)).write (Elt F)
    ((outM.access (R4 c)).write (Elt F)
    ((outM.access (R3 c)).write (Elt F)
    ((outM.access (R2 c)).write (Elt F)
    ((outM.access (R1 c)).write (Elt F)
    ((outM.access (R0 c)).write (Elt F) fo T0 Finset.univ)
    (V 1) Finset.univ)
    (V 2) Finset.univ)
    (V 3) Finset.univ)
    (V 4) Finset.univ)
    (V 5) Finset.univ)
    (V 6) Finset.univ)
    (V 7) Finset.univ)

theorem write_R0 (c : Dev nD) (f : Buf (Elt F) (outM.view.loc (c : Thread nD τ))) (w : FVec F S512x256 .f32) (b : Fin 8) (r : Fin 512) (n : Fin 256) :
    ((outM.access (R0 c)).write (Elt F) f w Finset.univ : Buf (Elt F) (outM.view.loc (c : Thread nD τ)))
        (ix2 (n0 := 4096) (n1 := 256) ⟨512 * b.val + r.val, by have := b.isLt; have := r.isLt; omega⟩ n)
      = if b.val = c.val then w (ix2 r n) else f (ix2 (n0 := 4096) (n1 := 256) ⟨512 * b.val + r.val, by have := b.isLt; have := r.isLt; omega⟩ n) :=
  write_block c c.val (k0_off3 c) (off3_eq' c) (k0_off3_inb c) f w b r n
theorem write_R1 (c : Dev nD) (f : Buf (Elt F) (outM.view.loc (c : Thread nD τ))) (w : FVec F S512x256 .f32) (b : Fin 8) (r : Fin 512) (n : Fin 256) :
    ((outM.access (R1 c)).write (Elt F) f w Finset.univ : Buf (Elt F) (outM.view.loc (c : Thread nD τ)))
        (ix2 (n0 := 4096) (n1 := 256) ⟨512 * b.val + r.val, by have := b.isLt; have := r.isLt; omega⟩ n)
      = if b.val = (px c 1).val then w (ix2 r n) else f (ix2 (n0 := 4096) (n1 := 256) ⟨512 * b.val + r.val, by have := b.isLt; have := r.isLt; omega⟩ n) :=
  write_block c (px c 1).val (k0_off4 c 1#32) (off4_eq_1 c) (k0_off4_inb c 0) f w b r n
theorem write_R2 (c : Dev nD) (f : Buf (Elt F) (outM.view.loc (c : Thread nD τ))) (w : FVec F S512x256 .f32) (b : Fin 8) (r : Fin 512) (n : Fin 256) :
    ((outM.access (R2 c)).write (Elt F) f w Finset.univ : Buf (Elt F) (outM.view.loc (c : Thread nD τ)))
        (ix2 (n0 := 4096) (n1 := 256) ⟨512 * b.val + r.val, by have := b.isLt; have := r.isLt; omega⟩ n)
      = if b.val = (px c 2).val then w (ix2 r n) else f (ix2 (n0 := 4096) (n1 := 256) ⟨512 * b.val + r.val, by have := b.isLt; have := r.isLt; omega⟩ n) :=
  write_block c (px c 2).val (k0_off4 c 2#32) (off4_eq_2 c) (k0_off4_inb c 1) f w b r n
theorem write_R3 (c : Dev nD) (f : Buf (Elt F) (outM.view.loc (c : Thread nD τ))) (w : FVec F S512x256 .f32) (b : Fin 8) (r : Fin 512) (n : Fin 256) :
    ((outM.access (R3 c)).write (Elt F) f w Finset.univ : Buf (Elt F) (outM.view.loc (c : Thread nD τ)))
        (ix2 (n0 := 4096) (n1 := 256) ⟨512 * b.val + r.val, by have := b.isLt; have := r.isLt; omega⟩ n)
      = if b.val = (px c 3).val then w (ix2 r n) else f (ix2 (n0 := 4096) (n1 := 256) ⟨512 * b.val + r.val, by have := b.isLt; have := r.isLt; omega⟩ n) :=
  write_block c (px c 3).val (k0_off4 c 3#32) (off4_eq_3 c) (k0_off4_inb c 2) f w b r n
theorem write_R4 (c : Dev nD) (f : Buf (Elt F) (outM.view.loc (c : Thread nD τ))) (w : FVec F S512x256 .f32) (b : Fin 8) (r : Fin 512) (n : Fin 256) :
    ((outM.access (R4 c)).write (Elt F) f w Finset.univ : Buf (Elt F) (outM.view.loc (c : Thread nD τ)))
        (ix2 (n0 := 4096) (n1 := 256) ⟨512 * b.val + r.val, by have := b.isLt; have := r.isLt; omega⟩ n)
      = if b.val = (px c 4).val then w (ix2 r n) else f (ix2 (n0 := 4096) (n1 := 256) ⟨512 * b.val + r.val, by have := b.isLt; have := r.isLt; omega⟩ n) :=
  write_block c (px c 4).val (k0_off4 c 4#32) (off4_eq_4 c) (k0_off4_inb c 3) f w b r n
theorem write_R5 (c : Dev nD) (f : Buf (Elt F) (outM.view.loc (c : Thread nD τ))) (w : FVec F S512x256 .f32) (b : Fin 8) (r : Fin 512) (n : Fin 256) :
    ((outM.access (R5 c)).write (Elt F) f w Finset.univ : Buf (Elt F) (outM.view.loc (c : Thread nD τ)))
        (ix2 (n0 := 4096) (n1 := 256) ⟨512 * b.val + r.val, by have := b.isLt; have := r.isLt; omega⟩ n)
      = if b.val = (px c 5).val then w (ix2 r n) else f (ix2 (n0 := 4096) (n1 := 256) ⟨512 * b.val + r.val, by have := b.isLt; have := r.isLt; omega⟩ n) :=
  write_block c (px c 5).val (k0_off4 c 5#32) (off4_eq_5 c) (k0_off4_inb c 4) f w b r n
theorem write_R6 (c : Dev nD) (f : Buf (Elt F) (outM.view.loc (c : Thread nD τ))) (w : FVec F S512x256 .f32) (b : Fin 8) (r : Fin 512) (n : Fin 256) :
    ((outM.access (R6 c)).write (Elt F) f w Finset.univ : Buf (Elt F) (outM.view.loc (c : Thread nD τ)))
        (ix2 (n0 := 4096) (n1 := 256) ⟨512 * b.val + r.val, by have := b.isLt; have := r.isLt; omega⟩ n)
      = if b.val = (px c 6).val then w (ix2 r n) else f (ix2 (n0 := 4096) (n1 := 256) ⟨512 * b.val + r.val, by have := b.isLt; have := r.isLt; omega⟩ n) :=
  write_block c (px c 6).val (k0_off4 c 6#32) (off4_eq_6 c) (k0_off4_inb c 5) f w b r n
theorem write_R7 (c : Dev nD) (f : Buf (Elt F) (outM.view.loc (c : Thread nD τ))) (w : FVec F S512x256 .f32) (b : Fin 8) (r : Fin 512) (n : Fin 256) :
    ((outM.access (R7 c)).write (Elt F) f w Finset.univ : Buf (Elt F) (outM.view.loc (c : Thread nD τ)))
        (ix2 (n0 := 4096) (n1 := 256) ⟨512 * b.val + r.val, by have := b.isLt; have := r.isLt; omega⟩ n)
      = if b.val = (px c 7).val then w (ix2 r n) else f (ix2 (n0 := 4096) (n1 := 256) ⟨512 * b.val + r.val, by have := b.isLt; have := r.isLt; omega⟩ n) :=
  write_block c (px c 7).val (k0_off4 c 7#32) (off4_eq_7 c) (k0_off4_inb c 6) f w b r n

/-- Which store a row block takes its contents from: row block `c` from the first, row block `b ≠ c` from the store of
    slot `b xor c` (the masks' images under `t -> c xor t` are pairwise different and cover the row blocks). -/
theorem pick {X : Type} (c : Dev nD) (b : Fin 8) (x0 xo : X) (V : Fin 8 → X) :
    (if b.val = (px c 7).val then V 7 else if b.val = (px c 6).val then V 6 else if b.val = (px c 5).val then V 5 else if b.val = (px c 4).val then V 4 else if b.val = (px c 3).val then V 3 else if b.val = (px c 2).val then V 2 else if b.val = (px c 1).val then V 1 else if b.val = c.val then x0 else xo)
      = if b.val = c.val then x0 else V ⟨b.val ^^^ c.val, Nat.xor_lt_two_pow (n := 3) b.isLt c.isLt⟩ := by
  fin_cases b <;> fin_cases c <;> rfl

/-- The element in row block `b`, row `r`, column `n` after the eight stores. -/
theorem outWrites_apply (c : Dev nD) (fo : Buf (Elt F) (outM.view.loc (c : Thread nD τ))) (T0 : FVec F S512x256 .f32)
    (V : Fin 8 → FVec F S512x256 .f32) (b : Fin 8) (r : Fin 512) (n : Fin 256) :
    outWrites c fo T0 V (ix2 (n0 := 4096) (n1 := 256) ⟨512 * b.val + r.val, by have := b.isLt; have := r.isLt; omega⟩ n)
      = if b.val = c.val then T0 (ix2 r n) else V ⟨b.val ^^^ c.val, Nat.xor_lt_two_pow (n := 3) b.isLt c.isLt⟩ (ix2 r n) := by
  unfold outWrites
  rw [write_R7, write_R6, write_R5, write_R4, write_R3, write_R2, write_R1, write_R0]
  exact pick c b (T0 (ix2 r n)) (fo (ix2 (n0 := 4096) (n1 := 256) ⟨512 * b.val + r.val, by have := b.isLt; have := r.isLt; omega⟩ n)) (fun t => V t (ix2 r n))

/-- With the kept tile and the widened received tiles stored, the output block is the device's result block. -/
theorem outWrites_eq_outV (c : Dev nD) (fo : Buf (Elt F) (outM.view.loc (c : Thread nD τ))) :
    outWrites c fo (tileF m c) (fun t => k0_pay13 (recvSlot m c t)) = outV m c := by
  funext i
  have h0 : (i 0).val < 4096 := (i 0).isLt
  have hi : i = ix2 (n0 := 4096) (n1 := 256) ⟨512 * ((i 0).val / 512) + (i 0).val % 512, by omega⟩ (i 1) := by
    funext a
    match a with
    | ⟨0, _⟩ => exact Fin.ext (by show (i 0).val = 512 * ((i 0).val / 512) + (i 0).val % 512; omega)
    | ⟨1, _⟩ => rfl
  have key := outWrites_apply c fo (tileF m c) (fun t => k0_pay13 (recvSlot m c t))
    ⟨(i 0).val / 512, by omega⟩ ⟨(i 0).val % 512, Nat.mod_lt _ (by decide)⟩ (i 1)
  exact (congrArg (outWrites c fo (tileF m c) (fun t => k0_pay13 (recvSlot m c t))) hi).trans key

/-- info: 'Cert.Kernel.A2A.outWrites_eq_outV' depends on axioms: [propext, Classical.choice, Quot.sound] -/
#guard_msgs in #print axioms outWrites_eq_outV

end Cert.Kernel.A2A

end
-- ==== Proof.RecvValB.lean ====
/-
  What a load of one slot of the receive buffer returns once every slot has landed: slot t read through the whole buffer
  is the tile the device c xor t computed for c, as one slot.
-/
import proofs.«900796_g7700000000000797_dist_gemm_a2a_m4096_k4096_n2048_f32_gelu_v7x_i8_1_alg».proof.Proof.SlotsB
import proofs.«900796_g7700000000000797_dist_gemm_a2a_m4096_k4096_n2048_f32_gelu_v7x_i8_1_alg».proof.Proof.ValsB

noncomputable section

namespace Cert.Kernel.A2A

open Cert.Kernel Cert.Kernel.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The load of slot `t` through the whole buffer reads the buffer at row block `t`: index for index. -/
theorem recv_read (c : Dev nD) (t : Fin 8) (inb : ∀ a, (![t.val, 0, 0] : Fin 3 → ℕ) a + S1x512x256.size a ≤ S8x512x256.size a) :
    View.readAt (Elt F) (Memref.whole cc0_scratch3 : Memref sig .tc .vmem S8x512x256 .bf16).view
        (Rect.unit (s := S8x512x256) ![t.val, 0, 0] S1x512x256.size inb).toLoadRect (recvV m c)
      = recvSlot m c t := by
  funext j
  have j0 : (j 0).val < 1 := (j 0).isLt
  show recvV m c ((Rect.unit (s := S8x512x256) ![t.val, 0, 0] S1x512x256.size inb).emb j)
    = recvV m c (ix3 (n0 := 8) (n1 := 512) (n2 := 256) t (j 1) (j 2))
  refine congrArg (recvV m c) ?_
  funext d
  match d with
  | ⟨0, _⟩ => exact Fin.ext (by show t.val + 1 * (j 0).val = t.val; omega)
  | ⟨1, _⟩ => exact Fin.ext (by show 0 + 1 * (j 1).val = (j 1).val; omega)
  | ⟨2, _⟩ => exact Fin.ext (by show 0 + 1 * (j 2).val = (j 2).val; omega)

/-! ## The seven slots the body loads -/

theorem recv_read_1 (c : Dev nD) :
    View.readAt (Elt F) (Memref.whole cc0_scratch3 : Memref sig .tc .vmem S8x512x256 .bf16).view
        (Rect.unit (s := S8x512x256) ![1, 0, 0] S1x512x256.size inb_S8x512x256_S1x512x256_1_0_0).toLoadRect (recvV m c)
      = recvSlot m c 1 :=
  recv_read m c 1 inb_S8x512x256_S1x512x256_1_0_0

theorem recv_read_2 (c : Dev nD) :
    View.readAt (Elt F) (Memref.whole cc0_scratch3 : Memref sig .tc .vmem S8x512x256 .bf16).view
        (Rect.unit (s := S8x512x256) ![2, 0, 0] S1x512x256.size inb_S8x512x256_S1x512x256_2_0_0).toLoadRect (recvV m c)
      = recvSlot m c 2 :=
  recv_read m c 2 inb_S8x512x256_S1x512x256_2_0_0

theorem recv_read_3 (c : Dev nD) :
    View.readAt (Elt F) (Memref.whole cc0_scratch3 : Memref sig .tc .vmem S8x512x256 .bf16).view
        (Rect.unit (s := S8x512x256) ![3, 0, 0] S1x512x256.size inb_S8x512x256_S1x512x256_3_0_0).toLoadRect (recvV m c)
      = recvSlot m c 3 :=
  recv_read m c 3 inb_S8x512x256_S1x512x256_3_0_0

theorem recv_read_4 (c : Dev nD) :
    View.readAt (Elt F) (Memref.whole cc0_scratch3 : Memref sig .tc .vmem S8x512x256 .bf16).view
        (Rect.unit (s := S8x512x256) ![4, 0, 0] S1x512x256.size inb_S8x512x256_S1x512x256_4_0_0).toLoadRect (recvV m c)
      = recvSlot m c 4 :=
  recv_read m c 4 inb_S8x512x256_S1x512x256_4_0_0

theorem recv_read_5 (c : Dev nD) :
    View.readAt (Elt F) (Memref.whole cc0_scratch3 : Memref sig .tc .vmem S8x512x256 .bf16).view
        (Rect.unit (s := S8x512x256) ![5, 0, 0] S1x512x256.size inb_S8x512x256_S1x512x256_5_0_0).toLoadRect (recvV m c)
      = recvSlot m c 5 :=
  recv_read m c 5 inb_S8x512x256_S1x512x256_5_0_0

theorem recv_read_6 (c : Dev nD) :
    View.readAt (Elt F) (Memref.whole cc0_scratch3 : Memref sig .tc .vmem S8x512x256 .bf16).view
        (Rect.unit (s := S8x512x256) ![6, 0, 0] S1x512x256.size inb_S8x512x256_S1x512x256_6_0_0).toLoadRect (recvV m c)
      = recvSlot m c 6 :=
  recv_read m c 6 inb_S8x512x256_S1x512x256_6_0_0

theorem recv_read_7 (c : Dev nD) :
    View.readAt (Elt F) (Memref.whole cc0_scratch3 : Memref sig .tc .vmem S8x512x256 .bf16).view
        (Rect.unit (s := S8x512x256) ![7, 0, 0] S1x512x256.size inb_S8x512x256_S1x512x256_7_0_0).toLoadRect (recvV m c)
      = recvSlot m c 7 :=
  recv_read m c 7 inb_S8x512x256_S1x512x256_7_0_0

/-- info: 'Cert.Kernel.A2A.recv_read_1' depends on axioms: [propext, Classical.choice, Quot.sound] -/
#guard_msgs in #print axioms recv_read_1

end Cert.Kernel.A2A

end
-- ==== Proof.OutValB.lean ====
/-
  The output block at the end of the body, with the values the stores carry. The kept tile is computed from the x buffer
  and slot 7 of the weight buffer read back whole: the device's block of x and its own 256 columns of w. The tile stored
  for slot t is slot t of the receive buffer read back whole and widened; the program widens the seven slots by the same
  two operations, printed under seven names. With these values the eight stores leave the device's result block.
-/
import proofs.«900796_g7700000000000797_dist_gemm_a2a_m4096_k4096_n2048_f32_gelu_v7x_i8_1_alg».proof.Proof.OutFinalB
import proofs.«900796_g7700000000000797_dist_gemm_a2a_m4096_k4096_n2048_f32_gelu_v7x_i8_1_alg».proof.Proof.SlotsB
import proofs.«900796_g7700000000000797_dist_gemm_a2a_m4096_k4096_n2048_f32_gelu_v7x_i8_1_alg».proof.Proof.SendValB
import proofs.«900796_g7700000000000797_dist_gemm_a2a_m4096_k4096_n2048_f32_gelu_v7x_i8_1_alg».proof.Proof.RecvValB

noncomputable section

namespace Cert.Kernel.A2A

open Cert.Kernel Cert.Kernel.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The seven widenings are one function -/

theorem pay14_eq : (k0_pay14 (F := F)) = k0_pay13 := rfl
theorem pay15_eq : (k0_pay15 (F := F)) = k0_pay13 := rfl
theorem pay16_eq : (k0_pay16 (F := F)) = k0_pay13 := rfl
theorem pay17_eq : (k0_pay17 (F := F)) = k0_pay13 := rfl
theorem pay18_eq : (k0_pay18 (F := F)) = k0_pay13 := rfl
/-- The widening printed in two parts: the unit axis dropped, then the elements widened. -/
theorem pay2019_eq (v : Vec F S1x512x256 .bf16) : k0_pay20 (k0_pay19 (F := F) v) = k0_pay13 v := rfl

/-! ## The values the stores carry -/

/-- The kept tile as the body computes it: from the x buffer and slot 7 of the weight buffer, read back whole. -/
abbrev keptTile (c : Dev nD) : FVec F S512x256 .f32 :=
  (k0_pay12 (k0_pay9 (View.readAt (Elt F) xbM.view (Rect.unit (s := S512x4096) ![0, 0] S512x4096.size inb_S512x4096_S512x4096_0_0).toLoadRect (xV m c)) (View.readAt (Elt F) (Memref.whole cc0_scratch1 : Memref sig .tc .vmem S8x4096x256 .f32).view (Rect.unit (s := S8x4096x256) ![7, 0, 0] S1x4096x256.size inb_S8x4096x256_S1x4096x256_7_0_0).toLoadRect (wLand (wV m c) c)))
      (k0_pay10 (View.readAt (Elt F) xbM.view (Rect.unit (s := S512x4096) ![0, 0] S512x4096.size inb_S512x4096_S512x4096_0_0).toLoadRect (xV m c)) (View.readAt (Elt F) (Memref.whole cc0_scratch1 : Memref sig .tc .vmem S8x4096x256 .f32).view (Rect.unit (s := S8x4096x256) ![7, 0, 0] S1x4096x256.size inb_S8x4096x256_S1x4096x256_7_0_0).toLoadRect (wLand (wV m c) c)))
      (k0_pay11 (View.readAt (Elt F) xbM.view (Rect.unit (s := S512x4096) ![0, 0] S512x4096.size inb_S512x4096_S512x4096_0_0).toLoadRect (xV m c)) (View.readAt (Elt F) (Memref.whole cc0_scratch1 : Memref sig .tc .vmem S8x4096x256 .f32).view (Rect.unit (s := S8x4096x256) ![7, 0, 0] S1x4096x256.size inb_S8x4096x256_S1x4096x256_7_0_0).toLoadRect (wLand (wV m c) c))))

/-- The tile stored for slot `t` as the body computes it: slot `t` of the receive buffer read back whole, widened. (Slot 0 is
    never stored.) -/
abbrev gotTile (c : Dev nD) : Fin 8 → FVec F S512x256 .f32
  | ⟨0, _⟩ => k0_pay13 (recvSlot m c 0)
  | ⟨1, _⟩ => (k0_pay13 (View.readAt (Elt F) (Memref.whole cc0_scratch3 : Memref sig .tc .vmem S8x512x256 .bf16).view (Rect.unit (s := S8x512x256) ![1, 0, 0] S1x512x256.size inb_S8x512x256_S1x512x256_1_0_0).toLoadRect (recvV m c)))
  | ⟨2, _⟩ => (k0_pay14 (View.readAt (Elt F) (Memref.whole cc0_scratch3 : Memref sig .tc .vmem S8x512x256 .bf16).view (Rect.unit (s := S8x512x256) ![2, 0, 0] S1x512x256.size inb_S8x512x256_S1x512x256_2_0_0).toLoadRect (recvV m c)))
  | ⟨3, _⟩ => (k0_pay15 (View.readAt (Elt F) (Memref.whole cc0_scratch3 : Memref sig .tc .vmem S8x512x256 .bf16).view (Rect.unit (s := S8x512x256) ![3, 0, 0] S1x512x256.size inb_S8x512x256_S1x512x256_3_0_0).toLoadRect (recvV m c)))
  | ⟨4, _⟩ => (k0_pay16 (View.readAt (Elt F) (Memref.whole cc0_scratch3 : Memref sig .tc .vmem S8x512x256 .bf16).view (Rect.unit (s := S8x512x256) ![4, 0, 0] S1x512x256.size inb_S8x512x256_S1x512x256_4_0_0).toLoadRect (recvV m c)))
  | ⟨5, _⟩ => (k0_pay17 (View.readAt (Elt F) (Memref.whole cc0_scratch3 : Memref sig .tc .vmem S8x512x256 .bf16).view (Rect.unit (s := S8x512x256) ![5, 0, 0] S1x512x256.size inb_S8x512x256_S1x512x256_5_0_0).toLoadRect (recvV m c)))
  | ⟨6, _⟩ => (k0_pay18 (View.readAt (Elt F) (Memref.whole cc0_scratch3 : Memref sig .tc .vmem S8x512x256 .bf16).view (Rect.unit (s := S8x512x256) ![6, 0, 0] S1x512x256.size inb_S8x512x256_S1x512x256_6_0_0).toLoadRect (recvV m c)))
  | ⟨7, _⟩ => (k0_pay20 (k0_pay19 (View.readAt (Elt F) (Memref.whole cc0_scratch3 : Memref sig .tc .vmem S8x512x256 .bf16).view (Rect.unit (s := S8x512x256) ![7, 0, 0] S1x512x256.size inb_S8x512x256_S1x512x256_7_0_0).toLoadRect (recvV m c))))
  | ⟨_ + 8, h⟩ => absurd h (by omega)

/-- The kept tile is the tile the device computes for its own column block. -/
theorem keptTile_eq (c : Dev nD) : keptTile m c = tileF m c := by
  unfold keptTile tileF
  rw [x_read c (xV m c), wslot_read_7 m c, px_zero]

/-- The tile stored for slot `t` is the widened slot `t` of the landed receive buffer. -/
theorem gotTile_eq (c : Dev nD) : gotTile m c = fun t => k0_pay13 (recvSlot m c t) := by
  funext t
  match t with
  | ⟨0, _⟩ => rfl
  | ⟨1, _⟩ =>
    show k0_pay13 (View.readAt (Elt F) (Memref.whole cc0_scratch3 : Memref sig .tc .vmem S8x512x256 .bf16).view (Rect.unit (s := S8x512x256) ![1, 0, 0] S1x512x256.size inb_S8x512x256_S1x512x256_1_0_0).toLoadRect (recvV m c)) = k0_pay13 (recvSlot m c 1)
    rw [recv_read_1 m c]
  | ⟨2, _⟩ =>
    show k0_pay14 (View.readAt (Elt F) (Memref.whole cc0_scratch3 : Memref sig .tc .vmem S8x512x256 .bf16).view (Rect.unit (s := S8x512x256) ![2, 0, 0] S1x512x256.size inb_S8x512x256_S1x512x256_2_0_0).toLoadRect (recvV m c)) = k0_pay13 (recvSlot m c 2)
    rw [recv_read_2 m c]
    rfl
  | ⟨3, _⟩ =>
    show k0_pay15 (View.readAt (Elt F) (Memref.whole cc0_scratch3 : Memref sig .tc .vmem S8x512x256 .bf16).view (Rect.unit (s := S8x512x256) ![3, 0, 0] S1x512x256.size inb_S8x512x256_S1x512x256_3_0_0).toLoadRect (recvV m c)) = k0_pay13 (recvSlot m c 3)
    rw [recv_read_3 m c]
    rfl
  | ⟨4, _⟩ =>
    show k0_pay16 (View.readAt (Elt F) (Memref.whole cc0_scratch3 : Memref sig .tc .vmem S8x512x256 .bf16).view (Rect.unit (s := S8x512x256) ![4, 0, 0] S1x512x256.size inb_S8x512x256_S1x512x256_4_0_0).toLoadRect (recvV m c)) = k0_pay13 (recvSlot m c 4)
    rw [recv_read_4 m c]
    rfl
  | ⟨5, _⟩ =>
    show k0_pay17 (View.readAt (Elt F) (Memref.whole cc0_scratch3 : Memref sig .tc .vmem S8x512x256 .bf16).view (Rect.unit (s := S8x512x256) ![5, 0, 0] S1x512x256.size inb_S8x512x256_S1x512x256_5_0_0).toLoadRect (recvV m c)) = k0_pay13 (recvSlot m c 5)
    rw [recv_read_5 m c]
    rfl
  | ⟨6, _⟩ =>
    show k0_pay18 (View.readAt (Elt F) (Memref.whole cc0_scratch3 : Memref sig .tc .vmem S8x512x256 .bf16).view (Rect.unit (s := S8x512x256) ![6, 0, 0] S1x512x256.size inb_S8x512x256_S1x512x256_6_0_0).toLoadRect (recvV m c)) = k0_pay13 (recvSlot m c 6)
    rw [recv_read_6 m c]
    rfl
  | ⟨7, _⟩ =>
    show k0_pay20 (k0_pay19 (View.readAt (Elt F) (Memref.whole cc0_scratch3 : Memref sig .tc .vmem S8x512x256 .bf16).view (Rect.unit (s := S8x512x256) ![7, 0, 0] S1x512x256.size inb_S8x512x256_S1x512x256_7_0_0).toLoadRect (recvV m c))) = k0_pay13 (recvSlot m c 7)
    rw [recv_read_7 m c]
    rfl
  | ⟨_ + 8, h⟩ => exact absurd h (by omega)

/-- With the values the body stores, the output block ends as the device's result block. -/
theorem out_val (c : Dev nD) (fo : Buf (Elt F) (outM.view.loc (c : Thread nD τ))) :
    outWrites c fo (keptTile m c) (gotTile m c) = outV m c := by
  rw [keptTile_eq, gotTile_eq]
  exact outWrites_eq_outV m c fo

/-- The same with the eight stores written out. -/
theorem out_val_writes (c : Dev nD) (fo : Buf (Elt F) (outM.view.loc (c : Thread nD τ))) :
    (((outM.access (R7 c)).write (Elt F)
    ((outM.access (R6 c)).write (Elt F)
    ((outM.access (R5 c)).write (Elt F)
    ((outM.access (R4 c)).write (Elt F)
    ((outM.access (R3 c)).write (Elt F)
    ((outM.access (R2 c)).write (Elt F)
    ((outM.access (R1 c)).write (Elt F)
    ((outM.access (R0 c)).write (Elt F) fo
    (k0_pay12 (k0_pay9 (View.readAt (Elt F) xbM.view (Rect.unit (s := S512x4096) ![0, 0] S512x4096.size inb_S512x4096_S512x4096_0_0).toLoadRect (xV m c)) (View.readAt (Elt F) (Memref.whole cc0_scratch1 : Memref sig .tc .vmem S8x4096x256 .f32).view (Rect.unit (s := S8x4096x256) ![7, 0, 0] S1x4096x256.size inb_S8x4096x256_S1x4096x256_7_0_0).toLoadRect (wLand (wV m c) c)))
      (k0_pay10 (View.readAt (Elt F) xbM.view (Rect.unit (s := S512x4096) ![0, 0] S512x4096.size inb_S512x4096_S512x4096_0_0).toLoadRect (xV m c)) (View.readAt (Elt F) (Memref.whole cc0_scratch1 : Memref sig .tc .vmem S8x4096x256 .f32).view (Rect.unit (s := S8x4096x256) ![7, 0, 0] S1x4096x256.size inb_S8x4096x256_S1x4096x256_7_0_0).toLoadRect (wLand (wV m c) c)))
      (k0_pay11 (View.readAt (Elt F) xbM.view (Rect.unit (s := S512x4096) ![0, 0] S512x4096.size inb_S512x4096_S512x4096_0_0).toLoadRect (xV m c)) (View.readAt (Elt F) (Memref.whole cc0_scratch1 : Memref sig .tc .vmem S8x4096x256 .f32).view (Rect.unit (s := S8x4096x256) ![7, 0, 0] S1x4096x256.size inb_S8x4096x256_S1x4096x256_7_0_0).toLoadRect (wLand (wV m c) c)))) Finset.univ)
    (k0_pay13 (View.readAt (Elt F) (Memref.whole cc0_scratch3 : Memref sig .tc .vmem S8x512x256 .bf16).view (Rect.unit (s := S8x512x256) ![1, 0, 0] S1x512x256.size inb_S8x512x256_S1x512x256_1_0_0).toLoadRect (recvV m c))) Finset.univ)
    (k0_pay14 (View.readAt (Elt F) (Memref.whole cc0_scratch3 : Memref sig .tc .vmem S8x512x256 .bf16).view (Rect.unit (s := S8x512x256) ![2, 0, 0] S1x512x256.size inb_S8x512x256_S1x512x256_2_0_0).toLoadRect (recvV m c))) Finset.univ)
    (k0_pay15 (View.readAt (Elt F) (Memref.whole cc0_scratch3 : Memref sig .tc .vmem S8x512x256 .bf16).view (Rect.unit (s := S8x512x256) ![3, 0, 0] S1x512x256.size inb_S8x512x256_S1x512x256_3_0_0).toLoadRect (recvV m c))) Finset.univ)
    (k0_pay16 (View.readAt (Elt F) (Memref.whole cc0_scratch3 : Memref sig .tc .vmem S8x512x256 .bf16).view (Rect.unit (s := S8x512x256) ![4, 0, 0] S1x512x256.size inb_S8x512x256_S1x512x256_4_0_0).toLoadRect (recvV m c))) Finset.univ)
    (k0_pay17 (View.readAt (Elt F) (Memref.whole cc0_scratch3 : Memref sig .tc .vmem S8x512x256 .bf16).view (Rect.unit (s := S8x512x256) ![5, 0, 0] S1x512x256.size inb_S8x512x256_S1x512x256_5_0_0).toLoadRect (recvV m c))) Finset.univ)
    (k0_pay18 (View.readAt (Elt F) (Memref.whole cc0_scratch3 : Memref sig .tc .vmem S8x512x256 .bf16).view (Rect.unit (s := S8x512x256) ![6, 0, 0] S1x512x256.size inb_S8x512x256_S1x512x256_6_0_0).toLoadRect (recvV m c))) Finset.univ)
    (k0_pay20 (k0_pay19 (View.readAt (Elt F) (Memref.whole cc0_scratch3 : Memref sig .tc .vmem S8x512x256 .bf16).view (Rect.unit (s := S8x512x256) ![7, 0, 0] S1x512x256.size inb_S8x512x256_S1x512x256_7_0_0).toLoadRect (recvV m c)))) Finset.univ) : Buf (Elt F) (outM.view.loc (c : Thread nD τ))) = outV m c :=
  out_val m c fo

/-- The same with the stores listed, latest first: a list of stores is one store of its head over the stores of its tail. -/
theorem out_val_list (c : Dev nD) (fo : Buf (Elt F) (outM.view.loc (c : Thread nD τ))) :
    (outM.view.writes (Elt F) fo
      [⟨R7 c, (k0_pay20 (k0_pay19 (View.readAt (Elt F) (Memref.whole cc0_scratch3 : Memref sig .tc .vmem S8x512x256 .bf16).view (Rect.unit (s := S8x512x256) ![7, 0, 0] S1x512x256.size inb_S8x512x256_S1x512x256_7_0_0).toLoadRect (recvV m c))))⟩,
       ⟨R6 c, (k0_pay18 (View.readAt (Elt F) (Memref.whole cc0_scratch3 : Memref sig .tc .vmem S8x512x256 .bf16).view (Rect.unit (s := S8x512x256) ![6, 0, 0] S1x512x256.size inb_S8x512x256_S1x512x256_6_0_0).toLoadRect (recvV m c)))⟩,
       ⟨R5 c, (k0_pay17 (View.readAt (Elt F) (Memref.whole cc0_scratch3 : Memref sig .tc .vmem S8x512x256 .bf16).view (Rect.unit (s := S8x512x256) ![5, 0, 0] S1x512x256.size inb_S8x512x256_S1x512x256_5_0_0).toLoadRect (recvV m c)))⟩,
       ⟨R4 c, (k0_pay16 (View.readAt (Elt F) (Memref.whole cc0_scratch3 : Memref sig .tc .vmem S8x512x256 .bf16).view (Rect.unit (s := S8x512x256) ![4, 0, 0] S1x512x256.size inb_S8x512x256_S1x512x256_4_0_0).toLoadRect (recvV m c)))⟩,
       ⟨R3 c, (k0_pay15 (View.readAt (Elt F) (Memref.whole cc0_scratch3 : Memref sig .tc .vmem S8x512x256 .bf16).view (Rect.unit (s := S8x512x256) ![3, 0, 0] S1x512x256.size inb_S8x512x256_S1x512x256_3_0_0).toLoadRect (recvV m c)))⟩,
       ⟨R2 c, (k0_pay14 (View.readAt (Elt F) (Memref.whole cc0_scratch3 : Memref sig .tc .vmem S8x512x256 .bf16).view (Rect.unit (s := S8x512x256) ![2, 0, 0] S1x512x256.size inb_S8x512x256_S1x512x256_2_0_0).toLoadRect (recvV m c)))⟩,
       ⟨R1 c, (k0_pay13 (View.readAt (Elt F) (Memref.whole cc0_scratch3 : Memref sig .tc .vmem S8x512x256 .bf16).view (Rect.unit (s := S8x512x256) ![1, 0, 0] S1x512x256.size inb_S8x512x256_S1x512x256_1_0_0).toLoadRect (recvV m c)))⟩,
       ⟨R0 c, keptTile m c⟩] : Buf (Elt F) (outM.view.loc (c : Thread nD τ))) = outV m c :=
  out_val m c fo

/-- info: 'Cert.Kernel.A2A.out_val_list' depends on axioms: [propext, Classical.choice, Quot.sound] -/
#guard_msgs in #print axioms out_val_list

/-- info: 'Cert.Kernel.A2A.out_val_writes' depends on axioms: [propext, Classical.choice, Quot.sound] -/
#guard_msgs in #print axioms out_val_writes

end Cert.Kernel.A2A

end
-- ==== Proof.CloseB.lean ====
/-
  Closing a device's own cells. Each send or receive cell of a nonzero slot has one round; once its owner has consumed
  that round nothing can land on the cell any more, so the owner may close it and take its counter back, at zero.
-/
import proofs.«900796_g7700000000000797_dist_gemm_a2a_m4096_k4096_n2048_f32_gelu_v7x_i8_1_alg».proof.Proof.SchedTabB
import proofs.«900796_g7700000000000797_dist_gemm_a2a_m4096_k4096_n2048_f32_gelu_v7x_i8_1_alg».proof.Proof.DataB

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A cell whose owner stands at a round from which no round has a duty, having taken nothing of it, closes: its counter
    is the owner's again, at zero. In this schedule every round from the first on is such a round. -/
theorem close_cell (κ : ℕ) (g : GSem nD τ sig) (R : ℕ) (hR : 1 ≤ R) :
    iprop(cellInv ER (sched m) κ g ∗ atPos ER g R ∅ 0) ⊢ |={Set.univ}=> (semVal g 0 : sProp 𝕄) :=
  Rounds.cell_close ER (sched m) (Set.mem_univ κ) (fun h => h) (R := R) (fun r hr => duties_later m g r (le_trans hR hr))

/-! ## The fourteen own cells, after their one round -/

theorem close_send_1 (κ : ℕ) (c : Dev nD) :
    iprop(cellInv ER (sched m) κ (sendCell c 1) ∗ atPos ER (sendCell c 1) 1 ∅ 0) ⊢ |={Set.univ}=> (semVal (sendCell c 1) 0 : sProp 𝕄) :=
  close_cell m κ (sendCell c 1) 1 le_rfl
theorem close_recv_1 (κ : ℕ) (c : Dev nD) :
    iprop(cellInv ER (sched m) κ (recvCell c 1) ∗ atPos ER (recvCell c 1) 1 ∅ 0) ⊢ |={Set.univ}=> (semVal (recvCell c 1) 0 : sProp 𝕄) :=
  close_cell m κ (recvCell c 1) 1 le_rfl

theorem close_send_2 (κ : ℕ) (c : Dev nD) :
    iprop(cellInv ER (sched m) κ (sendCell c 2) ∗ atPos ER (sendCell c 2) 1 ∅ 0) ⊢ |={Set.univ}=> (semVal (sendCell c 2) 0 : sProp 𝕄) :=
  close_cell m κ (sendCell c 2) 1 le_rfl
theorem close_recv_2 (κ : ℕ) (c : Dev nD) :
    iprop(cellInv ER (sched m) κ (recvCell c 2) ∗ atPos ER (recvCell c 2) 1 ∅ 0) ⊢ |={Set.univ}=> (semVal (recvCell c 2) 0 : sProp 𝕄) :=
  close_cell m κ (recvCell c 2) 1 le_rfl

theorem close_send_3 (κ : ℕ) (c : Dev nD) :
    iprop(cellInv ER (sched m) κ (sendCell c 3) ∗ atPos ER (sendCell c 3) 1 ∅ 0) ⊢ |={Set.univ}=> (semVal (sendCell c 3) 0 : sProp 𝕄) :=
  close_cell m κ (sendCell c 3) 1 le_rfl
theorem close_recv_3 (κ : ℕ) (c : Dev nD) :
    iprop(cellInv ER (sched m) κ (recvCell c 3) ∗ atPos ER (recvCell c 3) 1 ∅ 0) ⊢ |={Set.univ}=> (semVal (recvCell c 3) 0 : sProp 𝕄) :=
  close_cell m κ (recvCell c 3) 1 le_rfl

theorem close_send_4 (κ : ℕ) (c : Dev nD) :
    iprop(cellInv ER (sched m) κ (sendCell c 4) ∗ atPos ER (sendCell c 4) 1 ∅ 0) ⊢ |={Set.univ}=> (semVal (sendCell c 4) 0 : sProp 𝕄) :=
  close_cell m κ (sendCell c 4) 1 le_rfl
theorem close_recv_4 (κ : ℕ) (c : Dev nD) :
    iprop(cellInv ER (sched m) κ (recvCell c 4) ∗ atPos ER (recvCell c 4) 1 ∅ 0) ⊢ |={Set.univ}=> (semVal (recvCell c 4) 0 : sProp 𝕄) :=
  close_cell m κ (recvCell c 4) 1 le_rfl

theorem close_send_5 (κ : ℕ) (c : Dev nD) :
    iprop(cellInv ER (sched m) κ (sendCell c 5) ∗ atPos ER (sendCell c 5) 1 ∅ 0) ⊢ |={Set.univ}=> (semVal (sendCell c 5) 0 : sProp 𝕄) :=
  close_cell m κ (sendCell c 5) 1 le_rfl
theorem close_recv_5 (κ : ℕ) (c : Dev nD) :
    iprop(cellInv ER (sched m) κ (recvCell c 5) ∗ atPos ER (recvCell c 5) 1 ∅ 0) ⊢ |={Set.univ}=> (semVal (recvCell c 5) 0 : sProp 𝕄) :=
  close_cell m κ (recvCell c 5) 1 le_rfl

theorem close_send_6 (κ : ℕ) (c : Dev nD) :
    iprop(cellInv ER (sched m) κ (sendCell c 6) ∗ atPos ER (sendCell c 6) 1 ∅ 0) ⊢ |={Set.univ}=> (semVal (sendCell c 6) 0 : sProp 𝕄) :=
  close_cell m κ (sendCell c 6) 1 le_rfl
theorem close_recv_6 (κ : ℕ) (c : Dev nD) :
    iprop(cellInv ER (sched m) κ (recvCell c 6) ∗ atPos ER (recvCell c 6) 1 ∅ 0) ⊢ |={Set.univ}=> (semVal (recvCell c 6) 0 : sProp 𝕄) :=
  close_cell m κ (recvCell c 6) 1 le_rfl

theorem close_send_7 (κ : ℕ) (c : Dev nD) :
    iprop(cellInv ER (sched m) κ (sendCell c 7) ∗ atPos ER (sendCell c 7) 1 ∅ 0) ⊢ |={Set.univ}=> (semVal (sendCell c 7) 0 : sProp 𝕄) :=
  close_cell m κ (sendCell c 7) 1 le_rfl
theorem close_recv_7 (κ : ℕ) (c : Dev nD) :
    iprop(cellInv ER (sched m) κ (recvCell c 7) ∗ atPos ER (recvCell c 7) 1 ∅ 0) ⊢ |={Set.univ}=> (semVal (recvCell c 7) 0 : sProp 𝕄) :=
  close_cell m κ (recvCell c 7) 1 le_rfl

/-! ## The same, with the round spelt as the successor of round 0 -/

theorem close_send_1' (κ : ℕ) (c : Dev nD) :
    iprop(cellInv ER (sched m) κ (sendCell c 1) ∗ atPos ER (sendCell c 1) (0 + 1) ∅ 0) ⊢ |={Set.univ}=> (semVal (sendCell c 1) 0 : sProp 𝕄) :=
  close_cell m κ (sendCell c 1) (0 + 1) le_rfl
theorem close_recv_1' (κ : ℕ) (c : Dev nD) :
    iprop(cellInv ER (sched m) κ (recvCell c 1) ∗ atPos ER (recvCell c 1) (0 + 1) ∅ 0) ⊢ |={Set.univ}=> (semVal (recvCell c 1) 0 : sProp 𝕄) :=
  close_cell m κ (recvCell c 1) (0 + 1) le_rfl

theorem close_send_2' (κ : ℕ) (c : Dev nD) :
    iprop(cellInv ER (sched m) κ (sendCell c 2) ∗ atPos ER (sendCell c 2) (0 + 1) ∅ 0) ⊢ |={Set.univ}=> (semVal (sendCell c 2) 0 : sProp 𝕄) :=
  close_cell m κ (sendCell c 2) (0 + 1) le_rfl
theorem close_recv_2' (κ : ℕ) (c : Dev nD) :
    iprop(cellInv ER (sched m) κ (recvCell c 2) ∗ atPos ER (recvCell c 2) (0 + 1) ∅ 0) ⊢ |={Set.univ}=> (semVal (recvCell c 2) 0 : sProp 𝕄) :=
  close_cell m κ (recvCell c 2) (0 + 1) le_rfl

theorem close_send_3' (κ : ℕ) (c : Dev nD) :
    iprop(cellInv ER (sched m) κ (sendCell c 3) ∗ atPos ER (sendCell c 3) (0 + 1) ∅ 0) ⊢ |={Set.univ}=> (semVal (sendCell c 3) 0 : sProp 𝕄) :=
  close_cell m κ (sendCell c 3) (0 + 1) le_rfl
theorem close_recv_3' (κ : ℕ) (c : Dev nD) :
    iprop(cellInv ER (sched m) κ (recvCell c 3) ∗ atPos ER (recvCell c 3) (0 + 1) ∅ 0) ⊢ |={Set.univ}=> (semVal (recvCell c 3) 0 : sProp 𝕄) :=
  close_cell m κ (recvCell c 3) (0 + 1) le_rfl

theorem close_send_4' (κ : ℕ) (c : Dev nD) :
    iprop(cellInv ER (sched m) κ (sendCell c 4) ∗ atPos ER (sendCell c 4) (0 + 1) ∅ 0) ⊢ |={Set.univ}=> (semVal (sendCell c 4) 0 : sProp 𝕄) :=
  close_cell m κ (sendCell c 4) (0 + 1) le_rfl
theorem close_recv_4' (κ : ℕ) (c : Dev nD) :
    iprop(cellInv ER (sched m) κ (recvCell c 4) ∗ atPos ER (recvCell c 4) (0 + 1) ∅ 0) ⊢ |={Set.univ}=> (semVal (recvCell c 4) 0 : sProp 𝕄) :=
  close_cell m κ (recvCell c 4) (0 + 1) le_rfl

theorem close_send_5' (κ : ℕ) (c : Dev nD) :
    iprop(cellInv ER (sched m) κ (sendCell c 5) ∗ atPos ER (sendCell c 5) (0 + 1) ∅ 0) ⊢ |={Set.univ}=> (semVal (sendCell c 5) 0 : sProp 𝕄) :=
  close_cell m κ (sendCell c 5) (0 + 1) le_rfl
theorem close_recv_5' (κ : ℕ) (c : Dev nD) :
    iprop(cellInv ER (sched m) κ (recvCell c 5) ∗ atPos ER (recvCell c 5) (0 + 1) ∅ 0) ⊢ |={Set.univ}=> (semVal (recvCell c 5) 0 : sProp 𝕄) :=
  close_cell m κ (recvCell c 5) (0 + 1) le_rfl

theorem close_send_6' (κ : ℕ) (c : Dev nD) :
    iprop(cellInv ER (sched m) κ (sendCell c 6) ∗ atPos ER (sendCell c 6) (0 + 1) ∅ 0) ⊢ |={Set.univ}=> (semVal (sendCell c 6) 0 : sProp 𝕄) :=
  close_cell m κ (sendCell c 6) (0 + 1) le_rfl
theorem close_recv_6' (κ : ℕ) (c : Dev nD) :
    iprop(cellInv ER (sched m) κ (recvCell c 6) ∗ atPos ER (recvCell c 6) (0 + 1) ∅ 0) ⊢ |={Set.univ}=> (semVal (recvCell c 6) 0 : sProp 𝕄) :=
  close_cell m κ (recvCell c 6) (0 + 1) le_rfl

theorem close_send_7' (κ : ℕ) (c : Dev nD) :
    iprop(cellInv ER (sched m) κ (sendCell c 7) ∗ atPos ER (sendCell c 7) (0 + 1) ∅ 0) ⊢ |={Set.univ}=> (semVal (sendCell c 7) 0 : sProp 𝕄) :=
  close_cell m κ (sendCell c 7) (0 + 1) le_rfl
theorem close_recv_7' (κ : ℕ) (c : Dev nD) :
    iprop(cellInv ER (sched m) κ (recvCell c 7) ∗ atPos ER (recvCell c 7) (0 + 1) ∅ 0) ⊢ |={Set.univ}=> (semVal (recvCell c 7) 0 : sProp 𝕄) :=
  close_cell m κ (recvCell c 7) (0 + 1) le_rfl

end Cert.Kernel.A2A

end
-- ==== Proof.BodyCloseB.lean ====
/-
  The end of the body. After its last wait a device holds its x buffer whole, each slot of the weight buffer joined, the
  slots of the send and receive buffers, its own fourteen cells each past its one round, and the output block holding
  its result. Each cell past its round closes and gives back its counter at zero; the buffers are cut back into the
  pieces the body's end names, each at whatever it holds. Nothing about what is computed is used.
-/
import proofs.«900796_g7700000000000797_dist_gemm_a2a_m4096_k4096_n2048_f32_gelu_v7x_i8_1_alg».proof.Proof.BodyIfaceB
import proofs.«900796_g7700000000000797_dist_gemm_a2a_m4096_k4096_n2048_f32_gelu_v7x_i8_1_alg».proof.Proof.PiecesB
import proofs.«900796_g7700000000000797_dist_gemm_a2a_m4096_k4096_n2048_f32_gelu_v7x_i8_1_alg».proof.Proof.SchedTabB
import proofs.«900796_g7700000000000797_dist_gemm_a2a_m4096_k4096_n2048_f32_gelu_v7x_i8_1_alg».proof.Proof.CloseB

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A joined weight slot cut back into its two halves -/

/-- A slot's region is the disjoint union of its upper and lower half of the rows; the assertion over the slot splits
    along it, each half keeping the slot's contents. -/
theorem wslot_halves (c : Dev nD) (s : Fin 8) (g : Buf (Elt F) (wbM.view.loc (c : Thread nD τ))) :
    ((wbM.view.loc (c : Thread nD τ) ↦[(wSR s).set]{fullShare} g) : sProp 𝕄) ⊢
      iprop((wbM.view.loc (c : Thread nD τ) ↦[(wHR s 0).set]{fullShare} g) ∗
            (wbM.view.loc (c : Thread nD τ) ↦[(wHR s 1).set]{fullShare} g)) := by
  rw [wSR_halves s]
  exact BiEntails.mp (Region.is_union (wHR_disj s s 0 1 (Or.inr (by decide))))

/-- The same, each half at some contents. -/
theorem wslot_halves_any (c : Dev nD) (s : Fin 8) (g : Buf (Elt F) (wbM.view.loc (c : Thread nD τ))) :
    ((wbM.view.loc (c : Thread nD τ) ↦[(wSR s).set]{fullShare} g) : sProp 𝕄) ⊢
      iprop((∃ f, wbM.view.loc (c : Thread nD τ) ↦[(wHR s 0).set]{fullShare} f) ∗
            (∃ f, wbM.view.loc (c : Thread nD τ) ↦[(wHR s 1).set]{fullShare} f)) := by
  iintro H
  ihave H := (wslot_halves c s g) $$ H
  icases H with ⟨H0, H1⟩
  isplitl [H0]; · (iexists g; iexact H0)
  iexists g; iexact H1

theorem wslot_cut_0 (c : Dev nD) (g : Buf (Elt F) (wbM.view.loc (c : Thread nD τ))) :
    ((wbM.view.loc (c : Thread nD τ) ↦[(wS 0).set]{fullShare} g) : sProp 𝕄) ⊢
      iprop((∃ f, (wH 0 0).view.loc (c : Thread nD τ) ↦[(wH 0 0).view.set]{fullShare} f) ∗ (∃ f, (wH 0 1).view.loc (c : Thread nD τ) ↦[(wH 0 1).view.set]{fullShare} f)) := by
  rw [wS_set_0, wH_set_0_0, wH_set_0_1]
  exact wslot_halves_any c 0 g
theorem wslot_cut_1 (c : Dev nD) (g : Buf (Elt F) (wbM.view.loc (c : Thread nD τ))) :
    ((wbM.view.loc (c : Thread nD τ) ↦[(wS 1).set]{fullShare} g) : sProp 𝕄) ⊢
      iprop((∃ f, (wH 1 0).view.loc (c : Thread nD τ) ↦[(wH 1 0).view.set]{fullShare} f) ∗ (∃ f, (wH 1 1).view.loc (c : Thread nD τ) ↦[(wH 1 1).view.set]{fullShare} f)) := by
  rw [wS_set_1, wH_set_1_0, wH_set_1_1]
  exact wslot_halves_any c 1 g
theorem wslot_cut_2 (c : Dev nD) (g : Buf (Elt F) (wbM.view.loc (c : Thread nD τ))) :
    ((wbM.view.loc (c : Thread nD τ) ↦[(wS 2).set]{fullShare} g) : sProp 𝕄) ⊢
      iprop((∃ f, (wH 2 0).view.loc (c : Thread nD τ) ↦[(wH 2 0).view.set]{fullShare} f) ∗ (∃ f, (wH 2 1).view.loc (c : Thread nD τ) ↦[(wH 2 1).view.set]{fullShare} f)) := by
  rw [wS_set_2, wH_set_2_0, wH_set_2_1]
  exact wslot_halves_any c 2 g
theorem wslot_cut_3 (c : Dev nD) (g : Buf (Elt F) (wbM.view.loc (c : Thread nD τ))) :
    ((wbM.view.loc (c : Thread nD τ) ↦[(wS 3).set]{fullShare} g) : sProp 𝕄) ⊢
      iprop((∃ f, (wH 3 0).view.loc (c : Thread nD τ) ↦[(wH 3 0).view.set]{fullShare} f) ∗ (∃ f, (wH 3 1).view.loc (c : Thread nD τ) ↦[(wH 3 1).view.set]{fullShare} f)) := by
  rw [wS_set_3, wH_set_3_0, wH_set_3_1]
  exact wslot_halves_any c 3 g
theorem wslot_cut_4 (c : Dev nD) (g : Buf (Elt F) (wbM.view.loc (c : Thread nD τ))) :
    ((wbM.view.loc (c : Thread nD τ) ↦[(wS 4).set]{fullShare} g) : sProp 𝕄) ⊢
      iprop((∃ f, (wH 4 0).view.loc (c : Thread nD τ) ↦[(wH 4 0).view.set]{fullShare} f) ∗ (∃ f, (wH 4 1).view.loc (c : Thread nD τ) ↦[(wH 4 1).view.set]{fullShare} f)) := by
  rw [wS_set_4, wH_set_4_0, wH_set_4_1]
  exact wslot_halves_any c 4 g
theorem wslot_cut_5 (c : Dev nD) (g : Buf (Elt F) (wbM.view.loc (c : Thread nD τ))) :
    ((wbM.view.loc (c : Thread nD τ) ↦[(wS 5).set]{fullShare} g) : sProp 𝕄) ⊢
      iprop((∃ f, (wH 5 0).view.loc (c : Thread nD τ) ↦[(wH 5 0).view.set]{fullShare} f) ∗ (∃ f, (wH 5 1).view.loc (c : Thread nD τ) ↦[(wH 5 1).view.set]{fullShare} f)) := by
  rw [wS_set_5, wH_set_5_0, wH_set_5_1]
  exact wslot_halves_any c 5 g
theorem wslot_cut_6 (c : Dev nD) (g : Buf (Elt F) (wbM.view.loc (c : Thread nD τ))) :
    ((wbM.view.loc (c : Thread nD τ) ↦[(wS 6).set]{fullShare} g) : sProp 𝕄) ⊢
      iprop((∃ f, (wH 6 0).view.loc (c : Thread nD τ) ↦[(wH 6 0).view.set]{fullShare} f) ∗ (∃ f, (wH 6 1).view.loc (c : Thread nD τ) ↦[(wH 6 1).view.set]{fullShare} f)) := by
  rw [wS_set_6, wH_set_6_0, wH_set_6_1]
  exact wslot_halves_any c 6 g
theorem wslot_cut_7 (c : Dev nD) (g : Buf (Elt F) (wbM.view.loc (c : Thread nD τ))) :
    ((wbM.view.loc (c : Thread nD τ) ↦[(wS 7).set]{fullShare} g) : sProp 𝕄) ⊢
      iprop((∃ f, (wH 7 0).view.loc (c : Thread nD τ) ↦[(wH 7 0).view.set]{fullShare} f) ∗ (∃ f, (wH 7 1).view.loc (c : Thread nD τ) ↦[(wH 7 1).view.set]{fullShare} f)) := by
  rw [wS_set_7, wH_set_7_0, wH_set_7_1]
  exact wslot_halves_any c 7 g

/-! ## The end of the body -/

theorem body_close (K : GSem nD τ sig → ℕ) (c : Dev nD) (X' : Buf (Elt F) (xbM.view.loc (c : Thread nD τ)))
    (wL : Buf (Elt F) (wbM.view.loc (c : Thread nD τ))) (fo' : Buf (Elt F) (outM.view.loc (c : Thread nD τ)))
    (hfo : fo' = outV m c) :
    (iprop(argPts m c
      ∗ (xbM.view.loc (c : Thread nD τ) ↦[xbM.view.set]{fullShare} X')
      ∗ ((wbM.view.loc (c : Thread nD τ) ↦[(wS 0).set]{fullShare} wL)
        ∗ (wbM.view.loc (c : Thread nD τ) ↦[(wS 1).set]{fullShare} wL)
        ∗ (wbM.view.loc (c : Thread nD τ) ↦[(wS 2).set]{fullShare} wL)
        ∗ (wbM.view.loc (c : Thread nD τ) ↦[(wS 3).set]{fullShare} wL)
        ∗ (wbM.view.loc (c : Thread nD τ) ↦[(wS 4).set]{fullShare} wL)
        ∗ (wbM.view.loc (c : Thread nD τ) ↦[(wS 5).set]{fullShare} wL)
        ∗ (wbM.view.loc (c : Thread nD τ) ↦[(wS 6).set]{fullShare} wL)
        ∗ (wbM.view.loc (c : Thread nD τ) ↦[(wS 7).set]{fullShare} wL))
      ∗ ((∃ f, (sM 0).view.loc (c : Thread nD τ) ↦[(sM 0).view.set]{fullShare} f)
        ∗ (∃ f, (sM 1).view.loc (c : Thread nD τ) ↦[(sM 1).view.set]{fullShare} f)
        ∗ (∃ f, (sM 2).view.loc (c : Thread nD τ) ↦[(sM 2).view.set]{fullShare} f)
        ∗ (∃ f, (sM 3).view.loc (c : Thread nD τ) ↦[(sM 3).view.set]{fullShare} f)
        ∗ (∃ f, (sM 4).view.loc (c : Thread nD τ) ↦[(sM 4).view.set]{fullShare} f)
        ∗ (∃ f, (sM 5).view.loc (c : Thread nD τ) ↦[(sM 5).view.set]{fullShare} f)
        ∗ (∃ f, (sM 6).view.loc (c : Thread nD τ) ↦[(sM 6).view.set]{fullShare} f)
        ∗ (∃ f, (sM 7).view.loc (c : Thread nD τ) ↦[(sM 7).view.set]{fullShare} f))
      ∗ ((∃ f, (rM 0).view.loc (c : Thread nD τ) ↦[(rM 0).view.set]{fullShare} f)
        ∗ (∃ f, (rM 1).view.loc (c : Thread nD τ) ↦[(rM 1).view.set]{fullShare} f)
        ∗ (∃ f, (rM 2).view.loc (c : Thread nD τ) ↦[(rM 2).view.set]{fullShare} f)
        ∗ (∃ f, (rM 3).view.loc (c : Thread nD τ) ↦[(rM 3).view.set]{fullShare} f)
        ∗ (∃ f, (rM 4).view.loc (c : Thread nD τ) ↦[(rM 4).view.set]{fullShare} f)
        ∗ (∃ f, (rM 5).view.loc (c : Thread nD τ) ↦[(rM 5).view.set]{fullShare} f)
        ∗ (∃ f, (rM 6).view.loc (c : Thread nD τ) ↦[(rM 6).view.set]{fullShare} f)
        ∗ (∃ f, (rM 7).view.loc (c : Thread nD τ) ↦[(rM 7).view.set]{fullShare} f))
      ∗ plainSems c
      ∗ ((cellInv ER (sched m) (K (sendCell c 1)) (sendCell c 1) ∗ atPos ER (sendCell c 1) 1 ∅ 0 ∗ cellInv ER (sched m) (K (recvCell c 1)) (recvCell c 1) ∗ atPos ER (recvCell c 1) 1 ∅ 0)
        ∗ (cellInv ER (sched m) (K (sendCell c 2)) (sendCell c 2) ∗ atPos ER (sendCell c 2) 1 ∅ 0 ∗ cellInv ER (sched m) (K (recvCell c 2)) (recvCell c 2) ∗ atPos ER (recvCell c 2) 1 ∅ 0)
        ∗ (cellInv ER (sched m) (K (sendCell c 3)) (sendCell c 3) ∗ atPos ER (sendCell c 3) 1 ∅ 0 ∗ cellInv ER (sched m) (K (recvCell c 3)) (recvCell c 3) ∗ atPos ER (recvCell c 3) 1 ∅ 0)
        ∗ (cellInv ER (sched m) (K (sendCell c 4)) (sendCell c 4) ∗ atPos ER (sendCell c 4) 1 ∅ 0 ∗ cellInv ER (sched m) (K (recvCell c 4)) (recvCell c 4) ∗ atPos ER (recvCell c 4) 1 ∅ 0)
        ∗ (cellInv ER (sched m) (K (sendCell c 5)) (sendCell c 5) ∗ atPos ER (sendCell c 5) 1 ∅ 0 ∗ cellInv ER (sched m) (K (recvCell c 5)) (recvCell c 5) ∗ atPos ER (recvCell c 5) 1 ∅ 0)
        ∗ (cellInv ER (sched m) (K (sendCell c 6)) (sendCell c 6) ∗ atPos ER (sendCell c 6) 1 ∅ 0 ∗ cellInv ER (sched m) (K (recvCell c 6)) (recvCell c 6) ∗ atPos ER (recvCell c 6) 1 ∅ 0)
        ∗ (cellInv ER (sched m) (K (sendCell c 7)) (sendCell c 7) ∗ atPos ER (sendCell c 7) 1 ∅ 0 ∗ cellInv ER (sched m) (K (recvCell c 7)) (recvCell c 7) ∗ atPos ER (recvCell c 7) 1 ∅ 0))
      ∗ (outM.view.loc (c : Thread nD τ) ↦[outM.view.set]{fullShare} fo')
      ∗ (∃ W, owes (c : Thread nD τ) 0 W)) : sProp 𝕄)
    ⊢ |={Set.univ}=> bodyEnd m c := by
  subst hfo
  iintro ⟨Harg, Hx, ⟨Hw0, Hw1, Hw2, Hw3, Hw4, Hw5, Hw6, Hw7⟩, ⟨Hsb0, Hsb1, Hsb2, Hsb3, Hsb4, Hsb5, Hsb6, Hsb7⟩, ⟨Hrb0, Hrb1, Hrb2, Hrb3, Hrb4, Hrb5, Hrb6, Hrb7⟩, Hps, ⟨⟨HIs1, HatS1, HIr1, HatR1⟩, ⟨HIs2, HatS2, HIr2, HatR2⟩, ⟨HIs3, HatS3, HIr3, HatR3⟩, ⟨HIs4, HatS4, HIr4, HatR4⟩, ⟨HIs5, HatS5, HIr5, HatR5⟩, ⟨HIs6, HatS6, HIr6, HatR6⟩, ⟨HIs7, HatS7, HIr7, HatR7⟩⟩, Hout, HO⟩
  -- the fourteen own cells close
  imod (close_send_1 m (K (sendCell c 1)) c) $$ [HIs1 HatS1] with HzS1
  · isplitl [HIs1]; · iexact HIs1
    iexact HatS1
  imod (close_recv_1 m (K (recvCell c 1)) c) $$ [HIr1 HatR1] with HzR1
  · isplitl [HIr1]; · iexact HIr1
    iexact HatR1
  imod (close_send_2 m (K (sendCell c 2)) c) $$ [HIs2 HatS2] with HzS2
  · isplitl [HIs2]; · iexact HIs2
    iexact HatS2
  imod (close_recv_2 m (K (recvCell c 2)) c) $$ [HIr2 HatR2] with HzR2
  · isplitl [HIr2]; · iexact HIr2
    iexact HatR2
  imod (close_send_3 m (K (sendCell c 3)) c) $$ [HIs3 HatS3] with HzS3
  · isplitl [HIs3]; · iexact HIs3
    iexact HatS3
  imod (close_recv_3 m (K (recvCell c 3)) c) $$ [HIr3 HatR3] with HzR3
  · isplitl [HIr3]; · iexact HIr3
    iexact HatR3
  imod (close_send_4 m (K (sendCell c 4)) c) $$ [HIs4 HatS4] with HzS4
  · isplitl [HIs4]; · iexact HIs4
    iexact HatS4
  imod (close_recv_4 m (K (recvCell c 4)) c) $$ [HIr4 HatR4] with HzR4
  · isplitl [HIr4]; · iexact HIr4
    iexact HatR4
  imod (close_send_5 m (K (sendCell c 5)) c) $$ [HIs5 HatS5] with HzS5
  · isplitl [HIs5]; · iexact HIs5
    iexact HatS5
  imod (close_recv_5 m (K (recvCell c 5)) c) $$ [HIr5 HatR5] with HzR5
  · isplitl [HIr5]; · iexact HIr5
    iexact HatR5
  imod (close_send_6 m (K (sendCell c 6)) c) $$ [HIs6 HatS6] with HzS6
  · isplitl [HIs6]; · iexact HIs6
    iexact HatS6
  imod (close_recv_6 m (K (recvCell c 6)) c) $$ [HIr6 HatR6] with HzR6
  · isplitl [HIr6]; · iexact HIr6
    iexact HatR6
  imod (close_send_7 m (K (sendCell c 7)) c) $$ [HIs7 HatS7] with HzS7
  · isplitl [HIs7]; · iexact HIs7
    iexact HatS7
  imod (close_recv_7 m (K (recvCell c 7)) c) $$ [HIr7 HatR7] with HzR7
  · isplitl [HIr7]; · iexact HIr7
    iexact HatR7
  imodintro
  unfold bodyEnd piecesAny allSems0
  isplitl [Harg]; · iexact Harg
  isplitl [Hx Hw0 Hw1 Hw2 Hw3 Hw4 Hw5 Hw6 Hw7 Hsb0 Hsb1 Hsb2 Hsb3 Hsb4 Hsb5 Hsb6 Hsb7 Hrb0 Hrb1 Hrb2 Hrb3 Hrb4 Hrb5 Hrb6 Hrb7]
  · -- the buffers, cut into the pieces
    ihave Hx := (x_cut c X') $$ Hx
    icases Hx with ⟨Hx0, Hx1, Hx2, Hx3⟩
    ihave Hw0 := (wslot_cut_0 c wL) $$ Hw0
    icases Hw0 with ⟨Hw0_0, Hw0_1⟩
    ihave Hw1 := (wslot_cut_1 c wL) $$ Hw1
    icases Hw1 with ⟨Hw1_0, Hw1_1⟩
    ihave Hw2 := (wslot_cut_2 c wL) $$ Hw2
    icases Hw2 with ⟨Hw2_0, Hw2_1⟩
    ihave Hw3 := (wslot_cut_3 c wL) $$ Hw3
    icases Hw3 with ⟨Hw3_0, Hw3_1⟩
    ihave Hw4 := (wslot_cut_4 c wL) $$ Hw4
    icases Hw4 with ⟨Hw4_0, Hw4_1⟩
    ihave Hw5 := (wslot_cut_5 c wL) $$ Hw5
    icases Hw5 with ⟨Hw5_0, Hw5_1⟩
    ihave Hw6 := (wslot_cut_6 c wL) $$ Hw6
    icases Hw6 with ⟨Hw6_0, Hw6_1⟩
    ihave Hw7 := (wslot_cut_7 c wL) $$ Hw7
    icases Hw7 with ⟨Hw7_0, Hw7_1⟩
    isplitl [Hx0]; · (iexists X'; iexact Hx0)
    isplitl [Hx1]; · (iexists X'; iexact Hx1)
    isplitl [Hx2]; · (iexists X'; iexact Hx2)
    isplitl [Hx3]; · (iexists X'; iexact Hx3)
    isplitl [Hw0_0]; · iexact Hw0_0
    isplitl [Hw0_1]; · iexact Hw0_1
    isplitl [Hw1_0]; · iexact Hw1_0
    isplitl [Hw1_1]; · iexact Hw1_1
    isplitl [Hw2_0]; · iexact Hw2_0
    isplitl [Hw2_1]; · iexact Hw2_1
    isplitl [Hw3_0]; · iexact Hw3_0
    isplitl [Hw3_1]; · iexact Hw3_1
    isplitl [Hw4_0]; · iexact Hw4_0
    isplitl [Hw4_1]; · iexact Hw4_1
    isplitl [Hw5_0]; · iexact Hw5_0
    isplitl [Hw5_1]; · iexact Hw5_1
    isplitl [Hw6_0]; · iexact Hw6_0
    isplitl [Hw6_1]; · iexact Hw6_1
    isplitl [Hw7_0]; · iexact Hw7_0
    isplitl [Hw7_1]; · iexact Hw7_1
    isplitl [Hsb0]; · iexact Hsb0
    isplitl [Hsb1]; · iexact Hsb1
    isplitl [Hsb2]; · iexact Hsb2
    isplitl [Hsb3]; · iexact Hsb3
    isplitl [Hsb4]; · iexact Hsb4
    isplitl [Hsb5]; · iexact Hsb5
    isplitl [Hsb6]; · iexact Hsb6
    isplitl [Hsb7]; · iexact Hsb7
    isplitl [Hrb0]; · iexact Hrb0
    isplitl [Hrb1]; · iexact Hrb1
    isplitl [Hrb2]; · iexact Hrb2
    isplitl [Hrb3]; · iexact Hrb3
    isplitl [Hrb4]; · iexact Hrb4
    isplitl [Hrb5]; · iexact Hrb5
    isplitl [Hrb6]; · iexact Hrb6
    iexact Hrb7
  isplitl [Hps HzS1 HzR1 HzS2 HzR2 HzS3 HzR3 HzS4 HzR4 HzS5 HzR5 HzS6 HzR6 HzS7 HzR7]
  · -- every scoped semaphore at zero
    isplitl [Hps]; · iexact Hps
    isplitl [HzS1]; · iexact HzS1
    isplitl [HzR1]; · iexact HzR1
    isplitl [HzS2]; · iexact HzS2
    isplitl [HzR2]; · iexact HzR2
    isplitl [HzS3]; · iexact HzS3
    isplitl [HzR3]; · iexact HzR3
    isplitl [HzS4]; · iexact HzS4
    isplitl [HzR4]; · iexact HzR4
    isplitl [HzS5]; · iexact HzS5
    isplitl [HzR5]; · iexact HzR5
    isplitl [HzS6]; · iexact HzS6
    isplitl [HzR6]; · iexact HzR6
    isplitl [HzS7]; · iexact HzS7
    iexact HzR7
  isplitl [Hout]; · iexact Hout
  iexact HO

/-! ## The same from one flat chain, one conjunct per hypothesis -/

theorem body_close_flat (K : GSem nD τ sig → ℕ) (c : Dev nD) (X' : Buf (Elt F) (xbM.view.loc (c : Thread nD τ)))
    (wL : Buf (Elt F) (wbM.view.loc (c : Thread nD τ))) (fo' : Buf (Elt F) (outM.view.loc (c : Thread nD τ)))
    (hfo : fo' = outV m c) :
    (iprop(((xA).view.loc (c : Thread nD τ) ↦[(xA).view.set]{fullShare} xV m c)
      ∗ ((wA).view.loc (c : Thread nD τ) ↦[(wA).view.set]{fullShare} wV m c)
      ∗ (xbM.view.loc (c : Thread nD τ) ↦[xbM.view.set]{fullShare} X')
      ∗ (wbM.view.loc (c : Thread nD τ) ↦[(wS 0).set]{fullShare} wL)
      ∗ (wbM.view.loc (c : Thread nD τ) ↦[(wS 1).set]{fullShare} wL)
      ∗ (wbM.view.loc (c : Thread nD τ) ↦[(wS 2).set]{fullShare} wL)
      ∗ (wbM.view.loc (c : Thread nD τ) ↦[(wS 3).set]{fullShare} wL)
      ∗ (wbM.view.loc (c : Thread nD τ) ↦[(wS 4).set]{fullShare} wL)
      ∗ (wbM.view.loc (c : Thread nD τ) ↦[(wS 5).set]{fullShare} wL)
      ∗ (wbM.view.loc (c : Thread nD τ) ↦[(wS 6).set]{fullShare} wL)
      ∗ (wbM.view.loc (c : Thread nD τ) ↦[(wS 7).set]{fullShare} wL)
      ∗ (∃ f, (sM 0).view.loc (c : Thread nD τ) ↦[(sM 0).view.set]{fullShare} f)
      ∗ (∃ f, (sM 1).view.loc (c : Thread nD τ) ↦[(sM 1).view.set]{fullShare} f)
      ∗ (∃ f, (sM 2).view.loc (c : Thread nD τ) ↦[(sM 2).view.set]{fullShare} f)
      ∗ (∃ f, (sM 3).view.loc (c : Thread nD τ) ↦[(sM 3).view.set]{fullShare} f)
      ∗ (∃ f, (sM 4).view.loc (c : Thread nD τ) ↦[(sM 4).view.set]{fullShare} f)
      ∗ (∃ f, (sM 5).view.loc (c : Thread nD τ) ↦[(sM 5).view.set]{fullShare} f)
      ∗ (∃ f, (sM 6).view.loc (c : Thread nD τ) ↦[(sM 6).view.set]{fullShare} f)
      ∗ (∃ f, (sM 7).view.loc (c : Thread nD τ) ↦[(sM 7).view.set]{fullShare} f)
      ∗ (∃ f, (rM 0).view.loc (c : Thread nD τ) ↦[(rM 0).view.set]{fullShare} f)
      ∗ (∃ f, (rM 1).view.loc (c : Thread nD τ) ↦[(rM 1).view.set]{fullShare} f)
      ∗ (∃ f, (rM 2).view.loc (c : Thread nD τ) ↦[(rM 2).view.set]{fullShare} f)
      ∗ (∃ f, (rM 3).view.loc (c : Thread nD τ) ↦[(rM 3).view.set]{fullShare} f)
      ∗ (∃ f, (rM 4).view.loc (c : Thread nD τ) ↦[(rM 4).view.set]{fullShare} f)
      ∗ (∃ f, (rM 5).view.loc (c : Thread nD τ) ↦[(rM 5).view.set]{fullShare} f)
      ∗ (∃ f, (rM 6).view.loc (c : Thread nD τ) ↦[(rM 6).view.set]{fullShare} f)
      ∗ (∃ f, (rM 7).view.loc (c : Thread nD τ) ↦[(rM 7).view.set]{fullShare} f)
      ∗ semVal ((c : Thread nD τ), SemLoc.dma (1 : DmaSem sig)) 0
      ∗ semVal ((c : Thread nD τ), SemLoc.dma (2 : DmaSem sig)) 0
      ∗ semVal ((c : Thread nD τ), SemLoc.dma (3 : DmaSem sig)) 0
      ∗ semVal ((c : Thread nD τ), SemLoc.dma (4 : DmaSem sig)) 0
      ∗ semVal ((c : Thread nD τ), SemLoc.dma (5 : DmaSem sig)) 0
      ∗ semVal ((c : Thread nD τ), SemLoc.dma (6 : DmaSem sig)) 0
      ∗ semVal ((c : Thread nD τ), SemLoc.dma (7 : DmaSem sig)) 0
      ∗ semVal ((c : Thread nD τ), SemLoc.dma (8 : DmaSem sig)) 0
      ∗ semVal ((c : Thread nD τ), SemLoc.dma (9 : DmaSem sig)) 0
      ∗ semVal ((c : Thread nD τ), SemLoc.dma (10 : DmaSem sig)) 0
      ∗ semVal ((c : Thread nD τ), SemLoc.dma (11 : DmaSem sig)) 0
      ∗ semVal ((c : Thread nD τ), SemLoc.dma (12 : DmaSem sig)) 0
      ∗ semVal ((c : Thread nD τ), SemLoc.dma (13 : DmaSem sig)) 0
      ∗ semVal ((c : Thread nD τ), SemLoc.dma (21 : DmaSem sig)) 0
      ∗ cellInv ER (sched m) (K (sendCell c 1)) (sendCell c 1)
      ∗ atPos ER (sendCell c 1) 1 ∅ 0
      ∗ cellInv ER (sched m) (K (recvCell c 1)) (recvCell c 1)
      ∗ atPos ER (recvCell c 1) 1 ∅ 0
      ∗ cellInv ER (sched m) (K (sendCell c 2)) (sendCell c 2)
      ∗ atPos ER (sendCell c 2) 1 ∅ 0
      ∗ cellInv ER (sched m) (K (recvCell c 2)) (recvCell c 2)
      ∗ atPos ER (recvCell c 2) 1 ∅ 0
      ∗ cellInv ER (sched m) (K (sendCell c 3)) (sendCell c 3)
      ∗ atPos ER (sendCell c 3) 1 ∅ 0
      ∗ cellInv ER (sched m) (K (recvCell c 3)) (recvCell c 3)
      ∗ atPos ER (recvCell c 3) 1 ∅ 0
      ∗ cellInv ER (sched m) (K (sendCell c 4)) (sendCell c 4)
      ∗ atPos ER (sendCell c 4) 1 ∅ 0
      ∗ cellInv ER (sched m) (K (recvCell c 4)) (recvCell c 4)
      ∗ atPos ER (recvCell c 4) 1 ∅ 0
      ∗ cellInv ER (sched m) (K (sendCell c 5)) (sendCell c 5)
      ∗ atPos ER (sendCell c 5) 1 ∅ 0
      ∗ cellInv ER (sched m) (K (recvCell c 5)) (recvCell c 5)
      ∗ atPos ER (recvCell c 5) 1 ∅ 0
      ∗ cellInv ER (sched m) (K (sendCell c 6)) (sendCell c 6)
      ∗ atPos ER (sendCell c 6) 1 ∅ 0
      ∗ cellInv ER (sched m) (K (recvCell c 6)) (recvCell c 6)
      ∗ atPos ER (recvCell c 6) 1 ∅ 0
      ∗ cellInv ER (sched m) (K (sendCell c 7)) (sendCell c 7)
      ∗ atPos ER (sendCell c 7) 1 ∅ 0
      ∗ cellInv ER (sched m) (K (recvCell c 7)) (recvCell c 7)
      ∗ atPos ER (recvCell c 7) 1 ∅ 0
      ∗ (outM.view.loc (c : Thread nD τ) ↦[outM.view.set]{fullShare} fo')
      ∗ (∃ W, owes (c : Thread nD τ) 0 W)) : sProp 𝕄)
    ⊢ |={Set.univ}=> bodyEnd m c := by
  iintro ⟨HX, HW, Hx, Hw0, Hw1, Hw2, Hw3, Hw4, Hw5, Hw6, Hw7, Hsb0, Hsb1, Hsb2, Hsb3, Hsb4, Hsb5, Hsb6, Hsb7, Hrb0, Hrb1, Hrb2, Hrb3, Hrb4, Hrb5, Hrb6, Hrb7, Hs1, Hs2, Hs3, Hs4, Hs5, Hs6, Hs7, Hs8, Hs9, Hs10, Hs11, Hs12, Hs13, Hs21, HIs1, HatS1, HIr1, HatR1, HIs2, HatS2, HIr2, HatR2, HIs3, HatS3, HIr3, HatR3, HIs4, HatS4, HIr4, HatR4, HIs5, HatS5, HIr5, HatR5, HIs6, HatS6, HIr6, HatR6, HIs7, HatS7, HIr7, HatR7, Hout, HO⟩
  iapply (body_close m K c X' wL fo' hfo)
  unfold argPts plainSems
  isplitl [HX HW]
  · isplitl [HX]; · iexact HX
    iexact HW
  isplitl [Hx]; · iexact Hx
  isplitl [Hw0 Hw1 Hw2 Hw3 Hw4 Hw5 Hw6 Hw7]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    iexact Hw7
  isplitl [Hsb0 Hsb1 Hsb2 Hsb3 Hsb4 Hsb5 Hsb6 Hsb7]
  · isplitl [Hsb0]; · iexact Hsb0
    isplitl [Hsb1]; · iexact Hsb1
    isplitl [Hsb2]; · iexact Hsb2
    isplitl [Hsb3]; · iexact Hsb3
    isplitl [Hsb4]; · iexact Hsb4
    isplitl [Hsb5]; · iexact Hsb5
    isplitl [Hsb6]; · iexact Hsb6
    iexact Hsb7
  isplitl [Hrb0 Hrb1 Hrb2 Hrb3 Hrb4 Hrb5 Hrb6 Hrb7]
  · isplitl [Hrb0]; · iexact Hrb0
    isplitl [Hrb1]; · iexact Hrb1
    isplitl [Hrb2]; · iexact Hrb2
    isplitl [Hrb3]; · iexact Hrb3
    isplitl [Hrb4]; · iexact Hrb4
    isplitl [Hrb5]; · iexact Hrb5
    isplitl [Hrb6]; · iexact Hrb6
    iexact Hrb7
  isplitl [Hs1 Hs2 Hs3 Hs4 Hs5 Hs6 Hs7 Hs8 Hs9 Hs10 Hs11 Hs12 Hs13 Hs21]
  · isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    iexact Hs21
  isplitl [HIs1 HatS1 HIr1 HatR1 HIs2 HatS2 HIr2 HatR2 HIs3 HatS3 HIr3 HatR3 HIs4 HatS4 HIr4 HatR4 HIs5 HatS5 HIr5 HatR5 HIs6 HatS6 HIr6 HatR6 HIs7 HatS7 HIr7 HatR7]
  · isplitl [HIs1 HatS1 HIr1 HatR1]
    · isplitl [HIs1]; · iexact HIs1
      isplitl [HatS1]; · iexact HatS1
      isplitl [HIr1]; · iexact HIr1
      iexact HatR1
    isplitl [HIs2 HatS2 HIr2 HatR2]
    · isplitl [HIs2]; · iexact HIs2
      isplitl [HatS2]; · iexact HatS2
      isplitl [HIr2]; · iexact HIr2
      iexact HatR2
    isplitl [HIs3 HatS3 HIr3 HatR3]
    · isplitl [HIs3]; · iexact HIs3
      isplitl [HatS3]; · iexact HatS3
      isplitl [HIr3]; · iexact HIr3
      iexact HatR3
    isplitl [HIs4 HatS4 HIr4 HatR4]
    · isplitl [HIs4]; · iexact HIs4
      isplitl [HatS4]; · iexact HatS4
      isplitl [HIr4]; · iexact HIr4
      iexact HatR4
    isplitl [HIs5 HatS5 HIr5 HatR5]
    · isplitl [HIs5]; · iexact HIs5
      isplitl [HatS5]; · iexact HatS5
      isplitl [HIr5]; · iexact HIr5
      iexact HatR5
    isplitl [HIs6 HatS6 HIr6 HatR6]
    · isplitl [HIs6]; · iexact HIs6
      isplitl [HatS6]; · iexact HatS6
      isplitl [HIr6]; · iexact HIr6
      iexact HatR6
    isplitl [HIs7]; · iexact HIs7
    isplitl [HatS7]; · iexact HatS7
    isplitl [HIr7]; · iexact HIr7
    iexact HatR7
  isplitl [Hout]; · iexact Hout
  iexact HO

/-- info: 'Cert.Kernel.A2A.body_close' depends on axioms: [propext, Classical.choice, Quot.sound] -/
#guard_msgs in #print axioms body_close

/-- info: 'Cert.Kernel.A2A.body_close_flat' depends on axioms: [propext, Classical.choice, Quot.sound] -/
#guard_msgs in #print axioms body_close_flat

end Cert.Kernel.A2A

end
-- ==== Proof.BodyB.lean ====
/-
  The stepped body of a device, and with it the body obligation of the launch.

  The body is opened to its skeleton. Its first part, the entry handshake, is a step of its own: the device signals each
  partner's barrier cell once, handing over the receive slot that partner will write, and waits for its own seven units;
  it comes back holding slot t of the receive buffer of each partner c xor t and owing only the seven copies. The rest of
  the body is stepped from there. Two families of facts are put in scope for the stepping: the sixteen windows of the
  weight array that the copies read are pairwise disjoint (two windows of one mask differ in their rows, two of different
  masks in their columns), and a wait on a semaphore that is no receive semaphore is allowed under each of the eight debts
  the device runs through as its copies are issued, because every debt is to receive cells only.

  The stepping then goes tile by tile. The four quarters of the x buffer land and are joined into the device's block of x.
  For each mask t in the order 6, 2, 5, 7, 1, 3, 4 the two halves of a weight slot land and are joined into the 256 columns
  of w that belong to device c xor t; the tile gelu(x · those columns) is stored, narrowed to 16 bits, into slot t of the
  send buffer, which then holds exactly what the schedule says that slot carries, and the copy to c xor t is issued, paying
  the receive credit owed there and minting the credit to wait for the slot's return. The last tile (mask 0) is the device's
  own and goes into row block c of the output at full width. Then, for t = 1..7, the wait on receive cell t hands the
  device slot t of its receive buffer holding the tile that c xor t computed for it, which is widened and stored into row
  block c xor t of the output. The seven waits on the send cells take the send slots back. At the end every buffer is
  whole again, the fourteen cells are closed with their counters at zero, nothing is owed, and the output block holds, row
  block by row block, the device's result.
-/
import proofs.«900796_g7700000000000797_dist_gemm_a2a_m4096_k4096_n2048_f32_gelu_v7x_i8_1_alg».proof.Proof.BodyObB
import proofs.«900796_g7700000000000797_dist_gemm_a2a_m4096_k4096_n2048_f32_gelu_v7x_i8_1_alg».proof.Proof.Part1AllB
import proofs.«900796_g7700000000000797_dist_gemm_a2a_m4096_k4096_n2048_f32_gelu_v7x_i8_1_alg».proof.Proof.LevelsGenB
import proofs.«900796_g7700000000000797_dist_gemm_a2a_m4096_k4096_n2048_f32_gelu_v7x_i8_1_alg».proof.Proof.SendRuleB
import proofs.«900796_g7700000000000797_dist_gemm_a2a_m4096_k4096_n2048_f32_gelu_v7x_i8_1_alg».proof.Proof.SendValB
import proofs.«900796_g7700000000000797_dist_gemm_a2a_m4096_k4096_n2048_f32_gelu_v7x_i8_1_alg».proof.Proof.OutValB
import proofs.«900796_g7700000000000797_dist_gemm_a2a_m4096_k4096_n2048_f32_gelu_v7x_i8_1_alg».proof.Proof.BodyCloseB

set_option maxHeartbeats 8000000
set_option maxRecDepth 65536
set_option sl_exec.stepHeartbeats 2000000
set_option sl_exec.rejoinHeartbeats 400000

noncomputable section

namespace Cert.Kernel.A2A

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a wait on a send or receive cell hands over, as one assertion -/

theorem recv_all_1 (c : Dev nD) : bigSep ((sched m).duties (recvCell c 1) 0) (fun d => (sched m).payload (recvCell c 1) 0 d) = ((rM 1).view.loc (c : Thread nD τ) ↦[(rM 1).view.set]{fullShare} recvV m c : sProp 𝕄) := by
  have h := rest_recv_1 m c
  rw [Finset.sdiff_empty] at h
  exact h.trans (recvPay_1 m c)
theorem send_all_1 (c : Dev nD) : bigSep ((sched m).duties (sendCell c 1) 0) (fun d => (sched m).payload (sendCell c 1) 0 d) = ((sM 1).view.loc (c : Thread nD τ) ↦[(sM 1).view.set]{fullShare} sendV m c : sProp 𝕄) := by
  have h := rest_send_1 m c
  rw [Finset.sdiff_empty] at h
  exact h.trans (sendPay_1 m c)
theorem recv_all_2 (c : Dev nD) : bigSep ((sched m).duties (recvCell c 2) 0) (fun d => (sched m).payload (recvCell c 2) 0 d) = ((rM 2).view.loc (c : Thread nD τ) ↦[(rM 2).view.set]{fullShare} recvV m c : sProp 𝕄) := by
  have h := rest_recv_2 m c
  rw [Finset.sdiff_empty] at h
  exact h.trans (recvPay_2 m c)
theorem send_all_2 (c : Dev nD) : bigSep ((sched m).duties (sendCell c 2) 0) (fun d => (sched m).payload (sendCell c 2) 0 d) = ((sM 2).view.loc (c : Thread nD τ) ↦[(sM 2).view.set]{fullShare} sendV m c : sProp 𝕄) := by
  have h := rest_send_2 m c
  rw [Finset.sdiff_empty] at h
  exact h.trans (sendPay_2 m c)
theorem recv_all_3 (c : Dev nD) : bigSep ((sched m).duties (recvCell c 3) 0) (fun d => (sched m).payload (recvCell c 3) 0 d) = ((rM 3).view.loc (c : Thread nD τ) ↦[(rM 3).view.set]{fullShare} recvV m c : sProp 𝕄) := by
  have h := rest_recv_3 m c
  rw [Finset.sdiff_empty] at h
  exact h.trans (recvPay_3 m c)
theorem send_all_3 (c : Dev nD) : bigSep ((sched m).duties (sendCell c 3) 0) (fun d => (sched m).payload (sendCell c 3) 0 d) = ((sM 3).view.loc (c : Thread nD τ) ↦[(sM 3).view.set]{fullShare} sendV m c : sProp 𝕄) := by
  have h := rest_send_3 m c
  rw [Finset.sdiff_empty] at h
  exact h.trans (sendPay_3 m c)
theorem recv_all_4 (c : Dev nD) : bigSep ((sched m).duties (recvCell c 4) 0) (fun d => (sched m).payload (recvCell c 4) 0 d) = ((rM 4).view.loc (c : Thread nD τ) ↦[(rM 4).view.set]{fullShare} recvV m c : sProp 𝕄) := by
  have h := rest_recv_4 m c
  rw [Finset.sdiff_empty] at h
  exact h.trans (recvPay_4 m c)
theorem send_all_4 (c : Dev nD) : bigSep ((sched m).duties (sendCell c 4) 0) (fun d => (sched m).payload (sendCell c 4) 0 d) = ((sM 4).view.loc (c : Thread nD τ) ↦[(sM 4).view.set]{fullShare} sendV m c : sProp 𝕄) := by
  have h := rest_send_4 m c
  rw [Finset.sdiff_empty] at h
  exact h.trans (sendPay_4 m c)
theorem recv_all_5 (c : Dev nD) : bigSep ((sched m).duties (recvCell c 5) 0) (fun d => (sched m).payload (recvCell c 5) 0 d) = ((rM 5).view.loc (c : Thread nD τ) ↦[(rM 5).view.set]{fullShare} recvV m c : sProp 𝕄) := by
  have h := rest_recv_5 m c
  rw [Finset.sdiff_empty] at h
  exact h.trans (recvPay_5 m c)
theorem send_all_5 (c : Dev nD) : bigSep ((sched m).duties (sendCell c 5) 0) (fun d => (sched m).payload (sendCell c 5) 0 d) = ((sM 5).view.loc (c : Thread nD τ) ↦[(sM 5).view.set]{fullShare} sendV m c : sProp 𝕄) := by
  have h := rest_send_5 m c
  rw [Finset.sdiff_empty] at h
  exact h.trans (sendPay_5 m c)
theorem recv_all_6 (c : Dev nD) : bigSep ((sched m).duties (recvCell c 6) 0) (fun d => (sched m).payload (recvCell c 6) 0 d) = ((rM 6).view.loc (c : Thread nD τ) ↦[(rM 6).view.set]{fullShare} recvV m c : sProp 𝕄) := by
  have h := rest_recv_6 m c
  rw [Finset.sdiff_empty] at h
  exact h.trans (recvPay_6 m c)
theorem send_all_6 (c : Dev nD) : bigSep ((sched m).duties (sendCell c 6) 0) (fun d => (sched m).payload (sendCell c 6) 0 d) = ((sM 6).view.loc (c : Thread nD τ) ↦[(sM 6).view.set]{fullShare} sendV m c : sProp 𝕄) := by
  have h := rest_send_6 m c
  rw [Finset.sdiff_empty] at h
  exact h.trans (sendPay_6 m c)
theorem recv_all_7 (c : Dev nD) : bigSep ((sched m).duties (recvCell c 7) 0) (fun d => (sched m).payload (recvCell c 7) 0 d) = ((rM 7).view.loc (c : Thread nD τ) ↦[(rM 7).view.set]{fullShare} recvV m c : sProp 𝕄) := by
  have h := rest_recv_7 m c
  rw [Finset.sdiff_empty] at h
  exact h.trans (recvPay_7 m c)
theorem send_all_7 (c : Dev nD) : bigSep ((sched m).duties (sendCell c 7) 0) (fun d => (sched m).payload (sendCell c 7) 0 d) = ((sM 7).view.loc (c : Thread nD τ) ↦[(sM 7).view.set]{fullShare} sendV m c : sProp 𝕄) := by
  have h := rest_send_7 m c
  rw [Finset.sdiff_empty] at h
  exact h.trans (sendPay_7 m c)

attribute [local sl_rounds] payload_recv_1 recvPay_1 payload_send_1 sendPay_1 expect_recv_1 expect_send_1 payload_recv_2 recvPay_2 payload_send_2 sendPay_2 expect_recv_2 expect_send_2 payload_recv_3 recvPay_3 payload_send_3 sendPay_3 expect_recv_3 expect_send_3 payload_recv_4 recvPay_4 payload_send_4 sendPay_4 expect_recv_4 expect_send_4 payload_recv_5 recvPay_5 payload_send_5 sendPay_5 expect_recv_5 expect_send_5 payload_recv_6 recvPay_6 payload_send_6 sendPay_6 expect_recv_6 expect_send_6 payload_recv_7 recvPay_7 payload_send_7 sendPay_7 expect_recv_7 expect_send_7

/-- The body, stepped on any device from the cut context. -/
theorem sound_body : SoundBody m := by
  intro c K W fx fw fs fo Kt
  unfold bodyCtx ghost invs positions reacheds payToks waitCreds plainSems argPts piecesAt
  iintro ⟨⟨⟨⟨#HIbar, #HIs1, #HIr1, #HIs2, #HIr2, #HIs3, #HIr3, #HIs4, #HIr4, #HIs5, #HIr5, #HIs6, #HIr6, #HIs7, #HIr7, #HIb1, #HIpr1, #HIb2, #HIpr2, #HIb3, #HIpr3, #HIb4, #HIpr4, #HIb5, #HIpr5, #HIb6, #HIpr6, #HIb7, #HIpr7⟩, ⟨HatB, HatS1, HatR1, HatS2, HatR2, HatS3, HatR3, HatS4, HatR4, HatS5, HatR5, HatS6, HatR6, HatS7, HatR7⟩, ⟨#HrB1, #HrR1, #HrS1, #HrB2, #HrR2, #HrS2, #HrB3, #HrR3, #HrS3, #HrB4, #HrR4, #HrS4, #HrB5, #HrR5, #HrS5, #HrB6, #HrR6, #HrS6, #HrB7, #HrR7, #HrS7⟩, ⟨HtB1, HtR1, HtS1, HtB2, HtR2, HtS2, HtB3, HtR3, HtS3, HtB4, HtR4, HtS4, HtB5, HtR5, HtS5, HtB6, HtR6, HtS6, HtB7, HtR7, HtS7⟩⟩, ⟨HcB, HcR1, HcR2, HcR3, HcR4, HcR5, HcR6, HcR7⟩, #Hlev, ⟨Hs1, Hs2, Hs3, Hs4, Hs5, Hs6, Hs7, Hs8, Hs9, Hs10, Hs11, Hs12, Hs13, Hs21⟩, ⟨HX, HW⟩, ⟨Hx0, Hx1, Hx2, Hx3, Hw0_0, Hw0_1, Hw1_0, Hw1_1, Hw2_0, Hw2_1, Hw3_0, Hw3_1, Hw4_0, Hw4_1, Hw5_0, Hw5_1, Hw6_0, Hw6_1, Hw7_0, Hw7_1, Hsb0, Hsb1, Hsb2, Hsb3, Hsb4, Hsb5, Hsb6, Hsb7, Hrb0, Hrb1, Hrb2, Hrb3, Hrb4, Hrb5, Hrb6, Hrb7⟩, Hout, HO⟩, Hk⟩
  rw [cc0_body_eq_skeleton]; unfold cc0_body_skel
  rw [k0_part23_eq_skeleton]; unfold k0_part23_skel
  rw [wp_bind, wp_bind]
  -- the entry handshake
  iapply (part1_run m K c W _)
  isplitl [HatB HtB1 HtB2 HtB3 HtB4 HtB5 HtB6 HtB7 Hrb1 Hrb2 Hrb3 Hrb4 Hrb5 Hrb6 Hrb7 HcB HO]
  · unfold part1Pre
    isplitr; · iexact HIbar
    isplitr; · iexact HIb1
    isplitr; · iexact HIb2
    isplitr; · iexact HIb3
    isplitr; · iexact HIb4
    isplitr; · iexact HIb5
    isplitr; · iexact HIb6
    isplitr; · iexact HIb7
    isplitl [HatB]; · iexact HatB
    isplitr; · iexact HrB1
    isplitr; · iexact HrB2
    isplitr; · iexact HrB3
    isplitr; · iexact HrB4
    isplitr; · iexact HrB5
    isplitr; · iexact HrB6
    isplitr; · iexact HrB7
    isplitl [HtB1]; · iexact HtB1
    isplitl [HtB2]; · iexact HtB2
    isplitl [HtB3]; · iexact HtB3
    isplitl [HtB4]; · iexact HtB4
    isplitl [HtB5]; · iexact HtB5
    isplitl [HtB6]; · iexact HtB6
    isplitl [HtB7]; · iexact HtB7
    isplitl [Hrb1]; · iexact Hrb1
    isplitl [Hrb2]; · iexact Hrb2
    isplitl [Hrb3]; · iexact Hrb3
    isplitl [Hrb4]; · iexact Hrb4
    isplitl [Hrb5]; · iexact Hrb5
    isplitl [Hrb6]; · iexact Hrb6
    isplitl [Hrb7]; · iexact Hrb7
    isplitl [HcB]; · iexact HcB
    isplitr; · iexact Hlev
    iexact HO
  unfold part1Post owedRecv
  iintro ⟨HatB, Hpr1, Hpr2, Hpr3, Hpr4, Hpr5, Hpr6, Hpr7, ⟨%W1, HO⟩⟩
  -- the sixteen windows of the weight array are pairwise disjoint
  have hd_10_11 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off1 c 1#32) S2048x256.size (k0_off1_inb c 1)) (fun _ => rfl)).view.set := wwin_disj_10_11 c
  have hd_10_12 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off1 c 2#32) S2048x256.size (k0_off1_inb c 2)) (fun _ => rfl)).view.set := wwin_disj_10_12 c
  have hd_10_13 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off1 c 3#32) S2048x256.size (k0_off1_inb c 3)) (fun _ => rfl)).view.set := wwin_disj_10_13 c
  have hd_10_14 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off1 c 4#32) S2048x256.size (k0_off1_inb c 4)) (fun _ => rfl)).view.set := wwin_disj_10_14 c
  have hd_10_15 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off1 c 5#32) S2048x256.size (k0_off1_inb c 5)) (fun _ => rfl)).view.set := wwin_disj_10_15 c
  have hd_10_16 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off1 c 6#32) S2048x256.size (k0_off1_inb c 6)) (fun _ => rfl)).view.set := wwin_disj_10_16 c
  have hd_10_17 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off1 c 7#32) S2048x256.size (k0_off1_inb c 7)) (fun _ => rfl)).view.set := wwin_disj_10_17 c
  have hd_10_20 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off2 c 0#32) S2048x256.size (k0_off2_inb c 0)) (fun _ => rfl)).view.set := wwin_disj_10_20 c
  have hd_10_21 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off2 c 1#32) S2048x256.size (k0_off2_inb c 1)) (fun _ => rfl)).view.set := wwin_disj_10_21 c
  have hd_10_22 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off2 c 2#32) S2048x256.size (k0_off2_inb c 2)) (fun _ => rfl)).view.set := wwin_disj_10_22 c
  have hd_10_23 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off2 c 3#32) S2048x256.size (k0_off2_inb c 3)) (fun _ => rfl)).view.set := wwin_disj_10_23 c
  have hd_10_24 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off2 c 4#32) S2048x256.size (k0_off2_inb c 4)) (fun _ => rfl)).view.set := wwin_disj_10_24 c
  have hd_10_25 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off2 c 5#32) S2048x256.size (k0_off2_inb c 5)) (fun _ => rfl)).view.set := wwin_disj_10_25 c
  have hd_10_26 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_10_26 c
  have hd_10_27 : Disjoint ((Memref.whole main_arg1 : Memref sig .tc .hbm S4096x2048 .f32).slice (Rect.unit (s := S4096x2048) (k0_off1 c 0#32) S2048x256.size (k0_off1_inb c 0)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_10_27 c
  have hd_11_12 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off1 c 2#32) S2048x256.size (k0_off1_inb c 2)) (fun _ => rfl)).view.set := wwin_disj_11_12 c
  have hd_11_13 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off1 c 3#32) S2048x256.size (k0_off1_inb c 3)) (fun _ => rfl)).view.set := wwin_disj_11_13 c
  have hd_11_14 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off1 c 4#32) S2048x256.size (k0_off1_inb c 4)) (fun _ => rfl)).view.set := wwin_disj_11_14 c
  have hd_11_15 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off1 c 5#32) S2048x256.size (k0_off1_inb c 5)) (fun _ => rfl)).view.set := wwin_disj_11_15 c
  have hd_11_16 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off1 c 6#32) S2048x256.size (k0_off1_inb c 6)) (fun _ => rfl)).view.set := wwin_disj_11_16 c
  have hd_11_17 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off1 c 7#32) S2048x256.size (k0_off1_inb c 7)) (fun _ => rfl)).view.set := wwin_disj_11_17 c
  have hd_11_20 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off2 c 0#32) S2048x256.size (k0_off2_inb c 0)) (fun _ => rfl)).view.set := wwin_disj_11_20 c
  have hd_11_21 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off2 c 1#32) S2048x256.size (k0_off2_inb c 1)) (fun _ => rfl)).view.set := wwin_disj_11_21 c
  have hd_11_22 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off2 c 2#32) S2048x256.size (k0_off2_inb c 2)) (fun _ => rfl)).view.set := wwin_disj_11_22 c
  have hd_11_23 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off2 c 3#32) S2048x256.size (k0_off2_inb c 3)) (fun _ => rfl)).view.set := wwin_disj_11_23 c
  have hd_11_24 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off2 c 4#32) S2048x256.size (k0_off2_inb c 4)) (fun _ => rfl)).view.set := wwin_disj_11_24 c
  have hd_11_25 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off2 c 5#32) S2048x256.size (k0_off2_inb c 5)) (fun _ => rfl)).view.set := wwin_disj_11_25 c
  have hd_11_26 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_11_26 c
  have hd_11_27 : Disjoint ((Memref.whole main_arg1 : Memref sig .tc .hbm S4096x2048 .f32).slice (Rect.unit (s := S4096x2048) (k0_off1 c 1#32) S2048x256.size (k0_off1_inb c 1)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_11_27 c
  have hd_12_13 : Disjoint ((Memref.whole main_arg1 : Memref sig .tc .hbm S4096x2048 .f32).slice (Rect.unit (s := S4096x2048) (k0_off1 c 2#32) S2048x256.size (k0_off1_inb c 2)) (fun _ => rfl)).view.set ((Memref.whole main_arg1 : Memref sig .tc .hbm S4096x2048 .f32).slice (Rect.unit (s := S4096x2048) (k0_off1 c 3#32) S2048x256.size (k0_off1_inb c 3)) (fun _ => rfl)).view.set := wwin_disj_12_13 c
  have hd_12_14 : Disjoint ((Memref.whole main_arg1 : Memref sig .tc .hbm S4096x2048 .f32).slice (Rect.unit (s := S4096x2048) (k0_off1 c 2#32) S2048x256.size (k0_off1_inb c 2)) (fun _ => rfl)).view.set ((Memref.whole main_arg1 : Memref sig .tc .hbm S4096x2048 .f32).slice (Rect.unit (s := S4096x2048) (k0_off1 c 4#32) S2048x256.size (k0_off1_inb c 4)) (fun _ => rfl)).view.set := wwin_disj_12_14 c
  have hd_12_15 : Disjoint ((Memref.whole main_arg1 : Memref sig .tc .hbm S4096x2048 .f32).slice (Rect.unit (s := S4096x2048) (k0_off1 c 2#32) S2048x256.size (k0_off1_inb c 2)) (fun _ => rfl)).view.set ((Memref.whole main_arg1 : Memref sig .tc .hbm S4096x2048 .f32).slice (Rect.unit (s := S4096x2048) (k0_off1 c 5#32) S2048x256.size (k0_off1_inb c 5)) (fun _ => rfl)).view.set := wwin_disj_12_15 c
  have hd_12_16 : Disjoint ((Memref.whole main_arg1 : Memref sig .tc .hbm S4096x2048 .f32).slice (Rect.unit (s := S4096x2048) (k0_off1 c 2#32) S2048x256.size (k0_off1_inb c 2)) (fun _ => rfl)).view.set ((Memref.whole main_arg1 : Memref sig .tc .hbm S4096x2048 .f32).slice (Rect.unit (s := S4096x2048) (k0_off1 c 6#32) S2048x256.size (k0_off1_inb c 6)) (fun _ => rfl)).view.set := wwin_disj_12_16 c
  have hd_12_17 : Disjoint ((Memref.whole main_arg1 : Memref sig .tc .hbm S4096x2048 .f32).slice (Rect.unit (s := S4096x2048) (k0_off1 c 2#32) S2048x256.size (k0_off1_inb c 2)) (fun _ => rfl)).view.set ((Memref.whole main_arg1 : Memref sig .tc .hbm S4096x2048 .f32).slice (Rect.unit (s := S4096x2048) (k0_off1 c 7#32) S2048x256.size (k0_off1_inb c 7)) (fun _ => rfl)).view.set := wwin_disj_12_17 c
  have hd_12_20 : Disjoint ((Memref.whole main_arg1 : Memref sig .tc .hbm S4096x2048 .f32).slice (Rect.unit (s := S4096x2048) (k0_off1 c 2#32) S2048x256.size (k0_off1_inb c 2)) (fun _ => rfl)).view.set ((Memref.whole main_arg1 : Memref sig .tc .hbm S4096x2048 .f32).slice (Rect.unit (s := S4096x2048) (k0_off2 c 0#32) S2048x256.size (k0_off2_inb c 0)) (fun _ => rfl)).view.set := wwin_disj_12_20 c
  have hd_12_21 : Disjoint ((Memref.whole main_arg1 : Memref sig .tc .hbm S4096x2048 .f32).slice (Rect.unit (s := S4096x2048) (k0_off1 c 2#32) S2048x256.size (k0_off1_inb c 2)) (fun _ => rfl)).view.set ((Memref.whole main_arg1 : Memref sig .tc .hbm S4096x2048 .f32).slice (Rect.unit (s := S4096x2048) (k0_off2 c 1#32) S2048x256.size (k0_off2_inb c 1)) (fun _ => rfl)).view.set := wwin_disj_12_21 c
  have hd_12_22 : Disjoint ((Memref.whole main_arg1 : Memref sig .tc .hbm S4096x2048 .f32).slice (Rect.unit (s := S4096x2048) (k0_off1 c 2#32) S2048x256.size (k0_off1_inb c 2)) (fun _ => rfl)).view.set ((Memref.whole main_arg1 : Memref sig .tc .hbm S4096x2048 .f32).slice (Rect.unit (s := S4096x2048) (k0_off2 c 2#32) S2048x256.size (k0_off2_inb c 2)) (fun _ => rfl)).view.set := wwin_disj_12_22 c
  have hd_12_23 : Disjoint ((Memref.whole main_arg1 : Memref sig .tc .hbm S4096x2048 .f32).slice (Rect.unit (s := S4096x2048) (k0_off1 c 2#32) S2048x256.size (k0_off1_inb c 2)) (fun _ => rfl)).view.set ((Memref.whole main_arg1 : Memref sig .tc .hbm S4096x2048 .f32).slice (Rect.unit (s := S4096x2048) (k0_off2 c 3#32) S2048x256.size (k0_off2_inb c 3)) (fun _ => rfl)).view.set := wwin_disj_12_23 c
  have hd_12_24 : Disjoint ((Memref.whole main_arg1 : Memref sig .tc .hbm S4096x2048 .f32).slice (Rect.unit (s := S4096x2048) (k0_off1 c 2#32) S2048x256.size (k0_off1_inb c 2)) (fun _ => rfl)).view.set ((Memref.whole main_arg1 : Memref sig .tc .hbm S4096x2048 .f32).slice (Rect.unit (s := S4096x2048) (k0_off2 c 4#32) S2048x256.size (k0_off2_inb c 4)) (fun _ => rfl)).view.set := wwin_disj_12_24 c
  have hd_12_25 : Disjoint ((Memref.whole main_arg1 : Memref sig .tc .hbm S4096x2048 .f32).slice (Rect.unit (s := S4096x2048) (k0_off1 c 2#32) S2048x256.size (k0_off1_inb c 2)) (fun _ => rfl)).view.set ((Memref.whole main_arg1 : Memref sig .tc .hbm S4096x2048 .f32).slice (Rect.unit (s := S4096x2048) (k0_off2 c 5#32) S2048x256.size (k0_off2_inb c 5)) (fun _ => rfl)).view.set := wwin_disj_12_25 c
  have hd_12_26 : Disjoint ((Memref.whole main_arg1 : Memref sig .tc .hbm S4096x2048 .f32).slice (Rect.unit (s := S4096x2048) (k0_off1 c 2#32) S2048x256.size (k0_off1_inb c 2)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_12_26 c
  have hd_12_27 : Disjoint ((Memref.whole main_arg1 : Memref sig .tc .hbm S4096x2048 .f32).slice (Rect.unit (s := S4096x2048) (k0_off1 c 2#32) S2048x256.size (k0_off1_inb c 2)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_12_27 c
  have hd_13_14 : Disjoint ((Memref.whole main_arg1 : Memref sig .tc .hbm S4096x2048 .f32).slice (Rect.unit (s := S4096x2048) (k0_off1 c 3#32) S2048x256.size (k0_off1_inb c 3)) (fun _ => rfl)).view.set ((Memref.whole main_arg1 : Memref sig .tc .hbm S4096x2048 .f32).slice (Rect.unit (s := S4096x2048) (k0_off1 c 4#32) S2048x256.size (k0_off1_inb c 4)) (fun _ => rfl)).view.set := wwin_disj_13_14 c
  have hd_13_15 : Disjoint ((Memref.whole main_arg1 : Memref sig .tc .hbm S4096x2048 .f32).slice (Rect.unit (s := S4096x2048) (k0_off1 c 3#32) S2048x256.size (k0_off1_inb c 3)) (fun _ => rfl)).view.set ((Memref.whole main_arg1 : Memref sig .tc .hbm S4096x2048 .f32).slice (Rect.unit (s := S4096x2048) (k0_off1 c 5#32) S2048x256.size (k0_off1_inb c 5)) (fun _ => rfl)).view.set := wwin_disj_13_15 c
  have hd_13_16 : Disjoint ((Memref.whole main_arg1 : Memref sig .tc .hbm S4096x2048 .f32).slice (Rect.unit (s := S4096x2048) (k0_off1 c 3#32) S2048x256.size (k0_off1_inb c 3)) (fun _ => rfl)).view.set ((Memref.whole main_arg1 : Memref sig .tc .hbm S4096x2048 .f32).slice (Rect.unit (s := S4096x2048) (k0_off1 c 6#32) S2048x256.size (k0_off1_inb c 6)) (fun _ => rfl)).view.set := wwin_disj_13_16 c
  have hd_13_17 : Disjoint ((Memref.whole main_arg1 : Memref sig .tc .hbm S4096x2048 .f32).slice (Rect.unit (s := S4096x2048) (k0_off1 c 3#32) S2048x256.size (k0_off1_inb c 3)) (fun _ => rfl)).view.set ((Memref.whole main_arg1 : Memref sig .tc .hbm S4096x2048 .f32).slice (Rect.unit (s := S4096x2048) (k0_off1 c 7#32) S2048x256.size (k0_off1_inb c 7)) (fun _ => rfl)).view.set := wwin_disj_13_17 c
  have hd_13_20 : Disjoint ((Memref.whole main_arg1 : Memref sig .tc .hbm S4096x2048 .f32).slice (Rect.unit (s := S4096x2048) (k0_off1 c 3#32) S2048x256.size (k0_off1_inb c 3)) (fun _ => rfl)).view.set ((Memref.whole main_arg1 : Memref sig .tc .hbm S4096x2048 .f32).slice (Rect.unit (s := S4096x2048) (k0_off2 c 0#32) S2048x256.size (k0_off2_inb c 0)) (fun _ => rfl)).view.set := wwin_disj_13_20 c
  have hd_13_21 : Disjoint ((Memref.whole main_arg1 : Memref sig .tc .hbm S4096x2048 .f32).slice (Rect.unit (s := S4096x2048) (k0_off1 c 3#32) S2048x256.size (k0_off1_inb c 3)) (fun _ => rfl)).view.set ((Memref.whole main_arg1 : Memref sig .tc .hbm S4096x2048 .f32).slice (Rect.unit (s := S4096x2048) (k0_off2 c 1#32) S2048x256.size (k0_off2_inb c 1)) (fun _ => rfl)).view.set := wwin_disj_13_21 c
  have hd_13_22 : Disjoint ((Memref.whole main_arg1 : Memref sig .tc .hbm S4096x2048 .f32).slice (Rect.unit (s := S4096x2048) (k0_off1 c 3#32) S2048x256.size (k0_off1_inb c 3)) (fun _ => rfl)).view.set ((Memref.whole main_arg1 : Memref sig .tc .hbm S4096x2048 .f32).slice (Rect.unit (s := S4096x2048) (k0_off2 c 2#32) S2048x256.size (k0_off2_inb c 2)) (fun _ => rfl)).view.set := wwin_disj_13_22 c
  have hd_13_23 : Disjoint ((Memref.whole main_arg1 : Memref sig .tc .hbm S4096x2048 .f32).slice (Rect.unit (s := S4096x2048) (k0_off1 c 3#32) S2048x256.size (k0_off1_inb c 3)) (fun _ => rfl)).view.set ((Memref.whole main_arg1 : Memref sig .tc .hbm S4096x2048 .f32).slice (Rect.unit (s := S4096x2048) (k0_off2 c 3#32) S2048x256.size (k0_off2_inb c 3)) (fun _ => rfl)).view.set := wwin_disj_13_23 c
  have hd_13_24 : Disjoint ((Memref.whole main_arg1 : Memref sig .tc .hbm S4096x2048 .f32).slice (Rect.unit (s := S4096x2048) (k0_off1 c 3#32) S2048x256.size (k0_off1_inb c 3)) (fun _ => rfl)).view.set ((Memref.whole main_arg1 : Memref sig .tc .hbm S4096x2048 .f32).slice (Rect.unit (s := S4096x2048) (k0_off2 c 4#32) S2048x256.size (k0_off2_inb c 4)) (fun _ => rfl)).view.set := wwin_disj_13_24 c
  have hd_13_25 : Disjoint ((Memref.whole main_arg1 : Memref sig .tc .hbm S4096x2048 .f32).slice (Rect.unit (s := S4096x2048) (k0_off1 c 3#32) S2048x256.size (k0_off1_inb c 3)) (fun _ => rfl)).view.set ((Memref.whole main_arg1 : Memref sig .tc .hbm S4096x2048 .f32).slice (Rect.unit (s := S4096x2048) (k0_off2 c 5#32) S2048x256.size (k0_off2_inb c 5)) (fun _ => rfl)).view.set := wwin_disj_13_25 c
  have hd_13_26 : Disjoint ((Memref.whole main_arg1 : Memref sig .tc .hbm S4096x2048 .f32).slice (Rect.unit (s := S4096x2048) (k0_off1 c 3#32) S2048x256.size (k0_off1_inb c 3)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_13_26 c
  have hd_13_27 : Disjoint ((Memref.whole main_arg1 : Memref sig .tc .hbm S4096x2048 .f32).slice (Rect.unit (s := S4096x2048) (k0_off1 c 3#32) S2048x256.size (k0_off1_inb c 3)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_13_27 c
  have hd_14_15 : Disjoint ((Memref.whole main_arg1 : Memref sig .tc .hbm S4096x2048 .f32).slice (Rect.unit (s := S4096x2048) (k0_off1 c 4#32) S2048x256.size (k0_off1_inb c 4)) (fun _ => rfl)).view.set ((Memref.whole main_arg1 : Memref sig .tc .hbm S4096x2048 .f32).slice (Rect.unit (s := S4096x2048) (k0_off1 c 5#32) S2048x256.size (k0_off1_inb c 5)) (fun _ => rfl)).view.set := wwin_disj_14_15 c
  have hd_14_16 : Disjoint ((Memref.whole main_arg1 : Memref sig .tc .hbm S4096x2048 .f32).slice (Rect.unit (s := S4096x2048) (k0_off1 c 4#32) S2048x256.size (k0_off1_inb c 4)) (fun _ => rfl)).view.set ((Memref.whole main_arg1 : Memref sig .tc .hbm S4096x2048 .f32).slice (Rect.unit (s := S4096x2048) (k0_off1 c 6#32) S2048x256.size (k0_off1_inb c 6)) (fun _ => rfl)).view.set := wwin_disj_14_16 c
  have hd_14_17 : Disjoint ((Memref.whole main_arg1 : Memref sig .tc .hbm S4096x2048 .f32).slice (Rect.unit (s := S4096x2048) (k0_off1 c 4#32) S2048x256.size (k0_off1_inb c 4)) (fun _ => rfl)).view.set ((Memref.whole main_arg1 : Memref sig .tc .hbm S4096x2048 .f32).slice (Rect.unit (s := S4096x2048) (k0_off1 c 7#32) S2048x256.size (k0_off1_inb c 7)) (fun _ => rfl)).view.set := wwin_disj_14_17 c
  have hd_14_20 : Disjoint ((Memref.whole main_arg1 : Memref sig .tc .hbm S4096x2048 .f32).slice (Rect.unit (s := S4096x2048) (k0_off1 c 4#32) S2048x256.size (k0_off1_inb c 4)) (fun _ => rfl)).view.set ((Memref.whole main_arg1 : Memref sig .tc .hbm S4096x2048 .f32).slice (Rect.unit (s := S4096x2048) (k0_off2 c 0#32) S2048x256.size (k0_off2_inb c 0)) (fun _ => rfl)).view.set := wwin_disj_14_20 c
  have hd_14_21 : Disjoint ((Memref.whole main_arg1 : Memref sig .tc .hbm S4096x2048 .f32).slice (Rect.unit (s := S4096x2048) (k0_off1 c 4#32) S2048x256.size (k0_off1_inb c 4)) (fun _ => rfl)).view.set ((Memref.whole main_arg1 : Memref sig .tc .hbm S4096x2048 .f32).slice (Rect.unit (s := S4096x2048) (k0_off2 c 1#32) S2048x256.size (k0_off2_inb c 1)) (fun _ => rfl)).view.set := wwin_disj_14_21 c
  have hd_14_22 : Disjoint ((Memref.whole main_arg1 : Memref sig .tc .hbm S4096x2048 .f32).slice (Rect.unit (s := S4096x2048) (k0_off1 c 4#32) S2048x256.size (k0_off1_inb c 4)) (fun _ => rfl)).view.set ((Memref.whole main_arg1 : Memref sig .tc .hbm S4096x2048 .f32).slice (Rect.unit (s := S4096x2048) (k0_off2 c 2#32) S2048x256.size (k0_off2_inb c 2)) (fun _ => rfl)).view.set := wwin_disj_14_22 c
  have hd_14_23 : Disjoint ((Memref.whole main_arg1 : Memref sig .tc .hbm S4096x2048 .f32).slice (Rect.unit (s := S4096x2048) (k0_off1 c 4#32) S2048x256.size (k0_off1_inb c 4)) (fun _ => rfl)).view.set ((Memref.whole main_arg1 : Memref sig .tc .hbm S4096x2048 .f32).slice (Rect.unit (s := S4096x2048) (k0_off2 c 3#32) S2048x256.size (k0_off2_inb c 3)) (fun _ => rfl)).view.set := wwin_disj_14_23 c
  have hd_14_24 : Disjoint ((Memref.whole main_arg1 : Memref sig .tc .hbm S4096x2048 .f32).slice (Rect.unit (s := S4096x2048) (k0_off1 c 4#32) S2048x256.size (k0_off1_inb c 4)) (fun _ => rfl)).view.set ((Memref.whole main_arg1 : Memref sig .tc .hbm S4096x2048 .f32).slice (Rect.unit (s := S4096x2048) (k0_off2 c 4#32) S2048x256.size (k0_off2_inb c 4)) (fun _ => rfl)).view.set := wwin_disj_14_24 c
  have hd_14_25 : Disjoint ((Memref.whole main_arg1 : Memref sig .tc .hbm S4096x2048 .f32).slice (Rect.unit (s := S4096x2048) (k0_off1 c 4#32) S2048x256.size (k0_off1_inb c 4)) (fun _ => rfl)).view.set ((Memref.whole main_arg1 : Memref sig .tc .hbm S4096x2048 .f32).slice (Rect.unit (s := S4096x2048) (k0_off2 c 5#32) S2048x256.size (k0_off2_inb c 5)) (fun _ => rfl)).view.set := wwin_disj_14_25 c
  have hd_14_26 : Disjoint ((Memref.whole main_arg1 : Memref sig .tc .hbm S4096x2048 .f32).slice (Rect.unit (s := S4096x2048) (k0_off1 c 4#32) S2048x256.size (k0_off1_inb c 4)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_14_26 c
  have hd_14_27 : Disjoint ((Memref.whole main_arg1 : Memref sig .tc .hbm S4096x2048 .f32).slice (Rect.unit (s := S4096x2048) (k0_off1 c 4#32) S2048x256.size (k0_off1_inb c 4)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_14_27 c
  have hd_15_16 : Disjoint ((Memref.whole main_arg1 : Memref sig .tc .hbm S4096x2048 .f32).slice (Rect.unit (s := S4096x2048) (k0_off1 c 5#32) S2048x256.size (k0_off1_inb c 5)) (fun _ => rfl)).view.set ((Memref.whole main_arg1 : Memref sig .tc .hbm S4096x2048 .f32).slice (Rect.unit (s := S4096x2048) (k0_off1 c 6#32) S2048x256.size (k0_off1_inb c 6)) (fun _ => rfl)).view.set := wwin_disj_15_16 c
  have hd_15_17 : Disjoint ((Memref.whole main_arg1 : Memref sig .tc .hbm S4096x2048 .f32).slice (Rect.unit (s := S4096x2048) (k0_off1 c 5#32) S2048x256.size (k0_off1_inb c 5)) (fun _ => rfl)).view.set ((Memref.whole main_arg1 : Memref sig .tc .hbm S4096x2048 .f32).slice (Rect.unit (s := S4096x2048) (k0_off1 c 7#32) S2048x256.size (k0_off1_inb c 7)) (fun _ => rfl)).view.set := wwin_disj_15_17 c
  have hd_15_20 : Disjoint ((Memref.whole main_arg1 : Memref sig .tc .hbm S4096x2048 .f32).slice (Rect.unit (s := S4096x2048) (k0_off1 c 5#32) S2048x256.size (k0_off1_inb c 5)) (fun _ => rfl)).view.set ((Memref.whole main_arg1 : Memref sig .tc .hbm S4096x2048 .f32).slice (Rect.unit (s := S4096x2048) (k0_off2 c 0#32) S2048x256.size (k0_off2_inb c 0)) (fun _ => rfl)).view.set := wwin_disj_15_20 c
  have hd_15_21 : Disjoint ((Memref.whole main_arg1 : Memref sig .tc .hbm S4096x2048 .f32).slice (Rect.unit (s := S4096x2048) (k0_off1 c 5#32) S2048x256.size (k0_off1_inb c 5)) (fun _ => rfl)).view.set ((Memref.whole main_arg1 : Memref sig .tc .hbm S4096x2048 .f32).slice (Rect.unit (s := S4096x2048) (k0_off2 c 1#32) S2048x256.size (k0_off2_inb c 1)) (fun _ => rfl)).view.set := wwin_disj_15_21 c
  have hd_15_22 : Disjoint ((Memref.whole main_arg1 : Memref sig .tc .hbm S4096x2048 .f32).slice (Rect.unit (s := S4096x2048) (k0_off1 c 5#32) S2048x256.size (k0_off1_inb c 5)) (fun _ => rfl)).view.set ((Memref.whole main_arg1 : Memref sig .tc .hbm S4096x2048 .f32).slice (Rect.unit (s := S4096x2048) (k0_off2 c 2#32) S2048x256.size (k0_off2_inb c 2)) (fun _ => rfl)).view.set := wwin_disj_15_22 c
  have hd_15_23 : Disjoint ((Memref.whole main_arg1 : Memref sig .tc .hbm S4096x2048 .f32).slice (Rect.unit (s := S4096x2048) (k0_off1 c 5#32) S2048x256.size (k0_off1_inb c 5)) (fun _ => rfl)).view.set ((Memref.whole main_arg1 : Memref sig .tc .hbm S4096x2048 .f32).slice (Rect.unit (s := S4096x2048) (k0_off2 c 3#32) S2048x256.size (k0_off2_inb c 3)) (fun _ => rfl)).view.set := wwin_disj_15_23 c
  have hd_15_24 : Disjoint ((Memref.whole main_arg1 : Memref sig .tc .hbm S4096x2048 .f32).slice (Rect.unit (s := S4096x2048) (k0_off1 c 5#32) S2048x256.size (k0_off1_inb c 5)) (fun _ => rfl)).view.set ((Memref.whole main_arg1 : Memref sig .tc .hbm S4096x2048 .f32).slice (Rect.unit (s := S4096x2048) (k0_off2 c 4#32) S2048x256.size (k0_off2_inb c 4)) (fun _ => rfl)).view.set := wwin_disj_15_24 c
  have hd_15_25 : Disjoint ((Memref.whole main_arg1 : Memref sig .tc .hbm S4096x2048 .f32).slice (Rect.unit (s := S4096x2048) (k0_off1 c 5#32) S2048x256.size (k0_off1_inb c 5)) (fun _ => rfl)).view.set ((Memref.whole main_arg1 : Memref sig .tc .hbm S4096x2048 .f32).slice (Rect.unit (s := S4096x2048) (k0_off2 c 5#32) S2048x256.size (k0_off2_inb c 5)) (fun _ => rfl)).view.set := wwin_disj_15_25 c
  have hd_15_26 : Disjoint ((Memref.whole main_arg1 : Memref sig .tc .hbm S4096x2048 .f32).slice (Rect.unit (s := S4096x2048) (k0_off1 c 5#32) S2048x256.size (k0_off1_inb c 5)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_15_26 c
  have hd_15_27 : Disjoint ((Memref.whole main_arg1 : Memref sig .tc .hbm S4096x2048 .f32).slice (Rect.unit (s := S4096x2048) (k0_off1 c 5#32) S2048x256.size (k0_off1_inb c 5)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_15_27 c
  have hd_16_17 : Disjoint ((Memref.whole main_arg1 : Memref sig .tc .hbm S4096x2048 .f32).slice (Rect.unit (s := S4096x2048) (k0_off1 c 6#32) S2048x256.size (k0_off1_inb c 6)) (fun _ => rfl)).view.set ((Memref.whole main_arg1 : Memref sig .tc .hbm S4096x2048 .f32).slice (Rect.unit (s := S4096x2048) (k0_off1 c 7#32) S2048x256.size (k0_off1_inb c 7)) (fun _ => rfl)).view.set := wwin_disj_16_17 c
  have hd_16_20 : Disjoint ((Memref.whole main_arg1 : Memref sig .tc .hbm S4096x2048 .f32).slice (Rect.unit (s := S4096x2048) (k0_off1 c 6#32) S2048x256.size (k0_off1_inb c 6)) (fun _ => rfl)).view.set ((Memref.whole main_arg1 : Memref sig .tc .hbm S4096x2048 .f32).slice (Rect.unit (s := S4096x2048) (k0_off2 c 0#32) S2048x256.size (k0_off2_inb c 0)) (fun _ => rfl)).view.set := wwin_disj_16_20 c
  have hd_16_21 : Disjoint ((Memref.whole main_arg1 : Memref sig .tc .hbm S4096x2048 .f32).slice (Rect.unit (s := S4096x2048) (k0_off1 c 6#32) S2048x256.size (k0_off1_inb c 6)) (fun _ => rfl)).view.set ((Memref.whole main_arg1 : Memref sig .tc .hbm S4096x2048 .f32).slice (Rect.unit (s := S4096x2048) (k0_off2 c 1#32) S2048x256.size (k0_off2_inb c 1)) (fun _ => rfl)).view.set := wwin_disj_16_21 c
  have hd_16_22 : Disjoint ((Memref.whole main_arg1 : Memref sig .tc .hbm S4096x2048 .f32).slice (Rect.unit (s := S4096x2048) (k0_off1 c 6#32) S2048x256.size (k0_off1_inb c 6)) (fun _ => rfl)).view.set ((Memref.whole main_arg1 : Memref sig .tc .hbm S4096x2048 .f32).slice (Rect.unit (s := S4096x2048) (k0_off2 c 2#32) S2048x256.size (k0_off2_inb c 2)) (fun _ => rfl)).view.set := wwin_disj_16_22 c
  have hd_16_23 : Disjoint ((Memref.whole main_arg1 : Memref sig .tc .hbm S4096x2048 .f32).slice (Rect.unit (s := S4096x2048) (k0_off1 c 6#32) S2048x256.size (k0_off1_inb c 6)) (fun _ => rfl)).view.set ((Memref.whole main_arg1 : Memref sig .tc .hbm S4096x2048 .f32).slice (Rect.unit (s := S4096x2048) (k0_off2 c 3#32) S2048x256.size (k0_off2_inb c 3)) (fun _ => rfl)).view.set := wwin_disj_16_23 c
  have hd_16_24 : Disjoint ((Memref.whole main_arg1 : Memref sig .tc .hbm S4096x2048 .f32).slice (Rect.unit (s := S4096x2048) (k0_off1 c 6#32) S2048x256.size (k0_off1_inb c 6)) (fun _ => rfl)).view.set ((Memref.whole main_arg1 : Memref sig .tc .hbm S4096x2048 .f32).slice (Rect.unit (s := S4096x2048) (k0_off2 c 4#32) S2048x256.size (k0_off2_inb c 4)) (fun _ => rfl)).view.set := wwin_disj_16_24 c
  have hd_16_25 : Disjoint ((Memref.whole main_arg1 : Memref sig .tc .hbm S4096x2048 .f32).slice (Rect.unit (s := S4096x2048) (k0_off1 c 6#32) S2048x256.size (k0_off1_inb c 6)) (fun _ => rfl)).view.set ((Memref.whole main_arg1 : Memref sig .tc .hbm S4096x2048 .f32).slice (Rect.unit (s := S4096x2048) (k0_off2 c 5#32) S2048x256.size (k0_off2_inb c 5)) (fun _ => rfl)).view.set := wwin_disj_16_25 c
  have hd_16_26 : Disjoint ((Memref.whole main_arg1 : Memref sig .tc .hbm S4096x2048 .f32).slice (Rect.unit (s := S4096x2048) (k0_off1 c 6#32) S2048x256.size (k0_off1_inb c 6)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_16_26 c
  have hd_16_27 : Disjoint ((Memref.whole main_arg1 : Memref sig .tc .hbm S4096x2048 .f32).slice (Rect.unit (s := S4096x2048) (k0_off1 c 6#32) S2048x256.size (k0_off1_inb c 6)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_16_27 c
  have hd_17_20 : Disjoint ((Memref.whole main_arg1 : Memref sig .tc .hbm S4096x2048 .f32).slice (Rect.unit (s := S4096x2048) (k0_off1 c 7#32) S2048x256.size (k0_off1_inb c 7)) (fun _ => rfl)).view.set ((Memref.whole main_arg1 : Memref sig .tc .hbm S4096x2048 .f32).slice (Rect.unit (s := S4096x2048) (k0_off2 c 0#32) S2048x256.size (k0_off2_inb c 0)) (fun _ => rfl)).view.set := wwin_disj_17_20 c
  have hd_17_21 : Disjoint ((Memref.whole main_arg1 : Memref sig .tc .hbm S4096x2048 .f32).slice (Rect.unit (s := S4096x2048) (k0_off1 c 7#32) S2048x256.size (k0_off1_inb c 7)) (fun _ => rfl)).view.set ((Memref.whole main_arg1 : Memref sig .tc .hbm S4096x2048 .f32).slice (Rect.unit (s := S4096x2048) (k0_off2 c 1#32) S2048x256.size (k0_off2_inb c 1)) (fun _ => rfl)).view.set := wwin_disj_17_21 c
  have hd_17_22 : Disjoint ((Memref.whole main_arg1 : Memref sig .tc .hbm S4096x2048 .f32).slice (Rect.unit (s := S4096x2048) (k0_off1 c 7#32) S2048x256.size (k0_off1_inb c 7)) (fun _ => rfl)).view.set ((Memref.whole main_arg1 : Memref sig .tc .hbm S4096x2048 .f32).slice (Rect.unit (s := S4096x2048) (k0_off2 c 2#32) S2048x256.size (k0_off2_inb c 2)) (fun _ => rfl)).view.set := wwin_disj_17_22 c
  have hd_17_23 : Disjoint ((Memref.whole main_arg1 : Memref sig .tc .hbm S4096x2048 .f32).slice (Rect.unit (s := S4096x2048) (k0_off1 c 7#32) S2048x256.size (k0_off1_inb c 7)) (fun _ => rfl)).view.set ((Memref.whole main_arg1 : Memref sig .tc .hbm S4096x2048 .f32).slice (Rect.unit (s := S4096x2048) (k0_off2 c 3#32) S2048x256.size (k0_off2_inb c 3)) (fun _ => rfl)).view.set := wwin_disj_17_23 c
  have hd_17_24 : Disjoint ((Memref.whole main_arg1 : Memref sig .tc .hbm S4096x2048 .f32).slice (Rect.unit (s := S4096x2048) (k0_off1 c 7#32) S2048x256.size (k0_off1_inb c 7)) (fun _ => rfl)).view.set ((Memref.whole main_arg1 : Memref sig .tc .hbm S4096x2048 .f32).slice (Rect.unit (s := S4096x2048) (k0_off2 c 4#32) S2048x256.size (k0_off2_inb c 4)) (fun _ => rfl)).view.set := wwin_disj_17_24 c
  have hd_17_25 : Disjoint ((Memref.whole main_arg1 : Memref sig .tc .hbm S4096x2048 .f32).slice (Rect.unit (s := S4096x2048) (k0_off1 c 7#32) S2048x256.size (k0_off1_inb c 7)) (fun _ => rfl)).view.set ((Memref.whole main_arg1 : Memref sig .tc .hbm S4096x2048 .f32).slice (Rect.unit (s := S4096x2048) (k0_off2 c 5#32) S2048x256.size (k0_off2_inb c 5)) (fun _ => rfl)).view.set := wwin_disj_17_25 c
  have hd_17_26 : Disjoint ((Memref.whole main_arg1 : Memref sig .tc .hbm S4096x2048 .f32).slice (Rect.unit (s := S4096x2048) (k0_off1 c 7#32) S2048x256.size (k0_off1_inb c 7)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_17_26 c
  have hd_17_27 : Disjoint ((Memref.whole main_arg1 : Memref sig .tc .hbm S4096x2048 .f32).slice (Rect.unit (s := S4096x2048) (k0_off1 c 7#32) S2048x256.size (k0_off1_inb c 7)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_17_27 c
  have hd_20_21 : Disjoint ((Memref.whole main_arg1 : Memref sig .tc .hbm S4096x2048 .f32).slice (Rect.unit (s := S4096x2048) (k0_off2 c 0#32) S2048x256.size (k0_off2_inb c 0)) (fun _ => rfl)).view.set ((Memref.whole main_arg1 : Memref sig .tc .hbm S4096x2048 .f32).slice (Rect.unit (s := S4096x2048) (k0_off2 c 1#32) S2048x256.size (k0_off2_inb c 1)) (fun _ => rfl)).view.set := wwin_disj_20_21 c
  have hd_20_22 : Disjoint ((Memref.whole main_arg1 : Memref sig .tc .hbm S4096x2048 .f32).slice (Rect.unit (s := S4096x2048) (k0_off2 c 0#32) S2048x256.size (k0_off2_inb c 0)) (fun _ => rfl)).view.set ((Memref.whole main_arg1 : Memref sig .tc .hbm S4096x2048 .f32).slice (Rect.unit (s := S4096x2048) (k0_off2 c 2#32) S2048x256.size (k0_off2_inb c 2)) (fun _ => rfl)).view.set := wwin_disj_20_22 c
  have hd_20_23 : Disjoint ((Memref.whole main_arg1 : Memref sig .tc .hbm S4096x2048 .f32).slice (Rect.unit (s := S4096x2048) (k0_off2 c 0#32) S2048x256.size (k0_off2_inb c 0)) (fun _ => rfl)).view.set ((Memref.whole main_arg1 : Memref sig .tc .hbm S4096x2048 .f32).slice (Rect.unit (s := S4096x2048) (k0_off2 c 3#32) S2048x256.size (k0_off2_inb c 3)) (fun _ => rfl)).view.set := wwin_disj_20_23 c
  have hd_20_24 : Disjoint ((Memref.whole main_arg1 : Memref sig .tc .hbm S4096x2048 .f32).slice (Rect.unit (s := S4096x2048) (k0_off2 c 0#32) S2048x256.size (k0_off2_inb c 0)) (fun _ => rfl)).view.set ((Memref.whole main_arg1 : Memref sig .tc .hbm S4096x2048 .f32).slice (Rect.unit (s := S4096x2048) (k0_off2 c 4#32) S2048x256.size (k0_off2_inb c 4)) (fun _ => rfl)).view.set := wwin_disj_20_24 c
  have hd_20_25 : Disjoint ((Memref.whole main_arg1 : Memref sig .tc .hbm S4096x2048 .f32).slice (Rect.unit (s := S4096x2048) (k0_off2 c 0#32) S2048x256.size (k0_off2_inb c 0)) (fun _ => rfl)).view.set ((Memref.whole main_arg1 : Memref sig .tc .hbm S4096x2048 .f32).slice (Rect.unit (s := S4096x2048) (k0_off2 c 5#32) S2048x256.size (k0_off2_inb c 5)) (fun _ => rfl)).view.set := wwin_disj_20_25 c
  have hd_20_26 : Disjoint ((Memref.whole main_arg1 : Memref sig .tc .hbm S4096x2048 .f32).slice (Rect.unit (s := S4096x2048) (k0_off2 c 0#32) S2048x256.size (k0_off2_inb c 0)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_20_26 c
  have hd_20_27 : Disjoint ((Memref.whole main_arg1 : Memref sig .tc .hbm S4096x2048 .f32).slice (Rect.unit (s := S4096x2048) (k0_off2 c 0#32) S2048x256.size (k0_off2_inb c 0)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_20_27 c
  have hd_21_22 : Disjoint ((Memref.whole main_arg1 : Memref sig .tc .hbm S4096x2048 .f32).slice (Rect.unit (s := S4096x2048) (k0_off2 c 1#32) S2048x256.size (k0_off2_inb c 1)) (fun _ => rfl)).view.set ((Memref.whole main_arg1 : Memref sig .tc .hbm S4096x2048 .f32).slice (Rect.unit (s := S4096x2048) (k0_off2 c 2#32) S2048x256.size (k0_off2_inb c 2)) (fun _ => rfl)).view.set := wwin_disj_21_22 c
  have hd_21_23 : Disjoint ((Memref.whole main_arg1 : Memref sig .tc .hbm S4096x2048 .f32).slice (Rect.unit (s := S4096x2048) (k0_off2 c 1#32) S2048x256.size (k0_off2_inb c 1)) (fun _ => rfl)).view.set ((Memref.whole main_arg1 : Memref sig .tc .hbm S4096x2048 .f32).slice (Rect.unit (s := S4096x2048) (k0_off2 c 3#32) S2048x256.size (k0_off2_inb c 3)) (fun _ => rfl)).view.set := wwin_disj_21_23 c
  have hd_21_24 : Disjoint ((Memref.whole main_arg1 : Memref sig .tc .hbm S4096x2048 .f32).slice (Rect.unit (s := S4096x2048) (k0_off2 c 1#32) S2048x256.size (k0_off2_inb c 1)) (fun _ => rfl)).view.set ((Memref.whole main_arg1 : Memref sig .tc .hbm S4096x2048 .f32).slice (Rect.unit (s := S4096x2048) (k0_off2 c 4#32) S2048x256.size (k0_off2_inb c 4)) (fun _ => rfl)).view.set := wwin_disj_21_24 c
  have hd_21_25 : Disjoint ((Memref.whole main_arg1 : Memref sig .tc .hbm S4096x2048 .f32).slice (Rect.unit (s := S4096x2048) (k0_off2 c 1#32) S2048x256.size (k0_off2_inb c 1)) (fun _ => rfl)).view.set ((Memref.whole main_arg1 : Memref sig .tc .hbm S4096x2048 .f32).slice (Rect.unit (s := S4096x2048) (k0_off2 c 5#32) S2048x256.size (k0_off2_inb c 5)) (fun _ => rfl)).view.set := wwin_disj_21_25 c
  have hd_21_26 : Disjoint ((Memref.whole main_arg1 : Memref sig .tc .hbm S4096x2048 .f32).slice (Rect.unit (s := S4096x2048) (k0_off2 c 1#32) S2048x256.size (k0_off2_inb c 1)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_21_26 c
  have hd_21_27 : Disjoint ((Memref.whole main_arg1 : Memref sig .tc .hbm S4096x2048 .f32).slice (Rect.unit (s := S4096x2048) (k0_off2 c 1#32) S2048x256.size (k0_off2_inb c 1)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_21_27 c
  have hd_22_23 : Disjoint ((Memref.whole main_arg1 : Memref sig .tc .hbm S4096x2048 .f32).slice (Rect.unit (s := S4096x2048) (k0_off2 c 2#32) S2048x256.size (k0_off2_inb c 2)) (fun _ => rfl)).view.set ((Memref.whole main_arg1 : Memref sig .tc .hbm S4096x2048 .f32).slice (Rect.unit (s := S4096x2048) (k0_off2 c 3#32) S2048x256.size (k0_off2_inb c 3)) (fun _ => rfl)).view.set := wwin_disj_22_23 c
  have hd_22_24 : Disjoint ((Memref.whole main_arg1 : Memref sig .tc .hbm S4096x2048 .f32).slice (Rect.unit (s := S4096x2048) (k0_off2 c 2#32) S2048x256.size (k0_off2_inb c 2)) (fun _ => rfl)).view.set ((Memref.whole main_arg1 : Memref sig .tc .hbm S4096x2048 .f32).slice (Rect.unit (s := S4096x2048) (k0_off2 c 4#32) S2048x256.size (k0_off2_inb c 4)) (fun _ => rfl)).view.set := wwin_disj_22_24 c
  have hd_22_25 : Disjoint ((Memref.whole main_arg1 : Memref sig .tc .hbm S4096x2048 .f32).slice (Rect.unit (s := S4096x2048) (k0_off2 c 2#32) S2048x256.size (k0_off2_inb c 2)) (fun _ => rfl)).view.set ((Memref.whole main_arg1 : Memref sig .tc .hbm S4096x2048 .f32).slice (Rect.unit (s := S4096x2048) (k0_off2 c 5#32) S2048x256.size (k0_off2_inb c 5)) (fun _ => rfl)).view.set := wwin_disj_22_25 c
  have hd_22_26 : Disjoint ((Memref.whole main_arg1 : Memref sig .tc .hbm S4096x2048 .f32).slice (Rect.unit (s := S4096x2048) (k0_off2 c 2#32) S2048x256.size (k0_off2_inb c 2)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_22_26 c
  have hd_22_27 : Disjoint ((Memref.whole main_arg1 : Memref sig .tc .hbm S4096x2048 .f32).slice (Rect.unit (s := S4096x2048) (k0_off2 c 2#32) S2048x256.size (k0_off2_inb c 2)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_22_27 c
  have hd_23_24 : Disjoint ((Memref.whole main_arg1 : Memref sig .tc .hbm S4096x2048 .f32).slice (Rect.unit (s := S4096x2048) (k0_off2 c 3#32) S2048x256.size (k0_off2_inb c 3)) (fun _ => rfl)).view.set ((Memref.whole main_arg1 : Memref sig .tc .hbm S4096x2048 .f32).slice (Rect.unit (s := S4096x2048) (k0_off2 c 4#32) S2048x256.size (k0_off2_inb c 4)) (fun _ => rfl)).view.set := wwin_disj_23_24 c
  have hd_23_25 : Disjoint ((Memref.whole main_arg1 : Memref sig .tc .hbm S4096x2048 .f32).slice (Rect.unit (s := S4096x2048) (k0_off2 c 3#32) S2048x256.size (k0_off2_inb c 3)) (fun _ => rfl)).view.set ((Memref.whole main_arg1 : Memref sig .tc .hbm S4096x2048 .f32).slice (Rect.unit (s := S4096x2048) (k0_off2 c 5#32) S2048x256.size (k0_off2_inb c 5)) (fun _ => rfl)).view.set := wwin_disj_23_25 c
  have hd_23_26 : Disjoint ((Memref.whole main_arg1 : Memref sig .tc .hbm S4096x2048 .f32).slice (Rect.unit (s := S4096x2048) (k0_off2 c 3#32) S2048x256.size (k0_off2_inb c 3)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_23_26 c
  have hd_23_27 : Disjoint ((Memref.whole main_arg1 : Memref sig .tc .hbm S4096x2048 .f32).slice (Rect.unit (s := S4096x2048) (k0_off2 c 3#32) S2048x256.size (k0_off2_inb c 3)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_23_27 c
  have hd_24_25 : Disjoint ((Memref.whole main_arg1 : Memref sig .tc .hbm S4096x2048 .f32).slice (Rect.unit (s := S4096x2048) (k0_off2 c 4#32) S2048x256.size (k0_off2_inb c 4)) (fun _ => rfl)).view.set ((Memref.whole main_arg1 : Memref sig .tc .hbm S4096x2048 .f32).slice (Rect.unit (s := S4096x2048) (k0_off2 c 5#32) S2048x256.size (k0_off2_inb c 5)) (fun _ => rfl)).view.set := wwin_disj_24_25 c
  have hd_24_26 : Disjoint ((Memref.whole main_arg1 : Memref sig .tc .hbm S4096x2048 .f32).slice (Rect.unit (s := S4096x2048) (k0_off2 c 4#32) S2048x256.size (k0_off2_inb c 4)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_24_26 c
  have hd_24_27 : Disjoint ((Memref.whole main_arg1 : Memref sig .tc .hbm S4096x2048 .f32).slice (Rect.unit (s := S4096x2048) (k0_off2 c 4#32) S2048x256.size (k0_off2_inb c 4)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_24_27 c
  have hd_25_26 : Disjoint ((Memref.whole main_arg1 : Memref sig .tc .hbm S4096x2048 .f32).slice (Rect.unit (s := S4096x2048) (k0_off2 c 5#32) S2048x256.size (k0_off2_inb c 5)) (fun _ => rfl)).view.set ((Memref.whole main_arg1 : Memref sig .tc .hbm S4096x2048 .f32).slice (Rect.unit (s := S4096x2048) (k0_off2 c 6#32) S2048x256.size (k0_off2_inb c 6)) (fun _ => rfl)).view.set := wwin_disj_25_26 c
  have hd_25_27 : Disjoint ((Memref.whole main_arg1 : Memref sig .tc .hbm S4096x2048 .f32).slice (Rect.unit (s := S4096x2048) (k0_off2 c 5#32) S2048x256.size (k0_off2_inb c 5)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_25_27 c
  have hd_26_27 : Disjoint ((Memref.whole main_arg1 : Memref sig .tc .hbm S4096x2048 .f32).slice (Rect.unit (s := S4096x2048) (k0_off2 c 6#32) S2048x256.size (k0_off2_inb c 6)) (fun _ => rfl)).view.set ((Memref.whole main_arg1 : Memref sig .tc .hbm S4096x2048 .f32).slice (Rect.unit (s := S4096x2048) (k0_off2 c 7#32) S2048x256.size (k0_off2_inb c 7)) (fun _ => rfl)).view.set := wwin_disj_26_27 c
  -- a wait on a semaphore that is no receive semaphore is allowed under each debt to receive cells
  have hmw0 : ∀ (q : DmaSem sig), recvT (SemLoc.dma q : SemLoc sig) = none → ((levAts L lv : sProp 𝕄) ⊢ MayWait (c : Thread nD τ) (SemLoc.dma q) (default : Unit) (tallyAt (recvCell (px c 1) 1) () NS + tallyAt (recvCell (px c 2) 2) () NS + tallyAt (recvCell (px c 3) 3) () NS + tallyAt (recvCell (px c 4) 4) () NS + tallyAt (recvCell (px c 5) 5) () NS + tallyAt (recvCell (px c 6) 6) () NS + tallyAt (recvCell (px c 7) 7) () NS)) := fun q hq => mw_0 c q hq
  have hmw1 : ∀ (q : DmaSem sig), recvT (SemLoc.dma q : SemLoc sig) = none → ((levAts L lv : sProp 𝕄) ⊢ MayWait (c : Thread nD τ) (SemLoc.dma q) (default : Unit) (tallyAt (recvCell (px c 1) 1) () NS + tallyAt (recvCell (px c 2) 2) () NS + tallyAt (recvCell (px c 3) 3) () NS + tallyAt (recvCell (px c 4) 4) () NS + tallyAt (recvCell (px c 5) 5) () NS + tallyAt (recvCell (px c 7) 7) () NS)) := fun q hq => mw_1 c q hq
  have hmw2 : ∀ (q : DmaSem sig), recvT (SemLoc.dma q : SemLoc sig) = none → ((levAts L lv : sProp 𝕄) ⊢ MayWait (c : Thread nD τ) (SemLoc.dma q) (default : Unit) (tallyAt (recvCell (px c 1) 1) () NS + tallyAt (recvCell (px c 3) 3) () NS + tallyAt (recvCell (px c 4) 4) () NS + tallyAt (recvCell (px c 5) 5) () NS + tallyAt (recvCell (px c 7) 7) () NS)) := fun q hq => mw_2 c q hq
  have hmw3 : ∀ (q : DmaSem sig), recvT (SemLoc.dma q : SemLoc sig) = none → ((levAts L lv : sProp 𝕄) ⊢ MayWait (c : Thread nD τ) (SemLoc.dma q) (default : Unit) (tallyAt (recvCell (px c 1) 1) () NS + tallyAt (recvCell (px c 3) 3) () NS + tallyAt (recvCell (px c 4) 4) () NS + tallyAt (recvCell (px c 7) 7) () NS)) := fun q hq => mw_3 c q hq
  have hmw4 : ∀ (q : DmaSem sig), recvT (SemLoc.dma q : SemLoc sig) = none → ((levAts L lv : sProp 𝕄) ⊢ MayWait (c : Thread nD τ) (SemLoc.dma q) (default : Unit) (tallyAt (recvCell (px c 1) 1) () NS + tallyAt (recvCell (px c 3) 3) () NS + tallyAt (recvCell (px c 4) 4) () NS)) := fun q hq => mw_4 c q hq
  have hmw5 : ∀ (q : DmaSem sig), recvT (SemLoc.dma q : SemLoc sig) = none → ((levAts L lv : sProp 𝕄) ⊢ MayWait (c : Thread nD τ) (SemLoc.dma q) (default : Unit) (tallyAt (recvCell (px c 3) 3) () NS + tallyAt (recvCell (px c 4) 4) () NS)) := fun q hq => mw_5 c q hq
  have hmw6 : ∀ (q : DmaSem sig), recvT (SemLoc.dma q : SemLoc sig) = none → ((levAts L lv : sProp 𝕄) ⊢ MayWait (c : Thread nD τ) (SemLoc.dma q) (default : Unit) (tallyAt (recvCell (px c 4) 4) () NS)) := fun q hq => mw_6 c q hq
  have hmw7 : ∀ (q : DmaSem sig), recvT (SemLoc.dma q : SemLoc sig) = none → ((levAts L lv : sProp 𝕄) ⊢ MayWait (c : Thread nD τ) (SemLoc.dma q) (default : Unit) (0)) := fun q hq => mw_7 c q hq
  -- the local copies are issued; the run stops at the load of the whole x buffer
  sl_exec_parts (disch := decide)
  -- the send slots, held through their unsqueezed slices for the stores
  ihave Hsb1u := (Entails.of_eq (sslot_unsq_1 (F := F) c fs)) $$ Hsb1
  ihave Hsb2u := (Entails.of_eq (sslot_unsq_2 (F := F) c fs)) $$ Hsb2
  ihave Hsb3u := (Entails.of_eq (sslot_unsq_3 (F := F) c fs)) $$ Hsb3
  ihave Hsb4u := (Entails.of_eq (sslot_unsq_4 (F := F) c fs)) $$ Hsb4
  ihave Hsb5u := (Entails.of_eq (sslot_unsq_5 (F := F) c fs)) $$ Hsb5
  ihave Hsb6u := (Entails.of_eq (sslot_unsq_6 (F := F) c fs)) $$ Hsb6
  ihave Hsb7u := (Entails.of_eq (sslot_unsq_7 (F := F) c fs)) $$ Hsb7
  -- the x buffer: its four quarters have landed and hold the device's block of x
  have xl0 : ∀ i ∈ (xQ 0).view.set, ((xQ 0).view.writes (Elt F) fx [⟨Rect.whole S128x4096, sound_body.sl.dma0 m c⟩]) i = xV m c i := x_landed_0 c fx (xV m c)
  have xl1 : ∀ i ∈ (xQ 1).view.set, ((xQ 1).view.writes (Elt F) fx [⟨Rect.whole S128x4096, sound_body.sl.dma0_1 m c⟩]) i = xV m c i := x_landed_1 c fx (xV m c)
  have xl2 : ∀ i ∈ (xQ 2).view.set, ((xQ 2).view.writes (Elt F) fx [⟨Rect.whole S128x4096, sound_body.sl.dma0_2 m c⟩]) i = xV m c i := x_landed_2 c fx (xV m c)
  have xl3 : ∀ i ∈ (xQ 3).view.set, ((xQ 3).view.writes (Elt F) fx [⟨Rect.whole S128x4096, sound_body.sl.dma0_3 m c⟩]) i = xV m c i := x_landed_3 c fx (xV m c)
  ihave Hxb := (x_join (F := F) c _ _ _ _ (xV m c) xl0 xl1 xl2 xl3) $$ [Hx0 Hx1 Hx2 Hx3]
  · isplitl [Hx0]; · iexact Hx0
    isplitl [Hx1]; · iexact Hx1
    isplitl [Hx2]; · iexact Hx2
    iexact Hx3
  sl_exec_parts (disch := decide)
  -- weight slot 0: its two halves have landed and hold the columns of device c xor 6
  ihave Hws0m := (wslot_joinedM_0 (F := F) c fw (wV m c)) $$ [Hw0_0 Hw0_1]
  · isplitl [Hw0_0]; · iexact Hw0_0
    iexact Hw0_1
  sl_exec_parts (disch := decide)
  -- the copy of slot 6 to device c xor 6: the slot holds the tile computed for that device
  ihave Hsb6s := (Entails.of_eq (sslot_unsq_6 (F := F) c _).symm) $$ Hsb6u
  ihave Hsb6v := (Entails.of_eq (pt_congr (send_val_6 m c fs))) $$ Hsb6s
  icases Hpr6 with ⟨%fn6, Hpr6⟩
  iapply (wp_send_slot_6 m K c _ (dev9_eq c) fn6 (tallyAt (recvCell (px c 1) 1) () NS + tallyAt (recvCell (px c 2) 2) () NS + tallyAt (recvCell (px c 3) 3) () NS + tallyAt (recvCell (px c 4) 4) () NS + tallyAt (recvCell (px c 5) 5) () NS + tallyAt (recvCell (px c 7) 7) () NS) (tallyAt (recvCell (px c 1) 1) () NS + tallyAt (recvCell (px c 2) 2) () NS + tallyAt (recvCell (px c 3) 3) () NS + tallyAt (recvCell (px c 4) 4) () NS + tallyAt (recvCell (px c 5) 5) () NS + tallyAt (recvCell (px c 6) 6) () NS + tallyAt (recvCell (px c 7) 7) () NS) (by ac_rfl) _) $$ [Hsb6v Hpr6 HO HtS6 HtR6]
  · isplitr; · iexact HIs6
    isplitr; · iexact HIpr6
    isplitl [Hsb6v]; · iexact Hsb6v
    isplitl [Hpr6]; · iexact Hpr6
    isplitl [HO]; · iexact HO
    isplitl [HtS6]; · iexact HtS6
    isplitr; · iexact HrS6
    isplitl [HtR6]; · iexact HtR6
    iexact HrR6
  iintro ⟨HcS6, HO⟩
  sl_exec_parts (disch := decide)
  -- weight slot 1: its two halves have landed and hold the columns of device c xor 2
  ihave Hws1m := (wslot_joinedM_1 (F := F) c fw (wV m c)) $$ [Hw1_0 Hw1_1]
  · isplitl [Hw1_0]; · iexact Hw1_0
    iexact Hw1_1
  sl_exec_parts (disch := decide)
  -- the copy of slot 2 to device c xor 2: the slot holds the tile computed for that device
  ihave Hsb2s := (Entails.of_eq (sslot_unsq_2 (F := F) c _).symm) $$ Hsb2u
  ihave Hsb2v := (Entails.of_eq (pt_congr (send_val_2 m c fs))) $$ Hsb2s
  icases Hpr2 with ⟨%fn2, Hpr2⟩
  iapply (wp_send_slot_2 m K c _ (dev10_eq c) fn2 (tallyAt (recvCell (px c 1) 1) () NS + tallyAt (recvCell (px c 3) 3) () NS + tallyAt (recvCell (px c 4) 4) () NS + tallyAt (recvCell (px c 5) 5) () NS + tallyAt (recvCell (px c 7) 7) () NS) (tallyAt (recvCell (px c 1) 1) () NS + tallyAt (recvCell (px c 2) 2) () NS + tallyAt (recvCell (px c 3) 3) () NS + tallyAt (recvCell (px c 4) 4) () NS + tallyAt (recvCell (px c 5) 5) () NS + tallyAt (recvCell (px c 7) 7) () NS) (by ac_rfl) _) $$ [Hsb2v Hpr2 HO HtS2 HtR2]
  · isplitr; · iexact HIs2
    isplitr; · iexact HIpr2
    isplitl [Hsb2v]; · iexact Hsb2v
    isplitl [Hpr2]; · iexact Hpr2
    isplitl [HO]; · iexact HO
    isplitl [HtS2]; · iexact HtS2
    isplitr; · iexact HrS2
    isplitl [HtR2]; · iexact HtR2
    iexact HrR2
  iintro ⟨HcS2, HO⟩
  sl_exec_parts (disch := decide)
  -- weight slot 2: its two halves have landed and hold the columns of device c xor 5
  ihave Hws2m := (wslot_joinedM_2 (F := F) c fw (wV m c)) $$ [Hw2_0 Hw2_1]
  · isplitl [Hw2_0]; · iexact Hw2_0
    iexact Hw2_1
  sl_exec_parts (disch := decide)
  -- the copy of slot 5 to device c xor 5: the slot holds the tile computed for that device
  ihave Hsb5s := (Entails.of_eq (sslot_unsq_5 (F := F) c _).symm) $$ Hsb5u
  ihave Hsb5v := (Entails.of_eq (pt_congr (send_val_5 m c fs))) $$ Hsb5s
  icases Hpr5 with ⟨%fn5, Hpr5⟩
  iapply (wp_send_slot_5 m K c _ (dev11_eq c) fn5 (tallyAt (recvCell (px c 1) 1) () NS + tallyAt (recvCell (px c 3) 3) () NS + tallyAt (recvCell (px c 4) 4) () NS + tallyAt (recvCell (px c 7) 7) () NS) (tallyAt (recvCell (px c 1) 1) () NS + tallyAt (recvCell (px c 3) 3) () NS + tallyAt (recvCell (px c 4) 4) () NS + tallyAt (recvCell (px c 5) 5) () NS + tallyAt (recvCell (px c 7) 7) () NS) (by ac_rfl) _) $$ [Hsb5v Hpr5 HO HtS5 HtR5]
  · isplitr; · iexact HIs5
    isplitr; · iexact HIpr5
    isplitl [Hsb5v]; · iexact Hsb5v
    isplitl [Hpr5]; · iexact Hpr5
    isplitl [HO]; · iexact HO
    isplitl [HtS5]; · iexact HtS5
    isplitr; · iexact HrS5
    isplitl [HtR5]; · iexact HtR5
    iexact HrR5
  iintro ⟨HcS5, HO⟩
  sl_exec_parts (disch := decide)
  -- weight slot 3: its two halves have landed and hold the columns of device c xor 7
  ihave Hws3m := (wslot_joinedM_3 (F := F) c fw (wV m c)) $$ [Hw3_0 Hw3_1]
  · isplitl [Hw3_0]; · iexact Hw3_0
    iexact Hw3_1
  sl_exec_parts (disch := decide)
  -- the copy of slot 7 to device c xor 7: the slot holds the tile computed for that device
  ihave Hsb7s := (Entails.of_eq (sslot_unsq_7 (F := F) c _).symm) $$ Hsb7u
  ihave Hsb7v := (Entails.of_eq (pt_congr (send_val_7 m c fs))) $$ Hsb7s
  icases Hpr7 with ⟨%fn7, Hpr7⟩
  iapply (wp_send_slot_7 m K c _ (dev12_eq c) fn7 (tallyAt (recvCell (px c 1) 1) () NS + tallyAt (recvCell (px c 3) 3) () NS + tallyAt (recvCell (px c 4) 4) () NS) (tallyAt (recvCell (px c 1) 1) () NS + tallyAt (recvCell (px c 3) 3) () NS + tallyAt (recvCell (px c 4) 4) () NS + tallyAt (recvCell (px c 7) 7) () NS) (by ac_rfl) _) $$ [Hsb7v Hpr7 HO HtS7 HtR7]
  · isplitr; · iexact HIs7
    isplitr; · iexact HIpr7
    isplitl [Hsb7v]; · iexact Hsb7v
    isplitl [Hpr7]; · iexact Hpr7
    isplitl [HO]; · iexact HO
    isplitl [HtS7]; · iexact HtS7
    isplitr; · iexact HrS7
    isplitl [HtR7]; · iexact HtR7
    iexact HrR7
  iintro ⟨HcS7, HO⟩
  sl_exec_parts (disch := decide)
  -- weight slot 4: its two halves have landed and hold the columns of device c xor 1
  ihave Hws4m := (wslot_joinedM_4 (F := F) c fw (wV m c)) $$ [Hw4_0 Hw4_1]
  · isplitl [Hw4_0]; · iexact Hw4_0
    iexact Hw4_1
  sl_exec_parts (disch := decide)
  -- the copy of slot 1 to device c xor 1: the slot holds the tile computed for that device
  ihave Hsb1s := (Entails.of_eq (sslot_unsq_1 (F := F) c _).symm) $$ Hsb1u
  ihave Hsb1v := (Entails.of_eq (pt_congr (send_val_1 m c fs))) $$ Hsb1s
  icases Hpr1 with ⟨%fn1, Hpr1⟩
  iapply (wp_send_slot_1 m K c _ (dev13_eq c) fn1 (tallyAt (recvCell (px c 3) 3) () NS + tallyAt (recvCell (px c 4) 4) () NS) (tallyAt (recvCell (px c 1) 1) () NS + tallyAt (recvCell (px c 3) 3) () NS + tallyAt (recvCell (px c 4) 4) () NS) (by ac_rfl) _) $$ [Hsb1v Hpr1 HO HtS1 HtR1]
  · isplitr; · iexact HIs1
    isplitr; · iexact HIpr1
    isplitl [Hsb1v]; · iexact Hsb1v
    isplitl [Hpr1]; · iexact Hpr1
    isplitl [HO]; · iexact HO
    isplitl [HtS1]; · iexact HtS1
    isplitr; · iexact HrS1
    isplitl [HtR1]; · iexact HtR1
    iexact HrR1
  iintro ⟨HcS1, HO⟩
  sl_exec_parts (disch := decide)
  -- weight slot 5: its two halves have landed and hold the columns of device c xor 3
  ihave Hws5m := (wslot_joinedM_5 (F := F) c fw (wV m c)) $$ [Hw5_0 Hw5_1]
  · isplitl [Hw5_0]; · iexact Hw5_0
    iexact Hw5_1
  sl_exec_parts (disch := decide)
  -- the copy of slot 3 to device c xor 3: the slot holds the tile computed for that device
  ihave Hsb3s := (Entails.of_eq (sslot_unsq_3 (F := F) c _).symm) $$ Hsb3u
  ihave Hsb3v := (Entails.of_eq (pt_congr (send_val_3 m c fs))) $$ Hsb3s
  icases Hpr3 with ⟨%fn3, Hpr3⟩
  iapply (wp_send_slot_3 m K c _ (dev14_eq c) fn3 (tallyAt (recvCell (px c 4) 4) () NS) (tallyAt (recvCell (px c 3) 3) () NS + tallyAt (recvCell (px c 4) 4) () NS) (by ac_rfl) _) $$ [Hsb3v Hpr3 HO HtS3 HtR3]
  · isplitr; · iexact HIs3
    isplitr; · iexact HIpr3
    isplitl [Hsb3v]; · iexact Hsb3v
    isplitl [Hpr3]; · iexact Hpr3
    isplitl [HO]; · iexact HO
    isplitl [HtS3]; · iexact HtS3
    isplitr; · iexact HrS3
    isplitl [HtR3]; · iexact HtR3
    iexact HrR3
  iintro ⟨HcS3, HO⟩
  sl_exec_parts (disch := decide)
  -- weight slot 6: its two halves have landed and hold the columns of device c xor 4
  ihave Hws6m := (wslot_joinedM_6 (F := F) c fw (wV m c)) $$ [Hw6_0 Hw6_1]
  · isplitl [Hw6_0]; · iexact Hw6_0
    iexact Hw6_1
  sl_exec_parts (disch := decide)
  -- the copy of slot 4 to device c xor 4: the slot holds the tile computed for that device
  ihave Hsb4s := (Entails.of_eq (sslot_unsq_4 (F := F) c _).symm) $$ Hsb4u
  ihave Hsb4v := (Entails.of_eq (pt_congr (send_val_4 m c fs))) $$ Hsb4s
  icases Hpr4 with ⟨%fn4, Hpr4⟩
  iapply (wp_send_slot_4 m K c _ (dev15_eq c) fn4 (0) (tallyAt (recvCell (px c 4) 4) () NS) (by ac_rfl) _) $$ [Hsb4v Hpr4 HO HtS4 HtR4]
  · isplitr; · iexact HIs4
    isplitr; · iexact HIpr4
    isplitl [Hsb4v]; · iexact Hsb4v
    isplitl [Hpr4]; · iexact Hpr4
    isplitl [HO]; · iexact HO
    isplitl [HtS4]; · iexact HtS4
    isplitr; · iexact HrS4
    isplitl [HtR4]; · iexact HtR4
    iexact HrR4
  iintro ⟨HcS4, HO⟩
  sl_exec_parts (disch := decide)
  -- weight slot 7: its two halves have landed and hold the columns of device c xor 0
  ihave Hws7m := (wslot_joinedM_7 (F := F) c fw (wV m c)) $$ [Hw7_0 Hw7_1]
  · isplitl [Hw7_0]; · iexact Hw7_0
    iexact Hw7_1
  sl_exec_parts (disch := decide)
  -- receive slot 1 has landed: it holds the tile device c xor 1 computed for this device
  ihave Hr1p := (Entails.of_eq (recv_all_1 m c)) $$ HatR1_pay1
  ihave Hr1u := (Entails.of_eq (rslot_unsq_1 (F := F) c _)) $$ Hr1p
  sl_exec_parts (disch := decide)
  -- receive slot 2 has landed: it holds the tile device c xor 2 computed for this device
  ihave Hr2p := (Entails.of_eq (recv_all_2 m c)) $$ HatR2_pay1
  ihave Hr2u := (Entails.of_eq (rslot_unsq_2 (F := F) c _)) $$ Hr2p
  sl_exec_parts (disch := decide)
  -- receive slot 3 has landed: it holds the tile device c xor 3 computed for this device
  ihave Hr3p := (Entails.of_eq (recv_all_3 m c)) $$ HatR3_pay1
  ihave Hr3u := (Entails.of_eq (rslot_unsq_3 (F := F) c _)) $$ Hr3p
  sl_exec_parts (disch := decide)
  -- receive slot 4 has landed: it holds the tile device c xor 4 computed for this device
  ihave Hr4p := (Entails.of_eq (recv_all_4 m c)) $$ HatR4_pay1
  ihave Hr4u := (Entails.of_eq (rslot_unsq_4 (F := F) c _)) $$ Hr4p
  sl_exec_parts (disch := decide)
  -- receive slot 5 has landed: it holds the tile device c xor 5 computed for this device
  ihave Hr5p := (Entails.of_eq (recv_all_5 m c)) $$ HatR5_pay1
  ihave Hr5u := (Entails.of_eq (rslot_unsq_5 (F := F) c _)) $$ Hr5p
  sl_exec_parts (disch := decide)
  -- receive slot 6 has landed: it holds the tile device c xor 6 computed for this device
  ihave Hr6p := (Entails.of_eq (recv_all_6 m c)) $$ HatR6_pay1
  ihave Hr6u := (Entails.of_eq (rslot_unsq_6 (F := F) c _)) $$ Hr6p
  sl_exec_parts (disch := decide)
  -- receive slot 7 has landed: it holds the tile device c xor 7 computed for this device
  ihave Hr7p := (Entails.of_eq (recv_all_7 m c)) $$ HatR7_pay1
  ihave Hr7u := (Entails.of_eq (rslot_unsq_7 (F := F) c _)) $$ Hr7p
  sl_exec_parts (disch := decide)
  ihave Hsp1 := (Entails.of_eq (send_all_1 m c)) $$ HatS1_pay1
  ihave Hsp2 := (Entails.of_eq (send_all_2 m c)) $$ HatS2_pay1
  ihave Hsp3 := (Entails.of_eq (send_all_3 m c)) $$ HatS3_pay1
  ihave Hsp4 := (Entails.of_eq (send_all_4 m c)) $$ HatS4_pay1
  ihave Hsp5 := (Entails.of_eq (send_all_5 m c)) $$ HatS5_pay1
  ihave Hsp6 := (Entails.of_eq (send_all_6 m c)) $$ HatS6_pay1
  ihave Hsp7 := (Entails.of_eq (send_all_7 m c)) $$ HatS7_pay1
  -- the end: every piece back, the fourteen cells closed, the output block at the device's result
  ihave Hwr0 := (wslotM_cut_0 (F := F) c (wLand (wV m c) c)) $$ Hws0m
  ihave Hwr1 := (wslotM_cut_1 (F := F) c (wLand (wV m c) c)) $$ Hws1m
  ihave Hwr2 := (wslotM_cut_2 (F := F) c (wLand (wV m c) c)) $$ Hws2m
  ihave Hwr3 := (wslotM_cut_3 (F := F) c (wLand (wV m c) c)) $$ Hws3m
  ihave Hwr4 := (wslotM_cut_4 (F := F) c (wLand (wV m c) c)) $$ Hws4m
  ihave Hwr5 := (wslotM_cut_5 (F := F) c (wLand (wV m c) c)) $$ Hws5m
  ihave Hwr6 := (wslotM_cut_6 (F := F) c (wLand (wV m c) c)) $$ Hws6m
  ihave Hwr7 := (wslotM_cut_7 (F := F) c (wLand (wV m c) c)) $$ Hws7m
  ihave Hrs1 := (Entails.of_eq (rslot_unsq_1 (F := F) c _).symm) $$ Hr1u
  ihave Hrs2 := (Entails.of_eq (rslot_unsq_2 (F := F) c _).symm) $$ Hr2u
  ihave Hrs3 := (Entails.of_eq (rslot_unsq_3 (F := F) c _).symm) $$ Hr3u
  ihave Hrs4 := (Entails.of_eq (rslot_unsq_4 (F := F) c _).symm) $$ Hr4u
  ihave Hrs5 := (Entails.of_eq (rslot_unsq_5 (F := F) c _).symm) $$ Hr5u
  ihave Hrs6 := (Entails.of_eq (rslot_unsq_6 (F := F) c _).symm) $$ Hr6u
  ihave Hrs7 := (Entails.of_eq (rslot_unsq_7 (F := F) c _).symm) $$ Hr7u
  have hfo : _ = outV m c := out_val_list m c fo
  imod (body_close_flat m K c (xV m c) (wLand (wV m c) c) _ hfo) $$ [HX HW Hxb Hwr0 Hwr1 Hwr2 Hwr3 Hwr4 Hwr5 Hwr6 Hwr7 Hsb0 Hsp1 Hsp2 Hsp3 Hsp4 Hsp5 Hsp6 Hsp7 Hrb0 Hrs1 Hrs2 Hrs3 Hrs4 Hrs5 Hrs6 Hrs7 Hs1 Hs2 Hs3 Hs4 Hs5 Hs6 Hs7 Hs8 Hs9 Hs10 Hs11 Hs12 Hs13 Hs21 HatS1 HatR1 HatS2 HatR2 HatS3 HatR3 HatS4 HatR4 HatS5 HatR5 HatS6 HatR6 HatS7 HatR7 Hout HO] with Hend
  · isplitl [HX]; · iexact HX
    isplitl [HW]; · iexact HW
    isplitl [Hxb]; · iexact Hxb
    isplitl [Hwr0]; · iexact Hwr0
    isplitl [Hwr1]; · iexact Hwr1
    isplitl [Hwr2]; · iexact Hwr2
    isplitl [Hwr3]; · iexact Hwr3
    isplitl [Hwr4]; · iexact Hwr4
    isplitl [Hwr5]; · iexact Hwr5
    isplitl [Hwr6]; · iexact Hwr6
    isplitl [Hwr7]; · iexact Hwr7
    isplitl [Hsb0]; · iexists _; iexact Hsb0
    isplitl [Hsp1]; · iexists _; iexact Hsp1
    isplitl [Hsp2]; · iexists _; iexact Hsp2
    isplitl [Hsp3]; · iexists _; iexact Hsp3
    isplitl [Hsp4]; · iexists _; iexact Hsp4
    isplitl [Hsp5]; · iexists _; iexact Hsp5
    isplitl [Hsp6]; · iexists _; iexact Hsp6
    isplitl [Hsp7]; · iexists _; iexact Hsp7
    isplitl [Hrb0]; · iexact Hrb0
    isplitl [Hrs1]; · iexists _; iexact Hrs1
    isplitl [Hrs2]; · iexists _; iexact Hrs2
    isplitl [Hrs3]; · iexists _; iexact Hrs3
    isplitl [Hrs4]; · iexists _; iexact Hrs4
    isplitl [Hrs5]; · iexists _; iexact Hrs5
    isplitl [Hrs6]; · iexists _; iexact Hrs6
    isplitl [Hrs7]; · iexists _; iexact Hrs7
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs21]; · iexact Hs21
    isplitr; · iexact HIs1
    isplitl [HatS1]; · iexact HatS1
    isplitr; · iexact HIr1
    isplitl [HatR1]; · iexact HatR1
    isplitr; · iexact HIs2
    isplitl [HatS2]; · iexact HatS2
    isplitr; · iexact HIr2
    isplitl [HatR2]; · iexact HatR2
    isplitr; · iexact HIs3
    isplitl [HatS3]; · iexact HatS3
    isplitr; · iexact HIr3
    isplitl [HatR3]; · iexact HatR3
    isplitr; · iexact HIs4
    isplitl [HatS4]; · iexact HatS4
    isplitr; · iexact HIr4
    isplitl [HatR4]; · iexact HatR4
    isplitr; · iexact HIs5
    isplitl [HatS5]; · iexact HatS5
    isplitr; · iexact HIr5
    isplitl [HatR5]; · iexact HatR5
    isplitr; · iexact HIs6
    isplitl [HatS6]; · iexact HatS6
    isplitr; · iexact HIr6
    isplitl [HatR6]; · iexact HatR6
    isplitr; · iexact HIs7
    isplitl [HatS7]; · iexact HatS7
    isplitr; · iexact HIr7
    isplitl [HatR7]; · iexact HatR7
    isplitl [Hout]; · iexact Hout
    iexists _; iexact HO
  rw [wp_ret]; imodintro
  iapply Hk; iexact Hend

/-- The library's body obligation on device `c`. -/
theorem body_obligation (c : Dev nD) : BodyObligation (dats (F := F) m 0 c) (defs₀ (F := F)) 𝒱₀ () Set.univ :=
  body_obligation_of m (sound_body m) c

end Cert.Kernel.A2A

end
-- ==== Proof.LaunchB.lean ====
/-
  The launch: from "each device's body is proved" to the run of the whole program on the eight devices.

  What a device is handed at launch is sorted into what its body starts from: the two argument arrays (they are not staged,
  so they reach the body as the unscoped buffers no window owns), the four scratch buffers at arbitrary contents, the
  credit to wait on its barrier and receive cells, the level facts, and the ghost state of the exchange. When the body
  ends the device hands back the scratch buffers, all twenty-eight scoped semaphores at zero, and keeps the two argument
  arrays, which are then read against the final memory: they hold what they held. The result array is the one window's
  array; the window has one block, the whole array, written back once, so the array ends as what the body left.
-/
import proofs.«900796_g7700000000000797_dist_gemm_a2a_m4096_k4096_n2048_f32_gelu_v7x_i8_1_alg».proof.Proof.LevelsB
import proofs.«900796_g7700000000000797_dist_gemm_a2a_m4096_k4096_n2048_f32_gelu_v7x_i8_1_alg».proof.Proof.CreditB
import proofs.«900796_g7700000000000797_dist_gemm_a2a_m4096_k4096_n2048_f32_gelu_v7x_i8_1_alg».proof.Proof.GlobB
import proofs.«900796_g7700000000000797_dist_gemm_a2a_m4096_k4096_n2048_f32_gelu_v7x_i8_1_alg».proof.Proof.BodyB

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Whole buffers, as the launch hands them over

  The launch theorem speaks of a whole buffer at every index; the proof data name the same buffers through the view of the
  whole memref. The two agree: the view of a whole memref covers every index. -/

omit [FloatOps F] in
theorem argPts_eq (c : Dev nD) : argPts m c
    = (iprop((((c : Thread nD τ).loc main_arg0) ↦{fullShare} m ((c : Thread nD τ).loc main_arg0))
        ∗ (((c : Thread nD τ).loc main_arg1) ↦{fullShare} m ((c : Thread nD τ).loc main_arg1))) : sProp 𝕄) := by
  unfold argPts xV wV
  rw [show (xA).view.set = Finset.univ from View.set_whole _, show (wA).view.set = Finset.univ from View.set_whole _]

omit [FloatOps F] in
theorem scopedRest_eq (c : Dev nD) : (Pipeline.scopedRest cfg0.spec c : sProp 𝕄) = scratchAny c := by
  rw [scopedRest0_eq]
  unfold scratchAny
  rw [show (xbM).view.set = Finset.univ from View.set_whole _, show (wbM).view.set = Finset.univ from View.set_whole _,
    show (sbM).view.set = Finset.univ from View.set_whole _, show (rbM).view.set = Finset.univ from View.set_whole _]

omit [FloatOps F] in
/-- The kernel's twenty-eight scoped semaphores at zero, listed: the fourteen no other device touches, then each slot's
    send and receive semaphore. -/
theorem ownSems0_list (c : Dev nD) :
    (Pipeline.ownSems0 (Ix := Unit) (Name := ℕ) (U := UU) (Lvl := ℕ) (Val := Elt F) (τ := τ) osem c : sProp 𝕄)
      = iprop(semVal ((c : Thread nD τ), SemLoc.dma (1 : DmaSem sig)) 0
        ∗ semVal ((c : Thread nD τ), SemLoc.dma (2 : DmaSem sig)) 0
        ∗ semVal ((c : Thread nD τ), SemLoc.dma (3 : DmaSem sig)) 0
        ∗ semVal ((c : Thread nD τ), SemLoc.dma (4 : DmaSem sig)) 0
        ∗ semVal ((c : Thread nD τ), SemLoc.dma (5 : DmaSem sig)) 0
        ∗ semVal ((c : Thread nD τ), SemLoc.dma (6 : DmaSem sig)) 0
        ∗ semVal ((c : Thread nD τ), SemLoc.dma (7 : DmaSem sig)) 0
        ∗ semVal ((c : Thread nD τ), SemLoc.dma (8 : DmaSem sig)) 0
        ∗ semVal ((c : Thread nD τ), SemLoc.dma (9 : DmaSem sig)) 0
        ∗ semVal ((c : Thread nD τ), SemLoc.dma (10 : DmaSem sig)) 0
        ∗ semVal ((c : Thread nD τ), SemLoc.dma (11 : DmaSem sig)) 0
        ∗ semVal ((c : Thread nD τ), SemLoc.dma (12 : DmaSem sig)) 0
        ∗ semVal ((c : Thread nD τ), SemLoc.dma (13 : DmaSem sig)) 0
        ∗ semVal ((c : Thread nD τ), SemLoc.dma (21 : DmaSem sig)) 0
        ∗ semVal (sendCell c 1) 0 ∗ semVal (recvCell c 1) 0
        ∗ semVal (sendCell c 2) 0 ∗ semVal (recvCell c 2) 0
        ∗ semVal (sendCell c 3) 0 ∗ semVal (recvCell c 3) 0
        ∗ semVal (sendCell c 4) 0 ∗ semVal (recvCell c 4) 0
        ∗ semVal (sendCell c 5) 0 ∗ semVal (recvCell c 5) 0
        ∗ semVal (sendCell c 6) 0 ∗ semVal (recvCell c 6) 0
        ∗ semVal (sendCell c 7) 0 ∗ semVal (recvCell c 7) 0) := by
  rw [Pipeline.ownSems0_eq_of_list c osem
    [0, 1, 2, 3, 4, 5, 6, 7, 8, 9, 10, 11, 12, 20, 13, 21, 14, 22, 15, 23, 16, 24, 17, 25, 18, 26, 19, 27] (by decide) (by decide)]
  rfl

omit [FloatOps F] in
/-- They are the ones the proof data hold at the end, regrouped. -/
theorem ownSems0_of_all (c : Dev nD) :
    allSems0 c ⊢ (Pipeline.ownSems0 (Ix := Unit) (Name := ℕ) (U := UU) (Lvl := ℕ) (Val := Elt F) (τ := τ) osem c : sProp 𝕄) := by
  rw [ownSems0_list]
  unfold allSems0 plainSems
  iintro ⟨⟨P1, P2, P3, P4, P5, P6, P7, P8, P9, P10, P11, P12, P13, P14⟩, Q⟩
  isplitl [P1]; · iexact P1
  isplitl [P2]; · iexact P2
  isplitl [P3]; · iexact P3
  isplitl [P4]; · iexact P4
  isplitl [P5]; · iexact P5
  isplitl [P6]; · iexact P6
  isplitl [P7]; · iexact P7
  isplitl [P8]; · iexact P8
  isplitl [P9]; · iexact P9
  isplitl [P10]; · iexact P10
  isplitl [P11]; · iexact P11
  isplitl [P12]; · iexact P12
  isplitl [P13]; · iexact P13
  isplitl [P14]; · iexact P14
  iexact Q

theorem share_eq (c : Dev nD) (w : Fin cfg0.W) : (dats m 0 c).share w = fullShare :=
  Pipeline.Dat.share_full _ (fun _ => rfl) w

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hargs, Hlev, Hcr, -, HG⟩
  ihave Hc := (creds (F := F) c) $$ Hcr
  imodintro
  unfold start G'
  rw [argPts_eq]
  icases HG with ⟨HK, Hpl⟩
  isplitl
  · isplitl [HK]; · iexact HK
    isplitl [Hc]; · iexact Hc
    isplitl [Hlev]; · iexact Hlev
    isplitl [Hpl]; · iexact Hpl
    iexact Hargs
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest_eq]
  unfold Φ₀
  iintro ⟨Hs, -, Hr⟩
  isplitl [Hs]; · iexact Hs
  iexact Hr

theorem phi1_exit (c : Dev nD) :
    (dats m 0 c).Φ (Fin.last cfg0.N) ⊢ iprop(argPts m c ∗ Pipeline.ownSems0 osem c ∗ Pipeline.scopedRest cfg0.spec c) := by
  rw [show (dats m 0 c).Φ (Fin.last cfg0.N) = Φ₁ m c from rfl, scopedRest_eq]
  unfold Φ₁
  iintro ⟨Ha, Hs, Hz⟩
  isplitl [Ha]; · iexact Ha
  isplitl [Hz]; · iapply (ownSems0_of_all c); iexact Hz
  iexact Hs

theorem waits (c : Dev nD) : (levAts L lv : sProp 𝕄) ⊢ Pipeline.cellsWaits cfgs (dats m) () 0 c :=
  Pipeline.cellsWaits_intro cfgs (dats m) () 0 c fun w s t =>
    mayWait_local c _ (by fin_cases w <;> fin_cases s <;> decide) _ (by
      rcases t with ⟨_ | _, ht⟩
      · exact Or.inl rfl
      · exact Or.inr (Or.inr rfl))

/-! ## The run -/

/-- The result array after the one write-back: the window has one block, the whole array, written back at the one point,
    so the array ends holding what the body left in the staging buffer. -/
theorem final_out (c : Dev nD) : (dats m 0 c).arrAt (0 : Fin cfg0.W) cfg0.N = outV m c := by
  have hN : cfg0.N = t0_0.val + 1 := N_0
  have h := (dats m 0 c).arrAt_succ (0 : Fin cfg0.W) t0_0
  rw [flush0_0, if_pos rfl] at h
  refine (congrArg ((dats m 0 c).arrAt (0 : Fin cfg0.W)) hN).trans (h.trans ?_)
  refine (Memref.write_access_unit_zero_univ (Elt F) main_v1 (funext fun a => Nat.zero_mul _) _ _ _).trans ?_
  rfl

set_option maxRecDepth 8000 in
/-- On the eight devices, at any float values, from any memory with every counter at zero: every weakly fair execution
    of the program terminates without fault, and in every final state each device's result array holds its block of the
    exchange's result while its two argument arrays hold what they held. -/
theorem run_main : θ_run defs (onTc (τ := τ) (main (F := F))) ⟨m, fun _ => 0, ρ⟩ (fun r => ∀ c : Dev nD,
    r.2.mem ((c.tc : Thread nD τ).loc main_v1) = outV m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu₀ m)
    (hglob := glob m)
    (hA := fun _ _ => rfl) (hpf := fun _ k => k.elim0)
    (X := start m) (Y := argPts m) (Z := fun _ => iprop(emp))
    (hX := start_intro m ρ) (hin := phi0_intro m) (hout := phi1_exit m)
    (QY := fun c s => s.mem ((c.tc : Thread nD τ).loc main_arg0) = m ((c.tc : Thread nD τ).loc main_arg0)
      ∧ s.mem ((c.tc : Thread nD τ).loc main_arg1) = m ((c.tc : Thread nD τ).loc main_arg1))
    (hY := fun c s' => by
      rw [argPts_eq]
      iintro ⟨⟨Hx, Hw⟩, -, HSI⟩
      icombine HSI Hx gives %hx
      icombine HSI Hw gives %hw
      imodintro
      isplitr; · ipureintro; exact ⟨Buf.eq_of_forall_mem_univ hx, Buf.eq_of_forall_mem_univ hw⟩
      iexact HSI)
    (hQ := fun s h c => ⟨((h c).1 0).trans (final_out m c), (h c).2.2⟩)

/-- The same run, the result's value dropped: the argument arrays end unchanged. -/
theorem frame_run : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => (h c).2) (run_main m ρ)

/-- info: 'Cert.Kernel.A2A.run_main' depends on axioms: [propext, Classical.choice, Quot.sound] -/
#guard_msgs in #print axioms run_main

end Cert.Kernel.A2A

end
-- ==== Proof.Spec.lean ====
/-
  The function both programs compute, on the extended reals.

  With y = Σₖ x[i,k] · w[k,j] a row of x against a column of w, each entry of the result is the tanh form of GELU,
      gelu y = (½ · y) · (1 + tanh (κ · (y + ((a · y) · y) · y))),
  where ½, 1, κ (√(2/π) rounded to binary32) and a (0.044715 rounded to binary32) are the exact values of their
  binary32 patterns. The cube is grouped as the per-device program groups it; the whole-array program groups it as
  a · ((y · y) · y), and the two agree because multiplication of extended reals is associative and commutative.
-/
import Idealize.ShloMosaic.PureOps.Ideal
import Idealize.ShloMosaic.Lib.ValueIdx

noncomputable section

namespace Cert.A2A

open Idealize.ShloMosaic

/-- The tanh form of GELU on the extended reals, its four constants at the exact values of their binary32 patterns. -/
def gelu (y : EReal) : EReal :=
  (Ideal.ofBits .f32 0x3F000000#32 * y) *
    (Ideal.ofBits .f32 0x3F800000#32 + Ideal.tanh (Ideal.ofBits .f32 0x3F4C422A#32 * (y + ((Ideal.ofBits .f32 0x3D372713#32 * y) * y) * y)))

/-- The same value with the cube grouped as a · ((y · y) · y). -/
theorem gelu_regroup (y : EReal) :
    (Ideal.ofBits .f32 0x3F000000#32 * y) *
      (Ideal.ofBits .f32 0x3F800000#32 + Ideal.tanh (Ideal.ofBits .f32 0x3F4C422A#32 * (y + Ideal.ofBits .f32 0x3D372713#32 * ((y * y) * y))))
    = gelu y := by
  unfold gelu
  rw [mul_assoc (Ideal.ofBits .f32 0x3D372713#32) y y, mul_assoc (Ideal.ofBits .f32 0x3D372713#32) (y * y) y]

end Cert.A2A

end
-- ==== Proof.RefVal.lean ====
/-
  The whole-array program's run and its value.

  On one device the program forms y = x · w, a 4096 × 2048 array whose entry (i, j) is Σₖ x[i,k] · w[k,j] over the
  4096 values of k, and then the tanh form of GELU of every entry, the cube of y grouped as a · ((y · y) · y). Read at
  an index, each of its operations acts on the entries at that index alone, and the contraction is that sum; so the
  result is the array G x w whose entry (i, j) is gelu (Σₖ x[i,k] · w[k,j]), the cube regrouped by associativity of
  the product of extended reals. Every weakly fair execution ends with the result array at G of the two argument
  arrays as they stood at the start, and with those two arrays unchanged.
-/
import proofs.«900796_g7700000000000797_dist_gemm_a2a_m4096_k4096_n2048_f32_gelu_v7x_i8_1_alg».proof.Defs
import proofs.«900796_g7700000000000797_dist_gemm_a2a_m4096_k4096_n2048_f32_gelu_v7x_i8_1_alg».proof.Proof.Gen.ReferenceIdeal
import proofs.«900796_g7700000000000797_dist_gemm_a2a_m4096_k4096_n2048_f32_gelu_v7x_i8_1_alg».proof.Proof.Gen.ReferenceIdeal.Run
import proofs.«900796_g7700000000000797_dist_gemm_a2a_m4096_k4096_n2048_f32_gelu_v7x_i8_1_alg».proof.Proof.Gen.ReferenceIdeal.Read
import proofs.«900796_g7700000000000797_dist_gemm_a2a_m4096_k4096_n2048_f32_gelu_v7x_i8_1_alg».proof.Proof.Gen.Pre_finite_inputs_ReferenceIdeal
import proofs.«900796_g7700000000000797_dist_gemm_a2a_m4096_k4096_n2048_f32_gelu_v7x_i8_1_alg».proof.Proof.Spec

noncomputable section

namespace Cert.A2A.Ref

open Idealize.ShloMosaic Idealize.ShloMosaic.TcCoe Idealize.SL.Sem Idealize.ShloMosaic.ValueIdx
open Cert.ReferenceIdeal Cert.ReferenceIdeal.Gen
open scoped BigOperators

/-! ## The function of the two whole arrays -/

/-- Entry (i, j) is GELU of row i of x against column j of w. -/
def G (x : FVec Ideal S4096x4096 .f32) (w : FVec Ideal S4096x2048 .f32) : FVec Ideal S4096x2048 .f32 :=
  fun i => gelu (∑ k : Fin 4096,
    x (ix2 (⟨(i 0).val, idx2_lt0 i⟩ : Fin 4096) k) * w (ix2 k (⟨(i 1).val, idx2_lt1 i⟩ : Fin 2048)))

/-- G at the index with coordinates i and j. -/
theorem G_apply (x : FVec Ideal S4096x4096 .f32) (w : FVec Ideal S4096x2048 .f32) (i : Fin 4096) (j : Fin 2048) :
    G x w (ix2 i j) = gelu (∑ k : Fin 4096, x (ix2 i k) * w (ix2 k j)) := rfl

/-! ## The program's last stage is G -/

/-- The contraction reads the left array at (row of the result index, k) … -/
theorem lidx_ix2 (i : Fin 4096) (j : Fin 2048) (k : Fin 4096) :
    Cert.ReferenceIdeal.Read.lidx_main_v0 (ix2 i j) k = ix2 i k :=
  funext fun a => Fin.ext (by match a with | ⟨0, _⟩ => rfl | ⟨1, _⟩ => rfl)

/-- … and the right array at (k, column of the result index). -/
theorem ridx_ix2 (i : Fin 4096) (j : Fin 2048) (k : Fin 4096) :
    Cert.ReferenceIdeal.Read.ridx_main_v0 (ix2 i j) k = ix2 k j :=
  funext fun a => Fin.ext (by match a with | ⟨0, _⟩ => rfl | ⟨1, _⟩ => rfl)

/-- The product x · w at an index is the sum over k of x[i,k] · w[k,j]. -/
theorem dot_apply (x : FVec Ideal S4096x4096 .f32) (w : FVec Ideal S4096x2048 .f32) (i : Fin 4096) (j : Fin 2048) :
    Cert.ReferenceIdeal.Read.val_main_v0 (F := Ideal) x w (ix2 i j) = ∑ k : Fin 4096, x (ix2 i k) * w (ix2 k j) := by
  rw [Cert.ReferenceIdeal.Read.val_main_v0_apply]
  exact Finset.sum_congr rfl fun k _ => by rw [lidx_ix2, ridx_ix2]

/-- The last stage, entry by entry: each operation after the product acts at the index alone, the four constants are
    read everywhere at their patterns' values, and what is left is GELU with the cube grouped a · ((y · y) · y). -/
theorem stage_eq (x : FVec Ideal S4096x4096 .f32) (w : FVec Ideal S4096x2048 .f32) :
    Cert.ReferenceIdeal.Read.val_main_v13 (F := Ideal) x w = G x w := by
  funext i
  obtain ⟨p, q, rfl⟩ : ∃ (p : Fin 4096) (q : Fin 2048), i = ix2 p q := ⟨i 0, i 1, eq_ix2 i⟩
  rw [G_apply, ← gelu_regroup, ← dot_apply x w p q]
  rw [Cert.ReferenceIdeal.Read.val_main_v13_apply, Cert.ReferenceIdeal.Read.val_main_v2_apply,
    Cert.ReferenceIdeal.Read.val_main_v12_apply, Cert.ReferenceIdeal.Read.val_main_v10_apply,
    Cert.ReferenceIdeal.Read.val_main_v9_apply, Cert.ReferenceIdeal.Read.val_main_v7_apply,
    Cert.ReferenceIdeal.Read.val_main_v6_apply, Cert.ReferenceIdeal.Read.val_main_v4_apply,
    Cert.ReferenceIdeal.Read.val_main_v3_apply,
    Cert.ReferenceIdeal.Read.val_main_v1_apply, Cert.ReferenceIdeal.Read.val_main_v5_apply,
    Cert.ReferenceIdeal.Read.val_main_v8_apply, Cert.ReferenceIdeal.Read.val_main_v11_apply,
    Cert.ReferenceIdeal.Read.val_main_cst_apply, Cert.ReferenceIdeal.Read.val_main_cst_0_apply,
    Cert.ReferenceIdeal.Read.val_main_cst_1_apply, Cert.ReferenceIdeal.Read.val_main_cst_2_apply]
  simp only [Ideal.mulf_def, Ideal.addf_def, Ideal.hostUnary_tanh_def, Ideal.ofBits_def]

/-- The term the program's run states for its result is G of the two arguments. -/
theorem result_eq (x : FVec Ideal S4096x4096 .f32) (w : FVec Ideal S4096x2048 .f32) :
    mulf (mulf (broadcastInDim S4096x2048 ![] bcast_S_S4096x2048 (constant S_ .f32 0x3F000000#32)) (Host.dotGeneral dot_S4096x4096_S4096x2048_S4096x2048_1_0_0_1_n_n none x w)) (addf (broadcastInDim S4096x2048 ![] bcast_S_S4096x2048 (constant S_ .f32 0x3F800000#32)) (Host.tanh (mulf (broadcastInDim S4096x2048 ![] bcast_S_S4096x2048 (constant S_ .f32 0x3F4C422A#32)) (addf (Host.dotGeneral dot_S4096x4096_S4096x2048_S4096x2048_1_0_0_1_n_n none x w) (mulf (broadcastInDim S4096x2048 ![] bcast_S_S4096x2048 (constant S_ .f32 0x3D372713#32)) (mulf (mulf (Host.dotGeneral dot_S4096x4096_S4096x2048_S4096x2048_1_0_0_1_n_n none x w) (Host.dotGeneral dot_S4096x4096_S4096x2048_S4096x2048_1_0_0_1_n_n none x w)) (Host.dotGeneral dot_S4096x4096_S4096x2048_S4096x2048_1_0_0_1_n_n none x w)))))))
      = G x w :=
  (Cert.ReferenceIdeal.Read.val_main_v13_eq (F := Ideal) x w).trans (stage_eq x w)

/-! ## The run -/

/-- From any memory with every counter at zero, every weakly fair execution of the program terminates with the result
    array at G of the two argument arrays as they stood at the start, and those two arrays unchanged. -/
theorem run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v13)
          = G (m' (((0 : Dev Cert.ReferenceIdeal.nD).tc : Thread Cert.ReferenceIdeal.nD Cert.ReferenceIdeal.τ).loc Cert.ReferenceIdeal.main_arg0))
              (m' (((0 : Dev Cert.ReferenceIdeal.nD).tc : Thread Cert.ReferenceIdeal.nD Cert.ReferenceIdeal.τ).loc Cert.ReferenceIdeal.main_arg1))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) :=
  (θ_run Cert.ReferenceIdeal.defs _ _).mono
    (fun _ h => ⟨(h 0).1.trans (result_eq _ _), (h 0).2⟩)
    (Cert.ReferenceIdeal.Value.run (F := Ideal) m' g')

/-- The program runs and leaves its two argument arrays as they were: the run with the result's value dropped. -/
theorem frame_ri : Cert.frame_ReferenceIdeal := fun m g _ =>
  (θ_run Cert.ReferenceIdeal.defs _ _).mono (fun _ h c => (h c).2) (Cert.ReferenceIdeal.Value.run (F := Ideal) m g)

/-- info: 'Cert.A2A.Ref.run' depends on axioms: [propext, Classical.choice, Quot.sound] -/
#guard_msgs in #print axioms run
/-- info: 'Cert.A2A.Ref.frame_ri' depends on axioms: [propext, Classical.choice, Quot.sound] -/
#guard_msgs in #print axioms frame_ri

end Cert.A2A.Ref

end
-- ==== Proof.PayIdx.lean ====
/-
  The per-device program's arithmetic, read one element at a time over the extended reals.

  Every tile the program computes is, at row r and column n, the tanh form of GELU applied to the inner product of
  row r of the device's block of x with column n of one 256-column panel of w; the tiles that travel between devices
  pass through a narrowing and a widening of the float format, which change nothing over the extended reals, and
  through casts that add or drop a leading axis of extent one, which only rename the index.
-/
import proofs.«900796_g7700000000000797_dist_gemm_a2a_m4096_k4096_n2048_f32_gelu_v7x_i8_1_alg».proof.Proof.Gen.KernelIdeal.Skeleton
import proofs.«900796_g7700000000000797_dist_gemm_a2a_m4096_k4096_n2048_f32_gelu_v7x_i8_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.A2A.Pay

open Cert.KernelIdeal Cert.KernelIdeal.Gen Idealize.ShloMosaic Idealize.ShloMosaic.ValueIdx
open scoped BigOperators

/-! ## The contraction's operand indices -/

/-- The left operand is read in the result's row … -/
theorem lhs_axis0 (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
/-- … at the contraction's coordinate. -/
theorem lhs_axis1 (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q
/-- The right operand is read at the contraction's coordinate … -/
theorem rhs_axis0 (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q
/-- … in the result's column. -/
theorem rhs_axis1 (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-! ## The inner product -/

/-- Row r of the block of x against column n of the panel of w. -/
def dot (x : Vec Ideal S512x4096 .f32) (wv : Vec Ideal S1x4096x256 .f32) (r : Fin 512) (n : Fin 256) : EReal :=
  ∑ k : Fin 4096, x (ix2 r k) * wv (ix3 0 k n)

/-- The matrix product into a zero accumulator, of the block of x and the panel with its leading unit axis dropped, is that inner product. -/
theorem matmul_zero_apply (x : Vec Ideal S512x4096 .f32) (wv : Vec Ideal S1x4096x256 .f32) (r : Fin 512) (n : Fin 256) :
    matmul (F := Ideal) (φ₁ := .f32) (φ₂ := .f32) dot_S512x4096_S4096x256_S512x256_1_0_0_1_n_n none x (shapeCast S4096x256 wv shapeCasts_S1x4096x256_S4096x256 : FVec Ideal S4096x256 .f32) (constant S512x256 .f32 0x00000000#32) (ix2 r n)
      = dot x wv r n := by
  show FloatOps.matmul (F := Ideal) (φ₁ := .f32) (φ₂ := .f32) dot_S512x4096_S4096x256_S512x256_1_0_0_1_n_n none x (shapeCast S4096x256 wv shapeCasts_S1x4096x256_S4096x256 : FVec Ideal S4096x256 .f32) (constant S512x256 .f32 0x00000000#32) (ix2 r n) = _
  rw [Ideal.matmul_constant_zero_apply, ← Equiv.sum_comp (contrEquiv1 dot_S512x4096_S4096x256_S512x256_1_0_0_1_n_n 4096 rfl rfl).symm]
  unfold dot
  refine Finset.sum_congr rfl fun k _ => ?_
  have hk := contrEquiv1_symm_val dot_S512x4096_S4096x256_S512x256_1_0_0_1_n_n 4096 rfl rfl k
  have el : dot_S512x4096_S4096x256_S512x256_1_0_0_1_n_n.lhsIdx (ix2 r n) ((contrEquiv1 dot_S512x4096_S4096x256_S512x256_1_0_0_1_n_n 4096 rfl rfl).symm k) = ix2 r k := funext fun a => Fin.ext (by
    match a with
    | ⟨0, _⟩ => exact lhs_axis0 _ _
    | ⟨1, _⟩ => exact (lhs_axis1 _ _).trans hk)
  have er : dot_S512x4096_S4096x256_S512x256_1_0_0_1_n_n.rhsIdx (ix2 r n) ((contrEquiv1 dot_S512x4096_S4096x256_S512x256_1_0_0_1_n_n 4096 rfl rfl).symm k) = ix2 k n := funext fun a => Fin.ext (by
    match a with
    | ⟨0, _⟩ => exact (rhs_axis0 _ _).trans hk
    | ⟨1, _⟩ => exact rhs_axis1 _ _)
  rw [el, er, shapeCast_1ab_ab_apply]

/-! ## The activation -/

/-- The program's chain of pointwise operations on a product tile m is GELU of m, element by element. -/
theorem gelu_chain (m : FVec Ideal S512x256 .f32) (j : S512x256.Idx) :
    mulf (mulf (broadcast S512x256 (Scalar.ofBits (F := Ideal) .f32 0x3F000000#32)) m)
      (addf (broadcast S512x256 (Scalar.ofBits (F := Ideal) .f32 0x3F800000#32))
        (tanh (mulf (broadcast S512x256 (Scalar.ofBits (F := Ideal) .f32 0x3F4C422A#32))
          (addf m (mulf (mulf (mulf (broadcast S512x256 (Scalar.ofBits (F := Ideal) .f32 0x3D372713#32)) m) m) m))))) j
      = gelu (m j) := rfl

/-! ## The tiles sent to the other devices -/

theorem pay1_apply (x : Vec Ideal S512x4096 .f32) (wv : Vec Ideal S1x4096x256 .f32) (r : Fin 512) (n : Fin 256) :
    k0_pay1 (F := Ideal) x wv (ix3 0 r n) = gelu (dot x wv r n) := by
  unfold k0_pay1
  rw [shapeCast_ab_1ab_apply, truncf_apply, gelu_chain, matmul_zero_apply]

theorem pay2_apply (x : Vec Ideal S512x4096 .f32) (wv : Vec Ideal S1x4096x256 .f32) (r : Fin 512) (n : Fin 256) :
    k0_pay2 (F := Ideal) x wv (ix3 0 r n) = gelu (dot x wv r n) := by
  unfold k0_pay2
  rw [shapeCast_ab_1ab_apply, truncf_apply, gelu_chain, matmul_zero_apply]

theorem pay3_apply (x : Vec Ideal S512x4096 .f32) (wv : Vec Ideal S1x4096x256 .f32) (r : Fin 512) (n : Fin 256) :
    k0_pay3 (F := Ideal) x wv (ix3 0 r n) = gelu (dot x wv r n) := by
  unfold k0_pay3
  rw [shapeCast_ab_1ab_apply, truncf_apply, gelu_chain, matmul_zero_apply]

theorem pay4_apply (x : Vec Ideal S512x4096 .f32) (wv : Vec Ideal S1x4096x256 .f32) (r : Fin 512) (n : Fin 256) :
    k0_pay4 (F := Ideal) x wv (ix3 0 r n) = gelu (dot x wv r n) := by
  unfold k0_pay4
  rw [shapeCast_ab_1ab_apply, truncf_apply, gelu_chain, matmul_zero_apply]

theorem pay7_apply (x : Vec Ideal S512x4096 .f32) (wv : Vec Ideal S1x4096x256 .f32) (r : Fin 512) (n : Fin 256) :
    k0_pay7 (F := Ideal) x wv (ix3 0 r n) = gelu (dot x wv r n) := by
  unfold k0_pay7
  rw [shapeCast_ab_1ab_apply, truncf_apply, gelu_chain, matmul_zero_apply]

theorem pay8_apply (x : Vec Ideal S512x4096 .f32) (wv : Vec Ideal S1x4096x256 .f32) (r : Fin 512) (n : Fin 256) :
    k0_pay8 (F := Ideal) x wv (ix3 0 r n) = gelu (dot x wv r n) := by
  unfold k0_pay8
  rw [shapeCast_ab_1ab_apply, truncf_apply, gelu_chain, matmul_zero_apply]

/-- The tile for slot 1 before its leading unit axis is added. -/
theorem pay5_apply (x : Vec Ideal S512x4096 .f32) (wv : Vec Ideal S1x4096x256 .f32) (r : Fin 512) (n : Fin 256) :
    k0_pay5 (F := Ideal) x wv (ix2 r n) = gelu (dot x wv r n) := by
  unfold k0_pay5
  rw [truncf_apply, gelu_chain, matmul_zero_apply]

/-- Adding the leading unit axis renames the index. -/
theorem pay6_apply (v : FVec Ideal S512x256 .bf16) (r : Fin 512) (n : Fin 256) :
    k0_pay6 (F := Ideal) v (ix3 0 r n) = v (ix2 r n) := by
  unfold k0_pay6
  rw [shapeCast_ab_1ab_apply]

/-! ## The tile the device keeps -/

theorem pay12_apply (x : Vec Ideal S512x4096 .f32) (wv : Vec Ideal S1x4096x256 .f32) (r : Fin 512) (n : Fin 256) :
    k0_pay12 (F := Ideal) (k0_pay9 x wv) (k0_pay10 x wv) (k0_pay11 x wv) (ix2 r n) = gelu (dot x wv r n) := by
  unfold k0_pay12 k0_pay11 k0_pay10
  rw [gelu_chain]
  unfold k0_pay9
  rw [matmul_zero_apply]

/-! ## The tiles received from the other devices -/

theorem pay13_apply (v : Vec Ideal S1x512x256 .bf16) (r : Fin 512) (n : Fin 256) :
    k0_pay13 (F := Ideal) v (ix2 r n) = v (ix3 0 r n) := by
  unfold k0_pay13
  rw [extf_apply, shapeCast_1ab_ab_apply]

theorem pay14_apply (v : Vec Ideal S1x512x256 .bf16) (r : Fin 512) (n : Fin 256) :
    k0_pay14 (F := Ideal) v (ix2 r n) = v (ix3 0 r n) := by
  unfold k0_pay14
  rw [extf_apply, shapeCast_1ab_ab_apply]

theorem pay15_apply (v : Vec Ideal S1x512x256 .bf16) (r : Fin 512) (n : Fin 256) :
    k0_pay15 (F := Ideal) v (ix2 r n) = v (ix3 0 r n) := by
  unfold k0_pay15
  rw [extf_apply, shapeCast_1ab_ab_apply]

theorem pay16_apply (v : Vec Ideal S1x512x256 .bf16) (r : Fin 512) (n : Fin 256) :
    k0_pay16 (F := Ideal) v (ix2 r n) = v (ix3 0 r n) := by
  unfold k0_pay16
  rw [extf_apply, shapeCast_1ab_ab_apply]

theorem pay17_apply (v : Vec Ideal S1x512x256 .bf16) (r : Fin 512) (n : Fin 256) :
    k0_pay17 (F := Ideal) v (ix2 r n) = v (ix3 0 r n) := by
  unfold k0_pay17
  rw [extf_apply, shapeCast_1ab_ab_apply]

theorem pay18_apply (v : Vec Ideal S1x512x256 .bf16) (r : Fin 512) (n : Fin 256) :
    k0_pay18 (F := Ideal) v (ix2 r n) = v (ix3 0 r n) := by
  unfold k0_pay18
  rw [extf_apply, shapeCast_1ab_ab_apply]

theorem pay20_apply (v : Vec Ideal S1x512x256 .bf16) (r : Fin 512) (n : Fin 256) :
    k0_pay20 (F := Ideal) (k0_pay19 v) (ix2 r n) = v (ix3 0 r n) := by
  unfold k0_pay20 k0_pay19
  rw [extf_apply, shapeCast_1ab_ab_apply]

/-- info: 'Cert.A2A.Pay.pay1_apply' depends on axioms: [propext, Classical.choice, Quot.sound] -/
#guard_msgs in #print axioms pay1_apply
/-- info: 'Cert.A2A.Pay.pay12_apply' depends on axioms: [propext, Classical.choice, Quot.sound] -/
#guard_msgs in #print axioms pay12_apply
/-- info: 'Cert.A2A.Pay.pay20_apply' depends on axioms: [propext, Classical.choice, Quot.sound] -/
#guard_msgs in #print axioms pay20_apply

end Cert.A2A.Pay

end
-- ==== Proof.ValueJoin.lean ====
/-
  Each device's result block is its block of the whole-array result.

  The whole result is the 4096 × 2048 array whose entry (i, j) is gelu (Σₖ x[i,k] · w[k,j]); device c must end with
  its columns 256c .. 256c + 255, all 4096 rows. Write a row as 512b + r with b one of the eight row blocks and r a
  row inside it. Device c's result holds, in row block b, the tile that device b computed for column block c: for
  b = c its own tile, kept at full width; for b ≠ c the tile received in the slot of the mask b xor c, which is the
  tile its sender, device c xor (b xor c) = b, computed for c, narrowed and widened back, neither of which changes a
  value over the extended reals. That tile's entry (r, n) is gelu of row r of device b's block of x against column n of
  the panel 256c .. of device b's copy of w. Device b's block of x is rows 512b .. of x and every copy of w is w, so
  the entry is gelu (Σₖ x[512b + r, k] · w[k, 256c + n]): the whole result's entry (512b + r, 256c + n).
-/
import proofs.«900796_g7700000000000797_dist_gemm_a2a_m4096_k4096_n2048_f32_gelu_v7x_i8_1_alg».proof.Defs
import proofs.«900796_g7700000000000797_dist_gemm_a2a_m4096_k4096_n2048_f32_gelu_v7x_i8_1_alg».proof.Proof.Vals
import proofs.«900796_g7700000000000797_dist_gemm_a2a_m4096_k4096_n2048_f32_gelu_v7x_i8_1_alg».proof.Proof.PayIdx
import proofs.«900796_g7700000000000797_dist_gemm_a2a_m4096_k4096_n2048_f32_gelu_v7x_i8_1_alg».proof.Proof.RefVal
import proofs.«900796_g7700000000000797_dist_gemm_a2a_m4096_k4096_n2048_f32_gelu_v7x_i8_1_alg».proof.Proof.DevEq
import proofs.«900796_g7700000000000797_dist_gemm_a2a_m4096_k4096_n2048_f32_gelu_v7x_i8_1_alg».proof.Proof.Spec
import Idealize.ShloMosaic.Lib.Layout
import Idealize.ShloMosaic.Lib.ValueIdx

noncomputable section

namespace Cert.A2A.Join

open Idealize.ShloMosaic Idealize.ShloMosaic.TcCoe Idealize.ShloMosaic.ValueIdx
open Cert.KernelIdeal Cert.KernelIdeal.Gen Cert.KernelIdeal.A2A
open scoped BigOperators

/-! ## Rows, columns and masks -/

/-- Row r of row block b of the whole arrays. -/
abbrev row (b : Fin 8) (r : Fin 512) : Fin 4096 :=
  ⟨512 * b.val + r.val, by have hb := b.isLt; have hr := r.isLt; omega⟩

/-- Column n of column block p of the whole arrays. -/
abbrev col (p : Fin 8) (n : Fin 256) : Fin 2048 :=
  ⟨256 * p.val + n.val, by have hp := p.isLt; have hn := n.isLt; omega⟩

/-- The mask between row block b and device c: b xor c. -/
abbrev mask (b c : Fin 8) : Fin 8 :=
  ⟨b.val ^^^ c.val, Nat.xor_lt_two_pow (n := 3) b.isLt c.isLt⟩

/-- The device that c meets at the mask b xor c is b. -/
theorem px_mask (c b : Dev nD) : px c (mask b c) = b := by
  revert c b; decide +kernel

/-- Every row is row r of a row block b. -/
theorem exists_row (ρ : Fin 4096) : ∃ (b : Fin 8) (r : Fin 512), ρ = row b r :=
  ⟨⟨ρ.val / 512, by have h := ρ.isLt; omega⟩, ⟨ρ.val % 512, Nat.mod_lt _ (by decide)⟩,
    Fin.ext (by show ρ.val = 512 * (ρ.val / 512) + ρ.val % 512; omega)⟩

/-! ## The arguments, entry by entry -/

/-- Device d's block of x is rows 512d .. of x. -/
theorem x_entry (m : (ℓ : Loc nD τ sig) → Buf (Elt Ideal) ℓ) (X : FVec Ideal ⟨2, ![4096, 4096]⟩ .f32)
    (hx : ∀ d : Dev nD, xV (F := Ideal) m d = Layout.block ⟨2, ![512, 4096]⟩ ⟨2, ![4096, 4096]⟩ 0 8 d X)
    (d : Dev nD) (r : Fin 512) (k : Fin 4096) :
    xV (F := Ideal) m d (ix2 r k) = X (ix2 (row d r) k) := by
  rw [hx d]
  show X _ = X _
  congr 1
  funext a
  refine Fin.ext ?_
  match a with
  | ⟨0, _⟩ => show d.val * 512 + r.val = 512 * d.val + r.val; omega
  | ⟨1, _⟩ => rfl

/-- The panel of device d's copy of w for column block p is columns 256p .. of w. -/
theorem w_entry (m : (ℓ : Loc nD τ sig) → Buf (Elt Ideal) ℓ) (W : FVec Ideal ⟨2, ![4096, 2048]⟩ .f32)
    (hw : ∀ d : Dev nD, wV (F := Ideal) m d = W)
    (d p : Dev nD) (k : Fin 4096) (n : Fin 256) :
    wSlot (F := Ideal) m d p (ix3 0 k n) = W (ix2 k (col p n)) :=
  congrFun (hw d) (ix2 k (col p n))

/-- Row r of device d's block of x against column n of its panel for column block p: the inner product of row
    512d + r of x with column 256p + n of w. -/
theorem dot_eq (m : (ℓ : Loc nD τ sig) → Buf (Elt Ideal) ℓ)
    (X : FVec Ideal ⟨2, ![4096, 4096]⟩ .f32) (W : FVec Ideal ⟨2, ![4096, 2048]⟩ .f32)
    (hx : ∀ d : Dev nD, xV (F := Ideal) m d = Layout.block ⟨2, ![512, 4096]⟩ ⟨2, ![4096, 4096]⟩ 0 8 d X)
    (hw : ∀ d : Dev nD, wV (F := Ideal) m d = W)
    (d p : Dev nD) (r : Fin 512) (n : Fin 256) :
    Pay.dot (xV (F := Ideal) m d) (wSlot (F := Ideal) m d p) r n
      = ∑ k : Fin 4096, X (ix2 (row d r) k) * W (ix2 k (col p n)) := by
  unfold Pay.dot
  exact Finset.sum_congr rfl fun k _ => by rw [x_entry m X hx d r k, w_entry m W hw d p k n]

/-! ## The tiles, entry by entry -/

/-- The tile a device keeps. -/
theorem tileF_entry (m : (ℓ : Loc nD τ sig) → Buf (Elt Ideal) ℓ) (c : Dev nD) (r : Fin 512) (n : Fin 256) :
    tileF (F := Ideal) m c (ix2 r n) = gelu (Pay.dot (xV (F := Ideal) m c) (wSlot (F := Ideal) m c c) r n) := by
  unfold tileF
  exact Pay.pay12_apply _ _ r n

/-- The tile device d computes for column block p and sends. -/
theorem tileB_entry (m : (ℓ : Loc nD τ sig) → Buf (Elt Ideal) ℓ) (d p : Dev nD) (r : Fin 512) (n : Fin 256) :
    tileB (F := Ideal) m d p (ix3 0 r n) = gelu (Pay.dot (xV (F := Ideal) m d) (wSlot (F := Ideal) m d p) r n) := by
  unfold tileB
  exact Pay.pay1_apply _ _ r n

/-- What device c reads back from slot t of its receive buffer: the tile its partner at mask t computed for c. -/
theorem recv_entry (m : (ℓ : Loc nD τ sig) → Buf (Elt Ideal) ℓ) (c : Dev nD) (t : Fin 8) (r : Fin 512) (n : Fin 256) :
    k0_pay13 (F := Ideal) (recvSlot (F := Ideal) m c t) (ix2 r n)
      = gelu (Pay.dot (xV (F := Ideal) m (px c t)) (wSlot (F := Ideal) m (px c t) c) r n) := by
  rw [Pay.pay13_apply]
  exact tileB_entry m (px c t) c r n

/-! ## The result block, entry by entry -/

/-- Device c's result at a row whose row block is b and whose row inside the block is r. -/
theorem outV_apply (m : (ℓ : Loc nD τ sig) → Buf (Elt Ideal) ℓ) (c : Dev nD) (ρ : Fin 4096) (n : Fin 256)
    (b : Fin 8) (r : Fin 512) (hb : ρ.val / 512 = b.val) (hr : ρ.val % 512 = r.val) :
    outV (F := Ideal) m c (ix2 ρ n) =
      if b.val = c.val then tileF (F := Ideal) m c (ix2 r n)
      else k0_pay13 (F := Ideal) (recvSlot (F := Ideal) m c (mask b c)) (ix2 r n) := by
  obtain ⟨bv, hbv⟩ := b
  obtain ⟨rv, hrv⟩ := r
  dsimp only at hb hr
  subst hb hr
  rfl

/-- Row block b of device c's result is the tile device b computed for column block c. -/
theorem outV_entry (m : (ℓ : Loc nD τ sig) → Buf (Elt Ideal) ℓ) (c b : Dev nD) (r : Fin 512) (n : Fin 256) :
    outV (F := Ideal) m c (ix2 (row b r) n)
      = gelu (Pay.dot (xV (F := Ideal) m b) (wSlot (F := Ideal) m b c) r n) := by
  have hr := r.isLt
  rw [outV_apply m c (row b r) n b r
    (by show (512 * b.val + r.val) / 512 = b.val; omega)
    (by show (512 * b.val + r.val) % 512 = r.val; omega)]
  by_cases h : b.val = c.val
  · obtain rfl : b = c := Fin.ext h
    rw [if_pos rfl, tileF_entry]
  · rw [if_neg h, recv_entry, px_mask]

/-- Entry (512b + r, n) of device c's result is entry (512b + r, 256c + n) of the whole result. -/
theorem block_entry (m : (ℓ : Loc nD τ sig) → Buf (Elt Ideal) ℓ)
    (X : FVec Ideal ⟨2, ![4096, 4096]⟩ .f32) (W : FVec Ideal ⟨2, ![4096, 2048]⟩ .f32)
    (hx : ∀ d : Dev nD, xV (F := Ideal) m d = Layout.block ⟨2, ![512, 4096]⟩ ⟨2, ![4096, 4096]⟩ 0 8 d X)
    (hw : ∀ d : Dev nD, wV (F := Ideal) m d = W)
    (c b : Dev nD) (r : Fin 512) (n : Fin 256) :
    outV (F := Ideal) m c (ix2 (row b r) n) = Cert.A2A.Ref.G X W (ix2 (row b r) (col c n)) := by
  rw [outV_entry, dot_eq m X W hx hw, Cert.A2A.Ref.G_apply]

/-! ## The block equation -/

/-- From memories where each device holds its block of x and a copy of w, device c's result is block c, along the
    columns, of the whole result. -/
theorem out_block (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1))
    (c : Dev Cert.KernelIdeal.nD) :
    Cert.KernelIdeal.A2A.outV (F := Ideal) m c
      = Layout.block ⟨2, ![4096, 256]⟩ ⟨2, ![4096, 2048]⟩ 1 8 c
          (Cert.A2A.Ref.G (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))) := by
  funext i
  obtain ⟨ρ, n, rfl⟩ : ∃ (ρ : Fin 4096) (n : Fin 256), i = ix2 ρ n := ⟨i 0, i 1, eq_ix2 (n0 := 4096) (n1 := 256) i⟩
  obtain ⟨b, r, rfl⟩ := exists_row ρ
  rw [block_entry m _ _ (fun d => (hagree d).1) (fun d => (hagree d).2) c b r n]
  show Cert.A2A.Ref.G _ _ _ = Cert.A2A.Ref.G _ _ _
  congr 1
  funext a
  refine Fin.ext ?_
  match a with
  | ⟨0, _⟩ => rfl
  | ⟨1, _⟩ => show 256 * c.val + n.val = c.val * 256 + n.val; omega

/-- info: 'Cert.A2A.Join.out_block' depends on axioms: [propext, Classical.choice, Quot.sound] -/
#guard_msgs in #print axioms out_block

end Cert.A2A.Join

end
-- ==== Proof.lean ====
/-
  The claim of this certificate, assembled from its parts.

  Eight devices compute gelu (x · w) for x of 4096 × 4096 and w of 4096 × 2048 entries. Device c holds rows 512c .. of x
  and a copy of w, and must end with columns 256c .. of the result, all 4096 rows. For each of the eight masks t it
  forms the 512 × 256 tile gelu (its rows of x · columns 256p .. of w) for the device p = c xor t. The tile for itself
  (t = 0) it keeps at full width in row block c of its result; each of the seven others it narrows to 16 bits, puts in
  slot t of its send buffer and copies into slot t of p's receive buffer. Then it waits for its own seven slots and
  widens slot t into row block c xor t of its result. The whole-array program forms x · w and the same GELU on one
  device.

  The five conjuncts.
  1, 2. The per-device program, at the word level and read over the extended reals, terminates under every weakly fair
        interleaving of the eight devices, nothing faulting, with both arguments as they were. One text serves both:
        it is generic in the float operations, and the arguments are only read. The body of one device is stepped once,
        at a symbolic device, and the launch theorem turns that into the run of all eight.
  3.    The whole-array program is a sequence of host operations that write only their own results: it terminates
        with both arguments as they were.
  4.    The reading over the extended reals rewrote no operation of the per-device program: nothing to preserve.
  5.    Over the extended reals the whole-array program ends with the array G x w whose entry (i, j) is
        gelu (Σₖ x[i,k] · w[k,j]). Device c ends with, in row block b, the tile device b computed for column block c:
        its own for b = c, and for b ≠ c the one received at the mask b xor c, whose sender is c xor (b xor c) = b.
        Narrowing and widening change no value over the extended reals. Device b's rows of x are rows 512b .. of x and
        its w is w, so entry (512b + r, n) of device c's result is gelu (Σₖ x[512b + r, k] · w[k, 256c + n]), entry
        (512b + r, 256c + n) of G x w: device c holds column block c of it. The two programs group the cube inside GELU
        differently, a · ((y · y) · y) against ((a · y) · y) · y; the product of extended reals is associative, at the
        infinities too, so no finiteness of the inputs is used.
-/
import proofs.«900796_g7700000000000797_dist_gemm_a2a_m4096_k4096_n2048_f32_gelu_v7x_i8_1_alg».proof.Defs
import proofs.«900796_g7700000000000797_dist_gemm_a2a_m4096_k4096_n2048_f32_gelu_v7x_i8_1_alg».proof.Proof.Gen.Kernel
import proofs.«900796_g7700000000000797_dist_gemm_a2a_m4096_k4096_n2048_f32_gelu_v7x_i8_1_alg».proof.Proof.Gen.KernelIdeal
import proofs.«900796_g7700000000000797_dist_gemm_a2a_m4096_k4096_n2048_f32_gelu_v7x_i8_1_alg».proof.Proof.Gen.ReferenceIdeal
import proofs.«900796_g7700000000000797_dist_gemm_a2a_m4096_k4096_n2048_f32_gelu_v7x_i8_1_alg».proof.Proof.Gen.Pre_finite_inputs_Kernel
import proofs.«900796_g7700000000000797_dist_gemm_a2a_m4096_k4096_n2048_f32_gelu_v7x_i8_1_alg».proof.Proof.Gen.Pre_finite_inputs_ReferenceIdeal
import proofs.«900796_g7700000000000797_dist_gemm_a2a_m4096_k4096_n2048_f32_gelu_v7x_i8_1_alg».proof.Proof.Launch
import proofs.«900796_g7700000000000797_dist_gemm_a2a_m4096_k4096_n2048_f32_gelu_v7x_i8_1_alg».proof.Proof.LaunchB
import proofs.«900796_g7700000000000797_dist_gemm_a2a_m4096_k4096_n2048_f32_gelu_v7x_i8_1_alg».proof.Proof.RefVal
import proofs.«900796_g7700000000000797_dist_gemm_a2a_m4096_k4096_n2048_f32_gelu_v7x_i8_1_alg».proof.Proof.ValueJoin

noncomputable section

namespace Cert.Proof

open Idealize.ShloMosaic Idealize.SL.Sem

/-- The per-device program at the word level runs and leaves its two arguments as they were. -/
theorem frame_k : Cert.frame_Kernel := fun m g _ => Cert.Kernel.A2A.frame_run (F := Bits) m g

/-- The same program read over the extended reals runs and leaves its two arguments as they were. -/
theorem frame_ki : Cert.frame_KernelIdeal := fun m g _ => Cert.KernelIdeal.A2A.frame_run (F := Ideal) m g

/-- The whole-array program runs and leaves its two arguments as they were. -/
theorem frame_ri : Cert.frame_ReferenceIdeal := Cert.A2A.Ref.frame_ri

/-- No operation of the per-device program was rewritten for the reading over the extended reals. -/
theorem preserves : Cert.preserves_Kernel_KernelIdeal := trivial

/-- Over the extended reals, from memories where device c holds rows 512c .. of x and a copy of w, the whole-array
    program ends with G x w and device c ends with columns 256c .. of it. -/
theorem algebraic : Cert.algebraic_KernelIdeal_ReferenceIdeal := by
  intro m g m' g' _ hagree
  refine ⟨Cert.A2A.Ref.G
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    ?_, Cert.A2A.Ref.run m' g'⟩
  exact (θ_run Cert.KernelIdeal.defs _ _).mono
    (fun _ h c => ⟨(h c).1.trans (Cert.A2A.Join.out_block m m' hagree c), (h c).2⟩)
    (Cert.KernelIdeal.A2A.run_main (F := Ideal) m g)

theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    frame_k, frame_ki, frame_ri, preserves, algebraic⟩

end Cert.Proof

end
